-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S1x100x4x8 : Shape := ⟨4, ![1, 100, 4, 8]⟩
abbrev S8x100x4x8 : Shape := ⟨4, ![8, 100, 4, 8]⟩
abbrev S8x100x4x1 : Shape := ⟨4, ![8, 100, 4, 1]⟩
abbrev S_ : Shape := ⟨0, ![]⟩

class Facts : Prop where
  bcast_S_S1x100x4x8 : S_.BroadcastsInDim S1x100x4x8 (![] : Fin 0 → Fin S1x100x4x8.rank)
  reducesTo_S1x100x4x8_S_d0_1_2_3 : S1x100x4x8.ReducesTo [0, 1, 2, 3] S_
  h_S_ : 0 < S_.numel
  bcast_S_S8x100x4x8 : S_.BroadcastsInDim S8x100x4x8 (![] : Fin 0 → Fin S8x100x4x8.rank)
  reducesTo_S8x100x4x8_S_d0_1_2_3 : S8x100x4x8.ReducesTo [0, 1, 2, 3] S_
  bcast_S_S8x100x4x1 : S_.BroadcastsInDim S8x100x4x1 (![] : Fin 0 → Fin S8x100x4x1.rank)
  reducesTo_S8x100x4x1_S_d0_1_2_3 : S8x100x4x1.ReducesTo [0, 1, 2, 3] S_
  bcast_S_S16384x26 : S_.BroadcastsInDim S16384x26 (![] : Fin 0 → Fin S16384x26.rank)
  reducesTo_S16384x26_S_d0_1 : S16384x26.ReducesTo [0, 1] S_

variable [Facts]

def fn_part1 {F : FTy → Type} [FloatOps F] (main_arg0 : IVec S16384x26 32) (main_v13 : IVec S_ 1) (main_v15 : IVec S16384x26 1) (main_c_5 : IVec S_ 32) : IVec S_ 1 :=
  let main_v16 : IVec S16384x26 32 := broadcastInDim S16384x26 ![] bcast_S_S16384x26 main_c_5
  let main_v17 : IVec S16384x26 1 := cmpi .sle main_arg0 main_v16
  let main_v18 : IVec S16384x26 1 := andi main_v15 main_v17
  let main_c_6 : IVec S_ 1 := constantI S_ 1 1#1
  let main_v19 : IVec S_ 1 := (fun x v => Host.reduce IntOp.andi x v reducesTo_S16384x26_S_d0_1 h_S_) main_v18 main_c_6
  let main_v20 : IVec S_ 1 := andi main_v13 main_v19
  main_v20

def fn {F : FTy → Type} [FloatOps F] (main_arg0 : IVec S16384x26 32) (main_arg1 : FVec F S1x100x4x8 .f32) (main_arg2 : FVec F S8x100x4x8 .f32) (main_arg3 : FVec F S8x100x4x1 .f32) : IVec S_ 1 :=
  let main_v0 : FVec F S1x100x4x8 .f32 := Host.absf main_arg1
  let main_cst : FVec F S_ .f32 := constant S_ .f32 0x7F800000#32
  let main_v1 : FVec F S1x100x4x8 .f32 := broadcastInDim S1x100x4x8 ![] bcast_S_S1x100x4x8 main_cst
  let main_v2 : IVec S1x100x4x8 1 := cmpf .olt main_v0 main_v1
  let main_c : IVec S_ 1 := constantI S_ 1 1#1
  let main_v3 : IVec S_ 1 := (fun x v => Host.reduce IntOp.andi x v reducesTo_S1x100x4x8_S_d0_1_2_3 h_S_) main_v2 main_c
  let main_v4 : FVec F S8x100x4x8 .f32 := Host.absf main_arg2
  let main_cst_0 : FVec F S_ .f32 := constant S_ .f32 0x7F800000#32
  let main_v5 : FVec F S8x100x4x8 .f32 := broadcastInDim S8x100x4x8 ![] bcast_S_S8x100x4x8 main_cst_0
  let main_v6 : IVec S8x100x4x8 1 := cmpf .olt main_v4 main_v5
  let main_c_1 : IVec S_ 1 := constantI S_ 1 1#1
  let main_v7 : IVec S_ 1 := (fun x v => Host.reduce IntOp.andi x v reducesTo_S8x100x4x8_S_d0_1_2_3 h_S_) main_v6 main_c_1
  let main_v8 : IVec S_ 1 := andi main_v3 main_v7
  let main_v9 : FVec F S8x100x4x1 .f32 := Host.absf main_arg3
  let main_cst_2 : FVec F S_ .f32 := constant S_ .f32 0x7F800000#32
  let main_v10 : FVec F S8x100x4x1 .f32 := broadcastInDim S8x100x4x1 ![] bcast_S_S8x100x4x1 main_cst_2
  let main_v11 : IVec S8x100x4x1 1 := cmpf .olt main_v9 main_v10
  let main_c_3 : IVec S_ 1 := constantI S_ 1 1#1
  let main_v12 : IVec S_ 1 := (fun x v => Host.reduce IntOp.andi x v reducesTo_S8x100x4x1_S_d0_1_2_3 h_S_) main_v11 main_c_3
  let main_v13 : IVec S_ 1 := andi main_v8 main_v12
  let main_c_4 : IVec S_ 32 := constantI S_ 32 0#32
  let main_v14 : IVec S16384x26 32 := broadcastInDim S16384x26 ![] bcast_S_S16384x26 main_c_4
  let main_v15 : IVec S16384x26 1 := cmpi .sge main_arg0 main_v14
  let main_c_5 : IVec S_ 32 := constantI S_ 32 999999#32
  fn_part1 (F := F) main_arg0 main_v13 main_v15 main_c_5
-- ==== Kernel.lean ====
abbrev S16384x26 : Shape := ⟨2, ![16384, 26]⟩
abbrev S1x100x4x8 : Shape := ⟨4, ![1, 100, 4, 8]⟩
abbrev S8x100x4x8 : Shape := ⟨4, ![8, 100, 4, 8]⟩
abbrev S8x100x4x1 : Shape := ⟨4, ![8, 100, 4, 1]⟩
abbrev S100x4x8 : Shape := ⟨3, ![100, 4, 8]⟩
abbrev S100x32 : Shape := ⟨2, ![100, 32]⟩
abbrev S4x4 : Shape := ⟨2, ![4, 4]⟩
abbrev S_ : Shape := ⟨0, ![]⟩
abbrev S4x1x1x4x1x1 : Shape := ⟨6, ![4, 1, 1, 4, 1, 1]⟩
abbrev S1x8x100x1x4x8 : Shape := ⟨6, ![1, 8, 100, 1, 4, 8]⟩
abbrev S4x8x100x4x4x8 : Shape := ⟨6, ![4, 8, 100, 4, 4, 8]⟩
abbrev S32x12800 : Shape := ⟨2, ![32, 12800]⟩
abbrev S100x12800 : Shape := ⟨2, ![100, 12800]⟩
abbrev S10000x128 : Shape := ⟨2, ![10000, 128]⟩
abbrev S8x100x4 : Shape := ⟨3, ![8, 100, 4]⟩
abbrev S100x8x4 : Shape := ⟨3, ![100, 8, 4]⟩
abbrev S100x33 : Shape := ⟨2, ![100, 33]⟩
abbrev S3300 : Shape := ⟨1, ![3300]⟩
abbrev S3304 : Shape := ⟨1, ![3304]⟩
abbrev S425984 : Shape := ⟨1, ![425984]⟩
abbrev S27262976 : Shape := ⟨1, ![27262976]⟩
abbrev S13312 : Shape := ⟨1, ![13312]⟩
abbrev S128 : Shape := ⟨1, ![128]⟩
abbrev S128x128 : Shape := ⟨2, ![128, 128]⟩
abbrev S8192 : Shape := ⟨1, ![8192]⟩
abbrev S16 : Shape := ⟨1, ![16]⟩
abbrev S16384x26x64 : Shape := ⟨3, ![16384, 26, 64]⟩

abbrev nBuf : Table → Nat
  | .hbm => 34
  | .local .tc .vmem => 3
  | .local .scVector .vmem => 10
  | _ => 0

abbrev bufTy : (tb : Table) → Fin (nBuf tb) → BufTy
  | .hbm, ⟨0, _⟩ => ⟨S16384x26, .i32⟩
  | .hbm, ⟨1, _⟩ => ⟨S1x100x4x8, .f32⟩
  | .hbm, ⟨2, _⟩ => ⟨S8x100x4x8, .f32⟩
  | .hbm, ⟨3, _⟩ => ⟨S8x100x4x1, .f32⟩
  | .hbm, ⟨4, _⟩ => ⟨S100x4x8, .f32⟩
  | .hbm, ⟨5, _⟩ => ⟨S100x32, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S4x1x1x4x1x1, .f32⟩
  | .hbm, ⟨14, _⟩ => ⟨S1x8x100x1x4x8, .f32⟩
  | .hbm, ⟨15, _⟩ => ⟨S4x8x100x4x4x8, .f32⟩
  | .hbm, ⟨16, _⟩ => ⟨S4x8x100x4x4x8, .f32⟩
  | .hbm, ⟨17, _⟩ => ⟨S4x8x100x4x4x8, .f32⟩
  | .hbm, ⟨18, _⟩ => ⟨S32x12800, .f32⟩
  | .hbm, ⟨19, _⟩ => ⟨S100x12800, .f32⟩
  | .hbm, ⟨20, _⟩ => ⟨S10000x128, .f32⟩
  | .hbm, ⟨21, _⟩ => ⟨S8x100x4, .f32⟩
  | .hbm, ⟨22, _⟩ => ⟨S100x8x4, .f32⟩
  | .hbm, ⟨23, _⟩ => ⟨S100x32, .f32⟩
  | .hbm, ⟨24, _⟩ => ⟨S_, .i32⟩
  | .hbm, ⟨25, _⟩ => ⟨S_, .f32⟩
  | .hbm, ⟨26, _⟩ => ⟨S100x33, .f32⟩
  | .hbm, ⟨27, _⟩ => ⟨S3300, .f32⟩
  | .hbm, ⟨28, _⟩ => ⟨S_, .i32⟩
  | .hbm, ⟨29, _⟩ => ⟨S_, .f32⟩
  | .hbm, ⟨30, _⟩ => ⟨S3304, .f32⟩
  | .hbm, ⟨31, _⟩ => ⟨S425984, .i32⟩
  | .hbm, ⟨32, _⟩ => ⟨S27262976, .f32⟩
  | .hbm, ⟨33, _⟩ => ⟨S16384x26x64, .f32⟩
  | .local .tc .vmem, ⟨0, _⟩ => ⟨S100x32, .f32⟩
  | .local .tc .vmem, ⟨1, _⟩ => ⟨S32x12800, .f32⟩
  | .local .tc .vmem, ⟨2, _⟩ => ⟨S100x12800, .f32⟩
  | .local .scVector .vmem, ⟨0, _⟩ => ⟨S13312, .i32⟩
  | .local .scVector .vmem, ⟨1, _⟩ => ⟨S3304, .f32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128, .i32⟩
  | .local .scVector .vmem, ⟨6, _⟩ => ⟨S128x128, .f32⟩
  | .local .scVector .vmem, ⟨7, _⟩ => ⟨S128x128, .f32⟩
  | .local .scVector .vmem, ⟨8, _⟩ => ⟨S8192, .f32⟩
  | .local .scVector .vmem, ⟨9, _⟩ => ⟨S8192, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_call1_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v22_scv : Ref sig .scVector := ⟨.hbm, 31, rfl⟩
abbrev main_v15_scv : Ref sig .scVector := ⟨.hbm, 20, rfl⟩
abbrev main_v21_scv : Ref sig .scVector := ⟨.hbm, 30, rfl⟩
abbrev main_v23_scv : Ref sig .scVector := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S100x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  ![v2.toNat]
@[reducible] def k1_t1_loop : Scf.Loop 32 :=
  let c0_i32_40 : BitVec 32 := 0#32
  let c52_i32 : BitVec 32 := 52#32
  let v100 : BitVec 32 := Scalar.addi c0_i32_40 c52_i32
  let c1_i32 : BitVec 32 := 1#32
  ⟨c0_i32_40, v100, c1_i32⟩
def k1_cond1 (k1_t1 : Fin k1_t1_loop.trips) : BitVec 1 :=
  let c2_i32_43 : BitVec 32 := 2#32
  let c0_i32_40 : BitVec 32 := 0#32
  let c1_i32 : BitVec 32 := 1#32
  let arg20 : BitVec 32 := Scf.iv c0_i32_40 c1_i32 k1_t1
  let v107 : BitVec 32 := Scalar.muli c2_i32_43 arg20
  let c0_i32_44 : BitVec 32 := 0#32
  let v108 : BitVec 32 := Scalar.addi v107 c0_i32_44
  let c1_i32_45 : BitVec 32 := 1#32
  let v109 : BitVec 32 := Scalar.addi v108 c1_i32_45
  let c104_i32 : BitVec 32 := 104#32
  let v110 : BitVec 1 := Scalar.cmpi .slt v109 c104_i32
  let v111 : BitVec 32 := Scalar.extui v110
  let c0_i32_46 : BitVec 32 := 0#32
  let v112 : BitVec 1 := Scalar.cmpi .ne v111 c0_i32_46
  v112

def k1_off2 (k1_t1 : Fin k1_t1_loop.trips) (c0_i32_119 : BitVec 32) : Fin 1 → Nat :=
  let c2_i32_43 : BitVec 32 := 2#32
  let c0_i32_40 : BitVec 32 := 0#32
  let c1_i32 : BitVec 32 := 1#32
  let arg20 : BitVec 32 := Scf.iv c0_i32_40 c1_i32 k1_t1
  let v107 : BitVec 32 := Scalar.muli c2_i32_43 arg20
  let c0_i32_44 : BitVec 32 := 0#32
  let v108 : BitVec 32 := Scalar.addi v107 c0_i32_44
  let c1_i32_117 : BitVec 32 := 1#32
  let v241 : BitVec 32 := Scalar.addi v108 c1_i32_117
  let c128_i32_118 : BitVec 32 := 128#32
  let v242 : BitVec 32 := Scalar.muli v241 c128_i32_118
  let v243 : BitVec 32 := Scalar.addi v242 c0_i32_119
  let v244 : Index := Scalar.indexCast v243
  ![v244.toNat]
def k1_cond2 (k1_t1 : Fin k1_t1_loop.trips) : BitVec 1 :=
  let c2_i32_43 : BitVec 32 := 2#32
  let c0_i32_40 : BitVec 32 := 0#32
  let c1_i32 : BitVec 32 := 1#32
  let arg20 : BitVec 32 := Scf.iv c0_i32_40 c1_i32 k1_t1
  let v107 : BitVec 32 := Scalar.muli c2_i32_43 arg20
  let c0_i32_44 : BitVec 32 := 0#32
  let v108 : BitVec 32 := Scalar.addi v107 c0_i32_44
  let c2_i32_49 : BitVec 32 := 2#32
  let v114 : BitVec 1 := Scalar.cmpi .sge v108 c2_i32_49
  let v115 : BitVec 32 := Scalar.extui v114
  let c0_i32_50 : BitVec 32 := 0#32
  let v116 : BitVec 1 := Scalar.cmpi .ne v115 c0_i32_50
  v116

def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c64_i32_117 : BitVec 32 := 64#32
  let v241 : BitVec 32 := Scalar.muli v2 c64_i32_117
  ![v241.toNat]
@[reducible] def k1_t2_loop : Scf.Loop 32 :=
  let c0_i32_72 : BitVec 32 := 0#32
  let c8_i32 : BitVec 32 := 8#32
  let v168 : BitVec 32 := Scalar.addi c0_i32_72 c8_i32
  let c1_i32_73 : BitVec 32 := 1#32
  ⟨c0_i32_72, v168, c1_i32_73⟩
def k1_off4 (k1_t2 : Fin k1_t2_loop.trips) : Fin 1 → Nat :=
  let c0_i32_72 : BitVec 32 := 0#32
  let c1_i32_73 : BitVec 32 := 1#32
  let arg21 : BitVec 32 := Scf.iv c0_i32_72 c1_i32_73 k1_t2
  let c16_i32_118 : BitVec 32 := 16#32
  let v246 : BitVec 32 := Scalar.muli arg21 c16_i32_118
  let v247 : Index := Scalar.indexCast v246
  ![v247.toNat]

def k1_chk1 (v275 : IVec S16 32) : Prop :=
  (∀ a x, ((![v275] : Fin 1 → IVec S16 32) a x).toNat < S3304.size a)
instance k1_chk1.dec : ∀ (v275 : IVec S16 32), Decidable (k1_chk1 v275) := fun v275 => decidable_of_iff' _ (Iff.of_eq (k1_chk1.eq_1 v275))
theorem k1_idx1_inb : ∀ (v275 : IVec S16 32) (k1_hw1 : k1_chk1 v275), ∀ a x, ((![v275] : Fin 1 → IVec S16 32) a x).toNat < S3304.size a := fun v275 k1_hw1 => k1_hw1

def k1_chk2 (v277 : IVec S16 32) : Prop :=
  (∀ a x, ((![v277] : Fin 1 → IVec S16 32) a x).toNat < S3304.size a)
instance k1_chk2.dec : ∀ (v277 : IVec S16 32), Decidable (k1_chk2 v277) := fun v277 => decidable_of_iff' _ (Iff.of_eq (k1_chk2.eq_1 v277))
theorem k1_idx2_inb : ∀ (v277 : IVec S16 32) (k1_hw2 : k1_chk2 v277), ∀ a x, ((![v277] : Fin 1 → IVec S16 32) a x).toNat < S3304.size a := fun v277 k1_hw2 => k1_hw2

def k1_chk3 (v279 : IVec S16 32) : Prop :=
  (∀ a x, ((![v279] : Fin 1 → IVec S16 32) a x).toNat < S3304.size a)
instance k1_chk3.dec : ∀ (v279 : IVec S16 32), Decidable (k1_chk3 v279) := fun v279 => decidable_of_iff' _ (Iff.of_eq (k1_chk3.eq_1 v279))
theorem k1_idx3_inb : ∀ (v279 : IVec S16 32) (k1_hw3 : k1_chk3 v279), ∀ a x, ((![v279] : Fin 1 → IVec S16 32) a x).toNat < S3304.size a := fun v279 k1_hw3 => k1_hw3

def k1_chk4 (v281 : IVec S16 32) : Prop :=
  (∀ a x, ((![v281] : Fin 1 → IVec S16 32) a x).toNat < S3304.size a)
instance k1_chk4.dec : ∀ (v281 : IVec S16 32), Decidable (k1_chk4 v281) := fun v281 => decidable_of_iff' _ (Iff.of_eq (k1_chk4.eq_1 v281))
theorem k1_idx4_inb : ∀ (v281 : IVec S16 32) (k1_hw4 : k1_chk4 v281), ∀ a x, ((![v281] : Fin 1 → IVec S16 32) a x).toNat < S3304.size a := fun v281 k1_hw4 => k1_hw4

def k1_chk5 (v283 : IVec S16 32) : Prop :=
  (∀ a x, ((![v283] : Fin 1 → IVec S16 32) a x).toNat < S3304.size a)
instance k1_chk5.dec : ∀ (v283 : IVec S16 32), Decidable (k1_chk5 v283) := fun v283 => decidable_of_iff' _ (Iff.of_eq (k1_chk5.eq_1 v283))
theorem k1_idx5_inb : ∀ (v283 : IVec S16 32) (k1_hw5 : k1_chk5 v283), ∀ a x, ((![v283] : Fin 1 → IVec S16 32) a x).toNat < S3304.size a := fun v283 k1_hw5 => k1_hw5

def k1_chk6 (v285 : IVec S16 32) : Prop :=
  (∀ a x, ((![v285] : Fin 1 → IVec S16 32) a x).toNat < S3304.size a)
instance k1_chk6.dec : ∀ (v285 : IVec S16 32), Decidable (k1_chk6 v285) := fun v285 => decidable_of_iff' _ (Iff.of_eq (k1_chk6.eq_1 v285))
theorem k1_idx6_inb : ∀ (v285 : IVec S16 32) (k1_hw6 : k1_chk6 v285), ∀ a x, ((![v285] : Fin 1 → IVec S16 32) a x).toNat < S3304.size a := fun v285 k1_hw6 => k1_hw6

def k1_chk7 (v287 : IVec S16 32) : Prop :=
  (∀ a x, ((![v287] : Fin 1 → IVec S16 32) a x).toNat < S3304.size a)
instance k1_chk7.dec : ∀ (v287 : IVec S16 32), Decidable (k1_chk7 v287) := fun v287 => decidable_of_iff' _ (Iff.of_eq (k1_chk7.eq_1 v287))
theorem k1_idx7_inb : ∀ (v287 : IVec S16 32) (k1_hw7 : k1_chk7 v287), ∀ a x, ((![v287] : Fin 1 → IVec S16 32) a x).toNat < S3304.size a := fun v287 k1_hw7 => k1_hw7

def k1_chk8 (v289 : IVec S16 32) : Prop :=
  (∀ a x, ((![v289] : Fin 1 → IVec S16 32) a x).toNat < S3304.size a)
instance k1_chk8.dec : ∀ (v289 : IVec S16 32), Decidable (k1_chk8 v289) := fun v289 => decidable_of_iff' _ (Iff.of_eq (k1_chk8.eq_1 v289))
theorem k1_idx8_inb : ∀ (v289 : IVec S16 32) (k1_hw8 : k1_chk8 v289), ∀ a x, ((![v289] : Fin 1 → IVec S16 32) a x).toNat < S3304.size a := fun v289 k1_hw8 => k1_hw8

def k1_chk9 (v291 : IVec S16 32) : Prop :=
  (∀ a x, ((![v291] : Fin 1 → IVec S16 32) a x).toNat < S3304.size a)
instance k1_chk9.dec : ∀ (v291 : IVec S16 32), Decidable (k1_chk9 v291) := fun v291 => decidable_of_iff' _ (Iff.of_eq (k1_chk9.eq_1 v291))
theorem k1_idx9_inb : ∀ (v291 : IVec S16 32) (k1_hw9 : k1_chk9 v291), ∀ a x, ((![v291] : Fin 1 → IVec S16 32) a x).toNat < S3304.size a := fun v291 k1_hw9 => k1_hw9

def k1_chk10 (v293 : IVec S16 32) : Prop :=
  (∀ a x, ((![v293] : Fin 1 → IVec S16 32) a x).toNat < S3304.size a)
instance k1_chk10.dec : ∀ (v293 : IVec S16 32), Decidable (k1_chk10 v293) := fun v293 => decidable_of_iff' _ (Iff.of_eq (k1_chk10.eq_1 v293))
theorem k1_idx10_inb : ∀ (v293 : IVec S16 32) (k1_hw10 : k1_chk10 v293), ∀ a x, ((![v293] : Fin 1 → IVec S16 32) a x).toNat < S3304.size a := fun v293 k1_hw10 => k1_hw10

def k1_chk11 (v295 : IVec S16 32) : Prop :=
  (∀ a x, ((![v295] : Fin 1 → IVec S16 32) a x).toNat < S3304.size a)
instance k1_chk11.dec : ∀ (v295 : IVec S16 32), Decidable (k1_chk11 v295) := fun v295 => decidable_of_iff' _ (Iff.of_eq (k1_chk11.eq_1 v295))
theorem k1_idx11_inb : ∀ (v295 : IVec S16 32) (k1_hw11 : k1_chk11 v295), ∀ a x, ((![v295] : Fin 1 → IVec S16 32) a x).toNat < S3304.size a := fun v295 k1_hw11 => k1_hw11

def k1_chk12 (v297 : IVec S16 32) : Prop :=
  (∀ a x, ((![v297] : Fin 1 → IVec S16 32) a x).toNat < S3304.size a)
instance k1_chk12.dec : ∀ (v297 : IVec S16 32), Decidable (k1_chk12 v297) := fun v297 => decidable_of_iff' _ (Iff.of_eq (k1_chk12.eq_1 v297))
theorem k1_idx12_inb : ∀ (v297 : IVec S16 32) (k1_hw12 : k1_chk12 v297), ∀ a x, ((![v297] : Fin 1 → IVec S16 32) a x).toNat < S3304.size a := fun v297 k1_hw12 => k1_hw12

def k1_chk13 (v299 : IVec S16 32) : Prop :=
  (∀ a x, ((![v299] : Fin 1 → IVec S16 32) a x).toNat < S3304.size a)
instance k1_chk13.dec : ∀ (v299 : IVec S16 32), Decidable (k1_chk13 v299) := fun v299 => decidable_of_iff' _ (Iff.of_eq (k1_chk13.eq_1 v299))
theorem k1_idx13_inb : ∀ (v299 : IVec S16 32) (k1_hw13 : k1_chk13 v299), ∀ a x, ((![v299] : Fin 1 → IVec S16 32) a x).toNat < S3304.size a := fun v299 k1_hw13 => k1_hw13

def k1_chk14 (v301 : IVec S16 32) : Prop :=
  (∀ a x, ((![v301] : Fin 1 → IVec S16 32) a x).toNat < S3304.size a)
instance k1_chk14.dec : ∀ (v301 : IVec S16 32), Decidable (k1_chk14 v301) := fun v301 => decidable_of_iff' _ (Iff.of_eq (k1_chk14.eq_1 v301))
theorem k1_idx14_inb : ∀ (v301 : IVec S16 32) (k1_hw14 : k1_chk14 v301), ∀ a x, ((![v301] : Fin 1 → IVec S16 32) a x).toNat < S3304.size a := fun v301 k1_hw14 => k1_hw14

def k1_chk15 (v303 : IVec S16 32) : Prop :=
  (∀ a x, ((![v303] : Fin 1 → IVec S16 32) a x).toNat < S3304.size a)
instance k1_chk15.dec : ∀ (v303 : IVec S16 32), Decidable (k1_chk15 v303) := fun v303 => decidable_of_iff' _ (Iff.of_eq (k1_chk15.eq_1 v303))
theorem k1_idx15_inb : ∀ (v303 : IVec S16 32) (k1_hw15 : k1_chk15 v303), ∀ a x, ((![v303] : Fin 1 → IVec S16 32) a x).toNat < S3304.size a := fun v303 k1_hw15 => k1_hw15

def k1_chk16 (v305 : IVec S16 32) : Prop :=
  (∀ a x, ((![v305] : Fin 1 → IVec S16 32) a x).toNat < S3304.size a)
instance k1_chk16.dec : ∀ (v305 : IVec S16 32), Decidable (k1_chk16 v305) := fun v305 => decidable_of_iff' _ (Iff.of_eq (k1_chk16.eq_1 v305))
theorem k1_idx16_inb : ∀ (v305 : IVec S16 32) (k1_hw16 : k1_chk16 v305), ∀ a x, ((![v305] : Fin 1 → IVec S16 32) a x).toNat < S3304.size a := fun v305 k1_hw16 => k1_hw16

def k1_chk17 (v307 : IVec S16 32) : Prop :=
  (∀ a x, ((![v307] : Fin 1 → IVec S16 32) a x).toNat < S3304.size a)
instance k1_chk17.dec : ∀ (v307 : IVec S16 32), Decidable (k1_chk17 v307) := fun v307 => decidable_of_iff' _ (Iff.of_eq (k1_chk17.eq_1 v307))
theorem k1_idx17_inb : ∀ (v307 : IVec S16 32) (k1_hw17 : k1_chk17 v307), ∀ a x, ((![v307] : Fin 1 → IVec S16 32) a x).toNat < S3304.size a := fun v307 k1_hw17 => k1_hw17

def k1_chk18 (v309 : IVec S16 32) : Prop :=
  (∀ a x, ((![v309] : Fin 1 → IVec S16 32) a x).toNat < S3304.size a)
instance k1_chk18.dec : ∀ (v309 : IVec S16 32), Decidable (k1_chk18 v309) := fun v309 => decidable_of_iff' _ (Iff.of_eq (k1_chk18.eq_1 v309))
theorem k1_idx18_inb : ∀ (v309 : IVec S16 32) (k1_hw18 : k1_chk18 v309), ∀ a x, ((![v309] : Fin 1 → IVec S16 32) a x).toNat < S3304.size a := fun v309 k1_hw18 => k1_hw18

def k1_chk19 (v311 : IVec S16 32) : Prop :=
  (∀ a x, ((![v311] : Fin 1 → IVec S16 32) a x).toNat < S3304.size a)
instance k1_chk19.dec : ∀ (v311 : IVec S16 32), Decidable (k1_chk19 v311) := fun v311 => decidable_of_iff' _ (Iff.of_eq (k1_chk19.eq_1 v311))
theorem k1_idx19_inb : ∀ (v311 : IVec S16 32) (k1_hw19 : k1_chk19 v311), ∀ a x, ((![v311] : Fin 1 → IVec S16 32) a x).toNat < S3304.size a := fun v311 k1_hw19 => k1_hw19

def k1_chk20 (v313 : IVec S16 32) : Prop :=
  (∀ a x, ((![v313] : Fin 1 → IVec S16 32) a x).toNat < S3304.size a)
instance k1_chk20.dec : ∀ (v313 : IVec S16 32), Decidable (k1_chk20 v313) := fun v313 => decidable_of_iff' _ (Iff.of_eq (k1_chk20.eq_1 v313))
theorem k1_idx20_inb : ∀ (v313 : IVec S16 32) (k1_hw20 : k1_chk20 v313), ∀ a x, ((![v313] : Fin 1 → IVec S16 32) a x).toNat < S3304.size a := fun v313 k1_hw20 => k1_hw20

def k1_chk21 (v315 : IVec S16 32) : Prop :=
  (∀ a x, ((![v315] : Fin 1 → IVec S16 32) a x).toNat < S3304.size a)
instance k1_chk21.dec : ∀ (v315 : IVec S16 32), Decidable (k1_chk21 v315) := fun v315 => decidable_of_iff' _ (Iff.of_eq (k1_chk21.eq_1 v315))
theorem k1_idx21_inb : ∀ (v315 : IVec S16 32) (k1_hw21 : k1_chk21 v315), ∀ a x, ((![v315] : Fin 1 → IVec S16 32) a x).toNat < S3304.size a := fun v315 k1_hw21 => k1_hw21

def k1_chk22 (v317 : IVec S16 32) : Prop :=
  (∀ a x, ((![v317] : Fin 1 → IVec S16 32) a x).toNat < S3304.size a)
instance k1_chk22.dec : ∀ (v317 : IVec S16 32), Decidable (k1_chk22 v317) := fun v317 => decidable_of_iff' _ (Iff.of_eq (k1_chk22.eq_1 v317))
theorem k1_idx22_inb : ∀ (v317 : IVec S16 32) (k1_hw22 : k1_chk22 v317), ∀ a x, ((![v317] : Fin 1 → IVec S16 32) a x).toNat < S3304.size a := fun v317 k1_hw22 => k1_hw22

def k1_chk23 (v319 : IVec S16 32) : Prop :=
  (∀ a x, ((![v319] : Fin 1 → IVec S16 32) a x).toNat < S3304.size a)
instance k1_chk23.dec : ∀ (v319 : IVec S16 32), Decidable (k1_chk23 v319) := fun v319 => decidable_of_iff' _ (Iff.of_eq (k1_chk23.eq_1 v319))
theorem k1_idx23_inb : ∀ (v319 : IVec S16 32) (k1_hw23 : k1_chk23 v319), ∀ a x, ((![v319] : Fin 1 → IVec S16 32) a x).toNat < S3304.size a := fun v319 k1_hw23 => k1_hw23

def k1_chk24 (v321 : IVec S16 32) : Prop :=
  (∀ a x, ((![v321] : Fin 1 → IVec S16 32) a x).toNat < S3304.size a)
instance k1_chk24.dec : ∀ (v321 : IVec S16 32), Decidable (k1_chk24 v321) := fun v321 => decidable_of_iff' _ (Iff.of_eq (k1_chk24.eq_1 v321))
theorem k1_idx24_inb : ∀ (v321 : IVec S16 32) (k1_hw24 : k1_chk24 v321), ∀ a x, ((![v321] : Fin 1 → IVec S16 32) a x).toNat < S3304.size a := fun v321 k1_hw24 => k1_hw24

def k1_chk25 (v323 : IVec S16 32) : Prop :=
  (∀ a x, ((![v323] : Fin 1 → IVec S16 32) a x).toNat < S3304.size a)
instance k1_chk25.dec : ∀ (v323 : IVec S16 32), Decidable (k1_chk25 v323) := fun v323 => decidable_of_iff' _ (Iff.of_eq (k1_chk25.eq_1 v323))
theorem k1_idx25_inb : ∀ (v323 : IVec S16 32) (k1_hw25 : k1_chk25 v323), ∀ a x, ((![v323] : Fin 1 → IVec S16 32) a x).toNat < S3304.size a := fun v323 k1_hw25 => k1_hw25

def k1_chk26 (v325 : IVec S16 32) : Prop :=
  (∀ a x, ((![v325] : Fin 1 → IVec S16 32) a x).toNat < S3304.size a)
instance k1_chk26.dec : ∀ (v325 : IVec S16 32), Decidable (k1_chk26 v325) := fun v325 => decidable_of_iff' _ (Iff.of_eq (k1_chk26.eq_1 v325))
theorem k1_idx26_inb : ∀ (v325 : IVec S16 32) (k1_hw26 : k1_chk26 v325), ∀ a x, ((![v325] : Fin 1 → IVec S16 32) a x).toNat < S3304.size a := fun v325 k1_hw26 => k1_hw26

def k1_chk27 (v327 : IVec S16 32) : Prop :=
  (∀ a x, ((![v327] : Fin 1 → IVec S16 32) a x).toNat < S3304.size a)
instance k1_chk27.dec : ∀ (v327 : IVec S16 32), Decidable (k1_chk27 v327) := fun v327 => decidable_of_iff' _ (Iff.of_eq (k1_chk27.eq_1 v327))
theorem k1_idx27_inb : ∀ (v327 : IVec S16 32) (k1_hw27 : k1_chk27 v327), ∀ a x, ((![v327] : Fin 1 → IVec S16 32) a x).toNat < S3304.size a := fun v327 k1_hw27 => k1_hw27

def k1_chk28 (v329 : IVec S16 32) : Prop :=
  (∀ a x, ((![v329] : Fin 1 → IVec S16 32) a x).toNat < S3304.size a)
instance k1_chk28.dec : ∀ (v329 : IVec S16 32), Decidable (k1_chk28 v329) := fun v329 => decidable_of_iff' _ (Iff.of_eq (k1_chk28.eq_1 v329))
theorem k1_idx28_inb : ∀ (v329 : IVec S16 32) (k1_hw28 : k1_chk28 v329), ∀ a x, ((![v329] : Fin 1 → IVec S16 32) a x).toNat < S3304.size a := fun v329 k1_hw28 => k1_hw28

def k1_chk29 (v331 : IVec S16 32) : Prop :=
  (∀ a x, ((![v331] : Fin 1 → IVec S16 32) a x).toNat < S3304.size a)
instance k1_chk29.dec : ∀ (v331 : IVec S16 32), Decidable (k1_chk29 v331) := fun v331 => decidable_of_iff' _ (Iff.of_eq (k1_chk29.eq_1 v331))
theorem k1_idx29_inb : ∀ (v331 : IVec S16 32) (k1_hw29 : k1_chk29 v331), ∀ a x, ((![v331] : Fin 1 → IVec S16 32) a x).toNat < S3304.size a := fun v331 k1_hw29 => k1_hw29

def k1_chk30 (v333 : IVec S16 32) : Prop :=
  (∀ a x, ((![v333] : Fin 1 → IVec S16 32) a x).toNat < S3304.size a)
instance k1_chk30.dec : ∀ (v333 : IVec S16 32), Decidable (k1_chk30 v333) := fun v333 => decidable_of_iff' _ (Iff.of_eq (k1_chk30.eq_1 v333))
theorem k1_idx30_inb : ∀ (v333 : IVec S16 32) (k1_hw30 : k1_chk30 v333), ∀ a x, ((![v333] : Fin 1 → IVec S16 32) a x).toNat < S3304.size a := fun v333 k1_hw30 => k1_hw30

def k1_chk31 (v335 : IVec S16 32) : Prop :=
  (∀ a x, ((![v335] : Fin 1 → IVec S16 32) a x).toNat < S3304.size a)
instance k1_chk31.dec : ∀ (v335 : IVec S16 32), Decidable (k1_chk31 v335) := fun v335 => decidable_of_iff' _ (Iff.of_eq (k1_chk31.eq_1 v335))
theorem k1_idx31_inb : ∀ (v335 : IVec S16 32) (k1_hw31 : k1_chk31 v335), ∀ a x, ((![v335] : Fin 1 → IVec S16 32) a x).toNat < S3304.size a := fun v335 k1_hw31 => k1_hw31

def k1_chk32 (v337 : IVec S16 32) : Prop :=
  (∀ a x, ((![v337] : Fin 1 → IVec S16 32) a x).toNat < S3304.size a)
instance k1_chk32.dec : ∀ (v337 : IVec S16 32), Decidable (k1_chk32 v337) := fun v337 => decidable_of_iff' _ (Iff.of_eq (k1_chk32.eq_1 v337))
theorem k1_idx32_inb : ∀ (v337 : IVec S16 32) (k1_hw32 : k1_chk32 v337), ∀ a x, ((![v337] : Fin 1 → IVec S16 32) a x).toNat < S3304.size a := fun v337 k1_hw32 => k1_hw32

def k1_chk33 (v243 : IVec S16 32) (v348 : IVec S16 32) : Prop :=
  (∀ a x, ((![v243, v348] : Fin 2 → IVec S16 32) a x).toNat < S128x128.size a)
instance k1_chk33.dec : ∀ (v243 : IVec S16 32) (v348 : IVec S16 32), Decidable (k1_chk33 v243 v348) := fun v243 v348 => decidable_of_iff' _ (Iff.of_eq (k1_chk33.eq_1 v243 v348))
theorem k1_idx33_inb : ∀ (v243 : IVec S16 32) (v348 : IVec S16 32) (k1_hw33 : k1_chk33 v243 v348), ∀ a x, ((![v243, v348] : Fin 2 → IVec S16 32) a x).toNat < S128x128.size a := fun v243 v348 k1_hw33 => k1_hw33

def k1_chk34 (v243 : IVec S16 32) (v350 : IVec S16 32) : Prop :=
  (∀ a x, ((![v243, v350] : Fin 2 → IVec S16 32) a x).toNat < S128x128.size a)
instance k1_chk34.dec : ∀ (v243 : IVec S16 32) (v350 : IVec S16 32), Decidable (k1_chk34 v243 v350) := fun v243 v350 => decidable_of_iff' _ (Iff.of_eq (k1_chk34.eq_1 v243 v350))
theorem k1_idx34_inb : ∀ (v243 : IVec S16 32) (v350 : IVec S16 32) (k1_hw34 : k1_chk34 v243 v350), ∀ a x, ((![v243, v350] : Fin 2 → IVec S16 32) a x).toNat < S128x128.size a := fun v243 v350 k1_hw34 => k1_hw34

def k1_chk35 (v243 : IVec S16 32) (v352 : IVec S16 32) : Prop :=
  (∀ a x, ((![v243, v352] : Fin 2 → IVec S16 32) a x).toNat < S128x128.size a)
instance k1_chk35.dec : ∀ (v243 : IVec S16 32) (v352 : IVec S16 32), Decidable (k1_chk35 v243 v352) := fun v243 v352 => decidable_of_iff' _ (Iff.of_eq (k1_chk35.eq_1 v243 v352))
theorem k1_idx35_inb : ∀ (v243 : IVec S16 32) (v352 : IVec S16 32) (k1_hw35 : k1_chk35 v243 v352), ∀ a x, ((![v243, v352] : Fin 2 → IVec S16 32) a x).toNat < S128x128.size a := fun v243 v352 k1_hw35 => k1_hw35

def k1_chk36 (v243 : IVec S16 32) (v354 : IVec S16 32) : Prop :=
  (∀ a x, ((![v243, v354] : Fin 2 → IVec S16 32) a x).toNat < S128x128.size a)
instance k1_chk36.dec : ∀ (v243 : IVec S16 32) (v354 : IVec S16 32), Decidable (k1_chk36 v243 v354) := fun v243 v354 => decidable_of_iff' _ (Iff.of_eq (k1_chk36.eq_1 v243 v354))
theorem k1_idx36_inb : ∀ (v243 : IVec S16 32) (v354 : IVec S16 32) (k1_hw36 : k1_chk36 v243 v354), ∀ a x, ((![v243, v354] : Fin 2 → IVec S16 32) a x).toNat < S128x128.size a := fun v243 v354 k1_hw36 => k1_hw36

def k1_chk37 (v243 : IVec S16 32) (v356 : IVec S16 32) : Prop :=
  (∀ a x, ((![v243, v356] : Fin 2 → IVec S16 32) a x).toNat < S128x128.size a)
instance k1_chk37.dec : ∀ (v243 : IVec S16 32) (v356 : IVec S16 32), Decidable (k1_chk37 v243 v356) := fun v243 v356 => decidable_of_iff' _ (Iff.of_eq (k1_chk37.eq_1 v243 v356))
theorem k1_idx37_inb : ∀ (v243 : IVec S16 32) (v356 : IVec S16 32) (k1_hw37 : k1_chk37 v243 v356), ∀ a x, ((![v243, v356] : Fin 2 → IVec S16 32) a x).toNat < S128x128.size a := fun v243 v356 k1_hw37 => k1_hw37

def k1_chk38 (v243 : IVec S16 32) (v358 : IVec S16 32) : Prop :=
  (∀ a x, ((![v243, v358] : Fin 2 → IVec S16 32) a x).toNat < S128x128.size a)
instance k1_chk38.dec : ∀ (v243 : IVec S16 32) (v358 : IVec S16 32), Decidable (k1_chk38 v243 v358) := fun v243 v358 => decidable_of_iff' _ (Iff.of_eq (k1_chk38.eq_1 v243 v358))
theorem k1_idx38_inb : ∀ (v243 : IVec S16 32) (v358 : IVec S16 32) (k1_hw38 : k1_chk38 v243 v358), ∀ a x, ((![v243, v358] : Fin 2 → IVec S16 32) a x).toNat < S128x128.size a := fun v243 v358 k1_hw38 => k1_hw38

def k1_chk39 (v243 : IVec S16 32) (v360 : IVec S16 32) : Prop :=
  (∀ a x, ((![v243, v360] : Fin 2 → IVec S16 32) a x).toNat < S128x128.size a)
instance k1_chk39.dec : ∀ (v243 : IVec S16 32) (v360 : IVec S16 32), Decidable (k1_chk39 v243 v360) := fun v243 v360 => decidable_of_iff' _ (Iff.of_eq (k1_chk39.eq_1 v243 v360))
theorem k1_idx39_inb : ∀ (v243 : IVec S16 32) (v360 : IVec S16 32) (k1_hw39 : k1_chk39 v243 v360), ∀ a x, ((![v243, v360] : Fin 2 → IVec S16 32) a x).toNat < S128x128.size a := fun v243 v360 k1_hw39 => k1_hw39

def k1_chk40 (v243 : IVec S16 32) (v362 : IVec S16 32) : Prop :=
  (∀ a x, ((![v243, v362] : Fin 2 → IVec S16 32) a x).toNat < S128x128.size a)
instance k1_chk40.dec : ∀ (v243 : IVec S16 32) (v362 : IVec S16 32), Decidable (k1_chk40 v243 v362) := fun v243 v362 => decidable_of_iff' _ (Iff.of_eq (k1_chk40.eq_1 v243 v362))
theorem k1_idx40_inb : ∀ (v243 : IVec S16 32) (v362 : IVec S16 32) (k1_hw40 : k1_chk40 v243 v362), ∀ a x, ((![v243, v362] : Fin 2 → IVec S16 32) a x).toNat < S128x128.size a := fun v243 v362 k1_hw40 => k1_hw40

def k1_chk41 (v376 : IVec S16 32) : Prop :=
  (∀ a x, ((![v376] : Fin 1 → IVec S16 32) a x).toNat < S8192.size a)
instance k1_chk41.dec : ∀ (v376 : IVec S16 32), Decidable (k1_chk41 v376) := fun v376 => decidable_of_iff' _ (Iff.of_eq (k1_chk41.eq_1 v376))
theorem k1_idx41_inb : ∀ (v376 : IVec S16 32) (k1_hw41 : k1_chk41 v376), ∀ a x, ((![v376] : Fin 1 → IVec S16 32) a x).toNat < S8192.size a := fun v376 k1_hw41 => k1_hw41

def k1_chk42 (v392 : IVec S16 32) : Prop :=
  (∀ a x, ((![v392] : Fin 1 → IVec S16 32) a x).toNat < S8192.size a)
instance k1_chk42.dec : ∀ (v392 : IVec S16 32), Decidable (k1_chk42 v392) := fun v392 => decidable_of_iff' _ (Iff.of_eq (k1_chk42.eq_1 v392))
theorem k1_idx42_inb : ∀ (v392 : IVec S16 32) (k1_hw42 : k1_chk42 v392), ∀ a x, ((![v392] : Fin 1 → IVec S16 32) a x).toNat < S8192.size a := fun v392 k1_hw42 => k1_hw42

def k1_chk43 (v408 : IVec S16 32) : Prop :=
  (∀ a x, ((![v408] : Fin 1 → IVec S16 32) a x).toNat < S8192.size a)
instance k1_chk43.dec : ∀ (v408 : IVec S16 32), Decidable (k1_chk43 v408) := fun v408 => decidable_of_iff' _ (Iff.of_eq (k1_chk43.eq_1 v408))
theorem k1_idx43_inb : ∀ (v408 : IVec S16 32) (k1_hw43 : k1_chk43 v408), ∀ a x, ((![v408] : Fin 1 → IVec S16 32) a x).toNat < S8192.size a := fun v408 k1_hw43 => k1_hw43

def k1_chk44 (v424 : IVec S16 32) : Prop :=
  (∀ a x, ((![v424] : Fin 1 → IVec S16 32) a x).toNat < S8192.size a)
instance k1_chk44.dec : ∀ (v424 : IVec S16 32), Decidable (k1_chk44 v424) := fun v424 => decidable_of_iff' _ (Iff.of_eq (k1_chk44.eq_1 v424))
theorem k1_idx44_inb : ∀ (v424 : IVec S16 32) (k1_hw44 : k1_chk44 v424), ∀ a x, ((![v424] : Fin 1 → IVec S16 32) a x).toNat < S8192.size a := fun v424 k1_hw44 => k1_hw44

def k1_chk45 (v243 : IVec S16 32) (v437 : IVec S16 32) : Prop :=
  (∀ a x, ((![v243, v437] : Fin 2 → IVec S16 32) a x).toNat < S128x128.size a)
instance k1_chk45.dec : ∀ (v243 : IVec S16 32) (v437 : IVec S16 32), Decidable (k1_chk45 v243 v437) := fun v243 v437 => decidable_of_iff' _ (Iff.of_eq (k1_chk45.eq_1 v243 v437))
theorem k1_idx45_inb : ∀ (v243 : IVec S16 32) (v437 : IVec S16 32) (k1_hw45 : k1_chk45 v243 v437), ∀ a x, ((![v243, v437] : Fin 2 → IVec S16 32) a x).toNat < S128x128.size a := fun v243 v437 k1_hw45 => k1_hw45

def k1_chk46 (v243 : IVec S16 32) (v439 : IVec S16 32) : Prop :=
  (∀ a x, ((![v243, v439] : Fin 2 → IVec S16 32) a x).toNat < S128x128.size a)
instance k1_chk46.dec : ∀ (v243 : IVec S16 32) (v439 : IVec S16 32), Decidable (k1_chk46 v243 v439) := fun v243 v439 => decidable_of_iff' _ (Iff.of_eq (k1_chk46.eq_1 v243 v439))
theorem k1_idx46_inb : ∀ (v243 : IVec S16 32) (v439 : IVec S16 32) (k1_hw46 : k1_chk46 v243 v439), ∀ a x, ((![v243, v439] : Fin 2 → IVec S16 32) a x).toNat < S128x128.size a := fun v243 v439 k1_hw46 => k1_hw46

def k1_chk47 (v243 : IVec S16 32) (v441 : IVec S16 32) : Prop :=
  (∀ a x, ((![v243, v441] : Fin 2 → IVec S16 32) a x).toNat < S128x128.size a)
instance k1_chk47.dec : ∀ (v243 : IVec S16 32) (v441 : IVec S16 32), Decidable (k1_chk47 v243 v441) := fun v243 v441 => decidable_of_iff' _ (Iff.of_eq (k1_chk47.eq_1 v243 v441))
theorem k1_idx47_inb : ∀ (v243 : IVec S16 32) (v441 : IVec S16 32) (k1_hw47 : k1_chk47 v243 v441), ∀ a x, ((![v243, v441] : Fin 2 → IVec S16 32) a x).toNat < S128x128.size a := fun v243 v441 k1_hw47 => k1_hw47

def k1_chk48 (v243 : IVec S16 32) (v443 : IVec S16 32) : Prop :=
  (∀ a x, ((![v243, v443] : Fin 2 → IVec S16 32) a x).toNat < S128x128.size a)
instance k1_chk48.dec : ∀ (v243 : IVec S16 32) (v443 : IVec S16 32), Decidable (k1_chk48 v243 v443) := fun v243 v443 => decidable_of_iff' _ (Iff.of_eq (k1_chk48.eq_1 v243 v443))
theorem k1_idx48_inb : ∀ (v243 : IVec S16 32) (v443 : IVec S16 32) (k1_hw48 : k1_chk48 v243 v443), ∀ a x, ((![v243, v443] : Fin 2 → IVec S16 32) a x).toNat < S128x128.size a := fun v243 v443 k1_hw48 => k1_hw48

def k1_chk49 (v243 : IVec S16 32) (v445 : IVec S16 32) : Prop :=
  (∀ a x, ((![v243, v445] : Fin 2 → IVec S16 32) a x).toNat < S128x128.size a)
instance k1_chk49.dec : ∀ (v243 : IVec S16 32) (v445 : IVec S16 32), Decidable (k1_chk49 v243 v445) := fun v243 v445 => decidable_of_iff' _ (Iff.of_eq (k1_chk49.eq_1 v243 v445))
theorem k1_idx49_inb : ∀ (v243 : IVec S16 32) (v445 : IVec S16 32) (k1_hw49 : k1_chk49 v243 v445), ∀ a x, ((![v243, v445] : Fin 2 → IVec S16 32) a x).toNat < S128x128.size a := fun v243 v445 k1_hw49 => k1_hw49

def k1_chk50 (v243 : IVec S16 32) (v447 : IVec S16 32) : Prop :=
  (∀ a x, ((![v243, v447] : Fin 2 → IVec S16 32) a x).toNat < S128x128.size a)
instance k1_chk50.dec : ∀ (v243 : IVec S16 32) (v447 : IVec S16 32), Decidable (k1_chk50 v243 v447) := fun v243 v447 => decidable_of_iff' _ (Iff.of_eq (k1_chk50.eq_1 v243 v447))
theorem k1_idx50_inb : ∀ (v243 : IVec S16 32) (v447 : IVec S16 32) (k1_hw50 : k1_chk50 v243 v447), ∀ a x, ((![v243, v447] : Fin 2 → IVec S16 32) a x).toNat < S128x128.size a := fun v243 v447 k1_hw50 => k1_hw50

def k1_chk51 (v243 : IVec S16 32) (v449 : IVec S16 32) : Prop :=
  (∀ a x, ((![v243, v449] : Fin 2 → IVec S16 32) a x).toNat < S128x128.size a)
instance k1_chk51.dec : ∀ (v243 : IVec S16 32) (v449 : IVec S16 32), Decidable (k1_chk51 v243 v449) := fun v243 v449 => decidable_of_iff' _ (Iff.of_eq (k1_chk51.eq_1 v243 v449))
theorem k1_idx51_inb : ∀ (v243 : IVec S16 32) (v449 : IVec S16 32) (k1_hw51 : k1_chk51 v243 v449), ∀ a x, ((![v243, v449] : Fin 2 → IVec S16 32) a x).toNat < S128x128.size a := fun v243 v449 k1_hw51 => k1_hw51

def k1_chk52 (v243 : IVec S16 32) (v451 : IVec S16 32) : Prop :=
  (∀ a x, ((![v243, v451] : Fin 2 → IVec S16 32) a x).toNat < S128x128.size a)
instance k1_chk52.dec : ∀ (v243 : IVec S16 32) (v451 : IVec S16 32), Decidable (k1_chk52 v243 v451) := fun v243 v451 => decidable_of_iff' _ (Iff.of_eq (k1_chk52.eq_1 v243 v451))
theorem k1_idx52_inb : ∀ (v243 : IVec S16 32) (v451 : IVec S16 32) (k1_hw52 : k1_chk52 v243 v451), ∀ a x, ((![v243, v451] : Fin 2 → IVec S16 32) a x).toNat < S128x128.size a := fun v243 v451 k1_hw52 => k1_hw52

def k1_chk53 (v465 : IVec S16 32) : Prop :=
  (∀ a x, ((![v465] : Fin 1 → IVec S16 32) a x).toNat < S8192.size a)
instance k1_chk53.dec : ∀ (v465 : IVec S16 32), Decidable (k1_chk53 v465) := fun v465 => decidable_of_iff' _ (Iff.of_eq (k1_chk53.eq_1 v465))
theorem k1_idx53_inb : ∀ (v465 : IVec S16 32) (k1_hw53 : k1_chk53 v465), ∀ a x, ((![v465] : Fin 1 → IVec S16 32) a x).toNat < S8192.size a := fun v465 k1_hw53 => k1_hw53

def k1_chk54 (v481 : IVec S16 32) : Prop :=
  (∀ a x, ((![v481] : Fin 1 → IVec S16 32) a x).toNat < S8192.size a)
instance k1_chk54.dec : ∀ (v481 : IVec S16 32), Decidable (k1_chk54 v481) := fun v481 => decidable_of_iff' _ (Iff.of_eq (k1_chk54.eq_1 v481))
theorem k1_idx54_inb : ∀ (v481 : IVec S16 32) (k1_hw54 : k1_chk54 v481), ∀ a x, ((![v481] : Fin 1 → IVec S16 32) a x).toNat < S8192.size a := fun v481 k1_hw54 => k1_hw54

def k1_chk55 (v497 : IVec S16 32) : Prop :=
  (∀ a x, ((![v497] : Fin 1 → IVec S16 32) a x).toNat < S8192.size a)
instance k1_chk55.dec : ∀ (v497 : IVec S16 32), Decidable (k1_chk55 v497) := fun v497 => decidable_of_iff' _ (Iff.of_eq (k1_chk55.eq_1 v497))
theorem k1_idx55_inb : ∀ (v497 : IVec S16 32) (k1_hw55 : k1_chk55 v497), ∀ a x, ((![v497] : Fin 1 → IVec S16 32) a x).toNat < S8192.size a := fun v497 k1_hw55 => k1_hw55

def k1_chk56 (v513 : IVec S16 32) : Prop :=
  (∀ a x, ((![v513] : Fin 1 → IVec S16 32) a x).toNat < S8192.size a)
instance k1_chk56.dec : ∀ (v513 : IVec S16 32), Decidable (k1_chk56 v513) := fun v513 => decidable_of_iff' _ (Iff.of_eq (k1_chk56.eq_1 v513))
theorem k1_idx56_inb : ∀ (v513 : IVec S16 32) (k1_hw56 : k1_chk56 v513), ∀ a x, ((![v513] : Fin 1 → IVec S16 32) a x).toNat < S8192.size a := fun v513 k1_hw56 => k1_hw56

def k1_chk57 (v243 : IVec S16 32) (v526 : IVec S16 32) : Prop :=
  (∀ a x, ((![v243, v526] : Fin 2 → IVec S16 32) a x).toNat < S128x128.size a)
instance k1_chk57.dec : ∀ (v243 : IVec S16 32) (v526 : IVec S16 32), Decidable (k1_chk57 v243 v526) := fun v243 v526 => decidable_of_iff' _ (Iff.of_eq (k1_chk57.eq_1 v243 v526))
theorem k1_idx57_inb : ∀ (v243 : IVec S16 32) (v526 : IVec S16 32) (k1_hw57 : k1_chk57 v243 v526), ∀ a x, ((![v243, v526] : Fin 2 → IVec S16 32) a x).toNat < S128x128.size a := fun v243 v526 k1_hw57 => k1_hw57

def k1_chk58 (v243 : IVec S16 32) (v528 : IVec S16 32) : Prop :=
  (∀ a x, ((![v243, v528] : Fin 2 → IVec S16 32) a x).toNat < S128x128.size a)
instance k1_chk58.dec : ∀ (v243 : IVec S16 32) (v528 : IVec S16 32), Decidable (k1_chk58 v243 v528) := fun v243 v528 => decidable_of_iff' _ (Iff.of_eq (k1_chk58.eq_1 v243 v528))
theorem k1_idx58_inb : ∀ (v243 : IVec S16 32) (v528 : IVec S16 32) (k1_hw58 : k1_chk58 v243 v528), ∀ a x, ((![v243, v528] : Fin 2 → IVec S16 32) a x).toNat < S128x128.size a := fun v243 v528 k1_hw58 => k1_hw58

def k1_chk59 (v243 : IVec S16 32) (v530 : IVec S16 32) : Prop :=
  (∀ a x, ((![v243, v530] : Fin 2 → IVec S16 32) a x).toNat < S128x128.size a)
instance k1_chk59.dec : ∀ (v243 : IVec S16 32) (v530 : IVec S16 32), Decidable (k1_chk59 v243 v530) := fun v243 v530 => decidable_of_iff' _ (Iff.of_eq (k1_chk59.eq_1 v243 v530))
theorem k1_idx59_inb : ∀ (v243 : IVec S16 32) (v530 : IVec S16 32) (k1_hw59 : k1_chk59 v243 v530), ∀ a x, ((![v243, v530] : Fin 2 → IVec S16 32) a x).toNat < S128x128.size a := fun v243 v530 k1_hw59 => k1_hw59

def k1_chk60 (v243 : IVec S16 32) (v532 : IVec S16 32) : Prop :=
  (∀ a x, ((![v243, v532] : Fin 2 → IVec S16 32) a x).toNat < S128x128.size a)
instance k1_chk60.dec : ∀ (v243 : IVec S16 32) (v532 : IVec S16 32), Decidable (k1_chk60 v243 v532) := fun v243 v532 => decidable_of_iff' _ (Iff.of_eq (k1_chk60.eq_1 v243 v532))
theorem k1_idx60_inb : ∀ (v243 : IVec S16 32) (v532 : IVec S16 32) (k1_hw60 : k1_chk60 v243 v532), ∀ a x, ((![v243, v532] : Fin 2 → IVec S16 32) a x).toNat < S128x128.size a := fun v243 v532 k1_hw60 => k1_hw60

def k1_chk61 (v243 : IVec S16 32) (v534 : IVec S16 32) : Prop :=
  (∀ a x, ((![v243, v534] : Fin 2 → IVec S16 32) a x).toNat < S128x128.size a)
instance k1_chk61.dec : ∀ (v243 : IVec S16 32) (v534 : IVec S16 32), Decidable (k1_chk61 v243 v534) := fun v243 v534 => decidable_of_iff' _ (Iff.of_eq (k1_chk61.eq_1 v243 v534))
theorem k1_idx61_inb : ∀ (v243 : IVec S16 32) (v534 : IVec S16 32) (k1_hw61 : k1_chk61 v243 v534), ∀ a x, ((![v243, v534] : Fin 2 → IVec S16 32) a x).toNat < S128x128.size a := fun v243 v534 k1_hw61 => k1_hw61

def k1_chk62 (v243 : IVec S16 32) (v536 : IVec S16 32) : Prop :=
  (∀ a x, ((![v243, v536] : Fin 2 → IVec S16 32) a x).toNat < S128x128.size a)
instance k1_chk62.dec : ∀ (v243 : IVec S16 32) (v536 : IVec S16 32), Decidable (k1_chk62 v243 v536) := fun v243 v536 => decidable_of_iff' _ (Iff.of_eq (k1_chk62.eq_1 v243 v536))
theorem k1_idx62_inb : ∀ (v243 : IVec S16 32) (v536 : IVec S16 32) (k1_hw62 : k1_chk62 v243 v536), ∀ a x, ((![v243, v536] : Fin 2 → IVec S16 32) a x).toNat < S128x128.size a := fun v243 v536 k1_hw62 => k1_hw62

def k1_chk63 (v243 : IVec S16 32) (v538 : IVec S16 32) : Prop :=
  (∀ a x, ((![v243, v538] : Fin 2 → IVec S16 32) a x).toNat < S128x128.size a)
instance k1_chk63.dec : ∀ (v243 : IVec S16 32) (v538 : IVec S16 32), Decidable (k1_chk63 v243 v538) := fun v243 v538 => decidable_of_iff' _ (Iff.of_eq (k1_chk63.eq_1 v243 v538))
theorem k1_idx63_inb : ∀ (v243 : IVec S16 32) (v538 : IVec S16 32) (k1_hw63 : k1_chk63 v243 v538), ∀ a x, ((![v243, v538] : Fin 2 → IVec S16 32) a x).toNat < S128x128.size a := fun v243 v538 k1_hw63 => k1_hw63

def k1_chk64 (v243 : IVec S16 32) (v540 : IVec S16 32) : Prop :=
  (∀ a x, ((![v243, v540] : Fin 2 → IVec S16 32) a x).toNat < S128x128.size a)
instance k1_chk64.dec : ∀ (v243 : IVec S16 32) (v540 : IVec S16 32), Decidable (k1_chk64 v243 v540) := fun v243 v540 => decidable_of_iff' _ (Iff.of_eq (k1_chk64.eq_1 v243 v540))
theorem k1_idx64_inb : ∀ (v243 : IVec S16 32) (v540 : IVec S16 32) (k1_hw64 : k1_chk64 v243 v540), ∀ a x, ((![v243, v540] : Fin 2 → IVec S16 32) a x).toNat < S128x128.size a := fun v243 v540 k1_hw64 => k1_hw64

def k1_chk65 (v554 : IVec S16 32) : Prop :=
  (∀ a x, ((![v554] : Fin 1 → IVec S16 32) a x).toNat < S8192.size a)
instance k1_chk65.dec : ∀ (v554 : IVec S16 32), Decidable (k1_chk65 v554) := fun v554 => decidable_of_iff' _ (Iff.of_eq (k1_chk65.eq_1 v554))
theorem k1_idx65_inb : ∀ (v554 : IVec S16 32) (k1_hw65 : k1_chk65 v554), ∀ a x, ((![v554] : Fin 1 → IVec S16 32) a x).toNat < S8192.size a := fun v554 k1_hw65 => k1_hw65

def k1_chk66 (v570 : IVec S16 32) : Prop :=
  (∀ a x, ((![v570] : Fin 1 → IVec S16 32) a x).toNat < S8192.size a)
instance k1_chk66.dec : ∀ (v570 : IVec S16 32), Decidable (k1_chk66 v570) := fun v570 => decidable_of_iff' _ (Iff.of_eq (k1_chk66.eq_1 v570))
theorem k1_idx66_inb : ∀ (v570 : IVec S16 32) (k1_hw66 : k1_chk66 v570), ∀ a x, ((![v570] : Fin 1 → IVec S16 32) a x).toNat < S8192.size a := fun v570 k1_hw66 => k1_hw66

def k1_chk67 (v586 : IVec S16 32) : Prop :=
  (∀ a x, ((![v586] : Fin 1 → IVec S16 32) a x).toNat < S8192.size a)
instance k1_chk67.dec : ∀ (v586 : IVec S16 32), Decidable (k1_chk67 v586) := fun v586 => decidable_of_iff' _ (Iff.of_eq (k1_chk67.eq_1 v586))
theorem k1_idx67_inb : ∀ (v586 : IVec S16 32) (k1_hw67 : k1_chk67 v586), ∀ a x, ((![v586] : Fin 1 → IVec S16 32) a x).toNat < S8192.size a := fun v586 k1_hw67 => k1_hw67

def k1_chk68 (v602 : IVec S16 32) : Prop :=
  (∀ a x, ((![v602] : Fin 1 → IVec S16 32) a x).toNat < S8192.size a)
instance k1_chk68.dec : ∀ (v602 : IVec S16 32), Decidable (k1_chk68 v602) := fun v602 => decidable_of_iff' _ (Iff.of_eq (k1_chk68.eq_1 v602))
theorem k1_idx68_inb : ∀ (v602 : IVec S16 32) (k1_hw68 : k1_chk68 v602), ∀ a x, ((![v602] : Fin 1 → IVec S16 32) a x).toNat < S8192.size a := fun v602 k1_hw68 => k1_hw68

def k1_chk69 (v243 : IVec S16 32) (v615 : IVec S16 32) : Prop :=
  (∀ a x, ((![v243, v615] : Fin 2 → IVec S16 32) a x).toNat < S128x128.size a)
instance k1_chk69.dec : ∀ (v243 : IVec S16 32) (v615 : IVec S16 32), Decidable (k1_chk69 v243 v615) := fun v243 v615 => decidable_of_iff' _ (Iff.of_eq (k1_chk69.eq_1 v243 v615))
theorem k1_idx69_inb : ∀ (v243 : IVec S16 32) (v615 : IVec S16 32) (k1_hw69 : k1_chk69 v243 v615), ∀ a x, ((![v243, v615] : Fin 2 → IVec S16 32) a x).toNat < S128x128.size a := fun v243 v615 k1_hw69 => k1_hw69

def k1_chk70 (v243 : IVec S16 32) (v617 : IVec S16 32) : Prop :=
  (∀ a x, ((![v243, v617] : Fin 2 → IVec S16 32) a x).toNat < S128x128.size a)
instance k1_chk70.dec : ∀ (v243 : IVec S16 32) (v617 : IVec S16 32), Decidable (k1_chk70 v243 v617) := fun v243 v617 => decidable_of_iff' _ (Iff.of_eq (k1_chk70.eq_1 v243 v617))
theorem k1_idx70_inb : ∀ (v243 : IVec S16 32) (v617 : IVec S16 32) (k1_hw70 : k1_chk70 v243 v617), ∀ a x, ((![v243, v617] : Fin 2 → IVec S16 32) a x).toNat < S128x128.size a := fun v243 v617 k1_hw70 => k1_hw70

def k1_chk71 (v243 : IVec S16 32) (v619 : IVec S16 32) : Prop :=
  (∀ a x, ((![v243, v619] : Fin 2 → IVec S16 32) a x).toNat < S128x128.size a)
instance k1_chk71.dec : ∀ (v243 : IVec S16 32) (v619 : IVec S16 32), Decidable (k1_chk71 v243 v619) := fun v243 v619 => decidable_of_iff' _ (Iff.of_eq (k1_chk71.eq_1 v243 v619))
theorem k1_idx71_inb : ∀ (v243 : IVec S16 32) (v619 : IVec S16 32) (k1_hw71 : k1_chk71 v243 v619), ∀ a x, ((![v243, v619] : Fin 2 → IVec S16 32) a x).toNat < S128x128.size a := fun v243 v619 k1_hw71 => k1_hw71

def k1_chk72 (v243 : IVec S16 32) (v621 : IVec S16 32) : Prop :=
  (∀ a x, ((![v243, v621] : Fin 2 → IVec S16 32) a x).toNat < S128x128.size a)
instance k1_chk72.dec : ∀ (v243 : IVec S16 32) (v621 : IVec S16 32), Decidable (k1_chk72 v243 v621) := fun v243 v621 => decidable_of_iff' _ (Iff.of_eq (k1_chk72.eq_1 v243 v621))
theorem k1_idx72_inb : ∀ (v243 : IVec S16 32) (v621 : IVec S16 32) (k1_hw72 : k1_chk72 v243 v621), ∀ a x, ((![v243, v621] : Fin 2 → IVec S16 32) a x).toNat < S128x128.size a := fun v243 v621 k1_hw72 => k1_hw72

def k1_chk73 (v243 : IVec S16 32) (v623 : IVec S16 32) : Prop :=
  (∀ a x, ((![v243, v623] : Fin 2 → IVec S16 32) a x).toNat < S128x128.size a)
instance k1_chk73.dec : ∀ (v243 : IVec S16 32) (v623 : IVec S16 32), Decidable (k1_chk73 v243 v623) := fun v243 v623 => decidable_of_iff' _ (Iff.of_eq (k1_chk73.eq_1 v243 v623))
theorem k1_idx73_inb : ∀ (v243 : IVec S16 32) (v623 : IVec S16 32) (k1_hw73 : k1_chk73 v243 v623), ∀ a x, ((![v243, v623] : Fin 2 → IVec S16 32) a x).toNat < S128x128.size a := fun v243 v623 k1_hw73 => k1_hw73

def k1_chk74 (v243 : IVec S16 32) (v625 : IVec S16 32) : Prop :=
  (∀ a x, ((![v243, v625] : Fin 2 → IVec S16 32) a x).toNat < S128x128.size a)
instance k1_chk74.dec : ∀ (v243 : IVec S16 32) (v625 : IVec S16 32), Decidable (k1_chk74 v243 v625) := fun v243 v625 => decidable_of_iff' _ (Iff.of_eq (k1_chk74.eq_1 v243 v625))
theorem k1_idx74_inb : ∀ (v243 : IVec S16 32) (v625 : IVec S16 32) (k1_hw74 : k1_chk74 v243 v625), ∀ a x, ((![v243, v625] : Fin 2 → IVec S16 32) a x).toNat < S128x128.size a := fun v243 v625 k1_hw74 => k1_hw74

def k1_chk75 (v243 : IVec S16 32) (v627 : IVec S16 32) : Prop :=
  (∀ a x, ((![v243, v627] : Fin 2 → IVec S16 32) a x).toNat < S128x128.size a)
instance k1_chk75.dec : ∀ (v243 : IVec S16 32) (v627 : IVec S16 32), Decidable (k1_chk75 v243 v627) := fun v243 v627 => decidable_of_iff' _ (Iff.of_eq (k1_chk75.eq_1 v243 v627))
theorem k1_idx75_inb : ∀ (v243 : IVec S16 32) (v627 : IVec S16 32) (k1_hw75 : k1_chk75 v243 v627), ∀ a x, ((![v243, v627] : Fin 2 → IVec S16 32) a x).toNat < S128x128.size a := fun v243 v627 k1_hw75 => k1_hw75

def k1_chk76 (v243 : IVec S16 32) (v629 : IVec S16 32) : Prop :=
  (∀ a x, ((![v243, v629] : Fin 2 → IVec S16 32) a x).toNat < S128x128.size a)
instance k1_chk76.dec : ∀ (v243 : IVec S16 32) (v629 : IVec S16 32), Decidable (k1_chk76 v243 v629) := fun v243 v629 => decidable_of_iff' _ (Iff.of_eq (k1_chk76.eq_1 v243 v629))
theorem k1_idx76_inb : ∀ (v243 : IVec S16 32) (v629 : IVec S16 32) (k1_hw76 : k1_chk76 v243 v629), ∀ a x, ((![v243, v629] : Fin 2 → IVec S16 32) a x).toNat < S128x128.size a := fun v243 v629 k1_hw76 => k1_hw76

def k1_chk77 (v643 : IVec S16 32) : Prop :=
  (∀ a x, ((![v643] : Fin 1 → IVec S16 32) a x).toNat < S8192.size a)
instance k1_chk77.dec : ∀ (v643 : IVec S16 32), Decidable (k1_chk77 v643) := fun v643 => decidable_of_iff' _ (Iff.of_eq (k1_chk77.eq_1 v643))
theorem k1_idx77_inb : ∀ (v643 : IVec S16 32) (k1_hw77 : k1_chk77 v643), ∀ a x, ((![v643] : Fin 1 → IVec S16 32) a x).toNat < S8192.size a := fun v643 k1_hw77 => k1_hw77

def k1_chk78 (v659 : IVec S16 32) : Prop :=
  (∀ a x, ((![v659] : Fin 1 → IVec S16 32) a x).toNat < S8192.size a)
instance k1_chk78.dec : ∀ (v659 : IVec S16 32), Decidable (k1_chk78 v659) := fun v659 => decidable_of_iff' _ (Iff.of_eq (k1_chk78.eq_1 v659))
theorem k1_idx78_inb : ∀ (v659 : IVec S16 32) (k1_hw78 : k1_chk78 v659), ∀ a x, ((![v659] : Fin 1 → IVec S16 32) a x).toNat < S8192.size a := fun v659 k1_hw78 => k1_hw78

def k1_chk79 (v675 : IVec S16 32) : Prop :=
  (∀ a x, ((![v675] : Fin 1 → IVec S16 32) a x).toNat < S8192.size a)
instance k1_chk79.dec : ∀ (v675 : IVec S16 32), Decidable (k1_chk79 v675) := fun v675 => decidable_of_iff' _ (Iff.of_eq (k1_chk79.eq_1 v675))
theorem k1_idx79_inb : ∀ (v675 : IVec S16 32) (k1_hw79 : k1_chk79 v675), ∀ a x, ((![v675] : Fin 1 → IVec S16 32) a x).toNat < S8192.size a := fun v675 k1_hw79 => k1_hw79

def k1_chk80 (v691 : IVec S16 32) : Prop :=
  (∀ a x, ((![v691] : Fin 1 → IVec S16 32) a x).toNat < S8192.size a)
instance k1_chk80.dec : ∀ (v691 : IVec S16 32), Decidable (k1_chk80 v691) := fun v691 => decidable_of_iff' _ (Iff.of_eq (k1_chk80.eq_1 v691))
theorem k1_idx80_inb : ∀ (v691 : IVec S16 32) (k1_hw80 : k1_chk80 v691), ∀ a x, ((![v691] : Fin 1 → IVec S16 32) a x).toNat < S8192.size a := fun v691 k1_hw80 => k1_hw80

def k1_chk81 (v243 : IVec S16 32) (v704 : IVec S16 32) : Prop :=
  (∀ a x, ((![v243, v704] : Fin 2 → IVec S16 32) a x).toNat < S128x128.size a)
instance k1_chk81.dec : ∀ (v243 : IVec S16 32) (v704 : IVec S16 32), Decidable (k1_chk81 v243 v704) := fun v243 v704 => decidable_of_iff' _ (Iff.of_eq (k1_chk81.eq_1 v243 v704))
theorem k1_idx81_inb : ∀ (v243 : IVec S16 32) (v704 : IVec S16 32) (k1_hw81 : k1_chk81 v243 v704), ∀ a x, ((![v243, v704] : Fin 2 → IVec S16 32) a x).toNat < S128x128.size a := fun v243 v704 k1_hw81 => k1_hw81

def k1_chk82 (v243 : IVec S16 32) (v706 : IVec S16 32) : Prop :=
  (∀ a x, ((![v243, v706] : Fin 2 → IVec S16 32) a x).toNat < S128x128.size a)
instance k1_chk82.dec : ∀ (v243 : IVec S16 32) (v706 : IVec S16 32), Decidable (k1_chk82 v243 v706) := fun v243 v706 => decidable_of_iff' _ (Iff.of_eq (k1_chk82.eq_1 v243 v706))
theorem k1_idx82_inb : ∀ (v243 : IVec S16 32) (v706 : IVec S16 32) (k1_hw82 : k1_chk82 v243 v706), ∀ a x, ((![v243, v706] : Fin 2 → IVec S16 32) a x).toNat < S128x128.size a := fun v243 v706 k1_hw82 => k1_hw82

def k1_chk83 (v243 : IVec S16 32) (v708 : IVec S16 32) : Prop :=
  (∀ a x, ((![v243, v708] : Fin 2 → IVec S16 32) a x).toNat < S128x128.size a)
instance k1_chk83.dec : ∀ (v243 : IVec S16 32) (v708 : IVec S16 32), Decidable (k1_chk83 v243 v708) := fun v243 v708 => decidable_of_iff' _ (Iff.of_eq (k1_chk83.eq_1 v243 v708))
theorem k1_idx83_inb : ∀ (v243 : IVec S16 32) (v708 : IVec S16 32) (k1_hw83 : k1_chk83 v243 v708), ∀ a x, ((![v243, v708] : Fin 2 → IVec S16 32) a x).toNat < S128x128.size a := fun v243 v708 k1_hw83 => k1_hw83

def k1_chk84 (v243 : IVec S16 32) (v710 : IVec S16 32) : Prop :=
  (∀ a x, ((![v243, v710] : Fin 2 → IVec S16 32) a x).toNat < S128x128.size a)
instance k1_chk84.dec : ∀ (v243 : IVec S16 32) (v710 : IVec S16 32), Decidable (k1_chk84 v243 v710) := fun v243 v710 => decidable_of_iff' _ (Iff.of_eq (k1_chk84.eq_1 v243 v710))
theorem k1_idx84_inb : ∀ (v243 : IVec S16 32) (v710 : IVec S16 32) (k1_hw84 : k1_chk84 v243 v710), ∀ a x, ((![v243, v710] : Fin 2 → IVec S16 32) a x).toNat < S128x128.size a := fun v243 v710 k1_hw84 => k1_hw84

def k1_chk85 (v243 : IVec S16 32) (v712 : IVec S16 32) : Prop :=
  (∀ a x, ((![v243, v712] : Fin 2 → IVec S16 32) a x).toNat < S128x128.size a)
instance k1_chk85.dec : ∀ (v243 : IVec S16 32) (v712 : IVec S16 32), Decidable (k1_chk85 v243 v712) := fun v243 v712 => decidable_of_iff' _ (Iff.of_eq (k1_chk85.eq_1 v243 v712))
theorem k1_idx85_inb : ∀ (v243 : IVec S16 32) (v712 : IVec S16 32) (k1_hw85 : k1_chk85 v243 v712), ∀ a x, ((![v243, v712] : Fin 2 → IVec S16 32) a x).toNat < S128x128.size a := fun v243 v712 k1_hw85 => k1_hw85

def k1_chk86 (v243 : IVec S16 32) (v714 : IVec S16 32) : Prop :=
  (∀ a x, ((![v243, v714] : Fin 2 → IVec S16 32) a x).toNat < S128x128.size a)
instance k1_chk86.dec : ∀ (v243 : IVec S16 32) (v714 : IVec S16 32), Decidable (k1_chk86 v243 v714) := fun v243 v714 => decidable_of_iff' _ (Iff.of_eq (k1_chk86.eq_1 v243 v714))
theorem k1_idx86_inb : ∀ (v243 : IVec S16 32) (v714 : IVec S16 32) (k1_hw86 : k1_chk86 v243 v714), ∀ a x, ((![v243, v714] : Fin 2 → IVec S16 32) a x).toNat < S128x128.size a := fun v243 v714 k1_hw86 => k1_hw86

def k1_chk87 (v243 : IVec S16 32) (v716 : IVec S16 32) : Prop :=
  (∀ a x, ((![v243, v716] : Fin 2 → IVec S16 32) a x).toNat < S128x128.size a)
instance k1_chk87.dec : ∀ (v243 : IVec S16 32) (v716 : IVec S16 32), Decidable (k1_chk87 v243 v716) := fun v243 v716 => decidable_of_iff' _ (Iff.of_eq (k1_chk87.eq_1 v243 v716))
theorem k1_idx87_inb : ∀ (v243 : IVec S16 32) (v716 : IVec S16 32) (k1_hw87 : k1_chk87 v243 v716), ∀ a x, ((![v243, v716] : Fin 2 → IVec S16 32) a x).toNat < S128x128.size a := fun v243 v716 k1_hw87 => k1_hw87

def k1_chk88 (v243 : IVec S16 32) (v718 : IVec S16 32) : Prop :=
  (∀ a x, ((![v243, v718] : Fin 2 → IVec S16 32) a x).toNat < S128x128.size a)
instance k1_chk88.dec : ∀ (v243 : IVec S16 32) (v718 : IVec S16 32), Decidable (k1_chk88 v243 v718) := fun v243 v718 => decidable_of_iff' _ (Iff.of_eq (k1_chk88.eq_1 v243 v718))
theorem k1_idx88_inb : ∀ (v243 : IVec S16 32) (v718 : IVec S16 32) (k1_hw88 : k1_chk88 v243 v718), ∀ a x, ((![v243, v718] : Fin 2 → IVec S16 32) a x).toNat < S128x128.size a := fun v243 v718 k1_hw88 => k1_hw88

def k1_chk89 (v732 : IVec S16 32) : Prop :=
  (∀ a x, ((![v732] : Fin 1 → IVec S16 32) a x).toNat < S8192.size a)
instance k1_chk89.dec : ∀ (v732 : IVec S16 32), Decidable (k1_chk89 v732) := fun v732 => decidable_of_iff' _ (Iff.of_eq (k1_chk89.eq_1 v732))
theorem k1_idx89_inb : ∀ (v732 : IVec S16 32) (k1_hw89 : k1_chk89 v732), ∀ a x, ((![v732] : Fin 1 → IVec S16 32) a x).toNat < S8192.size a := fun v732 k1_hw89 => k1_hw89

def k1_chk90 (v748 : IVec S16 32) : Prop :=
  (∀ a x, ((![v748] : Fin 1 → IVec S16 32) a x).toNat < S8192.size a)
instance k1_chk90.dec : ∀ (v748 : IVec S16 32), Decidable (k1_chk90 v748) := fun v748 => decidable_of_iff' _ (Iff.of_eq (k1_chk90.eq_1 v748))
theorem k1_idx90_inb : ∀ (v748 : IVec S16 32) (k1_hw90 : k1_chk90 v748), ∀ a x, ((![v748] : Fin 1 → IVec S16 32) a x).toNat < S8192.size a := fun v748 k1_hw90 => k1_hw90

def k1_chk91 (v764 : IVec S16 32) : Prop :=
  (∀ a x, ((![v764] : Fin 1 → IVec S16 32) a x).toNat < S8192.size a)
instance k1_chk91.dec : ∀ (v764 : IVec S16 32), Decidable (k1_chk91 v764) := fun v764 => decidable_of_iff' _ (Iff.of_eq (k1_chk91.eq_1 v764))
theorem k1_idx91_inb : ∀ (v764 : IVec S16 32) (k1_hw91 : k1_chk91 v764), ∀ a x, ((![v764] : Fin 1 → IVec S16 32) a x).toNat < S8192.size a := fun v764 k1_hw91 => k1_hw91

def k1_chk92 (v780 : IVec S16 32) : Prop :=
  (∀ a x, ((![v780] : Fin 1 → IVec S16 32) a x).toNat < S8192.size a)
instance k1_chk92.dec : ∀ (v780 : IVec S16 32), Decidable (k1_chk92 v780) := fun v780 => decidable_of_iff' _ (Iff.of_eq (k1_chk92.eq_1 v780))
theorem k1_idx92_inb : ∀ (v780 : IVec S16 32) (k1_hw92 : k1_chk92 v780), ∀ a x, ((![v780] : Fin 1 → IVec S16 32) a x).toNat < S8192.size a := fun v780 k1_hw92 => k1_hw92

def k1_chk93 (v243 : IVec S16 32) (v793 : IVec S16 32) : Prop :=
  (∀ a x, ((![v243, v793] : Fin 2 → IVec S16 32) a x).toNat < S128x128.size a)
instance k1_chk93.dec : ∀ (v243 : IVec S16 32) (v793 : IVec S16 32), Decidable (k1_chk93 v243 v793) := fun v243 v793 => decidable_of_iff' _ (Iff.of_eq (k1_chk93.eq_1 v243 v793))
theorem k1_idx93_inb : ∀ (v243 : IVec S16 32) (v793 : IVec S16 32) (k1_hw93 : k1_chk93 v243 v793), ∀ a x, ((![v243, v793] : Fin 2 → IVec S16 32) a x).toNat < S128x128.size a := fun v243 v793 k1_hw93 => k1_hw93

def k1_chk94 (v243 : IVec S16 32) (v795 : IVec S16 32) : Prop :=
  (∀ a x, ((![v243, v795] : Fin 2 → IVec S16 32) a x).toNat < S128x128.size a)
instance k1_chk94.dec : ∀ (v243 : IVec S16 32) (v795 : IVec S16 32), Decidable (k1_chk94 v243 v795) := fun v243 v795 => decidable_of_iff' _ (Iff.of_eq (k1_chk94.eq_1 v243 v795))
theorem k1_idx94_inb : ∀ (v243 : IVec S16 32) (v795 : IVec S16 32) (k1_hw94 : k1_chk94 v243 v795), ∀ a x, ((![v243, v795] : Fin 2 → IVec S16 32) a x).toNat < S128x128.size a := fun v243 v795 k1_hw94 => k1_hw94

def k1_chk95 (v243 : IVec S16 32) (v797 : IVec S16 32) : Prop :=
  (∀ a x, ((![v243, v797] : Fin 2 → IVec S16 32) a x).toNat < S128x128.size a)
instance k1_chk95.dec : ∀ (v243 : IVec S16 32) (v797 : IVec S16 32), Decidable (k1_chk95 v243 v797) := fun v243 v797 => decidable_of_iff' _ (Iff.of_eq (k1_chk95.eq_1 v243 v797))
theorem k1_idx95_inb : ∀ (v243 : IVec S16 32) (v797 : IVec S16 32) (k1_hw95 : k1_chk95 v243 v797), ∀ a x, ((![v243, v797] : Fin 2 → IVec S16 32) a x).toNat < S128x128.size a := fun v243 v797 k1_hw95 => k1_hw95

def k1_chk96 (v243 : IVec S16 32) (v799 : IVec S16 32) : Prop :=
  (∀ a x, ((![v243, v799] : Fin 2 → IVec S16 32) a x).toNat < S128x128.size a)
instance k1_chk96.dec : ∀ (v243 : IVec S16 32) (v799 : IVec S16 32), Decidable (k1_chk96 v243 v799) := fun v243 v799 => decidable_of_iff' _ (Iff.of_eq (k1_chk96.eq_1 v243 v799))
theorem k1_idx96_inb : ∀ (v243 : IVec S16 32) (v799 : IVec S16 32) (k1_hw96 : k1_chk96 v243 v799), ∀ a x, ((![v243, v799] : Fin 2 → IVec S16 32) a x).toNat < S128x128.size a := fun v243 v799 k1_hw96 => k1_hw96

def k1_chk97 (v243 : IVec S16 32) (v801 : IVec S16 32) : Prop :=
  (∀ a x, ((![v243, v801] : Fin 2 → IVec S16 32) a x).toNat < S128x128.size a)
instance k1_chk97.dec : ∀ (v243 : IVec S16 32) (v801 : IVec S16 32), Decidable (k1_chk97 v243 v801) := fun v243 v801 => decidable_of_iff' _ (Iff.of_eq (k1_chk97.eq_1 v243 v801))
theorem k1_idx97_inb : ∀ (v243 : IVec S16 32) (v801 : IVec S16 32) (k1_hw97 : k1_chk97 v243 v801), ∀ a x, ((![v243, v801] : Fin 2 → IVec S16 32) a x).toNat < S128x128.size a := fun v243 v801 k1_hw97 => k1_hw97

def k1_chk98 (v243 : IVec S16 32) (v803 : IVec S16 32) : Prop :=
  (∀ a x, ((![v243, v803] : Fin 2 → IVec S16 32) a x).toNat < S128x128.size a)
instance k1_chk98.dec : ∀ (v243 : IVec S16 32) (v803 : IVec S16 32), Decidable (k1_chk98 v243 v803) := fun v243 v803 => decidable_of_iff' _ (Iff.of_eq (k1_chk98.eq_1 v243 v803))
theorem k1_idx98_inb : ∀ (v243 : IVec S16 32) (v803 : IVec S16 32) (k1_hw98 : k1_chk98 v243 v803), ∀ a x, ((![v243, v803] : Fin 2 → IVec S16 32) a x).toNat < S128x128.size a := fun v243 v803 k1_hw98 => k1_hw98

def k1_chk99 (v243 : IVec S16 32) (v805 : IVec S16 32) : Prop :=
  (∀ a x, ((![v243, v805] : Fin 2 → IVec S16 32) a x).toNat < S128x128.size a)
instance k1_chk99.dec : ∀ (v243 : IVec S16 32) (v805 : IVec S16 32), Decidable (k1_chk99 v243 v805) := fun v243 v805 => decidable_of_iff' _ (Iff.of_eq (k1_chk99.eq_1 v243 v805))
theorem k1_idx99_inb : ∀ (v243 : IVec S16 32) (v805 : IVec S16 32) (k1_hw99 : k1_chk99 v243 v805), ∀ a x, ((![v243, v805] : Fin 2 → IVec S16 32) a x).toNat < S128x128.size a := fun v243 v805 k1_hw99 => k1_hw99

def k1_chk100 (v243 : IVec S16 32) (v807 : IVec S16 32) : Prop :=
  (∀ a x, ((![v243, v807] : Fin 2 → IVec S16 32) a x).toNat < S128x128.size a)
instance k1_chk100.dec : ∀ (v243 : IVec S16 32) (v807 : IVec S16 32), Decidable (k1_chk100 v243 v807) := fun v243 v807 => decidable_of_iff' _ (Iff.of_eq (k1_chk100.eq_1 v243 v807))
theorem k1_idx100_inb : ∀ (v243 : IVec S16 32) (v807 : IVec S16 32) (k1_hw100 : k1_chk100 v243 v807), ∀ a x, ((![v243, v807] : Fin 2 → IVec S16 32) a x).toNat < S128x128.size a := fun v243 v807 k1_hw100 => k1_hw100

def k1_chk101 (v821 : IVec S16 32) : Prop :=
  (∀ a x, ((![v821] : Fin 1 → IVec S16 32) a x).toNat < S8192.size a)
instance k1_chk101.dec : ∀ (v821 : IVec S16 32), Decidable (k1_chk101 v821) := fun v821 => decidable_of_iff' _ (Iff.of_eq (k1_chk101.eq_1 v821))
theorem k1_idx101_inb : ∀ (v821 : IVec S16 32) (k1_hw101 : k1_chk101 v821), ∀ a x, ((![v821] : Fin 1 → IVec S16 32) a x).toNat < S8192.size a := fun v821 k1_hw101 => k1_hw101

def k1_chk102 (v837 : IVec S16 32) : Prop :=
  (∀ a x, ((![v837] : Fin 1 → IVec S16 32) a x).toNat < S8192.size a)
instance k1_chk102.dec : ∀ (v837 : IVec S16 32), Decidable (k1_chk102 v837) := fun v837 => decidable_of_iff' _ (Iff.of_eq (k1_chk102.eq_1 v837))
theorem k1_idx102_inb : ∀ (v837 : IVec S16 32) (k1_hw102 : k1_chk102 v837), ∀ a x, ((![v837] : Fin 1 → IVec S16 32) a x).toNat < S8192.size a := fun v837 k1_hw102 => k1_hw102

def k1_chk103 (v853 : IVec S16 32) : Prop :=
  (∀ a x, ((![v853] : Fin 1 → IVec S16 32) a x).toNat < S8192.size a)
instance k1_chk103.dec : ∀ (v853 : IVec S16 32), Decidable (k1_chk103 v853) := fun v853 => decidable_of_iff' _ (Iff.of_eq (k1_chk103.eq_1 v853))
theorem k1_idx103_inb : ∀ (v853 : IVec S16 32) (k1_hw103 : k1_chk103 v853), ∀ a x, ((![v853] : Fin 1 → IVec S16 32) a x).toNat < S8192.size a := fun v853 k1_hw103 => k1_hw103

def k1_chk104 (v869 : IVec S16 32) : Prop :=
  (∀ a x, ((![v869] : Fin 1 → IVec S16 32) a x).toNat < S8192.size a)
instance k1_chk104.dec : ∀ (v869 : IVec S16 32), Decidable (k1_chk104 v869) := fun v869 => decidable_of_iff' _ (Iff.of_eq (k1_chk104.eq_1 v869))
theorem k1_idx104_inb : ∀ (v869 : IVec S16 32) (k1_hw104 : k1_chk104 v869), ∀ a x, ((![v869] : Fin 1 → IVec S16 32) a x).toNat < S8192.size a := fun v869 k1_hw104 => k1_hw104

def k1_chk105 (v243 : IVec S16 32) (v882 : IVec S16 32) : Prop :=
  (∀ a x, ((![v243, v882] : Fin 2 → IVec S16 32) a x).toNat < S128x128.size a)
instance k1_chk105.dec : ∀ (v243 : IVec S16 32) (v882 : IVec S16 32), Decidable (k1_chk105 v243 v882) := fun v243 v882 => decidable_of_iff' _ (Iff.of_eq (k1_chk105.eq_1 v243 v882))
theorem k1_idx105_inb : ∀ (v243 : IVec S16 32) (v882 : IVec S16 32) (k1_hw105 : k1_chk105 v243 v882), ∀ a x, ((![v243, v882] : Fin 2 → IVec S16 32) a x).toNat < S128x128.size a := fun v243 v882 k1_hw105 => k1_hw105

def k1_chk106 (v243 : IVec S16 32) (v884 : IVec S16 32) : Prop :=
  (∀ a x, ((![v243, v884] : Fin 2 → IVec S16 32) a x).toNat < S128x128.size a)
instance k1_chk106.dec : ∀ (v243 : IVec S16 32) (v884 : IVec S16 32), Decidable (k1_chk106 v243 v884) := fun v243 v884 => decidable_of_iff' _ (Iff.of_eq (k1_chk106.eq_1 v243 v884))
theorem k1_idx106_inb : ∀ (v243 : IVec S16 32) (v884 : IVec S16 32) (k1_hw106 : k1_chk106 v243 v884), ∀ a x, ((![v243, v884] : Fin 2 → IVec S16 32) a x).toNat < S128x128.size a := fun v243 v884 k1_hw106 => k1_hw106

def k1_chk107 (v243 : IVec S16 32) (v886 : IVec S16 32) : Prop :=
  (∀ a x, ((![v243, v886] : Fin 2 → IVec S16 32) a x).toNat < S128x128.size a)
instance k1_chk107.dec : ∀ (v243 : IVec S16 32) (v886 : IVec S16 32), Decidable (k1_chk107 v243 v886) := fun v243 v886 => decidable_of_iff' _ (Iff.of_eq (k1_chk107.eq_1 v243 v886))
theorem k1_idx107_inb : ∀ (v243 : IVec S16 32) (v886 : IVec S16 32) (k1_hw107 : k1_chk107 v243 v886), ∀ a x, ((![v243, v886] : Fin 2 → IVec S16 32) a x).toNat < S128x128.size a := fun v243 v886 k1_hw107 => k1_hw107

def k1_chk108 (v243 : IVec S16 32) (v888 : IVec S16 32) : Prop :=
  (∀ a x, ((![v243, v888] : Fin 2 → IVec S16 32) a x).toNat < S128x128.size a)
instance k1_chk108.dec : ∀ (v243 : IVec S16 32) (v888 : IVec S16 32), Decidable (k1_chk108 v243 v888) := fun v243 v888 => decidable_of_iff' _ (Iff.of_eq (k1_chk108.eq_1 v243 v888))
theorem k1_idx108_inb : ∀ (v243 : IVec S16 32) (v888 : IVec S16 32) (k1_hw108 : k1_chk108 v243 v888), ∀ a x, ((![v243, v888] : Fin 2 → IVec S16 32) a x).toNat < S128x128.size a := fun v243 v888 k1_hw108 => k1_hw108

def k1_chk109 (v243 : IVec S16 32) (v890 : IVec S16 32) : Prop :=
  (∀ a x, ((![v243, v890] : Fin 2 → IVec S16 32) a x).toNat < S128x128.size a)
instance k1_chk109.dec : ∀ (v243 : IVec S16 32) (v890 : IVec S16 32), Decidable (k1_chk109 v243 v890) := fun v243 v890 => decidable_of_iff' _ (Iff.of_eq (k1_chk109.eq_1 v243 v890))
theorem k1_idx109_inb : ∀ (v243 : IVec S16 32) (v890 : IVec S16 32) (k1_hw109 : k1_chk109 v243 v890), ∀ a x, ((![v243, v890] : Fin 2 → IVec S16 32) a x).toNat < S128x128.size a := fun v243 v890 k1_hw109 => k1_hw109

def k1_chk110 (v243 : IVec S16 32) (v892 : IVec S16 32) : Prop :=
  (∀ a x, ((![v243, v892] : Fin 2 → IVec S16 32) a x).toNat < S128x128.size a)
instance k1_chk110.dec : ∀ (v243 : IVec S16 32) (v892 : IVec S16 32), Decidable (k1_chk110 v243 v892) := fun v243 v892 => decidable_of_iff' _ (Iff.of_eq (k1_chk110.eq_1 v243 v892))
theorem k1_idx110_inb : ∀ (v243 : IVec S16 32) (v892 : IVec S16 32) (k1_hw110 : k1_chk110 v243 v892), ∀ a x, ((![v243, v892] : Fin 2 → IVec S16 32) a x).toNat < S128x128.size a := fun v243 v892 k1_hw110 => k1_hw110

def k1_chk111 (v243 : IVec S16 32) (v894 : IVec S16 32) : Prop :=
  (∀ a x, ((![v243, v894] : Fin 2 → IVec S16 32) a x).toNat < S128x128.size a)
instance k1_chk111.dec : ∀ (v243 : IVec S16 32) (v894 : IVec S16 32), Decidable (k1_chk111 v243 v894) := fun v243 v894 => decidable_of_iff' _ (Iff.of_eq (k1_chk111.eq_1 v243 v894))
theorem k1_idx111_inb : ∀ (v243 : IVec S16 32) (v894 : IVec S16 32) (k1_hw111 : k1_chk111 v243 v894), ∀ a x, ((![v243, v894] : Fin 2 → IVec S16 32) a x).toNat < S128x128.size a := fun v243 v894 k1_hw111 => k1_hw111

def k1_chk112 (v243 : IVec S16 32) (v896 : IVec S16 32) : Prop :=
  (∀ a x, ((![v243, v896] : Fin 2 → IVec S16 32) a x).toNat < S128x128.size a)
instance k1_chk112.dec : ∀ (v243 : IVec S16 32) (v896 : IVec S16 32), Decidable (k1_chk112 v243 v896) := fun v243 v896 => decidable_of_iff' _ (Iff.of_eq (k1_chk112.eq_1 v243 v896))
theorem k1_idx112_inb : ∀ (v243 : IVec S16 32) (v896 : IVec S16 32) (k1_hw112 : k1_chk112 v243 v896), ∀ a x, ((![v243, v896] : Fin 2 → IVec S16 32) a x).toNat < S128x128.size a := fun v243 v896 k1_hw112 => k1_hw112

def k1_chk113 (v910 : IVec S16 32) : Prop :=
  (∀ a x, ((![v910] : Fin 1 → IVec S16 32) a x).toNat < S8192.size a)
instance k1_chk113.dec : ∀ (v910 : IVec S16 32), Decidable (k1_chk113 v910) := fun v910 => decidable_of_iff' _ (Iff.of_eq (k1_chk113.eq_1 v910))
theorem k1_idx113_inb : ∀ (v910 : IVec S16 32) (k1_hw113 : k1_chk113 v910), ∀ a x, ((![v910] : Fin 1 → IVec S16 32) a x).toNat < S8192.size a := fun v910 k1_hw113 => k1_hw113

def k1_chk114 (v926 : IVec S16 32) : Prop :=
  (∀ a x, ((![v926] : Fin 1 → IVec S16 32) a x).toNat < S8192.size a)
instance k1_chk114.dec : ∀ (v926 : IVec S16 32), Decidable (k1_chk114 v926) := fun v926 => decidable_of_iff' _ (Iff.of_eq (k1_chk114.eq_1 v926))
theorem k1_idx114_inb : ∀ (v926 : IVec S16 32) (k1_hw114 : k1_chk114 v926), ∀ a x, ((![v926] : Fin 1 → IVec S16 32) a x).toNat < S8192.size a := fun v926 k1_hw114 => k1_hw114

def k1_chk115 (v942 : IVec S16 32) : Prop :=
  (∀ a x, ((![v942] : Fin 1 → IVec S16 32) a x).toNat < S8192.size a)
instance k1_chk115.dec : ∀ (v942 : IVec S16 32), Decidable (k1_chk115 v942) := fun v942 => decidable_of_iff' _ (Iff.of_eq (k1_chk115.eq_1 v942))
theorem k1_idx115_inb : ∀ (v942 : IVec S16 32) (k1_hw115 : k1_chk115 v942), ∀ a x, ((![v942] : Fin 1 → IVec S16 32) a x).toNat < S8192.size a := fun v942 k1_hw115 => k1_hw115

def k1_chk116 (v958 : IVec S16 32) : Prop :=
  (∀ a x, ((![v958] : Fin 1 → IVec S16 32) a x).toNat < S8192.size a)
instance k1_chk116.dec : ∀ (v958 : IVec S16 32), Decidable (k1_chk116 v958) := fun v958 => decidable_of_iff' _ (Iff.of_eq (k1_chk116.eq_1 v958))
theorem k1_idx116_inb : ∀ (v958 : IVec S16 32) (k1_hw116 : k1_chk116 v958), ∀ a x, ((![v958] : Fin 1 → IVec S16 32) a x).toNat < S8192.size a := fun v958 k1_hw116 => k1_hw116

def k1_chk117 (v243 : IVec S16 32) (v971 : IVec S16 32) : Prop :=
  (∀ a x, ((![v243, v971] : Fin 2 → IVec S16 32) a x).toNat < S128x128.size a)
instance k1_chk117.dec : ∀ (v243 : IVec S16 32) (v971 : IVec S16 32), Decidable (k1_chk117 v243 v971) := fun v243 v971 => decidable_of_iff' _ (Iff.of_eq (k1_chk117.eq_1 v243 v971))
theorem k1_idx117_inb : ∀ (v243 : IVec S16 32) (v971 : IVec S16 32) (k1_hw117 : k1_chk117 v243 v971), ∀ a x, ((![v243, v971] : Fin 2 → IVec S16 32) a x).toNat < S128x128.size a := fun v243 v971 k1_hw117 => k1_hw117

def k1_chk118 (v243 : IVec S16 32) (v973 : IVec S16 32) : Prop :=
  (∀ a x, ((![v243, v973] : Fin 2 → IVec S16 32) a x).toNat < S128x128.size a)
instance k1_chk118.dec : ∀ (v243 : IVec S16 32) (v973 : IVec S16 32), Decidable (k1_chk118 v243 v973) := fun v243 v973 => decidable_of_iff' _ (Iff.of_eq (k1_chk118.eq_1 v243 v973))
theorem k1_idx118_inb : ∀ (v243 : IVec S16 32) (v973 : IVec S16 32) (k1_hw118 : k1_chk118 v243 v973), ∀ a x, ((![v243, v973] : Fin 2 → IVec S16 32) a x).toNat < S128x128.size a := fun v243 v973 k1_hw118 => k1_hw118

def k1_chk119 (v243 : IVec S16 32) (v975 : IVec S16 32) : Prop :=
  (∀ a x, ((![v243, v975] : Fin 2 → IVec S16 32) a x).toNat < S128x128.size a)
instance k1_chk119.dec : ∀ (v243 : IVec S16 32) (v975 : IVec S16 32), Decidable (k1_chk119 v243 v975) := fun v243 v975 => decidable_of_iff' _ (Iff.of_eq (k1_chk119.eq_1 v243 v975))
theorem k1_idx119_inb : ∀ (v243 : IVec S16 32) (v975 : IVec S16 32) (k1_hw119 : k1_chk119 v243 v975), ∀ a x, ((![v243, v975] : Fin 2 → IVec S16 32) a x).toNat < S128x128.size a := fun v243 v975 k1_hw119 => k1_hw119

def k1_chk120 (v243 : IVec S16 32) (v977 : IVec S16 32) : Prop :=
  (∀ a x, ((![v243, v977] : Fin 2 → IVec S16 32) a x).toNat < S128x128.size a)
instance k1_chk120.dec : ∀ (v243 : IVec S16 32) (v977 : IVec S16 32), Decidable (k1_chk120 v243 v977) := fun v243 v977 => decidable_of_iff' _ (Iff.of_eq (k1_chk120.eq_1 v243 v977))
theorem k1_idx120_inb : ∀ (v243 : IVec S16 32) (v977 : IVec S16 32) (k1_hw120 : k1_chk120 v243 v977), ∀ a x, ((![v243, v977] : Fin 2 → IVec S16 32) a x).toNat < S128x128.size a := fun v243 v977 k1_hw120 => k1_hw120

def k1_chk121 (v243 : IVec S16 32) (v979 : IVec S16 32) : Prop :=
  (∀ a x, ((![v243, v979] : Fin 2 → IVec S16 32) a x).toNat < S128x128.size a)
instance k1_chk121.dec : ∀ (v243 : IVec S16 32) (v979 : IVec S16 32), Decidable (k1_chk121 v243 v979) := fun v243 v979 => decidable_of_iff' _ (Iff.of_eq (k1_chk121.eq_1 v243 v979))
theorem k1_idx121_inb : ∀ (v243 : IVec S16 32) (v979 : IVec S16 32) (k1_hw121 : k1_chk121 v243 v979), ∀ a x, ((![v243, v979] : Fin 2 → IVec S16 32) a x).toNat < S128x128.size a := fun v243 v979 k1_hw121 => k1_hw121

def k1_chk122 (v243 : IVec S16 32) (v981 : IVec S16 32) : Prop :=
  (∀ a x, ((![v243, v981] : Fin 2 → IVec S16 32) a x).toNat < S128x128.size a)
instance k1_chk122.dec : ∀ (v243 : IVec S16 32) (v981 : IVec S16 32), Decidable (k1_chk122 v243 v981) := fun v243 v981 => decidable_of_iff' _ (Iff.of_eq (k1_chk122.eq_1 v243 v981))
theorem k1_idx122_inb : ∀ (v243 : IVec S16 32) (v981 : IVec S16 32) (k1_hw122 : k1_chk122 v243 v981), ∀ a x, ((![v243, v981] : Fin 2 → IVec S16 32) a x).toNat < S128x128.size a := fun v243 v981 k1_hw122 => k1_hw122

def k1_chk123 (v243 : IVec S16 32) (v983 : IVec S16 32) : Prop :=
  (∀ a x, ((![v243, v983] : Fin 2 → IVec S16 32) a x).toNat < S128x128.size a)
instance k1_chk123.dec : ∀ (v243 : IVec S16 32) (v983 : IVec S16 32), Decidable (k1_chk123 v243 v983) := fun v243 v983 => decidable_of_iff' _ (Iff.of_eq (k1_chk123.eq_1 v243 v983))
theorem k1_idx123_inb : ∀ (v243 : IVec S16 32) (v983 : IVec S16 32) (k1_hw123 : k1_chk123 v243 v983), ∀ a x, ((![v243, v983] : Fin 2 → IVec S16 32) a x).toNat < S128x128.size a := fun v243 v983 k1_hw123 => k1_hw123

def k1_chk124 (v243 : IVec S16 32) (v985 : IVec S16 32) : Prop :=
  (∀ a x, ((![v243, v985] : Fin 2 → IVec S16 32) a x).toNat < S128x128.size a)
instance k1_chk124.dec : ∀ (v243 : IVec S16 32) (v985 : IVec S16 32), Decidable (k1_chk124 v243 v985) := fun v243 v985 => decidable_of_iff' _ (Iff.of_eq (k1_chk124.eq_1 v243 v985))
theorem k1_idx124_inb : ∀ (v243 : IVec S16 32) (v985 : IVec S16 32) (k1_hw124 : k1_chk124 v243 v985), ∀ a x, ((![v243, v985] : Fin 2 → IVec S16 32) a x).toNat < S128x128.size a := fun v243 v985 k1_hw124 => k1_hw124

def k1_chk125 (v999 : IVec S16 32) : Prop :=
  (∀ a x, ((![v999] : Fin 1 → IVec S16 32) a x).toNat < S8192.size a)
instance k1_chk125.dec : ∀ (v999 : IVec S16 32), Decidable (k1_chk125 v999) := fun v999 => decidable_of_iff' _ (Iff.of_eq (k1_chk125.eq_1 v999))
theorem k1_idx125_inb : ∀ (v999 : IVec S16 32) (k1_hw125 : k1_chk125 v999), ∀ a x, ((![v999] : Fin 1 → IVec S16 32) a x).toNat < S8192.size a := fun v999 k1_hw125 => k1_hw125

def k1_chk126 (v1015 : IVec S16 32) : Prop :=
  (∀ a x, ((![v1015] : Fin 1 → IVec S16 32) a x).toNat < S8192.size a)
instance k1_chk126.dec : ∀ (v1015 : IVec S16 32), Decidable (k1_chk126 v1015) := fun v1015 => decidable_of_iff' _ (Iff.of_eq (k1_chk126.eq_1 v1015))
theorem k1_idx126_inb : ∀ (v1015 : IVec S16 32) (k1_hw126 : k1_chk126 v1015), ∀ a x, ((![v1015] : Fin 1 → IVec S16 32) a x).toNat < S8192.size a := fun v1015 k1_hw126 => k1_hw126

def k1_chk127 (v1031 : IVec S16 32) : Prop :=
  (∀ a x, ((![v1031] : Fin 1 → IVec S16 32) a x).toNat < S8192.size a)
instance k1_chk127.dec : ∀ (v1031 : IVec S16 32), Decidable (k1_chk127 v1031) := fun v1031 => decidable_of_iff' _ (Iff.of_eq (k1_chk127.eq_1 v1031))
theorem k1_idx127_inb : ∀ (v1031 : IVec S16 32) (k1_hw127 : k1_chk127 v1031), ∀ a x, ((![v1031] : Fin 1 → IVec S16 32) a x).toNat < S8192.size a := fun v1031 k1_hw127 => k1_hw127

def k1_chk128 (v1047 : IVec S16 32) : Prop :=
  (∀ a x, ((![v1047] : Fin 1 → IVec S16 32) a x).toNat < S8192.size a)
instance k1_chk128.dec : ∀ (v1047 : IVec S16 32), Decidable (k1_chk128 v1047) := fun v1047 => decidable_of_iff' _ (Iff.of_eq (k1_chk128.eq_1 v1047))
theorem k1_idx128_inb : ∀ (v1047 : IVec S16 32) (k1_hw128 : k1_chk128 v1047), ∀ a x, ((![v1047] : Fin 1 → IVec S16 32) a x).toNat < S8192.size a := fun v1047 k1_hw128 => k1_hw128

def k1_chk129 (v243 : IVec S16 32) (v1060 : IVec S16 32) : Prop :=
  (∀ a x, ((![v243, v1060] : Fin 2 → IVec S16 32) a x).toNat < S128x128.size a)
instance k1_chk129.dec : ∀ (v243 : IVec S16 32) (v1060 : IVec S16 32), Decidable (k1_chk129 v243 v1060) := fun v243 v1060 => decidable_of_iff' _ (Iff.of_eq (k1_chk129.eq_1 v243 v1060))
theorem k1_idx129_inb : ∀ (v243 : IVec S16 32) (v1060 : IVec S16 32) (k1_hw129 : k1_chk129 v243 v1060), ∀ a x, ((![v243, v1060] : Fin 2 → IVec S16 32) a x).toNat < S128x128.size a := fun v243 v1060 k1_hw129 => k1_hw129

def k1_chk130 (v243 : IVec S16 32) (v1062 : IVec S16 32) : Prop :=
  (∀ a x, ((![v243, v1062] : Fin 2 → IVec S16 32) a x).toNat < S128x128.size a)
instance k1_chk130.dec : ∀ (v243 : IVec S16 32) (v1062 : IVec S16 32), Decidable (k1_chk130 v243 v1062) := fun v243 v1062 => decidable_of_iff' _ (Iff.of_eq (k1_chk130.eq_1 v243 v1062))
theorem k1_idx130_inb : ∀ (v243 : IVec S16 32) (v1062 : IVec S16 32) (k1_hw130 : k1_chk130 v243 v1062), ∀ a x, ((![v243, v1062] : Fin 2 → IVec S16 32) a x).toNat < S128x128.size a := fun v243 v1062 k1_hw130 => k1_hw130

def k1_chk131 (v243 : IVec S16 32) (v1064 : IVec S16 32) : Prop :=
  (∀ a x, ((![v243, v1064] : Fin 2 → IVec S16 32) a x).toNat < S128x128.size a)
instance k1_chk131.dec : ∀ (v243 : IVec S16 32) (v1064 : IVec S16 32), Decidable (k1_chk131 v243 v1064) := fun v243 v1064 => decidable_of_iff' _ (Iff.of_eq (k1_chk131.eq_1 v243 v1064))
theorem k1_idx131_inb : ∀ (v243 : IVec S16 32) (v1064 : IVec S16 32) (k1_hw131 : k1_chk131 v243 v1064), ∀ a x, ((![v243, v1064] : Fin 2 → IVec S16 32) a x).toNat < S128x128.size a := fun v243 v1064 k1_hw131 => k1_hw131

def k1_chk132 (v243 : IVec S16 32) (v1066 : IVec S16 32) : Prop :=
  (∀ a x, ((![v243, v1066] : Fin 2 → IVec S16 32) a x).toNat < S128x128.size a)
instance k1_chk132.dec : ∀ (v243 : IVec S16 32) (v1066 : IVec S16 32), Decidable (k1_chk132 v243 v1066) := fun v243 v1066 => decidable_of_iff' _ (Iff.of_eq (k1_chk132.eq_1 v243 v1066))
theorem k1_idx132_inb : ∀ (v243 : IVec S16 32) (v1066 : IVec S16 32) (k1_hw132 : k1_chk132 v243 v1066), ∀ a x, ((![v243, v1066] : Fin 2 → IVec S16 32) a x).toNat < S128x128.size a := fun v243 v1066 k1_hw132 => k1_hw132

def k1_chk133 (v243 : IVec S16 32) (v1068 : IVec S16 32) : Prop :=
  (∀ a x, ((![v243, v1068] : Fin 2 → IVec S16 32) a x).toNat < S128x128.size a)
instance k1_chk133.dec : ∀ (v243 : IVec S16 32) (v1068 : IVec S16 32), Decidable (k1_chk133 v243 v1068) := fun v243 v1068 => decidable_of_iff' _ (Iff.of_eq (k1_chk133.eq_1 v243 v1068))
theorem k1_idx133_inb : ∀ (v243 : IVec S16 32) (v1068 : IVec S16 32) (k1_hw133 : k1_chk133 v243 v1068), ∀ a x, ((![v243, v1068] : Fin 2 → IVec S16 32) a x).toNat < S128x128.size a := fun v243 v1068 k1_hw133 => k1_hw133

def k1_chk134 (v243 : IVec S16 32) (v1070 : IVec S16 32) : Prop :=
  (∀ a x, ((![v243, v1070] : Fin 2 → IVec S16 32) a x).toNat < S128x128.size a)
instance k1_chk134.dec : ∀ (v243 : IVec S16 32) (v1070 : IVec S16 32), Decidable (k1_chk134 v243 v1070) := fun v243 v1070 => decidable_of_iff' _ (Iff.of_eq (k1_chk134.eq_1 v243 v1070))
theorem k1_idx134_inb : ∀ (v243 : IVec S16 32) (v1070 : IVec S16 32) (k1_hw134 : k1_chk134 v243 v1070), ∀ a x, ((![v243, v1070] : Fin 2 → IVec S16 32) a x).toNat < S128x128.size a := fun v243 v1070 k1_hw134 => k1_hw134

def k1_chk135 (v243 : IVec S16 32) (v1072 : IVec S16 32) : Prop :=
  (∀ a x, ((![v243, v1072] : Fin 2 → IVec S16 32) a x).toNat < S128x128.size a)
instance k1_chk135.dec : ∀ (v243 : IVec S16 32) (v1072 : IVec S16 32), Decidable (k1_chk135 v243 v1072) := fun v243 v1072 => decidable_of_iff' _ (Iff.of_eq (k1_chk135.eq_1 v243 v1072))
theorem k1_idx135_inb : ∀ (v243 : IVec S16 32) (v1072 : IVec S16 32) (k1_hw135 : k1_chk135 v243 v1072), ∀ a x, ((![v243, v1072] : Fin 2 → IVec S16 32) a x).toNat < S128x128.size a := fun v243 v1072 k1_hw135 => k1_hw135

def k1_chk136 (v243 : IVec S16 32) (v1074 : IVec S16 32) : Prop :=
  (∀ a x, ((![v243, v1074] : Fin 2 → IVec S16 32) a x).toNat < S128x128.size a)
instance k1_chk136.dec : ∀ (v243 : IVec S16 32) (v1074 : IVec S16 32), Decidable (k1_chk136 v243 v1074) := fun v243 v1074 => decidable_of_iff' _ (Iff.of_eq (k1_chk136.eq_1 v243 v1074))
theorem k1_idx136_inb : ∀ (v243 : IVec S16 32) (v1074 : IVec S16 32) (k1_hw136 : k1_chk136 v243 v1074), ∀ a x, ((![v243, v1074] : Fin 2 → IVec S16 32) a x).toNat < S128x128.size a := fun v243 v1074 k1_hw136 => k1_hw136

def k1_chk137 (v1088 : IVec S16 32) : Prop :=
  (∀ a x, ((![v1088] : Fin 1 → IVec S16 32) a x).toNat < S8192.size a)
instance k1_chk137.dec : ∀ (v1088 : IVec S16 32), Decidable (k1_chk137 v1088) := fun v1088 => decidable_of_iff' _ (Iff.of_eq (k1_chk137.eq_1 v1088))
theorem k1_idx137_inb : ∀ (v1088 : IVec S16 32) (k1_hw137 : k1_chk137 v1088), ∀ a x, ((![v1088] : Fin 1 → IVec S16 32) a x).toNat < S8192.size a := fun v1088 k1_hw137 => k1_hw137

def k1_chk138 (v1104 : IVec S16 32) : Prop :=
  (∀ a x, ((![v1104] : Fin 1 → IVec S16 32) a x).toNat < S8192.size a)
instance k1_chk138.dec : ∀ (v1104 : IVec S16 32), Decidable (k1_chk138 v1104) := fun v1104 => decidable_of_iff' _ (Iff.of_eq (k1_chk138.eq_1 v1104))
theorem k1_idx138_inb : ∀ (v1104 : IVec S16 32) (k1_hw138 : k1_chk138 v1104), ∀ a x, ((![v1104] : Fin 1 → IVec S16 32) a x).toNat < S8192.size a := fun v1104 k1_hw138 => k1_hw138

def k1_chk139 (v1120 : IVec S16 32) : Prop :=
  (∀ a x, ((![v1120] : Fin 1 → IVec S16 32) a x).toNat < S8192.size a)
instance k1_chk139.dec : ∀ (v1120 : IVec S16 32), Decidable (k1_chk139 v1120) := fun v1120 => decidable_of_iff' _ (Iff.of_eq (k1_chk139.eq_1 v1120))
theorem k1_idx139_inb : ∀ (v1120 : IVec S16 32) (k1_hw139 : k1_chk139 v1120), ∀ a x, ((![v1120] : Fin 1 → IVec S16 32) a x).toNat < S8192.size a := fun v1120 k1_hw139 => k1_hw139

def k1_chk140 (v1136 : IVec S16 32) : Prop :=
  (∀ a x, ((![v1136] : Fin 1 → IVec S16 32) a x).toNat < S8192.size a)
instance k1_chk140.dec : ∀ (v1136 : IVec S16 32), Decidable (k1_chk140 v1136) := fun v1136 => decidable_of_iff' _ (Iff.of_eq (k1_chk140.eq_1 v1136))
theorem k1_idx140_inb : ∀ (v1136 : IVec S16 32) (k1_hw140 : k1_chk140 v1136), ∀ a x, ((![v1136] : Fin 1 → IVec S16 32) a x).toNat < S8192.size a := fun v1136 k1_hw140 => k1_hw140

def k1_chk141 (v243 : IVec S16 32) (v1149 : IVec S16 32) : Prop :=
  (∀ a x, ((![v243, v1149] : Fin 2 → IVec S16 32) a x).toNat < S128x128.size a)
instance k1_chk141.dec : ∀ (v243 : IVec S16 32) (v1149 : IVec S16 32), Decidable (k1_chk141 v243 v1149) := fun v243 v1149 => decidable_of_iff' _ (Iff.of_eq (k1_chk141.eq_1 v243 v1149))
theorem k1_idx141_inb : ∀ (v243 : IVec S16 32) (v1149 : IVec S16 32) (k1_hw141 : k1_chk141 v243 v1149), ∀ a x, ((![v243, v1149] : Fin 2 → IVec S16 32) a x).toNat < S128x128.size a := fun v243 v1149 k1_hw141 => k1_hw141

def k1_chk142 (v243 : IVec S16 32) (v1151 : IVec S16 32) : Prop :=
  (∀ a x, ((![v243, v1151] : Fin 2 → IVec S16 32) a x).toNat < S128x128.size a)
instance k1_chk142.dec : ∀ (v243 : IVec S16 32) (v1151 : IVec S16 32), Decidable (k1_chk142 v243 v1151) := fun v243 v1151 => decidable_of_iff' _ (Iff.of_eq (k1_chk142.eq_1 v243 v1151))
theorem k1_idx142_inb : ∀ (v243 : IVec S16 32) (v1151 : IVec S16 32) (k1_hw142 : k1_chk142 v243 v1151), ∀ a x, ((![v243, v1151] : Fin 2 → IVec S16 32) a x).toNat < S128x128.size a := fun v243 v1151 k1_hw142 => k1_hw142

def k1_chk143 (v243 : IVec S16 32) (v1153 : IVec S16 32) : Prop :=
  (∀ a x, ((![v243, v1153] : Fin 2 → IVec S16 32) a x).toNat < S128x128.size a)
instance k1_chk143.dec : ∀ (v243 : IVec S16 32) (v1153 : IVec S16 32), Decidable (k1_chk143 v243 v1153) := fun v243 v1153 => decidable_of_iff' _ (Iff.of_eq (k1_chk143.eq_1 v243 v1153))
theorem k1_idx143_inb : ∀ (v243 : IVec S16 32) (v1153 : IVec S16 32) (k1_hw143 : k1_chk143 v243 v1153), ∀ a x, ((![v243, v1153] : Fin 2 → IVec S16 32) a x).toNat < S128x128.size a := fun v243 v1153 k1_hw143 => k1_hw143

def k1_chk144 (v243 : IVec S16 32) (v1155 : IVec S16 32) : Prop :=
  (∀ a x, ((![v243, v1155] : Fin 2 → IVec S16 32) a x).toNat < S128x128.size a)
instance k1_chk144.dec : ∀ (v243 : IVec S16 32) (v1155 : IVec S16 32), Decidable (k1_chk144 v243 v1155) := fun v243 v1155 => decidable_of_iff' _ (Iff.of_eq (k1_chk144.eq_1 v243 v1155))
theorem k1_idx144_inb : ∀ (v243 : IVec S16 32) (v1155 : IVec S16 32) (k1_hw144 : k1_chk144 v243 v1155), ∀ a x, ((![v243, v1155] : Fin 2 → IVec S16 32) a x).toNat < S128x128.size a := fun v243 v1155 k1_hw144 => k1_hw144

def k1_chk145 (v243 : IVec S16 32) (v1157 : IVec S16 32) : Prop :=
  (∀ a x, ((![v243, v1157] : Fin 2 → IVec S16 32) a x).toNat < S128x128.size a)
instance k1_chk145.dec : ∀ (v243 : IVec S16 32) (v1157 : IVec S16 32), Decidable (k1_chk145 v243 v1157) := fun v243 v1157 => decidable_of_iff' _ (Iff.of_eq (k1_chk145.eq_1 v243 v1157))
theorem k1_idx145_inb : ∀ (v243 : IVec S16 32) (v1157 : IVec S16 32) (k1_hw145 : k1_chk145 v243 v1157), ∀ a x, ((![v243, v1157] : Fin 2 → IVec S16 32) a x).toNat < S128x128.size a := fun v243 v1157 k1_hw145 => k1_hw145

def k1_chk146 (v243 : IVec S16 32) (v1159 : IVec S16 32) : Prop :=
  (∀ a x, ((![v243, v1159] : Fin 2 → IVec S16 32) a x).toNat < S128x128.size a)
instance k1_chk146.dec : ∀ (v243 : IVec S16 32) (v1159 : IVec S16 32), Decidable (k1_chk146 v243 v1159) := fun v243 v1159 => decidable_of_iff' _ (Iff.of_eq (k1_chk146.eq_1 v243 v1159))
theorem k1_idx146_inb : ∀ (v243 : IVec S16 32) (v1159 : IVec S16 32) (k1_hw146 : k1_chk146 v243 v1159), ∀ a x, ((![v243, v1159] : Fin 2 → IVec S16 32) a x).toNat < S128x128.size a := fun v243 v1159 k1_hw146 => k1_hw146

def k1_chk147 (v243 : IVec S16 32) (v1161 : IVec S16 32) : Prop :=
  (∀ a x, ((![v243, v1161] : Fin 2 → IVec S16 32) a x).toNat < S128x128.size a)
instance k1_chk147.dec : ∀ (v243 : IVec S16 32) (v1161 : IVec S16 32), Decidable (k1_chk147 v243 v1161) := fun v243 v1161 => decidable_of_iff' _ (Iff.of_eq (k1_chk147.eq_1 v243 v1161))
theorem k1_idx147_inb : ∀ (v243 : IVec S16 32) (v1161 : IVec S16 32) (k1_hw147 : k1_chk147 v243 v1161), ∀ a x, ((![v243, v1161] : Fin 2 → IVec S16 32) a x).toNat < S128x128.size a := fun v243 v1161 k1_hw147 => k1_hw147

def k1_chk148 (v243 : IVec S16 32) (v1163 : IVec S16 32) : Prop :=
  (∀ a x, ((![v243, v1163] : Fin 2 → IVec S16 32) a x).toNat < S128x128.size a)
instance k1_chk148.dec : ∀ (v243 : IVec S16 32) (v1163 : IVec S16 32), Decidable (k1_chk148 v243 v1163) := fun v243 v1163 => decidable_of_iff' _ (Iff.of_eq (k1_chk148.eq_1 v243 v1163))
theorem k1_idx148_inb : ∀ (v243 : IVec S16 32) (v1163 : IVec S16 32) (k1_hw148 : k1_chk148 v243 v1163), ∀ a x, ((![v243, v1163] : Fin 2 → IVec S16 32) a x).toNat < S128x128.size a := fun v243 v1163 k1_hw148 => k1_hw148

def k1_chk149 (v1177 : IVec S16 32) : Prop :=
  (∀ a x, ((![v1177] : Fin 1 → IVec S16 32) a x).toNat < S8192.size a)
instance k1_chk149.dec : ∀ (v1177 : IVec S16 32), Decidable (k1_chk149 v1177) := fun v1177 => decidable_of_iff' _ (Iff.of_eq (k1_chk149.eq_1 v1177))
theorem k1_idx149_inb : ∀ (v1177 : IVec S16 32) (k1_hw149 : k1_chk149 v1177), ∀ a x, ((![v1177] : Fin 1 → IVec S16 32) a x).toNat < S8192.size a := fun v1177 k1_hw149 => k1_hw149

def k1_chk150 (v1193 : IVec S16 32) : Prop :=
  (∀ a x, ((![v1193] : Fin 1 → IVec S16 32) a x).toNat < S8192.size a)
instance k1_chk150.dec : ∀ (v1193 : IVec S16 32), Decidable (k1_chk150 v1193) := fun v1193 => decidable_of_iff' _ (Iff.of_eq (k1_chk150.eq_1 v1193))
theorem k1_idx150_inb : ∀ (v1193 : IVec S16 32) (k1_hw150 : k1_chk150 v1193), ∀ a x, ((![v1193] : Fin 1 → IVec S16 32) a x).toNat < S8192.size a := fun v1193 k1_hw150 => k1_hw150

def k1_chk151 (v1209 : IVec S16 32) : Prop :=
  (∀ a x, ((![v1209] : Fin 1 → IVec S16 32) a x).toNat < S8192.size a)
instance k1_chk151.dec : ∀ (v1209 : IVec S16 32), Decidable (k1_chk151 v1209) := fun v1209 => decidable_of_iff' _ (Iff.of_eq (k1_chk151.eq_1 v1209))
theorem k1_idx151_inb : ∀ (v1209 : IVec S16 32) (k1_hw151 : k1_chk151 v1209), ∀ a x, ((![v1209] : Fin 1 → IVec S16 32) a x).toNat < S8192.size a := fun v1209 k1_hw151 => k1_hw151

def k1_chk152 (v1225 : IVec S16 32) : Prop :=
  (∀ a x, ((![v1225] : Fin 1 → IVec S16 32) a x).toNat < S8192.size a)
instance k1_chk152.dec : ∀ (v1225 : IVec S16 32), Decidable (k1_chk152 v1225) := fun v1225 => decidable_of_iff' _ (Iff.of_eq (k1_chk152.eq_1 v1225))
theorem k1_idx152_inb : ∀ (v1225 : IVec S16 32) (k1_hw152 : k1_chk152 v1225), ∀ a x, ((![v1225] : Fin 1 → IVec S16 32) a x).toNat < S8192.size a := fun v1225 k1_hw152 => k1_hw152

def k1_chk153 (v243 : IVec S16 32) (v1238 : IVec S16 32) : Prop :=
  (∀ a x, ((![v243, v1238] : Fin 2 → IVec S16 32) a x).toNat < S128x128.size a)
instance k1_chk153.dec : ∀ (v243 : IVec S16 32) (v1238 : IVec S16 32), Decidable (k1_chk153 v243 v1238) := fun v243 v1238 => decidable_of_iff' _ (Iff.of_eq (k1_chk153.eq_1 v243 v1238))
theorem k1_idx153_inb : ∀ (v243 : IVec S16 32) (v1238 : IVec S16 32) (k1_hw153 : k1_chk153 v243 v1238), ∀ a x, ((![v243, v1238] : Fin 2 → IVec S16 32) a x).toNat < S128x128.size a := fun v243 v1238 k1_hw153 => k1_hw153

def k1_chk154 (v243 : IVec S16 32) (v1240 : IVec S16 32) : Prop :=
  (∀ a x, ((![v243, v1240] : Fin 2 → IVec S16 32) a x).toNat < S128x128.size a)
instance k1_chk154.dec : ∀ (v243 : IVec S16 32) (v1240 : IVec S16 32), Decidable (k1_chk154 v243 v1240) := fun v243 v1240 => decidable_of_iff' _ (Iff.of_eq (k1_chk154.eq_1 v243 v1240))
theorem k1_idx154_inb : ∀ (v243 : IVec S16 32) (v1240 : IVec S16 32) (k1_hw154 : k1_chk154 v243 v1240), ∀ a x, ((![v243, v1240] : Fin 2 → IVec S16 32) a x).toNat < S128x128.size a := fun v243 v1240 k1_hw154 => k1_hw154

def k1_chk155 (v243 : IVec S16 32) (v1242 : IVec S16 32) : Prop :=
  (∀ a x, ((![v243, v1242] : Fin 2 → IVec S16 32) a x).toNat < S128x128.size a)
instance k1_chk155.dec : ∀ (v243 : IVec S16 32) (v1242 : IVec S16 32), Decidable (k1_chk155 v243 v1242) := fun v243 v1242 => decidable_of_iff' _ (Iff.of_eq (k1_chk155.eq_1 v243 v1242))
theorem k1_idx155_inb : ∀ (v243 : IVec S16 32) (v1242 : IVec S16 32) (k1_hw155 : k1_chk155 v243 v1242), ∀ a x, ((![v243, v1242] : Fin 2 → IVec S16 32) a x).toNat < S128x128.size a := fun v243 v1242 k1_hw155 => k1_hw155

def k1_chk156 (v243 : IVec S16 32) (v1244 : IVec S16 32) : Prop :=
  (∀ a x, ((![v243, v1244] : Fin 2 → IVec S16 32) a x).toNat < S128x128.size a)
instance k1_chk156.dec : ∀ (v243 : IVec S16 32) (v1244 : IVec S16 32), Decidable (k1_chk156 v243 v1244) := fun v243 v1244 => decidable_of_iff' _ (Iff.of_eq (k1_chk156.eq_1 v243 v1244))
theorem k1_idx156_inb : ∀ (v243 : IVec S16 32) (v1244 : IVec S16 32) (k1_hw156 : k1_chk156 v243 v1244), ∀ a x, ((![v243, v1244] : Fin 2 → IVec S16 32) a x).toNat < S128x128.size a := fun v243 v1244 k1_hw156 => k1_hw156

def k1_chk157 (v243 : IVec S16 32) (v1246 : IVec S16 32) : Prop :=
  (∀ a x, ((![v243, v1246] : Fin 2 → IVec S16 32) a x).toNat < S128x128.size a)
instance k1_chk157.dec : ∀ (v243 : IVec S16 32) (v1246 : IVec S16 32), Decidable (k1_chk157 v243 v1246) := fun v243 v1246 => decidable_of_iff' _ (Iff.of_eq (k1_chk157.eq_1 v243 v1246))
theorem k1_idx157_inb : ∀ (v243 : IVec S16 32) (v1246 : IVec S16 32) (k1_hw157 : k1_chk157 v243 v1246), ∀ a x, ((![v243, v1246] : Fin 2 → IVec S16 32) a x).toNat < S128x128.size a := fun v243 v1246 k1_hw157 => k1_hw157

def k1_chk158 (v243 : IVec S16 32) (v1248 : IVec S16 32) : Prop :=
  (∀ a x, ((![v243, v1248] : Fin 2 → IVec S16 32) a x).toNat < S128x128.size a)
instance k1_chk158.dec : ∀ (v243 : IVec S16 32) (v1248 : IVec S16 32), Decidable (k1_chk158 v243 v1248) := fun v243 v1248 => decidable_of_iff' _ (Iff.of_eq (k1_chk158.eq_1 v243 v1248))
theorem k1_idx158_inb : ∀ (v243 : IVec S16 32) (v1248 : IVec S16 32) (k1_hw158 : k1_chk158 v243 v1248), ∀ a x, ((![v243, v1248] : Fin 2 → IVec S16 32) a x).toNat < S128x128.size a := fun v243 v1248 k1_hw158 => k1_hw158

def k1_chk159 (v243 : IVec S16 32) (v1250 : IVec S16 32) : Prop :=
  (∀ a x, ((![v243, v1250] : Fin 2 → IVec S16 32) a x).toNat < S128x128.size a)
instance k1_chk159.dec : ∀ (v243 : IVec S16 32) (v1250 : IVec S16 32), Decidable (k1_chk159 v243 v1250) := fun v243 v1250 => decidable_of_iff' _ (Iff.of_eq (k1_chk159.eq_1 v243 v1250))
theorem k1_idx159_inb : ∀ (v243 : IVec S16 32) (v1250 : IVec S16 32) (k1_hw159 : k1_chk159 v243 v1250), ∀ a x, ((![v243, v1250] : Fin 2 → IVec S16 32) a x).toNat < S128x128.size a := fun v243 v1250 k1_hw159 => k1_hw159

def k1_chk160 (v243 : IVec S16 32) (v1252 : IVec S16 32) : Prop :=
  (∀ a x, ((![v243, v1252] : Fin 2 → IVec S16 32) a x).toNat < S128x128.size a)
instance k1_chk160.dec : ∀ (v243 : IVec S16 32) (v1252 : IVec S16 32), Decidable (k1_chk160 v243 v1252) := fun v243 v1252 => decidable_of_iff' _ (Iff.of_eq (k1_chk160.eq_1 v243 v1252))
theorem k1_idx160_inb : ∀ (v243 : IVec S16 32) (v1252 : IVec S16 32) (k1_hw160 : k1_chk160 v243 v1252), ∀ a x, ((![v243, v1252] : Fin 2 → IVec S16 32) a x).toNat < S128x128.size a := fun v243 v1252 k1_hw160 => k1_hw160

def k1_chk161 (v1266 : IVec S16 32) : Prop :=
  (∀ a x, ((![v1266] : Fin 1 → IVec S16 32) a x).toNat < S8192.size a)
instance k1_chk161.dec : ∀ (v1266 : IVec S16 32), Decidable (k1_chk161 v1266) := fun v1266 => decidable_of_iff' _ (Iff.of_eq (k1_chk161.eq_1 v1266))
theorem k1_idx161_inb : ∀ (v1266 : IVec S16 32) (k1_hw161 : k1_chk161 v1266), ∀ a x, ((![v1266] : Fin 1 → IVec S16 32) a x).toNat < S8192.size a := fun v1266 k1_hw161 => k1_hw161

def k1_chk162 (v1282 : IVec S16 32) : Prop :=
  (∀ a x, ((![v1282] : Fin 1 → IVec S16 32) a x).toNat < S8192.size a)
instance k1_chk162.dec : ∀ (v1282 : IVec S16 32), Decidable (k1_chk162 v1282) := fun v1282 => decidable_of_iff' _ (Iff.of_eq (k1_chk162.eq_1 v1282))
theorem k1_idx162_inb : ∀ (v1282 : IVec S16 32) (k1_hw162 : k1_chk162 v1282), ∀ a x, ((![v1282] : Fin 1 → IVec S16 32) a x).toNat < S8192.size a := fun v1282 k1_hw162 => k1_hw162

def k1_chk163 (v1298 : IVec S16 32) : Prop :=
  (∀ a x, ((![v1298] : Fin 1 → IVec S16 32) a x).toNat < S8192.size a)
instance k1_chk163.dec : ∀ (v1298 : IVec S16 32), Decidable (k1_chk163 v1298) := fun v1298 => decidable_of_iff' _ (Iff.of_eq (k1_chk163.eq_1 v1298))
theorem k1_idx163_inb : ∀ (v1298 : IVec S16 32) (k1_hw163 : k1_chk163 v1298), ∀ a x, ((![v1298] : Fin 1 → IVec S16 32) a x).toNat < S8192.size a := fun v1298 k1_hw163 => k1_hw163

def k1_chk164 (v1314 : IVec S16 32) : Prop :=
  (∀ a x, ((![v1314] : Fin 1 → IVec S16 32) a x).toNat < S8192.size a)
instance k1_chk164.dec : ∀ (v1314 : IVec S16 32), Decidable (k1_chk164 v1314) := fun v1314 => decidable_of_iff' _ (Iff.of_eq (k1_chk164.eq_1 v1314))
theorem k1_idx164_inb : ∀ (v1314 : IVec S16 32) (k1_hw164 : k1_chk164 v1314), ∀ a x, ((![v1314] : Fin 1 → IVec S16 32) a x).toNat < S8192.size a := fun v1314 k1_hw164 => k1_hw164

def k1_chk165 (v243 : IVec S16 32) (v1327 : IVec S16 32) : Prop :=
  (∀ a x, ((![v243, v1327] : Fin 2 → IVec S16 32) a x).toNat < S128x128.size a)
instance k1_chk165.dec : ∀ (v243 : IVec S16 32) (v1327 : IVec S16 32), Decidable (k1_chk165 v243 v1327) := fun v243 v1327 => decidable_of_iff' _ (Iff.of_eq (k1_chk165.eq_1 v243 v1327))
theorem k1_idx165_inb : ∀ (v243 : IVec S16 32) (v1327 : IVec S16 32) (k1_hw165 : k1_chk165 v243 v1327), ∀ a x, ((![v243, v1327] : Fin 2 → IVec S16 32) a x).toNat < S128x128.size a := fun v243 v1327 k1_hw165 => k1_hw165

def k1_chk166 (v243 : IVec S16 32) (v1329 : IVec S16 32) : Prop :=
  (∀ a x, ((![v243, v1329] : Fin 2 → IVec S16 32) a x).toNat < S128x128.size a)
instance k1_chk166.dec : ∀ (v243 : IVec S16 32) (v1329 : IVec S16 32), Decidable (k1_chk166 v243 v1329) := fun v243 v1329 => decidable_of_iff' _ (Iff.of_eq (k1_chk166.eq_1 v243 v1329))
theorem k1_idx166_inb : ∀ (v243 : IVec S16 32) (v1329 : IVec S16 32) (k1_hw166 : k1_chk166 v243 v1329), ∀ a x, ((![v243, v1329] : Fin 2 → IVec S16 32) a x).toNat < S128x128.size a := fun v243 v1329 k1_hw166 => k1_hw166

def k1_chk167 (v243 : IVec S16 32) (v1331 : IVec S16 32) : Prop :=
  (∀ a x, ((![v243, v1331] : Fin 2 → IVec S16 32) a x).toNat < S128x128.size a)
instance k1_chk167.dec : ∀ (v243 : IVec S16 32) (v1331 : IVec S16 32), Decidable (k1_chk167 v243 v1331) := fun v243 v1331 => decidable_of_iff' _ (Iff.of_eq (k1_chk167.eq_1 v243 v1331))
theorem k1_idx167_inb : ∀ (v243 : IVec S16 32) (v1331 : IVec S16 32) (k1_hw167 : k1_chk167 v243 v1331), ∀ a x, ((![v243, v1331] : Fin 2 → IVec S16 32) a x).toNat < S128x128.size a := fun v243 v1331 k1_hw167 => k1_hw167

def k1_chk168 (v243 : IVec S16 32) (v1333 : IVec S16 32) : Prop :=
  (∀ a x, ((![v243, v1333] : Fin 2 → IVec S16 32) a x).toNat < S128x128.size a)
instance k1_chk168.dec : ∀ (v243 : IVec S16 32) (v1333 : IVec S16 32), Decidable (k1_chk168 v243 v1333) := fun v243 v1333 => decidable_of_iff' _ (Iff.of_eq (k1_chk168.eq_1 v243 v1333))
theorem k1_idx168_inb : ∀ (v243 : IVec S16 32) (v1333 : IVec S16 32) (k1_hw168 : k1_chk168 v243 v1333), ∀ a x, ((![v243, v1333] : Fin 2 → IVec S16 32) a x).toNat < S128x128.size a := fun v243 v1333 k1_hw168 => k1_hw168

def k1_chk169 (v243 : IVec S16 32) (v1335 : IVec S16 32) : Prop :=
  (∀ a x, ((![v243, v1335] : Fin 2 → IVec S16 32) a x).toNat < S128x128.size a)
instance k1_chk169.dec : ∀ (v243 : IVec S16 32) (v1335 : IVec S16 32), Decidable (k1_chk169 v243 v1335) := fun v243 v1335 => decidable_of_iff' _ (Iff.of_eq (k1_chk169.eq_1 v243 v1335))
theorem k1_idx169_inb : ∀ (v243 : IVec S16 32) (v1335 : IVec S16 32) (k1_hw169 : k1_chk169 v243 v1335), ∀ a x, ((![v243, v1335] : Fin 2 → IVec S16 32) a x).toNat < S128x128.size a := fun v243 v1335 k1_hw169 => k1_hw169

def k1_chk170 (v243 : IVec S16 32) (v1337 : IVec S16 32) : Prop :=
  (∀ a x, ((![v243, v1337] : Fin 2 → IVec S16 32) a x).toNat < S128x128.size a)
instance k1_chk170.dec : ∀ (v243 : IVec S16 32) (v1337 : IVec S16 32), Decidable (k1_chk170 v243 v1337) := fun v243 v1337 => decidable_of_iff' _ (Iff.of_eq (k1_chk170.eq_1 v243 v1337))
theorem k1_idx170_inb : ∀ (v243 : IVec S16 32) (v1337 : IVec S16 32) (k1_hw170 : k1_chk170 v243 v1337), ∀ a x, ((![v243, v1337] : Fin 2 → IVec S16 32) a x).toNat < S128x128.size a := fun v243 v1337 k1_hw170 => k1_hw170

def k1_chk171 (v243 : IVec S16 32) (v1339 : IVec S16 32) : Prop :=
  (∀ a x, ((![v243, v1339] : Fin 2 → IVec S16 32) a x).toNat < S128x128.size a)
instance k1_chk171.dec : ∀ (v243 : IVec S16 32) (v1339 : IVec S16 32), Decidable (k1_chk171 v243 v1339) := fun v243 v1339 => decidable_of_iff' _ (Iff.of_eq (k1_chk171.eq_1 v243 v1339))
theorem k1_idx171_inb : ∀ (v243 : IVec S16 32) (v1339 : IVec S16 32) (k1_hw171 : k1_chk171 v243 v1339), ∀ a x, ((![v243, v1339] : Fin 2 → IVec S16 32) a x).toNat < S128x128.size a := fun v243 v1339 k1_hw171 => k1_hw171

def k1_chk172 (v243 : IVec S16 32) (v1341 : IVec S16 32) : Prop :=
  (∀ a x, ((![v243, v1341] : Fin 2 → IVec S16 32) a x).toNat < S128x128.size a)
instance k1_chk172.dec : ∀ (v243 : IVec S16 32) (v1341 : IVec S16 32), Decidable (k1_chk172 v243 v1341) := fun v243 v1341 => decidable_of_iff' _ (Iff.of_eq (k1_chk172.eq_1 v243 v1341))
theorem k1_idx172_inb : ∀ (v243 : IVec S16 32) (v1341 : IVec S16 32) (k1_hw172 : k1_chk172 v243 v1341), ∀ a x, ((![v243, v1341] : Fin 2 → IVec S16 32) a x).toNat < S128x128.size a := fun v243 v1341 k1_hw172 => k1_hw172

def k1_chk173 (v1355 : IVec S16 32) : Prop :=
  (∀ a x, ((![v1355] : Fin 1 → IVec S16 32) a x).toNat < S8192.size a)
instance k1_chk173.dec : ∀ (v1355 : IVec S16 32), Decidable (k1_chk173 v1355) := fun v1355 => decidable_of_iff' _ (Iff.of_eq (k1_chk173.eq_1 v1355))
theorem k1_idx173_inb : ∀ (v1355 : IVec S16 32) (k1_hw173 : k1_chk173 v1355), ∀ a x, ((![v1355] : Fin 1 → IVec S16 32) a x).toNat < S8192.size a := fun v1355 k1_hw173 => k1_hw173

def k1_chk174 (v1371 : IVec S16 32) : Prop :=
  (∀ a x, ((![v1371] : Fin 1 → IVec S16 32) a x).toNat < S8192.size a)
instance k1_chk174.dec : ∀ (v1371 : IVec S16 32), Decidable (k1_chk174 v1371) := fun v1371 => decidable_of_iff' _ (Iff.of_eq (k1_chk174.eq_1 v1371))
theorem k1_idx174_inb : ∀ (v1371 : IVec S16 32) (k1_hw174 : k1_chk174 v1371), ∀ a x, ((![v1371] : Fin 1 → IVec S16 32) a x).toNat < S8192.size a := fun v1371 k1_hw174 => k1_hw174

def k1_chk175 (v1387 : IVec S16 32) : Prop :=
  (∀ a x, ((![v1387] : Fin 1 → IVec S16 32) a x).toNat < S8192.size a)
instance k1_chk175.dec : ∀ (v1387 : IVec S16 32), Decidable (k1_chk175 v1387) := fun v1387 => decidable_of_iff' _ (Iff.of_eq (k1_chk175.eq_1 v1387))
theorem k1_idx175_inb : ∀ (v1387 : IVec S16 32) (k1_hw175 : k1_chk175 v1387), ∀ a x, ((![v1387] : Fin 1 → IVec S16 32) a x).toNat < S8192.size a := fun v1387 k1_hw175 => k1_hw175

def k1_chk176 (v1403 : IVec S16 32) : Prop :=
  (∀ a x, ((![v1403] : Fin 1 → IVec S16 32) a x).toNat < S8192.size a)
instance k1_chk176.dec : ∀ (v1403 : IVec S16 32), Decidable (k1_chk176 v1403) := fun v1403 => decidable_of_iff' _ (Iff.of_eq (k1_chk176.eq_1 v1403))
theorem k1_idx176_inb : ∀ (v1403 : IVec S16 32) (k1_hw176 : k1_chk176 v1403), ∀ a x, ((![v1403] : Fin 1 → IVec S16 32) a x).toNat < S8192.size a := fun v1403 k1_hw176 => k1_hw176

def k1_chk177 (v243 : IVec S16 32) (v1416 : IVec S16 32) : Prop :=
  (∀ a x, ((![v243, v1416] : Fin 2 → IVec S16 32) a x).toNat < S128x128.size a)
instance k1_chk177.dec : ∀ (v243 : IVec S16 32) (v1416 : IVec S16 32), Decidable (k1_chk177 v243 v1416) := fun v243 v1416 => decidable_of_iff' _ (Iff.of_eq (k1_chk177.eq_1 v243 v1416))
theorem k1_idx177_inb : ∀ (v243 : IVec S16 32) (v1416 : IVec S16 32) (k1_hw177 : k1_chk177 v243 v1416), ∀ a x, ((![v243, v1416] : Fin 2 → IVec S16 32) a x).toNat < S128x128.size a := fun v243 v1416 k1_hw177 => k1_hw177

def k1_chk178 (v243 : IVec S16 32) (v1418 : IVec S16 32) : Prop :=
  (∀ a x, ((![v243, v1418] : Fin 2 → IVec S16 32) a x).toNat < S128x128.size a)
instance k1_chk178.dec : ∀ (v243 : IVec S16 32) (v1418 : IVec S16 32), Decidable (k1_chk178 v243 v1418) := fun v243 v1418 => decidable_of_iff' _ (Iff.of_eq (k1_chk178.eq_1 v243 v1418))
theorem k1_idx178_inb : ∀ (v243 : IVec S16 32) (v1418 : IVec S16 32) (k1_hw178 : k1_chk178 v243 v1418), ∀ a x, ((![v243, v1418] : Fin 2 → IVec S16 32) a x).toNat < S128x128.size a := fun v243 v1418 k1_hw178 => k1_hw178

def k1_chk179 (v243 : IVec S16 32) (v1420 : IVec S16 32) : Prop :=
  (∀ a x, ((![v243, v1420] : Fin 2 → IVec S16 32) a x).toNat < S128x128.size a)
instance k1_chk179.dec : ∀ (v243 : IVec S16 32) (v1420 : IVec S16 32), Decidable (k1_chk179 v243 v1420) := fun v243 v1420 => decidable_of_iff' _ (Iff.of_eq (k1_chk179.eq_1 v243 v1420))
theorem k1_idx179_inb : ∀ (v243 : IVec S16 32) (v1420 : IVec S16 32) (k1_hw179 : k1_chk179 v243 v1420), ∀ a x, ((![v243, v1420] : Fin 2 → IVec S16 32) a x).toNat < S128x128.size a := fun v243 v1420 k1_hw179 => k1_hw179

def k1_chk180 (v243 : IVec S16 32) (v1422 : IVec S16 32) : Prop :=
  (∀ a x, ((![v243, v1422] : Fin 2 → IVec S16 32) a x).toNat < S128x128.size a)
instance k1_chk180.dec : ∀ (v243 : IVec S16 32) (v1422 : IVec S16 32), Decidable (k1_chk180 v243 v1422) := fun v243 v1422 => decidable_of_iff' _ (Iff.of_eq (k1_chk180.eq_1 v243 v1422))
theorem k1_idx180_inb : ∀ (v243 : IVec S16 32) (v1422 : IVec S16 32) (k1_hw180 : k1_chk180 v243 v1422), ∀ a x, ((![v243, v1422] : Fin 2 → IVec S16 32) a x).toNat < S128x128.size a := fun v243 v1422 k1_hw180 => k1_hw180

def k1_chk181 (v243 : IVec S16 32) (v1424 : IVec S16 32) : Prop :=
  (∀ a x, ((![v243, v1424] : Fin 2 → IVec S16 32) a x).toNat < S128x128.size a)
instance k1_chk181.dec : ∀ (v243 : IVec S16 32) (v1424 : IVec S16 32), Decidable (k1_chk181 v243 v1424) := fun v243 v1424 => decidable_of_iff' _ (Iff.of_eq (k1_chk181.eq_1 v243 v1424))
theorem k1_idx181_inb : ∀ (v243 : IVec S16 32) (v1424 : IVec S16 32) (k1_hw181 : k1_chk181 v243 v1424), ∀ a x, ((![v243, v1424] : Fin 2 → IVec S16 32) a x).toNat < S128x128.size a := fun v243 v1424 k1_hw181 => k1_hw181

def k1_chk182 (v243 : IVec S16 32) (v1426 : IVec S16 32) : Prop :=
  (∀ a x, ((![v243, v1426] : Fin 2 → IVec S16 32) a x).toNat < S128x128.size a)
instance k1_chk182.dec : ∀ (v243 : IVec S16 32) (v1426 : IVec S16 32), Decidable (k1_chk182 v243 v1426) := fun v243 v1426 => decidable_of_iff' _ (Iff.of_eq (k1_chk182.eq_1 v243 v1426))
theorem k1_idx182_inb : ∀ (v243 : IVec S16 32) (v1426 : IVec S16 32) (k1_hw182 : k1_chk182 v243 v1426), ∀ a x, ((![v243, v1426] : Fin 2 → IVec S16 32) a x).toNat < S128x128.size a := fun v243 v1426 k1_hw182 => k1_hw182

def k1_chk183 (v243 : IVec S16 32) (v1428 : IVec S16 32) : Prop :=
  (∀ a x, ((![v243, v1428] : Fin 2 → IVec S16 32) a x).toNat < S128x128.size a)
instance k1_chk183.dec : ∀ (v243 : IVec S16 32) (v1428 : IVec S16 32), Decidable (k1_chk183 v243 v1428) := fun v243 v1428 => decidable_of_iff' _ (Iff.of_eq (k1_chk183.eq_1 v243 v1428))
theorem k1_idx183_inb : ∀ (v243 : IVec S16 32) (v1428 : IVec S16 32) (k1_hw183 : k1_chk183 v243 v1428), ∀ a x, ((![v243, v1428] : Fin 2 → IVec S16 32) a x).toNat < S128x128.size a := fun v243 v1428 k1_hw183 => k1_hw183

def k1_chk184 (v243 : IVec S16 32) (v1430 : IVec S16 32) : Prop :=
  (∀ a x, ((![v243, v1430] : Fin 2 → IVec S16 32) a x).toNat < S128x128.size a)
instance k1_chk184.dec : ∀ (v243 : IVec S16 32) (v1430 : IVec S16 32), Decidable (k1_chk184 v243 v1430) := fun v243 v1430 => decidable_of_iff' _ (Iff.of_eq (k1_chk184.eq_1 v243 v1430))
theorem k1_idx184_inb : ∀ (v243 : IVec S16 32) (v1430 : IVec S16 32) (k1_hw184 : k1_chk184 v243 v1430), ∀ a x, ((![v243, v1430] : Fin 2 → IVec S16 32) a x).toNat < S128x128.size a := fun v243 v1430 k1_hw184 => k1_hw184

def k1_chk185 (v1444 : IVec S16 32) : Prop :=
  (∀ a x, ((![v1444] : Fin 1 → IVec S16 32) a x).toNat < S8192.size a)
instance k1_chk185.dec : ∀ (v1444 : IVec S16 32), Decidable (k1_chk185 v1444) := fun v1444 => decidable_of_iff' _ (Iff.of_eq (k1_chk185.eq_1 v1444))
theorem k1_idx185_inb : ∀ (v1444 : IVec S16 32) (k1_hw185 : k1_chk185 v1444), ∀ a x, ((![v1444] : Fin 1 → IVec S16 32) a x).toNat < S8192.size a := fun v1444 k1_hw185 => k1_hw185

def k1_chk186 (v1460 : IVec S16 32) : Prop :=
  (∀ a x, ((![v1460] : Fin 1 → IVec S16 32) a x).toNat < S8192.size a)
instance k1_chk186.dec : ∀ (v1460 : IVec S16 32), Decidable (k1_chk186 v1460) := fun v1460 => decidable_of_iff' _ (Iff.of_eq (k1_chk186.eq_1 v1460))
theorem k1_idx186_inb : ∀ (v1460 : IVec S16 32) (k1_hw186 : k1_chk186 v1460), ∀ a x, ((![v1460] : Fin 1 → IVec S16 32) a x).toNat < S8192.size a := fun v1460 k1_hw186 => k1_hw186

def k1_chk187 (v1476 : IVec S16 32) : Prop :=
  (∀ a x, ((![v1476] : Fin 1 → IVec S16 32) a x).toNat < S8192.size a)
instance k1_chk187.dec : ∀ (v1476 : IVec S16 32), Decidable (k1_chk187 v1476) := fun v1476 => decidable_of_iff' _ (Iff.of_eq (k1_chk187.eq_1 v1476))
theorem k1_idx187_inb : ∀ (v1476 : IVec S16 32) (k1_hw187 : k1_chk187 v1476), ∀ a x, ((![v1476] : Fin 1 → IVec S16 32) a x).toNat < S8192.size a := fun v1476 k1_hw187 => k1_hw187

def k1_chk188 (v1492 : IVec S16 32) : Prop :=
  (∀ a x, ((![v1492] : Fin 1 → IVec S16 32) a x).toNat < S8192.size a)
instance k1_chk188.dec : ∀ (v1492 : IVec S16 32), Decidable (k1_chk188 v1492) := fun v1492 => decidable_of_iff' _ (Iff.of_eq (k1_chk188.eq_1 v1492))
theorem k1_idx188_inb : ∀ (v1492 : IVec S16 32) (k1_hw188 : k1_chk188 v1492), ∀ a x, ((![v1492] : Fin 1 → IVec S16 32) a x).toNat < S8192.size a := fun v1492 k1_hw188 => k1_hw188

def k1_chk189 (v243 : IVec S16 32) (v1505 : IVec S16 32) : Prop :=
  (∀ a x, ((![v243, v1505] : Fin 2 → IVec S16 32) a x).toNat < S128x128.size a)
instance k1_chk189.dec : ∀ (v243 : IVec S16 32) (v1505 : IVec S16 32), Decidable (k1_chk189 v243 v1505) := fun v243 v1505 => decidable_of_iff' _ (Iff.of_eq (k1_chk189.eq_1 v243 v1505))
theorem k1_idx189_inb : ∀ (v243 : IVec S16 32) (v1505 : IVec S16 32) (k1_hw189 : k1_chk189 v243 v1505), ∀ a x, ((![v243, v1505] : Fin 2 → IVec S16 32) a x).toNat < S128x128.size a := fun v243 v1505 k1_hw189 => k1_hw189

def k1_chk190 (v243 : IVec S16 32) (v1507 : IVec S16 32) : Prop :=
  (∀ a x, ((![v243, v1507] : Fin 2 → IVec S16 32) a x).toNat < S128x128.size a)
instance k1_chk190.dec : ∀ (v243 : IVec S16 32) (v1507 : IVec S16 32), Decidable (k1_chk190 v243 v1507) := fun v243 v1507 => decidable_of_iff' _ (Iff.of_eq (k1_chk190.eq_1 v243 v1507))
theorem k1_idx190_inb : ∀ (v243 : IVec S16 32) (v1507 : IVec S16 32) (k1_hw190 : k1_chk190 v243 v1507), ∀ a x, ((![v243, v1507] : Fin 2 → IVec S16 32) a x).toNat < S128x128.size a := fun v243 v1507 k1_hw190 => k1_hw190

def k1_chk191 (v243 : IVec S16 32) (v1509 : IVec S16 32) : Prop :=
  (∀ a x, ((![v243, v1509] : Fin 2 → IVec S16 32) a x).toNat < S128x128.size a)
instance k1_chk191.dec : ∀ (v243 : IVec S16 32) (v1509 : IVec S16 32), Decidable (k1_chk191 v243 v1509) := fun v243 v1509 => decidable_of_iff' _ (Iff.of_eq (k1_chk191.eq_1 v243 v1509))
theorem k1_idx191_inb : ∀ (v243 : IVec S16 32) (v1509 : IVec S16 32) (k1_hw191 : k1_chk191 v243 v1509), ∀ a x, ((![v243, v1509] : Fin 2 → IVec S16 32) a x).toNat < S128x128.size a := fun v243 v1509 k1_hw191 => k1_hw191

def k1_chk192 (v243 : IVec S16 32) (v1511 : IVec S16 32) : Prop :=
  (∀ a x, ((![v243, v1511] : Fin 2 → IVec S16 32) a x).toNat < S128x128.size a)
instance k1_chk192.dec : ∀ (v243 : IVec S16 32) (v1511 : IVec S16 32), Decidable (k1_chk192 v243 v1511) := fun v243 v1511 => decidable_of_iff' _ (Iff.of_eq (k1_chk192.eq_1 v243 v1511))
theorem k1_idx192_inb : ∀ (v243 : IVec S16 32) (v1511 : IVec S16 32) (k1_hw192 : k1_chk192 v243 v1511), ∀ a x, ((![v243, v1511] : Fin 2 → IVec S16 32) a x).toNat < S128x128.size a := fun v243 v1511 k1_hw192 => k1_hw192

def k1_chk193 (v243 : IVec S16 32) (v1513 : IVec S16 32) : Prop :=
  (∀ a x, ((![v243, v1513] : Fin 2 → IVec S16 32) a x).toNat < S128x128.size a)
instance k1_chk193.dec : ∀ (v243 : IVec S16 32) (v1513 : IVec S16 32), Decidable (k1_chk193 v243 v1513) := fun v243 v1513 => decidable_of_iff' _ (Iff.of_eq (k1_chk193.eq_1 v243 v1513))
theorem k1_idx193_inb : ∀ (v243 : IVec S16 32) (v1513 : IVec S16 32) (k1_hw193 : k1_chk193 v243 v1513), ∀ a x, ((![v243, v1513] : Fin 2 → IVec S16 32) a x).toNat < S128x128.size a := fun v243 v1513 k1_hw193 => k1_hw193

def k1_chk194 (v243 : IVec S16 32) (v1515 : IVec S16 32) : Prop :=
  (∀ a x, ((![v243, v1515] : Fin 2 → IVec S16 32) a x).toNat < S128x128.size a)
instance k1_chk194.dec : ∀ (v243 : IVec S16 32) (v1515 : IVec S16 32), Decidable (k1_chk194 v243 v1515) := fun v243 v1515 => decidable_of_iff' _ (Iff.of_eq (k1_chk194.eq_1 v243 v1515))
theorem k1_idx194_inb : ∀ (v243 : IVec S16 32) (v1515 : IVec S16 32) (k1_hw194 : k1_chk194 v243 v1515), ∀ a x, ((![v243, v1515] : Fin 2 → IVec S16 32) a x).toNat < S128x128.size a := fun v243 v1515 k1_hw194 => k1_hw194

def k1_chk195 (v243 : IVec S16 32) (v1517 : IVec S16 32) : Prop :=
  (∀ a x, ((![v243, v1517] : Fin 2 → IVec S16 32) a x).toNat < S128x128.size a)
instance k1_chk195.dec : ∀ (v243 : IVec S16 32) (v1517 : IVec S16 32), Decidable (k1_chk195 v243 v1517) := fun v243 v1517 => decidable_of_iff' _ (Iff.of_eq (k1_chk195.eq_1 v243 v1517))
theorem k1_idx195_inb : ∀ (v243 : IVec S16 32) (v1517 : IVec S16 32) (k1_hw195 : k1_chk195 v243 v1517), ∀ a x, ((![v243, v1517] : Fin 2 → IVec S16 32) a x).toNat < S128x128.size a := fun v243 v1517 k1_hw195 => k1_hw195

def k1_chk196 (v243 : IVec S16 32) (v1519 : IVec S16 32) : Prop :=
  (∀ a x, ((![v243, v1519] : Fin 2 → IVec S16 32) a x).toNat < S128x128.size a)
instance k1_chk196.dec : ∀ (v243 : IVec S16 32) (v1519 : IVec S16 32), Decidable (k1_chk196 v243 v1519) := fun v243 v1519 => decidable_of_iff' _ (Iff.of_eq (k1_chk196.eq_1 v243 v1519))
theorem k1_idx196_inb : ∀ (v243 : IVec S16 32) (v1519 : IVec S16 32) (k1_hw196 : k1_chk196 v243 v1519), ∀ a x, ((![v243, v1519] : Fin 2 → IVec S16 32) a x).toNat < S128x128.size a := fun v243 v1519 k1_hw196 => k1_hw196

def k1_chk197 (v1533 : IVec S16 32) : Prop :=
  (∀ a x, ((![v1533] : Fin 1 → IVec S16 32) a x).toNat < S8192.size a)
instance k1_chk197.dec : ∀ (v1533 : IVec S16 32), Decidable (k1_chk197 v1533) := fun v1533 => decidable_of_iff' _ (Iff.of_eq (k1_chk197.eq_1 v1533))
theorem k1_idx197_inb : ∀ (v1533 : IVec S16 32) (k1_hw197 : k1_chk197 v1533), ∀ a x, ((![v1533] : Fin 1 → IVec S16 32) a x).toNat < S8192.size a := fun v1533 k1_hw197 => k1_hw197

def k1_chk198 (v1549 : IVec S16 32) : Prop :=
  (∀ a x, ((![v1549] : Fin 1 → IVec S16 32) a x).toNat < S8192.size a)
instance k1_chk198.dec : ∀ (v1549 : IVec S16 32), Decidable (k1_chk198 v1549) := fun v1549 => decidable_of_iff' _ (Iff.of_eq (k1_chk198.eq_1 v1549))
theorem k1_idx198_inb : ∀ (v1549 : IVec S16 32) (k1_hw198 : k1_chk198 v1549), ∀ a x, ((![v1549] : Fin 1 → IVec S16 32) a x).toNat < S8192.size a := fun v1549 k1_hw198 => k1_hw198

def k1_chk199 (v1565 : IVec S16 32) : Prop :=
  (∀ a x, ((![v1565] : Fin 1 → IVec S16 32) a x).toNat < S8192.size a)
instance k1_chk199.dec : ∀ (v1565 : IVec S16 32), Decidable (k1_chk199 v1565) := fun v1565 => decidable_of_iff' _ (Iff.of_eq (k1_chk199.eq_1 v1565))
theorem k1_idx199_inb : ∀ (v1565 : IVec S16 32) (k1_hw199 : k1_chk199 v1565), ∀ a x, ((![v1565] : Fin 1 → IVec S16 32) a x).toNat < S8192.size a := fun v1565 k1_hw199 => k1_hw199

def k1_chk200 (v1581 : IVec S16 32) : Prop :=
  (∀ a x, ((![v1581] : Fin 1 → IVec S16 32) a x).toNat < S8192.size a)
instance k1_chk200.dec : ∀ (v1581 : IVec S16 32), Decidable (k1_chk200 v1581) := fun v1581 => decidable_of_iff' _ (Iff.of_eq (k1_chk200.eq_1 v1581))
theorem k1_idx200_inb : ∀ (v1581 : IVec S16 32) (k1_hw200 : k1_chk200 v1581), ∀ a x, ((![v1581] : Fin 1 → IVec S16 32) a x).toNat < S8192.size a := fun v1581 k1_hw200 => k1_hw200

def k1_chk201 (v243 : IVec S16 32) (v1594 : IVec S16 32) : Prop :=
  (∀ a x, ((![v243, v1594] : Fin 2 → IVec S16 32) a x).toNat < S128x128.size a)
instance k1_chk201.dec : ∀ (v243 : IVec S16 32) (v1594 : IVec S16 32), Decidable (k1_chk201 v243 v1594) := fun v243 v1594 => decidable_of_iff' _ (Iff.of_eq (k1_chk201.eq_1 v243 v1594))
theorem k1_idx201_inb : ∀ (v243 : IVec S16 32) (v1594 : IVec S16 32) (k1_hw201 : k1_chk201 v243 v1594), ∀ a x, ((![v243, v1594] : Fin 2 → IVec S16 32) a x).toNat < S128x128.size a := fun v243 v1594 k1_hw201 => k1_hw201

def k1_chk202 (v243 : IVec S16 32) (v1596 : IVec S16 32) : Prop :=
  (∀ a x, ((![v243, v1596] : Fin 2 → IVec S16 32) a x).toNat < S128x128.size a)
instance k1_chk202.dec : ∀ (v243 : IVec S16 32) (v1596 : IVec S16 32), Decidable (k1_chk202 v243 v1596) := fun v243 v1596 => decidable_of_iff' _ (Iff.of_eq (k1_chk202.eq_1 v243 v1596))
theorem k1_idx202_inb : ∀ (v243 : IVec S16 32) (v1596 : IVec S16 32) (k1_hw202 : k1_chk202 v243 v1596), ∀ a x, ((![v243, v1596] : Fin 2 → IVec S16 32) a x).toNat < S128x128.size a := fun v243 v1596 k1_hw202 => k1_hw202

def k1_chk203 (v243 : IVec S16 32) (v1598 : IVec S16 32) : Prop :=
  (∀ a x, ((![v243, v1598] : Fin 2 → IVec S16 32) a x).toNat < S128x128.size a)
instance k1_chk203.dec : ∀ (v243 : IVec S16 32) (v1598 : IVec S16 32), Decidable (k1_chk203 v243 v1598) := fun v243 v1598 => decidable_of_iff' _ (Iff.of_eq (k1_chk203.eq_1 v243 v1598))
theorem k1_idx203_inb : ∀ (v243 : IVec S16 32) (v1598 : IVec S16 32) (k1_hw203 : k1_chk203 v243 v1598), ∀ a x, ((![v243, v1598] : Fin 2 → IVec S16 32) a x).toNat < S128x128.size a := fun v243 v1598 k1_hw203 => k1_hw203

def k1_chk204 (v243 : IVec S16 32) (v1600 : IVec S16 32) : Prop :=
  (∀ a x, ((![v243, v1600] : Fin 2 → IVec S16 32) a x).toNat < S128x128.size a)
instance k1_chk204.dec : ∀ (v243 : IVec S16 32) (v1600 : IVec S16 32), Decidable (k1_chk204 v243 v1600) := fun v243 v1600 => decidable_of_iff' _ (Iff.of_eq (k1_chk204.eq_1 v243 v1600))
theorem k1_idx204_inb : ∀ (v243 : IVec S16 32) (v1600 : IVec S16 32) (k1_hw204 : k1_chk204 v243 v1600), ∀ a x, ((![v243, v1600] : Fin 2 → IVec S16 32) a x).toNat < S128x128.size a := fun v243 v1600 k1_hw204 => k1_hw204

def k1_chk205 (v243 : IVec S16 32) (v1602 : IVec S16 32) : Prop :=
  (∀ a x, ((![v243, v1602] : Fin 2 → IVec S16 32) a x).toNat < S128x128.size a)
instance k1_chk205.dec : ∀ (v243 : IVec S16 32) (v1602 : IVec S16 32), Decidable (k1_chk205 v243 v1602) := fun v243 v1602 => decidable_of_iff' _ (Iff.of_eq (k1_chk205.eq_1 v243 v1602))
theorem k1_idx205_inb : ∀ (v243 : IVec S16 32) (v1602 : IVec S16 32) (k1_hw205 : k1_chk205 v243 v1602), ∀ a x, ((![v243, v1602] : Fin 2 → IVec S16 32) a x).toNat < S128x128.size a := fun v243 v1602 k1_hw205 => k1_hw205

def k1_chk206 (v243 : IVec S16 32) (v1604 : IVec S16 32) : Prop :=
  (∀ a x, ((![v243, v1604] : Fin 2 → IVec S16 32) a x).toNat < S128x128.size a)
instance k1_chk206.dec : ∀ (v243 : IVec S16 32) (v1604 : IVec S16 32), Decidable (k1_chk206 v243 v1604) := fun v243 v1604 => decidable_of_iff' _ (Iff.of_eq (k1_chk206.eq_1 v243 v1604))
theorem k1_idx206_inb : ∀ (v243 : IVec S16 32) (v1604 : IVec S16 32) (k1_hw206 : k1_chk206 v243 v1604), ∀ a x, ((![v243, v1604] : Fin 2 → IVec S16 32) a x).toNat < S128x128.size a := fun v243 v1604 k1_hw206 => k1_hw206

def k1_chk207 (v243 : IVec S16 32) (v1606 : IVec S16 32) : Prop :=
  (∀ a x, ((![v243, v1606] : Fin 2 → IVec S16 32) a x).toNat < S128x128.size a)
instance k1_chk207.dec : ∀ (v243 : IVec S16 32) (v1606 : IVec S16 32), Decidable (k1_chk207 v243 v1606) := fun v243 v1606 => decidable_of_iff' _ (Iff.of_eq (k1_chk207.eq_1 v243 v1606))
theorem k1_idx207_inb : ∀ (v243 : IVec S16 32) (v1606 : IVec S16 32) (k1_hw207 : k1_chk207 v243 v1606), ∀ a x, ((![v243, v1606] : Fin 2 → IVec S16 32) a x).toNat < S128x128.size a := fun v243 v1606 k1_hw207 => k1_hw207

def k1_chk208 (v243 : IVec S16 32) (v1608 : IVec S16 32) : Prop :=
  (∀ a x, ((![v243, v1608] : Fin 2 → IVec S16 32) a x).toNat < S128x128.size a)
instance k1_chk208.dec : ∀ (v243 : IVec S16 32) (v1608 : IVec S16 32), Decidable (k1_chk208 v243 v1608) := fun v243 v1608 => decidable_of_iff' _ (Iff.of_eq (k1_chk208.eq_1 v243 v1608))
theorem k1_idx208_inb : ∀ (v243 : IVec S16 32) (v1608 : IVec S16 32) (k1_hw208 : k1_chk208 v243 v1608), ∀ a x, ((![v243, v1608] : Fin 2 → IVec S16 32) a x).toNat < S128x128.size a := fun v243 v1608 k1_hw208 => k1_hw208

def k1_chk209 (v1622 : IVec S16 32) : Prop :=
  (∀ a x, ((![v1622] : Fin 1 → IVec S16 32) a x).toNat < S8192.size a)
instance k1_chk209.dec : ∀ (v1622 : IVec S16 32), Decidable (k1_chk209 v1622) := fun v1622 => decidable_of_iff' _ (Iff.of_eq (k1_chk209.eq_1 v1622))
theorem k1_idx209_inb : ∀ (v1622 : IVec S16 32) (k1_hw209 : k1_chk209 v1622), ∀ a x, ((![v1622] : Fin 1 → IVec S16 32) a x).toNat < S8192.size a := fun v1622 k1_hw209 => k1_hw209

def k1_chk210 (v1638 : IVec S16 32) : Prop :=
  (∀ a x, ((![v1638] : Fin 1 → IVec S16 32) a x).toNat < S8192.size a)
instance k1_chk210.dec : ∀ (v1638 : IVec S16 32), Decidable (k1_chk210 v1638) := fun v1638 => decidable_of_iff' _ (Iff.of_eq (k1_chk210.eq_1 v1638))
theorem k1_idx210_inb : ∀ (v1638 : IVec S16 32) (k1_hw210 : k1_chk210 v1638), ∀ a x, ((![v1638] : Fin 1 → IVec S16 32) a x).toNat < S8192.size a := fun v1638 k1_hw210 => k1_hw210

def k1_chk211 (v1654 : IVec S16 32) : Prop :=
  (∀ a x, ((![v1654] : Fin 1 → IVec S16 32) a x).toNat < S8192.size a)
instance k1_chk211.dec : ∀ (v1654 : IVec S16 32), Decidable (k1_chk211 v1654) := fun v1654 => decidable_of_iff' _ (Iff.of_eq (k1_chk211.eq_1 v1654))
theorem k1_idx211_inb : ∀ (v1654 : IVec S16 32) (k1_hw211 : k1_chk211 v1654), ∀ a x, ((![v1654] : Fin 1 → IVec S16 32) a x).toNat < S8192.size a := fun v1654 k1_hw211 => k1_hw211

def k1_chk212 (v1670 : IVec S16 32) : Prop :=
  (∀ a x, ((![v1670] : Fin 1 → IVec S16 32) a x).toNat < S8192.size a)
instance k1_chk212.dec : ∀ (v1670 : IVec S16 32), Decidable (k1_chk212 v1670) := fun v1670 => decidable_of_iff' _ (Iff.of_eq (k1_chk212.eq_1 v1670))
theorem k1_idx212_inb : ∀ (v1670 : IVec S16 32) (k1_hw212 : k1_chk212 v1670), ∀ a x, ((![v1670] : Fin 1 → IVec S16 32) a x).toNat < S8192.size a := fun v1670 k1_hw212 => k1_hw212

def k1_chk213 (v243 : IVec S16 32) (v1683 : IVec S16 32) : Prop :=
  (∀ a x, ((![v243, v1683] : Fin 2 → IVec S16 32) a x).toNat < S128x128.size a)
instance k1_chk213.dec : ∀ (v243 : IVec S16 32) (v1683 : IVec S16 32), Decidable (k1_chk213 v243 v1683) := fun v243 v1683 => decidable_of_iff' _ (Iff.of_eq (k1_chk213.eq_1 v243 v1683))
theorem k1_idx213_inb : ∀ (v243 : IVec S16 32) (v1683 : IVec S16 32) (k1_hw213 : k1_chk213 v243 v1683), ∀ a x, ((![v243, v1683] : Fin 2 → IVec S16 32) a x).toNat < S128x128.size a := fun v243 v1683 k1_hw213 => k1_hw213

def k1_chk214 (v243 : IVec S16 32) (v1685 : IVec S16 32) : Prop :=
  (∀ a x, ((![v243, v1685] : Fin 2 → IVec S16 32) a x).toNat < S128x128.size a)
instance k1_chk214.dec : ∀ (v243 : IVec S16 32) (v1685 : IVec S16 32), Decidable (k1_chk214 v243 v1685) := fun v243 v1685 => decidable_of_iff' _ (Iff.of_eq (k1_chk214.eq_1 v243 v1685))
theorem k1_idx214_inb : ∀ (v243 : IVec S16 32) (v1685 : IVec S16 32) (k1_hw214 : k1_chk214 v243 v1685), ∀ a x, ((![v243, v1685] : Fin 2 → IVec S16 32) a x).toNat < S128x128.size a := fun v243 v1685 k1_hw214 => k1_hw214

def k1_chk215 (v243 : IVec S16 32) (v1687 : IVec S16 32) : Prop :=
  (∀ a x, ((![v243, v1687] : Fin 2 → IVec S16 32) a x).toNat < S128x128.size a)
instance k1_chk215.dec : ∀ (v243 : IVec S16 32) (v1687 : IVec S16 32), Decidable (k1_chk215 v243 v1687) := fun v243 v1687 => decidable_of_iff' _ (Iff.of_eq (k1_chk215.eq_1 v243 v1687))
theorem k1_idx215_inb : ∀ (v243 : IVec S16 32) (v1687 : IVec S16 32) (k1_hw215 : k1_chk215 v243 v1687), ∀ a x, ((![v243, v1687] : Fin 2 → IVec S16 32) a x).toNat < S128x128.size a := fun v243 v1687 k1_hw215 => k1_hw215

def k1_chk216 (v243 : IVec S16 32) (v1689 : IVec S16 32) : Prop :=
  (∀ a x, ((![v243, v1689] : Fin 2 → IVec S16 32) a x).toNat < S128x128.size a)
instance k1_chk216.dec : ∀ (v243 : IVec S16 32) (v1689 : IVec S16 32), Decidable (k1_chk216 v243 v1689) := fun v243 v1689 => decidable_of_iff' _ (Iff.of_eq (k1_chk216.eq_1 v243 v1689))
theorem k1_idx216_inb : ∀ (v243 : IVec S16 32) (v1689 : IVec S16 32) (k1_hw216 : k1_chk216 v243 v1689), ∀ a x, ((![v243, v1689] : Fin 2 → IVec S16 32) a x).toNat < S128x128.size a := fun v243 v1689 k1_hw216 => k1_hw216

def k1_chk217 (v243 : IVec S16 32) (v1691 : IVec S16 32) : Prop :=
  (∀ a x, ((![v243, v1691] : Fin 2 → IVec S16 32) a x).toNat < S128x128.size a)
instance k1_chk217.dec : ∀ (v243 : IVec S16 32) (v1691 : IVec S16 32), Decidable (k1_chk217 v243 v1691) := fun v243 v1691 => decidable_of_iff' _ (Iff.of_eq (k1_chk217.eq_1 v243 v1691))
theorem k1_idx217_inb : ∀ (v243 : IVec S16 32) (v1691 : IVec S16 32) (k1_hw217 : k1_chk217 v243 v1691), ∀ a x, ((![v243, v1691] : Fin 2 → IVec S16 32) a x).toNat < S128x128.size a := fun v243 v1691 k1_hw217 => k1_hw217

def k1_chk218 (v243 : IVec S16 32) (v1693 : IVec S16 32) : Prop :=
  (∀ a x, ((![v243, v1693] : Fin 2 → IVec S16 32) a x).toNat < S128x128.size a)
instance k1_chk218.dec : ∀ (v243 : IVec S16 32) (v1693 : IVec S16 32), Decidable (k1_chk218 v243 v1693) := fun v243 v1693 => decidable_of_iff' _ (Iff.of_eq (k1_chk218.eq_1 v243 v1693))
theorem k1_idx218_inb : ∀ (v243 : IVec S16 32) (v1693 : IVec S16 32) (k1_hw218 : k1_chk218 v243 v1693), ∀ a x, ((![v243, v1693] : Fin 2 → IVec S16 32) a x).toNat < S128x128.size a := fun v243 v1693 k1_hw218 => k1_hw218

def k1_chk219 (v243 : IVec S16 32) (v1695 : IVec S16 32) : Prop :=
  (∀ a x, ((![v243, v1695] : Fin 2 → IVec S16 32) a x).toNat < S128x128.size a)
instance k1_chk219.dec : ∀ (v243 : IVec S16 32) (v1695 : IVec S16 32), Decidable (k1_chk219 v243 v1695) := fun v243 v1695 => decidable_of_iff' _ (Iff.of_eq (k1_chk219.eq_1 v243 v1695))
theorem k1_idx219_inb : ∀ (v243 : IVec S16 32) (v1695 : IVec S16 32) (k1_hw219 : k1_chk219 v243 v1695), ∀ a x, ((![v243, v1695] : Fin 2 → IVec S16 32) a x).toNat < S128x128.size a := fun v243 v1695 k1_hw219 => k1_hw219

def k1_chk220 (v243 : IVec S16 32) (v1697 : IVec S16 32) : Prop :=
  (∀ a x, ((![v243, v1697] : Fin 2 → IVec S16 32) a x).toNat < S128x128.size a)
instance k1_chk220.dec : ∀ (v243 : IVec S16 32) (v1697 : IVec S16 32), Decidable (k1_chk220 v243 v1697) := fun v243 v1697 => decidable_of_iff' _ (Iff.of_eq (k1_chk220.eq_1 v243 v1697))
theorem k1_idx220_inb : ∀ (v243 : IVec S16 32) (v1697 : IVec S16 32) (k1_hw220 : k1_chk220 v243 v1697), ∀ a x, ((![v243, v1697] : Fin 2 → IVec S16 32) a x).toNat < S128x128.size a := fun v243 v1697 k1_hw220 => k1_hw220

def k1_chk221 (v1711 : IVec S16 32) : Prop :=
  (∀ a x, ((![v1711] : Fin 1 → IVec S16 32) a x).toNat < S8192.size a)
instance k1_chk221.dec : ∀ (v1711 : IVec S16 32), Decidable (k1_chk221 v1711) := fun v1711 => decidable_of_iff' _ (Iff.of_eq (k1_chk221.eq_1 v1711))
theorem k1_idx221_inb : ∀ (v1711 : IVec S16 32) (k1_hw221 : k1_chk221 v1711), ∀ a x, ((![v1711] : Fin 1 → IVec S16 32) a x).toNat < S8192.size a := fun v1711 k1_hw221 => k1_hw221

def k1_chk222 (v1727 : IVec S16 32) : Prop :=
  (∀ a x, ((![v1727] : Fin 1 → IVec S16 32) a x).toNat < S8192.size a)
instance k1_chk222.dec : ∀ (v1727 : IVec S16 32), Decidable (k1_chk222 v1727) := fun v1727 => decidable_of_iff' _ (Iff.of_eq (k1_chk222.eq_1 v1727))
theorem k1_idx222_inb : ∀ (v1727 : IVec S16 32) (k1_hw222 : k1_chk222 v1727), ∀ a x, ((![v1727] : Fin 1 → IVec S16 32) a x).toNat < S8192.size a := fun v1727 k1_hw222 => k1_hw222

def k1_chk223 (v1743 : IVec S16 32) : Prop :=
  (∀ a x, ((![v1743] : Fin 1 → IVec S16 32) a x).toNat < S8192.size a)
instance k1_chk223.dec : ∀ (v1743 : IVec S16 32), Decidable (k1_chk223 v1743) := fun v1743 => decidable_of_iff' _ (Iff.of_eq (k1_chk223.eq_1 v1743))
theorem k1_idx223_inb : ∀ (v1743 : IVec S16 32) (k1_hw223 : k1_chk223 v1743), ∀ a x, ((![v1743] : Fin 1 → IVec S16 32) a x).toNat < S8192.size a := fun v1743 k1_hw223 => k1_hw223

def k1_chk224 (v1759 : IVec S16 32) : Prop :=
  (∀ a x, ((![v1759] : Fin 1 → IVec S16 32) a x).toNat < S8192.size a)
instance k1_chk224.dec : ∀ (v1759 : IVec S16 32), Decidable (k1_chk224 v1759) := fun v1759 => decidable_of_iff' _ (Iff.of_eq (k1_chk224.eq_1 v1759))
theorem k1_idx224_inb : ∀ (v1759 : IVec S16 32) (k1_hw224 : k1_chk224 v1759), ∀ a x, ((![v1759] : Fin 1 → IVec S16 32) a x).toNat < S8192.size a := fun v1759 k1_hw224 => k1_hw224
def k1_off5 (i : grid1.Coords) (k1_t1 : Fin k1_t1_loop.trips) (c0_i32_44 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_43 : BitVec 32 := 2#32
  let c0_i32_40 : BitVec 32 := 0#32
  let c1_i32 : BitVec 32 := 1#32
  let arg20 : BitVec 32 := Scf.iv c0_i32_40 c1_i32 k1_t1
  let v107 : BitVec 32 := Scalar.muli c2_i32_43 arg20
  let v108 : BitVec 32 := Scalar.addi v107 c0_i32_44
  let c128_i32 : BitVec 32 := 128#32
  let v169 : BitVec 32 := Scalar.muli v108 c128_i32
  let v170 : BitVec 32 := Scalar.addi v2 v169
  let c64_i32_75 : BitVec 32 := 64#32
  let v171 : BitVec 32 := Scalar.muli v170 c64_i32_75
  ![v171.toNat]
def k1_cond3 (k1_t1 : Fin k1_t1_loop.trips) : BitVec 1 :=
  let c2_i32_76 : BitVec 32 := 2#32
  let c0_i32_40 : BitVec 32 := 0#32
  let c1_i32 : BitVec 32 := 1#32
  let arg20 : BitVec 32 := Scf.iv c0_i32_40 c1_i32 k1_t1
  let v174 : BitVec 32 := Scalar.muli c2_i32_76 arg20
  let c1_i32_77 : BitVec 32 := 1#32
  let v175 : BitVec 32 := Scalar.addi v174 c1_i32_77
  let c1_i32_78 : BitVec 32 := 1#32
  let v176 : BitVec 32 := Scalar.addi v175 c1_i32_78
  let c104_i32_79 : BitVec 32 := 104#32
  let v177 : BitVec 1 := Scalar.cmpi .slt v176 c104_i32_79
  let v178 : BitVec 32 := Scalar.extui v177
  let c0_i32_80 : BitVec 32 := 0#32
  let v179 : BitVec 1 := Scalar.cmpi .ne v178 c0_i32_80
  v179

def k1_off6 (k1_t1 : Fin k1_t1_loop.trips) (c0_i32_119 : BitVec 32) : Fin 1 → Nat :=
  let c2_i32_76 : BitVec 32 := 2#32
  let c0_i32_40 : BitVec 32 := 0#32
  let c1_i32 : BitVec 32 := 1#32
  let arg20 : BitVec 32 := Scf.iv c0_i32_40 c1_i32 k1_t1
  let v174 : BitVec 32 := Scalar.muli c2_i32_76 arg20
  let c1_i32_77 : BitVec 32 := 1#32
  let v175 : BitVec 32 := Scalar.addi v174 c1_i32_77
  let c1_i32_117 : BitVec 32 := 1#32
  let v241 : BitVec 32 := Scalar.addi v175 c1_i32_117
  let c128_i32_118 : BitVec 32 := 128#32
  let v242 : BitVec 32 := Scalar.muli v241 c128_i32_118
  let v243 : BitVec 32 := Scalar.addi v242 c0_i32_119
  let v244 : Index := Scalar.indexCast v243
  ![v244.toNat]
def k1_cond4 (k1_t1 : Fin k1_t1_loop.trips) : BitVec 1 :=
  let c2_i32_76 : BitVec 32 := 2#32
  let c0_i32_40 : BitVec 32 := 0#32
  let c1_i32 : BitVec 32 := 1#32
  let arg20 : BitVec 32 := Scf.iv c0_i32_40 c1_i32 k1_t1
  let v174 : BitVec 32 := Scalar.muli c2_i32_76 arg20
  let c1_i32_77 : BitVec 32 := 1#32
  let v175 : BitVec 32 := Scalar.addi v174 c1_i32_77
  let c2_i32_83 : BitVec 32 := 2#32
  let v181 : BitVec 1 := Scalar.cmpi .sge v175 c2_i32_83
  let v182 : BitVec 32 := Scalar.extui v181
  let c0_i32_84 : BitVec 32 := 0#32
  let v183 : BitVec 1 := Scalar.cmpi .ne v182 c0_i32_84
  v183

def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c64_i32_117 : BitVec 32 := 64#32
  let v241 : BitVec 32 := Scalar.muli v2 c64_i32_117
  ![v241.toNat]
@[reducible] def k1_t3_loop : Scf.Loop 32 :=
  let c0_i32_111 : BitVec 32 := 0#32
  let c8_i32_112 : BitVec 32 := 8#32
  let v235 : BitVec 32 := Scalar.addi c0_i32_111 c8_i32_112
  let c1_i32_113 : BitVec 32 := 1#32
  ⟨c0_i32_111, v235, c1_i32_113⟩
def k1_off8 (k1_t3 : Fin k1_t3_loop.trips) : Fin 1 → Nat :=
  let c0_i32_111 : BitVec 32 := 0#32
  let c1_i32_113 : BitVec 32 := 1#32
  let arg21 : BitVec 32 := Scf.iv c0_i32_111 c1_i32_113 k1_t3
  let c16_i32_118 : BitVec 32 := 16#32
  let v246 : BitVec 32 := Scalar.muli arg21 c16_i32_118
  let v247 : Index := Scalar.indexCast v246
  ![v247.toNat]

def k1_chk225 (v275 : IVec S16 32) : Prop :=
  (∀ a x, ((![v275] : Fin 1 → IVec S16 32) a x).toNat < S3304.size a)
instance k1_chk225.dec : ∀ (v275 : IVec S16 32), Decidable (k1_chk225 v275) := fun v275 => decidable_of_iff' _ (Iff.of_eq (k1_chk225.eq_1 v275))
theorem k1_idx225_inb : ∀ (v275 : IVec S16 32) (k1_hw225 : k1_chk225 v275), ∀ a x, ((![v275] : Fin 1 → IVec S16 32) a x).toNat < S3304.size a := fun v275 k1_hw225 => k1_hw225

def k1_chk226 (v277 : IVec S16 32) : Prop :=
  (∀ a x, ((![v277] : Fin 1 → IVec S16 32) a x).toNat < S3304.size a)
instance k1_chk226.dec : ∀ (v277 : IVec S16 32), Decidable (k1_chk226 v277) := fun v277 => decidable_of_iff' _ (Iff.of_eq (k1_chk226.eq_1 v277))
theorem k1_idx226_inb : ∀ (v277 : IVec S16 32) (k1_hw226 : k1_chk226 v277), ∀ a x, ((![v277] : Fin 1 → IVec S16 32) a x).toNat < S3304.size a := fun v277 k1_hw226 => k1_hw226

def k1_chk227 (v279 : IVec S16 32) : Prop :=
  (∀ a x, ((![v279] : Fin 1 → IVec S16 32) a x).toNat < S3304.size a)
instance k1_chk227.dec : ∀ (v279 : IVec S16 32), Decidable (k1_chk227 v279) := fun v279 => decidable_of_iff' _ (Iff.of_eq (k1_chk227.eq_1 v279))
theorem k1_idx227_inb : ∀ (v279 : IVec S16 32) (k1_hw227 : k1_chk227 v279), ∀ a x, ((![v279] : Fin 1 → IVec S16 32) a x).toNat < S3304.size a := fun v279 k1_hw227 => k1_hw227

def k1_chk228 (v281 : IVec S16 32) : Prop :=
  (∀ a x, ((![v281] : Fin 1 → IVec S16 32) a x).toNat < S3304.size a)
instance k1_chk228.dec : ∀ (v281 : IVec S16 32), Decidable (k1_chk228 v281) := fun v281 => decidable_of_iff' _ (Iff.of_eq (k1_chk228.eq_1 v281))
theorem k1_idx228_inb : ∀ (v281 : IVec S16 32) (k1_hw228 : k1_chk228 v281), ∀ a x, ((![v281] : Fin 1 → IVec S16 32) a x).toNat < S3304.size a := fun v281 k1_hw228 => k1_hw228

def k1_chk229 (v283 : IVec S16 32) : Prop :=
  (∀ a x, ((![v283] : Fin 1 → IVec S16 32) a x).toNat < S3304.size a)
instance k1_chk229.dec : ∀ (v283 : IVec S16 32), Decidable (k1_chk229 v283) := fun v283 => decidable_of_iff' _ (Iff.of_eq (k1_chk229.eq_1 v283))
theorem k1_idx229_inb : ∀ (v283 : IVec S16 32) (k1_hw229 : k1_chk229 v283), ∀ a x, ((![v283] : Fin 1 → IVec S16 32) a x).toNat < S3304.size a := fun v283 k1_hw229 => k1_hw229

def k1_chk230 (v285 : IVec S16 32) : Prop :=
  (∀ a x, ((![v285] : Fin 1 → IVec S16 32) a x).toNat < S3304.size a)
instance k1_chk230.dec : ∀ (v285 : IVec S16 32), Decidable (k1_chk230 v285) := fun v285 => decidable_of_iff' _ (Iff.of_eq (k1_chk230.eq_1 v285))
theorem k1_idx230_inb : ∀ (v285 : IVec S16 32) (k1_hw230 : k1_chk230 v285), ∀ a x, ((![v285] : Fin 1 → IVec S16 32) a x).toNat < S3304.size a := fun v285 k1_hw230 => k1_hw230

def k1_chk231 (v287 : IVec S16 32) : Prop :=
  (∀ a x, ((![v287] : Fin 1 → IVec S16 32) a x).toNat < S3304.size a)
instance k1_chk231.dec : ∀ (v287 : IVec S16 32), Decidable (k1_chk231 v287) := fun v287 => decidable_of_iff' _ (Iff.of_eq (k1_chk231.eq_1 v287))
theorem k1_idx231_inb : ∀ (v287 : IVec S16 32) (k1_hw231 : k1_chk231 v287), ∀ a x, ((![v287] : Fin 1 → IVec S16 32) a x).toNat < S3304.size a := fun v287 k1_hw231 => k1_hw231

def k1_chk232 (v289 : IVec S16 32) : Prop :=
  (∀ a x, ((![v289] : Fin 1 → IVec S16 32) a x).toNat < S3304.size a)
instance k1_chk232.dec : ∀ (v289 : IVec S16 32), Decidable (k1_chk232 v289) := fun v289 => decidable_of_iff' _ (Iff.of_eq (k1_chk232.eq_1 v289))
theorem k1_idx232_inb : ∀ (v289 : IVec S16 32) (k1_hw232 : k1_chk232 v289), ∀ a x, ((![v289] : Fin 1 → IVec S16 32) a x).toNat < S3304.size a := fun v289 k1_hw232 => k1_hw232

def k1_chk233 (v291 : IVec S16 32) : Prop :=
  (∀ a x, ((![v291] : Fin 1 → IVec S16 32) a x).toNat < S3304.size a)
instance k1_chk233.dec : ∀ (v291 : IVec S16 32), Decidable (k1_chk233 v291) := fun v291 => decidable_of_iff' _ (Iff.of_eq (k1_chk233.eq_1 v291))
theorem k1_idx233_inb : ∀ (v291 : IVec S16 32) (k1_hw233 : k1_chk233 v291), ∀ a x, ((![v291] : Fin 1 → IVec S16 32) a x).toNat < S3304.size a := fun v291 k1_hw233 => k1_hw233

def k1_chk234 (v293 : IVec S16 32) : Prop :=
  (∀ a x, ((![v293] : Fin 1 → IVec S16 32) a x).toNat < S3304.size a)
instance k1_chk234.dec : ∀ (v293 : IVec S16 32), Decidable (k1_chk234 v293) := fun v293 => decidable_of_iff' _ (Iff.of_eq (k1_chk234.eq_1 v293))
theorem k1_idx234_inb : ∀ (v293 : IVec S16 32) (k1_hw234 : k1_chk234 v293), ∀ a x, ((![v293] : Fin 1 → IVec S16 32) a x).toNat < S3304.size a := fun v293 k1_hw234 => k1_hw234

def k1_chk235 (v295 : IVec S16 32) : Prop :=
  (∀ a x, ((![v295] : Fin 1 → IVec S16 32) a x).toNat < S3304.size a)
instance k1_chk235.dec : ∀ (v295 : IVec S16 32), Decidable (k1_chk235 v295) := fun v295 => decidable_of_iff' _ (Iff.of_eq (k1_chk235.eq_1 v295))
theorem k1_idx235_inb : ∀ (v295 : IVec S16 32) (k1_hw235 : k1_chk235 v295), ∀ a x, ((![v295] : Fin 1 → IVec S16 32) a x).toNat < S3304.size a := fun v295 k1_hw235 => k1_hw235

def k1_chk236 (v297 : IVec S16 32) : Prop :=
  (∀ a x, ((![v297] : Fin 1 → IVec S16 32) a x).toNat < S3304.size a)
instance k1_chk236.dec : ∀ (v297 : IVec S16 32), Decidable (k1_chk236 v297) := fun v297 => decidable_of_iff' _ (Iff.of_eq (k1_chk236.eq_1 v297))
theorem k1_idx236_inb : ∀ (v297 : IVec S16 32) (k1_hw236 : k1_chk236 v297), ∀ a x, ((![v297] : Fin 1 → IVec S16 32) a x).toNat < S3304.size a := fun v297 k1_hw236 => k1_hw236

def k1_chk237 (v299 : IVec S16 32) : Prop :=
  (∀ a x, ((![v299] : Fin 1 → IVec S16 32) a x).toNat < S3304.size a)
instance k1_chk237.dec : ∀ (v299 : IVec S16 32), Decidable (k1_chk237 v299) := fun v299 => decidable_of_iff' _ (Iff.of_eq (k1_chk237.eq_1 v299))
theorem k1_idx237_inb : ∀ (v299 : IVec S16 32) (k1_hw237 : k1_chk237 v299), ∀ a x, ((![v299] : Fin 1 → IVec S16 32) a x).toNat < S3304.size a := fun v299 k1_hw237 => k1_hw237

def k1_chk238 (v301 : IVec S16 32) : Prop :=
  (∀ a x, ((![v301] : Fin 1 → IVec S16 32) a x).toNat < S3304.size a)
instance k1_chk238.dec : ∀ (v301 : IVec S16 32), Decidable (k1_chk238 v301) := fun v301 => decidable_of_iff' _ (Iff.of_eq (k1_chk238.eq_1 v301))
theorem k1_idx238_inb : ∀ (v301 : IVec S16 32) (k1_hw238 : k1_chk238 v301), ∀ a x, ((![v301] : Fin 1 → IVec S16 32) a x).toNat < S3304.size a := fun v301 k1_hw238 => k1_hw238

def k1_chk239 (v303 : IVec S16 32) : Prop :=
  (∀ a x, ((![v303] : Fin 1 → IVec S16 32) a x).toNat < S3304.size a)
instance k1_chk239.dec : ∀ (v303 : IVec S16 32), Decidable (k1_chk239 v303) := fun v303 => decidable_of_iff' _ (Iff.of_eq (k1_chk239.eq_1 v303))
theorem k1_idx239_inb : ∀ (v303 : IVec S16 32) (k1_hw239 : k1_chk239 v303), ∀ a x, ((![v303] : Fin 1 → IVec S16 32) a x).toNat < S3304.size a := fun v303 k1_hw239 => k1_hw239

def k1_chk240 (v305 : IVec S16 32) : Prop :=
  (∀ a x, ((![v305] : Fin 1 → IVec S16 32) a x).toNat < S3304.size a)
instance k1_chk240.dec : ∀ (v305 : IVec S16 32), Decidable (k1_chk240 v305) := fun v305 => decidable_of_iff' _ (Iff.of_eq (k1_chk240.eq_1 v305))
theorem k1_idx240_inb : ∀ (v305 : IVec S16 32) (k1_hw240 : k1_chk240 v305), ∀ a x, ((![v305] : Fin 1 → IVec S16 32) a x).toNat < S3304.size a := fun v305 k1_hw240 => k1_hw240

def k1_chk241 (v307 : IVec S16 32) : Prop :=
  (∀ a x, ((![v307] : Fin 1 → IVec S16 32) a x).toNat < S3304.size a)
instance k1_chk241.dec : ∀ (v307 : IVec S16 32), Decidable (k1_chk241 v307) := fun v307 => decidable_of_iff' _ (Iff.of_eq (k1_chk241.eq_1 v307))
theorem k1_idx241_inb : ∀ (v307 : IVec S16 32) (k1_hw241 : k1_chk241 v307), ∀ a x, ((![v307] : Fin 1 → IVec S16 32) a x).toNat < S3304.size a := fun v307 k1_hw241 => k1_hw241

def k1_chk242 (v309 : IVec S16 32) : Prop :=
  (∀ a x, ((![v309] : Fin 1 → IVec S16 32) a x).toNat < S3304.size a)
instance k1_chk242.dec : ∀ (v309 : IVec S16 32), Decidable (k1_chk242 v309) := fun v309 => decidable_of_iff' _ (Iff.of_eq (k1_chk242.eq_1 v309))
theorem k1_idx242_inb : ∀ (v309 : IVec S16 32) (k1_hw242 : k1_chk242 v309), ∀ a x, ((![v309] : Fin 1 → IVec S16 32) a x).toNat < S3304.size a := fun v309 k1_hw242 => k1_hw242

def k1_chk243 (v311 : IVec S16 32) : Prop :=
  (∀ a x, ((![v311] : Fin 1 → IVec S16 32) a x).toNat < S3304.size a)
instance k1_chk243.dec : ∀ (v311 : IVec S16 32), Decidable (k1_chk243 v311) := fun v311 => decidable_of_iff' _ (Iff.of_eq (k1_chk243.eq_1 v311))
theorem k1_idx243_inb : ∀ (v311 : IVec S16 32) (k1_hw243 : k1_chk243 v311), ∀ a x, ((![v311] : Fin 1 → IVec S16 32) a x).toNat < S3304.size a := fun v311 k1_hw243 => k1_hw243

def k1_chk244 (v313 : IVec S16 32) : Prop :=
  (∀ a x, ((![v313] : Fin 1 → IVec S16 32) a x).toNat < S3304.size a)
instance k1_chk244.dec : ∀ (v313 : IVec S16 32), Decidable (k1_chk244 v313) := fun v313 => decidable_of_iff' _ (Iff.of_eq (k1_chk244.eq_1 v313))
theorem k1_idx244_inb : ∀ (v313 : IVec S16 32) (k1_hw244 : k1_chk244 v313), ∀ a x, ((![v313] : Fin 1 → IVec S16 32) a x).toNat < S3304.size a := fun v313 k1_hw244 => k1_hw244

def k1_chk245 (v315 : IVec S16 32) : Prop :=
  (∀ a x, ((![v315] : Fin 1 → IVec S16 32) a x).toNat < S3304.size a)
instance k1_chk245.dec : ∀ (v315 : IVec S16 32), Decidable (k1_chk245 v315) := fun v315 => decidable_of_iff' _ (Iff.of_eq (k1_chk245.eq_1 v315))
theorem k1_idx245_inb : ∀ (v315 : IVec S16 32) (k1_hw245 : k1_chk245 v315), ∀ a x, ((![v315] : Fin 1 → IVec S16 32) a x).toNat < S3304.size a := fun v315 k1_hw245 => k1_hw245

def k1_chk246 (v317 : IVec S16 32) : Prop :=
  (∀ a x, ((![v317] : Fin 1 → IVec S16 32) a x).toNat < S3304.size a)
instance k1_chk246.dec : ∀ (v317 : IVec S16 32), Decidable (k1_chk246 v317) := fun v317 => decidable_of_iff' _ (Iff.of_eq (k1_chk246.eq_1 v317))
theorem k1_idx246_inb : ∀ (v317 : IVec S16 32) (k1_hw246 : k1_chk246 v317), ∀ a x, ((![v317] : Fin 1 → IVec S16 32) a x).toNat < S3304.size a := fun v317 k1_hw246 => k1_hw246

def k1_chk247 (v319 : IVec S16 32) : Prop :=
  (∀ a x, ((![v319] : Fin 1 → IVec S16 32) a x).toNat < S3304.size a)
instance k1_chk247.dec : ∀ (v319 : IVec S16 32), Decidable (k1_chk247 v319) := fun v319 => decidable_of_iff' _ (Iff.of_eq (k1_chk247.eq_1 v319))
theorem k1_idx247_inb : ∀ (v319 : IVec S16 32) (k1_hw247 : k1_chk247 v319), ∀ a x, ((![v319] : Fin 1 → IVec S16 32) a x).toNat < S3304.size a := fun v319 k1_hw247 => k1_hw247

def k1_chk248 (v321 : IVec S16 32) : Prop :=
  (∀ a x, ((![v321] : Fin 1 → IVec S16 32) a x).toNat < S3304.size a)
instance k1_chk248.dec : ∀ (v321 : IVec S16 32), Decidable (k1_chk248 v321) := fun v321 => decidable_of_iff' _ (Iff.of_eq (k1_chk248.eq_1 v321))
theorem k1_idx248_inb : ∀ (v321 : IVec S16 32) (k1_hw248 : k1_chk248 v321), ∀ a x, ((![v321] : Fin 1 → IVec S16 32) a x).toNat < S3304.size a := fun v321 k1_hw248 => k1_hw248

def k1_chk249 (v323 : IVec S16 32) : Prop :=
  (∀ a x, ((![v323] : Fin 1 → IVec S16 32) a x).toNat < S3304.size a)
instance k1_chk249.dec : ∀ (v323 : IVec S16 32), Decidable (k1_chk249 v323) := fun v323 => decidable_of_iff' _ (Iff.of_eq (k1_chk249.eq_1 v323))
theorem k1_idx249_inb : ∀ (v323 : IVec S16 32) (k1_hw249 : k1_chk249 v323), ∀ a x, ((![v323] : Fin 1 → IVec S16 32) a x).toNat < S3304.size a := fun v323 k1_hw249 => k1_hw249

def k1_chk250 (v325 : IVec S16 32) : Prop :=
  (∀ a x, ((![v325] : Fin 1 → IVec S16 32) a x).toNat < S3304.size a)
instance k1_chk250.dec : ∀ (v325 : IVec S16 32), Decidable (k1_chk250 v325) := fun v325 => decidable_of_iff' _ (Iff.of_eq (k1_chk250.eq_1 v325))
theorem k1_idx250_inb : ∀ (v325 : IVec S16 32) (k1_hw250 : k1_chk250 v325), ∀ a x, ((![v325] : Fin 1 → IVec S16 32) a x).toNat < S3304.size a := fun v325 k1_hw250 => k1_hw250

def k1_chk251 (v327 : IVec S16 32) : Prop :=
  (∀ a x, ((![v327] : Fin 1 → IVec S16 32) a x).toNat < S3304.size a)
instance k1_chk251.dec : ∀ (v327 : IVec S16 32), Decidable (k1_chk251 v327) := fun v327 => decidable_of_iff' _ (Iff.of_eq (k1_chk251.eq_1 v327))
theorem k1_idx251_inb : ∀ (v327 : IVec S16 32) (k1_hw251 : k1_chk251 v327), ∀ a x, ((![v327] : Fin 1 → IVec S16 32) a x).toNat < S3304.size a := fun v327 k1_hw251 => k1_hw251

def k1_chk252 (v329 : IVec S16 32) : Prop :=
  (∀ a x, ((![v329] : Fin 1 → IVec S16 32) a x).toNat < S3304.size a)
instance k1_chk252.dec : ∀ (v329 : IVec S16 32), Decidable (k1_chk252 v329) := fun v329 => decidable_of_iff' _ (Iff.of_eq (k1_chk252.eq_1 v329))
theorem k1_idx252_inb : ∀ (v329 : IVec S16 32) (k1_hw252 : k1_chk252 v329), ∀ a x, ((![v329] : Fin 1 → IVec S16 32) a x).toNat < S3304.size a := fun v329 k1_hw252 => k1_hw252

def k1_chk253 (v331 : IVec S16 32) : Prop :=
  (∀ a x, ((![v331] : Fin 1 → IVec S16 32) a x).toNat < S3304.size a)
instance k1_chk253.dec : ∀ (v331 : IVec S16 32), Decidable (k1_chk253 v331) := fun v331 => decidable_of_iff' _ (Iff.of_eq (k1_chk253.eq_1 v331))
theorem k1_idx253_inb : ∀ (v331 : IVec S16 32) (k1_hw253 : k1_chk253 v331), ∀ a x, ((![v331] : Fin 1 → IVec S16 32) a x).toNat < S3304.size a := fun v331 k1_hw253 => k1_hw253

def k1_chk254 (v333 : IVec S16 32) : Prop :=
  (∀ a x, ((![v333] : Fin 1 → IVec S16 32) a x).toNat < S3304.size a)
instance k1_chk254.dec : ∀ (v333 : IVec S16 32), Decidable (k1_chk254 v333) := fun v333 => decidable_of_iff' _ (Iff.of_eq (k1_chk254.eq_1 v333))
theorem k1_idx254_inb : ∀ (v333 : IVec S16 32) (k1_hw254 : k1_chk254 v333), ∀ a x, ((![v333] : Fin 1 → IVec S16 32) a x).toNat < S3304.size a := fun v333 k1_hw254 => k1_hw254

def k1_chk255 (v335 : IVec S16 32) : Prop :=
  (∀ a x, ((![v335] : Fin 1 → IVec S16 32) a x).toNat < S3304.size a)
instance k1_chk255.dec : ∀ (v335 : IVec S16 32), Decidable (k1_chk255 v335) := fun v335 => decidable_of_iff' _ (Iff.of_eq (k1_chk255.eq_1 v335))
theorem k1_idx255_inb : ∀ (v335 : IVec S16 32) (k1_hw255 : k1_chk255 v335), ∀ a x, ((![v335] : Fin 1 → IVec S16 32) a x).toNat < S3304.size a := fun v335 k1_hw255 => k1_hw255

def k1_chk256 (v337 : IVec S16 32) : Prop :=
  (∀ a x, ((![v337] : Fin 1 → IVec S16 32) a x).toNat < S3304.size a)
instance k1_chk256.dec : ∀ (v337 : IVec S16 32), Decidable (k1_chk256 v337) := fun v337 => decidable_of_iff' _ (Iff.of_eq (k1_chk256.eq_1 v337))
theorem k1_idx256_inb : ∀ (v337 : IVec S16 32) (k1_hw256 : k1_chk256 v337), ∀ a x, ((![v337] : Fin 1 → IVec S16 32) a x).toNat < S3304.size a := fun v337 k1_hw256 => k1_hw256

def k1_chk257 (v243 : IVec S16 32) (v348 : IVec S16 32) : Prop :=
  (∀ a x, ((![v243, v348] : Fin 2 → IVec S16 32) a x).toNat < S128x128.size a)
instance k1_chk257.dec : ∀ (v243 : IVec S16 32) (v348 : IVec S16 32), Decidable (k1_chk257 v243 v348) := fun v243 v348 => decidable_of_iff' _ (Iff.of_eq (k1_chk257.eq_1 v243 v348))
theorem k1_idx257_inb : ∀ (v243 : IVec S16 32) (v348 : IVec S16 32) (k1_hw257 : k1_chk257 v243 v348), ∀ a x, ((![v243, v348] : Fin 2 → IVec S16 32) a x).toNat < S128x128.size a := fun v243 v348 k1_hw257 => k1_hw257

def k1_chk258 (v243 : IVec S16 32) (v350 : IVec S16 32) : Prop :=
  (∀ a x, ((![v243, v350] : Fin 2 → IVec S16 32) a x).toNat < S128x128.size a)
instance k1_chk258.dec : ∀ (v243 : IVec S16 32) (v350 : IVec S16 32), Decidable (k1_chk258 v243 v350) := fun v243 v350 => decidable_of_iff' _ (Iff.of_eq (k1_chk258.eq_1 v243 v350))
theorem k1_idx258_inb : ∀ (v243 : IVec S16 32) (v350 : IVec S16 32) (k1_hw258 : k1_chk258 v243 v350), ∀ a x, ((![v243, v350] : Fin 2 → IVec S16 32) a x).toNat < S128x128.size a := fun v243 v350 k1_hw258 => k1_hw258

def k1_chk259 (v243 : IVec S16 32) (v352 : IVec S16 32) : Prop :=
  (∀ a x, ((![v243, v352] : Fin 2 → IVec S16 32) a x).toNat < S128x128.size a)
instance k1_chk259.dec : ∀ (v243 : IVec S16 32) (v352 : IVec S16 32), Decidable (k1_chk259 v243 v352) := fun v243 v352 => decidable_of_iff' _ (Iff.of_eq (k1_chk259.eq_1 v243 v352))
theorem k1_idx259_inb : ∀ (v243 : IVec S16 32) (v352 : IVec S16 32) (k1_hw259 : k1_chk259 v243 v352), ∀ a x, ((![v243, v352] : Fin 2 → IVec S16 32) a x).toNat < S128x128.size a := fun v243 v352 k1_hw259 => k1_hw259

def k1_chk260 (v243 : IVec S16 32) (v354 : IVec S16 32) : Prop :=
  (∀ a x, ((![v243, v354] : Fin 2 → IVec S16 32) a x).toNat < S128x128.size a)
instance k1_chk260.dec : ∀ (v243 : IVec S16 32) (v354 : IVec S16 32), Decidable (k1_chk260 v243 v354) := fun v243 v354 => decidable_of_iff' _ (Iff.of_eq (k1_chk260.eq_1 v243 v354))
theorem k1_idx260_inb : ∀ (v243 : IVec S16 32) (v354 : IVec S16 32) (k1_hw260 : k1_chk260 v243 v354), ∀ a x, ((![v243, v354] : Fin 2 → IVec S16 32) a x).toNat < S128x128.size a := fun v243 v354 k1_hw260 => k1_hw260

def k1_chk261 (v243 : IVec S16 32) (v356 : IVec S16 32) : Prop :=
  (∀ a x, ((![v243, v356] : Fin 2 → IVec S16 32) a x).toNat < S128x128.size a)
instance k1_chk261.dec : ∀ (v243 : IVec S16 32) (v356 : IVec S16 32), Decidable (k1_chk261 v243 v356) := fun v243 v356 => decidable_of_iff' _ (Iff.of_eq (k1_chk261.eq_1 v243 v356))
theorem k1_idx261_inb : ∀ (v243 : IVec S16 32) (v356 : IVec S16 32) (k1_hw261 : k1_chk261 v243 v356), ∀ a x, ((![v243, v356] : Fin 2 → IVec S16 32) a x).toNat < S128x128.size a := fun v243 v356 k1_hw261 => k1_hw261

def k1_chk262 (v243 : IVec S16 32) (v358 : IVec S16 32) : Prop :=
  (∀ a x, ((![v243, v358] : Fin 2 → IVec S16 32) a x).toNat < S128x128.size a)
instance k1_chk262.dec : ∀ (v243 : IVec S16 32) (v358 : IVec S16 32), Decidable (k1_chk262 v243 v358) := fun v243 v358 => decidable_of_iff' _ (Iff.of_eq (k1_chk262.eq_1 v243 v358))
theorem k1_idx262_inb : ∀ (v243 : IVec S16 32) (v358 : IVec S16 32) (k1_hw262 : k1_chk262 v243 v358), ∀ a x, ((![v243, v358] : Fin 2 → IVec S16 32) a x).toNat < S128x128.size a := fun v243 v358 k1_hw262 => k1_hw262

def k1_chk263 (v243 : IVec S16 32) (v360 : IVec S16 32) : Prop :=
  (∀ a x, ((![v243, v360] : Fin 2 → IVec S16 32) a x).toNat < S128x128.size a)
instance k1_chk263.dec : ∀ (v243 : IVec S16 32) (v360 : IVec S16 32), Decidable (k1_chk263 v243 v360) := fun v243 v360 => decidable_of_iff' _ (Iff.of_eq (k1_chk263.eq_1 v243 v360))
theorem k1_idx263_inb : ∀ (v243 : IVec S16 32) (v360 : IVec S16 32) (k1_hw263 : k1_chk263 v243 v360), ∀ a x, ((![v243, v360] : Fin 2 → IVec S16 32) a x).toNat < S128x128.size a := fun v243 v360 k1_hw263 => k1_hw263

def k1_chk264 (v243 : IVec S16 32) (v362 : IVec S16 32) : Prop :=
  (∀ a x, ((![v243, v362] : Fin 2 → IVec S16 32) a x).toNat < S128x128.size a)
instance k1_chk264.dec : ∀ (v243 : IVec S16 32) (v362 : IVec S16 32), Decidable (k1_chk264 v243 v362) := fun v243 v362 => decidable_of_iff' _ (Iff.of_eq (k1_chk264.eq_1 v243 v362))
theorem k1_idx264_inb : ∀ (v243 : IVec S16 32) (v362 : IVec S16 32) (k1_hw264 : k1_chk264 v243 v362), ∀ a x, ((![v243, v362] : Fin 2 → IVec S16 32) a x).toNat < S128x128.size a := fun v243 v362 k1_hw264 => k1_hw264

def k1_chk265 (v376 : IVec S16 32) : Prop :=
  (∀ a x, ((![v376] : Fin 1 → IVec S16 32) a x).toNat < S8192.size a)
instance k1_chk265.dec : ∀ (v376 : IVec S16 32), Decidable (k1_chk265 v376) := fun v376 => decidable_of_iff' _ (Iff.of_eq (k1_chk265.eq_1 v376))
theorem k1_idx265_inb : ∀ (v376 : IVec S16 32) (k1_hw265 : k1_chk265 v376), ∀ a x, ((![v376] : Fin 1 → IVec S16 32) a x).toNat < S8192.size a := fun v376 k1_hw265 => k1_hw265

def k1_chk266 (v392 : IVec S16 32) : Prop :=
  (∀ a x, ((![v392] : Fin 1 → IVec S16 32) a x).toNat < S8192.size a)
instance k1_chk266.dec : ∀ (v392 : IVec S16 32), Decidable (k1_chk266 v392) := fun v392 => decidable_of_iff' _ (Iff.of_eq (k1_chk266.eq_1 v392))
theorem k1_idx266_inb : ∀ (v392 : IVec S16 32) (k1_hw266 : k1_chk266 v392), ∀ a x, ((![v392] : Fin 1 → IVec S16 32) a x).toNat < S8192.size a := fun v392 k1_hw266 => k1_hw266

def k1_chk267 (v408 : IVec S16 32) : Prop :=
  (∀ a x, ((![v408] : Fin 1 → IVec S16 32) a x).toNat < S8192.size a)
instance k1_chk267.dec : ∀ (v408 : IVec S16 32), Decidable (k1_chk267 v408) := fun v408 => decidable_of_iff' _ (Iff.of_eq (k1_chk267.eq_1 v408))
theorem k1_idx267_inb : ∀ (v408 : IVec S16 32) (k1_hw267 : k1_chk267 v408), ∀ a x, ((![v408] : Fin 1 → IVec S16 32) a x).toNat < S8192.size a := fun v408 k1_hw267 => k1_hw267

def k1_chk268 (v424 : IVec S16 32) : Prop :=
  (∀ a x, ((![v424] : Fin 1 → IVec S16 32) a x).toNat < S8192.size a)
instance k1_chk268.dec : ∀ (v424 : IVec S16 32), Decidable (k1_chk268 v424) := fun v424 => decidable_of_iff' _ (Iff.of_eq (k1_chk268.eq_1 v424))
theorem k1_idx268_inb : ∀ (v424 : IVec S16 32) (k1_hw268 : k1_chk268 v424), ∀ a x, ((![v424] : Fin 1 → IVec S16 32) a x).toNat < S8192.size a := fun v424 k1_hw268 => k1_hw268

def k1_chk269 (v243 : IVec S16 32) (v437 : IVec S16 32) : Prop :=
  (∀ a x, ((![v243, v437] : Fin 2 → IVec S16 32) a x).toNat < S128x128.size a)
instance k1_chk269.dec : ∀ (v243 : IVec S16 32) (v437 : IVec S16 32), Decidable (k1_chk269 v243 v437) := fun v243 v437 => decidable_of_iff' _ (Iff.of_eq (k1_chk269.eq_1 v243 v437))
theorem k1_idx269_inb : ∀ (v243 : IVec S16 32) (v437 : IVec S16 32) (k1_hw269 : k1_chk269 v243 v437), ∀ a x, ((![v243, v437] : Fin 2 → IVec S16 32) a x).toNat < S128x128.size a := fun v243 v437 k1_hw269 => k1_hw269

def k1_chk270 (v243 : IVec S16 32) (v439 : IVec S16 32) : Prop :=
  (∀ a x, ((![v243, v439] : Fin 2 → IVec S16 32) a x).toNat < S128x128.size a)
instance k1_chk270.dec : ∀ (v243 : IVec S16 32) (v439 : IVec S16 32), Decidable (k1_chk270 v243 v439) := fun v243 v439 => decidable_of_iff' _ (Iff.of_eq (k1_chk270.eq_1 v243 v439))
theorem k1_idx270_inb : ∀ (v243 : IVec S16 32) (v439 : IVec S16 32) (k1_hw270 : k1_chk270 v243 v439), ∀ a x, ((![v243, v439] : Fin 2 → IVec S16 32) a x).toNat < S128x128.size a := fun v243 v439 k1_hw270 => k1_hw270

def k1_chk271 (v243 : IVec S16 32) (v441 : IVec S16 32) : Prop :=
  (∀ a x, ((![v243, v441] : Fin 2 → IVec S16 32) a x).toNat < S128x128.size a)
instance k1_chk271.dec : ∀ (v243 : IVec S16 32) (v441 : IVec S16 32), Decidable (k1_chk271 v243 v441) := fun v243 v441 => decidable_of_iff' _ (Iff.of_eq (k1_chk271.eq_1 v243 v441))
theorem k1_idx271_inb : ∀ (v243 : IVec S16 32) (v441 : IVec S16 32) (k1_hw271 : k1_chk271 v243 v441), ∀ a x, ((![v243, v441] : Fin 2 → IVec S16 32) a x).toNat < S128x128.size a := fun v243 v441 k1_hw271 => k1_hw271

def k1_chk272 (v243 : IVec S16 32) (v443 : IVec S16 32) : Prop :=
  (∀ a x, ((![v243, v443] : Fin 2 → IVec S16 32) a x).toNat < S128x128.size a)
instance k1_chk272.dec : ∀ (v243 : IVec S16 32) (v443 : IVec S16 32), Decidable (k1_chk272 v243 v443) := fun v243 v443 => decidable_of_iff' _ (Iff.of_eq (k1_chk272.eq_1 v243 v443))
theorem k1_idx272_inb : ∀ (v243 : IVec S16 32) (v443 : IVec S16 32) (k1_hw272 : k1_chk272 v243 v443), ∀ a x, ((![v243, v443] : Fin 2 → IVec S16 32) a x).toNat < S128x128.size a := fun v243 v443 k1_hw272 => k1_hw272

def k1_chk273 (v243 : IVec S16 32) (v445 : IVec S16 32) : Prop :=
  (∀ a x, ((![v243, v445] : Fin 2 → IVec S16 32) a x).toNat < S128x128.size a)
instance k1_chk273.dec : ∀ (v243 : IVec S16 32) (v445 : IVec S16 32), Decidable (k1_chk273 v243 v445) := fun v243 v445 => decidable_of_iff' _ (Iff.of_eq (k1_chk273.eq_1 v243 v445))
theorem k1_idx273_inb : ∀ (v243 : IVec S16 32) (v445 : IVec S16 32) (k1_hw273 : k1_chk273 v243 v445), ∀ a x, ((![v243, v445] : Fin 2 → IVec S16 32) a x).toNat < S128x128.size a := fun v243 v445 k1_hw273 => k1_hw273

def k1_chk274 (v243 : IVec S16 32) (v447 : IVec S16 32) : Prop :=
  (∀ a x, ((![v243, v447] : Fin 2 → IVec S16 32) a x).toNat < S128x128.size a)
instance k1_chk274.dec : ∀ (v243 : IVec S16 32) (v447 : IVec S16 32), Decidable (k1_chk274 v243 v447) := fun v243 v447 => decidable_of_iff' _ (Iff.of_eq (k1_chk274.eq_1 v243 v447))
theorem k1_idx274_inb : ∀ (v243 : IVec S16 32) (v447 : IVec S16 32) (k1_hw274 : k1_chk274 v243 v447), ∀ a x, ((![v243, v447] : Fin 2 → IVec S16 32) a x).toNat < S128x128.size a := fun v243 v447 k1_hw274 => k1_hw274

def k1_chk275 (v243 : IVec S16 32) (v449 : IVec S16 32) : Prop :=
  (∀ a x, ((![v243, v449] : Fin 2 → IVec S16 32) a x).toNat < S128x128.size a)
instance k1_chk275.dec : ∀ (v243 : IVec S16 32) (v449 : IVec S16 32), Decidable (k1_chk275 v243 v449) := fun v243 v449 => decidable_of_iff' _ (Iff.of_eq (k1_chk275.eq_1 v243 v449))
theorem k1_idx275_inb : ∀ (v243 : IVec S16 32) (v449 : IVec S16 32) (k1_hw275 : k1_chk275 v243 v449), ∀ a x, ((![v243, v449] : Fin 2 → IVec S16 32) a x).toNat < S128x128.size a := fun v243 v449 k1_hw275 => k1_hw275

def k1_chk276 (v243 : IVec S16 32) (v451 : IVec S16 32) : Prop :=
  (∀ a x, ((![v243, v451] : Fin 2 → IVec S16 32) a x).toNat < S128x128.size a)
instance k1_chk276.dec : ∀ (v243 : IVec S16 32) (v451 : IVec S16 32), Decidable (k1_chk276 v243 v451) := fun v243 v451 => decidable_of_iff' _ (Iff.of_eq (k1_chk276.eq_1 v243 v451))
theorem k1_idx276_inb : ∀ (v243 : IVec S16 32) (v451 : IVec S16 32) (k1_hw276 : k1_chk276 v243 v451), ∀ a x, ((![v243, v451] : Fin 2 → IVec S16 32) a x).toNat < S128x128.size a := fun v243 v451 k1_hw276 => k1_hw276

def k1_chk277 (v465 : IVec S16 32) : Prop :=
  (∀ a x, ((![v465] : Fin 1 → IVec S16 32) a x).toNat < S8192.size a)
instance k1_chk277.dec : ∀ (v465 : IVec S16 32), Decidable (k1_chk277 v465) := fun v465 => decidable_of_iff' _ (Iff.of_eq (k1_chk277.eq_1 v465))
theorem k1_idx277_inb : ∀ (v465 : IVec S16 32) (k1_hw277 : k1_chk277 v465), ∀ a x, ((![v465] : Fin 1 → IVec S16 32) a x).toNat < S8192.size a := fun v465 k1_hw277 => k1_hw277

def k1_chk278 (v481 : IVec S16 32) : Prop :=
  (∀ a x, ((![v481] : Fin 1 → IVec S16 32) a x).toNat < S8192.size a)
instance k1_chk278.dec : ∀ (v481 : IVec S16 32), Decidable (k1_chk278 v481) := fun v481 => decidable_of_iff' _ (Iff.of_eq (k1_chk278.eq_1 v481))
theorem k1_idx278_inb : ∀ (v481 : IVec S16 32) (k1_hw278 : k1_chk278 v481), ∀ a x, ((![v481] : Fin 1 → IVec S16 32) a x).toNat < S8192.size a := fun v481 k1_hw278 => k1_hw278

def k1_chk279 (v497 : IVec S16 32) : Prop :=
  (∀ a x, ((![v497] : Fin 1 → IVec S16 32) a x).toNat < S8192.size a)
instance k1_chk279.dec : ∀ (v497 : IVec S16 32), Decidable (k1_chk279 v497) := fun v497 => decidable_of_iff' _ (Iff.of_eq (k1_chk279.eq_1 v497))
theorem k1_idx279_inb : ∀ (v497 : IVec S16 32) (k1_hw279 : k1_chk279 v497), ∀ a x, ((![v497] : Fin 1 → IVec S16 32) a x).toNat < S8192.size a := fun v497 k1_hw279 => k1_hw279

def k1_chk280 (v513 : IVec S16 32) : Prop :=
  (∀ a x, ((![v513] : Fin 1 → IVec S16 32) a x).toNat < S8192.size a)
instance k1_chk280.dec : ∀ (v513 : IVec S16 32), Decidable (k1_chk280 v513) := fun v513 => decidable_of_iff' _ (Iff.of_eq (k1_chk280.eq_1 v513))
theorem k1_idx280_inb : ∀ (v513 : IVec S16 32) (k1_hw280 : k1_chk280 v513), ∀ a x, ((![v513] : Fin 1 → IVec S16 32) a x).toNat < S8192.size a := fun v513 k1_hw280 => k1_hw280

def k1_chk281 (v243 : IVec S16 32) (v526 : IVec S16 32) : Prop :=
  (∀ a x, ((![v243, v526] : Fin 2 → IVec S16 32) a x).toNat < S128x128.size a)
instance k1_chk281.dec : ∀ (v243 : IVec S16 32) (v526 : IVec S16 32), Decidable (k1_chk281 v243 v526) := fun v243 v526 => decidable_of_iff' _ (Iff.of_eq (k1_chk281.eq_1 v243 v526))
theorem k1_idx281_inb : ∀ (v243 : IVec S16 32) (v526 : IVec S16 32) (k1_hw281 : k1_chk281 v243 v526), ∀ a x, ((![v243, v526] : Fin 2 → IVec S16 32) a x).toNat < S128x128.size a := fun v243 v526 k1_hw281 => k1_hw281

def k1_chk282 (v243 : IVec S16 32) (v528 : IVec S16 32) : Prop :=
  (∀ a x, ((![v243, v528] : Fin 2 → IVec S16 32) a x).toNat < S128x128.size a)
instance k1_chk282.dec : ∀ (v243 : IVec S16 32) (v528 : IVec S16 32), Decidable (k1_chk282 v243 v528) := fun v243 v528 => decidable_of_iff' _ (Iff.of_eq (k1_chk282.eq_1 v243 v528))
theorem k1_idx282_inb : ∀ (v243 : IVec S16 32) (v528 : IVec S16 32) (k1_hw282 : k1_chk282 v243 v528), ∀ a x, ((![v243, v528] : Fin 2 → IVec S16 32) a x).toNat < S128x128.size a := fun v243 v528 k1_hw282 => k1_hw282

def k1_chk283 (v243 : IVec S16 32) (v530 : IVec S16 32) : Prop :=
  (∀ a x, ((![v243, v530] : Fin 2 → IVec S16 32) a x).toNat < S128x128.size a)
instance k1_chk283.dec : ∀ (v243 : IVec S16 32) (v530 : IVec S16 32), Decidable (k1_chk283 v243 v530) := fun v243 v530 => decidable_of_iff' _ (Iff.of_eq (k1_chk283.eq_1 v243 v530))
theorem k1_idx283_inb : ∀ (v243 : IVec S16 32) (v530 : IVec S16 32) (k1_hw283 : k1_chk283 v243 v530), ∀ a x, ((![v243, v530] : Fin 2 → IVec S16 32) a x).toNat < S128x128.size a := fun v243 v530 k1_hw283 => k1_hw283

def k1_chk284 (v243 : IVec S16 32) (v532 : IVec S16 32) : Prop :=
  (∀ a x, ((![v243, v532] : Fin 2 → IVec S16 32) a x).toNat < S128x128.size a)
instance k1_chk284.dec : ∀ (v243 : IVec S16 32) (v532 : IVec S16 32), Decidable (k1_chk284 v243 v532) := fun v243 v532 => decidable_of_iff' _ (Iff.of_eq (k1_chk284.eq_1 v243 v532))
theorem k1_idx284_inb : ∀ (v243 : IVec S16 32) (v532 : IVec S16 32) (k1_hw284 : k1_chk284 v243 v532), ∀ a x, ((![v243, v532] : Fin 2 → IVec S16 32) a x).toNat < S128x128.size a := fun v243 v532 k1_hw284 => k1_hw284

def k1_chk285 (v243 : IVec S16 32) (v534 : IVec S16 32) : Prop :=
  (∀ a x, ((![v243, v534] : Fin 2 → IVec S16 32) a x).toNat < S128x128.size a)
instance k1_chk285.dec : ∀ (v243 : IVec S16 32) (v534 : IVec S16 32), Decidable (k1_chk285 v243 v534) := fun v243 v534 => decidable_of_iff' _ (Iff.of_eq (k1_chk285.eq_1 v243 v534))
theorem k1_idx285_inb : ∀ (v243 : IVec S16 32) (v534 : IVec S16 32) (k1_hw285 : k1_chk285 v243 v534), ∀ a x, ((![v243, v534] : Fin 2 → IVec S16 32) a x).toNat < S128x128.size a := fun v243 v534 k1_hw285 => k1_hw285

def k1_chk286 (v243 : IVec S16 32) (v536 : IVec S16 32) : Prop :=
  (∀ a x, ((![v243, v536] : Fin 2 → IVec S16 32) a x).toNat < S128x128.size a)
instance k1_chk286.dec : ∀ (v243 : IVec S16 32) (v536 : IVec S16 32), Decidable (k1_chk286 v243 v536) := fun v243 v536 => decidable_of_iff' _ (Iff.of_eq (k1_chk286.eq_1 v243 v536))
theorem k1_idx286_inb : ∀ (v243 : IVec S16 32) (v536 : IVec S16 32) (k1_hw286 : k1_chk286 v243 v536), ∀ a x, ((![v243, v536] : Fin 2 → IVec S16 32) a x).toNat < S128x128.size a := fun v243 v536 k1_hw286 => k1_hw286

def k1_chk287 (v243 : IVec S16 32) (v538 : IVec S16 32) : Prop :=
  (∀ a x, ((![v243, v538] : Fin 2 → IVec S16 32) a x).toNat < S128x128.size a)
instance k1_chk287.dec : ∀ (v243 : IVec S16 32) (v538 : IVec S16 32), Decidable (k1_chk287 v243 v538) := fun v243 v538 => decidable_of_iff' _ (Iff.of_eq (k1_chk287.eq_1 v243 v538))
theorem k1_idx287_inb : ∀ (v243 : IVec S16 32) (v538 : IVec S16 32) (k1_hw287 : k1_chk287 v243 v538), ∀ a x, ((![v243, v538] : Fin 2 → IVec S16 32) a x).toNat < S128x128.size a := fun v243 v538 k1_hw287 => k1_hw287

def k1_chk288 (v243 : IVec S16 32) (v540 : IVec S16 32) : Prop :=
  (∀ a x, ((![v243, v540] : Fin 2 → IVec S16 32) a x).toNat < S128x128.size a)
instance k1_chk288.dec : ∀ (v243 : IVec S16 32) (v540 : IVec S16 32), Decidable (k1_chk288 v243 v540) := fun v243 v540 => decidable_of_iff' _ (Iff.of_eq (k1_chk288.eq_1 v243 v540))
theorem k1_idx288_inb : ∀ (v243 : IVec S16 32) (v540 : IVec S16 32) (k1_hw288 : k1_chk288 v243 v540), ∀ a x, ((![v243, v540] : Fin 2 → IVec S16 32) a x).toNat < S128x128.size a := fun v243 v540 k1_hw288 => k1_hw288

def k1_chk289 (v554 : IVec S16 32) : Prop :=
  (∀ a x, ((![v554] : Fin 1 → IVec S16 32) a x).toNat < S8192.size a)
instance k1_chk289.dec : ∀ (v554 : IVec S16 32), Decidable (k1_chk289 v554) := fun v554 => decidable_of_iff' _ (Iff.of_eq (k1_chk289.eq_1 v554))
theorem k1_idx289_inb : ∀ (v554 : IVec S16 32) (k1_hw289 : k1_chk289 v554), ∀ a x, ((![v554] : Fin 1 → IVec S16 32) a x).toNat < S8192.size a := fun v554 k1_hw289 => k1_hw289

def k1_chk290 (v570 : IVec S16 32) : Prop :=
  (∀ a x, ((![v570] : Fin 1 → IVec S16 32) a x).toNat < S8192.size a)
instance k1_chk290.dec : ∀ (v570 : IVec S16 32), Decidable (k1_chk290 v570) := fun v570 => decidable_of_iff' _ (Iff.of_eq (k1_chk290.eq_1 v570))
theorem k1_idx290_inb : ∀ (v570 : IVec S16 32) (k1_hw290 : k1_chk290 v570), ∀ a x, ((![v570] : Fin 1 → IVec S16 32) a x).toNat < S8192.size a := fun v570 k1_hw290 => k1_hw290

def k1_chk291 (v586 : IVec S16 32) : Prop :=
  (∀ a x, ((![v586] : Fin 1 → IVec S16 32) a x).toNat < S8192.size a)
instance k1_chk291.dec : ∀ (v586 : IVec S16 32), Decidable (k1_chk291 v586) := fun v586 => decidable_of_iff' _ (Iff.of_eq (k1_chk291.eq_1 v586))
theorem k1_idx291_inb : ∀ (v586 : IVec S16 32) (k1_hw291 : k1_chk291 v586), ∀ a x, ((![v586] : Fin 1 → IVec S16 32) a x).toNat < S8192.size a := fun v586 k1_hw291 => k1_hw291

def k1_chk292 (v602 : IVec S16 32) : Prop :=
  (∀ a x, ((![v602] : Fin 1 → IVec S16 32) a x).toNat < S8192.size a)
instance k1_chk292.dec : ∀ (v602 : IVec S16 32), Decidable (k1_chk292 v602) := fun v602 => decidable_of_iff' _ (Iff.of_eq (k1_chk292.eq_1 v602))
theorem k1_idx292_inb : ∀ (v602 : IVec S16 32) (k1_hw292 : k1_chk292 v602), ∀ a x, ((![v602] : Fin 1 → IVec S16 32) a x).toNat < S8192.size a := fun v602 k1_hw292 => k1_hw292

def k1_chk293 (v243 : IVec S16 32) (v615 : IVec S16 32) : Prop :=
  (∀ a x, ((![v243, v615] : Fin 2 → IVec S16 32) a x).toNat < S128x128.size a)
instance k1_chk293.dec : ∀ (v243 : IVec S16 32) (v615 : IVec S16 32), Decidable (k1_chk293 v243 v615) := fun v243 v615 => decidable_of_iff' _ (Iff.of_eq (k1_chk293.eq_1 v243 v615))
theorem k1_idx293_inb : ∀ (v243 : IVec S16 32) (v615 : IVec S16 32) (k1_hw293 : k1_chk293 v243 v615), ∀ a x, ((![v243, v615] : Fin 2 → IVec S16 32) a x).toNat < S128x128.size a := fun v243 v615 k1_hw293 => k1_hw293

def k1_chk294 (v243 : IVec S16 32) (v617 : IVec S16 32) : Prop :=
  (∀ a x, ((![v243, v617] : Fin 2 → IVec S16 32) a x).toNat < S128x128.size a)
instance k1_chk294.dec : ∀ (v243 : IVec S16 32) (v617 : IVec S16 32), Decidable (k1_chk294 v243 v617) := fun v243 v617 => decidable_of_iff' _ (Iff.of_eq (k1_chk294.eq_1 v243 v617))
theorem k1_idx294_inb : ∀ (v243 : IVec S16 32) (v617 : IVec S16 32) (k1_hw294 : k1_chk294 v243 v617), ∀ a x, ((![v243, v617] : Fin 2 → IVec S16 32) a x).toNat < S128x128.size a := fun v243 v617 k1_hw294 => k1_hw294

def k1_chk295 (v243 : IVec S16 32) (v619 : IVec S16 32) : Prop :=
  (∀ a x, ((![v243, v619] : Fin 2 → IVec S16 32) a x).toNat < S128x128.size a)
instance k1_chk295.dec : ∀ (v243 : IVec S16 32) (v619 : IVec S16 32), Decidable (k1_chk295 v243 v619) := fun v243 v619 => decidable_of_iff' _ (Iff.of_eq (k1_chk295.eq_1 v243 v619))
theorem k1_idx295_inb : ∀ (v243 : IVec S16 32) (v619 : IVec S16 32) (k1_hw295 : k1_chk295 v243 v619), ∀ a x, ((![v243, v619] : Fin 2 → IVec S16 32) a x).toNat < S128x128.size a := fun v243 v619 k1_hw295 => k1_hw295

def k1_chk296 (v243 : IVec S16 32) (v621 : IVec S16 32) : Prop :=
  (∀ a x, ((![v243, v621] : Fin 2 → IVec S16 32) a x).toNat < S128x128.size a)
instance k1_chk296.dec : ∀ (v243 : IVec S16 32) (v621 : IVec S16 32), Decidable (k1_chk296 v243 v621) := fun v243 v621 => decidable_of_iff' _ (Iff.of_eq (k1_chk296.eq_1 v243 v621))
theorem k1_idx296_inb : ∀ (v243 : IVec S16 32) (v621 : IVec S16 32) (k1_hw296 : k1_chk296 v243 v621), ∀ a x, ((![v243, v621] : Fin 2 → IVec S16 32) a x).toNat < S128x128.size a := fun v243 v621 k1_hw296 => k1_hw296

def k1_chk297 (v243 : IVec S16 32) (v623 : IVec S16 32) : Prop :=
  (∀ a x, ((![v243, v623] : Fin 2 → IVec S16 32) a x).toNat < S128x128.size a)
instance k1_chk297.dec : ∀ (v243 : IVec S16 32) (v623 : IVec S16 32), Decidable (k1_chk297 v243 v623) := fun v243 v623 => decidable_of_iff' _ (Iff.of_eq (k1_chk297.eq_1 v243 v623))
theorem k1_idx297_inb : ∀ (v243 : IVec S16 32) (v623 : IVec S16 32) (k1_hw297 : k1_chk297 v243 v623), ∀ a x, ((![v243, v623] : Fin 2 → IVec S16 32) a x).toNat < S128x128.size a := fun v243 v623 k1_hw297 => k1_hw297

def k1_chk298 (v243 : IVec S16 32) (v625 : IVec S16 32) : Prop :=
  (∀ a x, ((![v243, v625] : Fin 2 → IVec S16 32) a x).toNat < S128x128.size a)
instance k1_chk298.dec : ∀ (v243 : IVec S16 32) (v625 : IVec S16 32), Decidable (k1_chk298 v243 v625) := fun v243 v625 => decidable_of_iff' _ (Iff.of_eq (k1_chk298.eq_1 v243 v625))
theorem k1_idx298_inb : ∀ (v243 : IVec S16 32) (v625 : IVec S16 32) (k1_hw298 : k1_chk298 v243 v625), ∀ a x, ((![v243, v625] : Fin 2 → IVec S16 32) a x).toNat < S128x128.size a := fun v243 v625 k1_hw298 => k1_hw298

def k1_chk299 (v243 : IVec S16 32) (v627 : IVec S16 32) : Prop :=
  (∀ a x, ((![v243, v627] : Fin 2 → IVec S16 32) a x).toNat < S128x128.size a)
instance k1_chk299.dec : ∀ (v243 : IVec S16 32) (v627 : IVec S16 32), Decidable (k1_chk299 v243 v627) := fun v243 v627 => decidable_of_iff' _ (Iff.of_eq (k1_chk299.eq_1 v243 v627))
theorem k1_idx299_inb : ∀ (v243 : IVec S16 32) (v627 : IVec S16 32) (k1_hw299 : k1_chk299 v243 v627), ∀ a x, ((![v243, v627] : Fin 2 → IVec S16 32) a x).toNat < S128x128.size a := fun v243 v627 k1_hw299 => k1_hw299

def k1_chk300 (v243 : IVec S16 32) (v629 : IVec S16 32) : Prop :=
  (∀ a x, ((![v243, v629] : Fin 2 → IVec S16 32) a x).toNat < S128x128.size a)
instance k1_chk300.dec : ∀ (v243 : IVec S16 32) (v629 : IVec S16 32), Decidable (k1_chk300 v243 v629) := fun v243 v629 => decidable_of_iff' _ (Iff.of_eq (k1_chk300.eq_1 v243 v629))
theorem k1_idx300_inb : ∀ (v243 : IVec S16 32) (v629 : IVec S16 32) (k1_hw300 : k1_chk300 v243 v629), ∀ a x, ((![v243, v629] : Fin 2 → IVec S16 32) a x).toNat < S128x128.size a := fun v243 v629 k1_hw300 => k1_hw300

def k1_chk301 (v643 : IVec S16 32) : Prop :=
  (∀ a x, ((![v643] : Fin 1 → IVec S16 32) a x).toNat < S8192.size a)
instance k1_chk301.dec : ∀ (v643 : IVec S16 32), Decidable (k1_chk301 v643) := fun v643 => decidable_of_iff' _ (Iff.of_eq (k1_chk301.eq_1 v643))
theorem k1_idx301_inb : ∀ (v643 : IVec S16 32) (k1_hw301 : k1_chk301 v643), ∀ a x, ((![v643] : Fin 1 → IVec S16 32) a x).toNat < S8192.size a := fun v643 k1_hw301 => k1_hw301

def k1_chk302 (v659 : IVec S16 32) : Prop :=
  (∀ a x, ((![v659] : Fin 1 → IVec S16 32) a x).toNat < S8192.size a)
instance k1_chk302.dec : ∀ (v659 : IVec S16 32), Decidable (k1_chk302 v659) := fun v659 => decidable_of_iff' _ (Iff.of_eq (k1_chk302.eq_1 v659))
theorem k1_idx302_inb : ∀ (v659 : IVec S16 32) (k1_hw302 : k1_chk302 v659), ∀ a x, ((![v659] : Fin 1 → IVec S16 32) a x).toNat < S8192.size a := fun v659 k1_hw302 => k1_hw302

def k1_chk303 (v675 : IVec S16 32) : Prop :=
  (∀ a x, ((![v675] : Fin 1 → IVec S16 32) a x).toNat < S8192.size a)
instance k1_chk303.dec : ∀ (v675 : IVec S16 32), Decidable (k1_chk303 v675) := fun v675 => decidable_of_iff' _ (Iff.of_eq (k1_chk303.eq_1 v675))
theorem k1_idx303_inb : ∀ (v675 : IVec S16 32) (k1_hw303 : k1_chk303 v675), ∀ a x, ((![v675] : Fin 1 → IVec S16 32) a x).toNat < S8192.size a := fun v675 k1_hw303 => k1_hw303

def k1_chk304 (v691 : IVec S16 32) : Prop :=
  (∀ a x, ((![v691] : Fin 1 → IVec S16 32) a x).toNat < S8192.size a)
instance k1_chk304.dec : ∀ (v691 : IVec S16 32), Decidable (k1_chk304 v691) := fun v691 => decidable_of_iff' _ (Iff.of_eq (k1_chk304.eq_1 v691))
theorem k1_idx304_inb : ∀ (v691 : IVec S16 32) (k1_hw304 : k1_chk304 v691), ∀ a x, ((![v691] : Fin 1 → IVec S16 32) a x).toNat < S8192.size a := fun v691 k1_hw304 => k1_hw304

def k1_chk305 (v243 : IVec S16 32) (v704 : IVec S16 32) : Prop :=
  (∀ a x, ((![v243, v704] : Fin 2 → IVec S16 32) a x).toNat < S128x128.size a)
instance k1_chk305.dec : ∀ (v243 : IVec S16 32) (v704 : IVec S16 32), Decidable (k1_chk305 v243 v704) := fun v243 v704 => decidable_of_iff' _ (Iff.of_eq (k1_chk305.eq_1 v243 v704))
theorem k1_idx305_inb : ∀ (v243 : IVec S16 32) (v704 : IVec S16 32) (k1_hw305 : k1_chk305 v243 v704), ∀ a x, ((![v243, v704] : Fin 2 → IVec S16 32) a x).toNat < S128x128.size a := fun v243 v704 k1_hw305 => k1_hw305

def k1_chk306 (v243 : IVec S16 32) (v706 : IVec S16 32) : Prop :=
  (∀ a x, ((![v243, v706] : Fin 2 → IVec S16 32) a x).toNat < S128x128.size a)
instance k1_chk306.dec : ∀ (v243 : IVec S16 32) (v706 : IVec S16 32), Decidable (k1_chk306 v243 v706) := fun v243 v706 => decidable_of_iff' _ (Iff.of_eq (k1_chk306.eq_1 v243 v706))
theorem k1_idx306_inb : ∀ (v243 : IVec S16 32) (v706 : IVec S16 32) (k1_hw306 : k1_chk306 v243 v706), ∀ a x, ((![v243, v706] : Fin 2 → IVec S16 32) a x).toNat < S128x128.size a := fun v243 v706 k1_hw306 => k1_hw306

def k1_chk307 (v243 : IVec S16 32) (v708 : IVec S16 32) : Prop :=
  (∀ a x, ((![v243, v708] : Fin 2 → IVec S16 32) a x).toNat < S128x128.size a)
instance k1_chk307.dec : ∀ (v243 : IVec S16 32) (v708 : IVec S16 32), Decidable (k1_chk307 v243 v708) := fun v243 v708 => decidable_of_iff' _ (Iff.of_eq (k1_chk307.eq_1 v243 v708))
theorem k1_idx307_inb : ∀ (v243 : IVec S16 32) (v708 : IVec S16 32) (k1_hw307 : k1_chk307 v243 v708), ∀ a x, ((![v243, v708] : Fin 2 → IVec S16 32) a x).toNat < S128x128.size a := fun v243 v708 k1_hw307 => k1_hw307

def k1_chk308 (v243 : IVec S16 32) (v710 : IVec S16 32) : Prop :=
  (∀ a x, ((![v243, v710] : Fin 2 → IVec S16 32) a x).toNat < S128x128.size a)
instance k1_chk308.dec : ∀ (v243 : IVec S16 32) (v710 : IVec S16 32), Decidable (k1_chk308 v243 v710) := fun v243 v710 => decidable_of_iff' _ (Iff.of_eq (k1_chk308.eq_1 v243 v710))
theorem k1_idx308_inb : ∀ (v243 : IVec S16 32) (v710 : IVec S16 32) (k1_hw308 : k1_chk308 v243 v710), ∀ a x, ((![v243, v710] : Fin 2 → IVec S16 32) a x).toNat < S128x128.size a := fun v243 v710 k1_hw308 => k1_hw308

def k1_chk309 (v243 : IVec S16 32) (v712 : IVec S16 32) : Prop :=
  (∀ a x, ((![v243, v712] : Fin 2 → IVec S16 32) a x).toNat < S128x128.size a)
instance k1_chk309.dec : ∀ (v243 : IVec S16 32) (v712 : IVec S16 32), Decidable (k1_chk309 v243 v712) := fun v243 v712 => decidable_of_iff' _ (Iff.of_eq (k1_chk309.eq_1 v243 v712))
theorem k1_idx309_inb : ∀ (v243 : IVec S16 32) (v712 : IVec S16 32) (k1_hw309 : k1_chk309 v243 v712), ∀ a x, ((![v243, v712] : Fin 2 → IVec S16 32) a x).toNat < S128x128.size a := fun v243 v712 k1_hw309 => k1_hw309

def k1_chk310 (v243 : IVec S16 32) (v714 : IVec S16 32) : Prop :=
  (∀ a x, ((![v243, v714] : Fin 2 → IVec S16 32) a x).toNat < S128x128.size a)
instance k1_chk310.dec : ∀ (v243 : IVec S16 32) (v714 : IVec S16 32), Decidable (k1_chk310 v243 v714) := fun v243 v714 => decidable_of_iff' _ (Iff.of_eq (k1_chk310.eq_1 v243 v714))
theorem k1_idx310_inb : ∀ (v243 : IVec S16 32) (v714 : IVec S16 32) (k1_hw310 : k1_chk310 v243 v714), ∀ a x, ((![v243, v714] : Fin 2 → IVec S16 32) a x).toNat < S128x128.size a := fun v243 v714 k1_hw310 => k1_hw310

def k1_chk311 (v243 : IVec S16 32) (v716 : IVec S16 32) : Prop :=
  (∀ a x, ((![v243, v716] : Fin 2 → IVec S16 32) a x).toNat < S128x128.size a)
instance k1_chk311.dec : ∀ (v243 : IVec S16 32) (v716 : IVec S16 32), Decidable (k1_chk311 v243 v716) := fun v243 v716 => decidable_of_iff' _ (Iff.of_eq (k1_chk311.eq_1 v243 v716))
theorem k1_idx311_inb : ∀ (v243 : IVec S16 32) (v716 : IVec S16 32) (k1_hw311 : k1_chk311 v243 v716), ∀ a x, ((![v243, v716] : Fin 2 → IVec S16 32) a x).toNat < S128x128.size a := fun v243 v716 k1_hw311 => k1_hw311

def k1_chk312 (v243 : IVec S16 32) (v718 : IVec S16 32) : Prop :=
  (∀ a x, ((![v243, v718] : Fin 2 → IVec S16 32) a x).toNat < S128x128.size a)
instance k1_chk312.dec : ∀ (v243 : IVec S16 32) (v718 : IVec S16 32), Decidable (k1_chk312 v243 v718) := fun v243 v718 => decidable_of_iff' _ (Iff.of_eq (k1_chk312.eq_1 v243 v718))
theorem k1_idx312_inb : ∀ (v243 : IVec S16 32) (v718 : IVec S16 32) (k1_hw312 : k1_chk312 v243 v718), ∀ a x, ((![v243, v718] : Fin 2 → IVec S16 32) a x).toNat < S128x128.size a := fun v243 v718 k1_hw312 => k1_hw312

def k1_chk313 (v732 : IVec S16 32) : Prop :=
  (∀ a x, ((![v732] : Fin 1 → IVec S16 32) a x).toNat < S8192.size a)
instance k1_chk313.dec : ∀ (v732 : IVec S16 32), Decidable (k1_chk313 v732) := fun v732 => decidable_of_iff' _ (Iff.of_eq (k1_chk313.eq_1 v732))
theorem k1_idx313_inb : ∀ (v732 : IVec S16 32) (k1_hw313 : k1_chk313 v732), ∀ a x, ((![v732] : Fin 1 → IVec S16 32) a x).toNat < S8192.size a := fun v732 k1_hw313 => k1_hw313

def k1_chk314 (v748 : IVec S16 32) : Prop :=
  (∀ a x, ((![v748] : Fin 1 → IVec S16 32) a x).toNat < S8192.size a)
instance k1_chk314.dec : ∀ (v748 : IVec S16 32), Decidable (k1_chk314 v748) := fun v748 => decidable_of_iff' _ (Iff.of_eq (k1_chk314.eq_1 v748))
theorem k1_idx314_inb : ∀ (v748 : IVec S16 32) (k1_hw314 : k1_chk314 v748), ∀ a x, ((![v748] : Fin 1 → IVec S16 32) a x).toNat < S8192.size a := fun v748 k1_hw314 => k1_hw314

def k1_chk315 (v764 : IVec S16 32) : Prop :=
  (∀ a x, ((![v764] : Fin 1 → IVec S16 32) a x).toNat < S8192.size a)
instance k1_chk315.dec : ∀ (v764 : IVec S16 32), Decidable (k1_chk315 v764) := fun v764 => decidable_of_iff' _ (Iff.of_eq (k1_chk315.eq_1 v764))
theorem k1_idx315_inb : ∀ (v764 : IVec S16 32) (k1_hw315 : k1_chk315 v764), ∀ a x, ((![v764] : Fin 1 → IVec S16 32) a x).toNat < S8192.size a := fun v764 k1_hw315 => k1_hw315

def k1_chk316 (v780 : IVec S16 32) : Prop :=
  (∀ a x, ((![v780] : Fin 1 → IVec S16 32) a x).toNat < S8192.size a)
instance k1_chk316.dec : ∀ (v780 : IVec S16 32), Decidable (k1_chk316 v780) := fun v780 => decidable_of_iff' _ (Iff.of_eq (k1_chk316.eq_1 v780))
theorem k1_idx316_inb : ∀ (v780 : IVec S16 32) (k1_hw316 : k1_chk316 v780), ∀ a x, ((![v780] : Fin 1 → IVec S16 32) a x).toNat < S8192.size a := fun v780 k1_hw316 => k1_hw316

def k1_chk317 (v243 : IVec S16 32) (v793 : IVec S16 32) : Prop :=
  (∀ a x, ((![v243, v793] : Fin 2 → IVec S16 32) a x).toNat < S128x128.size a)
instance k1_chk317.dec : ∀ (v243 : IVec S16 32) (v793 : IVec S16 32), Decidable (k1_chk317 v243 v793) := fun v243 v793 => decidable_of_iff' _ (Iff.of_eq (k1_chk317.eq_1 v243 v793))
theorem k1_idx317_inb : ∀ (v243 : IVec S16 32) (v793 : IVec S16 32) (k1_hw317 : k1_chk317 v243 v793), ∀ a x, ((![v243, v793] : Fin 2 → IVec S16 32) a x).toNat < S128x128.size a := fun v243 v793 k1_hw317 => k1_hw317

def k1_chk318 (v243 : IVec S16 32) (v795 : IVec S16 32) : Prop :=
  (∀ a x, ((![v243, v795] : Fin 2 → IVec S16 32) a x).toNat < S128x128.size a)
instance k1_chk318.dec : ∀ (v243 : IVec S16 32) (v795 : IVec S16 32), Decidable (k1_chk318 v243 v795) := fun v243 v795 => decidable_of_iff' _ (Iff.of_eq (k1_chk318.eq_1 v243 v795))
theorem k1_idx318_inb : ∀ (v243 : IVec S16 32) (v795 : IVec S16 32) (k1_hw318 : k1_chk318 v243 v795), ∀ a x, ((![v243, v795] : Fin 2 → IVec S16 32) a x).toNat < S128x128.size a := fun v243 v795 k1_hw318 => k1_hw318

def k1_chk319 (v243 : IVec S16 32) (v797 : IVec S16 32) : Prop :=
  (∀ a x, ((![v243, v797] : Fin 2 → IVec S16 32) a x).toNat < S128x128.size a)
instance k1_chk319.dec : ∀ (v243 : IVec S16 32) (v797 : IVec S16 32), Decidable (k1_chk319 v243 v797) := fun v243 v797 => decidable_of_iff' _ (Iff.of_eq (k1_chk319.eq_1 v243 v797))
theorem k1_idx319_inb : ∀ (v243 : IVec S16 32) (v797 : IVec S16 32) (k1_hw319 : k1_chk319 v243 v797), ∀ a x, ((![v243, v797] : Fin 2 → IVec S16 32) a x).toNat < S128x128.size a := fun v243 v797 k1_hw319 => k1_hw319

def k1_chk320 (v243 : IVec S16 32) (v799 : IVec S16 32) : Prop :=
  (∀ a x, ((![v243, v799] : Fin 2 → IVec S16 32) a x).toNat < S128x128.size a)
instance k1_chk320.dec : ∀ (v243 : IVec S16 32) (v799 : IVec S16 32), Decidable (k1_chk320 v243 v799) := fun v243 v799 => decidable_of_iff' _ (Iff.of_eq (k1_chk320.eq_1 v243 v799))
theorem k1_idx320_inb : ∀ (v243 : IVec S16 32) (v799 : IVec S16 32) (k1_hw320 : k1_chk320 v243 v799), ∀ a x, ((![v243, v799] : Fin 2 → IVec S16 32) a x).toNat < S128x128.size a := fun v243 v799 k1_hw320 => k1_hw320

def k1_chk321 (v243 : IVec S16 32) (v801 : IVec S16 32) : Prop :=
  (∀ a x, ((![v243, v801] : Fin 2 → IVec S16 32) a x).toNat < S128x128.size a)
instance k1_chk321.dec : ∀ (v243 : IVec S16 32) (v801 : IVec S16 32), Decidable (k1_chk321 v243 v801) := fun v243 v801 => decidable_of_iff' _ (Iff.of_eq (k1_chk321.eq_1 v243 v801))
theorem k1_idx321_inb : ∀ (v243 : IVec S16 32) (v801 : IVec S16 32) (k1_hw321 : k1_chk321 v243 v801), ∀ a x, ((![v243, v801] : Fin 2 → IVec S16 32) a x).toNat < S128x128.size a := fun v243 v801 k1_hw321 => k1_hw321

def k1_chk322 (v243 : IVec S16 32) (v803 : IVec S16 32) : Prop :=
  (∀ a x, ((![v243, v803] : Fin 2 → IVec S16 32) a x).toNat < S128x128.size a)
instance k1_chk322.dec : ∀ (v243 : IVec S16 32) (v803 : IVec S16 32), Decidable (k1_chk322 v243 v803) := fun v243 v803 => decidable_of_iff' _ (Iff.of_eq (k1_chk322.eq_1 v243 v803))
theorem k1_idx322_inb : ∀ (v243 : IVec S16 32) (v803 : IVec S16 32) (k1_hw322 : k1_chk322 v243 v803), ∀ a x, ((![v243, v803] : Fin 2 → IVec S16 32) a x).toNat < S128x128.size a := fun v243 v803 k1_hw322 => k1_hw322

def k1_chk323 (v243 : IVec S16 32) (v805 : IVec S16 32) : Prop :=
  (∀ a x, ((![v243, v805] : Fin 2 → IVec S16 32) a x).toNat < S128x128.size a)
instance k1_chk323.dec : ∀ (v243 : IVec S16 32) (v805 : IVec S16 32), Decidable (k1_chk323 v243 v805) := fun v243 v805 => decidable_of_iff' _ (Iff.of_eq (k1_chk323.eq_1 v243 v805))
theorem k1_idx323_inb : ∀ (v243 : IVec S16 32) (v805 : IVec S16 32) (k1_hw323 : k1_chk323 v243 v805), ∀ a x, ((![v243, v805] : Fin 2 → IVec S16 32) a x).toNat < S128x128.size a := fun v243 v805 k1_hw323 => k1_hw323

def k1_chk324 (v243 : IVec S16 32) (v807 : IVec S16 32) : Prop :=
  (∀ a x, ((![v243, v807] : Fin 2 → IVec S16 32) a x).toNat < S128x128.size a)
instance k1_chk324.dec : ∀ (v243 : IVec S16 32) (v807 : IVec S16 32), Decidable (k1_chk324 v243 v807) := fun v243 v807 => decidable_of_iff' _ (Iff.of_eq (k1_chk324.eq_1 v243 v807))
theorem k1_idx324_inb : ∀ (v243 : IVec S16 32) (v807 : IVec S16 32) (k1_hw324 : k1_chk324 v243 v807), ∀ a x, ((![v243, v807] : Fin 2 → IVec S16 32) a x).toNat < S128x128.size a := fun v243 v807 k1_hw324 => k1_hw324

def k1_chk325 (v821 : IVec S16 32) : Prop :=
  (∀ a x, ((![v821] : Fin 1 → IVec S16 32) a x).toNat < S8192.size a)
instance k1_chk325.dec : ∀ (v821 : IVec S16 32), Decidable (k1_chk325 v821) := fun v821 => decidable_of_iff' _ (Iff.of_eq (k1_chk325.eq_1 v821))
theorem k1_idx325_inb : ∀ (v821 : IVec S16 32) (k1_hw325 : k1_chk325 v821), ∀ a x, ((![v821] : Fin 1 → IVec S16 32) a x).toNat < S8192.size a := fun v821 k1_hw325 => k1_hw325

def k1_chk326 (v837 : IVec S16 32) : Prop :=
  (∀ a x, ((![v837] : Fin 1 → IVec S16 32) a x).toNat < S8192.size a)
instance k1_chk326.dec : ∀ (v837 : IVec S16 32), Decidable (k1_chk326 v837) := fun v837 => decidable_of_iff' _ (Iff.of_eq (k1_chk326.eq_1 v837))
theorem k1_idx326_inb : ∀ (v837 : IVec S16 32) (k1_hw326 : k1_chk326 v837), ∀ a x, ((![v837] : Fin 1 → IVec S16 32) a x).toNat < S8192.size a := fun v837 k1_hw326 => k1_hw326

def k1_chk327 (v853 : IVec S16 32) : Prop :=
  (∀ a x, ((![v853] : Fin 1 → IVec S16 32) a x).toNat < S8192.size a)
instance k1_chk327.dec : ∀ (v853 : IVec S16 32), Decidable (k1_chk327 v853) := fun v853 => decidable_of_iff' _ (Iff.of_eq (k1_chk327.eq_1 v853))
theorem k1_idx327_inb : ∀ (v853 : IVec S16 32) (k1_hw327 : k1_chk327 v853), ∀ a x, ((![v853] : Fin 1 → IVec S16 32) a x).toNat < S8192.size a := fun v853 k1_hw327 => k1_hw327

def k1_chk328 (v869 : IVec S16 32) : Prop :=
  (∀ a x, ((![v869] : Fin 1 → IVec S16 32) a x).toNat < S8192.size a)
instance k1_chk328.dec : ∀ (v869 : IVec S16 32), Decidable (k1_chk328 v869) := fun v869 => decidable_of_iff' _ (Iff.of_eq (k1_chk328.eq_1 v869))
theorem k1_idx328_inb : ∀ (v869 : IVec S16 32) (k1_hw328 : k1_chk328 v869), ∀ a x, ((![v869] : Fin 1 → IVec S16 32) a x).toNat < S8192.size a := fun v869 k1_hw328 => k1_hw328

def k1_chk329 (v243 : IVec S16 32) (v882 : IVec S16 32) : Prop :=
  (∀ a x, ((![v243, v882] : Fin 2 → IVec S16 32) a x).toNat < S128x128.size a)
instance k1_chk329.dec : ∀ (v243 : IVec S16 32) (v882 : IVec S16 32), Decidable (k1_chk329 v243 v882) := fun v243 v882 => decidable_of_iff' _ (Iff.of_eq (k1_chk329.eq_1 v243 v882))
theorem k1_idx329_inb : ∀ (v243 : IVec S16 32) (v882 : IVec S16 32) (k1_hw329 : k1_chk329 v243 v882), ∀ a x, ((![v243, v882] : Fin 2 → IVec S16 32) a x).toNat < S128x128.size a := fun v243 v882 k1_hw329 => k1_hw329

def k1_chk330 (v243 : IVec S16 32) (v884 : IVec S16 32) : Prop :=
  (∀ a x, ((![v243, v884] : Fin 2 → IVec S16 32) a x).toNat < S128x128.size a)
instance k1_chk330.dec : ∀ (v243 : IVec S16 32) (v884 : IVec S16 32), Decidable (k1_chk330 v243 v884) := fun v243 v884 => decidable_of_iff' _ (Iff.of_eq (k1_chk330.eq_1 v243 v884))
theorem k1_idx330_inb : ∀ (v243 : IVec S16 32) (v884 : IVec S16 32) (k1_hw330 : k1_chk330 v243 v884), ∀ a x, ((![v243, v884] : Fin 2 → IVec S16 32) a x).toNat < S128x128.size a := fun v243 v884 k1_hw330 => k1_hw330

def k1_chk331 (v243 : IVec S16 32) (v886 : IVec S16 32) : Prop :=
  (∀ a x, ((![v243, v886] : Fin 2 → IVec S16 32) a x).toNat < S128x128.size a)
instance k1_chk331.dec : ∀ (v243 : IVec S16 32) (v886 : IVec S16 32), Decidable (k1_chk331 v243 v886) := fun v243 v886 => decidable_of_iff' _ (Iff.of_eq (k1_chk331.eq_1 v243 v886))
theorem k1_idx331_inb : ∀ (v243 : IVec S16 32) (v886 : IVec S16 32) (k1_hw331 : k1_chk331 v243 v886), ∀ a x, ((![v243, v886] : Fin 2 → IVec S16 32) a x).toNat < S128x128.size a := fun v243 v886 k1_hw331 => k1_hw331

def k1_chk332 (v243 : IVec S16 32) (v888 : IVec S16 32) : Prop :=
  (∀ a x, ((![v243, v888] : Fin 2 → IVec S16 32) a x).toNat < S128x128.size a)
instance k1_chk332.dec : ∀ (v243 : IVec S16 32) (v888 : IVec S16 32), Decidable (k1_chk332 v243 v888) := fun v243 v888 => decidable_of_iff' _ (Iff.of_eq (k1_chk332.eq_1 v243 v888))
theorem k1_idx332_inb : ∀ (v243 : IVec S16 32) (v888 : IVec S16 32) (k1_hw332 : k1_chk332 v243 v888), ∀ a x, ((![v243, v888] : Fin 2 → IVec S16 32) a x).toNat < S128x128.size a := fun v243 v888 k1_hw332 => k1_hw332

def k1_chk333 (v243 : IVec S16 32) (v890 : IVec S16 32) : Prop :=
  (∀ a x, ((![v243, v890] : Fin 2 → IVec S16 32) a x).toNat < S128x128.size a)
instance k1_chk333.dec : ∀ (v243 : IVec S16 32) (v890 : IVec S16 32), Decidable (k1_chk333 v243 v890) := fun v243 v890 => decidable_of_iff' _ (Iff.of_eq (k1_chk333.eq_1 v243 v890))
theorem k1_idx333_inb : ∀ (v243 : IVec S16 32) (v890 : IVec S16 32) (k1_hw333 : k1_chk333 v243 v890), ∀ a x, ((![v243, v890] : Fin 2 → IVec S16 32) a x).toNat < S128x128.size a := fun v243 v890 k1_hw333 => k1_hw333

def k1_chk334 (v243 : IVec S16 32) (v892 : IVec S16 32) : Prop :=
  (∀ a x, ((![v243, v892] : Fin 2 → IVec S16 32) a x).toNat < S128x128.size a)
instance k1_chk334.dec : ∀ (v243 : IVec S16 32) (v892 : IVec S16 32), Decidable (k1_chk334 v243 v892) := fun v243 v892 => decidable_of_iff' _ (Iff.of_eq (k1_chk334.eq_1 v243 v892))
theorem k1_idx334_inb : ∀ (v243 : IVec S16 32) (v892 : IVec S16 32) (k1_hw334 : k1_chk334 v243 v892), ∀ a x, ((![v243, v892] : Fin 2 → IVec S16 32) a x).toNat < S128x128.size a := fun v243 v892 k1_hw334 => k1_hw334

def k1_chk335 (v243 : IVec S16 32) (v894 : IVec S16 32) : Prop :=
  (∀ a x, ((![v243, v894] : Fin 2 → IVec S16 32) a x).toNat < S128x128.size a)
instance k1_chk335.dec : ∀ (v243 : IVec S16 32) (v894 : IVec S16 32), Decidable (k1_chk335 v243 v894) := fun v243 v894 => decidable_of_iff' _ (Iff.of_eq (k1_chk335.eq_1 v243 v894))
theorem k1_idx335_inb : ∀ (v243 : IVec S16 32) (v894 : IVec S16 32) (k1_hw335 : k1_chk335 v243 v894), ∀ a x, ((![v243, v894] : Fin 2 → IVec S16 32) a x).toNat < S128x128.size a := fun v243 v894 k1_hw335 => k1_hw335

def k1_chk336 (v243 : IVec S16 32) (v896 : IVec S16 32) : Prop :=
  (∀ a x, ((![v243, v896] : Fin 2 → IVec S16 32) a x).toNat < S128x128.size a)
instance k1_chk336.dec : ∀ (v243 : IVec S16 32) (v896 : IVec S16 32), Decidable (k1_chk336 v243 v896) := fun v243 v896 => decidable_of_iff' _ (Iff.of_eq (k1_chk336.eq_1 v243 v896))
theorem k1_idx336_inb : ∀ (v243 : IVec S16 32) (v896 : IVec S16 32) (k1_hw336 : k1_chk336 v243 v896), ∀ a x, ((![v243, v896] : Fin 2 → IVec S16 32) a x).toNat < S128x128.size a := fun v243 v896 k1_hw336 => k1_hw336

def k1_chk337 (v910 : IVec S16 32) : Prop :=
  (∀ a x, ((![v910] : Fin 1 → IVec S16 32) a x).toNat < S8192.size a)
instance k1_chk337.dec : ∀ (v910 : IVec S16 32), Decidable (k1_chk337 v910) := fun v910 => decidable_of_iff' _ (Iff.of_eq (k1_chk337.eq_1 v910))
theorem k1_idx337_inb : ∀ (v910 : IVec S16 32) (k1_hw337 : k1_chk337 v910), ∀ a x, ((![v910] : Fin 1 → IVec S16 32) a x).toNat < S8192.size a := fun v910 k1_hw337 => k1_hw337

def k1_chk338 (v926 : IVec S16 32) : Prop :=
  (∀ a x, ((![v926] : Fin 1 → IVec S16 32) a x).toNat < S8192.size a)
instance k1_chk338.dec : ∀ (v926 : IVec S16 32), Decidable (k1_chk338 v926) := fun v926 => decidable_of_iff' _ (Iff.of_eq (k1_chk338.eq_1 v926))
theorem k1_idx338_inb : ∀ (v926 : IVec S16 32) (k1_hw338 : k1_chk338 v926), ∀ a x, ((![v926] : Fin 1 → IVec S16 32) a x).toNat < S8192.size a := fun v926 k1_hw338 => k1_hw338

def k1_chk339 (v942 : IVec S16 32) : Prop :=
  (∀ a x, ((![v942] : Fin 1 → IVec S16 32) a x).toNat < S8192.size a)
instance k1_chk339.dec : ∀ (v942 : IVec S16 32), Decidable (k1_chk339 v942) := fun v942 => decidable_of_iff' _ (Iff.of_eq (k1_chk339.eq_1 v942))
theorem k1_idx339_inb : ∀ (v942 : IVec S16 32) (k1_hw339 : k1_chk339 v942), ∀ a x, ((![v942] : Fin 1 → IVec S16 32) a x).toNat < S8192.size a := fun v942 k1_hw339 => k1_hw339

def k1_chk340 (v958 : IVec S16 32) : Prop :=
  (∀ a x, ((![v958] : Fin 1 → IVec S16 32) a x).toNat < S8192.size a)
instance k1_chk340.dec : ∀ (v958 : IVec S16 32), Decidable (k1_chk340 v958) := fun v958 => decidable_of_iff' _ (Iff.of_eq (k1_chk340.eq_1 v958))
theorem k1_idx340_inb : ∀ (v958 : IVec S16 32) (k1_hw340 : k1_chk340 v958), ∀ a x, ((![v958] : Fin 1 → IVec S16 32) a x).toNat < S8192.size a := fun v958 k1_hw340 => k1_hw340

def k1_chk341 (v243 : IVec S16 32) (v971 : IVec S16 32) : Prop :=
  (∀ a x, ((![v243, v971] : Fin 2 → IVec S16 32) a x).toNat < S128x128.size a)
instance k1_chk341.dec : ∀ (v243 : IVec S16 32) (v971 : IVec S16 32), Decidable (k1_chk341 v243 v971) := fun v243 v971 => decidable_of_iff' _ (Iff.of_eq (k1_chk341.eq_1 v243 v971))
theorem k1_idx341_inb : ∀ (v243 : IVec S16 32) (v971 : IVec S16 32) (k1_hw341 : k1_chk341 v243 v971), ∀ a x, ((![v243, v971] : Fin 2 → IVec S16 32) a x).toNat < S128x128.size a := fun v243 v971 k1_hw341 => k1_hw341

def k1_chk342 (v243 : IVec S16 32) (v973 : IVec S16 32) : Prop :=
  (∀ a x, ((![v243, v973] : Fin 2 → IVec S16 32) a x).toNat < S128x128.size a)
instance k1_chk342.dec : ∀ (v243 : IVec S16 32) (v973 : IVec S16 32), Decidable (k1_chk342 v243 v973) := fun v243 v973 => decidable_of_iff' _ (Iff.of_eq (k1_chk342.eq_1 v243 v973))
theorem k1_idx342_inb : ∀ (v243 : IVec S16 32) (v973 : IVec S16 32) (k1_hw342 : k1_chk342 v243 v973), ∀ a x, ((![v243, v973] : Fin 2 → IVec S16 32) a x).toNat < S128x128.size a := fun v243 v973 k1_hw342 => k1_hw342

def k1_chk343 (v243 : IVec S16 32) (v975 : IVec S16 32) : Prop :=
  (∀ a x, ((![v243, v975] : Fin 2 → IVec S16 32) a x).toNat < S128x128.size a)
instance k1_chk343.dec : ∀ (v243 : IVec S16 32) (v975 : IVec S16 32), Decidable (k1_chk343 v243 v975) := fun v243 v975 => decidable_of_iff' _ (Iff.of_eq (k1_chk343.eq_1 v243 v975))
theorem k1_idx343_inb : ∀ (v243 : IVec S16 32) (v975 : IVec S16 32) (k1_hw343 : k1_chk343 v243 v975), ∀ a x, ((![v243, v975] : Fin 2 → IVec S16 32) a x).toNat < S128x128.size a := fun v243 v975 k1_hw343 => k1_hw343

def k1_chk344 (v243 : IVec S16 32) (v977 : IVec S16 32) : Prop :=
  (∀ a x, ((![v243, v977] : Fin 2 → IVec S16 32) a x).toNat < S128x128.size a)
instance k1_chk344.dec : ∀ (v243 : IVec S16 32) (v977 : IVec S16 32), Decidable (k1_chk344 v243 v977) := fun v243 v977 => decidable_of_iff' _ (Iff.of_eq (k1_chk344.eq_1 v243 v977))
theorem k1_idx344_inb : ∀ (v243 : IVec S16 32) (v977 : IVec S16 32) (k1_hw344 : k1_chk344 v243 v977), ∀ a x, ((![v243, v977] : Fin 2 → IVec S16 32) a x).toNat < S128x128.size a := fun v243 v977 k1_hw344 => k1_hw344

def k1_chk345 (v243 : IVec S16 32) (v979 : IVec S16 32) : Prop :=
  (∀ a x, ((![v243, v979] : Fin 2 → IVec S16 32) a x).toNat < S128x128.size a)
instance k1_chk345.dec : ∀ (v243 : IVec S16 32) (v979 : IVec S16 32), Decidable (k1_chk345 v243 v979) := fun v243 v979 => decidable_of_iff' _ (Iff.of_eq (k1_chk345.eq_1 v243 v979))
theorem k1_idx345_inb : ∀ (v243 : IVec S16 32) (v979 : IVec S16 32) (k1_hw345 : k1_chk345 v243 v979), ∀ a x, ((![v243, v979] : Fin 2 → IVec S16 32) a x).toNat < S128x128.size a := fun v243 v979 k1_hw345 => k1_hw345

def k1_chk346 (v243 : IVec S16 32) (v981 : IVec S16 32) : Prop :=
  (∀ a x, ((![v243, v981] : Fin 2 → IVec S16 32) a x).toNat < S128x128.size a)
instance k1_chk346.dec : ∀ (v243 : IVec S16 32) (v981 : IVec S16 32), Decidable (k1_chk346 v243 v981) := fun v243 v981 => decidable_of_iff' _ (Iff.of_eq (k1_chk346.eq_1 v243 v981))
theorem k1_idx346_inb : ∀ (v243 : IVec S16 32) (v981 : IVec S16 32) (k1_hw346 : k1_chk346 v243 v981), ∀ a x, ((![v243, v981] : Fin 2 → IVec S16 32) a x).toNat < S128x128.size a := fun v243 v981 k1_hw346 => k1_hw346

def k1_chk347 (v243 : IVec S16 32) (v983 : IVec S16 32) : Prop :=
  (∀ a x, ((![v243, v983] : Fin 2 → IVec S16 32) a x).toNat < S128x128.size a)
instance k1_chk347.dec : ∀ (v243 : IVec S16 32) (v983 : IVec S16 32), Decidable (k1_chk347 v243 v983) := fun v243 v983 => decidable_of_iff' _ (Iff.of_eq (k1_chk347.eq_1 v243 v983))
theorem k1_idx347_inb : ∀ (v243 : IVec S16 32) (v983 : IVec S16 32) (k1_hw347 : k1_chk347 v243 v983), ∀ a x, ((![v243, v983] : Fin 2 → IVec S16 32) a x).toNat < S128x128.size a := fun v243 v983 k1_hw347 => k1_hw347

def k1_chk348 (v243 : IVec S16 32) (v985 : IVec S16 32) : Prop :=
  (∀ a x, ((![v243, v985] : Fin 2 → IVec S16 32) a x).toNat < S128x128.size a)
instance k1_chk348.dec : ∀ (v243 : IVec S16 32) (v985 : IVec S16 32), Decidable (k1_chk348 v243 v985) := fun v243 v985 => decidable_of_iff' _ (Iff.of_eq (k1_chk348.eq_1 v243 v985))
theorem k1_idx348_inb : ∀ (v243 : IVec S16 32) (v985 : IVec S16 32) (k1_hw348 : k1_chk348 v243 v985), ∀ a x, ((![v243, v985] : Fin 2 → IVec S16 32) a x).toNat < S128x128.size a := fun v243 v985 k1_hw348 => k1_hw348

def k1_chk349 (v999 : IVec S16 32) : Prop :=
  (∀ a x, ((![v999] : Fin 1 → IVec S16 32) a x).toNat < S8192.size a)
instance k1_chk349.dec : ∀ (v999 : IVec S16 32), Decidable (k1_chk349 v999) := fun v999 => decidable_of_iff' _ (Iff.of_eq (k1_chk349.eq_1 v999))
theorem k1_idx349_inb : ∀ (v999 : IVec S16 32) (k1_hw349 : k1_chk349 v999), ∀ a x, ((![v999] : Fin 1 → IVec S16 32) a x).toNat < S8192.size a := fun v999 k1_hw349 => k1_hw349

def k1_chk350 (v1015 : IVec S16 32) : Prop :=
  (∀ a x, ((![v1015] : Fin 1 → IVec S16 32) a x).toNat < S8192.size a)
instance k1_chk350.dec : ∀ (v1015 : IVec S16 32), Decidable (k1_chk350 v1015) := fun v1015 => decidable_of_iff' _ (Iff.of_eq (k1_chk350.eq_1 v1015))
theorem k1_idx350_inb : ∀ (v1015 : IVec S16 32) (k1_hw350 : k1_chk350 v1015), ∀ a x, ((![v1015] : Fin 1 → IVec S16 32) a x).toNat < S8192.size a := fun v1015 k1_hw350 => k1_hw350

def k1_chk351 (v1031 : IVec S16 32) : Prop :=
  (∀ a x, ((![v1031] : Fin 1 → IVec S16 32) a x).toNat < S8192.size a)
instance k1_chk351.dec : ∀ (v1031 : IVec S16 32), Decidable (k1_chk351 v1031) := fun v1031 => decidable_of_iff' _ (Iff.of_eq (k1_chk351.eq_1 v1031))
theorem k1_idx351_inb : ∀ (v1031 : IVec S16 32) (k1_hw351 : k1_chk351 v1031), ∀ a x, ((![v1031] : Fin 1 → IVec S16 32) a x).toNat < S8192.size a := fun v1031 k1_hw351 => k1_hw351

def k1_chk352 (v1047 : IVec S16 32) : Prop :=
  (∀ a x, ((![v1047] : Fin 1 → IVec S16 32) a x).toNat < S8192.size a)
instance k1_chk352.dec : ∀ (v1047 : IVec S16 32), Decidable (k1_chk352 v1047) := fun v1047 => decidable_of_iff' _ (Iff.of_eq (k1_chk352.eq_1 v1047))
theorem k1_idx352_inb : ∀ (v1047 : IVec S16 32) (k1_hw352 : k1_chk352 v1047), ∀ a x, ((![v1047] : Fin 1 → IVec S16 32) a x).toNat < S8192.size a := fun v1047 k1_hw352 => k1_hw352

def k1_chk353 (v243 : IVec S16 32) (v1060 : IVec S16 32) : Prop :=
  (∀ a x, ((![v243, v1060] : Fin 2 → IVec S16 32) a x).toNat < S128x128.size a)
instance k1_chk353.dec : ∀ (v243 : IVec S16 32) (v1060 : IVec S16 32), Decidable (k1_chk353 v243 v1060) := fun v243 v1060 => decidable_of_iff' _ (Iff.of_eq (k1_chk353.eq_1 v243 v1060))
theorem k1_idx353_inb : ∀ (v243 : IVec S16 32) (v1060 : IVec S16 32) (k1_hw353 : k1_chk353 v243 v1060), ∀ a x, ((![v243, v1060] : Fin 2 → IVec S16 32) a x).toNat < S128x128.size a := fun v243 v1060 k1_hw353 => k1_hw353

def k1_chk354 (v243 : IVec S16 32) (v1062 : IVec S16 32) : Prop :=
  (∀ a x, ((![v243, v1062] : Fin 2 → IVec S16 32) a x).toNat < S128x128.size a)
instance k1_chk354.dec : ∀ (v243 : IVec S16 32) (v1062 : IVec S16 32), Decidable (k1_chk354 v243 v1062) := fun v243 v1062 => decidable_of_iff' _ (Iff.of_eq (k1_chk354.eq_1 v243 v1062))
theorem k1_idx354_inb : ∀ (v243 : IVec S16 32) (v1062 : IVec S16 32) (k1_hw354 : k1_chk354 v243 v1062), ∀ a x, ((![v243, v1062] : Fin 2 → IVec S16 32) a x).toNat < S128x128.size a := fun v243 v1062 k1_hw354 => k1_hw354

def k1_chk355 (v243 : IVec S16 32) (v1064 : IVec S16 32) : Prop :=
  (∀ a x, ((![v243, v1064] : Fin 2 → IVec S16 32) a x).toNat < S128x128.size a)
instance k1_chk355.dec : ∀ (v243 : IVec S16 32) (v1064 : IVec S16 32), Decidable (k1_chk355 v243 v1064) := fun v243 v1064 => decidable_of_iff' _ (Iff.of_eq (k1_chk355.eq_1 v243 v1064))
theorem k1_idx355_inb : ∀ (v243 : IVec S16 32) (v1064 : IVec S16 32) (k1_hw355 : k1_chk355 v243 v1064), ∀ a x, ((![v243, v1064] : Fin 2 → IVec S16 32) a x).toNat < S128x128.size a := fun v243 v1064 k1_hw355 => k1_hw355

def k1_chk356 (v243 : IVec S16 32) (v1066 : IVec S16 32) : Prop :=
  (∀ a x, ((![v243, v1066] : Fin 2 → IVec S16 32) a x).toNat < S128x128.size a)
instance k1_chk356.dec : ∀ (v243 : IVec S16 32) (v1066 : IVec S16 32), Decidable (k1_chk356 v243 v1066) := fun v243 v1066 => decidable_of_iff' _ (Iff.of_eq (k1_chk356.eq_1 v243 v1066))
theorem k1_idx356_inb : ∀ (v243 : IVec S16 32) (v1066 : IVec S16 32) (k1_hw356 : k1_chk356 v243 v1066), ∀ a x, ((![v243, v1066] : Fin 2 → IVec S16 32) a x).toNat < S128x128.size a := fun v243 v1066 k1_hw356 => k1_hw356

def k1_chk357 (v243 : IVec S16 32) (v1068 : IVec S16 32) : Prop :=
  (∀ a x, ((![v243, v1068] : Fin 2 → IVec S16 32) a x).toNat < S128x128.size a)
instance k1_chk357.dec : ∀ (v243 : IVec S16 32) (v1068 : IVec S16 32), Decidable (k1_chk357 v243 v1068) := fun v243 v1068 => decidable_of_iff' _ (Iff.of_eq (k1_chk357.eq_1 v243 v1068))
theorem k1_idx357_inb : ∀ (v243 : IVec S16 32) (v1068 : IVec S16 32) (k1_hw357 : k1_chk357 v243 v1068), ∀ a x, ((![v243, v1068] : Fin 2 → IVec S16 32) a x).toNat < S128x128.size a := fun v243 v1068 k1_hw357 => k1_hw357

def k1_chk358 (v243 : IVec S16 32) (v1070 : IVec S16 32) : Prop :=
  (∀ a x, ((![v243, v1070] : Fin 2 → IVec S16 32) a x).toNat < S128x128.size a)
instance k1_chk358.dec : ∀ (v243 : IVec S16 32) (v1070 : IVec S16 32), Decidable (k1_chk358 v243 v1070) := fun v243 v1070 => decidable_of_iff' _ (Iff.of_eq (k1_chk358.eq_1 v243 v1070))
theorem k1_idx358_inb : ∀ (v243 : IVec S16 32) (v1070 : IVec S16 32) (k1_hw358 : k1_chk358 v243 v1070), ∀ a x, ((![v243, v1070] : Fin 2 → IVec S16 32) a x).toNat < S128x128.size a := fun v243 v1070 k1_hw358 => k1_hw358

def k1_chk359 (v243 : IVec S16 32) (v1072 : IVec S16 32) : Prop :=
  (∀ a x, ((![v243, v1072] : Fin 2 → IVec S16 32) a x).toNat < S128x128.size a)
instance k1_chk359.dec : ∀ (v243 : IVec S16 32) (v1072 : IVec S16 32), Decidable (k1_chk359 v243 v1072) := fun v243 v1072 => decidable_of_iff' _ (Iff.of_eq (k1_chk359.eq_1 v243 v1072))
theorem k1_idx359_inb : ∀ (v243 : IVec S16 32) (v1072 : IVec S16 32) (k1_hw359 : k1_chk359 v243 v1072), ∀ a x, ((![v243, v1072] : Fin 2 → IVec S16 32) a x).toNat < S128x128.size a := fun v243 v1072 k1_hw359 => k1_hw359

def k1_chk360 (v243 : IVec S16 32) (v1074 : IVec S16 32) : Prop :=
  (∀ a x, ((![v243, v1074] : Fin 2 → IVec S16 32) a x).toNat < S128x128.size a)
instance k1_chk360.dec : ∀ (v243 : IVec S16 32) (v1074 : IVec S16 32), Decidable (k1_chk360 v243 v1074) := fun v243 v1074 => decidable_of_iff' _ (Iff.of_eq (k1_chk360.eq_1 v243 v1074))
theorem k1_idx360_inb : ∀ (v243 : IVec S16 32) (v1074 : IVec S16 32) (k1_hw360 : k1_chk360 v243 v1074), ∀ a x, ((![v243, v1074] : Fin 2 → IVec S16 32) a x).toNat < S128x128.size a := fun v243 v1074 k1_hw360 => k1_hw360

def k1_chk361 (v1088 : IVec S16 32) : Prop :=
  (∀ a x, ((![v1088] : Fin 1 → IVec S16 32) a x).toNat < S8192.size a)
instance k1_chk361.dec : ∀ (v1088 : IVec S16 32), Decidable (k1_chk361 v1088) := fun v1088 => decidable_of_iff' _ (Iff.of_eq (k1_chk361.eq_1 v1088))
theorem k1_idx361_inb : ∀ (v1088 : IVec S16 32) (k1_hw361 : k1_chk361 v1088), ∀ a x, ((![v1088] : Fin 1 → IVec S16 32) a x).toNat < S8192.size a := fun v1088 k1_hw361 => k1_hw361

def k1_chk362 (v1104 : IVec S16 32) : Prop :=
  (∀ a x, ((![v1104] : Fin 1 → IVec S16 32) a x).toNat < S8192.size a)
instance k1_chk362.dec : ∀ (v1104 : IVec S16 32), Decidable (k1_chk362 v1104) := fun v1104 => decidable_of_iff' _ (Iff.of_eq (k1_chk362.eq_1 v1104))
theorem k1_idx362_inb : ∀ (v1104 : IVec S16 32) (k1_hw362 : k1_chk362 v1104), ∀ a x, ((![v1104] : Fin 1 → IVec S16 32) a x).toNat < S8192.size a := fun v1104 k1_hw362 => k1_hw362

def k1_chk363 (v1120 : IVec S16 32) : Prop :=
  (∀ a x, ((![v1120] : Fin 1 → IVec S16 32) a x).toNat < S8192.size a)
instance k1_chk363.dec : ∀ (v1120 : IVec S16 32), Decidable (k1_chk363 v1120) := fun v1120 => decidable_of_iff' _ (Iff.of_eq (k1_chk363.eq_1 v1120))
theorem k1_idx363_inb : ∀ (v1120 : IVec S16 32) (k1_hw363 : k1_chk363 v1120), ∀ a x, ((![v1120] : Fin 1 → IVec S16 32) a x).toNat < S8192.size a := fun v1120 k1_hw363 => k1_hw363

def k1_chk364 (v1136 : IVec S16 32) : Prop :=
  (∀ a x, ((![v1136] : Fin 1 → IVec S16 32) a x).toNat < S8192.size a)
instance k1_chk364.dec : ∀ (v1136 : IVec S16 32), Decidable (k1_chk364 v1136) := fun v1136 => decidable_of_iff' _ (Iff.of_eq (k1_chk364.eq_1 v1136))
theorem k1_idx364_inb : ∀ (v1136 : IVec S16 32) (k1_hw364 : k1_chk364 v1136), ∀ a x, ((![v1136] : Fin 1 → IVec S16 32) a x).toNat < S8192.size a := fun v1136 k1_hw364 => k1_hw364

def k1_chk365 (v243 : IVec S16 32) (v1149 : IVec S16 32) : Prop :=
  (∀ a x, ((![v243, v1149] : Fin 2 → IVec S16 32) a x).toNat < S128x128.size a)
instance k1_chk365.dec : ∀ (v243 : IVec S16 32) (v1149 : IVec S16 32), Decidable (k1_chk365 v243 v1149) := fun v243 v1149 => decidable_of_iff' _ (Iff.of_eq (k1_chk365.eq_1 v243 v1149))
theorem k1_idx365_inb : ∀ (v243 : IVec S16 32) (v1149 : IVec S16 32) (k1_hw365 : k1_chk365 v243 v1149), ∀ a x, ((![v243, v1149] : Fin 2 → IVec S16 32) a x).toNat < S128x128.size a := fun v243 v1149 k1_hw365 => k1_hw365

def k1_chk366 (v243 : IVec S16 32) (v1151 : IVec S16 32) : Prop :=
  (∀ a x, ((![v243, v1151] : Fin 2 → IVec S16 32) a x).toNat < S128x128.size a)
instance k1_chk366.dec : ∀ (v243 : IVec S16 32) (v1151 : IVec S16 32), Decidable (k1_chk366 v243 v1151) := fun v243 v1151 => decidable_of_iff' _ (Iff.of_eq (k1_chk366.eq_1 v243 v1151))
theorem k1_idx366_inb : ∀ (v243 : IVec S16 32) (v1151 : IVec S16 32) (k1_hw366 : k1_chk366 v243 v1151), ∀ a x, ((![v243, v1151] : Fin 2 → IVec S16 32) a x).toNat < S128x128.size a := fun v243 v1151 k1_hw366 => k1_hw366

def k1_chk367 (v243 : IVec S16 32) (v1153 : IVec S16 32) : Prop :=
  (∀ a x, ((![v243, v1153] : Fin 2 → IVec S16 32) a x).toNat < S128x128.size a)
instance k1_chk367.dec : ∀ (v243 : IVec S16 32) (v1153 : IVec S16 32), Decidable (k1_chk367 v243 v1153) := fun v243 v1153 => decidable_of_iff' _ (Iff.of_eq (k1_chk367.eq_1 v243 v1153))
theorem k1_idx367_inb : ∀ (v243 : IVec S16 32) (v1153 : IVec S16 32) (k1_hw367 : k1_chk367 v243 v1153), ∀ a x, ((![v243, v1153] : Fin 2 → IVec S16 32) a x).toNat < S128x128.size a := fun v243 v1153 k1_hw367 => k1_hw367

def k1_chk368 (v243 : IVec S16 32) (v1155 : IVec S16 32) : Prop :=
  (∀ a x, ((![v243, v1155] : Fin 2 → IVec S16 32) a x).toNat < S128x128.size a)
instance k1_chk368.dec : ∀ (v243 : IVec S16 32) (v1155 : IVec S16 32), Decidable (k1_chk368 v243 v1155) := fun v243 v1155 => decidable_of_iff' _ (Iff.of_eq (k1_chk368.eq_1 v243 v1155))
theorem k1_idx368_inb : ∀ (v243 : IVec S16 32) (v1155 : IVec S16 32) (k1_hw368 : k1_chk368 v243 v1155), ∀ a x, ((![v243, v1155] : Fin 2 → IVec S16 32) a x).toNat < S128x128.size a := fun v243 v1155 k1_hw368 => k1_hw368

def k1_chk369 (v243 : IVec S16 32) (v1157 : IVec S16 32) : Prop :=
  (∀ a x, ((![v243, v1157] : Fin 2 → IVec S16 32) a x).toNat < S128x128.size a)
instance k1_chk369.dec : ∀ (v243 : IVec S16 32) (v1157 : IVec S16 32), Decidable (k1_chk369 v243 v1157) := fun v243 v1157 => decidable_of_iff' _ (Iff.of_eq (k1_chk369.eq_1 v243 v1157))
theorem k1_idx369_inb : ∀ (v243 : IVec S16 32) (v1157 : IVec S16 32) (k1_hw369 : k1_chk369 v243 v1157), ∀ a x, ((![v243, v1157] : Fin 2 → IVec S16 32) a x).toNat < S128x128.size a := fun v243 v1157 k1_hw369 => k1_hw369

def k1_chk370 (v243 : IVec S16 32) (v1159 : IVec S16 32) : Prop :=
  (∀ a x, ((![v243, v1159] : Fin 2 → IVec S16 32) a x).toNat < S128x128.size a)
instance k1_chk370.dec : ∀ (v243 : IVec S16 32) (v1159 : IVec S16 32), Decidable (k1_chk370 v243 v1159) := fun v243 v1159 => decidable_of_iff' _ (Iff.of_eq (k1_chk370.eq_1 v243 v1159))
theorem k1_idx370_inb : ∀ (v243 : IVec S16 32) (v1159 : IVec S16 32) (k1_hw370 : k1_chk370 v243 v1159), ∀ a x, ((![v243, v1159] : Fin 2 → IVec S16 32) a x).toNat < S128x128.size a := fun v243 v1159 k1_hw370 => k1_hw370

def k1_chk371 (v243 : IVec S16 32) (v1161 : IVec S16 32) : Prop :=
  (∀ a x, ((![v243, v1161] : Fin 2 → IVec S16 32) a x).toNat < S128x128.size a)
instance k1_chk371.dec : ∀ (v243 : IVec S16 32) (v1161 : IVec S16 32), Decidable (k1_chk371 v243 v1161) := fun v243 v1161 => decidable_of_iff' _ (Iff.of_eq (k1_chk371.eq_1 v243 v1161))
theorem k1_idx371_inb : ∀ (v243 : IVec S16 32) (v1161 : IVec S16 32) (k1_hw371 : k1_chk371 v243 v1161), ∀ a x, ((![v243, v1161] : Fin 2 → IVec S16 32) a x).toNat < S128x128.size a := fun v243 v1161 k1_hw371 => k1_hw371

def k1_chk372 (v243 : IVec S16 32) (v1163 : IVec S16 32) : Prop :=
  (∀ a x, ((![v243, v1163] : Fin 2 → IVec S16 32) a x).toNat < S128x128.size a)
instance k1_chk372.dec : ∀ (v243 : IVec S16 32) (v1163 : IVec S16 32), Decidable (k1_chk372 v243 v1163) := fun v243 v1163 => decidable_of_iff' _ (Iff.of_eq (k1_chk372.eq_1 v243 v1163))
theorem k1_idx372_inb : ∀ (v243 : IVec S16 32) (v1163 : IVec S16 32) (k1_hw372 : k1_chk372 v243 v1163), ∀ a x, ((![v243, v1163] : Fin 2 → IVec S16 32) a x).toNat < S128x128.size a := fun v243 v1163 k1_hw372 => k1_hw372

def k1_chk373 (v1177 : IVec S16 32) : Prop :=
  (∀ a x, ((![v1177] : Fin 1 → IVec S16 32) a x).toNat < S8192.size a)
instance k1_chk373.dec : ∀ (v1177 : IVec S16 32), Decidable (k1_chk373 v1177) := fun v1177 => decidable_of_iff' _ (Iff.of_eq (k1_chk373.eq_1 v1177))
theorem k1_idx373_inb : ∀ (v1177 : IVec S16 32) (k1_hw373 : k1_chk373 v1177), ∀ a x, ((![v1177] : Fin 1 → IVec S16 32) a x).toNat < S8192.size a := fun v1177 k1_hw373 => k1_hw373

def k1_chk374 (v1193 : IVec S16 32) : Prop :=
  (∀ a x, ((![v1193] : Fin 1 → IVec S16 32) a x).toNat < S8192.size a)
instance k1_chk374.dec : ∀ (v1193 : IVec S16 32), Decidable (k1_chk374 v1193) := fun v1193 => decidable_of_iff' _ (Iff.of_eq (k1_chk374.eq_1 v1193))
theorem k1_idx374_inb : ∀ (v1193 : IVec S16 32) (k1_hw374 : k1_chk374 v1193), ∀ a x, ((![v1193] : Fin 1 → IVec S16 32) a x).toNat < S8192.size a := fun v1193 k1_hw374 => k1_hw374

def k1_chk375 (v1209 : IVec S16 32) : Prop :=
  (∀ a x, ((![v1209] : Fin 1 → IVec S16 32) a x).toNat < S8192.size a)
instance k1_chk375.dec : ∀ (v1209 : IVec S16 32), Decidable (k1_chk375 v1209) := fun v1209 => decidable_of_iff' _ (Iff.of_eq (k1_chk375.eq_1 v1209))
theorem k1_idx375_inb : ∀ (v1209 : IVec S16 32) (k1_hw375 : k1_chk375 v1209), ∀ a x, ((![v1209] : Fin 1 → IVec S16 32) a x).toNat < S8192.size a := fun v1209 k1_hw375 => k1_hw375

def k1_chk376 (v1225 : IVec S16 32) : Prop :=
  (∀ a x, ((![v1225] : Fin 1 → IVec S16 32) a x).toNat < S8192.size a)
instance k1_chk376.dec : ∀ (v1225 : IVec S16 32), Decidable (k1_chk376 v1225) := fun v1225 => decidable_of_iff' _ (Iff.of_eq (k1_chk376.eq_1 v1225))
theorem k1_idx376_inb : ∀ (v1225 : IVec S16 32) (k1_hw376 : k1_chk376 v1225), ∀ a x, ((![v1225] : Fin 1 → IVec S16 32) a x).toNat < S8192.size a := fun v1225 k1_hw376 => k1_hw376

def k1_chk377 (v243 : IVec S16 32) (v1238 : IVec S16 32) : Prop :=
  (∀ a x, ((![v243, v1238] : Fin 2 → IVec S16 32) a x).toNat < S128x128.size a)
instance k1_chk377.dec : ∀ (v243 : IVec S16 32) (v1238 : IVec S16 32), Decidable (k1_chk377 v243 v1238) := fun v243 v1238 => decidable_of_iff' _ (Iff.of_eq (k1_chk377.eq_1 v243 v1238))
theorem k1_idx377_inb : ∀ (v243 : IVec S16 32) (v1238 : IVec S16 32) (k1_hw377 : k1_chk377 v243 v1238), ∀ a x, ((![v243, v1238] : Fin 2 → IVec S16 32) a x).toNat < S128x128.size a := fun v243 v1238 k1_hw377 => k1_hw377

def k1_chk378 (v243 : IVec S16 32) (v1240 : IVec S16 32) : Prop :=
  (∀ a x, ((![v243, v1240] : Fin 2 → IVec S16 32) a x).toNat < S128x128.size a)
instance k1_chk378.dec : ∀ (v243 : IVec S16 32) (v1240 : IVec S16 32), Decidable (k1_chk378 v243 v1240) := fun v243 v1240 => decidable_of_iff' _ (Iff.of_eq (k1_chk378.eq_1 v243 v1240))
theorem k1_idx378_inb : ∀ (v243 : IVec S16 32) (v1240 : IVec S16 32) (k1_hw378 : k1_chk378 v243 v1240), ∀ a x, ((![v243, v1240] : Fin 2 → IVec S16 32) a x).toNat < S128x128.size a := fun v243 v1240 k1_hw378 => k1_hw378

def k1_chk379 (v243 : IVec S16 32) (v1242 : IVec S16 32) : Prop :=
  (∀ a x, ((![v243, v1242] : Fin 2 → IVec S16 32) a x).toNat < S128x128.size a)
instance k1_chk379.dec : ∀ (v243 : IVec S16 32) (v1242 : IVec S16 32), Decidable (k1_chk379 v243 v1242) := fun v243 v1242 => decidable_of_iff' _ (Iff.of_eq (k1_chk379.eq_1 v243 v1242))
theorem k1_idx379_inb : ∀ (v243 : IVec S16 32) (v1242 : IVec S16 32) (k1_hw379 : k1_chk379 v243 v1242), ∀ a x, ((![v243, v1242] : Fin 2 → IVec S16 32) a x).toNat < S128x128.size a := fun v243 v1242 k1_hw379 => k1_hw379

def k1_chk380 (v243 : IVec S16 32) (v1244 : IVec S16 32) : Prop :=
  (∀ a x, ((![v243, v1244] : Fin 2 → IVec S16 32) a x).toNat < S128x128.size a)
instance k1_chk380.dec : ∀ (v243 : IVec S16 32) (v1244 : IVec S16 32), Decidable (k1_chk380 v243 v1244) := fun v243 v1244 => decidable_of_iff' _ (Iff.of_eq (k1_chk380.eq_1 v243 v1244))
theorem k1_idx380_inb : ∀ (v243 : IVec S16 32) (v1244 : IVec S16 32) (k1_hw380 : k1_chk380 v243 v1244), ∀ a x, ((![v243, v1244] : Fin 2 → IVec S16 32) a x).toNat < S128x128.size a := fun v243 v1244 k1_hw380 => k1_hw380

def k1_chk381 (v243 : IVec S16 32) (v1246 : IVec S16 32) : Prop :=
  (∀ a x, ((![v243, v1246] : Fin 2 → IVec S16 32) a x).toNat < S128x128.size a)
instance k1_chk381.dec : ∀ (v243 : IVec S16 32) (v1246 : IVec S16 32), Decidable (k1_chk381 v243 v1246) := fun v243 v1246 => decidable_of_iff' _ (Iff.of_eq (k1_chk381.eq_1 v243 v1246))
theorem k1_idx381_inb : ∀ (v243 : IVec S16 32) (v1246 : IVec S16 32) (k1_hw381 : k1_chk381 v243 v1246), ∀ a x, ((![v243, v1246] : Fin 2 → IVec S16 32) a x).toNat < S128x128.size a := fun v243 v1246 k1_hw381 => k1_hw381

def k1_chk382 (v243 : IVec S16 32) (v1248 : IVec S16 32) : Prop :=
  (∀ a x, ((![v243, v1248] : Fin 2 → IVec S16 32) a x).toNat < S128x128.size a)
instance k1_chk382.dec : ∀ (v243 : IVec S16 32) (v1248 : IVec S16 32), Decidable (k1_chk382 v243 v1248) := fun v243 v1248 => decidable_of_iff' _ (Iff.of_eq (k1_chk382.eq_1 v243 v1248))
theorem k1_idx382_inb : ∀ (v243 : IVec S16 32) (v1248 : IVec S16 32) (k1_hw382 : k1_chk382 v243 v1248), ∀ a x, ((![v243, v1248] : Fin 2 → IVec S16 32) a x).toNat < S128x128.size a := fun v243 v1248 k1_hw382 => k1_hw382

def k1_chk383 (v243 : IVec S16 32) (v1250 : IVec S16 32) : Prop :=
  (∀ a x, ((![v243, v1250] : Fin 2 → IVec S16 32) a x).toNat < S128x128.size a)
instance k1_chk383.dec : ∀ (v243 : IVec S16 32) (v1250 : IVec S16 32), Decidable (k1_chk383 v243 v1250) := fun v243 v1250 => decidable_of_iff' _ (Iff.of_eq (k1_chk383.eq_1 v243 v1250))
theorem k1_idx383_inb : ∀ (v243 : IVec S16 32) (v1250 : IVec S16 32) (k1_hw383 : k1_chk383 v243 v1250), ∀ a x, ((![v243, v1250] : Fin 2 → IVec S16 32) a x).toNat < S128x128.size a := fun v243 v1250 k1_hw383 => k1_hw383

def k1_chk384 (v243 : IVec S16 32) (v1252 : IVec S16 32) : Prop :=
  (∀ a x, ((![v243, v1252] : Fin 2 → IVec S16 32) a x).toNat < S128x128.size a)
instance k1_chk384.dec : ∀ (v243 : IVec S16 32) (v1252 : IVec S16 32), Decidable (k1_chk384 v243 v1252) := fun v243 v1252 => decidable_of_iff' _ (Iff.of_eq (k1_chk384.eq_1 v243 v1252))
theorem k1_idx384_inb : ∀ (v243 : IVec S16 32) (v1252 : IVec S16 32) (k1_hw384 : k1_chk384 v243 v1252), ∀ a x, ((![v243, v1252] : Fin 2 → IVec S16 32) a x).toNat < S128x128.size a := fun v243 v1252 k1_hw384 => k1_hw384

def k1_chk385 (v1266 : IVec S16 32) : Prop :=
  (∀ a x, ((![v1266] : Fin 1 → IVec S16 32) a x).toNat < S8192.size a)
instance k1_chk385.dec : ∀ (v1266 : IVec S16 32), Decidable (k1_chk385 v1266) := fun v1266 => decidable_of_iff' _ (Iff.of_eq (k1_chk385.eq_1 v1266))
theorem k1_idx385_inb : ∀ (v1266 : IVec S16 32) (k1_hw385 : k1_chk385 v1266), ∀ a x, ((![v1266] : Fin 1 → IVec S16 32) a x).toNat < S8192.size a := fun v1266 k1_hw385 => k1_hw385

def k1_chk386 (v1282 : IVec S16 32) : Prop :=
  (∀ a x, ((![v1282] : Fin 1 → IVec S16 32) a x).toNat < S8192.size a)
instance k1_chk386.dec : ∀ (v1282 : IVec S16 32), Decidable (k1_chk386 v1282) := fun v1282 => decidable_of_iff' _ (Iff.of_eq (k1_chk386.eq_1 v1282))
theorem k1_idx386_inb : ∀ (v1282 : IVec S16 32) (k1_hw386 : k1_chk386 v1282), ∀ a x, ((![v1282] : Fin 1 → IVec S16 32) a x).toNat < S8192.size a := fun v1282 k1_hw386 => k1_hw386

def k1_chk387 (v1298 : IVec S16 32) : Prop :=
  (∀ a x, ((![v1298] : Fin 1 → IVec S16 32) a x).toNat < S8192.size a)
instance k1_chk387.dec : ∀ (v1298 : IVec S16 32), Decidable (k1_chk387 v1298) := fun v1298 => decidable_of_iff' _ (Iff.of_eq (k1_chk387.eq_1 v1298))
theorem k1_idx387_inb : ∀ (v1298 : IVec S16 32) (k1_hw387 : k1_chk387 v1298), ∀ a x, ((![v1298] : Fin 1 → IVec S16 32) a x).toNat < S8192.size a := fun v1298 k1_hw387 => k1_hw387

def k1_chk388 (v1314 : IVec S16 32) : Prop :=
  (∀ a x, ((![v1314] : Fin 1 → IVec S16 32) a x).toNat < S8192.size a)
instance k1_chk388.dec : ∀ (v1314 : IVec S16 32), Decidable (k1_chk388 v1314) := fun v1314 => decidable_of_iff' _ (Iff.of_eq (k1_chk388.eq_1 v1314))
theorem k1_idx388_inb : ∀ (v1314 : IVec S16 32) (k1_hw388 : k1_chk388 v1314), ∀ a x, ((![v1314] : Fin 1 → IVec S16 32) a x).toNat < S8192.size a := fun v1314 k1_hw388 => k1_hw388

def k1_chk389 (v243 : IVec S16 32) (v1327 : IVec S16 32) : Prop :=
  (∀ a x, ((![v243, v1327] : Fin 2 → IVec S16 32) a x).toNat < S128x128.size a)
instance k1_chk389.dec : ∀ (v243 : IVec S16 32) (v1327 : IVec S16 32), Decidable (k1_chk389 v243 v1327) := fun v243 v1327 => decidable_of_iff' _ (Iff.of_eq (k1_chk389.eq_1 v243 v1327))
theorem k1_idx389_inb : ∀ (v243 : IVec S16 32) (v1327 : IVec S16 32) (k1_hw389 : k1_chk389 v243 v1327), ∀ a x, ((![v243, v1327] : Fin 2 → IVec S16 32) a x).toNat < S128x128.size a := fun v243 v1327 k1_hw389 => k1_hw389

def k1_chk390 (v243 : IVec S16 32) (v1329 : IVec S16 32) : Prop :=
  (∀ a x, ((![v243, v1329] : Fin 2 → IVec S16 32) a x).toNat < S128x128.size a)
instance k1_chk390.dec : ∀ (v243 : IVec S16 32) (v1329 : IVec S16 32), Decidable (k1_chk390 v243 v1329) := fun v243 v1329 => decidable_of_iff' _ (Iff.of_eq (k1_chk390.eq_1 v243 v1329))
theorem k1_idx390_inb : ∀ (v243 : IVec S16 32) (v1329 : IVec S16 32) (k1_hw390 : k1_chk390 v243 v1329), ∀ a x, ((![v243, v1329] : Fin 2 → IVec S16 32) a x).toNat < S128x128.size a := fun v243 v1329 k1_hw390 => k1_hw390

def k1_chk391 (v243 : IVec S16 32) (v1331 : IVec S16 32) : Prop :=
  (∀ a x, ((![v243, v1331] : Fin 2 → IVec S16 32) a x).toNat < S128x128.size a)
instance k1_chk391.dec : ∀ (v243 : IVec S16 32) (v1331 : IVec S16 32), Decidable (k1_chk391 v243 v1331) := fun v243 v1331 => decidable_of_iff' _ (Iff.of_eq (k1_chk391.eq_1 v243 v1331))
theorem k1_idx391_inb : ∀ (v243 : IVec S16 32) (v1331 : IVec S16 32) (k1_hw391 : k1_chk391 v243 v1331), ∀ a x, ((![v243, v1331] : Fin 2 → IVec S16 32) a x).toNat < S128x128.size a := fun v243 v1331 k1_hw391 => k1_hw391

def k1_chk392 (v243 : IVec S16 32) (v1333 : IVec S16 32) : Prop :=
  (∀ a x, ((![v243, v1333] : Fin 2 → IVec S16 32) a x).toNat < S128x128.size a)
instance k1_chk392.dec : ∀ (v243 : IVec S16 32) (v1333 : IVec S16 32), Decidable (k1_chk392 v243 v1333) := fun v243 v1333 => decidable_of_iff' _ (Iff.of_eq (k1_chk392.eq_1 v243 v1333))
theorem k1_idx392_inb : ∀ (v243 : IVec S16 32) (v1333 : IVec S16 32) (k1_hw392 : k1_chk392 v243 v1333), ∀ a x, ((![v243, v1333] : Fin 2 → IVec S16 32) a x).toNat < S128x128.size a := fun v243 v1333 k1_hw392 => k1_hw392

def k1_chk393 (v243 : IVec S16 32) (v1335 : IVec S16 32) : Prop :=
  (∀ a x, ((![v243, v1335] : Fin 2 → IVec S16 32) a x).toNat < S128x128.size a)
instance k1_chk393.dec : ∀ (v243 : IVec S16 32) (v1335 : IVec S16 32), Decidable (k1_chk393 v243 v1335) := fun v243 v1335 => decidable_of_iff' _ (Iff.of_eq (k1_chk393.eq_1 v243 v1335))
theorem k1_idx393_inb : ∀ (v243 : IVec S16 32) (v1335 : IVec S16 32) (k1_hw393 : k1_chk393 v243 v1335), ∀ a x, ((![v243, v1335] : Fin 2 → IVec S16 32) a x).toNat < S128x128.size a := fun v243 v1335 k1_hw393 => k1_hw393

def k1_chk394 (v243 : IVec S16 32) (v1337 : IVec S16 32) : Prop :=
  (∀ a x, ((![v243, v1337] : Fin 2 → IVec S16 32) a x).toNat < S128x128.size a)
instance k1_chk394.dec : ∀ (v243 : IVec S16 32) (v1337 : IVec S16 32), Decidable (k1_chk394 v243 v1337) := fun v243 v1337 => decidable_of_iff' _ (Iff.of_eq (k1_chk394.eq_1 v243 v1337))
theorem k1_idx394_inb : ∀ (v243 : IVec S16 32) (v1337 : IVec S16 32) (k1_hw394 : k1_chk394 v243 v1337), ∀ a x, ((![v243, v1337] : Fin 2 → IVec S16 32) a x).toNat < S128x128.size a := fun v243 v1337 k1_hw394 => k1_hw394

def k1_chk395 (v243 : IVec S16 32) (v1339 : IVec S16 32) : Prop :=
  (∀ a x, ((![v243, v1339] : Fin 2 → IVec S16 32) a x).toNat < S128x128.size a)
instance k1_chk395.dec : ∀ (v243 : IVec S16 32) (v1339 : IVec S16 32), Decidable (k1_chk395 v243 v1339) := fun v243 v1339 => decidable_of_iff' _ (Iff.of_eq (k1_chk395.eq_1 v243 v1339))
theorem k1_idx395_inb : ∀ (v243 : IVec S16 32) (v1339 : IVec S16 32) (k1_hw395 : k1_chk395 v243 v1339), ∀ a x, ((![v243, v1339] : Fin 2 → IVec S16 32) a x).toNat < S128x128.size a := fun v243 v1339 k1_hw395 => k1_hw395

def k1_chk396 (v243 : IVec S16 32) (v1341 : IVec S16 32) : Prop :=
  (∀ a x, ((![v243, v1341] : Fin 2 → IVec S16 32) a x).toNat < S128x128.size a)
instance k1_chk396.dec : ∀ (v243 : IVec S16 32) (v1341 : IVec S16 32), Decidable (k1_chk396 v243 v1341) := fun v243 v1341 => decidable_of_iff' _ (Iff.of_eq (k1_chk396.eq_1 v243 v1341))
theorem k1_idx396_inb : ∀ (v243 : IVec S16 32) (v1341 : IVec S16 32) (k1_hw396 : k1_chk396 v243 v1341), ∀ a x, ((![v243, v1341] : Fin 2 → IVec S16 32) a x).toNat < S128x128.size a := fun v243 v1341 k1_hw396 => k1_hw396

def k1_chk397 (v1355 : IVec S16 32) : Prop :=
  (∀ a x, ((![v1355] : Fin 1 → IVec S16 32) a x).toNat < S8192.size a)
instance k1_chk397.dec : ∀ (v1355 : IVec S16 32), Decidable (k1_chk397 v1355) := fun v1355 => decidable_of_iff' _ (Iff.of_eq (k1_chk397.eq_1 v1355))
theorem k1_idx397_inb : ∀ (v1355 : IVec S16 32) (k1_hw397 : k1_chk397 v1355), ∀ a x, ((![v1355] : Fin 1 → IVec S16 32) a x).toNat < S8192.size a := fun v1355 k1_hw397 => k1_hw397

def k1_chk398 (v1371 : IVec S16 32) : Prop :=
  (∀ a x, ((![v1371] : Fin 1 → IVec S16 32) a x).toNat < S8192.size a)
instance k1_chk398.dec : ∀ (v1371 : IVec S16 32), Decidable (k1_chk398 v1371) := fun v1371 => decidable_of_iff' _ (Iff.of_eq (k1_chk398.eq_1 v1371))
theorem k1_idx398_inb : ∀ (v1371 : IVec S16 32) (k1_hw398 : k1_chk398 v1371), ∀ a x, ((![v1371] : Fin 1 → IVec S16 32) a x).toNat < S8192.size a := fun v1371 k1_hw398 => k1_hw398

def k1_chk399 (v1387 : IVec S16 32) : Prop :=
  (∀ a x, ((![v1387] : Fin 1 → IVec S16 32) a x).toNat < S8192.size a)
instance k1_chk399.dec : ∀ (v1387 : IVec S16 32), Decidable (k1_chk399 v1387) := fun v1387 => decidable_of_iff' _ (Iff.of_eq (k1_chk399.eq_1 v1387))
theorem k1_idx399_inb : ∀ (v1387 : IVec S16 32) (k1_hw399 : k1_chk399 v1387), ∀ a x, ((![v1387] : Fin 1 → IVec S16 32) a x).toNat < S8192.size a := fun v1387 k1_hw399 => k1_hw399

def k1_chk400 (v1403 : IVec S16 32) : Prop :=
  (∀ a x, ((![v1403] : Fin 1 → IVec S16 32) a x).toNat < S8192.size a)
instance k1_chk400.dec : ∀ (v1403 : IVec S16 32), Decidable (k1_chk400 v1403) := fun v1403 => decidable_of_iff' _ (Iff.of_eq (k1_chk400.eq_1 v1403))
theorem k1_idx400_inb : ∀ (v1403 : IVec S16 32) (k1_hw400 : k1_chk400 v1403), ∀ a x, ((![v1403] : Fin 1 → IVec S16 32) a x).toNat < S8192.size a := fun v1403 k1_hw400 => k1_hw400

def k1_chk401 (v243 : IVec S16 32) (v1416 : IVec S16 32) : Prop :=
  (∀ a x, ((![v243, v1416] : Fin 2 → IVec S16 32) a x).toNat < S128x128.size a)
instance k1_chk401.dec : ∀ (v243 : IVec S16 32) (v1416 : IVec S16 32), Decidable (k1_chk401 v243 v1416) := fun v243 v1416 => decidable_of_iff' _ (Iff.of_eq (k1_chk401.eq_1 v243 v1416))
theorem k1_idx401_inb : ∀ (v243 : IVec S16 32) (v1416 : IVec S16 32) (k1_hw401 : k1_chk401 v243 v1416), ∀ a x, ((![v243, v1416] : Fin 2 → IVec S16 32) a x).toNat < S128x128.size a := fun v243 v1416 k1_hw401 => k1_hw401

def k1_chk402 (v243 : IVec S16 32) (v1418 : IVec S16 32) : Prop :=
  (∀ a x, ((![v243, v1418] : Fin 2 → IVec S16 32) a x).toNat < S128x128.size a)
instance k1_chk402.dec : ∀ (v243 : IVec S16 32) (v1418 : IVec S16 32), Decidable (k1_chk402 v243 v1418) := fun v243 v1418 => decidable_of_iff' _ (Iff.of_eq (k1_chk402.eq_1 v243 v1418))
theorem k1_idx402_inb : ∀ (v243 : IVec S16 32) (v1418 : IVec S16 32) (k1_hw402 : k1_chk402 v243 v1418), ∀ a x, ((![v243, v1418] : Fin 2 → IVec S16 32) a x).toNat < S128x128.size a := fun v243 v1418 k1_hw402 => k1_hw402

def k1_chk403 (v243 : IVec S16 32) (v1420 : IVec S16 32) : Prop :=
  (∀ a x, ((![v243, v1420] : Fin 2 → IVec S16 32) a x).toNat < S128x128.size a)
instance k1_chk403.dec : ∀ (v243 : IVec S16 32) (v1420 : IVec S16 32), Decidable (k1_chk403 v243 v1420) := fun v243 v1420 => decidable_of_iff' _ (Iff.of_eq (k1_chk403.eq_1 v243 v1420))
theorem k1_idx403_inb : ∀ (v243 : IVec S16 32) (v1420 : IVec S16 32) (k1_hw403 : k1_chk403 v243 v1420), ∀ a x, ((![v243, v1420] : Fin 2 → IVec S16 32) a x).toNat < S128x128.size a := fun v243 v1420 k1_hw403 => k1_hw403

def k1_chk404 (v243 : IVec S16 32) (v1422 : IVec S16 32) : Prop :=
  (∀ a x, ((![v243, v1422] : Fin 2 → IVec S16 32) a x).toNat < S128x128.size a)
instance k1_chk404.dec : ∀ (v243 : IVec S16 32) (v1422 : IVec S16 32), Decidable (k1_chk404 v243 v1422) := fun v243 v1422 => decidable_of_iff' _ (Iff.of_eq (k1_chk404.eq_1 v243 v1422))
theorem k1_idx404_inb : ∀ (v243 : IVec S16 32) (v1422 : IVec S16 32) (k1_hw404 : k1_chk404 v243 v1422), ∀ a x, ((![v243, v1422] : Fin 2 → IVec S16 32) a x).toNat < S128x128.size a := fun v243 v1422 k1_hw404 => k1_hw404

def k1_chk405 (v243 : IVec S16 32) (v1424 : IVec S16 32) : Prop :=
  (∀ a x, ((![v243, v1424] : Fin 2 → IVec S16 32) a x).toNat < S128x128.size a)
instance k1_chk405.dec : ∀ (v243 : IVec S16 32) (v1424 : IVec S16 32), Decidable (k1_chk405 v243 v1424) := fun v243 v1424 => decidable_of_iff' _ (Iff.of_eq (k1_chk405.eq_1 v243 v1424))
theorem k1_idx405_inb : ∀ (v243 : IVec S16 32) (v1424 : IVec S16 32) (k1_hw405 : k1_chk405 v243 v1424), ∀ a x, ((![v243, v1424] : Fin 2 → IVec S16 32) a x).toNat < S128x128.size a := fun v243 v1424 k1_hw405 => k1_hw405

def k1_chk406 (v243 : IVec S16 32) (v1426 : IVec S16 32) : Prop :=
  (∀ a x, ((![v243, v1426] : Fin 2 → IVec S16 32) a x).toNat < S128x128.size a)
instance k1_chk406.dec : ∀ (v243 : IVec S16 32) (v1426 : IVec S16 32), Decidable (k1_chk406 v243 v1426) := fun v243 v1426 => decidable_of_iff' _ (Iff.of_eq (k1_chk406.eq_1 v243 v1426))
theorem k1_idx406_inb : ∀ (v243 : IVec S16 32) (v1426 : IVec S16 32) (k1_hw406 : k1_chk406 v243 v1426), ∀ a x, ((![v243, v1426] : Fin 2 → IVec S16 32) a x).toNat < S128x128.size a := fun v243 v1426 k1_hw406 => k1_hw406

def k1_chk407 (v243 : IVec S16 32) (v1428 : IVec S16 32) : Prop :=
  (∀ a x, ((![v243, v1428] : Fin 2 → IVec S16 32) a x).toNat < S128x128.size a)
instance k1_chk407.dec : ∀ (v243 : IVec S16 32) (v1428 : IVec S16 32), Decidable (k1_chk407 v243 v1428) := fun v243 v1428 => decidable_of_iff' _ (Iff.of_eq (k1_chk407.eq_1 v243 v1428))
theorem k1_idx407_inb : ∀ (v243 : IVec S16 32) (v1428 : IVec S16 32) (k1_hw407 : k1_chk407 v243 v1428), ∀ a x, ((![v243, v1428] : Fin 2 → IVec S16 32) a x).toNat < S128x128.size a := fun v243 v1428 k1_hw407 => k1_hw407

def k1_chk408 (v243 : IVec S16 32) (v1430 : IVec S16 32) : Prop :=
  (∀ a x, ((![v243, v1430] : Fin 2 → IVec S16 32) a x).toNat < S128x128.size a)
instance k1_chk408.dec : ∀ (v243 : IVec S16 32) (v1430 : IVec S16 32), Decidable (k1_chk408 v243 v1430) := fun v243 v1430 => decidable_of_iff' _ (Iff.of_eq (k1_chk408.eq_1 v243 v1430))
theorem k1_idx408_inb : ∀ (v243 : IVec S16 32) (v1430 : IVec S16 32) (k1_hw408 : k1_chk408 v243 v1430), ∀ a x, ((![v243, v1430] : Fin 2 → IVec S16 32) a x).toNat < S128x128.size a := fun v243 v1430 k1_hw408 => k1_hw408

def k1_chk409 (v1444 : IVec S16 32) : Prop :=
  (∀ a x, ((![v1444] : Fin 1 → IVec S16 32) a x).toNat < S8192.size a)
instance k1_chk409.dec : ∀ (v1444 : IVec S16 32), Decidable (k1_chk409 v1444) := fun v1444 => decidable_of_iff' _ (Iff.of_eq (k1_chk409.eq_1 v1444))
theorem k1_idx409_inb : ∀ (v1444 : IVec S16 32) (k1_hw409 : k1_chk409 v1444), ∀ a x, ((![v1444] : Fin 1 → IVec S16 32) a x).toNat < S8192.size a := fun v1444 k1_hw409 => k1_hw409

def k1_chk410 (v1460 : IVec S16 32) : Prop :=
  (∀ a x, ((![v1460] : Fin 1 → IVec S16 32) a x).toNat < S8192.size a)
instance k1_chk410.dec : ∀ (v1460 : IVec S16 32), Decidable (k1_chk410 v1460) := fun v1460 => decidable_of_iff' _ (Iff.of_eq (k1_chk410.eq_1 v1460))
theorem k1_idx410_inb : ∀ (v1460 : IVec S16 32) (k1_hw410 : k1_chk410 v1460), ∀ a x, ((![v1460] : Fin 1 → IVec S16 32) a x).toNat < S8192.size a := fun v1460 k1_hw410 => k1_hw410

def k1_chk411 (v1476 : IVec S16 32) : Prop :=
  (∀ a x, ((![v1476] : Fin 1 → IVec S16 32) a x).toNat < S8192.size a)
instance k1_chk411.dec : ∀ (v1476 : IVec S16 32), Decidable (k1_chk411 v1476) := fun v1476 => decidable_of_iff' _ (Iff.of_eq (k1_chk411.eq_1 v1476))
theorem k1_idx411_inb : ∀ (v1476 : IVec S16 32) (k1_hw411 : k1_chk411 v1476), ∀ a x, ((![v1476] : Fin 1 → IVec S16 32) a x).toNat < S8192.size a := fun v1476 k1_hw411 => k1_hw411

def k1_chk412 (v1492 : IVec S16 32) : Prop :=
  (∀ a x, ((![v1492] : Fin 1 → IVec S16 32) a x).toNat < S8192.size a)
instance k1_chk412.dec : ∀ (v1492 : IVec S16 32), Decidable (k1_chk412 v1492) := fun v1492 => decidable_of_iff' _ (Iff.of_eq (k1_chk412.eq_1 v1492))
theorem k1_idx412_inb : ∀ (v1492 : IVec S16 32) (k1_hw412 : k1_chk412 v1492), ∀ a x, ((![v1492] : Fin 1 → IVec S16 32) a x).toNat < S8192.size a := fun v1492 k1_hw412 => k1_hw412

def k1_chk413 (v243 : IVec S16 32) (v1505 : IVec S16 32) : Prop :=
  (∀ a x, ((![v243, v1505] : Fin 2 → IVec S16 32) a x).toNat < S128x128.size a)
instance k1_chk413.dec : ∀ (v243 : IVec S16 32) (v1505 : IVec S16 32), Decidable (k1_chk413 v243 v1505) := fun v243 v1505 => decidable_of_iff' _ (Iff.of_eq (k1_chk413.eq_1 v243 v1505))
theorem k1_idx413_inb : ∀ (v243 : IVec S16 32) (v1505 : IVec S16 32) (k1_hw413 : k1_chk413 v243 v1505), ∀ a x, ((![v243, v1505] : Fin 2 → IVec S16 32) a x).toNat < S128x128.size a := fun v243 v1505 k1_hw413 => k1_hw413

def k1_chk414 (v243 : IVec S16 32) (v1507 : IVec S16 32) : Prop :=
  (∀ a x, ((![v243, v1507] : Fin 2 → IVec S16 32) a x).toNat < S128x128.size a)
instance k1_chk414.dec : ∀ (v243 : IVec S16 32) (v1507 : IVec S16 32), Decidable (k1_chk414 v243 v1507) := fun v243 v1507 => decidable_of_iff' _ (Iff.of_eq (k1_chk414.eq_1 v243 v1507))
theorem k1_idx414_inb : ∀ (v243 : IVec S16 32) (v1507 : IVec S16 32) (k1_hw414 : k1_chk414 v243 v1507), ∀ a x, ((![v243, v1507] : Fin 2 → IVec S16 32) a x).toNat < S128x128.size a := fun v243 v1507 k1_hw414 => k1_hw414

def k1_chk415 (v243 : IVec S16 32) (v1509 : IVec S16 32) : Prop :=
  (∀ a x, ((![v243, v1509] : Fin 2 → IVec S16 32) a x).toNat < S128x128.size a)
instance k1_chk415.dec : ∀ (v243 : IVec S16 32) (v1509 : IVec S16 32), Decidable (k1_chk415 v243 v1509) := fun v243 v1509 => decidable_of_iff' _ (Iff.of_eq (k1_chk415.eq_1 v243 v1509))
theorem k1_idx415_inb : ∀ (v243 : IVec S16 32) (v1509 : IVec S16 32) (k1_hw415 : k1_chk415 v243 v1509), ∀ a x, ((![v243, v1509] : Fin 2 → IVec S16 32) a x).toNat < S128x128.size a := fun v243 v1509 k1_hw415 => k1_hw415

def k1_chk416 (v243 : IVec S16 32) (v1511 : IVec S16 32) : Prop :=
  (∀ a x, ((![v243, v1511] : Fin 2 → IVec S16 32) a x).toNat < S128x128.size a)
instance k1_chk416.dec : ∀ (v243 : IVec S16 32) (v1511 : IVec S16 32), Decidable (k1_chk416 v243 v1511) := fun v243 v1511 => decidable_of_iff' _ (Iff.of_eq (k1_chk416.eq_1 v243 v1511))
theorem k1_idx416_inb : ∀ (v243 : IVec S16 32) (v1511 : IVec S16 32) (k1_hw416 : k1_chk416 v243 v1511), ∀ a x, ((![v243, v1511] : Fin 2 → IVec S16 32) a x).toNat < S128x128.size a := fun v243 v1511 k1_hw416 => k1_hw416

def k1_chk417 (v243 : IVec S16 32) (v1513 : IVec S16 32) : Prop :=
  (∀ a x, ((![v243, v1513] : Fin 2 → IVec S16 32) a x).toNat < S128x128.size a)
instance k1_chk417.dec : ∀ (v243 : IVec S16 32) (v1513 : IVec S16 32), Decidable (k1_chk417 v243 v1513) := fun v243 v1513 => decidable_of_iff' _ (Iff.of_eq (k1_chk417.eq_1 v243 v1513))
theorem k1_idx417_inb : ∀ (v243 : IVec S16 32) (v1513 : IVec S16 32) (k1_hw417 : k1_chk417 v243 v1513), ∀ a x, ((![v243, v1513] : Fin 2 → IVec S16 32) a x).toNat < S128x128.size a := fun v243 v1513 k1_hw417 => k1_hw417

def k1_chk418 (v243 : IVec S16 32) (v1515 : IVec S16 32) : Prop :=
  (∀ a x, ((![v243, v1515] : Fin 2 → IVec S16 32) a x).toNat < S128x128.size a)
instance k1_chk418.dec : ∀ (v243 : IVec S16 32) (v1515 : IVec S16 32), Decidable (k1_chk418 v243 v1515) := fun v243 v1515 => decidable_of_iff' _ (Iff.of_eq (k1_chk418.eq_1 v243 v1515))
theorem k1_idx418_inb : ∀ (v243 : IVec S16 32) (v1515 : IVec S16 32) (k1_hw418 : k1_chk418 v243 v1515), ∀ a x, ((![v243, v1515] : Fin 2 → IVec S16 32) a x).toNat < S128x128.size a := fun v243 v1515 k1_hw418 => k1_hw418

def k1_chk419 (v243 : IVec S16 32) (v1517 : IVec S16 32) : Prop :=
  (∀ a x, ((![v243, v1517] : Fin 2 → IVec S16 32) a x).toNat < S128x128.size a)
instance k1_chk419.dec : ∀ (v243 : IVec S16 32) (v1517 : IVec S16 32), Decidable (k1_chk419 v243 v1517) := fun v243 v1517 => decidable_of_iff' _ (Iff.of_eq (k1_chk419.eq_1 v243 v1517))
theorem k1_idx419_inb : ∀ (v243 : IVec S16 32) (v1517 : IVec S16 32) (k1_hw419 : k1_chk419 v243 v1517), ∀ a x, ((![v243, v1517] : Fin 2 → IVec S16 32) a x).toNat < S128x128.size a := fun v243 v1517 k1_hw419 => k1_hw419

def k1_chk420 (v243 : IVec S16 32) (v1519 : IVec S16 32) : Prop :=
  (∀ a x, ((![v243, v1519] : Fin 2 → IVec S16 32) a x).toNat < S128x128.size a)
instance k1_chk420.dec : ∀ (v243 : IVec S16 32) (v1519 : IVec S16 32), Decidable (k1_chk420 v243 v1519) := fun v243 v1519 => decidable_of_iff' _ (Iff.of_eq (k1_chk420.eq_1 v243 v1519))
theorem k1_idx420_inb : ∀ (v243 : IVec S16 32) (v1519 : IVec S16 32) (k1_hw420 : k1_chk420 v243 v1519), ∀ a x, ((![v243, v1519] : Fin 2 → IVec S16 32) a x).toNat < S128x128.size a := fun v243 v1519 k1_hw420 => k1_hw420

def k1_chk421 (v1533 : IVec S16 32) : Prop :=
  (∀ a x, ((![v1533] : Fin 1 → IVec S16 32) a x).toNat < S8192.size a)
instance k1_chk421.dec : ∀ (v1533 : IVec S16 32), Decidable (k1_chk421 v1533) := fun v1533 => decidable_of_iff' _ (Iff.of_eq (k1_chk421.eq_1 v1533))
theorem k1_idx421_inb : ∀ (v1533 : IVec S16 32) (k1_hw421 : k1_chk421 v1533), ∀ a x, ((![v1533] : Fin 1 → IVec S16 32) a x).toNat < S8192.size a := fun v1533 k1_hw421 => k1_hw421

def k1_chk422 (v1549 : IVec S16 32) : Prop :=
  (∀ a x, ((![v1549] : Fin 1 → IVec S16 32) a x).toNat < S8192.size a)
instance k1_chk422.dec : ∀ (v1549 : IVec S16 32), Decidable (k1_chk422 v1549) := fun v1549 => decidable_of_iff' _ (Iff.of_eq (k1_chk422.eq_1 v1549))
theorem k1_idx422_inb : ∀ (v1549 : IVec S16 32) (k1_hw422 : k1_chk422 v1549), ∀ a x, ((![v1549] : Fin 1 → IVec S16 32) a x).toNat < S8192.size a := fun v1549 k1_hw422 => k1_hw422

def k1_chk423 (v1565 : IVec S16 32) : Prop :=
  (∀ a x, ((![v1565] : Fin 1 → IVec S16 32) a x).toNat < S8192.size a)
instance k1_chk423.dec : ∀ (v1565 : IVec S16 32), Decidable (k1_chk423 v1565) := fun v1565 => decidable_of_iff' _ (Iff.of_eq (k1_chk423.eq_1 v1565))
theorem k1_idx423_inb : ∀ (v1565 : IVec S16 32) (k1_hw423 : k1_chk423 v1565), ∀ a x, ((![v1565] : Fin 1 → IVec S16 32) a x).toNat < S8192.size a := fun v1565 k1_hw423 => k1_hw423

def k1_chk424 (v1581 : IVec S16 32) : Prop :=
  (∀ a x, ((![v1581] : Fin 1 → IVec S16 32) a x).toNat < S8192.size a)
instance k1_chk424.dec : ∀ (v1581 : IVec S16 32), Decidable (k1_chk424 v1581) := fun v1581 => decidable_of_iff' _ (Iff.of_eq (k1_chk424.eq_1 v1581))
theorem k1_idx424_inb : ∀ (v1581 : IVec S16 32) (k1_hw424 : k1_chk424 v1581), ∀ a x, ((![v1581] : Fin 1 → IVec S16 32) a x).toNat < S8192.size a := fun v1581 k1_hw424 => k1_hw424

def k1_chk425 (v243 : IVec S16 32) (v1594 : IVec S16 32) : Prop :=
  (∀ a x, ((![v243, v1594] : Fin 2 → IVec S16 32) a x).toNat < S128x128.size a)
instance k1_chk425.dec : ∀ (v243 : IVec S16 32) (v1594 : IVec S16 32), Decidable (k1_chk425 v243 v1594) := fun v243 v1594 => decidable_of_iff' _ (Iff.of_eq (k1_chk425.eq_1 v243 v1594))
theorem k1_idx425_inb : ∀ (v243 : IVec S16 32) (v1594 : IVec S16 32) (k1_hw425 : k1_chk425 v243 v1594), ∀ a x, ((![v243, v1594] : Fin 2 → IVec S16 32) a x).toNat < S128x128.size a := fun v243 v1594 k1_hw425 => k1_hw425

def k1_chk426 (v243 : IVec S16 32) (v1596 : IVec S16 32) : Prop :=
  (∀ a x, ((![v243, v1596] : Fin 2 → IVec S16 32) a x).toNat < S128x128.size a)
instance k1_chk426.dec : ∀ (v243 : IVec S16 32) (v1596 : IVec S16 32), Decidable (k1_chk426 v243 v1596) := fun v243 v1596 => decidable_of_iff' _ (Iff.of_eq (k1_chk426.eq_1 v243 v1596))
theorem k1_idx426_inb : ∀ (v243 : IVec S16 32) (v1596 : IVec S16 32) (k1_hw426 : k1_chk426 v243 v1596), ∀ a x, ((![v243, v1596] : Fin 2 → IVec S16 32) a x).toNat < S128x128.size a := fun v243 v1596 k1_hw426 => k1_hw426

def k1_chk427 (v243 : IVec S16 32) (v1598 : IVec S16 32) : Prop :=
  (∀ a x, ((![v243, v1598] : Fin 2 → IVec S16 32) a x).toNat < S128x128.size a)
instance k1_chk427.dec : ∀ (v243 : IVec S16 32) (v1598 : IVec S16 32), Decidable (k1_chk427 v243 v1598) := fun v243 v1598 => decidable_of_iff' _ (Iff.of_eq (k1_chk427.eq_1 v243 v1598))
theorem k1_idx427_inb : ∀ (v243 : IVec S16 32) (v1598 : IVec S16 32) (k1_hw427 : k1_chk427 v243 v1598), ∀ a x, ((![v243, v1598] : Fin 2 → IVec S16 32) a x).toNat < S128x128.size a := fun v243 v1598 k1_hw427 => k1_hw427

def k1_chk428 (v243 : IVec S16 32) (v1600 : IVec S16 32) : Prop :=
  (∀ a x, ((![v243, v1600] : Fin 2 → IVec S16 32) a x).toNat < S128x128.size a)
instance k1_chk428.dec : ∀ (v243 : IVec S16 32) (v1600 : IVec S16 32), Decidable (k1_chk428 v243 v1600) := fun v243 v1600 => decidable_of_iff' _ (Iff.of_eq (k1_chk428.eq_1 v243 v1600))
theorem k1_idx428_inb : ∀ (v243 : IVec S16 32) (v1600 : IVec S16 32) (k1_hw428 : k1_chk428 v243 v1600), ∀ a x, ((![v243, v1600] : Fin 2 → IVec S16 32) a x).toNat < S128x128.size a := fun v243 v1600 k1_hw428 => k1_hw428

def k1_chk429 (v243 : IVec S16 32) (v1602 : IVec S16 32) : Prop :=
  (∀ a x, ((![v243, v1602] : Fin 2 → IVec S16 32) a x).toNat < S128x128.size a)
instance k1_chk429.dec : ∀ (v243 : IVec S16 32) (v1602 : IVec S16 32), Decidable (k1_chk429 v243 v1602) := fun v243 v1602 => decidable_of_iff' _ (Iff.of_eq (k1_chk429.eq_1 v243 v1602))
theorem k1_idx429_inb : ∀ (v243 : IVec S16 32) (v1602 : IVec S16 32) (k1_hw429 : k1_chk429 v243 v1602), ∀ a x, ((![v243, v1602] : Fin 2 → IVec S16 32) a x).toNat < S128x128.size a := fun v243 v1602 k1_hw429 => k1_hw429

def k1_chk430 (v243 : IVec S16 32) (v1604 : IVec S16 32) : Prop :=
  (∀ a x, ((![v243, v1604] : Fin 2 → IVec S16 32) a x).toNat < S128x128.size a)
instance k1_chk430.dec : ∀ (v243 : IVec S16 32) (v1604 : IVec S16 32), Decidable (k1_chk430 v243 v1604) := fun v243 v1604 => decidable_of_iff' _ (Iff.of_eq (k1_chk430.eq_1 v243 v1604))
theorem k1_idx430_inb : ∀ (v243 : IVec S16 32) (v1604 : IVec S16 32) (k1_hw430 : k1_chk430 v243 v1604), ∀ a x, ((![v243, v1604] : Fin 2 → IVec S16 32) a x).toNat < S128x128.size a := fun v243 v1604 k1_hw430 => k1_hw430

def k1_chk431 (v243 : IVec S16 32) (v1606 : IVec S16 32) : Prop :=
  (∀ a x, ((![v243, v1606] : Fin 2 → IVec S16 32) a x).toNat < S128x128.size a)
instance k1_chk431.dec : ∀ (v243 : IVec S16 32) (v1606 : IVec S16 32), Decidable (k1_chk431 v243 v1606) := fun v243 v1606 => decidable_of_iff' _ (Iff.of_eq (k1_chk431.eq_1 v243 v1606))
theorem k1_idx431_inb : ∀ (v243 : IVec S16 32) (v1606 : IVec S16 32) (k1_hw431 : k1_chk431 v243 v1606), ∀ a x, ((![v243, v1606] : Fin 2 → IVec S16 32) a x).toNat < S128x128.size a := fun v243 v1606 k1_hw431 => k1_hw431

def k1_chk432 (v243 : IVec S16 32) (v1608 : IVec S16 32) : Prop :=
  (∀ a x, ((![v243, v1608] : Fin 2 → IVec S16 32) a x).toNat < S128x128.size a)
instance k1_chk432.dec : ∀ (v243 : IVec S16 32) (v1608 : IVec S16 32), Decidable (k1_chk432 v243 v1608) := fun v243 v1608 => decidable_of_iff' _ (Iff.of_eq (k1_chk432.eq_1 v243 v1608))
theorem k1_idx432_inb : ∀ (v243 : IVec S16 32) (v1608 : IVec S16 32) (k1_hw432 : k1_chk432 v243 v1608), ∀ a x, ((![v243, v1608] : Fin 2 → IVec S16 32) a x).toNat < S128x128.size a := fun v243 v1608 k1_hw432 => k1_hw432

def k1_chk433 (v1622 : IVec S16 32) : Prop :=
  (∀ a x, ((![v1622] : Fin 1 → IVec S16 32) a x).toNat < S8192.size a)
instance k1_chk433.dec : ∀ (v1622 : IVec S16 32), Decidable (k1_chk433 v1622) := fun v1622 => decidable_of_iff' _ (Iff.of_eq (k1_chk433.eq_1 v1622))
theorem k1_idx433_inb : ∀ (v1622 : IVec S16 32) (k1_hw433 : k1_chk433 v1622), ∀ a x, ((![v1622] : Fin 1 → IVec S16 32) a x).toNat < S8192.size a := fun v1622 k1_hw433 => k1_hw433

def k1_chk434 (v1638 : IVec S16 32) : Prop :=
  (∀ a x, ((![v1638] : Fin 1 → IVec S16 32) a x).toNat < S8192.size a)
instance k1_chk434.dec : ∀ (v1638 : IVec S16 32), Decidable (k1_chk434 v1638) := fun v1638 => decidable_of_iff' _ (Iff.of_eq (k1_chk434.eq_1 v1638))
theorem k1_idx434_inb : ∀ (v1638 : IVec S16 32) (k1_hw434 : k1_chk434 v1638), ∀ a x, ((![v1638] : Fin 1 → IVec S16 32) a x).toNat < S8192.size a := fun v1638 k1_hw434 => k1_hw434

def k1_chk435 (v1654 : IVec S16 32) : Prop :=
  (∀ a x, ((![v1654] : Fin 1 → IVec S16 32) a x).toNat < S8192.size a)
instance k1_chk435.dec : ∀ (v1654 : IVec S16 32), Decidable (k1_chk435 v1654) := fun v1654 => decidable_of_iff' _ (Iff.of_eq (k1_chk435.eq_1 v1654))
theorem k1_idx435_inb : ∀ (v1654 : IVec S16 32) (k1_hw435 : k1_chk435 v1654), ∀ a x, ((![v1654] : Fin 1 → IVec S16 32) a x).toNat < S8192.size a := fun v1654 k1_hw435 => k1_hw435

def k1_chk436 (v1670 : IVec S16 32) : Prop :=
  (∀ a x, ((![v1670] : Fin 1 → IVec S16 32) a x).toNat < S8192.size a)
instance k1_chk436.dec : ∀ (v1670 : IVec S16 32), Decidable (k1_chk436 v1670) := fun v1670 => decidable_of_iff' _ (Iff.of_eq (k1_chk436.eq_1 v1670))
theorem k1_idx436_inb : ∀ (v1670 : IVec S16 32) (k1_hw436 : k1_chk436 v1670), ∀ a x, ((![v1670] : Fin 1 → IVec S16 32) a x).toNat < S8192.size a := fun v1670 k1_hw436 => k1_hw436

def k1_chk437 (v243 : IVec S16 32) (v1683 : IVec S16 32) : Prop :=
  (∀ a x, ((![v243, v1683] : Fin 2 → IVec S16 32) a x).toNat < S128x128.size a)
instance k1_chk437.dec : ∀ (v243 : IVec S16 32) (v1683 : IVec S16 32), Decidable (k1_chk437 v243 v1683) := fun v243 v1683 => decidable_of_iff' _ (Iff.of_eq (k1_chk437.eq_1 v243 v1683))
theorem k1_idx437_inb : ∀ (v243 : IVec S16 32) (v1683 : IVec S16 32) (k1_hw437 : k1_chk437 v243 v1683), ∀ a x, ((![v243, v1683] : Fin 2 → IVec S16 32) a x).toNat < S128x128.size a := fun v243 v1683 k1_hw437 => k1_hw437

def k1_chk438 (v243 : IVec S16 32) (v1685 : IVec S16 32) : Prop :=
  (∀ a x, ((![v243, v1685] : Fin 2 → IVec S16 32) a x).toNat < S128x128.size a)
instance k1_chk438.dec : ∀ (v243 : IVec S16 32) (v1685 : IVec S16 32), Decidable (k1_chk438 v243 v1685) := fun v243 v1685 => decidable_of_iff' _ (Iff.of_eq (k1_chk438.eq_1 v243 v1685))
theorem k1_idx438_inb : ∀ (v243 : IVec S16 32) (v1685 : IVec S16 32) (k1_hw438 : k1_chk438 v243 v1685), ∀ a x, ((![v243, v1685] : Fin 2 → IVec S16 32) a x).toNat < S128x128.size a := fun v243 v1685 k1_hw438 => k1_hw438

def k1_chk439 (v243 : IVec S16 32) (v1687 : IVec S16 32) : Prop :=
  (∀ a x, ((![v243, v1687] : Fin 2 → IVec S16 32) a x).toNat < S128x128.size a)
instance k1_chk439.dec : ∀ (v243 : IVec S16 32) (v1687 : IVec S16 32), Decidable (k1_chk439 v243 v1687) := fun v243 v1687 => decidable_of_iff' _ (Iff.of_eq (k1_chk439.eq_1 v243 v1687))
theorem k1_idx439_inb : ∀ (v243 : IVec S16 32) (v1687 : IVec S16 32) (k1_hw439 : k1_chk439 v243 v1687), ∀ a x, ((![v243, v1687] : Fin 2 → IVec S16 32) a x).toNat < S128x128.size a := fun v243 v1687 k1_hw439 => k1_hw439

def k1_chk440 (v243 : IVec S16 32) (v1689 : IVec S16 32) : Prop :=
  (∀ a x, ((![v243, v1689] : Fin 2 → IVec S16 32) a x).toNat < S128x128.size a)
instance k1_chk440.dec : ∀ (v243 : IVec S16 32) (v1689 : IVec S16 32), Decidable (k1_chk440 v243 v1689) := fun v243 v1689 => decidable_of_iff' _ (Iff.of_eq (k1_chk440.eq_1 v243 v1689))
theorem k1_idx440_inb : ∀ (v243 : IVec S16 32) (v1689 : IVec S16 32) (k1_hw440 : k1_chk440 v243 v1689), ∀ a x, ((![v243, v1689] : Fin 2 → IVec S16 32) a x).toNat < S128x128.size a := fun v243 v1689 k1_hw440 => k1_hw440

def k1_chk441 (v243 : IVec S16 32) (v1691 : IVec S16 32) : Prop :=
  (∀ a x, ((![v243, v1691] : Fin 2 → IVec S16 32) a x).toNat < S128x128.size a)
instance k1_chk441.dec : ∀ (v243 : IVec S16 32) (v1691 : IVec S16 32), Decidable (k1_chk441 v243 v1691) := fun v243 v1691 => decidable_of_iff' _ (Iff.of_eq (k1_chk441.eq_1 v243 v1691))
theorem k1_idx441_inb : ∀ (v243 : IVec S16 32) (v1691 : IVec S16 32) (k1_hw441 : k1_chk441 v243 v1691), ∀ a x, ((![v243, v1691] : Fin 2 → IVec S16 32) a x).toNat < S128x128.size a := fun v243 v1691 k1_hw441 => k1_hw441

def k1_chk442 (v243 : IVec S16 32) (v1693 : IVec S16 32) : Prop :=
  (∀ a x, ((![v243, v1693] : Fin 2 → IVec S16 32) a x).toNat < S128x128.size a)
instance k1_chk442.dec : ∀ (v243 : IVec S16 32) (v1693 : IVec S16 32), Decidable (k1_chk442 v243 v1693) := fun v243 v1693 => decidable_of_iff' _ (Iff.of_eq (k1_chk442.eq_1 v243 v1693))
theorem k1_idx442_inb : ∀ (v243 : IVec S16 32) (v1693 : IVec S16 32) (k1_hw442 : k1_chk442 v243 v1693), ∀ a x, ((![v243, v1693] : Fin 2 → IVec S16 32) a x).toNat < S128x128.size a := fun v243 v1693 k1_hw442 => k1_hw442

def k1_chk443 (v243 : IVec S16 32) (v1695 : IVec S16 32) : Prop :=
  (∀ a x, ((![v243, v1695] : Fin 2 → IVec S16 32) a x).toNat < S128x128.size a)
instance k1_chk443.dec : ∀ (v243 : IVec S16 32) (v1695 : IVec S16 32), Decidable (k1_chk443 v243 v1695) := fun v243 v1695 => decidable_of_iff' _ (Iff.of_eq (k1_chk443.eq_1 v243 v1695))
theorem k1_idx443_inb : ∀ (v243 : IVec S16 32) (v1695 : IVec S16 32) (k1_hw443 : k1_chk443 v243 v1695), ∀ a x, ((![v243, v1695] : Fin 2 → IVec S16 32) a x).toNat < S128x128.size a := fun v243 v1695 k1_hw443 => k1_hw443

def k1_chk444 (v243 : IVec S16 32) (v1697 : IVec S16 32) : Prop :=
  (∀ a x, ((![v243, v1697] : Fin 2 → IVec S16 32) a x).toNat < S128x128.size a)
instance k1_chk444.dec : ∀ (v243 : IVec S16 32) (v1697 : IVec S16 32), Decidable (k1_chk444 v243 v1697) := fun v243 v1697 => decidable_of_iff' _ (Iff.of_eq (k1_chk444.eq_1 v243 v1697))
theorem k1_idx444_inb : ∀ (v243 : IVec S16 32) (v1697 : IVec S16 32) (k1_hw444 : k1_chk444 v243 v1697), ∀ a x, ((![v243, v1697] : Fin 2 → IVec S16 32) a x).toNat < S128x128.size a := fun v243 v1697 k1_hw444 => k1_hw444

def k1_chk445 (v1711 : IVec S16 32) : Prop :=
  (∀ a x, ((![v1711] : Fin 1 → IVec S16 32) a x).toNat < S8192.size a)
instance k1_chk445.dec : ∀ (v1711 : IVec S16 32), Decidable (k1_chk445 v1711) := fun v1711 => decidable_of_iff' _ (Iff.of_eq (k1_chk445.eq_1 v1711))
theorem k1_idx445_inb : ∀ (v1711 : IVec S16 32) (k1_hw445 : k1_chk445 v1711), ∀ a x, ((![v1711] : Fin 1 → IVec S16 32) a x).toNat < S8192.size a := fun v1711 k1_hw445 => k1_hw445

def k1_chk446 (v1727 : IVec S16 32) : Prop :=
  (∀ a x, ((![v1727] : Fin 1 → IVec S16 32) a x).toNat < S8192.size a)
instance k1_chk446.dec : ∀ (v1727 : IVec S16 32), Decidable (k1_chk446 v1727) := fun v1727 => decidable_of_iff' _ (Iff.of_eq (k1_chk446.eq_1 v1727))
theorem k1_idx446_inb : ∀ (v1727 : IVec S16 32) (k1_hw446 : k1_chk446 v1727), ∀ a x, ((![v1727] : Fin 1 → IVec S16 32) a x).toNat < S8192.size a := fun v1727 k1_hw446 => k1_hw446

def k1_chk447 (v1743 : IVec S16 32) : Prop :=
  (∀ a x, ((![v1743] : Fin 1 → IVec S16 32) a x).toNat < S8192.size a)
instance k1_chk447.dec : ∀ (v1743 : IVec S16 32), Decidable (k1_chk447 v1743) := fun v1743 => decidable_of_iff' _ (Iff.of_eq (k1_chk447.eq_1 v1743))
theorem k1_idx447_inb : ∀ (v1743 : IVec S16 32) (k1_hw447 : k1_chk447 v1743), ∀ a x, ((![v1743] : Fin 1 → IVec S16 32) a x).toNat < S8192.size a := fun v1743 k1_hw447 => k1_hw447

def k1_chk448 (v1759 : IVec S16 32) : Prop :=
  (∀ a x, ((![v1759] : Fin 1 → IVec S16 32) a x).toNat < S8192.size a)
instance k1_chk448.dec : ∀ (v1759 : IVec S16 32), Decidable (k1_chk448 v1759) := fun v1759 => decidable_of_iff' _ (Iff.of_eq (k1_chk448.eq_1 v1759))
theorem k1_idx448_inb : ∀ (v1759 : IVec S16 32) (k1_hw448 : k1_chk448 v1759), ∀ a x, ((![v1759] : Fin 1 → IVec S16 32) a x).toNat < S8192.size a := fun v1759 k1_hw448 => k1_hw448
def k1_off9 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c64_i32 : BitVec 32 := 64#32
  let v101 : BitVec 32 := Scalar.muli v2 c64_i32
  ![v101.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x100x4x8_S100x4x8 : S1x100x4x8.ShapeCasts S100x4x8
  shapeCasts_S100x4x8_S100x32 : S100x4x8.ShapeCasts S100x32
  bcast_S_S4x4 : S_.BroadcastsInDim S4x4 (![] : Fin 0 → Fin S4x4.rank)
  bcast_S4x4_S4x1x1x4x1x1_0_3 : S4x4.BroadcastsInDim S4x1x1x4x1x1 (![0, 3] : Fin 2 → Fin S4x1x1x4x1x1.rank)
  bcast_S8x100x4x8_S1x8x100x1x4x8_1_2_4_5 : S8x100x4x8.BroadcastsInDim S1x8x100x1x4x8 (![1, 2, 4, 5] : Fin 4 → Fin S1x8x100x1x4x8.rank)
  bcast_S4x1x1x4x1x1_S4x8x100x4x4x8_0_1_2_3_4_5 : S4x1x1x4x1x1.BroadcastsInDim S4x8x100x4x4x8 (![0, 1, 2, 3, 4, 5] : Fin 6 → Fin S4x8x100x4x4x8.rank)
  bcast_S1x8x100x1x4x8_S4x8x100x4x4x8_0_1_2_3_4_5 : S1x8x100x1x4x8.BroadcastsInDim S4x8x100x4x4x8 (![0, 1, 2, 3, 4, 5] : Fin 6 → Fin S4x8x100x4x4x8.rank)
  shapeCasts_S4x8x100x4x4x8_S32x12800 : S4x8x100x4x4x8.ShapeCasts S32x12800
  inb_S100x32_S100x32_0_0 : ∀ a, (![0, 0] : Fin 2 → Nat) a + S100x32.size a ≤ S100x32.size a
  h_S100x32 : 0 < S100x32.numel
  shapeCasts_S100x32_S100x32 : S100x32.ShapeCasts S100x32
  inb_S32x12800_S32x12800_0_0 : ∀ a, (![0, 0] : Fin 2 → Nat) a + S32x12800.size a ≤ S32x12800.size a
  h_S32x12800 : 0 < S32x12800.numel
  shapeCasts_S32x12800_S32x12800 : S32x12800.ShapeCasts S32x12800
  inb_S100x12800_S100x12800_0_0 : ∀ a, (![0, 0] : Fin 2 → Nat) a + S100x12800.size a ≤ S100x12800.size a
  h_S100x12800 : 0 < S100x12800.numel
  shapeCasts_S100x12800_S10000x128 : S100x12800.ShapeCasts S10000x128
  shapeCasts_S8x100x4x1_S8x100x4 : S8x100x4x1.ShapeCasts S8x100x4
  transposes_S8x100x4_S100x8x4_1_0_2 : S8x100x4.Transposes [1, 0, 2] S100x8x4
  shapeCasts_S100x8x4_S100x32 : S100x8x4.ShapeCasts S100x32
  pads_S100x32_S100x33_000_010 : S100x32.Pads (![0, 0] : Fin 2 → Nat) ![0, 1] ![0, 0] S100x33
  h_S_ : 0 < S_.numel
  shapeCasts_S100x33_S3300 : S100x33.ShapeCasts S3300
  pads_S3300_S3304_040 : S3300.Pads (![0] : Fin 1 → Nat) ![4] ![0] S3304
  shapeCasts_S16384x26_S425984 : S16384x26.ShapeCasts S425984
  inb_S13312_S16_0 : ∀ a, (![0] : Fin 1 → Nat) a + S16.size a ≤ S13312.size a
  h_S16 : 0 < S16.numel
  inb_S128_S16_0 : ∀ a, (![0] : Fin 1 → Nat) a + S16.size a ≤ S128.size a
  inb_S13312_S16_16 : ∀ a, (![16] : Fin 1 → Nat) a + S16.size a ≤ S13312.size a
  inb_S128_S16_16 : ∀ a, (![16] : Fin 1 → Nat) a + S16.size a ≤ S128.size a
  inb_S13312_S16_32 : ∀ a, (![32] : Fin 1 → Nat) a + S16.size a ≤ S13312.size a
  inb_S128_S16_32 : ∀ a, (![32] : Fin 1 → Nat) a + S16.size a ≤ S128.size a
  inb_S13312_S16_48 : ∀ a, (![48] : Fin 1 → Nat) a + S16.size a ≤ S13312.size a
  inb_S128_S16_48 : ∀ a, (![48] : Fin 1 → Nat) a + S16.size a ≤ S128.size a
  inb_S13312_S16_64 : ∀ a, (![64] : Fin 1 → Nat) a + S16.size a ≤ S13312.size a
  inb_S128_S16_64 : ∀ a, (![64] : Fin 1 → Nat) a + S16.size a ≤ S128.size a
  inb_S13312_S16_80 : ∀ a, (![80] : Fin 1 → Nat) a + S16.size a ≤ S13312.size a
  inb_S128_S16_80 : ∀ a, (![80] : Fin 1 → Nat) a + S16.size a ≤ S128.size a
  inb_S13312_S16_96 : ∀ a, (![96] : Fin 1 → Nat) a + S16.size a ≤ S13312.size a
  inb_S128_S16_96 : ∀ a, (![96] : Fin 1 → Nat) a + S16.size a ≤ S128.size a
  inb_S13312_S16_112 : ∀ a, (![112] : Fin 1 → Nat) a + S16.size a ≤ S13312.size a
  inb_S128_S16_112 : ∀ a, (![112] : Fin 1 → Nat) a + S16.size a ≤ S128.size a
  inb_S10000x128_S10000x128_0_0 : ∀ a, (![0, 0] : Fin 2 → Nat) a + S10000x128.size a ≤ S10000x128.size a
  gathers_S10000x128_S128x128 : S10000x128.Gathers 0 S128x128
  iota_S16_d0_w32_scVector : S16.Iotas .scVector 32 [0]
  h_S3304 : 0 < S3304.numel
  h_S128x128 : 0 < S128x128.numel
  h_S8192 : 0 < S8192.numel
  shapeCasts_S27262976_S16384x26x64 : S27262976.ShapeCasts S16384x26x64
  dot_S100x32_S32x12800_S100x12800_1_0_0_1_n_n_wf : DotDims.WF S100x32 S32x12800 S100x12800 [1] [0] [0] [1] [] []
  hcc1_scratch10 : 3 + S_.numel ≤ 9
  hcc1_scratch11 : 4 + S_.numel ≤ 9
  hcc1_scratch12 : 5 + S_.numel ≤ 9
  hcc1_scratch13 : 6 + S_.numel ≤ 9
  hcc1_scoped0 : 7 + S_.numel ≤ 9
  hcc1_scoped1 : 8 + S_.numel ≤ 9
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hcore1 : grid1.bound 0 ≤ τ.nSC
  hsub1 : grid1.bound 1 ≤ τ.nSub
  k1_off1_inb : ∀ i : grid1.Coords, ∀ a, (k1_off1 i) a + S13312.size a ≤ S425984.size a
  k1_t1_ok : k1_t1_loop.OK
  k1_off2_inb : ∀ k1_t1 : Fin k1_t1_loop.trips, ∀ (k1_h1 : k1_cond1 k1_t1 = 1#1), ∀ (r : Fin 8), ∀ a, (k1_off2 k1_t1 (BitVec.ofNat 32 (16 * r.val))) a + S16.size a ≤ S13312.size a
  k1_off3_inb : ∀ (i : grid1.Coords) (k1_t1 : Fin k1_t1_loop.trips), ∀ (k1_h2 : k1_cond2 k1_t1 = 1#1), ∀ a, (k1_off3 i) a + S8192.size a ≤ S27262976.size a
  k1_t2_ok : k1_t2_loop.OK
  k1_off4_inb : ∀ k1_t2 : Fin k1_t2_loop.trips, ∀ a, (k1_off4 k1_t2) a + S16.size a ≤ S128.size a
  k1_off5_inb : ∀ (i : grid1.Coords) (k1_t1 : Fin k1_t1_loop.trips), ∀ (r : Fin 2), ∀ a, (k1_off5 i k1_t1 (BitVec.ofNat 32 r.val)) a + S8192.size a ≤ S27262976.size a
  k1_off6_inb : ∀ k1_t1 : Fin k1_t1_loop.trips, ∀ (k1_h3 : k1_cond3 k1_t1 = 1#1), ∀ (r : Fin 8), ∀ a, (k1_off6 k1_t1 (BitVec.ofNat 32 (16 * r.val))) a + S16.size a ≤ S13312.size a
  k1_off7_inb : ∀ (i : grid1.Coords) (k1_t1 : Fin k1_t1_loop.trips), ∀ (k1_h4 : k1_cond4 k1_t1 = 1#1), ∀ a, (k1_off7 i) a + S8192.size a ≤ S27262976.size a
  k1_t3_ok : k1_t3_loop.OK
  k1_off8_inb : ∀ k1_t3 : Fin k1_t3_loop.trips, ∀ a, (k1_off8 k1_t3) a + S16.size a ≤ S128.size a
  k1_off9_inb : ∀ i : grid1.Coords, ∀ a, (k1_off9 i) a + S8192.size a ≤ S27262976.size a

variable [Facts₀]

abbrev cc1_scratch10 : DmaSems sig S_ := SemArray.consecutive 3 S_ hcc1_scratch10
abbrev cc1_scratch11 : DmaSems sig S_ := SemArray.consecutive 4 S_ hcc1_scratch11
abbrev cc1_scratch12 : DmaSems sig S_ := SemArray.consecutive 5 S_ hcc1_scratch12
abbrev cc1_scratch13 : DmaSems sig S_ := SemArray.consecutive 6 S_ hcc1_scratch13
abbrev cc1_scoped0 : DmaSems sig S_ := SemArray.consecutive 7 S_ hcc1_scoped0
abbrev cc1_scoped1 : DmaSems sig S_ := SemArray.consecutive 8 S_ hcc1_scoped1
def dot_S100x32_S32x12800_S100x12800_1_0_0_1_n_n : DotDims S100x32 S32x12800 S100x12800 where
  lhsContracting := [1]
  rhsContracting := [0]
  lhsNonContracting := [0]
  rhsNonContracting := [1]
  lhsBatch := []
  rhsBatch := []
  wf := dot_S100x32_S32x12800_S100x12800_1_0_0_1_n_n_wf

abbrev win0_0 : Pipeline.Window sig grid0 :=
  Pipeline.Window.whole (Memref.whole main_v1) false false (stage0_0 0) (sem0_0 0) (Memref.isWhole_whole _) (hstage0_0 0)

abbrev win0_1 : Pipeline.Window sig grid0 :=
  Pipeline.Window.whole (Memref.whole main_v13) false false (stage0_1 0) (sem0_1 0) (Memref.isWhole_whole _) (hstage0_1 0)

abbrev win0_2 : Pipeline.Window sig grid0 :=
  Pipeline.Window.whole (Memref.whole main_v14) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x26 : Shape := ⟨2, ![16384, 26]⟩
abbrev S1x100x4x8 : Shape := ⟨4, ![1, 100, 4, 8]⟩
abbrev S8x100x4x8 : Shape := ⟨4, ![8, 100, 4, 8]⟩
abbrev S8x100x4x1 : Shape := ⟨4, ![8, 100, 4, 1]⟩
abbrev S425984 : Shape := ⟨1, ![425984]⟩
abbrev S_ : Shape := ⟨0, ![]⟩
abbrev S425984x1 : Shape := ⟨2, ![425984, 1]⟩
abbrev S425984x2 : Shape := ⟨2, ![425984, 2]⟩
abbrev S425984x4x8 : Shape := ⟨3, ![425984, 4, 8]⟩
abbrev S100x8x4x8 : Shape := ⟨4, ![100, 8, 4, 8]⟩
abbrev S425984x8x4x8 : Shape := ⟨4, ![425984, 8, 4, 8]⟩
abbrev S100x8x4x1 : Shape := ⟨4, ![100, 8, 4, 1]⟩
abbrev S425984x8x4x1 : Shape := ⟨4, ![425984, 8, 4, 1]⟩
abbrev S425984x4x4x8 : Shape := ⟨4, ![425984, 4, 4, 8]⟩
abbrev S425984x16x8 : Shape := ⟨3, ![425984, 16, 8]⟩
abbrev S425984x16x4x1 : Shape := ⟨4, ![425984, 16, 4, 1]⟩
abbrev S425984x64 : Shape := ⟨2, ![425984, 64]⟩
abbrev S16384x26x64 : Shape := ⟨3, ![16384, 26, 64]⟩

abbrev nBuf : Space → Nat
  | .hbm => 124
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1x100x4x8, .f32⟩
  | .hbm, ⟨2, _⟩ => ⟨S8x100x4x8, .f32⟩
  | .hbm, ⟨3, _⟩ => ⟨S8x100x4x1, .f32⟩
  | .hbm, ⟨4, _⟩ => ⟨S425984, .i32⟩
  | .hbm, ⟨5, _⟩ => ⟨S_, .i32⟩
  | .hbm, ⟨6, _⟩ => ⟨S_, .i32⟩
  | .hbm, ⟨7, _⟩ => ⟨S425984, .i32⟩
  | .hbm, ⟨8, _⟩ => ⟨S425984, .i32⟩
  | .hbm, ⟨9, _⟩ => ⟨S425984, .i32⟩
  | .hbm, ⟨10, _⟩ => ⟨S_, .i32⟩
  | .hbm, ⟨11, _⟩ => ⟨S425984, .i32⟩
  | .hbm, ⟨12, _⟩ => ⟨S425984, .i1⟩
  | .hbm, ⟨13, _⟩ => ⟨S425984, .i32⟩
  | .hbm, ⟨14, _⟩ => ⟨S425984, .i32⟩
  | .hbm, ⟨15, _⟩ => ⟨S_, .i32⟩
  | .hbm, ⟨16, _⟩ => ⟨S425984, .i32⟩
  | .hbm, ⟨17, _⟩ => ⟨S425984, .i1⟩
  | .hbm, ⟨18, _⟩ => ⟨S425984, .i1⟩
  | .hbm, ⟨19, _⟩ => ⟨S_, .i32⟩
  | .hbm, ⟨20, _⟩ => ⟨S425984, .i32⟩
  | .hbm, ⟨21, _⟩ => ⟨S425984, .i32⟩
  | .hbm, ⟨22, _⟩ => ⟨S425984, .i32⟩
  | .hbm, ⟨23, _⟩ => ⟨S_, .i32⟩
  | .hbm, ⟨24, _⟩ => ⟨S_, .i32⟩
  | .hbm, ⟨25, _⟩ => ⟨S425984, .i32⟩
  | .hbm, ⟨26, _⟩ => ⟨S425984, .i32⟩
  | .hbm, ⟨27, _⟩ => ⟨S425984, .i32⟩
  | .hbm, ⟨28, _⟩ => ⟨S_, .i32⟩
  | .hbm, ⟨29, _⟩ => ⟨S425984, .i32⟩
  | .hbm, ⟨30, _⟩ => ⟨S425984, .i1⟩
  | .hbm, ⟨31, _⟩ => ⟨S425984, .i32⟩
  | .hbm, ⟨32, _⟩ => ⟨S425984, .i32⟩
  | .hbm, ⟨33, _⟩ => ⟨S_, .i32⟩
  | .hbm, ⟨34, _⟩ => ⟨S425984, .i32⟩
  | .hbm, ⟨35, _⟩ => ⟨S425984, .i1⟩
  | .hbm, ⟨36, _⟩ => ⟨S425984, .i1⟩
  | .hbm, ⟨37, _⟩ => ⟨S_, .i32⟩
  | .hbm, ⟨38, _⟩ => ⟨S425984, .i32⟩
  | .hbm, ⟨39, _⟩ => ⟨S425984, .i32⟩
  | .hbm, ⟨40, _⟩ => ⟨S425984, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S425984, .i32⟩
  | .hbm, ⟨48, _⟩ => ⟨S425984, .i32⟩
  | .hbm, ⟨49, _⟩ => ⟨S_, .i32⟩
  | .hbm, ⟨50, _⟩ => ⟨S425984, .i32⟩
  | .hbm, ⟨51, _⟩ => ⟨S425984, .i1⟩
  | .hbm, ⟨52, _⟩ => ⟨S_, .i32⟩
  | .hbm, ⟨53, _⟩ => ⟨S425984, .i32⟩
  | .hbm, ⟨54, _⟩ => ⟨S425984, .i1⟩
  | .hbm, ⟨55, _⟩ => ⟨S_, .i32⟩
  | .hbm, ⟨56, _⟩ => ⟨S_, .i1⟩
  | .hbm, ⟨57, _⟩ => ⟨S425984, .i1⟩
  | .hbm, ⟨58, _⟩ => ⟨S425984, .i1⟩
  | .hbm, ⟨59, _⟩ => ⟨S425984, .i1⟩
  | .hbm, ⟨60, _⟩ => ⟨S425984, .i32⟩
  | .hbm, ⟨61, _⟩ => ⟨S425984, .i32⟩
  | .hbm, ⟨62, _⟩ => ⟨S425984, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S425984, .i32⟩
  | .hbm, ⟨70, _⟩ => ⟨S425984, .i32⟩
  | .hbm, ⟨71, _⟩ => ⟨S_, .i32⟩
  | .hbm, ⟨72, _⟩ => ⟨S425984, .i32⟩
  | .hbm, ⟨73, _⟩ => ⟨S425984, .i1⟩
  | .hbm, ⟨74, _⟩ => ⟨S_, .i32⟩
  | .hbm, ⟨75, _⟩ => ⟨S425984, .i32⟩
  | .hbm, ⟨76, _⟩ => ⟨S425984, .i1⟩
  | .hbm, ⟨77, _⟩ => ⟨S_, .i32⟩
  | .hbm, ⟨78, _⟩ => ⟨S_, .i1⟩
  | .hbm, ⟨79, _⟩ => ⟨S425984, .i1⟩
  | .hbm, ⟨80, _⟩ => ⟨S425984, .i1⟩
  | .hbm, ⟨81, _⟩ => ⟨S425984, .i1⟩
  | .hbm, ⟨82, _⟩ => ⟨S425984, .i32⟩
  | .hbm, ⟨83, _⟩ => ⟨S425984, .i32⟩
  | .hbm, ⟨84, _⟩ => ⟨S425984, .i32⟩
  | .hbm, ⟨85, _⟩ => ⟨S_, .i32⟩
  | .hbm, ⟨86, _⟩ => ⟨S425984, .i32⟩
  | .hbm, ⟨87, _⟩ => ⟨S425984, .i1⟩
  | .hbm, ⟨88, _⟩ => ⟨S_, .i32⟩
  | .hbm, ⟨89, _⟩ => ⟨S425984, .i32⟩
  | .hbm, ⟨90, _⟩ => ⟨S425984, .i32⟩
  | .hbm, ⟨91, _⟩ => ⟨S425984, .i32⟩
  | .hbm, ⟨92, _⟩ => ⟨S_, .i32⟩
  | .hbm, ⟨93, _⟩ => ⟨S425984, .i32⟩
  | .hbm, ⟨94, _⟩ => ⟨S425984, .i32⟩
  | .hbm, ⟨95, _⟩ => ⟨S425984x1, .i32⟩
  | .hbm, ⟨96, _⟩ => ⟨S425984x1, .i32⟩
  | .hbm, ⟨97, _⟩ => ⟨S425984x2, .i32⟩
  | .hbm, ⟨98, _⟩ => ⟨S425984x4x8, .f32⟩
  | .hbm, ⟨99, _⟩ => ⟨S100x8x4x8, .f32⟩
  | .hbm, ⟨100, _⟩ => ⟨S_, .i32⟩
  | .hbm, ⟨101, _⟩ => ⟨S425984, .i32⟩
  | .hbm, ⟨102, _⟩ => ⟨S425984, .i1⟩
  | .hbm, ⟨103, _⟩ => ⟨S_, .i32⟩
  | .hbm, ⟨104, _⟩ => ⟨S425984, .i32⟩
  | .hbm, ⟨105, _⟩ => ⟨S425984, .i32⟩
  | .hbm, ⟨106, _⟩ => ⟨S425984, .i32⟩
  | .hbm, ⟨107, _⟩ => ⟨S425984x1, .i32⟩
  | .hbm, ⟨108, _⟩ => ⟨S425984x8x4x8, .f32⟩
  | .hbm, ⟨109, _⟩ => ⟨S100x8x4x1, .f32⟩
  | .hbm, ⟨110, _⟩ => ⟨S_, .i32⟩
  | .hbm, ⟨111, _⟩ => ⟨S425984, .i32⟩
  | .hbm, ⟨112, _⟩ => ⟨S425984, .i1⟩
  | .hbm, ⟨113, _⟩ => ⟨S_, .i32⟩
  | .hbm, ⟨114, _⟩ => ⟨S425984, .i32⟩
  | .hbm, ⟨115, _⟩ => ⟨S425984, .i32⟩
  | .hbm, ⟨116, _⟩ => ⟨S425984, .i32⟩
  | .hbm, ⟨117, _⟩ => ⟨S425984x1, .i32⟩
  | .hbm, ⟨118, _⟩ => ⟨S425984x8x4x1, .f32⟩
  | .hbm, ⟨119, _⟩ => ⟨S425984x4x4x8, .f32⟩
  | .hbm, ⟨120, _⟩ => ⟨S425984x16x8, .f32⟩
  | .hbm, ⟨121, _⟩ => ⟨S425984x16x4x1, .f32⟩
  | .hbm, ⟨122, _⟩ => ⟨S425984x64, .f32⟩
  | .hbm, ⟨123, _⟩ => ⟨S16384x26x64, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v2 : Ref sig .tc := ⟨.hbm, 40, rfl⟩
abbrev main_c_1 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_v5 : Ref sig .tc := ⟨.hbm, 50, rfl⟩
abbrev main_call2_v6 : Ref sig .tc := ⟨.hbm, 51, rfl⟩
abbrev main_call2_c_2 : Ref sig .tc := ⟨.hbm, 52, rfl⟩
abbrev main_call2_v7 : Ref sig .tc := ⟨.hbm, 53, rfl⟩
abbrev main_call2_v8 : Ref sig .tc := ⟨.hbm, 54, rfl⟩
abbrev main_call2_c_3 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_v3 : Ref sig .tc := ⟨.hbm, 62, rfl⟩
abbrev main_c_2 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v4 : Ref sig .tc := ⟨.hbm, 84, rfl⟩
abbrev main_c_3 : Ref sig .tc := ⟨.hbm, 85, rfl⟩
abbrev main_v5 : Ref sig .tc := ⟨.hbm, 86, rfl⟩
abbrev main_v6 : Ref sig .tc := ⟨.hbm, 87, rfl⟩
abbrev main_c_4 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_c_5 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_c_6 : Ref sig .tc := ⟨.hbm, 100, rfl⟩
abbrev main_v17 : Ref sig .tc := ⟨.hbm, 101, rfl⟩
abbrev main_v18 : Ref sig .tc := ⟨.hbm, 102, rfl⟩
abbrev main_c_7 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_c_8 : Ref sig .tc := ⟨.hbm, 110, rfl⟩
abbrev main_v25 : Ref sig .tc := ⟨.hbm, 111, rfl⟩
abbrev main_v26 : Ref sig .tc := ⟨.hbm, 112, rfl⟩
abbrev main_c_9 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩

abbrev nD : Nat := 1
abbrev τ : Topo := Topo.v7x

variable {F : FTy → Type} [FloatOps F]

class Facts₀ : Prop where
  shapeCasts_S16384x26_S425984 : S16384x26.ShapeCasts S425984
  bcast_S_S425984 : S_.BroadcastsInDim S425984 (![] : Fin 0 → Fin S425984.rank)
  bcast_S425984_S425984x1_0 : S425984.BroadcastsInDim S425984x1 (![0] : Fin 1 → Fin S425984x1.rank)
  concatenates_S425984x1_S425984x1_S425984x2_d1 : Shape.Concatenates [S425984x1, S425984x1] S425984x2 1
  transposes_S8x100x4x8_S100x8x4x8_1_0_2_3 : S8x100x4x8.Transposes [1, 0, 2, 3] S100x8x4x8
  transposes_S8x100x4x1_S100x8x4x1_1_0_2_3 : S8x100x4x1.Transposes [1, 0, 2, 3] S100x8x4x1
  shapeCasts_S425984x4x4x8_S425984x16x8 : S425984x4x4x8.ShapeCasts S425984x16x8
  shapeCasts_S425984x16x4x1_S425984x64 : S425984x16x4x1.ShapeCasts S425984x64
  shapeCasts_S425984x64_S16384x26x64 : S425984x64.ShapeCasts S16384x26x64
  gather_S1x100x4x8_S425984x2_S425984x4x8_12_01_n_n_01_1_1148_wf : GatherDims.WF S1x100x4x8 S425984x2 S425984x4x8 [1, 2] [0, 1] [] [0, 1] [] 1 ![1, 1, 4, 8]
  gather_S100x8x4x8_S425984x1_S425984x8x4x8_123_0_n_n_0_1_1848_wf : GatherDims.WF S100x8x4x8 S425984x1 S425984x8x4x8 [1, 2, 3] [0] [] [0] [] 1 ![1, 8, 4, 8]
  gather_S100x8x4x1_S425984x1_S425984x8x4x1_123_0_n_n_0_1_1841_wf : GatherDims.WF S100x8x4x1 S425984x1 S425984x8x4x1 [1, 2, 3] [0] [] [0] [] 1 ![1, 8, 4, 1]
  dot_S425984x4x8_S425984x8x4x8_S425984x4x4x8_2_1_1_23_0_0_wf : DotDims.WF S425984x4x8 S425984x8x4x8 S425984x4x4x8 [2] [1] [1] [2, 3] [0] [0]
  dot_S425984x16x8_S425984x8x4x1_S425984x16x4x1_2_1_1_23_0_0_wf : DotDims.WF S425984x16x8 S425984x8x4x1 S425984x16x4x1 [2] [1] [1] [2, 3] [0] [0]

variable [Facts₀]

def gather_S1x100x4x8_S425984x2_S425984x4x8_12_01_n_n_01_1_1148 : GatherDims S1x100x4x8 S425984x2 S425984x4x8 where
  offsetDims := [1, 2]
  collapsedSliceDims := [0, 1]
  operandBatchingDims := []
  startIndicesBatchingDims := []
  startIndexMap := [0, 1]
  indexVectorDim := 1
  sliceSizes := ![1, 1, 4, 8]
  wf := gather_S1x100x4x8_S425984x2_S425984x4x8_12_01_n_n_01_1_1148_wf
def gather_S100x8x4x8_S425984x1_S425984x8x4x8_123_0_n_n_0_1_1848 : GatherDims S100x8x4x8 S425984x1 S425984x8x4x8 where
  offsetDims := [1, 2, 3]
  collapsedSliceDims := [0]
  operandBatchingDims := []
  startIndicesBatchingDims := []
  startIndexMap := [0]
  indexVectorDim := 1
  sliceSizes := ![1, 8, 4, 8]
  wf := gather_S100x8x4x8_S425984x1_S425984x8x4x8_123_0_n_n_0_1_1848_wf
def gather_S100x8x4x1_S425984x1_S425984x8x4x1_123_0_n_n_0_1_1841 : GatherDims S100x8x4x1 S425984x1 S425984x8x4x1 where
  offsetDims := [1, 2, 3]
  collapsedSliceDims := [0]
  operandBatchingDims := []
  startIndicesBatchingDims := []
  startIndexMap := [0]
  indexVectorDim := 1
  sliceSizes := ![1, 8, 4, 1]
  wf := gather_S100x8x4x1_S425984x1_S425984x8x4x1_123_0_n_n_0_1_1841_wf
def dot_S425984x4x8_S425984x8x4x8_S425984x4x4x8_2_1_1_23_0_0 : DotDims S425984x4x8 S425984x8x4x8 S425984x4x4x8 where
  lhsContracting := [2]
  rhsContracting := [1]
  lhsNonContracting := [1]
  rhsNonContracting := [2, 3]
  lhsBatch := [0]
  rhsBatch := [0]
  wf := dot_S425984x4x8_S425984x8x4x8_S425984x4x4x8_2_1_1_23_0_0_wf
def dot_S425984x16x8_S425984x8x4x1_S425984x16x4x1_2_1_1_23_0_0 : DotDims S425984x16x8 S425984x8x4x1 S425984x16x4x1 where
  lhsContracting := [2]
  rhsContracting := [1]
  lhsNonContracting := [1]
  rhsNonContracting := [2, 3]
  lhsBatch := [0]
  rhsBatch := [0]
  wf := dot_S425984x16x8_S425984x8x4x1_S425984x16x4x1_2_1_1_23_0_0_wf

class Facts : Prop extends Facts₀ where

variable [Facts]
-- ==== Proof.Common.lean ====
/-
  Shared setting of the idealized kernel's frame and value proof: the program as the SparseCore launch theorem sees
  it, the ghost state (the handshakes' rounds beside the local transfers' counters), the kernel's arrays and each
  vector subcore's scratch as the body table passes them, and a vector subcore's place in the token range: subcore
  (c, s) is worker w = 2 s + c and owns tokens [13312 w, 13312 (w + 1)) of the 425984, hence words
  [851968 w, 851968 (w + 1)) of the flat result.
-/
import proofs.«207215_g13752485282153_cont_week2b_1454_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207215_g13752485282153_cont_week2b_1454_30_alg».proof.Proof.Gen.KernelIdeal
import proofs.«207215_g13752485282153_cont_week2b_1454_30_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds, the TensorCore call's staging cells' rounds, and the local transfers' counters -/

abbrev UH : Type := URounds (GSem nD τ sig) ℕ
abbrev UP : Type := URounds (GSem nD τ sig) Unit
abbrev UU : Type := UH × (UP × Counters)
abbrev EH : Emb UH (MT nD τ sig (HIx 1) (Elt F) ℕ UU ℕ) := embL

/-! ## The arrays and a subcore's scratch, spelt as the body table passes them -/

notation "idxW" => (Memref.whole Cert.KernelIdeal.main_v22_scv : Memref Cert.KernelIdeal.sig Kind.scVector Space.hbm Cert.KernelIdeal.S425984 EltTy.i32)
notation "ptW" => (Memref.whole Cert.KernelIdeal.main_v15_scv : Memref Cert.KernelIdeal.sig Kind.scVector Space.hbm Cert.KernelIdeal.S10000x128 EltTy.f32)
notation "ctW" => (Memref.whole Cert.KernelIdeal.main_v21_scv : Memref Cert.KernelIdeal.sig Kind.scVector Space.hbm Cert.KernelIdeal.S3304 EltTy.f32)
notation "outW" => (Memref.whole Cert.KernelIdeal.main_v23_scv : Memref Cert.KernelIdeal.sig Kind.scVector Space.hbm Cert.KernelIdeal.S27262976 EltTy.f32)
notation "s0W" => (Memref.whole Cert.KernelIdeal.cc1_scratch0 : Memref Cert.KernelIdeal.sig Kind.scVector Space.vmem Cert.KernelIdeal.S13312 EltTy.i32)
notation "s1W" => (Memref.whole Cert.KernelIdeal.cc1_scratch1 : Memref Cert.KernelIdeal.sig Kind.scVector Space.vmem Cert.KernelIdeal.S3304 EltTy.f32)
notation "s2W" => (Memref.whole Cert.KernelIdeal.cc1_scratch2 : Memref Cert.KernelIdeal.sig Kind.scVector Space.vmem Cert.KernelIdeal.S128 EltTy.i32)
notation "s3W" => (Memref.whole Cert.KernelIdeal.cc1_scratch3 : Memref Cert.KernelIdeal.sig Kind.scVector Space.vmem Cert.KernelIdeal.S128 EltTy.i32)
notation "s4W" => (Memref.whole Cert.KernelIdeal.cc1_scratch4 : Memref Cert.KernelIdeal.sig Kind.scVector Space.vmem Cert.KernelIdeal.S128 EltTy.i32)
notation "s5W" => (Memref.whole Cert.KernelIdeal.cc1_scratch5 : Memref Cert.KernelIdeal.sig Kind.scVector Space.vmem Cert.KernelIdeal.S128 EltTy.i32)
notation "s6W" => (Memref.whole Cert.KernelIdeal.cc1_scratch6 : Memref Cert.KernelIdeal.sig Kind.scVector Space.vmem Cert.KernelIdeal.S128x128 EltTy.f32)
notation "s7W" => (Memref.whole Cert.KernelIdeal.cc1_scratch7 : Memref Cert.KernelIdeal.sig Kind.scVector Space.vmem Cert.KernelIdeal.S128x128 EltTy.f32)
notation "s8W" => (Memref.whole Cert.KernelIdeal.cc1_scratch8 : Memref Cert.KernelIdeal.sig Kind.scVector Space.vmem Cert.KernelIdeal.S8192 EltTy.f32)
notation "s9W" => (Memref.whole Cert.KernelIdeal.cc1_scratch9 : Memref Cert.KernelIdeal.sig Kind.scVector Space.vmem Cert.KernelIdeal.S8192 EltTy.f32)

/-- Vector subcore `(L 0, L 1)` of device `d`, as the body table names its thread. -/
abbrev thr (d : Dev nD) (L : grid1.Coords) : Thread nD τ := V d ((L 0).castLE hcore1) ((L 1).castLE hsub1)

/-- The worker number of subcore `(c, s)`: `2 s + c`, below 32. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-- The arrays of device `d` the kernel touches, as the TensorCore names them: the flat indices, the 10000 × 128 pair
    table, the padded 3304-word third-core table, the flat result. -/
abbrev idxLoc (d : Dev nD) : Loc nD τ sig := (SparseCore.T d).loc main_v22
abbrev ptLoc (d : Dev nD) : Loc nD τ sig := (SparseCore.T d).loc main_v15
abbrev ctLoc (d : Dev nD) : Loc nD τ sig := (SparseCore.T d).loc main_v21
abbrev outLoc (d : Dev nD) : Loc nD τ sig := (SparseCore.T d).loc main_v23

end Cert.Proof.KI

end
-- ==== Proof.TileSpec.lean ====
/-
  What one vector subcore leaves in the flat result, for any float instance, in the kernel's own order of operations.

  Token t (a position in the flat index array, word n) is handled in lane l = t % 16 of its group of sixteen. For
  output column e = 4 q + j (q in [0,16), j in [0,4)) the lane adds eight products, rank index r₂ = (l + r) % 8 for
  r = 0..7 — the lane's rotation of the rank axis —, paired (r, r + 4) and then summed pairwise:
    ((p₀ + p₄) + (p₁ + p₅)) + ((p₂ + p₆) + (p₃ + p₇)),
    p_r = PT[n / 100, 8 q + r₂] · CT[33 (n % 100) + 4 r₂ + j],
  where PT is the 10000 × 128 table of first-two-core products and CT the third core laid out 33 words a digit.
  Subcore w (of 32) owns tokens [13312 w, 13312 (w + 1)).
-/
import Idealize.ShloMosaic.PureOps
import Idealize.ShloMosaic.Lib.ValueIdx

noncomputable section

namespace Cert.Proof.TileSpec

open Idealize.ShloMosaic Idealize.ShloMosaic.ValueIdx

abbrev SIX : Shape := ⟨1, ![425984]⟩
abbrev SPT : Shape := ⟨2, ![10000, 128]⟩
abbrev SCT : Shape := ⟨1, ![3304]⟩
abbrev SO : Shape := ⟨1, ![27262976]⟩

variable {F : FTy → Type} [FloatOps F]

/-- The product the lane forms for rank rotation `r`: indices reduced modulo their extents so that the term is total
    (in range they are the identity: n12 < 10000, n3 < 100, q < 16, j < 4). -/
def prod (fp : Vec F SPT .f32) (fc : Vec F SCT .f32) (n12 n3 l q j r : ℕ) : F .f32 :=
  FloatOps.mulf
    (fp (ix2 (⟨n12 % 10000, Nat.mod_lt _ (by decide)⟩ : Fin 10000) (⟨(8 * q + (l + r) % 8) % 128, Nat.mod_lt _ (by decide)⟩ : Fin 128)))
    (fc (ix1 (⟨(33 * n3 + 4 * ((l + r) % 8) + j) % 3304, Nat.mod_lt _ (by decide)⟩ : Fin 3304)))

/-- The lane's sum of the eight products, in the kernel's order. -/
def lane (fp : Vec F SPT .f32) (fc : Vec F SCT .f32) (n12 n3 l q j : ℕ) : F .f32 :=
  FloatOps.addf
    (FloatOps.addf (FloatOps.addf (prod fp fc n12 n3 l q j 0) (prod fp fc n12 n3 l q j 4))
      (FloatOps.addf (prod fp fc n12 n3 l q j 1) (prod fp fc n12 n3 l q j 5)))
    (FloatOps.addf (FloatOps.addf (prod fp fc n12 n3 l q j 2) (prod fp fc n12 n3 l q j 6))
      (FloatOps.addf (prod fp fc n12 n3 l q j 3) (prod fp fc n12 n3 l q j 7)))

/-- The word the kernel leaves at flat result position `64 t + e` for token `t` whose index word is `n`. -/
def word (fp : Vec F SPT .f32) (fc : Vec F SCT .f32) (n t e : ℕ) : F .f32 :=
  lane fp fc (n / 100) (n % 100) (t % 16) (e / 4) (e % 4)

/-- Subcore `w` has done its work on `f`: each of its 13312 tokens' 64 words holds `word`. -/
def OutOK (fi : IVec SIX 32) (fp : Vec F SPT .f32) (fc : Vec F SCT .f32) (w : ℕ) (f : Vec F SO .f32) : Prop :=
  ∀ (t : Fin 13312) (e : Fin 64),
    f (ix1 (⟨(64 * (13312 * w + t.val) + e.val) % 27262976, Nat.mod_lt _ (by decide)⟩ : Fin 27262976))
      = word fp fc (fi (ix1 (⟨(13312 * w + t.val) % 425984, Nat.mod_lt _ (by decide)⟩ : Fin 425984))).toNat (13312 * w + t.val) e.val

end Cert.Proof.TileSpec

end
-- ==== Proof.Hundredth.lean ====
/-
  The one arithmetic fact the kernel's digit split rests on, stated for any float instance: for an index word
  n in [0, 10⁶), the integer part of (n + 1/2) · c is n / 100, where c is the kernel's constant for one hundredth.
  Over the reals c = 1/100 and (n + 1/2)/100 lies strictly between n / 100 and n / 100 + 1; in binary32, c is the
  nearest word below 1/100 and the rounded product still lies in that interval.
-/
import Idealize.ShloMosaic.PureOps

namespace Cert.Proof.Hundredth

open Idealize.ShloMosaic

/-- With `c` for one hundredth: on every index word in range the lane computation
    `fptosi ((sitofp n + 0.5) · c)` is the quotient `n / 100`. -/
def OK (F : FTy → Type) [FloatOps F] (c : F .f32) : Prop :=
  ∀ v : BitVec 32, 0 ≤ v.toInt → v.toInt ≤ 999999 →
    FloatOps.fptosi (F := F) 32 (FloatOps.mulf (FloatOps.addf (FloatOps.sitofp .f32 v) (Scalar.ofBits .f32 0x3F000000#32)) c)
      = BitVec.ofNat 32 (v.toNat / 100)

end Cert.Proof.Hundredth
-- ==== Proof.TileIface.lean ====
import proofs.«207215_g13752485282153_cont_week2b_1454_30_alg».proof.Proof.Common
import proofs.«207215_g13752485282153_cont_week2b_1454_30_alg».proof.Proof.TileSpec
import proofs.«207215_g13752485282153_cont_week2b_1454_30_alg».proof.Proof.Hundredth

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

open Idealize.ShloMosaic.Transfers (shareTok)

/-- Subcore `(c, s)` as the kernel's grid coordinates. -/
def coordsV (c : Fin (grid1.bound 0)) (s : Fin (grid1.bound 1)) : grid1.Coords :=
  fun | 0 => c | 1 => s | ⟨_ + 2, h⟩ => absurd h (Nat.not_lt.2 (Nat.le_add_left _ _))

theorem oRect_inb (L : grid1.Coords) : ∀ a, (![851968 * wid L] : Fin 1 → Nat) a + (![851968] : Fin 1 → Nat) a ≤ S27262976.size a := by
  have h := wid_lt L
  intro a; fin_cases a; simp; omega

/-- The words of the flat result subcore `L` owns: `[851968 w, 851968 (w + 1))`, `w` its worker number. -/
abbrev oRect (L : grid1.Coords) : Rect S27262976 := Rect.unit (s := S27262976) ![851968 * wid L] ![851968] (oRect_inb L)
abbrev oSet (L : grid1.Coords) : Finset S27262976.Idx := ((outW).view.slice (oRect L)).set

/-- The kernel's constant for one hundredth, as the idealized program prints it. -/
abbrev c100 : F .f32 := Named.named κ "inv_100" 0x3C23D70A#32

section Tile

variable (d : Dev nD)
variable (fi : Buf (Elt F) (idxLoc d)) (fp : Buf (Elt F) (ptLoc d)) (fc : Buf (Elt F) (ctLoc d)) (fo : Buf (Elt F) (outLoc d))

/-- What the call hands subcore `L`: a read share of the indices, of the pair table and of the third-core table (one
    of 32 tokens of the full share each), and its own words of the result. -/
def goP (L : grid1.Coords) : sProp 𝕄 :=
  iprop((idxLoc d ↦{shareTok fullShare 32 ⟨wid L, wid_lt L⟩} fi) ∗ (ptLoc d ↦{shareTok fullShare 32 ⟨wid L, wid_lt L⟩} fp)
    ∗ (ctLoc d ↦{shareTok fullShare 32 ⟨wid L, wid_lt L⟩} fc) ∗ (outLoc d ↦[oSet L]{fullShare} fo))

/-- What subcore `L` hands back: the three read shares, and its words of the result holding the kernel's words. -/
def tdP (L : grid1.Coords) : sProp 𝕄 :=
  iprop((idxLoc d ↦{shareTok fullShare 32 ⟨wid L, wid_lt L⟩} fi) ∗ (ptLoc d ↦{shareTok fullShare 32 ⟨wid L, wid_lt L⟩} fp)
    ∗ (ctLoc d ↦{shareTok fullShare 32 ⟨wid L, wid_lt L⟩} fc)
    ∗ ∃ f : Buf (Elt F) (outLoc d), (outLoc d ↦[oSet L]{fullShare} f) ∗ ⌜TileSpec.OutOK (F := F) fi fp fc (wid L) f⌝)

end Tile

variable (F) in
/-- The kernel on a vector subcore: on every device `d`, for any contents of the four arrays with the index words in
    `[0, 999999]`, subcore `L`, from its share of the inputs, its words of the result and its own scratch and
    semaphores, runs to the end and leaves the kernel's words in its part of the result. -/
def TileBodyOK : Prop :=
  ∀ (d : Dev nD) (fi : Buf (Elt F) (idxLoc d)) (fp : Buf (Elt F) (ptLoc d)) (fc : Buf (Elt F) (ctLoc d)) (fo : Buf (Elt F) (outLoc d))
    (_ : Hundredth.OK F (c100 (F := F))) (_ : ∀ j, 0 ≤ (fi j).toInt ∧ (fi j).toInt ≤ 999999)
    (_ : (K (F := F)).Facts) (L : grid1.Coords) (O : CellTallies nD τ sig (HIx 1)) (W : Waits sig (HIx 1)) (_ : ∀ g, O g none = 0),
    iprop(levAts (K (F := F)).L (K (F := F)).lev ∗ emp ∗ goP d fi fp fc fo L
        ∗ scopedBufs (thr d L) ∗ scopedSems0 (thr d L) ∗ owes (thr d L) O W)
      ⊢ wp frame (wpE (defs₀ (F := F)) 𝒱₀ (thr d L) none) Set.univ
          (cc1__sc_lookup L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1)
          fun _ => iprop(tdP d fi fp fc L ∗ scopedBufs (thr d L) ∗ scopedSems0 (thr d L)
            ∗ ∃ W', ⌜∀ p ∈ W', p ∈ W ∨ p.2 = none⌝ ∗ owes (thr d L) O W')

end Cert.Proof.KI

end
-- ==== Proof.Region.lean ====
/-
  The matrix product on the TensorCore inside the idealized program: one pallas_call without a grid, its two operands
  (the 100 × 32 first core and the 32 × 12800 identity-times-second-core matrix) staged whole into the core's memory,
  multiplied into zeros, and the 100 × 12800 product staged whole back. The body loads the two staged operands and
  stores their product; the pipeline's three staging cells wait at the index of no call, level zero, below the start
  signals the TensorCore owes the SparseCores throughout. From the arrays at contents V the region leaves the product's
  array at the product of V's two operands and every other array as it was.
-/
import proofs.«207215_g13752485282153_cont_week2b_1454_30_alg».proof.Proof.Common
import proofs.«207215_g13752485282153_cont_week2b_1454_30_alg».proof.Proof.TileSpec
import proofs.«207215_g13752485282153_cont_week2b_1454_30_alg».proof.Proof.Hundredth
import proofs.«207215_g13752485282153_cont_week2b_1454_30_alg».proof.Proof.Gen.KernelIdeal.Launch
import proofs.«207215_g13752485282153_cont_week2b_1454_30_alg».proof.Proof.Gen.KernelIdeal.Points
import Idealize.ShloMosaic.Lib.Pipeline.Regions
import Idealize.ShloMosaic.Lib.Pipeline.Frame
import Idealize.ShloMosaic.Lib.Pipeline.FrameBody

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

open Idealize.ShloMosaic.Transfers (shareTok)

/-- The pipeline's rounds: the middle factor of the ghost state. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance
/-- What the launch leaves the TensorCore for the region: the staging cells' ghost state and the transfers' duty tokens. -/
def G (d : Dev nD) : sProp 𝕄 :=
  iprop(Pipeline.cellsGhost cfgs EP 0 d ∗ Pipeline.toksInit cfgs EP 0 d)
/-- The TensorCore's arrays. -/
abbrev UC : Finset (DevRef τ sig) := Pipeline.ucRefs τ sig
abbrev v1' : DevRef τ sig := Proc.devRef .tc (main_v1 : Ref sig .tc)
abbrev v13' : DevRef τ sig := Proc.devRef .tc (main_v13 : Ref sig .tc)
abbrev v14' : DevRef τ sig := Proc.devRef .tc (main_v14 : Ref sig .tc)

/-- No prefetched table. -/
abbrev adm : (p : Fin 1) → (pcfgs (F := F) p).Adm := fun p => (cfgs p).toPCfg_adm

section Region

variable (V : Valuation τ sig (Elt F))

/-- The matrix product's proof data on core `c`: the operands' arrays and the result's at `V`; after the one point the
    operands' staging buffers hold the operands and the result's the product; nothing kept between points; the
    TensorCore owes its start signals throughout, its recorded pairs all at level zero. -/
def pdat (c : Dev nD) : Pipeline.Dat τ (Elt F) (HIx 1) ℕ UU ℕ cfg0 c where
  A := fun (w : Fin 3) => match w with
    | 0 => V v1'
    | 1 => V v13'
    | 2 => V v14'
    | ⟨_ + 3, h⟩ => absurd h (Nat.not_lt.2 (Nat.le_add_left _ _))
  after := fun (w : Fin 3) _ => match w with
    | 0 => V v1'
    | 1 => V v13'
    | 2 => k0_pay1 (V v1') (V v13')
    | ⟨_ + 3, h⟩ => absurd h (Nat.not_lt.2 (Nat.le_add_left _ _))
  Φ := fun _ => iprop(emp)
  q := fun _ => fullShare
  owed := fun _ => (K (F := F)).Otc c 0
  recorded := fun _ => {p | (K (F := F)).lev (SparseCore.T c, p.1) p.2 ≤ 0}

abbrev pdats : (p : Fin 1) → (c : Dev nD) → Pipeline.Dat τ (Elt F) (HIx 1) ℕ UU ℕ (Pipeline.pin (pcfgs (F := F)) adm p) c :=
  fun _ c => pdat V c

theorem Otc_none (c : Dev nD) (n : ℕ) (g : GSem nD τ sig) : (K (F := F)).Otc c n g none = 0 := by
  by_contra h
  have := SparseCore.Cfg.lev_of_Otc_pos (K := K (F := F)) (Nat.pos_of_ne_zero h); rw [SparseCore.Cfg.lev_none] at this; omega

omit [FloatOps F] [Named F] in
/-- A unit-stride rectangle from the origin over a whole shape indexes it as the shape does. -/
theorem rect_full_emb {S : Shape} (off : Fin S.rank → ℕ) (hoff : ∀ a, off a = 0) (inb : ∀ a, off a + S.size a ≤ S.size a) (j : S.Idx) :
    (Rect.unit (s := S) off S.size inb).emb j = j := by
  funext a; apply Fin.ext
  rw [Rect.emb_apply]
  show off a + 1 * (j a).val = (j a).val
  rw [hoff a]; omega

omit [FloatOps F] [Named F] in
theorem rect_full_idx {S : Shape} (off : Fin S.rank → ℕ) (hoff : ∀ a, off a = 0) (inb : ∀ a, off a + S.size a ≤ S.size a) (j : S.Idx) :
    (Rect.unit (s := S) off S.size inb).toLoadRect.idx j = j := by
  funext a; apply Fin.ext
  rw [LoadRect.idx_apply]
  show off a + 1 * (j a).val = (j a).val
  rw [hoff a]; omega

omit [FloatOps F] [Named F] in
theorem zero2_apply (a : Fin 2) : (![0, 0] : Fin 2 → ℕ) a = 0 := by fin_cases a <;> rfl

/-- The matrix product's body on any three whole staging memrefs: it loads the two operands, stores the product. -/
theorem body_any (c : Dev nD) (M0 : Memref sig .tc .vmem S100x32 .f32) (h0 : M0.IsWhole) (M1 : Memref sig .tc .vmem S32x12800 .f32) (h1 : M1.IsWhole)
    (M2 : Memref sig .tc .vmem S100x12800 .f32) (h2 : M2.IsWhole) (X0 : S100x32.Idx → Elt F .f32) (X1 : S32x12800.Idx → Elt F .f32) (R : sProp 𝕄) :
    iprop(R ∗ owns (c.tc : Thread nD τ) M0 fullShare X0 ∗ owns (c.tc : Thread nD τ) M1 fullShare X1 ∗ ∃ d, owns (c.tc : Thread nD τ) M2 fullShare d)
      ⊢ wp frame (wpE (defs₀ (F := F)) 𝒱₀ (c.tc : Thread nD τ) none) Set.univ (cc0_body M0 h0 M1 h1 M2 h2) fun _ =>
          iprop(R ∗ owns (c.tc : Thread nD τ) M0 fullShare X0 ∗ owns (c.tc : Thread nD τ) M1 fullShare X1 ∗ owns (c.tc : Thread nD τ) M2 fullShare (k0_pay1 X0 X1)) := by
  rw [cc0_body_eq_skeleton]; unfold cc0_body_skel
  unfold owns
  iintro ⟨HR, ⟨%f0, %e0, H0⟩, ⟨%f1, %e1, H1⟩, %d2, %f2, %e2, H2⟩
  have hr0 : View.readAt (Elt F) M0.view (Rect.unit ![0, 0] S100x32.size inb_S100x32_S100x32_0_0).toLoadRect f0 = X0 := by
    rw [← e0]; funext x
    rw [View.readAt_apply, rect_full_idx (S := S100x32) _ zero2_apply]
  have hr1 : View.readAt (Elt F) M1.view (Rect.unit ![0, 0] S32x12800.size inb_S32x12800_S32x12800_0_0).toLoadRect f1 = X1 := by
    rw [← e1]; funext x
    rw [View.readAt_apply, rect_full_idx (S := S32x12800) _ zero2_apply]
  sl_exec
  rw [wp_ret]; imodintro
  isplitl [HR]; · iexact HR
  isplitl [H0]
  · iexists f0; isplitr
    · ipureintro; exact e0
    · iexact H0
  isplitl [H1]
  · iexists f1; isplitr
    · ipureintro; exact e1
    · iexact H1
  iexists (M2.view.writes (Elt F) f2 [⟨Rect.unit ![0, 0] S100x12800.size inb_S100x12800_S100x12800_0_0, k0_pay1 X0 X1⟩]); isplitr
  · ipureintro; funext x
    have h := View.read_writes_cons_emb (v := M2.view) (f := f2) (Rect.unit ![0, 0] S100x12800.size inb_S100x12800_S100x12800_0_0) (k0_pay1 X0 X1) [] x
    rwa [rect_full_emb (S := S100x12800) _ zero2_apply] at h
  · iexact H2

/-- What the pipeline hands the body in the first operand's staging buffer: the operand. -/
theorem before0 (c : Dev nD) (d : S100x32.Idx → Elt F .f32) : (pdat V c).before 0 t0_0 d = V v1' := by
  unfold Pipeline.Dat.before
  rw [if_pos (fetch0_0 t0_0)]
  refine ((pdat V c).cut_fetched 0 t0_0 d).trans ?_
  funext x
  unfold Pipeline.Dat.blockOf
  rw [View.read_apply]
  exact congrArg (V v1') (rect_full_emb (S := S100x32) (fun a => 0 * S100x32.size a) (fun a => Nat.zero_mul _) _ x)

theorem before1 (c : Dev nD) (d : S32x12800.Idx → Elt F .f32) : (pdat V c).before 1 t0_0 d = V v13' := by
  unfold Pipeline.Dat.before
  rw [if_pos (fetch0_1 t0_0)]
  refine ((pdat V c).cut_fetched 1 t0_0 d).trans ?_
  funext x
  unfold Pipeline.Dat.blockOf
  rw [View.read_apply]
  exact congrArg (V v13') (rect_full_emb (S := S32x12800) (fun a => 0 * S32x12800.size a) (fun a => Nat.zero_mul _) _ x)

theorem body_obl (c : Dev nD) : Pipeline.BodyObligationLoose (pdat V c) (defs₀ (F := F)) 𝒱₀ (none : HIx 1) Set.univ := by
  intro t
  have ht : t = t0_0 := fin_N0 t
  subst ht
  show iprop(_ ∗ _ ∗ bigSep Finset.univ _) ⊢ wp frame _ _ (bodyAt0 t0_0) _
  simp only [bigSep_W0, before0, before1]
  have h := body_any (F := F) c (stage0_0 0) (hstage0_0 0) (stage0_1 0) (hstage0_1 0) (stage0_2 0) (hstage0_2 0) (V v1') (V v13')
    ((pdat V c).owesAt none t0_0.castSucc)
  refine BI.Entails.trans ?_ (h.trans (wp_mono frame _ _ fun _ => ?_))
  · show (_ : sProp 𝕄) ⊢ _
    iintro ⟨-, HO, ⟨%d0, H0⟩, ⟨%d1, H1⟩, H2⟩
    isplitl [HO]; · iexact HO
    isplitl [H0]; · iexact H0
    isplitl [H1]; · iexact H1
    iexact H2
  · show (_ : sProp 𝕄) ⊢ _
    iintro ⟨HO, H0, H1, H2⟩
    isplitr; · iapply (Entails.of_eq (show (iprop(emp) : sProp 𝕄) = (pdat V c).Φ t0_0.succ from rfl)); iempintro
    isplitl [HO]
    · iapply (Entails.of_eq (show ((pdat V c).owesAt none t0_0.castSucc : sProp 𝕄) = (pdat V c).owesAt none t0_0.succ from rfl)); iexact HO
    isplitl [H0]; · iexact H0
    isplitl [H1]; · iexact H1
    iexact H2

abbrev S3 : Finset (DevRef τ sig) := {v1', v13', v14'}
theorem S3_sub : S3 ⊆ UC := by decide

omit [FloatOps F] [Named F] in
theorem held_S3 (c : Dev nD) (W : Valuation τ sig (Elt F)) :
    (held (SparseCore.T c) S3 W : sProp 𝕄)
      = iprop(((SparseCore.T c).loc main_v1 ↦{fullShare} W v1') ∗ ((SparseCore.T c).loc main_v13 ↦{fullShare} W v13') ∗ ((SparseCore.T c).loc main_v14 ↦{fullShare} W v14')) := by
  unfold held S3
  rw [SparseCore.bigSep_insert' (by decide), SparseCore.bigSep_insert' (by decide), bigSep_singleton]

/-- The pipeline's three arrays, one by one. -/
theorem arrays_eq3 (c : Dev nD) (G' : (w : Fin cfg0.W) → Buf (Elt F) ((cfg0.win w).arr.view.loc (c.tc : Thread nD τ))) :
    ((pdat V c).arrays G' : sProp 𝕄)
      = iprop(((SparseCore.T c).loc main_v1 ↦{fullShare} G' 0) ∗ ((SparseCore.T c).loc main_v13 ↦{fullShare} G' 1) ∗ ((SparseCore.T c).loc main_v14 ↦{fullShare} G' 2)) := by
  unfold Pipeline.Dat.arrays
  rw [bigSep_W0]
  simp only [Memref.view_whole, View.set_whole]
  rfl

omit [FloatOps F] [Named F] in
theorem held_upd (c : Dev nD) (X : v14'.ty.Contents (Elt F)) : (held (SparseCore.T c) UC (Function.update V v14' X) : sProp 𝕄)
    = iprop((((SparseCore.T c).loc main_v1 ↦{fullShare} V v1') ∗ ((SparseCore.T c).loc main_v13 ↦{fullShare} V v13') ∗ ((SparseCore.T c).loc main_v14 ↦{fullShare} X))
        ∗ held (SparseCore.T c) (UC \ S3) V) := by
  rw [StableHlo.held_sub_split (SparseCore.T c) S3_sub, held_S3, Function.update_of_ne (show v1' ≠ v14' by decide), Function.update_of_ne (show v13' ≠ v14' by decide), Function.update_self,
    StableHlo.held_congr (SparseCore.T c) (S := UC \ S3) (V := Function.update V v14' X) (V' := V) fun b hb =>
      Function.update_of_ne (show b ≠ v14' from fun e => (Finset.mem_sdiff.mp hb).2 (e ▸ (by decide : v14' ∈ S3))) _ _]

omit [FloatOps F] [Named F] in
/-- Writing every element through a unit-stride rectangle from the origin over a whole buffer replaces its contents. -/
theorem write_full {κ : Kind} (b : Ref sig κ) (off : Fin b.ty.shape.rank → ℕ) (hoff : ∀ a, off a = 0) (inb : ∀ a, off a + b.ty.shape.size a ≤ b.ty.shape.size a)
    (f w : b.ty.Contents (Elt F)) :
    ((View.whole b).slice (Rect.unit off b.ty.shape.size inb)).write (Elt F) f w Finset.univ = w := by
  funext i
  have h := View.write_emb_of_mem (v := (View.whole b).slice (Rect.unit off b.ty.shape.size inb)) f w (Finset.mem_univ i)
  rw [View.emb_slice, Function.Embedding.trans_apply, View.emb_whole, Function.Embedding.refl_apply, rect_full_emb _ hoff] at h
  exact h

theorem N_one : (Pipeline.pin (pcfgs (F := F)) adm 0).N = 1 := N_0

theorem arrAt_0 (c : Dev nD) : (pdat V c).arrAt 0 (Pipeline.pin (pcfgs (F := F)) adm 0).N = V v1' := by
  rw [N_one]
  show (pdat V c).arrAt 0 (0 + 1) = _
  rw [Pipeline.Dat.arrAt]
  have hfl : ∀ t : Fin cfg0.N, (cfg0.win 0).flush t = false := (by decide +kernel : ∀ t : Fin grid0.N, win0_0.flush t = false)
  simp only [hfl, Bool.false_eq_true, if_false, dite_eq_ite, ite_self]
  rfl

theorem arrAt_1 (c : Dev nD) : (pdat V c).arrAt 1 (Pipeline.pin (pcfgs (F := F)) adm 0).N = V v13' := by
  rw [N_one]
  show (pdat V c).arrAt 1 (0 + 1) = _
  rw [Pipeline.Dat.arrAt]
  have hfl : ∀ t : Fin cfg0.N, (cfg0.win 1).flush t = false := (by decide +kernel : ∀ t : Fin grid0.N, win0_1.flush t = false)
  simp only [hfl, Bool.false_eq_true, if_false, dite_eq_ite, ite_self]
  rfl

theorem arrAt_2 (c : Dev nD) : (pdat V c).arrAt 2 (Pipeline.pin (pcfgs (F := F)) adm 0).N = k0_pay1 (V v1') (V v13') := by
  rw [N_one]
  show (pdat V c).arrAt 2 (0 + 1) = _
  rw [Pipeline.Dat.arrAt, dif_pos (show 0 < cfg0.N by decide), if_pos (flush0_2 _)]
  exact write_full (main_v14 : Ref sig .tc) (fun a => 0 * S100x12800.size a) (fun a => Nat.zero_mul _) _ _ _

def regionSeg : Pipeline.RegionSeg (pcfgs (F := F)) adm (pdats V) (none : HIx 1) (defs₀ (F := F)) 𝒱₀ (K (F := F)).L (K (F := F)).lev 0 where
  win := winFacts0.to₀
  block_pos := block_pos0
  stage_whole := stage_whole0
  K := PEmpty
  osem := fun k => k.elim
  ho := Pipeline.OwnSemFacts.none _
  hbody := fun c => body_obl V c
  hwaits := fun c => Pipeline.cellsWaits_intro (Pipeline.pin (pcfgs (F := F)) adm) (pdats V) (none : HIx 1) 0 c
    fun w s t => (K (F := F)).mayWait_none _ (Otc_none c 0)
  pre := fun c => iprop(held (SparseCore.T c) UC V ∗ ∃ W, ⌜(K (F := F)).WBelow (SparseCore.T c) W 0⌝ ∗ owes (SparseCore.T c) ((K (F := F)).Otc c 0) W)
  post := fun c => iprop(held (SparseCore.T c) UC (Function.update V v14' (k0_pay1 (V v1') (V v13')))
    ∗ ∃ W, ⌜(K (F := F)).WBelow (SparseCore.T c) W 0⌝ ∗ owes (SparseCore.T c) ((K (F := F)).Otc c 0) W)
  X := fun _ => iprop(emp)
  Y := fun _ => iprop(emp)
  Z := fun c => held (SparseCore.T c) (UC \ S3) V
  hentry := fun c => by
    iintro ⟨⟨Hheld, %W, %hW, HO⟩, -, -⟩
    imodintro
    ihave Hh := (Entails.of_eq (StableHlo.held_sub_split (SparseCore.T c) S3_sub V)) $$ Hheld
    icases Hh with ⟨H3, Hrest⟩
    ihave H3' := (Entails.of_eq (held_S3 c V)) $$ H3
    isplitl [H3']
    · iapply (Entails.of_eq (arrays_eq3 V c _).symm); iexact H3'
    isplitr
    · unfold Pipeline.prefHeld; rw [Finset.univ_eq_empty, bigSep_empty]; iempintro
    isplitl [HO]
    · iexists W; isplitr
      · ipureintro; exact fun p hp => Or.inl (hW p hp)
      · iexact HO
    isplitr; · iempintro
    iexact Hrest
  hin := fun c => by iintro -; unfold pdats pdat; iempintro
  hout := fun c => by
    rw [Pipeline.ownSems0_none nD τ sig (Elt F) (HIx 1) ℕ UU ℕ c,
      show (Pipeline.scopedRest (Ix := HIx 1) (Name := ℕ) (U := UU) (Lvl := ℕ) (Val := Elt F) (Pipeline.pin (pcfgs (F := F)) adm 0).spec c : sProp 𝕄) = BI.emp from scopedRest0_eq c]
    iintro -
    isplitr; · iempintro
    isplitr <;> iempintro
  hexit := fun c => by
    iintro ⟨Harr, ⟨%W, %hW, HO⟩, -, Hrest⟩
    imodintro
    ihave H3 := (Entails.of_eq (arrays_eq3 V c _)) $$ Harr
    isplitl [H3 Hrest]
    · iapply (Entails.of_eq (held_upd V c _).symm)
      isplitl [H3]
      · rw [show (pdats V 0 c).arrAt 0 (Pipeline.pin (pcfgs (F := F)) adm 0).N = V v1' from arrAt_0 V c,
          show (pdats V 0 c).arrAt 1 (Pipeline.pin (pcfgs (F := F)) adm 0).N = V v13' from arrAt_1 V c,
          show (pdats V 0 c).arrAt 2 (Pipeline.pin (pcfgs (F := F)) adm 0).N = k0_pay1 (V v1') (V v13') from arrAt_2 V c]
        iexact H3
      · iexact Hrest
    iexists W; isplitr
    · ipureintro; intro p hp
      rcases hW (Finset.mem_coe.mpr hp) with h | ⟨w, s, rfl⟩
      · exact h
      · exact Nat.le_of_eq rfl
    · iexact HO

theorem regionSeg_pre (c : Dev nD) : ((regionSeg V).pre c : sProp 𝕄)
    = iprop(held (SparseCore.T c) UC V ∗ ∃ W, ⌜(K (F := F)).WBelow (SparseCore.T c) W 0⌝ ∗ owes (SparseCore.T c) ((K (F := F)).Otc c 0) W) := rfl
theorem regionSeg_post (c : Dev nD) : ((regionSeg V).post c : sProp 𝕄)
    = iprop(held (SparseCore.T c) UC (Function.update V v14' (k0_pay1 (V v1') (V v13')))
        ∗ ∃ W, ⌜(K (F := F)).WBelow (SparseCore.T c) W 0⌝ ∗ owes (SparseCore.T c) ((K (F := F)).Otc c 0) W) := rfl

/-- The matrix product on the TensorCore: its two operands staged in, the product staged out; the TensorCore owes its
    start signals throughout. -/
theorem hregion [∀ e, Nonempty (Elt F e)] (d : Dev nD) (W : Waits sig (HIx 1)) (hW : (K (F := F)).WBelow (SparseCore.T d) W 0)
    (Φ : PUnit → sProp 𝕄) :
    iprop(levAts (K (F := F)).L (K (F := F)).lev ∗ boundary (SparseCore.T d) ∗ held (SparseCore.T d) UC V
        ∗ owes (SparseCore.T d) ((K (F := F)).Otc d 0) W ∗ G (F := F) d
        ∗ ((boundary (SparseCore.T d) ∗ held (SparseCore.T d) UC (Function.update V v14' (k0_pay1 (V v1') (V v13')))
            ∗ ∃ W', ⌜(K (F := F)).WBelow (SparseCore.T d) W' 0⌝ ∗ owes (SparseCore.T d) ((K (F := F)).Otc d 0) W') -∗ Φ ⟨⟩))
      ⊢ wp frame (wpE ((K (F := F)).defs (D (F := F))) 𝒱 (SparseCore.T d) none) Set.univ
          (Prog.lift (.customCall (SparseCore.inner (Pipeline.entry 0)) ())) Φ := by
  have hl : (SparseCore.liftProg (Q := 1) (Prog.lift (.customCall (Pipeline.entry (0 : Fin 1)) ()) : Prog (TpuEff nD τ sig (Elt F) (ΛP (F := F)) .tc) PUnit))
      = (Prog.lift (.customCall (SparseCore.inner (Pipeline.entry 0)) ()) : Prog (TpuEff nD τ sig (Elt F) (SparseCore.Sig (ΛP (F := F)) 1) .tc) PUnit) := rfl
  rw [← hl]
  refine BI.Entails.trans ?_ ((K (F := F)).wp_liftProg (D (F := F)) 𝒱 (SparseCore.T d) Set.univ none
    (Prog.lift (.customCall (Pipeline.entry (0 : Fin 1)) ()) : Prog (TpuEff nD τ sig (Elt F) (ΛP (F := F)) .tc) PUnit) Φ)
  show (_ : sProp 𝕄) ⊢ _
  unfold G
  iintro ⟨#Hlev, Hb, Hheld, HO, ⟨Hg, Ht⟩, Hk⟩
  iapply (Pipeline.RegionSeg.wp (pcfgs (F := F)) adm (pdats V) (none : HIx 1) cellOf_inj (EP : Emb UP 𝕄) (defs₀ (F := F)) 𝒱₀
    (K (F := F)).L (K (F := F)).lev (regionSeg V) d none (fun u h => nomatch h) (fun _ => .ret ⟨⟩) Φ) $$ [Hb Hheld HO Hg Ht Hk]
  isplitl [Hk]
  · iintro ⟨Hb, Hpost⟩
    rw [wp_ret]; imodintro
    iapply Hk
    isplitl [Hb]; · iexact Hb
    iapply (Entails.of_eq (regionSeg_post V d)); iexact Hpost
  isplitl [Hb]; · iexact Hb
  isplitl [Hheld HO]
  · iapply (Entails.of_eq (regionSeg_pre V d).symm)
    isplitl [Hheld]; · iexact Hheld
    iexists W; isplitr
    · ipureintro; exact hW
    · iexact HO
  isplitr; · iexact Hlev
  isplitl [Hg]; · iexact Hg
  iexact Ht

end Region

end Cert.Proof.KI

end
-- ==== Proof.Launch.lean ====
/-
  The launch of the idealized kernel program: from one vector subcore's body to the run of the whole program. The
  call hands each of the 32 subcores a read share of the flat indices, of the pair table and of the third-core table,
  and its own 851968 words of the flat result; a SparseCore's payload is its sixteen subcores' payloads side by side.
  @main on the TensorCore computes the pair table (host operations and one matrix product on the TensorCore, its
  operands and result staged through the core's own memory), the padded third-core table and the flat indices, deals
  the shares, starts the SparseCores and waits for them, and reshapes the flat result.
-/
import proofs.«207215_g13752485282153_cont_week2b_1454_30_alg».proof.Proof.Common
import proofs.«207215_g13752485282153_cont_week2b_1454_30_alg».proof.Proof.TileSpec
import proofs.«207215_g13752485282153_cont_week2b_1454_30_alg».proof.Proof.Hundredth
import proofs.«207215_g13752485282153_cont_week2b_1454_30_alg».proof.Proof.TileIface
import proofs.«207215_g13752485282153_cont_week2b_1454_30_alg».proof.Proof.Region
import proofs.«207215_g13752485282153_cont_week2b_1454_30_alg».proof.Proof.Gen.KernelIdeal.Launch
import proofs.«207215_g13752485282153_cont_week2b_1454_30_alg».proof.Proof.Gen.KernelIdeal.Points
import Idealize.ShloMosaic.Lib.Pipeline.Regions
import Idealize.ShloMosaic.Lib.Pipeline.Frame

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

open Idealize.ShloMosaic.Transfers (shareTok)

/-! ## The configuration's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid1.bound 0 := rfl
theorem nSub_zero : (K (F := F)).nSub 0 = grid1.bound 1 := rfl

/-- Subcore `(c, s)` of the call's grid as the kernel's coordinates. -/
def cLof (c : Fin ((K (F := F)).nCore 0)) (i : Fin ((K (F := F)).nSub 0)) : grid1.Coords :=
  coordsV (Fin.cast nCore_zero c) (Fin.cast nSub_zero i)

/-! ## The launch memory, and what @main hands the kernel -/

variable (m : (ℓ : Loc nD τ sig) → Buf (Elt F) ℓ) (ρ : Dev nD → PrngReg)

/-- What the proof asks of the launch memory: every index word is in `[0, 999999]`. -/
def PreOK : Prop := ∀ (d : Dev nD) j, 0 ≤ (m ((SparseCore.T d).loc main_arg0) j).toInt ∧ (m ((SparseCore.T d).loc main_arg0) j).toInt ≤ 999999

/-- The flat indices: the index array reshaped. -/
def idxAt (d : Dev nD) : Buf (Elt F) (idxLoc d) :=
  shapeCast S425984 (m ((SparseCore.T d).loc main_arg0)) shapeCasts_S16384x26_S425984

/-- The left operand of the matrix product: the first core as a 100 × 32 matrix. -/
def lhsAt (d : Dev nD) : Vec F S100x32 .f32 :=
  shapeCast S100x32 (shapeCast S100x4x8 (m ((SparseCore.T d).loc main_arg1)) shapeCasts_S1x100x4x8_S100x4x8) shapeCasts_S100x4x8_S100x32

/-- The 4 × 4 identity as the host computes it. -/
def eyeAt : Vec F S4x4 .f32 :=
  uitofp .f32 (cmpi .eq (addi (iotaInDim S4x4 32 0) (broadcastInDim S4x4 ![] bcast_S_S4x4 (constantI S_ 32 0#32))) (iotaInDim S4x4 32 1))

/-- The right operand: the identity times the second core, as a 32 × 12800 matrix. -/
def rhsAt (d : Dev nD) : Vec F S32x12800 .f32 :=
  shapeCast S32x12800
    (mulf (broadcastInDim S4x8x100x4x4x8 ![0, 1, 2, 3, 4, 5] bcast_S4x1x1x4x1x1_S4x8x100x4x4x8_0_1_2_3_4_5
            (broadcastInDim S4x1x1x4x1x1 ![0, 3] bcast_S4x4_S4x1x1x4x1x1_0_3 (eyeAt (F := F))))
          (broadcastInDim S4x8x100x4x4x8 ![0, 1, 2, 3, 4, 5] bcast_S1x8x100x1x4x8_S4x8x100x4x4x8_0_1_2_3_4_5
            (broadcastInDim S1x8x100x1x4x8 ![1, 2, 4, 5] bcast_S8x100x4x8_S1x8x100x1x4x8_1_2_4_5 (m ((SparseCore.T d).loc main_arg2)))))
    shapeCasts_S4x8x100x4x4x8_S32x12800

/-- The pair table: the matrix product, as 10000 rows of 128. -/
def ptAt (d : Dev nD) : Buf (Elt F) (ptLoc d) :=
  shapeCast S10000x128 (k0_pay1 (lhsAt m d) (rhsAt m d)) shapeCasts_S100x12800_S10000x128

/-- The third-core table: 33 words a digit, four words of padding at the end. -/
def ctAt (d : Dev nD) : Buf (Elt F) (ctLoc d) :=
  pad S3304 ![0] ![4] ![0]
    (shapeCast S3300
      (pad S100x33 ![0, 0] ![0, 1] ![0, 0]
        (shapeCast S100x32 (transpose S100x8x4 [1, 0, 2] (shapeCast S8x100x4 (m ((SparseCore.T d).loc main_arg3)) shapeCasts_S8x100x4x1_S8x100x4) transposes_S8x100x4_S100x8x4_1_0_2)
          shapeCasts_S100x8x4_S100x32)
        (sitofp .f32 (constantI S_ 32 0#32)) pads_S100x32_S100x33_000_010 h_S_)
      shapeCasts_S100x33_S3300)
    (sitofp .f32 (constantI S_ 32 0#32)) pads_S3300_S3304_040 h_S_

/-! ## What the handshakes carry -/

section Payload

variable (fi : (d : Dev nD) → Buf (Elt F) (idxLoc d)) (fp : (d : Dev nD) → Buf (Elt F) (ptLoc d))
  (fc : (d : Dev nD) → Buf (Elt F) (ctLoc d)) (fo : (d : Dev nD) → Buf (Elt F) (outLoc d))

/-- The one call hands SparseCore `c` its sixteen subcores' shares and words, and takes them back. -/
def P : (K (F := F)).Pay (nD := nD) (Val := Elt F) (Name := ℕ) (U := UU) where
  st := fun q d c => match q with
    | 0 => bigSep Finset.univ fun i : Fin ((K (F := F)).nSub 0) => goP d (fi d) (fp d) (fc d) (fo d) (cLof c i)
  dn := fun q d c => match q with
    | 0 => bigSep Finset.univ fun i : Fin ((K (F := F)).nSub 0) => tdP d (fi d) (fp d) (fc d) (cLof c i)
  go := fun q d c i => match q with
    | 0 => goP d (fi d) (fp d) (fc d) (fo d) (cLof c i)
  td := fun q d c i => match q with
    | 0 => tdP d (fi d) (fp d) (fc d) (cLof c i)
  x := fun _ _ => iprop(emp)

instance goP_storable (d : Dev nD) (L : grid1.Coords) : BI.Storable (upEmb : UEmb _ 𝕄) (goP d (fi d) (fp d) (fc d) (fo d) L) := by
  unfold goP; infer_instance
instance tdP_storable (d : Dev nD) (L : grid1.Coords) : BI.Storable (upEmb : UEmb _ 𝕄) (tdP d (fi d) (fp d) (fc d) L) := by
  unfold tdP; infer_instance

instance P_storable : (P (F := F) fi fp fc fo).IsStorable where
  st q d c := match q with | 0 => by unfold P; infer_instance
  dn q d c := match q with | 0 => by unfold P; infer_instance
  go q d c i := match q with | 0 => by unfold P; infer_instance
  td q d c i := match q with | 0 => by unfold P; infer_instance

theorem defs₀_vector (c : Fin τ.nSC) (s : Fin τ.nSub) :
    defs₀ (F := F) (.scVector c s) 1 ()
      = SparseCore.onTile hcore1 hsub1 (fun c s => cc1__sc_lookup (coordsV c s) idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation: the body table's entry for a vector subcore of the grid is the kernel at that subcore's
    coordinates, which the tile body's statement runs. -/
theorem tileObl (htile : TileBodyOK F) (hH : Hundredth.OK F (c100 (F := F))) (hidx : ∀ d j, 0 ≤ (fi d j).toInt ∧ (fi d j).toInt ≤ 999999) :
    (K (F := F)).TileObl (D (F := F)) 𝒱 (P fi fp fc fo) v₀ 0 := by
  intro d c i O W hO _ _
  simp only [show (P fi fp fc fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (fi d) (fp d) (fc d) (fo d) hH (hidx d) facts (coordsV ⟨_, hc.1⟩ ⟨_, hc.2⟩) O W hO).trans (wp_mono frame _ _ fun _ => obl_post)

/-- A SparseCore's payload is its subcores' payloads side by side: the split is the identity. -/
theorem vecSplit : (K (F := F)).VecSplit' (P fi fp fc fo) 0 := by
  intro d c
  show (bigSep Finset.univ fun i : Fin ((K (F := F)).nSub 0) => goP d (fi d) (fp d) (fc d) (fo d) (cLof c i))
    ⊢ |={Set.univ}=> iprop((bigSep Finset.univ fun i : Fin ((K (F := F)).nSub 0) => goP d (fi d) (fp d) (fc d) (fo d) (cLof c i))
      ∗ ((bigSep Finset.univ fun i : Fin ((K (F := F)).nSub 0) => tdP d (fi d) (fp d) (fc d) (cLof c i))
          -∗ bigSep Finset.univ fun i : Fin ((K (F := F)).nSub 0) => tdP d (fi d) (fp d) (fc d) (cLof c i)))
  iintro H; imodintro
  isplitl [H]; · iexact H
  iintro H; iexact H

end Payload

/-- The payload at what @main computes. -/
abbrev PM (fo : (d : Dev nD) → Buf (Elt F) (outLoc d)) := P (F := F) (idxAt m) (ptAt m) (ctAt m) fo

/-! ## Dealing the arrays to the 32 subcores -/

section Deal

variable (d : Dev nD)

/-- Subcore `(c, i)` of the grid, `c` below 2 and `i` below 16. -/
abbrev cL (c : Fin 2) (i : Fin 16) : grid1.Coords := coordsV c i

omit [FloatOps F] [Named F] in
theorem wid_cL (c : Fin 2) (i : Fin 16) : wid (cL c i) = 2 * i.val + c.val := rfl

/-- The subcores by worker number. -/
def widE : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit [FloatOps F] [Named F] in
/-- A family over the 32 workers is one over the grid's subcores. -/
theorem bigSep_workers (Φ : Fin 32 → sProp 𝕄) :
    bigSep Finset.univ Φ = bigSep Finset.univ fun c : Fin 2 => bigSep Finset.univ fun i : Fin 16 => Φ ⟨wid (cL c i), wid_lt _⟩ := by
  rw [bigSep_univ_equiv widE Φ, bigSep_univ_prod]; rfl

omit [FloatOps F] [Named F] in
theorem mem_oSet (L : grid1.Coords) (j : S27262976.Idx) :
    j ∈ oSet L ↔ 851968 * wid L ≤ (j 0).val ∧ (j 0).val < 851968 * wid L + 851968 := by
  show j ∈ ((View.whole (main_v23_scv : Ref sig .scVector)).slice (oRect L)).set ↔ _
  rw [View.set_slice_whole, Rect.mem_set_unit]
  show (∀ a : Fin 1, (![851968 * wid L] : Fin 1 → ℕ) a ≤ (j a).val ∧ (j a).val < (![851968 * wid L] : Fin 1 → ℕ) a + (![851968] : Fin 1 → ℕ) a) ↔ _
  rw [Fin.forall_fin_one]; rfl

omit [FloatOps F] [Named F] in
theorem oSet_disjoint : ∀ p ∈ (Finset.univ : Finset (Fin 2 × Fin 16)), ∀ p' ∈ (Finset.univ : Finset (Fin 2 × Fin 16)), p ≠ p' →
    Disjoint (oSet (cL p.1 p.2)) (oSet (cL p'.1 p'.2)) := by
  intro p _ p' _ hne
  refine Finset.disjoint_left.mpr fun j h1 h2 => ?_
  rw [mem_oSet, wid_cL] at h1 h2
  have h1a := p.1.isLt; have h1b := p'.1.isLt
  apply hne
  refine Prod.ext (Fin.ext ?_) (Fin.ext ?_) <;> omega

omit [FloatOps F] [Named F] in
theorem oSet_cover : (Finset.univ : Finset (Fin 2 × Fin 16)).biUnion (fun p => oSet (cL p.1 p.2)) = Finset.univ := by
  ext j
  simp only [Finset.mem_biUnion, Finset.mem_univ, true_and, iff_true]
  have hj : (j 0).val < 27262976 := (j 0).isLt
  refine ⟨(⟨((j 0).val / 851968) % 2, Nat.mod_lt _ (by decide)⟩, ⟨((j 0).val / 851968) / 2, by omega⟩), ?_⟩
  rw [mem_oSet, wid_cL]
  show 851968 * (2 * (((j 0).val / 851968) / 2) + ((j 0).val / 851968) % 2) ≤ (j 0).val
    ∧ (j 0).val < 851968 * (2 * (((j 0).val / 851968) / 2) + ((j 0).val / 851968) % 2) + 851968
  omega

omit [FloatOps F] [Named F] in
/-- The flat result whole is its 32 parts. -/
theorem out_parts (f : Buf (Elt F) (outLoc d)) :
    (outLoc d ↦{fullShare} f : sProp 𝕄) = bigSep Finset.univ fun c : Fin 2 => bigSep Finset.univ fun i : Fin 16 => outLoc d ↦[oSet (cL c i)]{fullShare} f := by
  rw [← bigSep_univ_prod (fun p : Fin 2 × Fin 16 => (outLoc d ↦[oSet (cL p.1 p.2)]{fullShare} f : sProp 𝕄)),
    ← pointsTo_biUnion Finset.univ (ℓ := outLoc d) (fun p : Fin 2 × Fin 16 => oSet (cL p.1 p.2)) oSet_disjoint, oSet_cover]

omit [FloatOps F] [Named F] in
/-- An array whole is its 32 read tokens, dealt by worker number, and the remainder. -/
theorem toks_parts {ℓ : Loc nD τ sig} (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{shareTok fullShare 32 ⟨wid (cL c i), wid_lt _⟩} f) := by
  rw [← bigSep_workers (fun w => (ℓ ↦{shareTok fullShare 32 w} f : sProp 𝕄))]
  exact Transfers.pointsTo_toks fullShare 32

variable (fi : Buf (Elt F) (idxLoc d)) (fp : Buf (Elt F) (ptLoc d)) (fc : Buf (Elt F) (ctLoc d))

/-- What @main keeps aside during the call: the remainders of the three read arrays. -/
def kept : sProp 𝕄 :=
  iprop((idxLoc d ↦{Transfers.shareDrop fullShare 32} fi) ∗ (ptLoc d ↦{Transfers.shareDrop fullShare 32} fp) ∗ (ctLoc d ↦{Transfers.shareDrop fullShare 32} fc))

/-- The four arrays whole are the 32 subcores' payloads and the remainders. -/
theorem deal (fo : Buf (Elt F) (outLoc d)) :
    iprop((idxLoc d ↦{fullShare} fi) ∗ (ptLoc d ↦{fullShare} fp) ∗ (ctLoc d ↦{fullShare} fc) ∗ (outLoc d ↦{fullShare} fo))
      ⊢ iprop((bigSep Finset.univ fun c : Fin 2 => bigSep Finset.univ fun i : Fin 16 => goP d fi fp fc fo (cL c i)) ∗ kept d fi fp fc) := by
  unfold kept goP
  rw [out_parts]
  simp only [bigSep_sep']
  iintro ⟨Hi, Hp, Hc, Ho⟩
  ihave Hi' := (toks_parts fi).1 $$ Hi
  ihave Hp' := (toks_parts fp).1 $$ Hp
  ihave Hc' := (toks_parts fc).1 $$ Hc
  icases Hi' with ⟨Hid, Hit⟩
  icases Hp' with ⟨Hpd, Hpt⟩
  icases Hc' with ⟨Hcd, Hct⟩
  isplitl [Hit Hpt Hct Ho]
  · isplitl [Hit]; · iexact Hit
    isplitl [Hpt]; · iexact Hpt
    isplitl [Hct]; · iexact Hct
    iexact Ho
  isplitl [Hid]; · iexact Hid
  isplitl [Hpd]; · iexact Hpd
  iexact Hcd

omit [FloatOps F] [Named F] in
theorem sep_pure_swap {A : sProp 𝕄} {φ : Prop} : iprop(A ∗ ⌜φ⌝) ⊢ (iprop(⌜φ⌝ ∗ A) : sProp 𝕄) := by
  iintro ⟨H, %h⟩
  isplitr; · ipureintro; exact h
  iexact H

/-- What a subcore's done work says of any flat result that agrees with its own on its words. -/
theorem OutOK_congr {w : ℕ} (hw : w < 32) {f g : Buf (Elt F) (outLoc d)}
    (h : ∀ j : S27262976.Idx, 851968 * w ≤ (j 0).val → (j 0).val < 851968 * w + 851968 → g j = f j)
    (hf : TileSpec.OutOK (F := F) fi fp fc w f) : TileSpec.OutOK (F := F) fi fp fc w g := by
  intro t e
  rw [← hf t e]
  have ht := t.isLt; have he := e.isLt
  have hlt : 64 * (13312 * w + t.val) + e.val < 27262976 := by omega
  apply h
  · show 851968 * w ≤ (64 * (13312 * w + t.val) + e.val) % 27262976
    rw [Nat.mod_eq_of_lt hlt]; omega
  · show (64 * (13312 * w + t.val) + e.val) % 27262976 < 851968 * w + 851968
    rw [Nat.mod_eq_of_lt hlt]; omega

/-- The 32 subcores' results and the remainders are the three read arrays whole, and the flat result whole at some
    contents every subcore has done its work on. -/
theorem undeal [∀ e, Nonempty (Elt F e)] :
    iprop((bigSep Finset.univ fun c : Fin 2 => bigSep Finset.univ fun i : Fin 16 => tdP d fi fp fc (cL c i)) ∗ kept d fi fp fc)
      ⊢ iprop((idxLoc d ↦{fullShare} fi) ∗ (ptLoc d ↦{fullShare} fp) ∗ (ctLoc d ↦{fullShare} fc)
          ∗ ∃ f : Buf (Elt F) (outLoc d), ⌜∀ L : grid1.Coords, TileSpec.OutOK (F := F) fi fp fc (wid L) f⌝ ∗ (outLoc d ↦{fullShare} f)) := by
  unfold kept tdP
  simp only [bigSep_sep']
  iintro ⟨⟨Hit, Hpt, Hct, Ho⟩, Hid, Hpd, Hcd⟩
  isplitl [Hit Hid]
  · iapply (toks_parts fi).2; isplitl [Hid] <;> iassumption
  isplitl [Hpt Hpd]
  · iapply (toks_parts fp).2; isplitl [Hpd] <;> iassumption
  isplitl [Hct Hcd]
  · iapply (toks_parts fc).2; isplitl [Hcd] <;> iassumption
  ihave Ho' := (Entails.of_eq (bigSep_univ_prod (fun p : Fin 2 × Fin 16 =>
    (iprop(∃ f : Buf (Elt F) (outLoc d), (outLoc d ↦[oSet (cL p.1 p.2)]{fullShare} f) ∗ ⌜TileSpec.OutOK (F := F) fi fp fc (wid (cL p.1 p.2)) f⌝) : sProp 𝕄))).symm) $$ Ho
  ihave Ho'' := (bigSep_exists_pi Finset.univ (fun (p : Fin 2 × Fin 16) (f : Buf (Elt F) (outLoc d)) =>
    (iprop((outLoc d ↦[oSet (cL p.1 p.2)]{fullShare} f) ∗ ⌜TileSpec.OutOK (F := F) fi fp fc (wid (cL p.1 p.2)) f⌝) : sProp 𝕄))) $$ Ho'
  icases Ho'' with ⟨%fs, H⟩
  have hswap : (bigSep Finset.univ fun p : Fin 2 × Fin 16 =>
        (iprop((outLoc d ↦[oSet (cL p.1 p.2)]{fullShare} fs p) ∗ ⌜TileSpec.OutOK (F := F) fi fp fc (wid (cL p.1 p.2)) (fs p)⌝) : sProp 𝕄))
      ⊢ iprop(⌜∀ p ∈ (Finset.univ : Finset (Fin 2 × Fin 16)), TileSpec.OutOK (F := F) fi fp fc (wid (cL p.1 p.2)) (fs p)⌝
          ∗ bigSep Finset.univ fun p : Fin 2 × Fin 16 => (outLoc d ↦[oSet (cL p.1 p.2)]{fullShare} fs p : sProp 𝕄)) :=
(bigSep_mono fun p _ => sep_pure_swap).trans (bigSep_pure_sep Finset.univ _ _)
  ihave H2 := hswap $$ H
  icases H2 with ⟨%hok, Hpts⟩
  ihave H' := (pointsTo_biUnion_join Finset.univ (fun p : Fin 2 × Fin 16 => oSet (cL p.1 p.2)) fs (fs (0, 0)) oSet_disjoint) $$ Hpts
  icases H' with ⟨%g, %hg, Hg⟩
  rw [oSet_cover]
  iexists g
  isplitr
  · ipureintro
    intro L
    have hL0 : (L 0).val < 2 := (L 0).isLt
    have hL1 : (L 1).val < 16 := (L 1).isLt
    have hwid : wid (cL ⟨(L 0).val, hL0⟩ ⟨(L 1).val, hL1⟩) = wid L := rfl
    refine OutOK_congr d fi fp fc (wid_lt L) (f := fs (⟨(L 0).val, hL0⟩, ⟨(L 1).val, hL1⟩)) (fun j h1 h2 => ?_) (hwid ▸ hok (⟨(L 0).val, hL0⟩, ⟨(L 1).val, hL1⟩) (Finset.mem_univ _))
    exact hg (⟨(L 0).val, hL0⟩, ⟨(L 1).val, hL1⟩) (Finset.mem_univ _) j ((mem_oSet _ j).mpr (by rw [hwid]; exact ⟨h1, h2⟩))
  · iexact Hg

end Deal

/-! ## The launch element -/

/-- The launch element: the handshakes' rounds, the matrix product's staging cells' rounds, no counter. -/
def u₀ : UU := (initOf (K (F := F)).hsCells (K (F := F)).hsToks,
  (initOf (Pipeline.cells (nD := nD) (τ := τ) cfgs cellOf_inj) (Pipeline.launchToks (nD := nD) (τ := τ) cfgs cellOf_inj), 1))

theorem Px_emp (fo : (d : Dev nD) → Buf (Elt F) (outLoc d)) :
    (bigSep Finset.univ fun thr : Thread nD τ => bigSep Finset.univ fun q : Fin 1 => (PM m fo).x q thr) = (iprop(emp) : sProp 𝕄) := by
  show (bigSep Finset.univ fun _ : Thread nD τ => bigSep Finset.univ fun _ : Fin 1 => (iprop(emp) : sProp 𝕄)) = _
  exact (bigSep_congr fun _ _ => bigSep_emp_const _).trans (bigSep_emp_const _)

theorem hu₀ (fo : (d : Dev nD) → Buf (Elt F) (outLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m fo).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (show (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄)
      ⊢ BI.own ((EP : Emb UP 𝕄) (initOf (Pipeline.cells (nD := nD) (τ := τ) cfgs cellOf_inj) (Pipeline.launchToks (nD := nD) (τ := τ) cfgs cellOf_inj))) from BI.Entails.refl _) $$ HP
  imod (Pipeline.fund_ghost cfgs (EP : Emb UP 𝕄) cellOf_inj) $$ HP' with ⟨Hg, Ht⟩
  imodintro
  isplitl [HH]; · iexact HH
  isplitl [Hg Ht]
  · unfold G
    rw [bigSep_sep']
    isplitl [Hg]
    · iapply (Entails.of_eq (bigSep_congr fun d _ => (bigSep_univ_of_subsingleton (Φ := fun p : Fin 1 => Pipeline.cellsGhost cfgs EP p d) (0 : Fin 1)))); iexact Hg
    · iapply (Entails.of_eq (bigSep_congr fun d _ => (bigSep_univ_of_subsingleton (Φ := fun p : Fin 1 => Pipeline.toksInit cfgs EP p d) (0 : Fin 1)))); iexact Ht
  rw [Px_emp]; iempintro

/-! ## @main on the TensorCore -/

/-- The host operations before the matrix product: its two operands. -/
def ops1 : List (HloOp τ sig (Elt F)) :=
  [StableHlo.reshape main_arg1 main_v0 rfl shapeCasts_S1x100x4x8_S100x4x8,
   StableHlo.reshape main_v0 main_v1 rfl shapeCasts_S100x4x8_S100x32,
   StableHlo.nullary main_v2 (iotaInDim S4x4 32 0),
   StableHlo.nullary main_v3 (iotaInDim S4x4 32 1),
   StableHlo.nullary main_c (constantI S_ 32 0#32),
   StableHlo.unary main_c main_v4 (broadcastInDim S4x4 ![] bcast_S_S4x4 : (⟨S_, .i32⟩ : BufTy).Contents (Elt F) → (⟨S4x4, .i32⟩ : BufTy).Contents (Elt F)),
   StableHlo.binary main_v2 main_v4 main_v5 (addi : (⟨S4x4, .i32⟩ : BufTy).Contents (Elt F) → (⟨S4x4, .i32⟩ : BufTy).Contents (Elt F) → (⟨S4x4, .i32⟩ : BufTy).Contents (Elt F)),
   StableHlo.binary main_v5 main_v3 main_v6 (cmpi .eq : (⟨S4x4, .i32⟩ : BufTy).Contents (Elt F) → (⟨S4x4, .i32⟩ : BufTy).Contents (Elt F) → (⟨S4x4, .i1⟩ : BufTy).Contents (Elt F)),
   StableHlo.unary main_v6 main_v7 (uitofp .f32 : (⟨S4x4, .i1⟩ : BufTy).Contents (Elt F) → (⟨S4x4, .f32⟩ : BufTy).Contents (Elt F)),
   StableHlo.unary main_v7 main_v8 (broadcastInDim S4x1x1x4x1x1 ![0, 3] bcast_S4x4_S4x1x1x4x1x1_0_3 : (⟨S4x4, .f32⟩ : BufTy).Contents (Elt F) → (⟨S4x1x1x4x1x1, .f32⟩ : BufTy).Contents (Elt F)),
   StableHlo.unary main_arg2 main_v9 (broadcastInDim S1x8x100x1x4x8 ![1, 2, 4, 5] bcast_S8x100x4x8_S1x8x100x1x4x8_1_2_4_5 : (⟨S8x100x4x8, .f32⟩ : BufTy).Contents (Elt F) → (⟨S1x8x100x1x4x8, .f32⟩ : BufTy).Contents (Elt F)),
   StableHlo.unary main_v8 main_v10 (broadcastInDim S4x8x100x4x4x8 ![0, 1, 2, 3, 4, 5] bcast_S4x1x1x4x1x1_S4x8x100x4x4x8_0_1_2_3_4_5 : (⟨S4x1x1x4x1x1, .f32⟩ : BufTy).Contents (Elt F) → (⟨S4x8x100x4x4x8, .f32⟩ : BufTy).Contents (Elt F)),
   StableHlo.unary main_v9 main_v11 (broadcastInDim S4x8x100x4x4x8 ![0, 1, 2, 3, 4, 5] bcast_S1x8x100x1x4x8_S4x8x100x4x4x8_0_1_2_3_4_5 : (⟨S1x8x100x1x4x8, .f32⟩ : BufTy).Contents (Elt F) → (⟨S4x8x100x4x4x8, .f32⟩ : BufTy).Contents (Elt F)),
   StableHlo.binary main_v10 main_v11 main_v12 (mulf : (⟨S4x8x100x4x4x8, .f32⟩ : BufTy).Contents (Elt F) → (⟨S4x8x100x4x4x8, .f32⟩ : BufTy).Contents (Elt F) → (⟨S4x8x100x4x4x8, .f32⟩ : BufTy).Contents (Elt F)),
   StableHlo.reshape main_v12 main_v13 rfl shapeCasts_S4x8x100x4x4x8_S32x12800]

/-- The host operations between the matrix product and the SparseCore call: the pair table, the third-core table, the flat indices. -/
def ops2 : List (HloOp τ sig (Elt F)) :=
  [StableHlo.reshape main_v14 main_v15 rfl shapeCasts_S100x12800_S10000x128,
   StableHlo.reshape main_arg3 main_v16 rfl shapeCasts_S8x100x4x1_S8x100x4,
   StableHlo.unary main_v16 main_v17 ((transpose S100x8x4 [1, 0, 2] · transposes_S8x100x4_S100x8x4_1_0_2) : (⟨S8x100x4, .f32⟩ : BufTy).Contents (Elt F) → (⟨S100x8x4, .f32⟩ : BufTy).Contents (Elt F)),
   StableHlo.reshape main_v17 main_v18 rfl shapeCasts_S100x8x4_S100x32,
   StableHlo.nullary main_c_0 (constantI S_ 32 0#32),
   StableHlo.TRef.unary (StableHlo.TRef.of main_c_0 : StableHlo.TRef sig ⟨S_, .i32⟩) main_call0.v0 (sitofp .f32),
   StableHlo.TRef.binary (StableHlo.TRef.of main_v18 : StableHlo.TRef sig ⟨S100x32, .f32⟩) main_call0.v0 main_call0.v1 (fun x v => pad S100x33 ![0, 0] ![0, 1] ![0, 0] x v pads_S100x32_S100x33_000_010 h_S_),
   StableHlo.reshape main_v19 main_v20 rfl shapeCasts_S100x33_S3300,
   StableHlo.nullary main_c_1 (constantI S_ 32 0#32),
   StableHlo.TRef.unary (StableHlo.TRef.of main_c_1 : StableHlo.TRef sig ⟨S_, .i32⟩) main_call1.v0 (sitofp .f32),
   StableHlo.TRef.binary (StableHlo.TRef.of main_v20 : StableHlo.TRef sig ⟨S3300, .f32⟩) main_call1.v0 main_call1.v1 (fun x v => pad S3304 ![0] ![4] ![0] x v pads_S3300_S3304_040 h_S_),
   StableHlo.reshape main_arg0 main_v22 rfl shapeCasts_S16384x26_S425984]

/-- The host operation after the SparseCore call: the result's shape. -/
def ops3 : List (HloOp τ sig (Elt F)) :=
  [StableHlo.reshape main_v23 main_v24 rfl shapeCasts_S27262976_S16384x26x64]

/-- @main is three lines of host operations around the matrix product and the SparseCore call. -/
theorem main_eq (d : Dev nD) : main (F := F) d
    = (StableHlo.seq (ops1 (F := F)) >>= fun _ => Prog.lift (.customCall (SparseCore.inner (Pipeline.entry 0)) ()) >>= fun _ =>
        StableHlo.seq (ops2 (F := F)) >>= fun _ => (sc (F := F)).run d 0 >>= fun _ => StableHlo.seq (ops3 (F := F))) := rfl

theorem ops1_sub : ∀ op ∈ (ops1 (F := F)), op.bufs ⊆ UC :=
  List.forall_iff_forall_mem.1 (by
    simp only [ops1, List.Forall]
    refine ⟨?_, ?_, ?_, ?_, ?_, ?_, ?_, ?_, ?_, ?_, ?_, ?_, ?_, ?_, ?_⟩ <;> exact Pipeline.sub_ucRefs _ (by simp))
theorem ops1_fresh : ∀ op ∈ (ops1 (F := F)), op.fresh = ∅ :=
  List.forall_iff_forall_mem.1 (by
    simp only [ops1, List.Forall]
    refine ⟨?_, ?_, ?_, ?_, ?_, ?_, ?_, ?_, ?_, ?_, ?_, ?_, ?_, ?_, ?_⟩ <;> rfl)
theorem ops2_sub : ∀ op ∈ (ops2 (F := F)), op.bufs ⊆ UC :=
  List.forall_iff_forall_mem.1 (by
    simp only [ops2, List.Forall]
    refine ⟨?_, ?_, ?_, ?_, ?_, ?_, ?_, ?_, ?_, ?_, ?_, ?_⟩ <;> exact Pipeline.sub_ucRefs _ (by simp))
theorem ops2_fresh : ∀ op ∈ (ops2 (F := F)), op.fresh = ∅ :=
  List.forall_iff_forall_mem.1 (by
    simp only [ops2, List.Forall]
    refine ⟨?_, ?_, ?_, ?_, ?_, ?_, ?_, ?_, ?_, ?_, ?_, ?_⟩ <;> rfl)
theorem ops3_sub : ∀ op ∈ (ops3 (F := F)), op.bufs ⊆ UC :=
  List.forall_iff_forall_mem.1 (by
    simp only [ops3, List.Forall]
    exact Pipeline.sub_ucRefs _ (by simp))
theorem ops3_fresh : ∀ op ∈ (ops3 (F := F)), op.fresh = ∅ :=
  List.forall_iff_forall_mem.1 (by simp only [ops3, List.Forall]; rfl)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v15' : DevRef τ sig := Proc.devRef .tc (main_v15 : Ref sig .tc)
abbrev v21' : DevRef τ sig := Proc.devRef .tc (main_v21 : Ref sig .tc)
abbrev v22' : DevRef τ sig := Proc.devRef .tc (main_v22 : Ref sig .tc)
abbrev v23' : DevRef τ sig := Proc.devRef .tc (main_v23 : Ref sig .tc)
abbrev v24' : DevRef τ sig := Proc.devRef .tc (main_v24 : Ref sig .tc)

/-- The arrays' contents: at launch, after the first line, after the matrix product, after the second line, after the
    SparseCore call has left `f` in the flat result, after the last line. -/
def V0 (d : Dev nD) : Valuation τ sig (Elt F) := StableHlo.launchContents m d
def V1 (d : Dev nD) : Valuation τ sig (Elt F) := StableHlo.after ops1 (V0 m d)
def V2 (d : Dev nD) : Valuation τ sig (Elt F) := Function.update (V1 m d) v14' (k0_pay1 (V1 m d v1') (V1 m d v13'))
def V3 (d : Dev nD) : Valuation τ sig (Elt F) := StableHlo.after ops2 (V2 m d)
def V4 (d : Dev nD) (f : Buf (Elt F) (outLoc d)) : Valuation τ sig (Elt F) := Function.update (V3 m d) v23' f
def V5 (d : Dev nD) (f : Buf (Elt F) (outLoc d)) : Valuation τ sig (Elt F) := StableHlo.after ops3 (V4 m d f)

theorem V1_v1 (d : Dev nD) : V1 m d v1' = lhsAt m d := by
  unfold V1 ops1 lhsAt; after_results; rfl
theorem V1_v13 (d : Dev nD) : V1 m d v13' = rhsAt m d := by
  unfold V1 ops1 rhsAt eyeAt; after_results; rfl
theorem V1_a0 (d : Dev nD) : V1 m d a0' = m ((SparseCore.T d).loc main_arg0) := by
  unfold V1 ops1; after_results; rfl
theorem V1_a3 (d : Dev nD) : V1 m d a3' = m ((SparseCore.T d).loc main_arg3) := by
  unfold V1 ops1; after_results; rfl
theorem V1_v23 (d : Dev nD) : V1 m d v23' = m (outLoc d) := by
  unfold V1 ops1; after_results; rfl
theorem V2_v14 (d : Dev nD) : V2 m d v14' = k0_pay1 (lhsAt m d) (rhsAt m d) := by
  unfold V2; rw [Function.update_self, V1_v1, V1_v13]
theorem V2_ne (d : Dev nD) {b : DevRef τ sig} (h : b ≠ v14') : V2 m d b = V1 m d b := Function.update_of_ne h _ _
theorem V3_v22 (d : Dev nD) : V3 m d v22' = idxAt m d := by
  unfold V3 ops2 idxAt; after_results; rw [V2_ne m d (by decide), V1_a0]; rfl
theorem V3_v15 (d : Dev nD) : V3 m d v15' = ptAt m d := by
  unfold V3 ops2 ptAt; after_results; rw [V2_v14]; rfl
theorem V3_v21 (d : Dev nD) : V3 m d v21' = ctAt m d := by
  unfold V3 ops2 ctAt; after_results; rw [V2_ne m d (by decide), V1_a3]; rfl
theorem V3_v23 (d : Dev nD) : V3 m d v23' = m (outLoc d) := by
  unfold V3 ops2; after_results; rw [V2_ne m d (by decide), V1_v23]

/-- What @main leaves the claim: the result, the flat result some `f` every subcore has done its work on, and the
    four arguments at their launch contents. -/
def FIN (d : Dev nD) : sProp 𝕄 :=
  iprop((∃ f : Buf (Elt F) (outLoc d), ⌜∀ L : grid1.Coords, TileSpec.OutOK (F := F) (idxAt m d) (ptAt m d) (ctAt m d) (wid L) f⌝
      ∗ ((SparseCore.T d).loc main_v24 ↦{fullShare} shapeCast S16384x26x64 f shapeCasts_S27262976_S16384x26x64))
    ∗ ((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3)))

omit [Named F] in
theorem unscoped_held (d : Dev nD) :
    (unscopedBufs d (fun b => m ((SparseCore.T d).loc b)) : sProp 𝕄) = held (SparseCore.T d) UC (V0 m d) :=
  Pipeline.unscopedBufs_held d (V0 m d)

/-- The four arrays of the SparseCore call. -/
abbrev S4 : Finset (DevRef τ sig) := {v22', v15', v21', v23'}
theorem S4_sub : S4 ⊆ UC := by decide

omit [FloatOps F] [Named F] in
theorem held_S4 (d : Dev nD) (W : Valuation τ sig (Elt F)) :
    (held (SparseCore.T d) S4 W : sProp 𝕄)
      = iprop((idxLoc d ↦{fullShare} W v22') ∗ (ptLoc d ↦{fullShare} W v15') ∗ (ctLoc d ↦{fullShare} W v21') ∗ (outLoc d ↦{fullShare} W v23')) := by
  unfold held S4
  rw [SparseCore.bigSep_insert' (by decide), SparseCore.bigSep_insert' (by decide), SparseCore.bigSep_insert' (by decide), bigSep_singleton]

theorem V4_ne (d : Dev nD) (f : Buf (Elt F) (outLoc d)) {b : DevRef τ sig} (h : b ≠ v23') : V4 m d f b = V3 m d b := Function.update_of_ne h _ _
theorem V4_v23 (d : Dev nD) (f : Buf (Elt F) (outLoc d)) : V4 m d f v23' = f := Function.update_self _ _ _

/-- The arrays after the second line: the call's four, at what the kernel is handed, and the rest. -/
theorem held_V3 (d : Dev nD) : (held (SparseCore.T d) UC (V3 m d) : sProp 𝕄)
    = iprop(((idxLoc d ↦{fullShare} idxAt m d) ∗ (ptLoc d ↦{fullShare} ptAt m d) ∗ (ctLoc d ↦{fullShare} ctAt m d) ∗ (outLoc d ↦{fullShare} m (outLoc d)))
        ∗ held (SparseCore.T d) (UC \ S4) (V3 m d)) := by
  rw [StableHlo.held_sub_split (SparseCore.T d) S4_sub, held_S4, V3_v22, V3_v15, V3_v21, V3_v23]

/-- The arrays after the call. -/
theorem held_V4 (d : Dev nD) (f : Buf (Elt F) (outLoc d)) : (held (SparseCore.T d) UC (V4 m d f) : sProp 𝕄)
    = iprop(((idxLoc d ↦{fullShare} idxAt m d) ∗ (ptLoc d ↦{fullShare} ptAt m d) ∗ (ctLoc d ↦{fullShare} ctAt m d) ∗ (outLoc d ↦{fullShare} f))
        ∗ held (SparseCore.T d) (UC \ S4) (V3 m d)) := by
  rw [StableHlo.held_sub_split (SparseCore.T d) S4_sub, held_S4, V4_ne m d f (by decide), V4_ne m d f (by decide), V4_ne m d f (by decide), V4_v23,
    V3_v22, V3_v15, V3_v21,
    StableHlo.held_congr (SparseCore.T d) (S := UC \ S4) (V := V4 m d f) (V' := V3 m d) fun b hb => V4_ne m d f fun e => (Finset.mem_sdiff.mp hb).2 (e ▸ by decide)]

/-- What the claim reads at the end. -/
abbrev S5 : Finset (DevRef τ sig) := {v24', a0', a1', a2', a3'}
theorem S5_sub : S5 ⊆ UC := by decide

omit [FloatOps F] [Named F] in
theorem held_S5 (d : Dev nD) (W : Valuation τ sig (Elt F)) :
    (held (SparseCore.T d) S5 W : sProp 𝕄)
      = iprop(((SparseCore.T d).loc main_v24 ↦{fullShare} W v24') ∗ ((SparseCore.T d).loc main_arg0 ↦{fullShare} W a0') ∗ ((SparseCore.T d).loc main_arg1 ↦{fullShare} W a1')
          ∗ ((SparseCore.T d).loc main_arg2 ↦{fullShare} W a2') ∗ ((SparseCore.T d).loc main_arg3 ↦{fullShare} W a3')) := by
  unfold held S5
  rw [SparseCore.bigSep_insert' (by decide), SparseCore.bigSep_insert' (by decide), SparseCore.bigSep_insert' (by decide), SparseCore.bigSep_insert' (by decide), bigSep_singleton]

theorem V1_arg (d : Dev nD) (r : Ref sig .tc) (hr : r = main_arg0 ∨ r = main_arg1 ∨ r = main_arg2 ∨ r = main_arg3) :
    V1 m d (Proc.devRef .tc r) = m ((SparseCore.T d).loc r) := by
  rcases hr with rfl | rfl | rfl | rfl <;> (unfold V1 ops1; after_results; rfl)
theorem V3_arg (d : Dev nD) (r : Ref sig .tc) (hr : r = main_arg0 ∨ r = main_arg1 ∨ r = main_arg2 ∨ r = main_arg3) :
    V3 m d (Proc.devRef .tc r) = m ((SparseCore.T d).loc r) := by
  rcases hr with rfl | rfl | rfl | rfl <;> (unfold V3 ops2; after_results; rw [V2_ne m d (by decide), V1_arg m d _ (by simp)])
theorem V5_arg (d : Dev nD) (f : Buf (Elt F) (outLoc d)) (r : Ref sig .tc) (hr : r = main_arg0 ∨ r = main_arg1 ∨ r = main_arg2 ∨ r = main_arg3) :
    V5 m d f (Proc.devRef .tc r) = m ((SparseCore.T d).loc r) := by
  rcases hr with rfl | rfl | rfl | rfl <;> (unfold V5 ops3; after_results; rw [V4_ne m d f (by decide), V3_arg m d _ (by simp)])
theorem V5_v24 (d : Dev nD) (f : Buf (Elt F) (outLoc d)) :
    V5 m d f v24' = shapeCast S16384x26x64 f shapeCasts_S27262976_S16384x26x64 := by
  unfold V5 ops3; after_results; rw [V4_v23]; rfl

/-- What the claim reads, at the contents after the last line. -/
theorem held_V5 (d : Dev nD) (f : Buf (Elt F) (outLoc d)) : (held (SparseCore.T d) S5 (V5 m d f) : sProp 𝕄)
    = iprop(((SparseCore.T d).loc main_v24 ↦{fullShare} shapeCast S16384x26x64 f shapeCasts_S27262976_S16384x26x64)
        ∗ ((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))) := by
  rw [held_S5, V5_v24, V5_arg m d f main_arg0 (by simp), V5_arg m d f main_arg1 (by simp), V5_arg m d f main_arg2 (by simp), V5_arg m d f main_arg3 (by simp)]

/-- The TensorCore's handshake state before call `n` but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] [Named F] in
theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest d n) := rfl

set_option backward.isDefEq.respectTransparency.types false in
theorem hmain [∀ e, Nonempty (Elt F e)] (hH : Hundredth.OK F (c100 (F := F))) (hpre : PreOK m) (κ : GSem nD τ sig → ℕ) (d : Dev nD) :
    iprop((K (F := F)).ctx EH (PM m fun d => m (outLoc d)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, HG⟩
  -- the first line of host operations
  iapply (StableHlo.wp_seq (defs := (K (F := F)).defs (D (F := F))) 𝒱 none Set.univ d UC _ ops1 ops1_sub ops1_fresh (V0 m d)) $$ [Hb Hheld]
  · isplitl [Hb] <;> iassumption
  iintro ⟨Hb, Hheld⟩
  -- the matrix product
  rw [wp_bind]
  ihave Hst' := (Entails.of_eq (tcSt_eq (F := F) d 0)) $$ Hst
  icases Hst' with ⟨⟨%W, %hW, HO⟩, Hrs⟩
  iapply (hregion (V1 m d) d W hW) $$ [Hb Hheld HO HG Hrs]
  isplitr; · iapply (SparseCore.Cfg.ctx_levAts κ); iexact Hctx
  isplitl [Hb]; · iexact Hb
  isplitl [Hheld]; · iexact Hheld
  isplitl [HO]; · iexact HO
  isplitl [HG]; · iexact HG
  iintro ⟨Hb, Hheld, %W', %hW', HO⟩
  -- the second line
  iapply (StableHlo.wp_seq (defs := (K (F := F)).defs (D (F := F))) 𝒱 none Set.univ d UC _ ops2 ops2_sub ops2_fresh (V2 m d)) $$ [Hb Hheld]
  · isplitl [Hb]; · iexact Hb
    iexact Hheld
  iintro ⟨Hb, Hheld⟩
  -- the SparseCore call: the four arrays dealt to the 32 subcores, the remainders kept aside
  rw [wp_bind]
  ihave Hh := (show (held (SparseCore.T d) UC (StableHlo.after ops2 (V2 m d)) : sProp 𝕄) ⊢ _ from Entails.of_eq (held_V3 m d)) $$ Hheld
  icases Hh with ⟨H4, Hrest⟩
  ihave Hd := (deal d (idxAt m d) (ptAt m d) (ctAt m d) (m (outLoc d))) $$ H4
  icases Hd with ⟨Hgo, Hkept⟩
  iapply ((K (F := F)).wp_run (D (F := F)) 𝒱 (EH := EH) (P := PM m fun d => m (outLoc d)) κ d 0) $$ [Hgo HO Hrs Hkept Hrest Hb]
  isplitr; · iexact Hctx
  isplitl [HO Hrs]
  · iapply (Entails.of_eq (tcSt_eq (F := F) d 0).symm)
    isplitl [HO]
    · iexists W'; isplitr
      · ipureintro; exact hW'
      · iexact HO
    iexact Hrs
  isplitl [Hgo]; · iexact Hgo
  iintro ⟨Hst, Hdn⟩
  ihave Hu := (undeal d (idxAt m d) (ptAt m d) (ctAt m d)) $$ [Hdn Hkept]
  · isplitl [Hdn]; · iexact Hdn
    iexact Hkept
  icases Hu with ⟨Hi, Hp, Hc, %f, %hf, Ho⟩
  ihave Hheld := (Entails.of_eq (held_V4 m d f).symm) $$ [Hi Hp Hc Ho Hrest]
  · isplitl [Hi Hp Hc Ho]
    · isplitl [Hi]; · iexact Hi
      isplitl [Hp]; · iexact Hp
      isplitl [Hc]; · iexact Hc
      iexact Ho
    · iexact Hrest
  -- the last line
  rw [show (StableHlo.seq (Λ := SparseCore.Sig (ΛP (F := F)) 1) (nD := nD) (ops3 (F := F))) = (StableHlo.seq ops3 >>= fun u => Pure.pure u) from (bind_pure _).symm]
  iapply (StableHlo.wp_seq (defs := (K (F := F)).defs (D (F := F))) 𝒱 none Set.univ d UC _ ops3 ops3_sub ops3_fresh (V4 m d f)) $$ [Hb Hheld]
  · isplitl [Hb] <;> iassumption
  iintro ⟨Hb, Hheld⟩
  rw [wp_pure]; imodintro
  isplitl [Hst]; · iexact Hst
  ihave Hh := (show (held (SparseCore.T d) UC (StableHlo.after ops3 (V4 m d f)) : sProp 𝕄) ⊢ _ from
    Entails.of_eq (StableHlo.held_sub_split (SparseCore.T d) S5_sub (V5 m d f))) $$ Hheld
  icases Hh with ⟨H5, -⟩
  ihave H5' := (Entails.of_eq (held_V5 m d f)) $$ H5
  icases H5' with ⟨H24, H0, H1, H2, H3⟩
  unfold FIN
  isplitl [H24]
  · iexists f; isplitr
    · ipureintro; exact hf
    · iexact H24
  isplitl [H0]; · iexact H0
  isplitl [H1]; · iexact H1
  isplitl [H2]; · iexact H2
  iexact H3

def fq (d : Dev nD) (s' : Phys nD τ sig (Elt F)) : Prop :=
  (∃ f : Buf (Elt F) (outLoc d), (∀ L : grid1.Coords, TileSpec.OutOK (F := F) (idxAt m d) (ptAt m d) (ctAt m d) (wid L) f)
      ∧ s'.mem.mem ((SparseCore.T d).loc main_v24) = shapeCast S16384x26x64 f shapeCasts_S27262976_S16384x26x64)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

theorem hfin (d : Dev nD) (s' : Phys nD τ sig (Elt F)) : iprop(FIN m d ∗ SI s') ⊢ (⌜fq m d s'⌝ : sProp 𝕄) := by
  unfold FIN
  iintro ⟨⟨⟨%f, %hf, H24⟩, H0, H1, H2, H3⟩, HSI⟩
  ihave H := (persistent_entails_right (SI_pointsTo_agree (st := s') (ℓ := (SparseCore.T d).loc main_v24) (I := Finset.univ) (q := fullShare) (f := shapeCast S16384x26x64 f shapeCasts_S27262976_S16384x26x64))) $$ [HSI H24]
  · isplitl [HSI] <;> iassumption
  icases H with ⟨%h24, HSI, -⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_arg3) (I := Finset.univ) (q := fullShare) (f := m ((SparseCore.T d).loc main_arg3))) $$ [HSI H3]
  · isplitl [HSI] <;> iassumption
  icases H with %h3
  ipureintro
  exact ⟨⟨f, hf, funext fun i => h24 i (Finset.mem_univ i)⟩, funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  (∃ f : Buf (Elt F) (outLoc c), (∀ L : grid1.Coords, TileSpec.OutOK (F := F) (idxAt m c) (ptAt m c) (ctAt m c) (wid L) f)
      ∧ r.2.mem ((c.tc : Thread nD τ).loc main_v24) = shapeCast S16384x26x64 f shapeCasts_S27262976_S16384x26x64)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem idxAt_range (hpre : PreOK m) : ∀ d j, 0 ≤ (idxAt m d j).toInt ∧ (idxAt m d j).toInt ≤ 999999 :=
  fun d j => hpre d (Shape.reshapeEquiv shapeCasts_S16384x26_S425984 j)

theorem run_main [∀ e, Nonempty (Elt F e)] (htile : TileBodyOK F) (hH : Hundredth.OK F (c100 (F := F))) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PM m fun d => m (outLoc d)) facts v₀
    (fun q hq => match q with | 0 => nomatch hq)
    (fun q _ => match q with | 0 => tileObl _ _ _ _ htile hH (idxAt_range m hpre))
    (fun q _ => match q with | 0 => SparseCore.Cfg.VecSplit.of_plain (vecSplit _ _ _ _))
    m ρ main (G (F := F)) (FIN m) (u₀ (F := F)) (sep_elim_left.trans (hu₀ m _)) (hmain m ρ hH hpre) (fq m) (hfin m) (QC m) (fun _ h => h)

end Cert.Proof.KI

end
-- ==== Proof.CommonB.lean ====
/-
  Shared setting of the idealized kernel's frame and value proof: the program as the SparseCore launch theorem sees
  it, the ghost state (the handshakes' rounds beside the local transfers' counters), the kernel's arrays and each
  vector subcore's scratch as the body table passes them, and a vector subcore's place in the token range: subcore
  (c, s) is worker w = 2 s + c and owns tokens [13312 w, 13312 (w + 1)) of the 425984, hence words
  [851968 w, 851968 (w + 1)) of the flat result.
-/
import proofs.«207215_g13752485282153_cont_week2b_1454_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207215_g13752485282153_cont_week2b_1454_30_alg».proof.Proof.Gen.Kernel
import proofs.«207215_g13752485282153_cont_week2b_1454_30_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds, the TensorCore call's staging cells' rounds, and the local transfers' counters -/

abbrev UH : Type := URounds (GSem nD τ sig) ℕ
abbrev UP : Type := URounds (GSem nD τ sig) Unit
abbrev UU : Type := UH × (UP × Counters)
abbrev EH : Emb UH (MT nD τ sig (HIx 1) (Elt F) ℕ UU ℕ) := embL

/-! ## The arrays and a subcore's scratch, spelt as the body table passes them -/

notation "idxWB" => (Memref.whole Cert.Kernel.main_v22_scv : Memref Cert.Kernel.sig Kind.scVector Space.hbm Cert.Kernel.S425984 EltTy.i32)
notation "ptWB" => (Memref.whole Cert.Kernel.main_v15_scv : Memref Cert.Kernel.sig Kind.scVector Space.hbm Cert.Kernel.S10000x128 EltTy.f32)
notation "ctWB" => (Memref.whole Cert.Kernel.main_v21_scv : Memref Cert.Kernel.sig Kind.scVector Space.hbm Cert.Kernel.S3304 EltTy.f32)
notation "outWB" => (Memref.whole Cert.Kernel.main_v23_scv : Memref Cert.Kernel.sig Kind.scVector Space.hbm Cert.Kernel.S27262976 EltTy.f32)
notation "s0WB" => (Memref.whole Cert.Kernel.cc1_scratch0 : Memref Cert.Kernel.sig Kind.scVector Space.vmem Cert.Kernel.S13312 EltTy.i32)
notation "s1WB" => (Memref.whole Cert.Kernel.cc1_scratch1 : Memref Cert.Kernel.sig Kind.scVector Space.vmem Cert.Kernel.S3304 EltTy.f32)
notation "s2WB" => (Memref.whole Cert.Kernel.cc1_scratch2 : Memref Cert.Kernel.sig Kind.scVector Space.vmem Cert.Kernel.S128 EltTy.i32)
notation "s3WB" => (Memref.whole Cert.Kernel.cc1_scratch3 : Memref Cert.Kernel.sig Kind.scVector Space.vmem Cert.Kernel.S128 EltTy.i32)
notation "s4WB" => (Memref.whole Cert.Kernel.cc1_scratch4 : Memref Cert.Kernel.sig Kind.scVector Space.vmem Cert.Kernel.S128 EltTy.i32)
notation "s5WB" => (Memref.whole Cert.Kernel.cc1_scratch5 : Memref Cert.Kernel.sig Kind.scVector Space.vmem Cert.Kernel.S128 EltTy.i32)
notation "s6WB" => (Memref.whole Cert.Kernel.cc1_scratch6 : Memref Cert.Kernel.sig Kind.scVector Space.vmem Cert.Kernel.S128x128 EltTy.f32)
notation "s7WB" => (Memref.whole Cert.Kernel.cc1_scratch7 : Memref Cert.Kernel.sig Kind.scVector Space.vmem Cert.Kernel.S128x128 EltTy.f32)
notation "s8WB" => (Memref.whole Cert.Kernel.cc1_scratch8 : Memref Cert.Kernel.sig Kind.scVector Space.vmem Cert.Kernel.S8192 EltTy.f32)
notation "s9WB" => (Memref.whole Cert.Kernel.cc1_scratch9 : Memref Cert.Kernel.sig Kind.scVector Space.vmem Cert.Kernel.S8192 EltTy.f32)

/-- Vector subcore `(L 0, L 1)` of device `d`, as the body table names its thread. -/
abbrev thr (d : Dev nD) (L : grid1.Coords) : Thread nD τ := V d ((L 0).castLE hcore1) ((L 1).castLE hsub1)

/-- The worker number of subcore `(c, s)`: `2 s + c`, below 32. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-- The arrays of device `d` the kernel touches, as the TensorCore names them: the flat indices, the 10000 × 128 pair
    table, the padded 3304-word third-core table, the flat result. -/
abbrev idxLoc (d : Dev nD) : Loc nD τ sig := (SparseCore.T d).loc main_v22
abbrev ptLoc (d : Dev nD) : Loc nD τ sig := (SparseCore.T d).loc main_v15
abbrev ctLoc (d : Dev nD) : Loc nD τ sig := (SparseCore.T d).loc main_v21
abbrev outLoc (d : Dev nD) : Loc nD τ sig := (SparseCore.T d).loc main_v23

end Cert.Proof.KB

end
-- ==== Proof.TileIfaceB.lean ====
import proofs.«207215_g13752485282153_cont_week2b_1454_30_alg».proof.Proof.CommonB
import proofs.«207215_g13752485282153_cont_week2b_1454_30_alg».proof.Proof.TileSpec
import proofs.«207215_g13752485282153_cont_week2b_1454_30_alg».proof.Proof.Hundredth

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

open Idealize.ShloMosaic.Transfers (shareTok)

/-- Subcore `(c, s)` as the kernel's grid coordinates. -/
def coordsV (c : Fin (grid1.bound 0)) (s : Fin (grid1.bound 1)) : grid1.Coords :=
  fun | 0 => c | 1 => s | ⟨_ + 2, h⟩ => absurd h (Nat.not_lt.2 (Nat.le_add_left _ _))

theorem oRect_inb (L : grid1.Coords) : ∀ a, (![851968 * wid L] : Fin 1 → Nat) a + (![851968] : Fin 1 → Nat) a ≤ S27262976.size a := by
  have h := wid_lt L
  intro a; fin_cases a; simp; omega

/-- The words of the flat result subcore `L` owns: `[851968 w, 851968 (w + 1))`, `w` its worker number. -/
abbrev oRect (L : grid1.Coords) : Rect S27262976 := Rect.unit (s := S27262976) ![851968 * wid L] ![851968] (oRect_inb L)
abbrev oSet (L : grid1.Coords) : Finset S27262976.Idx := ((outWB).view.slice (oRect L)).set

/-- The kernel's constant for one hundredth, as the idealized program prints it. -/
abbrev c100 : F .f32 := Scalar.ofBits .f32 0x3C23D70A#32

section Tile

variable (d : Dev nD)
variable (fi : Buf (Elt F) (idxLoc d)) (fp : Buf (Elt F) (ptLoc d)) (fc : Buf (Elt F) (ctLoc d)) (fo : Buf (Elt F) (outLoc d))

/-- What the call hands subcore `L`: a read share of the indices, of the pair table and of the third-core table (one
    of 32 tokens of the full share each), and its own words of the result. -/
def goP (L : grid1.Coords) : sProp 𝕄 :=
  iprop((idxLoc d ↦{shareTok fullShare 32 ⟨wid L, wid_lt L⟩} fi) ∗ (ptLoc d ↦{shareTok fullShare 32 ⟨wid L, wid_lt L⟩} fp)
    ∗ (ctLoc d ↦{shareTok fullShare 32 ⟨wid L, wid_lt L⟩} fc) ∗ (outLoc d ↦[oSet L]{fullShare} fo))

/-- What subcore `L` hands back: the three read shares, and its words of the result holding the kernel's words. -/
def tdP (L : grid1.Coords) : sProp 𝕄 :=
  iprop((idxLoc d ↦{shareTok fullShare 32 ⟨wid L, wid_lt L⟩} fi) ∗ (ptLoc d ↦{shareTok fullShare 32 ⟨wid L, wid_lt L⟩} fp)
    ∗ (ctLoc d ↦{shareTok fullShare 32 ⟨wid L, wid_lt L⟩} fc)
    ∗ ∃ f : Buf (Elt F) (outLoc d), (outLoc d ↦[oSet L]{fullShare} f) ∗ ⌜TileSpec.OutOK (F := F) fi fp fc (wid L) f⌝)

end Tile

variable (F) in
/-- The kernel on a vector subcore: on every device `d`, for any contents of the four arrays with the index words in
    `[0, 999999]`, subcore `L`, from its share of the inputs, its words of the result and its own scratch and
    semaphores, runs to the end and leaves the kernel's words in its part of the result. -/
def TileBodyOK : Prop :=
  ∀ (d : Dev nD) (fi : Buf (Elt F) (idxLoc d)) (fp : Buf (Elt F) (ptLoc d)) (fc : Buf (Elt F) (ctLoc d)) (fo : Buf (Elt F) (outLoc d))
    (_ : Hundredth.OK F (c100 (F := F))) (_ : ∀ j, 0 ≤ (fi j).toInt ∧ (fi j).toInt ≤ 999999)
    (_ : (K (F := F)).Facts) (L : grid1.Coords) (O : CellTallies nD τ sig (HIx 1)) (W : Waits sig (HIx 1)) (_ : ∀ g, O g none = 0),
    iprop(levAts (K (F := F)).L (K (F := F)).lev ∗ emp ∗ goP d fi fp fc fo L
        ∗ scopedBufs (thr d L) ∗ scopedSems0 (thr d L) ∗ owes (thr d L) O W)
      ⊢ wp frame (wpE (defs₀ (F := F)) 𝒱₀ (thr d L) none) Set.univ
          (cc1__sc_lookup L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1)
          fun _ => iprop(tdP d fi fp fc L ∗ scopedBufs (thr d L) ∗ scopedSems0 (thr d L)
            ∗ ∃ W', ⌜∀ p ∈ W', p ∈ W ∨ p.2 = none⌝ ∗ owes (thr d L) O W')

end Cert.Proof.KB

end
-- ==== Proof.RegionB.lean ====
/-
  The matrix product on the TensorCore inside the idealized program: one pallas_call without a grid, its two operands
  (the 100 × 32 first core and the 32 × 12800 identity-times-second-core matrix) staged whole into the core's memory,
  multiplied into zeros, and the 100 × 12800 product staged whole back. The body loads the two staged operands and
  stores their product; the pipeline's three staging cells wait at the index of no call, level zero, below the start
  signals the TensorCore owes the SparseCores throughout. From the arrays at contents V the region leaves the product's
  array at the product of V's two operands and every other array as it was.
-/
import proofs.«207215_g13752485282153_cont_week2b_1454_30_alg».proof.Proof.CommonB
import proofs.«207215_g13752485282153_cont_week2b_1454_30_alg».proof.Proof.TileSpec
import proofs.«207215_g13752485282153_cont_week2b_1454_30_alg».proof.Proof.Hundredth
import proofs.«207215_g13752485282153_cont_week2b_1454_30_alg».proof.Proof.Gen.Kernel.Launch
import proofs.«207215_g13752485282153_cont_week2b_1454_30_alg».proof.Proof.Gen.Kernel.Points
import Idealize.ShloMosaic.Lib.Pipeline.Regions
import Idealize.ShloMosaic.Lib.Pipeline.Frame
import Idealize.ShloMosaic.Lib.Pipeline.FrameBody

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

open Idealize.ShloMosaic.Transfers (shareTok)

/-- The pipeline's rounds: the middle factor of the ghost state. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance
/-- What the launch leaves the TensorCore for the region: the staging cells' ghost state and the transfers' duty tokens. -/
def G (d : Dev nD) : sProp 𝕄 :=
  iprop(Pipeline.cellsGhost cfgs EP 0 d ∗ Pipeline.toksInit cfgs EP 0 d)
/-- The TensorCore's arrays. -/
abbrev UC : Finset (DevRef τ sig) := Pipeline.ucRefs τ sig
abbrev v1' : DevRef τ sig := Proc.devRef .tc (main_v1 : Ref sig .tc)
abbrev v13' : DevRef τ sig := Proc.devRef .tc (main_v13 : Ref sig .tc)
abbrev v14' : DevRef τ sig := Proc.devRef .tc (main_v14 : Ref sig .tc)

/-- No prefetched table. -/
abbrev adm : (p : Fin 1) → (pcfgs (F := F) p).Adm := fun p => (cfgs p).toPCfg_adm

section Region

variable (V : Valuation τ sig (Elt F))

/-- The matrix product's proof data on core `c`: the operands' arrays and the result's at `V`; after the one point the
    operands' staging buffers hold the operands and the result's the product; nothing kept between points; the
    TensorCore owes its start signals throughout, its recorded pairs all at level zero. -/
def pdat (c : Dev nD) : Pipeline.Dat τ (Elt F) (HIx 1) ℕ UU ℕ cfg0 c where
  A := fun (w : Fin 3) => match w with
    | 0 => V v1'
    | 1 => V v13'
    | 2 => V v14'
    | ⟨_ + 3, h⟩ => absurd h (Nat.not_lt.2 (Nat.le_add_left _ _))
  after := fun (w : Fin 3) _ => match w with
    | 0 => V v1'
    | 1 => V v13'
    | 2 => k0_pay1 (V v1') (V v13')
    | ⟨_ + 3, h⟩ => absurd h (Nat.not_lt.2 (Nat.le_add_left _ _))
  Φ := fun _ => iprop(emp)
  q := fun _ => fullShare
  owed := fun _ => (K (F := F)).Otc c 0
  recorded := fun _ => {p | (K (F := F)).lev (SparseCore.T c, p.1) p.2 ≤ 0}

abbrev pdats : (p : Fin 1) → (c : Dev nD) → Pipeline.Dat τ (Elt F) (HIx 1) ℕ UU ℕ (Pipeline.pin (pcfgs (F := F)) adm p) c :=
  fun _ c => pdat V c

theorem Otc_none (c : Dev nD) (n : ℕ) (g : GSem nD τ sig) : (K (F := F)).Otc c n g none = 0 := by
  by_contra h
  have := SparseCore.Cfg.lev_of_Otc_pos (K := K (F := F)) (Nat.pos_of_ne_zero h); rw [SparseCore.Cfg.lev_none] at this; omega

omit [FloatOps F] in
/-- A unit-stride rectangle from the origin over a whole shape indexes it as the shape does. -/
theorem rect_full_emb {S : Shape} (off : Fin S.rank → ℕ) (hoff : ∀ a, off a = 0) (inb : ∀ a, off a + S.size a ≤ S.size a) (j : S.Idx) :
    (Rect.unit (s := S) off S.size inb).emb j = j := by
  funext a; apply Fin.ext
  rw [Rect.emb_apply]
  show off a + 1 * (j a).val = (j a).val
  rw [hoff a]; omega

omit [FloatOps F] in
theorem rect_full_idx {S : Shape} (off : Fin S.rank → ℕ) (hoff : ∀ a, off a = 0) (inb : ∀ a, off a + S.size a ≤ S.size a) (j : S.Idx) :
    (Rect.unit (s := S) off S.size inb).toLoadRect.idx j = j := by
  funext a; apply Fin.ext
  rw [LoadRect.idx_apply]
  show off a + 1 * (j a).val = (j a).val
  rw [hoff a]; omega

omit [FloatOps F] in
theorem zero2_apply (a : Fin 2) : (![0, 0] : Fin 2 → ℕ) a = 0 := by fin_cases a <;> rfl

/-- The matrix product's body on any three whole staging memrefs: it loads the two operands, stores the product. -/
theorem body_any (c : Dev nD) (M0 : Memref sig .tc .vmem S100x32 .f32) (h0 : M0.IsWhole) (M1 : Memref sig .tc .vmem S32x12800 .f32) (h1 : M1.IsWhole)
    (M2 : Memref sig .tc .vmem S100x12800 .f32) (h2 : M2.IsWhole) (X0 : S100x32.Idx → Elt F .f32) (X1 : S32x12800.Idx → Elt F .f32) (R : sProp 𝕄) :
    iprop(R ∗ owns (c.tc : Thread nD τ) M0 fullShare X0 ∗ owns (c.tc : Thread nD τ) M1 fullShare X1 ∗ ∃ d, owns (c.tc : Thread nD τ) M2 fullShare d)
      ⊢ wp frame (wpE (defs₀ (F := F)) 𝒱₀ (c.tc : Thread nD τ) none) Set.univ (cc0_body M0 h0 M1 h1 M2 h2) fun _ =>
          iprop(R ∗ owns (c.tc : Thread nD τ) M0 fullShare X0 ∗ owns (c.tc : Thread nD τ) M1 fullShare X1 ∗ owns (c.tc : Thread nD τ) M2 fullShare (k0_pay1 X0 X1)) := by
  rw [cc0_body_eq_skeleton]; unfold cc0_body_skel
  unfold owns
  iintro ⟨HR, ⟨%f0, %e0, H0⟩, ⟨%f1, %e1, H1⟩, %d2, %f2, %e2, H2⟩
  have hr0 : View.readAt (Elt F) M0.view (Rect.unit ![0, 0] S100x32.size inb_S100x32_S100x32_0_0).toLoadRect f0 = X0 := by
    rw [← e0]; funext x
    rw [View.readAt_apply, rect_full_idx (S := S100x32) _ zero2_apply]
  have hr1 : View.readAt (Elt F) M1.view (Rect.unit ![0, 0] S32x12800.size inb_S32x12800_S32x12800_0_0).toLoadRect f1 = X1 := by
    rw [← e1]; funext x
    rw [View.readAt_apply, rect_full_idx (S := S32x12800) _ zero2_apply]
  sl_exec
  rw [wp_ret]; imodintro
  isplitl [HR]; · iexact HR
  isplitl [H0]
  · iexists f0; isplitr
    · ipureintro; exact e0
    · iexact H0
  isplitl [H1]
  · iexists f1; isplitr
    · ipureintro; exact e1
    · iexact H1
  iexists (M2.view.writes (Elt F) f2 [⟨Rect.unit ![0, 0] S100x12800.size inb_S100x12800_S100x12800_0_0, k0_pay1 X0 X1⟩]); isplitr
  · ipureintro; funext x
    have h := View.read_writes_cons_emb (v := M2.view) (f := f2) (Rect.unit ![0, 0] S100x12800.size inb_S100x12800_S100x12800_0_0) (k0_pay1 X0 X1) [] x
    rwa [rect_full_emb (S := S100x12800) _ zero2_apply] at h
  · iexact H2

/-- What the pipeline hands the body in the first operand's staging buffer: the operand. -/
theorem before0 (c : Dev nD) (d : S100x32.Idx → Elt F .f32) : (pdat V c).before 0 t0_0 d = V v1' := by
  unfold Pipeline.Dat.before
  rw [if_pos (fetch0_0 t0_0)]
  refine ((pdat V c).cut_fetched 0 t0_0 d).trans ?_
  funext x
  unfold Pipeline.Dat.blockOf
  rw [View.read_apply]
  exact congrArg (V v1') (rect_full_emb (S := S100x32) (fun a => 0 * S100x32.size a) (fun a => Nat.zero_mul _) _ x)

theorem before1 (c : Dev nD) (d : S32x12800.Idx → Elt F .f32) : (pdat V c).before 1 t0_0 d = V v13' := by
  unfold Pipeline.Dat.before
  rw [if_pos (fetch0_1 t0_0)]
  refine ((pdat V c).cut_fetched 1 t0_0 d).trans ?_
  funext x
  unfold Pipeline.Dat.blockOf
  rw [View.read_apply]
  exact congrArg (V v13') (rect_full_emb (S := S32x12800) (fun a => 0 * S32x12800.size a) (fun a => Nat.zero_mul _) _ x)

theorem body_obl (c : Dev nD) : Pipeline.BodyObligationLoose (pdat V c) (defs₀ (F := F)) 𝒱₀ (none : HIx 1) Set.univ := by
  intro t
  have ht : t = t0_0 := fin_N0 t
  subst ht
  show iprop(_ ∗ _ ∗ bigSep Finset.univ _) ⊢ wp frame _ _ (bodyAt0 t0_0) _
  simp only [bigSep_W0, before0, before1]
  have h := body_any (F := F) c (stage0_0 0) (hstage0_0 0) (stage0_1 0) (hstage0_1 0) (stage0_2 0) (hstage0_2 0) (V v1') (V v13')
    ((pdat V c).owesAt none t0_0.castSucc)
  refine BI.Entails.trans ?_ (h.trans (wp_mono frame _ _ fun _ => ?_))
  · show (_ : sProp 𝕄) ⊢ _
    iintro ⟨-, HO, ⟨%d0, H0⟩, ⟨%d1, H1⟩, H2⟩
    isplitl [HO]; · iexact HO
    isplitl [H0]; · iexact H0
    isplitl [H1]; · iexact H1
    iexact H2
  · show (_ : sProp 𝕄) ⊢ _
    iintro ⟨HO, H0, H1, H2⟩
    isplitr; · iapply (Entails.of_eq (show (iprop(emp) : sProp 𝕄) = (pdat V c).Φ t0_0.succ from rfl)); iempintro
    isplitl [HO]
    · iapply (Entails.of_eq (show ((pdat V c).owesAt none t0_0.castSucc : sProp 𝕄) = (pdat V c).owesAt none t0_0.succ from rfl)); iexact HO
    isplitl [H0]; · iexact H0
    isplitl [H1]; · iexact H1
    iexact H2

abbrev S3 : Finset (DevRef τ sig) := {v1', v13', v14'}
theorem S3_sub : S3 ⊆ UC := by decide

omit [FloatOps F] in
theorem held_S3 (c : Dev nD) (W : Valuation τ sig (Elt F)) :
    (held (SparseCore.T c) S3 W : sProp 𝕄)
      = iprop(((SparseCore.T c).loc main_v1 ↦{fullShare} W v1') ∗ ((SparseCore.T c).loc main_v13 ↦{fullShare} W v13') ∗ ((SparseCore.T c).loc main_v14 ↦{fullShare} W v14')) := by
  unfold held S3
  rw [SparseCore.bigSep_insert' (by decide), SparseCore.bigSep_insert' (by decide), bigSep_singleton]

/-- The pipeline's three arrays, one by one. -/
theorem arrays_eq3 (c : Dev nD) (G' : (w : Fin cfg0.W) → Buf (Elt F) ((cfg0.win w).arr.view.loc (c.tc : Thread nD τ))) :
    ((pdat V c).arrays G' : sProp 𝕄)
      = iprop(((SparseCore.T c).loc main_v1 ↦{fullShare} G' 0) ∗ ((SparseCore.T c).loc main_v13 ↦{fullShare} G' 1) ∗ ((SparseCore.T c).loc main_v14 ↦{fullShare} G' 2)) := by
  unfold Pipeline.Dat.arrays
  rw [bigSep_W0]
  simp only [Memref.view_whole, View.set_whole]
  rfl

omit [FloatOps F] in
theorem held_upd (c : Dev nD) (X : v14'.ty.Contents (Elt F)) : (held (SparseCore.T c) UC (Function.update V v14' X) : sProp 𝕄)
    = iprop((((SparseCore.T c).loc main_v1 ↦{fullShare} V v1') ∗ ((SparseCore.T c).loc main_v13 ↦{fullShare} V v13') ∗ ((SparseCore.T c).loc main_v14 ↦{fullShare} X))
        ∗ held (SparseCore.T c) (UC \ S3) V) := by
  rw [StableHlo.held_sub_split (SparseCore.T c) S3_sub, held_S3, Function.update_of_ne (show v1' ≠ v14' by decide), Function.update_of_ne (show v13' ≠ v14' by decide), Function.update_self,
    StableHlo.held_congr (SparseCore.T c) (S := UC \ S3) (V := Function.update V v14' X) (V' := V) fun b hb =>
      Function.update_of_ne (show b ≠ v14' from fun e => (Finset.mem_sdiff.mp hb).2 (e ▸ (by decide : v14' ∈ S3))) _ _]

omit [FloatOps F] in
/-- Writing every element through a unit-stride rectangle from the origin over a whole buffer replaces its contents. -/
theorem write_full {κ : Kind} (b : Ref sig κ) (off : Fin b.ty.shape.rank → ℕ) (hoff : ∀ a, off a = 0) (inb : ∀ a, off a + b.ty.shape.size a ≤ b.ty.shape.size a)
    (f w : b.ty.Contents (Elt F)) :
    ((View.whole b).slice (Rect.unit off b.ty.shape.size inb)).write (Elt F) f w Finset.univ = w := by
  funext i
  have h := View.write_emb_of_mem (v := (View.whole b).slice (Rect.unit off b.ty.shape.size inb)) f w (Finset.mem_univ i)
  rw [View.emb_slice, Function.Embedding.trans_apply, View.emb_whole, Function.Embedding.refl_apply, rect_full_emb _ hoff] at h
  exact h

theorem N_one : (Pipeline.pin (pcfgs (F := F)) adm 0).N = 1 := N_0

theorem arrAt_0 (c : Dev nD) : (pdat V c).arrAt 0 (Pipeline.pin (pcfgs (F := F)) adm 0).N = V v1' := by
  rw [N_one]
  show (pdat V c).arrAt 0 (0 + 1) = _
  rw [Pipeline.Dat.arrAt]
  have hfl : ∀ t : Fin cfg0.N, (cfg0.win 0).flush t = false := (by decide +kernel : ∀ t : Fin grid0.N, win0_0.flush t = false)
  simp only [hfl, Bool.false_eq_true, if_false, dite_eq_ite, ite_self]
  rfl

theorem arrAt_1 (c : Dev nD) : (pdat V c).arrAt 1 (Pipeline.pin (pcfgs (F := F)) adm 0).N = V v13' := by
  rw [N_one]
  show (pdat V c).arrAt 1 (0 + 1) = _
  rw [Pipeline.Dat.arrAt]
  have hfl : ∀ t : Fin cfg0.N, (cfg0.win 1).flush t = false := (by decide +kernel : ∀ t : Fin grid0.N, win0_1.flush t = false)
  simp only [hfl, Bool.false_eq_true, if_false, dite_eq_ite, ite_self]
  rfl

theorem arrAt_2 (c : Dev nD) : (pdat V c).arrAt 2 (Pipeline.pin (pcfgs (F := F)) adm 0).N = k0_pay1 (V v1') (V v13') := by
  rw [N_one]
  show (pdat V c).arrAt 2 (0 + 1) = _
  rw [Pipeline.Dat.arrAt, dif_pos (show 0 < cfg0.N by decide), if_pos (flush0_2 _)]
  exact write_full (main_v14 : Ref sig .tc) (fun a => 0 * S100x12800.size a) (fun a => Nat.zero_mul _) _ _ _

def regionSeg : Pipeline.RegionSeg (pcfgs (F := F)) adm (pdats V) (none : HIx 1) (defs₀ (F := F)) 𝒱₀ (K (F := F)).L (K (F := F)).lev 0 where
  win := winFacts0.to₀
  block_pos := block_pos0
  stage_whole := stage_whole0
  K := PEmpty
  osem := fun k => k.elim
  ho := Pipeline.OwnSemFacts.none _
  hbody := fun c => body_obl V c
  hwaits := fun c => Pipeline.cellsWaits_intro (Pipeline.pin (pcfgs (F := F)) adm) (pdats V) (none : HIx 1) 0 c
    fun w s t => (K (F := F)).mayWait_none _ (Otc_none c 0)
  pre := fun c => iprop(held (SparseCore.T c) UC V ∗ ∃ W, ⌜(K (F := F)).WBelow (SparseCore.T c) W 0⌝ ∗ owes (SparseCore.T c) ((K (F := F)).Otc c 0) W)
  post := fun c => iprop(held (SparseCore.T c) UC (Function.update V v14' (k0_pay1 (V v1') (V v13')))
    ∗ ∃ W, ⌜(K (F := F)).WBelow (SparseCore.T c) W 0⌝ ∗ owes (SparseCore.T c) ((K (F := F)).Otc c 0) W)
  X := fun _ => iprop(emp)
  Y := fun _ => iprop(emp)
  Z := fun c => held (SparseCore.T c) (UC \ S3) V
  hentry := fun c => by
    iintro ⟨⟨Hheld, %W, %hW, HO⟩, -, -⟩
    imodintro
    ihave Hh := (Entails.of_eq (StableHlo.held_sub_split (SparseCore.T c) S3_sub V)) $$ Hheld
    icases Hh with ⟨H3, Hrest⟩
    ihave H3' := (Entails.of_eq (held_S3 c V)) $$ H3
    isplitl [H3']
    · iapply (Entails.of_eq (arrays_eq3 V c _).symm); iexact H3'
    isplitr
    · unfold Pipeline.prefHeld; rw [Finset.univ_eq_empty, bigSep_empty]; iempintro
    isplitl [HO]
    · iexists W; isplitr
      · ipureintro; exact fun p hp => Or.inl (hW p hp)
      · iexact HO
    isplitr; · iempintro
    iexact Hrest
  hin := fun c => by iintro -; unfold pdats pdat; iempintro
  hout := fun c => by
    rw [Pipeline.ownSems0_none nD τ sig (Elt F) (HIx 1) ℕ UU ℕ c,
      show (Pipeline.scopedRest (Ix := HIx 1) (Name := ℕ) (U := UU) (Lvl := ℕ) (Val := Elt F) (Pipeline.pin (pcfgs (F := F)) adm 0).spec c : sProp 𝕄) = BI.emp from scopedRest0_eq c]
    iintro -
    isplitr; · iempintro
    isplitr <;> iempintro
  hexit := fun c => by
    iintro ⟨Harr, ⟨%W, %hW, HO⟩, -, Hrest⟩
    imodintro
    ihave H3 := (Entails.of_eq (arrays_eq3 V c _)) $$ Harr
    isplitl [H3 Hrest]
    · iapply (Entails.of_eq (held_upd V c _).symm)
      isplitl [H3]
      · rw [show (pdats V 0 c).arrAt 0 (Pipeline.pin (pcfgs (F := F)) adm 0).N = V v1' from arrAt_0 V c,
          show (pdats V 0 c).arrAt 1 (Pipeline.pin (pcfgs (F := F)) adm 0).N = V v13' from arrAt_1 V c,
          show (pdats V 0 c).arrAt 2 (Pipeline.pin (pcfgs (F := F)) adm 0).N = k0_pay1 (V v1') (V v13') from arrAt_2 V c]
        iexact H3
      · iexact Hrest
    iexists W; isplitr
    · ipureintro; intro p hp
      rcases hW (Finset.mem_coe.mpr hp) with h | ⟨w, s, rfl⟩
      · exact h
      · exact Nat.le_of_eq rfl
    · iexact HO

theorem regionSeg_pre (c : Dev nD) : ((regionSeg V).pre c : sProp 𝕄)
    = iprop(held (SparseCore.T c) UC V ∗ ∃ W, ⌜(K (F := F)).WBelow (SparseCore.T c) W 0⌝ ∗ owes (SparseCore.T c) ((K (F := F)).Otc c 0) W) := rfl
theorem regionSeg_post (c : Dev nD) : ((regionSeg V).post c : sProp 𝕄)
    = iprop(held (SparseCore.T c) UC (Function.update V v14' (k0_pay1 (V v1') (V v13')))
        ∗ ∃ W, ⌜(K (F := F)).WBelow (SparseCore.T c) W 0⌝ ∗ owes (SparseCore.T c) ((K (F := F)).Otc c 0) W) := rfl

/-- The matrix product on the TensorCore: its two operands staged in, the product staged out; the TensorCore owes its
    start signals throughout. -/
theorem hregion [∀ e, Nonempty (Elt F e)] (d : Dev nD) (W : Waits sig (HIx 1)) (hW : (K (F := F)).WBelow (SparseCore.T d) W 0)
    (Φ : PUnit → sProp 𝕄) :
    iprop(levAts (K (F := F)).L (K (F := F)).lev ∗ boundary (SparseCore.T d) ∗ held (SparseCore.T d) UC V
        ∗ owes (SparseCore.T d) ((K (F := F)).Otc d 0) W ∗ G (F := F) d
        ∗ ((boundary (SparseCore.T d) ∗ held (SparseCore.T d) UC (Function.update V v14' (k0_pay1 (V v1') (V v13')))
            ∗ ∃ W', ⌜(K (F := F)).WBelow (SparseCore.T d) W' 0⌝ ∗ owes (SparseCore.T d) ((K (F := F)).Otc d 0) W') -∗ Φ ⟨⟩))
      ⊢ wp frame (wpE ((K (F := F)).defs (D (F := F))) 𝒱 (SparseCore.T d) none) Set.univ
          (Prog.lift (.customCall (SparseCore.inner (Pipeline.entry 0)) ())) Φ := by
  have hl : (SparseCore.liftProg (Q := 1) (Prog.lift (.customCall (Pipeline.entry (0 : Fin 1)) ()) : Prog (TpuEff nD τ sig (Elt F) (ΛP (F := F)) .tc) PUnit))
      = (Prog.lift (.customCall (SparseCore.inner (Pipeline.entry 0)) ()) : Prog (TpuEff nD τ sig (Elt F) (SparseCore.Sig (ΛP (F := F)) 1) .tc) PUnit) := rfl
  rw [← hl]
  refine BI.Entails.trans ?_ ((K (F := F)).wp_liftProg (D (F := F)) 𝒱 (SparseCore.T d) Set.univ none
    (Prog.lift (.customCall (Pipeline.entry (0 : Fin 1)) ()) : Prog (TpuEff nD τ sig (Elt F) (ΛP (F := F)) .tc) PUnit) Φ)
  show (_ : sProp 𝕄) ⊢ _
  unfold G
  iintro ⟨#Hlev, Hb, Hheld, HO, ⟨Hg, Ht⟩, Hk⟩
  iapply (Pipeline.RegionSeg.wp (pcfgs (F := F)) adm (pdats V) (none : HIx 1) cellOf_inj (EP : Emb UP 𝕄) (defs₀ (F := F)) 𝒱₀
    (K (F := F)).L (K (F := F)).lev (regionSeg V) d none (fun u h => nomatch h) (fun _ => .ret ⟨⟩) Φ) $$ [Hb Hheld HO Hg Ht Hk]
  isplitl [Hk]
  · iintro ⟨Hb, Hpost⟩
    rw [wp_ret]; imodintro
    iapply Hk
    isplitl [Hb]; · iexact Hb
    iapply (Entails.of_eq (regionSeg_post V d)); iexact Hpost
  isplitl [Hb]; · iexact Hb
  isplitl [Hheld HO]
  · iapply (Entails.of_eq (regionSeg_pre V d).symm)
    isplitl [Hheld]; · iexact Hheld
    iexists W; isplitr
    · ipureintro; exact hW
    · iexact HO
  isplitr; · iexact Hlev
  isplitl [Hg]; · iexact Hg
  iexact Ht

end Region

end Cert.Proof.KB

end
-- ==== Proof.LaunchB.lean ====
/-
  The launch of the idealized kernel program: from one vector subcore's body to the run of the whole program. The
  call hands each of the 32 subcores a read share of the flat indices, of the pair table and of the third-core table,
  and its own 851968 words of the flat result; a SparseCore's payload is its sixteen subcores' payloads side by side.
  @main on the TensorCore computes the pair table (host operations and one matrix product on the TensorCore, its
  operands and result staged through the core's own memory), the padded third-core table and the flat indices, deals
  the shares, starts the SparseCores and waits for them, and reshapes the flat result.
-/
import proofs.«207215_g13752485282153_cont_week2b_1454_30_alg».proof.Proof.CommonB
import proofs.«207215_g13752485282153_cont_week2b_1454_30_alg».proof.Proof.TileSpec
import proofs.«207215_g13752485282153_cont_week2b_1454_30_alg».proof.Proof.Hundredth
import proofs.«207215_g13752485282153_cont_week2b_1454_30_alg».proof.Proof.TileIfaceB
import proofs.«207215_g13752485282153_cont_week2b_1454_30_alg».proof.Proof.RegionB
import proofs.«207215_g13752485282153_cont_week2b_1454_30_alg».proof.Proof.Gen.Kernel.Launch
import proofs.«207215_g13752485282153_cont_week2b_1454_30_alg».proof.Proof.Gen.Kernel.Points
import Idealize.ShloMosaic.Lib.Pipeline.Regions
import Idealize.ShloMosaic.Lib.Pipeline.Frame

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

open Idealize.ShloMosaic.Transfers (shareTok)

/-! ## The configuration's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid1.bound 0 := rfl
theorem nSub_zero : (K (F := F)).nSub 0 = grid1.bound 1 := rfl

/-- Subcore `(c, s)` of the call's grid as the kernel's coordinates. -/
def cLof (c : Fin ((K (F := F)).nCore 0)) (i : Fin ((K (F := F)).nSub 0)) : grid1.Coords :=
  coordsV (Fin.cast nCore_zero c) (Fin.cast nSub_zero i)

/-! ## The launch memory, and what @main hands the kernel -/

variable (m : (ℓ : Loc nD τ sig) → Buf (Elt F) ℓ) (ρ : Dev nD → PrngReg)

/-- What the proof asks of the launch memory: every index word is in `[0, 999999]`. -/
def PreOK : Prop := ∀ (d : Dev nD) j, 0 ≤ (m ((SparseCore.T d).loc main_arg0) j).toInt ∧ (m ((SparseCore.T d).loc main_arg0) j).toInt ≤ 999999

/-- The flat indices: the index array reshaped. -/
def idxAt (d : Dev nD) : Buf (Elt F) (idxLoc d) :=
  shapeCast S425984 (m ((SparseCore.T d).loc main_arg0)) shapeCasts_S16384x26_S425984

/-- The left operand of the matrix product: the first core as a 100 × 32 matrix. -/
def lhsAt (d : Dev nD) : Vec F S100x32 .f32 :=
  shapeCast S100x32 (shapeCast S100x4x8 (m ((SparseCore.T d).loc main_arg1)) shapeCasts_S1x100x4x8_S100x4x8) shapeCasts_S100x4x8_S100x32

/-- The 4 × 4 identity as the host computes it. -/
def eyeAt : Vec F S4x4 .f32 :=
  uitofp .f32 (cmpi .eq (addi (iotaInDim S4x4 32 0) (broadcastInDim S4x4 ![] bcast_S_S4x4 (constantI S_ 32 0#32))) (iotaInDim S4x4 32 1))

/-- The right operand: the identity times the second core, as a 32 × 12800 matrix. -/
def rhsAt (d : Dev nD) : Vec F S32x12800 .f32 :=
  shapeCast S32x12800
    (mulf (broadcastInDim S4x8x100x4x4x8 ![0, 1, 2, 3, 4, 5] bcast_S4x1x1x4x1x1_S4x8x100x4x4x8_0_1_2_3_4_5
            (broadcastInDim S4x1x1x4x1x1 ![0, 3] bcast_S4x4_S4x1x1x4x1x1_0_3 (eyeAt (F := F))))
          (broadcastInDim S4x8x100x4x4x8 ![0, 1, 2, 3, 4, 5] bcast_S1x8x100x1x4x8_S4x8x100x4x4x8_0_1_2_3_4_5
            (broadcastInDim S1x8x100x1x4x8 ![1, 2, 4, 5] bcast_S8x100x4x8_S1x8x100x1x4x8_1_2_4_5 (m ((SparseCore.T d).loc main_arg2)))))
    shapeCasts_S4x8x100x4x4x8_S32x12800

/-- The pair table: the matrix product, as 10000 rows of 128. -/
def ptAt (d : Dev nD) : Buf (Elt F) (ptLoc d) :=
  shapeCast S10000x128 (k0_pay1 (lhsAt m d) (rhsAt m d)) shapeCasts_S100x12800_S10000x128

/-- The third-core table: 33 words a digit, four words of padding at the end. -/
def ctAt (d : Dev nD) : Buf (Elt F) (ctLoc d) :=
  pad S3304 ![0] ![4] ![0]
    (shapeCast S3300
      (pad S100x33 ![0, 0] ![0, 1] ![0, 0]
        (shapeCast S100x32 (transpose S100x8x4 [1, 0, 2] (shapeCast S8x100x4 (m ((SparseCore.T d).loc main_arg3)) shapeCasts_S8x100x4x1_S8x100x4) transposes_S8x100x4_S100x8x4_1_0_2)
          shapeCasts_S100x8x4_S100x32)
        (sitofp .f32 (constantI S_ 32 0#32)) pads_S100x32_S100x33_000_010 h_S_)
      shapeCasts_S100x33_S3300)
    (sitofp .f32 (constantI S_ 32 0#32)) pads_S3300_S3304_040 h_S_

/-! ## What the handshakes carry -/

section Payload

variable (fi : (d : Dev nD) → Buf (Elt F) (idxLoc d)) (fp : (d : Dev nD) → Buf (Elt F) (ptLoc d))
  (fc : (d : Dev nD) → Buf (Elt F) (ctLoc d)) (fo : (d : Dev nD) → Buf (Elt F) (outLoc d))

/-- The one call hands SparseCore `c` its sixteen subcores' shares and words, and takes them back. -/
def P : (K (F := F)).Pay (nD := nD) (Val := Elt F) (Name := ℕ) (U := UU) where
  st := fun q d c => match q with
    | 0 => bigSep Finset.univ fun i : Fin ((K (F := F)).nSub 0) => goP d (fi d) (fp d) (fc d) (fo d) (cLof c i)
  dn := fun q d c => match q with
    | 0 => bigSep Finset.univ fun i : Fin ((K (F := F)).nSub 0) => tdP d (fi d) (fp d) (fc d) (cLof c i)
  go := fun q d c i => match q with
    | 0 => goP d (fi d) (fp d) (fc d) (fo d) (cLof c i)
  td := fun q d c i => match q with
    | 0 => tdP d (fi d) (fp d) (fc d) (cLof c i)
  x := fun _ _ => iprop(emp)

instance goP_storable (d : Dev nD) (L : grid1.Coords) : BI.Storable (upEmb : UEmb _ 𝕄) (goP d (fi d) (fp d) (fc d) (fo d) L) := by
  unfold goP; infer_instance
instance tdP_storable (d : Dev nD) (L : grid1.Coords) : BI.Storable (upEmb : UEmb _ 𝕄) (tdP d (fi d) (fp d) (fc d) L) := by
  unfold tdP; infer_instance

instance P_storable : (P (F := F) fi fp fc fo).IsStorable where
  st q d c := match q with | 0 => by unfold P; infer_instance
  dn q d c := match q with | 0 => by unfold P; infer_instance
  go q d c i := match q with | 0 => by unfold P; infer_instance
  td q d c i := match q with | 0 => by unfold P; infer_instance

theorem defs₀_vector (c : Fin τ.nSC) (s : Fin τ.nSub) :
    defs₀ (F := F) (.scVector c s) 1 ()
      = SparseCore.onTile hcore1 hsub1 (fun c s => cc1__sc_lookup (coordsV c s) idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation: the body table's entry for a vector subcore of the grid is the kernel at that subcore's
    coordinates, which the tile body's statement runs. -/
theorem tileObl (htile : TileBodyOK F) (hH : Hundredth.OK F (c100 (F := F))) (hidx : ∀ d j, 0 ≤ (fi d j).toInt ∧ (fi d j).toInt ≤ 999999) :
    (K (F := F)).TileObl (D (F := F)) 𝒱 (P fi fp fc fo) v₀ 0 := by
  intro d c i O W hO _ _
  simp only [show (P fi fp fc fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (fi d) (fp d) (fc d) (fo d) hH (hidx d) facts (coordsV ⟨_, hc.1⟩ ⟨_, hc.2⟩) O W hO).trans (wp_mono frame _ _ fun _ => obl_post)

/-- A SparseCore's payload is its subcores' payloads side by side: the split is the identity. -/
theorem vecSplit : (K (F := F)).VecSplit' (P fi fp fc fo) 0 := by
  intro d c
  show (bigSep Finset.univ fun i : Fin ((K (F := F)).nSub 0) => goP d (fi d) (fp d) (fc d) (fo d) (cLof c i))
    ⊢ |={Set.univ}=> iprop((bigSep Finset.univ fun i : Fin ((K (F := F)).nSub 0) => goP d (fi d) (fp d) (fc d) (fo d) (cLof c i))
      ∗ ((bigSep Finset.univ fun i : Fin ((K (F := F)).nSub 0) => tdP d (fi d) (fp d) (fc d) (cLof c i))
          -∗ bigSep Finset.univ fun i : Fin ((K (F := F)).nSub 0) => tdP d (fi d) (fp d) (fc d) (cLof c i)))
  iintro H; imodintro
  isplitl [H]; · iexact H
  iintro H; iexact H

end Payload

/-- The payload at what @main computes. -/
abbrev PM (fo : (d : Dev nD) → Buf (Elt F) (outLoc d)) := P (F := F) (idxAt m) (ptAt m) (ctAt m) fo

/-! ## Dealing the arrays to the 32 subcores -/

section Deal

variable (d : Dev nD)

/-- Subcore `(c, i)` of the grid, `c` below 2 and `i` below 16. -/
abbrev cL (c : Fin 2) (i : Fin 16) : grid1.Coords := coordsV c i

omit [FloatOps F] in
theorem wid_cL (c : Fin 2) (i : Fin 16) : wid (cL c i) = 2 * i.val + c.val := rfl

/-- The subcores by worker number. -/
def widE : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit [FloatOps F] in
/-- A family over the 32 workers is one over the grid's subcores. -/
theorem bigSep_workers (Φ : Fin 32 → sProp 𝕄) :
    bigSep Finset.univ Φ = bigSep Finset.univ fun c : Fin 2 => bigSep Finset.univ fun i : Fin 16 => Φ ⟨wid (cL c i), wid_lt _⟩ := by
  rw [bigSep_univ_equiv widE Φ, bigSep_univ_prod]; rfl

omit [FloatOps F] in
theorem mem_oSet (L : grid1.Coords) (j : S27262976.Idx) :
    j ∈ oSet L ↔ 851968 * wid L ≤ (j 0).val ∧ (j 0).val < 851968 * wid L + 851968 := by
  show j ∈ ((View.whole (main_v23_scv : Ref sig .scVector)).slice (oRect L)).set ↔ _
  rw [View.set_slice_whole, Rect.mem_set_unit]
  show (∀ a : Fin 1, (![851968 * wid L] : Fin 1 → ℕ) a ≤ (j a).val ∧ (j a).val < (![851968 * wid L] : Fin 1 → ℕ) a + (![851968] : Fin 1 → ℕ) a) ↔ _
  rw [Fin.forall_fin_one]; rfl

omit [FloatOps F] in
theorem oSet_disjoint : ∀ p ∈ (Finset.univ : Finset (Fin 2 × Fin 16)), ∀ p' ∈ (Finset.univ : Finset (Fin 2 × Fin 16)), p ≠ p' →
    Disjoint (oSet (cL p.1 p.2)) (oSet (cL p'.1 p'.2)) := by
  intro p _ p' _ hne
  refine Finset.disjoint_left.mpr fun j h1 h2 => ?_
  rw [mem_oSet, wid_cL] at h1 h2
  have h1a := p.1.isLt; have h1b := p'.1.isLt
  apply hne
  refine Prod.ext (Fin.ext ?_) (Fin.ext ?_) <;> omega

omit [FloatOps F] in
theorem oSet_cover : (Finset.univ : Finset (Fin 2 × Fin 16)).biUnion (fun p => oSet (cL p.1 p.2)) = Finset.univ := by
  ext j
  simp only [Finset.mem_biUnion, Finset.mem_univ, true_and, iff_true]
  have hj : (j 0).val < 27262976 := (j 0).isLt
  refine ⟨(⟨((j 0).val / 851968) % 2, Nat.mod_lt _ (by decide)⟩, ⟨((j 0).val / 851968) / 2, by omega⟩), ?_⟩
  rw [mem_oSet, wid_cL]
  show 851968 * (2 * (((j 0).val / 851968) / 2) + ((j 0).val / 851968) % 2) ≤ (j 0).val
    ∧ (j 0).val < 851968 * (2 * (((j 0).val / 851968) / 2) + ((j 0).val / 851968) % 2) + 851968
  omega

omit [FloatOps F] in
/-- The flat result whole is its 32 parts. -/
theorem out_parts (f : Buf (Elt F) (outLoc d)) :
    (outLoc d ↦{fullShare} f : sProp 𝕄) = bigSep Finset.univ fun c : Fin 2 => bigSep Finset.univ fun i : Fin 16 => outLoc d ↦[oSet (cL c i)]{fullShare} f := by
  rw [← bigSep_univ_prod (fun p : Fin 2 × Fin 16 => (outLoc d ↦[oSet (cL p.1 p.2)]{fullShare} f : sProp 𝕄)),
    ← pointsTo_biUnion Finset.univ (ℓ := outLoc d) (fun p : Fin 2 × Fin 16 => oSet (cL p.1 p.2)) oSet_disjoint, oSet_cover]

omit [FloatOps F] in
/-- An array whole is its 32 read tokens, dealt by worker number, and the remainder. -/
theorem toks_parts {ℓ : Loc nD τ sig} (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{shareTok fullShare 32 ⟨wid (cL c i), wid_lt _⟩} f) := by
  rw [← bigSep_workers (fun w => (ℓ ↦{shareTok fullShare 32 w} f : sProp 𝕄))]
  exact Transfers.pointsTo_toks fullShare 32

variable (fi : Buf (Elt F) (idxLoc d)) (fp : Buf (Elt F) (ptLoc d)) (fc : Buf (Elt F) (ctLoc d))

/-- What @main keeps aside during the call: the remainders of the three read arrays. -/
def kept : sProp 𝕄 :=
  iprop((idxLoc d ↦{Transfers.shareDrop fullShare 32} fi) ∗ (ptLoc d ↦{Transfers.shareDrop fullShare 32} fp) ∗ (ctLoc d ↦{Transfers.shareDrop fullShare 32} fc))

/-- The four arrays whole are the 32 subcores' payloads and the remainders. -/
theorem deal (fo : Buf (Elt F) (outLoc d)) :
    iprop((idxLoc d ↦{fullShare} fi) ∗ (ptLoc d ↦{fullShare} fp) ∗ (ctLoc d ↦{fullShare} fc) ∗ (outLoc d ↦{fullShare} fo))
      ⊢ iprop((bigSep Finset.univ fun c : Fin 2 => bigSep Finset.univ fun i : Fin 16 => goP d fi fp fc fo (cL c i)) ∗ kept d fi fp fc) := by
  unfold kept goP
  rw [out_parts]
  simp only [bigSep_sep']
  iintro ⟨Hi, Hp, Hc, Ho⟩
  ihave Hi' := (toks_parts fi).1 $$ Hi
  ihave Hp' := (toks_parts fp).1 $$ Hp
  ihave Hc' := (toks_parts fc).1 $$ Hc
  icases Hi' with ⟨Hid, Hit⟩
  icases Hp' with ⟨Hpd, Hpt⟩
  icases Hc' with ⟨Hcd, Hct⟩
  isplitl [Hit Hpt Hct Ho]
  · isplitl [Hit]; · iexact Hit
    isplitl [Hpt]; · iexact Hpt
    isplitl [Hct]; · iexact Hct
    iexact Ho
  isplitl [Hid]; · iexact Hid
  isplitl [Hpd]; · iexact Hpd
  iexact Hcd

omit [FloatOps F] in
theorem sep_pure_swap {A : sProp 𝕄} {φ : Prop} : iprop(A ∗ ⌜φ⌝) ⊢ (iprop(⌜φ⌝ ∗ A) : sProp 𝕄) := by
  iintro ⟨H, %h⟩
  isplitr; · ipureintro; exact h
  iexact H

/-- What a subcore's done work says of any flat result that agrees with its own on its words. -/
theorem OutOK_congr {w : ℕ} (hw : w < 32) {f g : Buf (Elt F) (outLoc d)}
    (h : ∀ j : S27262976.Idx, 851968 * w ≤ (j 0).val → (j 0).val < 851968 * w + 851968 → g j = f j)
    (hf : TileSpec.OutOK (F := F) fi fp fc w f) : TileSpec.OutOK (F := F) fi fp fc w g := by
  intro t e
  rw [← hf t e]
  have ht := t.isLt; have he := e.isLt
  have hlt : 64 * (13312 * w + t.val) + e.val < 27262976 := by omega
  apply h
  · show 851968 * w ≤ (64 * (13312 * w + t.val) + e.val) % 27262976
    rw [Nat.mod_eq_of_lt hlt]; omega
  · show (64 * (13312 * w + t.val) + e.val) % 27262976 < 851968 * w + 851968
    rw [Nat.mod_eq_of_lt hlt]; omega

/-- The 32 subcores' results and the remainders are the three read arrays whole, and the flat result whole at some
    contents every subcore has done its work on. -/
theorem undeal [∀ e, Nonempty (Elt F e)] :
    iprop((bigSep Finset.univ fun c : Fin 2 => bigSep Finset.univ fun i : Fin 16 => tdP d fi fp fc (cL c i)) ∗ kept d fi fp fc)
      ⊢ iprop((idxLoc d ↦{fullShare} fi) ∗ (ptLoc d ↦{fullShare} fp) ∗ (ctLoc d ↦{fullShare} fc)
          ∗ ∃ f : Buf (Elt F) (outLoc d), ⌜∀ L : grid1.Coords, TileSpec.OutOK (F := F) fi fp fc (wid L) f⌝ ∗ (outLoc d ↦{fullShare} f)) := by
  unfold kept tdP
  simp only [bigSep_sep']
  iintro ⟨⟨Hit, Hpt, Hct, Ho⟩, Hid, Hpd, Hcd⟩
  isplitl [Hit Hid]
  · iapply (toks_parts fi).2; isplitl [Hid] <;> iassumption
  isplitl [Hpt Hpd]
  · iapply (toks_parts fp).2; isplitl [Hpd] <;> iassumption
  isplitl [Hct Hcd]
  · iapply (toks_parts fc).2; isplitl [Hcd] <;> iassumption
  ihave Ho' := (Entails.of_eq (bigSep_univ_prod (fun p : Fin 2 × Fin 16 =>
    (iprop(∃ f : Buf (Elt F) (outLoc d), (outLoc d ↦[oSet (cL p.1 p.2)]{fullShare} f) ∗ ⌜TileSpec.OutOK (F := F) fi fp fc (wid (cL p.1 p.2)) f⌝) : sProp 𝕄))).symm) $$ Ho
  ihave Ho'' := (bigSep_exists_pi Finset.univ (fun (p : Fin 2 × Fin 16) (f : Buf (Elt F) (outLoc d)) =>
    (iprop((outLoc d ↦[oSet (cL p.1 p.2)]{fullShare} f) ∗ ⌜TileSpec.OutOK (F := F) fi fp fc (wid (cL p.1 p.2)) f⌝) : sProp 𝕄))) $$ Ho'
  icases Ho'' with ⟨%fs, H⟩
  have hswap : (bigSep Finset.univ fun p : Fin 2 × Fin 16 =>
        (iprop((outLoc d ↦[oSet (cL p.1 p.2)]{fullShare} fs p) ∗ ⌜TileSpec.OutOK (F := F) fi fp fc (wid (cL p.1 p.2)) (fs p)⌝) : sProp 𝕄))
      ⊢ iprop(⌜∀ p ∈ (Finset.univ : Finset (Fin 2 × Fin 16)), TileSpec.OutOK (F := F) fi fp fc (wid (cL p.1 p.2)) (fs p)⌝
          ∗ bigSep Finset.univ fun p : Fin 2 × Fin 16 => (outLoc d ↦[oSet (cL p.1 p.2)]{fullShare} fs p : sProp 𝕄)) :=
(bigSep_mono fun p _ => sep_pure_swap).trans (bigSep_pure_sep Finset.univ _ _)
  ihave H2 := hswap $$ H
  icases H2 with ⟨%hok, Hpts⟩
  ihave H' := (pointsTo_biUnion_join Finset.univ (fun p : Fin 2 × Fin 16 => oSet (cL p.1 p.2)) fs (fs (0, 0)) oSet_disjoint) $$ Hpts
  icases H' with ⟨%g, %hg, Hg⟩
  rw [oSet_cover]
  iexists g
  isplitr
  · ipureintro
    intro L
    have hL0 : (L 0).val < 2 := (L 0).isLt
    have hL1 : (L 1).val < 16 := (L 1).isLt
    have hwid : wid (cL ⟨(L 0).val, hL0⟩ ⟨(L 1).val, hL1⟩) = wid L := rfl
    refine OutOK_congr d fi fp fc (wid_lt L) (f := fs (⟨(L 0).val, hL0⟩, ⟨(L 1).val, hL1⟩)) (fun j h1 h2 => ?_) (hwid ▸ hok (⟨(L 0).val, hL0⟩, ⟨(L 1).val, hL1⟩) (Finset.mem_univ _))
    exact hg (⟨(L 0).val, hL0⟩, ⟨(L 1).val, hL1⟩) (Finset.mem_univ _) j ((mem_oSet _ j).mpr (by rw [hwid]; exact ⟨h1, h2⟩))
  · iexact Hg

end Deal

/-! ## The launch element -/

/-- The launch element: the handshakes' rounds, the matrix product's staging cells' rounds, no counter. -/
def u₀ : UU := (initOf (K (F := F)).hsCells (K (F := F)).hsToks,
  (initOf (Pipeline.cells (nD := nD) (τ := τ) cfgs cellOf_inj) (Pipeline.launchToks (nD := nD) (τ := τ) cfgs cellOf_inj), 1))

theorem Px_emp (fo : (d : Dev nD) → Buf (Elt F) (outLoc d)) :
    (bigSep Finset.univ fun thr : Thread nD τ => bigSep Finset.univ fun q : Fin 1 => (PM m fo).x q thr) = (iprop(emp) : sProp 𝕄) := by
  show (bigSep Finset.univ fun _ : Thread nD τ => bigSep Finset.univ fun _ : Fin 1 => (iprop(emp) : sProp 𝕄)) = _
  exact (bigSep_congr fun _ _ => bigSep_emp_const _).trans (bigSep_emp_const _)

theorem hu₀ (fo : (d : Dev nD) → Buf (Elt F) (outLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m fo).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (show (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄)
      ⊢ BI.own ((EP : Emb UP 𝕄) (initOf (Pipeline.cells (nD := nD) (τ := τ) cfgs cellOf_inj) (Pipeline.launchToks (nD := nD) (τ := τ) cfgs cellOf_inj))) from BI.Entails.refl _) $$ HP
  imod (Pipeline.fund_ghost cfgs (EP : Emb UP 𝕄) cellOf_inj) $$ HP' with ⟨Hg, Ht⟩
  imodintro
  isplitl [HH]; · iexact HH
  isplitl [Hg Ht]
  · unfold G
    rw [bigSep_sep']
    isplitl [Hg]
    · iapply (Entails.of_eq (bigSep_congr fun d _ => (bigSep_univ_of_subsingleton (Φ := fun p : Fin 1 => Pipeline.cellsGhost cfgs EP p d) (0 : Fin 1)))); iexact Hg
    · iapply (Entails.of_eq (bigSep_congr fun d _ => (bigSep_univ_of_subsingleton (Φ := fun p : Fin 1 => Pipeline.toksInit cfgs EP p d) (0 : Fin 1)))); iexact Ht
  rw [Px_emp]; iempintro

/-! ## @main on the TensorCore -/

/-- The host operations before the matrix product: its two operands. -/
def ops1 : List (HloOp τ sig (Elt F)) :=
  [StableHlo.reshape main_arg1 main_v0 rfl shapeCasts_S1x100x4x8_S100x4x8,
   StableHlo.reshape main_v0 main_v1 rfl shapeCasts_S100x4x8_S100x32,
   StableHlo.nullary main_v2 (iotaInDim S4x4 32 0),
   StableHlo.nullary main_v3 (iotaInDim S4x4 32 1),
   StableHlo.nullary main_c (constantI S_ 32 0#32),
   StableHlo.unary main_c main_v4 (broadcastInDim S4x4 ![] bcast_S_S4x4 : (⟨S_, .i32⟩ : BufTy).Contents (Elt F) → (⟨S4x4, .i32⟩ : BufTy).Contents (Elt F)),
   StableHlo.binary main_v2 main_v4 main_v5 (addi : (⟨S4x4, .i32⟩ : BufTy).Contents (Elt F) → (⟨S4x4, .i32⟩ : BufTy).Contents (Elt F) → (⟨S4x4, .i32⟩ : BufTy).Contents (Elt F)),
   StableHlo.binary main_v5 main_v3 main_v6 (cmpi .eq : (⟨S4x4, .i32⟩ : BufTy).Contents (Elt F) → (⟨S4x4, .i32⟩ : BufTy).Contents (Elt F) → (⟨S4x4, .i1⟩ : BufTy).Contents (Elt F)),
   StableHlo.unary main_v6 main_v7 (uitofp .f32 : (⟨S4x4, .i1⟩ : BufTy).Contents (Elt F) → (⟨S4x4, .f32⟩ : BufTy).Contents (Elt F)),
   StableHlo.unary main_v7 main_v8 (broadcastInDim S4x1x1x4x1x1 ![0, 3] bcast_S4x4_S4x1x1x4x1x1_0_3 : (⟨S4x4, .f32⟩ : BufTy).Contents (Elt F) → (⟨S4x1x1x4x1x1, .f32⟩ : BufTy).Contents (Elt F)),
   StableHlo.unary main_arg2 main_v9 (broadcastInDim S1x8x100x1x4x8 ![1, 2, 4, 5] bcast_S8x100x4x8_S1x8x100x1x4x8_1_2_4_5 : (⟨S8x100x4x8, .f32⟩ : BufTy).Contents (Elt F) → (⟨S1x8x100x1x4x8, .f32⟩ : BufTy).Contents (Elt F)),
   StableHlo.unary main_v8 main_v10 (broadcastInDim S4x8x100x4x4x8 ![0, 1, 2, 3, 4, 5] bcast_S4x1x1x4x1x1_S4x8x100x4x4x8_0_1_2_3_4_5 : (⟨S4x1x1x4x1x1, .f32⟩ : BufTy).Contents (Elt F) → (⟨S4x8x100x4x4x8, .f32⟩ : BufTy).Contents (Elt F)),
   StableHlo.unary main_v9 main_v11 (broadcastInDim S4x8x100x4x4x8 ![0, 1, 2, 3, 4, 5] bcast_S1x8x100x1x4x8_S4x8x100x4x4x8_0_1_2_3_4_5 : (⟨S1x8x100x1x4x8, .f32⟩ : BufTy).Contents (Elt F) → (⟨S4x8x100x4x4x8, .f32⟩ : BufTy).Contents (Elt F)),
   StableHlo.binary main_v10 main_v11 main_v12 (mulf : (⟨S4x8x100x4x4x8, .f32⟩ : BufTy).Contents (Elt F) → (⟨S4x8x100x4x4x8, .f32⟩ : BufTy).Contents (Elt F) → (⟨S4x8x100x4x4x8, .f32⟩ : BufTy).Contents (Elt F)),
   StableHlo.reshape main_v12 main_v13 rfl shapeCasts_S4x8x100x4x4x8_S32x12800]

/-- The host operations between the matrix product and the SparseCore call: the pair table, the third-core table, the flat indices. -/
def ops2 : List (HloOp τ sig (Elt F)) :=
  [StableHlo.reshape main_v14 main_v15 rfl shapeCasts_S100x12800_S10000x128,
   StableHlo.reshape main_arg3 main_v16 rfl shapeCasts_S8x100x4x1_S8x100x4,
   StableHlo.unary main_v16 main_v17 ((transpose S100x8x4 [1, 0, 2] · transposes_S8x100x4_S100x8x4_1_0_2) : (⟨S8x100x4, .f32⟩ : BufTy).Contents (Elt F) → (⟨S100x8x4, .f32⟩ : BufTy).Contents (Elt F)),
   StableHlo.reshape main_v17 main_v18 rfl shapeCasts_S100x8x4_S100x32,
   StableHlo.nullary main_c_0 (constantI S_ 32 0#32),
   StableHlo.TRef.unary (StableHlo.TRef.of main_c_0 : StableHlo.TRef sig ⟨S_, .i32⟩) main_call0.v0 (sitofp .f32),
   StableHlo.TRef.binary (StableHlo.TRef.of main_v18 : StableHlo.TRef sig ⟨S100x32, .f32⟩) main_call0.v0 main_call0.v1 (fun x v => pad S100x33 ![0, 0] ![0, 1] ![0, 0] x v pads_S100x32_S100x33_000_010 h_S_),
   StableHlo.reshape main_v19 main_v20 rfl shapeCasts_S100x33_S3300,
   StableHlo.nullary main_c_1 (constantI S_ 32 0#32),
   StableHlo.TRef.unary (StableHlo.TRef.of main_c_1 : StableHlo.TRef sig ⟨S_, .i32⟩) main_call1.v0 (sitofp .f32),
   StableHlo.TRef.binary (StableHlo.TRef.of main_v20 : StableHlo.TRef sig ⟨S3300, .f32⟩) main_call1.v0 main_call1.v1 (fun x v => pad S3304 ![0] ![4] ![0] x v pads_S3300_S3304_040 h_S_),
   StableHlo.reshape main_arg0 main_v22 rfl shapeCasts_S16384x26_S425984]

/-- The host operation after the SparseCore call: the result's shape. -/
def ops3 : List (HloOp τ sig (Elt F)) :=
  [StableHlo.reshape main_v23 main_v24 rfl shapeCasts_S27262976_S16384x26x64]

/-- @main is three lines of host operations around the matrix product and the SparseCore call. -/
theorem main_eq (d : Dev nD) : main (F := F) d
    = (StableHlo.seq (ops1 (F := F)) >>= fun _ => Prog.lift (.customCall (SparseCore.inner (Pipeline.entry 0)) ()) >>= fun _ =>
        StableHlo.seq (ops2 (F := F)) >>= fun _ => (sc (F := F)).run d 0 >>= fun _ => StableHlo.seq (ops3 (F := F))) := rfl

theorem ops1_sub : ∀ op ∈ (ops1 (F := F)), op.bufs ⊆ UC :=
  List.forall_iff_forall_mem.1 (by
    simp only [ops1, List.Forall]
    refine ⟨?_, ?_, ?_, ?_, ?_, ?_, ?_, ?_, ?_, ?_, ?_, ?_, ?_, ?_, ?_⟩ <;> exact Pipeline.sub_ucRefs _ (by simp))
theorem ops1_fresh : ∀ op ∈ (ops1 (F := F)), op.fresh = ∅ :=
  List.forall_iff_forall_mem.1 (by
    simp only [ops1, List.Forall]
    refine ⟨?_, ?_, ?_, ?_, ?_, ?_, ?_, ?_, ?_, ?_, ?_, ?_, ?_, ?_, ?_⟩ <;> rfl)
theorem ops2_sub : ∀ op ∈ (ops2 (F := F)), op.bufs ⊆ UC :=
  List.forall_iff_forall_mem.1 (by
    simp only [ops2, List.Forall]
    refine ⟨?_, ?_, ?_, ?_, ?_, ?_, ?_, ?_, ?_, ?_, ?_, ?_⟩ <;> exact Pipeline.sub_ucRefs _ (by simp))
theorem ops2_fresh : ∀ op ∈ (ops2 (F := F)), op.fresh = ∅ :=
  List.forall_iff_forall_mem.1 (by
    simp only [ops2, List.Forall]
    refine ⟨?_, ?_, ?_, ?_, ?_, ?_, ?_, ?_, ?_, ?_, ?_, ?_⟩ <;> rfl)
theorem ops3_sub : ∀ op ∈ (ops3 (F := F)), op.bufs ⊆ UC :=
  List.forall_iff_forall_mem.1 (by
    simp only [ops3, List.Forall]
    exact Pipeline.sub_ucRefs _ (by simp))
theorem ops3_fresh : ∀ op ∈ (ops3 (F := F)), op.fresh = ∅ :=
  List.forall_iff_forall_mem.1 (by simp only [ops3, List.Forall]; rfl)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v15' : DevRef τ sig := Proc.devRef .tc (main_v15 : Ref sig .tc)
abbrev v21' : DevRef τ sig := Proc.devRef .tc (main_v21 : Ref sig .tc)
abbrev v22' : DevRef τ sig := Proc.devRef .tc (main_v22 : Ref sig .tc)
abbrev v23' : DevRef τ sig := Proc.devRef .tc (main_v23 : Ref sig .tc)
abbrev v24' : DevRef τ sig := Proc.devRef .tc (main_v24 : Ref sig .tc)

/-- The arrays' contents: at launch, after the first line, after the matrix product, after the second line, after the
    SparseCore call has left `f` in the flat result, after the last line. -/
def V0 (d : Dev nD) : Valuation τ sig (Elt F) := StableHlo.launchContents m d
def V1 (d : Dev nD) : Valuation τ sig (Elt F) := StableHlo.after ops1 (V0 m d)
def V2 (d : Dev nD) : Valuation τ sig (Elt F) := Function.update (V1 m d) v14' (k0_pay1 (V1 m d v1') (V1 m d v13'))
def V3 (d : Dev nD) : Valuation τ sig (Elt F) := StableHlo.after ops2 (V2 m d)
def V4 (d : Dev nD) (f : Buf (Elt F) (outLoc d)) : Valuation τ sig (Elt F) := Function.update (V3 m d) v23' f
def V5 (d : Dev nD) (f : Buf (Elt F) (outLoc d)) : Valuation τ sig (Elt F) := StableHlo.after ops3 (V4 m d f)

theorem V1_v1 (d : Dev nD) : V1 m d v1' = lhsAt m d := by
  unfold V1 ops1 lhsAt; after_results; rfl
theorem V1_v13 (d : Dev nD) : V1 m d v13' = rhsAt m d := by
  unfold V1 ops1 rhsAt eyeAt; after_results; rfl
theorem V1_a0 (d : Dev nD) : V1 m d a0' = m ((SparseCore.T d).loc main_arg0) := by
  unfold V1 ops1; after_results; rfl
theorem V1_a3 (d : Dev nD) : V1 m d a3' = m ((SparseCore.T d).loc main_arg3) := by
  unfold V1 ops1; after_results; rfl
theorem V1_v23 (d : Dev nD) : V1 m d v23' = m (outLoc d) := by
  unfold V1 ops1; after_results; rfl
theorem V2_v14 (d : Dev nD) : V2 m d v14' = k0_pay1 (lhsAt m d) (rhsAt m d) := by
  unfold V2; rw [Function.update_self, V1_v1, V1_v13]
theorem V2_ne (d : Dev nD) {b : DevRef τ sig} (h : b ≠ v14') : V2 m d b = V1 m d b := Function.update_of_ne h _ _
theorem V3_v22 (d : Dev nD) : V3 m d v22' = idxAt m d := by
  unfold V3 ops2 idxAt; after_results; rw [V2_ne m d (by decide), V1_a0]; rfl
theorem V3_v15 (d : Dev nD) : V3 m d v15' = ptAt m d := by
  unfold V3 ops2 ptAt; after_results; rw [V2_v14]; rfl
theorem V3_v21 (d : Dev nD) : V3 m d v21' = ctAt m d := by
  unfold V3 ops2 ctAt; after_results; rw [V2_ne m d (by decide), V1_a3]; rfl
theorem V3_v23 (d : Dev nD) : V3 m d v23' = m (outLoc d) := by
  unfold V3 ops2; after_results; rw [V2_ne m d (by decide), V1_v23]

/-- What @main leaves the claim: the result, the flat result some `f` every subcore has done its work on, and the
    four arguments at their launch contents. -/
def FIN (d : Dev nD) : sProp 𝕄 :=
  iprop((∃ f : Buf (Elt F) (outLoc d), ⌜∀ L : grid1.Coords, TileSpec.OutOK (F := F) (idxAt m d) (ptAt m d) (ctAt m d) (wid L) f⌝
      ∗ ((SparseCore.T d).loc main_v24 ↦{fullShare} shapeCast S16384x26x64 f shapeCasts_S27262976_S16384x26x64))
    ∗ ((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3)))

theorem unscoped_held (d : Dev nD) :
    (unscopedBufs d (fun b => m ((SparseCore.T d).loc b)) : sProp 𝕄) = held (SparseCore.T d) UC (V0 m d) :=
  Pipeline.unscopedBufs_held d (V0 m d)

/-- The four arrays of the SparseCore call. -/
abbrev S4 : Finset (DevRef τ sig) := {v22', v15', v21', v23'}
theorem S4_sub : S4 ⊆ UC := by decide

omit [FloatOps F] in
theorem held_S4 (d : Dev nD) (W : Valuation τ sig (Elt F)) :
    (held (SparseCore.T d) S4 W : sProp 𝕄)
      = iprop((idxLoc d ↦{fullShare} W v22') ∗ (ptLoc d ↦{fullShare} W v15') ∗ (ctLoc d ↦{fullShare} W v21') ∗ (outLoc d ↦{fullShare} W v23')) := by
  unfold held S4
  rw [SparseCore.bigSep_insert' (by decide), SparseCore.bigSep_insert' (by decide), SparseCore.bigSep_insert' (by decide), bigSep_singleton]

theorem V4_ne (d : Dev nD) (f : Buf (Elt F) (outLoc d)) {b : DevRef τ sig} (h : b ≠ v23') : V4 m d f b = V3 m d b := Function.update_of_ne h _ _
theorem V4_v23 (d : Dev nD) (f : Buf (Elt F) (outLoc d)) : V4 m d f v23' = f := Function.update_self _ _ _

/-- The arrays after the second line: the call's four, at what the kernel is handed, and the rest. -/
theorem held_V3 (d : Dev nD) : (held (SparseCore.T d) UC (V3 m d) : sProp 𝕄)
    = iprop(((idxLoc d ↦{fullShare} idxAt m d) ∗ (ptLoc d ↦{fullShare} ptAt m d) ∗ (ctLoc d ↦{fullShare} ctAt m d) ∗ (outLoc d ↦{fullShare} m (outLoc d)))
        ∗ held (SparseCore.T d) (UC \ S4) (V3 m d)) := by
  rw [StableHlo.held_sub_split (SparseCore.T d) S4_sub, held_S4, V3_v22, V3_v15, V3_v21, V3_v23]

/-- The arrays after the call. -/
theorem held_V4 (d : Dev nD) (f : Buf (Elt F) (outLoc d)) : (held (SparseCore.T d) UC (V4 m d f) : sProp 𝕄)
    = iprop(((idxLoc d ↦{fullShare} idxAt m d) ∗ (ptLoc d ↦{fullShare} ptAt m d) ∗ (ctLoc d ↦{fullShare} ctAt m d) ∗ (outLoc d ↦{fullShare} f))
        ∗ held (SparseCore.T d) (UC \ S4) (V3 m d)) := by
  rw [StableHlo.held_sub_split (SparseCore.T d) S4_sub, held_S4, V4_ne m d f (by decide), V4_ne m d f (by decide), V4_ne m d f (by decide), V4_v23,
    V3_v22, V3_v15, V3_v21,
    StableHlo.held_congr (SparseCore.T d) (S := UC \ S4) (V := V4 m d f) (V' := V3 m d) fun b hb => V4_ne m d f fun e => (Finset.mem_sdiff.mp hb).2 (e ▸ by decide)]

/-- What the claim reads at the end. -/
abbrev S5 : Finset (DevRef τ sig) := {v24', a0', a1', a2', a3'}
theorem S5_sub : S5 ⊆ UC := by decide

omit [FloatOps F] in
theorem held_S5 (d : Dev nD) (W : Valuation τ sig (Elt F)) :
    (held (SparseCore.T d) S5 W : sProp 𝕄)
      = iprop(((SparseCore.T d).loc main_v24 ↦{fullShare} W v24') ∗ ((SparseCore.T d).loc main_arg0 ↦{fullShare} W a0') ∗ ((SparseCore.T d).loc main_arg1 ↦{fullShare} W a1')
          ∗ ((SparseCore.T d).loc main_arg2 ↦{fullShare} W a2') ∗ ((SparseCore.T d).loc main_arg3 ↦{fullShare} W a3')) := by
  unfold held S5
  rw [SparseCore.bigSep_insert' (by decide), SparseCore.bigSep_insert' (by decide), SparseCore.bigSep_insert' (by decide), SparseCore.bigSep_insert' (by decide), bigSep_singleton]

theorem V1_arg (d : Dev nD) (r : Ref sig .tc) (hr : r = main_arg0 ∨ r = main_arg1 ∨ r = main_arg2 ∨ r = main_arg3) :
    V1 m d (Proc.devRef .tc r) = m ((SparseCore.T d).loc r) := by
  rcases hr with rfl | rfl | rfl | rfl <;> (unfold V1 ops1; after_results; rfl)
theorem V3_arg (d : Dev nD) (r : Ref sig .tc) (hr : r = main_arg0 ∨ r = main_arg1 ∨ r = main_arg2 ∨ r = main_arg3) :
    V3 m d (Proc.devRef .tc r) = m ((SparseCore.T d).loc r) := by
  rcases hr with rfl | rfl | rfl | rfl <;> (unfold V3 ops2; after_results; rw [V2_ne m d (by decide), V1_arg m d _ (by simp)])
theorem V5_arg (d : Dev nD) (f : Buf (Elt F) (outLoc d)) (r : Ref sig .tc) (hr : r = main_arg0 ∨ r = main_arg1 ∨ r = main_arg2 ∨ r = main_arg3) :
    V5 m d f (Proc.devRef .tc r) = m ((SparseCore.T d).loc r) := by
  rcases hr with rfl | rfl | rfl | rfl <;> (unfold V5 ops3; after_results; rw [V4_ne m d f (by decide), V3_arg m d _ (by simp)])
theorem V5_v24 (d : Dev nD) (f : Buf (Elt F) (outLoc d)) :
    V5 m d f v24' = shapeCast S16384x26x64 f shapeCasts_S27262976_S16384x26x64 := by
  unfold V5 ops3; after_results; rw [V4_v23]; rfl

/-- What the claim reads, at the contents after the last line. -/
theorem held_V5 (d : Dev nD) (f : Buf (Elt F) (outLoc d)) : (held (SparseCore.T d) S5 (V5 m d f) : sProp 𝕄)
    = iprop(((SparseCore.T d).loc main_v24 ↦{fullShare} shapeCast S16384x26x64 f shapeCasts_S27262976_S16384x26x64)
        ∗ ((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))) := by
  rw [held_S5, V5_v24, V5_arg m d f main_arg0 (by simp), V5_arg m d f main_arg1 (by simp), V5_arg m d f main_arg2 (by simp), V5_arg m d f main_arg3 (by simp)]

/-- The TensorCore's handshake state before call `n` but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest d n) := rfl

set_option backward.isDefEq.respectTransparency.types false in
theorem hmain [∀ e, Nonempty (Elt F e)] (hH : Hundredth.OK F (c100 (F := F))) (hpre : PreOK m) (κ : GSem nD τ sig → ℕ) (d : Dev nD) :
    iprop((K (F := F)).ctx EH (PM m fun d => m (outLoc d)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, HG⟩
  -- the first line of host operations
  iapply (StableHlo.wp_seq (defs := (K (F := F)).defs (D (F := F))) 𝒱 none Set.univ d UC _ ops1 ops1_sub ops1_fresh (V0 m d)) $$ [Hb Hheld]
  · isplitl [Hb] <;> iassumption
  iintro ⟨Hb, Hheld⟩
  -- the matrix product
  rw [wp_bind]
  ihave Hst' := (Entails.of_eq (tcSt_eq (F := F) d 0)) $$ Hst
  icases Hst' with ⟨⟨%W, %hW, HO⟩, Hrs⟩
  iapply (hregion (V1 m d) d W hW) $$ [Hb Hheld HO HG Hrs]
  isplitr; · iapply (SparseCore.Cfg.ctx_levAts κ); iexact Hctx
  isplitl [Hb]; · iexact Hb
  isplitl [Hheld]; · iexact Hheld
  isplitl [HO]; · iexact HO
  isplitl [HG]; · iexact HG
  iintro ⟨Hb, Hheld, %W', %hW', HO⟩
  -- the second line
  iapply (StableHlo.wp_seq (defs := (K (F := F)).defs (D (F := F))) 𝒱 none Set.univ d UC _ ops2 ops2_sub ops2_fresh (V2 m d)) $$ [Hb Hheld]
  · isplitl [Hb]; · iexact Hb
    iexact Hheld
  iintro ⟨Hb, Hheld⟩
  -- the SparseCore call: the four arrays dealt to the 32 subcores, the remainders kept aside
  rw [wp_bind]
  ihave Hh := (show (held (SparseCore.T d) UC (StableHlo.after ops2 (V2 m d)) : sProp 𝕄) ⊢ _ from Entails.of_eq (held_V3 m d)) $$ Hheld
  icases Hh with ⟨H4, Hrest⟩
  ihave Hd := (deal d (idxAt m d) (ptAt m d) (ctAt m d) (m (outLoc d))) $$ H4
  icases Hd with ⟨Hgo, Hkept⟩
  iapply ((K (F := F)).wp_run (D (F := F)) 𝒱 (EH := EH) (P := PM m fun d => m (outLoc d)) κ d 0) $$ [Hgo HO Hrs Hkept Hrest Hb]
  isplitr; · iexact Hctx
  isplitl [HO Hrs]
  · iapply (Entails.of_eq (tcSt_eq (F := F) d 0).symm)
    isplitl [HO]
    · iexists W'; isplitr
      · ipureintro; exact hW'
      · iexact HO
    iexact Hrs
  isplitl [Hgo]; · iexact Hgo
  iintro ⟨Hst, Hdn⟩
  ihave Hu := (undeal d (idxAt m d) (ptAt m d) (ctAt m d)) $$ [Hdn Hkept]
  · isplitl [Hdn]; · iexact Hdn
    iexact Hkept
  icases Hu with ⟨Hi, Hp, Hc, %f, %hf, Ho⟩
  ihave Hheld := (Entails.of_eq (held_V4 m d f).symm) $$ [Hi Hp Hc Ho Hrest]
  · isplitl [Hi Hp Hc Ho]
    · isplitl [Hi]; · iexact Hi
      isplitl [Hp]; · iexact Hp
      isplitl [Hc]; · iexact Hc
      iexact Ho
    · iexact Hrest
  -- the last line
  rw [show (StableHlo.seq (Λ := SparseCore.Sig (ΛP (F := F)) 1) (nD := nD) (ops3 (F := F))) = (StableHlo.seq ops3 >>= fun u => Pure.pure u) from (bind_pure _).symm]
  iapply (StableHlo.wp_seq (defs := (K (F := F)).defs (D (F := F))) 𝒱 none Set.univ d UC _ ops3 ops3_sub ops3_fresh (V4 m d f)) $$ [Hb Hheld]
  · isplitl [Hb] <;> iassumption
  iintro ⟨Hb, Hheld⟩
  rw [wp_pure]; imodintro
  isplitl [Hst]; · iexact Hst
  ihave Hh := (show (held (SparseCore.T d) UC (StableHlo.after ops3 (V4 m d f)) : sProp 𝕄) ⊢ _ from
    Entails.of_eq (StableHlo.held_sub_split (SparseCore.T d) S5_sub (V5 m d f))) $$ Hheld
  icases Hh with ⟨H5, -⟩
  ihave H5' := (Entails.of_eq (held_V5 m d f)) $$ H5
  icases H5' with ⟨H24, H0, H1, H2, H3⟩
  unfold FIN
  isplitl [H24]
  · iexists f; isplitr
    · ipureintro; exact hf
    · iexact H24
  isplitl [H0]; · iexact H0
  isplitl [H1]; · iexact H1
  isplitl [H2]; · iexact H2
  iexact H3

def fq (d : Dev nD) (s' : Phys nD τ sig (Elt F)) : Prop :=
  (∃ f : Buf (Elt F) (outLoc d), (∀ L : grid1.Coords, TileSpec.OutOK (F := F) (idxAt m d) (ptAt m d) (ctAt m d) (wid L) f)
      ∧ s'.mem.mem ((SparseCore.T d).loc main_v24) = shapeCast S16384x26x64 f shapeCasts_S27262976_S16384x26x64)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

theorem hfin (d : Dev nD) (s' : Phys nD τ sig (Elt F)) : iprop(FIN m d ∗ SI s') ⊢ (⌜fq m d s'⌝ : sProp 𝕄) := by
  unfold FIN
  iintro ⟨⟨⟨%f, %hf, H24⟩, H0, H1, H2, H3⟩, HSI⟩
  ihave H := (persistent_entails_right (SI_pointsTo_agree (st := s') (ℓ := (SparseCore.T d).loc main_v24) (I := Finset.univ) (q := fullShare) (f := shapeCast S16384x26x64 f shapeCasts_S27262976_S16384x26x64))) $$ [HSI H24]
  · isplitl [HSI] <;> iassumption
  icases H with ⟨%h24, HSI, -⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_arg3) (I := Finset.univ) (q := fullShare) (f := m ((SparseCore.T d).loc main_arg3))) $$ [HSI H3]
  · isplitl [HSI] <;> iassumption
  icases H with %h3
  ipureintro
  exact ⟨⟨f, hf, funext fun i => h24 i (Finset.mem_univ i)⟩, funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  (∃ f : Buf (Elt F) (outLoc c), (∀ L : grid1.Coords, TileSpec.OutOK (F := F) (idxAt m c) (ptAt m c) (ctAt m c) (wid L) f)
      ∧ r.2.mem ((c.tc : Thread nD τ).loc main_v24) = shapeCast S16384x26x64 f shapeCasts_S27262976_S16384x26x64)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem idxAt_range (hpre : PreOK m) : ∀ d j, 0 ≤ (idxAt m d j).toInt ∧ (idxAt m d j).toInt ≤ 999999 :=
  fun d j => hpre d (Shape.reshapeEquiv shapeCasts_S16384x26_S425984 j)

theorem run_main [∀ e, Nonempty (Elt F e)] (htile : TileBodyOK F) (hH : Hundredth.OK F (c100 (F := F))) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PM m fun d => m (outLoc d)) facts v₀
    (fun q hq => match q with | 0 => nomatch hq)
    (fun q _ => match q with | 0 => tileObl _ _ _ _ htile hH (idxAt_range m hpre))
    (fun q _ => match q with | 0 => SparseCore.Cfg.VecSplit.of_plain (vecSplit _ _ _ _))
    m ρ main (G (F := F)) (FIN m) (u₀ (F := F)) (sep_elim_left.trans (hu₀ m _)) (hmain m ρ hH hpre) (fq m) (hfin m) (QC m) (fun _ h => h)

end Cert.Proof.KB

end
-- ==== Proof.TileRun.lean ====
import proofs.«207215_g13752485282153_cont_week2b_1454_30_alg».proof.Proof.Common
import proofs.«207215_g13752485282153_cont_week2b_1454_30_alg».proof.Proof.TileIface

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

variable (d : Dev nD) (L : grid1.Coords)

/-- A subcore's ten scratch buffers, each at some contents. -/
def scratchAny : sProp 𝕄 :=
  iprop((∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f)
    ∗ (∃ f, (s4W).view.loc (thr d L) ↦{fullShare} f) ∗ (∃ f, (s5W).view.loc (thr d L) ↦{fullShare} f)
    ∗ (∃ f, (s6W).view.loc (thr d L) ↦{fullShare} f) ∗ (∃ f, (s7W).view.loc (thr d L) ↦{fullShare} f)
    ∗ (∃ f, (s8W).view.loc (thr d L) ↦{fullShare} f) ∗ (∃ f, (s9W).view.loc (thr d L) ↦{fullShare} f))

/-- A subcore's six DMA semaphores (two gather, two copy-out, the two of the prologue's copies), counters at zero. -/
def semsZero : sProp 𝕄 :=
  iprop(semVal (thr d L, SemLoc.dma cc1_scratch10.sem) 0 ∗ semVal (thr d L, SemLoc.dma cc1_scratch11.sem) 0
    ∗ semVal (thr d L, SemLoc.dma cc1_scratch12.sem) 0 ∗ semVal (thr d L, SemLoc.dma cc1_scratch13.sem) 0
    ∗ semVal (thr d L, SemLoc.dma cc1_scoped0.sem) 0 ∗ semVal (thr d L, SemLoc.dma cc1_scoped1.sem) 0)

variable (F) in
/-- The kernel on subcore `L`, over the resources as the symbolic run names them: the index array and the third-core
    table under one read share `q`, the pair table under TWO (`q0`, `q1`: two row gathers are outstanding at once,
    one per gather semaphore), the subcore's words of the result, its scratch and semaphores: it runs to the end and
    leaves the kernel's words in its part of the result. Stated as a proposition; its proof is in TileRunProof. -/
def TileRunOK : Prop :=
  ∀ (d : Dev nD) (L : grid1.Coords) (q q0 q1 : PosShare TreeShare)
    (fi : Buf (Elt F) ((idxW).view.loc (thr d L))) (fp : Buf (Elt F) ((ptW).view.loc (thr d L)))
    (fc : Buf (Elt F) ((ctW).view.loc (thr d L))) (fo : Buf (Elt F) ((outW).view.loc (thr d L)))
    (_ : Hundredth.OK F (c100 (F := F))) (_ : ∀ j, 0 ≤ (fi j).toInt ∧ (fi j).toInt ≤ 999999)
    (O : CellTallies nD τ sig (HIx 1)) (W : Waits sig (HIx 1)),
    (iprop(Transfers.MayWaits (thr d L) (none : HIx 1) O
            ∗ ((idxW).view.loc (thr d L) ↦{q} fi) ∗ ((ptW).view.loc (thr d L) ↦{q0} fp) ∗ ((ptW).view.loc (thr d L) ↦{q1} fp)
            ∗ ((ctW).view.loc (thr d L) ↦{q} fc) ∗ ((outW).view.loc (thr d L) ↦[oSet L]{fullShare} fo)
            ∗ scratchAny d L ∗ semsZero d L ∗ owes (thr d L) O W) : sProp 𝕄)
          ⊢ wp frame (wpE (defs₀ (F := F)) 𝒱₀ (thr d L) none) Set.univ
              (cc1__sc_lookup L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1)
              fun _ => iprop(Transfers.MayWaits (thr d L) (none : HIx 1) O
                ∗ ((idxW).view.loc (thr d L) ↦{q} fi) ∗ ((ptW).view.loc (thr d L) ↦{q0} fp) ∗ ((ptW).view.loc (thr d L) ↦{q1} fp)
                ∗ ((ctW).view.loc (thr d L) ↦{q} fc)
                ∗ (∃ f : Buf (Elt F) ((outW).view.loc (thr d L)), ((outW).view.loc (thr d L) ↦[oSet L]{fullShare} f) ∗ ⌜TileSpec.OutOK (F := F) fi fp fc (wid L) f⌝)
                ∗ scratchAny d L ∗ semsZero d L ∗ ∃ W', ⌜∀ p ∈ W', p ∈ W ∨ p.2 = none⌝ ∗ owes (thr d L) O W')

end Cert.Proof.KI

end
-- ==== Proof.TileWrap.lean ====
/-
  The kernel on one vector subcore, in the launch's spelling of what the subcore holds, from the same statement over the
  resources named one by one (taken as a hypothesis): the subcore's own buffers are its ten scratch buffers and a rest,
  its own cells are the kernel's six DMA semaphores and a rest; the arrays' locations are the same under both names; the
  pair table's read token is halved for the two row gathers that are outstanding at once, and joined again afterwards.
-/
import proofs.«207215_g13752485282153_cont_week2b_1454_30_alg».proof.Proof.TileRun

noncomputable section

namespace Cert.Proof.KI

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

open Idealize.ShloMosaic.Transfers (shareTok)

section Wrap

variable (d : Dev nD) (L : grid1.Coords)

/-- The SparseCore of subcore `L`, as the chip numbers its SparseCores, -/
abbrev wrapC (L : grid1.Coords) : Fin τ.nSC := (L 0).castLE hcore1
/-- and its place among that SparseCore's vector subcores. -/
abbrev wrapS (L : grid1.Coords) : Fin τ.nSub := (L 1).castLE hsub1
/-- The subcore as a processor of its device. -/
abbrev wrapP (L : grid1.Coords) : Proc τ := .scVector (wrapC L) (wrapS L)

/-- Two cells of one thread on different semaphores are different cells. -/
theorem wrap_cell_ne {t : Thread nD τ} {a b : SemLoc sig} (h : a ≠ b) : ((t, a) : GSem nD τ sig) ≠ (t, b) :=
  fun e => h (Prod.ext_iff.mp e).2

/-- Two references of one processor that differ name different buffers of the device. -/
theorem wrap_ref_ne {p : Proc τ} {a b : Ref sig p.kind} (h : a ≠ b) : p.devRef a ≠ p.devRef b :=
  fun e => h (Proc.devRef_injective _ e)

/-- A DMA semaphore of the kernel is one of the subcore's own cells. -/
theorem wrap_dma_mem (a : DmaSems sig S_) (h : (SemLoc.dma a.sem : SemLoc sig).isScoped .scVector = true) :
    ((thr d L, SemLoc.dma a.sem) : GSem nD τ sig) ∈ ownCells (thr d L) :=
  mem_ownCells.mpr ⟨rfl, h⟩

/-- The subcore's own cells other than the kernel's six DMA semaphores. -/
abbrev wrapRestCells : Finset (GSem nD τ sig) :=
  ((((((ownCells (thr d L)).erase (thr d L, SemLoc.dma cc1_scratch10.sem)).erase (thr d L, SemLoc.dma cc1_scratch11.sem)).erase
    (thr d L, SemLoc.dma cc1_scratch12.sem)).erase (thr d L, SemLoc.dma cc1_scratch13.sem)).erase (thr d L, SemLoc.dma cc1_scoped0.sem)).erase
    (thr d L, SemLoc.dma cc1_scoped1.sem)

omit [FloatOps F] [Named F] in
/-- The six DMA semaphores are among the subcore's own cells: its cells at zero are those six at zero, and the rest. -/
theorem wrap_ownSems0 :
    (ownSems0 (thr d L) : sProp 𝕄)
      = iprop(semVal (thr d L, SemLoc.dma cc1_scratch10.sem) 0 ∗ semVal (thr d L, SemLoc.dma cc1_scratch11.sem) 0
          ∗ semVal (thr d L, SemLoc.dma cc1_scratch12.sem) 0 ∗ semVal (thr d L, SemLoc.dma cc1_scratch13.sem) 0
          ∗ semVal (thr d L, SemLoc.dma cc1_scoped0.sem) 0 ∗ semVal (thr d L, SemLoc.dma cc1_scoped1.sem) 0
          ∗ bigSep (wrapRestCells d L) fun g => semVal g 0) := by
  unfold SparseCore.Cfg.ownSems0
  have m10 := wrap_dma_mem d L cc1_scratch10 (by decide)
  have m11 := wrap_dma_mem d L cc1_scratch11 (by decide)
  have m12 := wrap_dma_mem d L cc1_scratch12 (by decide)
  have m13 := wrap_dma_mem d L cc1_scratch13 (by decide)
  have m14 := wrap_dma_mem d L cc1_scoped0 (by decide)
  have m15 := wrap_dma_mem d L cc1_scoped1 (by decide)
  rw [SparseCore.bigSep_erase' m10,
    SparseCore.bigSep_erase' (i := (thr d L, SemLoc.dma cc1_scratch11.sem)) (by
      repeat (apply Finset.mem_erase_of_ne_of_mem (wrap_cell_ne (by decide)))
      exact m11),
    SparseCore.bigSep_erase' (i := (thr d L, SemLoc.dma cc1_scratch12.sem)) (by
      repeat (apply Finset.mem_erase_of_ne_of_mem (wrap_cell_ne (by decide)))
      exact m12),
    SparseCore.bigSep_erase' (i := (thr d L, SemLoc.dma cc1_scratch13.sem)) (by
      repeat (apply Finset.mem_erase_of_ne_of_mem (wrap_cell_ne (by decide)))
      exact m13),
    SparseCore.bigSep_erase' (i := (thr d L, SemLoc.dma cc1_scoped0.sem)) (by
      repeat (apply Finset.mem_erase_of_ne_of_mem (wrap_cell_ne (by decide)))
      exact m14),
    SparseCore.bigSep_erase' (i := (thr d L, SemLoc.dma cc1_scoped1.sem)) (by
      repeat (apply Finset.mem_erase_of_ne_of_mem (wrap_cell_ne (by decide)))
      exact m15)]

/-- The subcore's own buffers other than the kernel's ten scratch buffers. -/
abbrev wrapRestRefs (L : grid1.Coords) : Finset (DevRef τ sig) :=
  (((((((((((ownRefs (τ := τ) (wrapP L)).erase ((wrapP L).devRef cc1_scratch0)).erase ((wrapP L).devRef cc1_scratch1)).erase
    ((wrapP L).devRef cc1_scratch2)).erase ((wrapP L).devRef cc1_scratch3)).erase ((wrapP L).devRef cc1_scratch4)).erase
    ((wrapP L).devRef cc1_scratch5)).erase ((wrapP L).devRef cc1_scratch6)).erase ((wrapP L).devRef cc1_scratch7)).erase
    ((wrapP L).devRef cc1_scratch8)).erase ((wrapP L).devRef cc1_scratch9))

omit [FloatOps F] [Named F] in
/-- The ten scratch buffers are among the subcore's own: its buffers are those ten, each at some contents, and the rest. -/
theorem wrap_ownBufs :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ (∃ f, (thr d L).loc cc1_scratch3 ↦{fullShare} f) ∗ (∃ f, (thr d L).loc cc1_scratch4 ↦{fullShare} f) ∗ (∃ f, (thr d L).loc cc1_scratch5 ↦{fullShare} f)
          ∗ (∃ f, (thr d L).loc cc1_scratch6 ↦{fullShare} f) ∗ (∃ f, (thr d L).loc cc1_scratch7 ↦{fullShare} f)
          ∗ (∃ f, (thr d L).loc cc1_scratch8 ↦{fullShare} f) ∗ (∃ f, (thr d L).loc cc1_scratch9 ↦{fullShare} f)
          ∗ bigSep (wrapRestRefs L) fun b => iprop(∃ f, ((d, b) : Loc nD τ sig) ↦{fullShare} f)) := by
  unfold SparseCore.Cfg.ownBufs
  refine (SparseCore.bigSep_erase' (SparseCore.Cfg.mem_ownRefs_of_owner (p := wrapP L) (b := (wrapP L).devRef cc1_scratch0) rfl)).trans ?_
  rw [
    SparseCore.bigSep_erase' (i := (wrapP L).devRef cc1_scratch1)
      (Finset.mem_erase_of_ne_of_mem (wrap_ref_ne (show (cc1_scratch1 : Ref sig .scVector) ≠ cc1_scratch0 by decide))
      (SparseCore.Cfg.mem_ownRefs_of_owner (p := wrapP L) (b := (wrapP L).devRef cc1_scratch1) rfl)),
    SparseCore.bigSep_erase' (i := (wrapP L).devRef cc1_scratch2)
      (Finset.mem_erase_of_ne_of_mem (wrap_ref_ne (show (cc1_scratch2 : Ref sig .scVector) ≠ cc1_scratch1 by decide))
      (Finset.mem_erase_of_ne_of_mem (wrap_ref_ne (show (cc1_scratch2 : Ref sig .scVector) ≠ cc1_scratch0 by decide))
      (SparseCore.Cfg.mem_ownRefs_of_owner (p := wrapP L) (b := (wrapP L).devRef cc1_scratch2) rfl))),
    SparseCore.bigSep_erase' (i := (wrapP L).devRef cc1_scratch3)
      (Finset.mem_erase_of_ne_of_mem (wrap_ref_ne (show (cc1_scratch3 : Ref sig .scVector) ≠ cc1_scratch2 by decide))
      (Finset.mem_erase_of_ne_of_mem (wrap_ref_ne (show (cc1_scratch3 : Ref sig .scVector) ≠ cc1_scratch1 by decide))
      (Finset.mem_erase_of_ne_of_mem (wrap_ref_ne (show (cc1_scratch3 : Ref sig .scVector) ≠ cc1_scratch0 by decide))
      (SparseCore.Cfg.mem_ownRefs_of_owner (p := wrapP L) (b := (wrapP L).devRef cc1_scratch3) rfl)))),
    SparseCore.bigSep_erase' (i := (wrapP L).devRef cc1_scratch4)
      (Finset.mem_erase_of_ne_of_mem (wrap_ref_ne (show (cc1_scratch4 : Ref sig .scVector) ≠ cc1_scratch3 by decide))
      (Finset.mem_erase_of_ne_of_mem (wrap_ref_ne (show (cc1_scratch4 : Ref sig .scVector) ≠ cc1_scratch2 by decide))
      (Finset.mem_erase_of_ne_of_mem (wrap_ref_ne (show (cc1_scratch4 : Ref sig .scVector) ≠ cc1_scratch1 by decide))
      (Finset.mem_erase_of_ne_of_mem (wrap_ref_ne (show (cc1_scratch4 : Ref sig .scVector) ≠ cc1_scratch0 by decide))
      (SparseCore.Cfg.mem_ownRefs_of_owner (p := wrapP L) (b := (wrapP L).devRef cc1_scratch4) rfl))))),
    SparseCore.bigSep_erase' (i := (wrapP L).devRef cc1_scratch5)
      (Finset.mem_erase_of_ne_of_mem (wrap_ref_ne (show (cc1_scratch5 : Ref sig .scVector) ≠ cc1_scratch4 by decide))
      (Finset.mem_erase_of_ne_of_mem (wrap_ref_ne (show (cc1_scratch5 : Ref sig .scVector) ≠ cc1_scratch3 by decide))
      (Finset.mem_erase_of_ne_of_mem (wrap_ref_ne (show (cc1_scratch5 : Ref sig .scVector) ≠ cc1_scratch2 by decide))
      (Finset.mem_erase_of_ne_of_mem (wrap_ref_ne (show (cc1_scratch5 : Ref sig .scVector) ≠ cc1_scratch1 by decide))
      (Finset.mem_erase_of_ne_of_mem (wrap_ref_ne (show (cc1_scratch5 : Ref sig .scVector) ≠ cc1_scratch0 by decide))
      (SparseCore.Cfg.mem_ownRefs_of_owner (p := wrapP L) (b := (wrapP L).devRef cc1_scratch5) rfl)))))),
    SparseCore.bigSep_erase' (i := (wrapP L).devRef cc1_scratch6)
      (Finset.mem_erase_of_ne_of_mem (wrap_ref_ne (show (cc1_scratch6 : Ref sig .scVector) ≠ cc1_scratch5 by decide))
      (Finset.mem_erase_of_ne_of_mem (wrap_ref_ne (show (cc1_scratch6 : Ref sig .scVector) ≠ cc1_scratch4 by decide))
      (Finset.mem_erase_of_ne_of_mem (wrap_ref_ne (show (cc1_scratch6 : Ref sig .scVector) ≠ cc1_scratch3 by decide))
      (Finset.mem_erase_of_ne_of_mem (wrap_ref_ne (show (cc1_scratch6 : Ref sig .scVector) ≠ cc1_scratch2 by decide))
      (Finset.mem_erase_of_ne_of_mem (wrap_ref_ne (show (cc1_scratch6 : Ref sig .scVector) ≠ cc1_scratch1 by decide))
      (Finset.mem_erase_of_ne_of_mem (wrap_ref_ne (show (cc1_scratch6 : Ref sig .scVector) ≠ cc1_scratch0 by decide))
      (SparseCore.Cfg.mem_ownRefs_of_owner (p := wrapP L) (b := (wrapP L).devRef cc1_scratch6) rfl))))))),
    SparseCore.bigSep_erase' (i := (wrapP L).devRef cc1_scratch7)
      (Finset.mem_erase_of_ne_of_mem (wrap_ref_ne (show (cc1_scratch7 : Ref sig .scVector) ≠ cc1_scratch6 by decide))
      (Finset.mem_erase_of_ne_of_mem (wrap_ref_ne (show (cc1_scratch7 : Ref sig .scVector) ≠ cc1_scratch5 by decide))
      (Finset.mem_erase_of_ne_of_mem (wrap_ref_ne (show (cc1_scratch7 : Ref sig .scVector) ≠ cc1_scratch4 by decide))
      (Finset.mem_erase_of_ne_of_mem (wrap_ref_ne (show (cc1_scratch7 : Ref sig .scVector) ≠ cc1_scratch3 by decide))
      (Finset.mem_erase_of_ne_of_mem (wrap_ref_ne (show (cc1_scratch7 : Ref sig .scVector) ≠ cc1_scratch2 by decide))
      (Finset.mem_erase_of_ne_of_mem (wrap_ref_ne (show (cc1_scratch7 : Ref sig .scVector) ≠ cc1_scratch1 by decide))
      (Finset.mem_erase_of_ne_of_mem (wrap_ref_ne (show (cc1_scratch7 : Ref sig .scVector) ≠ cc1_scratch0 by decide))
      (SparseCore.Cfg.mem_ownRefs_of_owner (p := wrapP L) (b := (wrapP L).devRef cc1_scratch7) rfl)))))))),
    SparseCore.bigSep_erase' (i := (wrapP L).devRef cc1_scratch8)
      (Finset.mem_erase_of_ne_of_mem (wrap_ref_ne (show (cc1_scratch8 : Ref sig .scVector) ≠ cc1_scratch7 by decide))
      (Finset.mem_erase_of_ne_of_mem (wrap_ref_ne (show (cc1_scratch8 : Ref sig .scVector) ≠ cc1_scratch6 by decide))
      (Finset.mem_erase_of_ne_of_mem (wrap_ref_ne (show (cc1_scratch8 : Ref sig .scVector) ≠ cc1_scratch5 by decide))
      (Finset.mem_erase_of_ne_of_mem (wrap_ref_ne (show (cc1_scratch8 : Ref sig .scVector) ≠ cc1_scratch4 by decide))
      (Finset.mem_erase_of_ne_of_mem (wrap_ref_ne (show (cc1_scratch8 : Ref sig .scVector) ≠ cc1_scratch3 by decide))
      (Finset.mem_erase_of_ne_of_mem (wrap_ref_ne (show (cc1_scratch8 : Ref sig .scVector) ≠ cc1_scratch2 by decide))
      (Finset.mem_erase_of_ne_of_mem (wrap_ref_ne (show (cc1_scratch8 : Ref sig .scVector) ≠ cc1_scratch1 by decide))
      (Finset.mem_erase_of_ne_of_mem (wrap_ref_ne (show (cc1_scratch8 : Ref sig .scVector) ≠ cc1_scratch0 by decide))
      (SparseCore.Cfg.mem_ownRefs_of_owner (p := wrapP L) (b := (wrapP L).devRef cc1_scratch8) rfl))))))))),
    SparseCore.bigSep_erase' (i := (wrapP L).devRef cc1_scratch9)
      (Finset.mem_erase_of_ne_of_mem (wrap_ref_ne (show (cc1_scratch9 : Ref sig .scVector) ≠ cc1_scratch8 by decide))
      (Finset.mem_erase_of_ne_of_mem (wrap_ref_ne (show (cc1_scratch9 : Ref sig .scVector) ≠ cc1_scratch7 by decide))
      (Finset.mem_erase_of_ne_of_mem (wrap_ref_ne (show (cc1_scratch9 : Ref sig .scVector) ≠ cc1_scratch6 by decide))
      (Finset.mem_erase_of_ne_of_mem (wrap_ref_ne (show (cc1_scratch9 : Ref sig .scVector) ≠ cc1_scratch5 by decide))
      (Finset.mem_erase_of_ne_of_mem (wrap_ref_ne (show (cc1_scratch9 : Ref sig .scVector) ≠ cc1_scratch4 by decide))
      (Finset.mem_erase_of_ne_of_mem (wrap_ref_ne (show (cc1_scratch9 : Ref sig .scVector) ≠ cc1_scratch3 by decide))
      (Finset.mem_erase_of_ne_of_mem (wrap_ref_ne (show (cc1_scratch9 : Ref sig .scVector) ≠ cc1_scratch2 by decide))
      (Finset.mem_erase_of_ne_of_mem (wrap_ref_ne (show (cc1_scratch9 : Ref sig .scVector) ≠ cc1_scratch1 by decide))
      (Finset.mem_erase_of_ne_of_mem (wrap_ref_ne (show (cc1_scratch9 : Ref sig .scVector) ≠ cc1_scratch0 by decide))
      (SparseCore.Cfg.mem_ownRefs_of_owner (p := wrapP L) (b := (wrapP L).devRef cc1_scratch9) rfl))))))))))]

end Wrap

section Tile

variable (d : Dev nD)
variable (fi : Buf (Elt F) (idxLoc d)) (fp : Buf (Elt F) (ptLoc d)) (fc : Buf (Elt F) (ctLoc d)) (fo : Buf (Elt F) (outLoc d))

/-- The read token of subcore `L`: one of 32 tokens of the full share. -/
abbrev wrapTok (L : grid1.Coords) : PosShare TreeShare := shareTok fullShare 32 ⟨wid L, wid_lt L⟩

/-- The kernel on vector subcore `L` of device `d`, in the launch's spelling of what the subcore holds, from the same
    over the resources named one by one (`hrun`): the subcore's
    own buffers and cells are its ten scratch buffers, its six DMA semaphores and a rest the kernel never touches; the
    arrays' locations are the same under both names; the pair table's read token is halved for the two row gathers that
    are outstanding at once and the halves are joined again at the end. -/
theorem tile_body_proved (hrun : TileRunOK F) (hH : Hundredth.OK F (c100 (F := F))) (hidx : ∀ j, 0 ≤ (fi j).toInt ∧ (fi j).toInt ≤ 999999)
    (hF : (K (F := F)).Facts) (L : grid1.Coords) (O : CellTallies nD τ sig (HIx 1)) (W : Waits sig (HIx 1)) (hO : ∀ g, O g none = 0) :
    iprop(levAts (K (F := F)).L (K (F := F)).lev ∗ emp ∗ goP d fi fp fc fo L
        ∗ scopedBufs (thr d L) ∗ scopedSems0 (thr d L) ∗ owes (thr d L) O W)
      ⊢ wp frame (wpE (defs₀ (F := F)) 𝒱₀ (thr d L) none) Set.univ
          (cc1__sc_lookup L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1)
          fun _ => iprop(tdP d fi fp fc L ∗ scopedBufs (thr d L) ∗ scopedSems0 (thr d L)
            ∗ ∃ W', ⌜∀ p ∈ W', p ∈ W ∨ p.2 = none⌝ ∗ owes (thr d L) O W') := by
  rw [(K (F := F)).scopedBufs_V hF d (wrapC L) (wrapS L), SparseCore.Cfg.scopedSems0_V (Val := Elt F) d (wrapC L) (wrapS L),
    wrap_ownSems0, wrap_ownBufs]
  unfold goP tdP
  iintro ⟨#Hlv, -, ⟨Hi, Hp, Hc, Ho⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, Hbufs⟩,
    ⟨Hm10, Hm11, Hm12, Hm13, Hm14, Hm15, Hsems⟩, HO⟩
  ihave Hmw := ((K (F := F)).mayWaits_none (thr := thr d L) hO) $$ Hlv
  ihave Hp' := (pointsTo_share (PosShare.mem_left_op_right (wrapTok L))).1 $$ Hp
  icases Hp' with ⟨Hp0, Hp1⟩
  iapply (wp_wand_r frame _ Set.univ)
  isplitl [Hmw Hi Hp0 Hp1 Hc Ho H0 H1 H2 H3 H4 H5 H6 H7 H8 H9 Hm10 Hm11 Hm12 Hm13 Hm14 Hm15 HO]
  · iapply (hrun d L (wrapTok L) (wrapTok L).left (wrapTok L).right fi fp fc fo hH hidx O W)
    unfold scratchAny semsZero
    isplitl [Hmw]; · iexact Hmw
    isplitl [Hi]; · iexact Hi
    isplitl [Hp0]; · iexact Hp0
    isplitl [Hp1]; · iexact Hp1
    isplitl [Hc]; · iexact Hc
    isplitl [Ho]; · iexact Ho
    isplitl [H0 H1 H2 H3 H4 H5 H6 H7 H8 H9]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      iexists _; iexact H9
    isplitl [Hm10 Hm11 Hm12 Hm13 Hm14 Hm15]
    · isplitl [Hm10]; · iexact Hm10
      isplitl [Hm11]; · iexact Hm11
      isplitl [Hm12]; · iexact Hm12
      isplitl [Hm13]; · iexact Hm13
      isplitl [Hm14]; · iexact Hm14
      iexact Hm15
    iexact HO
  iintro %_ Hpost
  unfold scratchAny semsZero
  icases Hpost with ⟨-, Hi, Hp0, Hp1, Hc, ⟨%f, Hout, %hok⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩⟩,
    ⟨Hm10, Hm11, Hm12, Hm13, Hm14, Hm15⟩, %W', %hW', HO⟩
  ihave Hp := (pointsTo_share (PosShare.mem_left_op_right (wrapTok L))).2 $$ [Hp0 Hp1]
  · isplitl [Hp0]; · iexact Hp0
    iexact Hp1
  isplitl [Hi Hp Hc Hout]
  · isplitl [Hi]; · iexact Hi
    isplitl [Hp]; · iexact Hp
    isplitl [Hc]; · iexact Hc
    iexists f; isplitl [Hout]; · iexact Hout
    ipureintro; exact hok
  isplitl [H0 H1 H2 H3 H4 H5 H6 H7 H8 H9 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexact Hbufs
  isplitl [Hm10 Hm11 Hm12 Hm13 Hm14 Hm15 Hsems]
  · isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact Hsems
  iexists W'; isplitr
  · ipureintro; exact hW'
  · iexact HO

end Tile

/-- The same for every device, contents, subcore and debt at once: the statement the launch asks of the kernel's body. -/
theorem tileBodyOK (hrun : TileRunOK F) : TileBodyOK F :=
  fun d fi fp fc fo hH hidx hF L O W hO => tile_body_proved d fi fp fc fo hrun hH hidx hF L O W hO

end Cert.Proof.KI

end
-- ==== Proof.TileRunB.lean ====
import proofs.«207215_g13752485282153_cont_week2b_1454_30_alg».proof.Proof.CommonB
import proofs.«207215_g13752485282153_cont_week2b_1454_30_alg».proof.Proof.TileIfaceB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (d : Dev nD) (L : grid1.Coords)

/-- A subcore's ten scratch buffers, each at some contents. -/
def scratchAny : sProp 𝕄 :=
  iprop((∃ f, (s0WB).view.loc (thr d L) ↦{fullShare} f) ∗ (∃ f, (s1WB).view.loc (thr d L) ↦{fullShare} f)
    ∗ (∃ f, (s2WB).view.loc (thr d L) ↦{fullShare} f) ∗ (∃ f, (s3WB).view.loc (thr d L) ↦{fullShare} f)
    ∗ (∃ f, (s4WB).view.loc (thr d L) ↦{fullShare} f) ∗ (∃ f, (s5WB).view.loc (thr d L) ↦{fullShare} f)
    ∗ (∃ f, (s6WB).view.loc (thr d L) ↦{fullShare} f) ∗ (∃ f, (s7WB).view.loc (thr d L) ↦{fullShare} f)
    ∗ (∃ f, (s8WB).view.loc (thr d L) ↦{fullShare} f) ∗ (∃ f, (s9WB).view.loc (thr d L) ↦{fullShare} f))

/-- A subcore's six DMA semaphores (two gather, two copy-out, the two of the prologue's copies), counters at zero. -/
def semsZero : sProp 𝕄 :=
  iprop(semVal (thr d L, SemLoc.dma cc1_scratch10.sem) 0 ∗ semVal (thr d L, SemLoc.dma cc1_scratch11.sem) 0
    ∗ semVal (thr d L, SemLoc.dma cc1_scratch12.sem) 0 ∗ semVal (thr d L, SemLoc.dma cc1_scratch13.sem) 0
    ∗ semVal (thr d L, SemLoc.dma cc1_scoped0.sem) 0 ∗ semVal (thr d L, SemLoc.dma cc1_scoped1.sem) 0)

variable (F) in
/-- The kernel on subcore `L`, over the resources as the symbolic run names them: the index array and the third-core
    table under one read share `q`, the pair table under TWO (`q0`, `q1`: two row gathers are outstanding at once,
    one per gather semaphore), the subcore's words of the result, its scratch and semaphores: it runs to the end and
    leaves the kernel's words in its part of the result. Stated as a proposition; its proof is in TileRunProof. -/
def TileRunOK : Prop :=
  ∀ (d : Dev nD) (L : grid1.Coords) (q q0 q1 : PosShare TreeShare)
    (fi : Buf (Elt F) ((idxWB).view.loc (thr d L))) (fp : Buf (Elt F) ((ptWB).view.loc (thr d L)))
    (fc : Buf (Elt F) ((ctWB).view.loc (thr d L))) (fo : Buf (Elt F) ((outWB).view.loc (thr d L)))
    (_ : Hundredth.OK F (c100 (F := F))) (_ : ∀ j, 0 ≤ (fi j).toInt ∧ (fi j).toInt ≤ 999999)
    (O : CellTallies nD τ sig (HIx 1)) (W : Waits sig (HIx 1)),
    (iprop(Transfers.MayWaits (thr d L) (none : HIx 1) O
            ∗ ((idxWB).view.loc (thr d L) ↦{q} fi) ∗ ((ptWB).view.loc (thr d L) ↦{q0} fp) ∗ ((ptWB).view.loc (thr d L) ↦{q1} fp)
            ∗ ((ctWB).view.loc (thr d L) ↦{q} fc) ∗ ((outWB).view.loc (thr d L) ↦[oSet L]{fullShare} fo)
            ∗ scratchAny d L ∗ semsZero d L ∗ owes (thr d L) O W) : sProp 𝕄)
          ⊢ wp frame (wpE (defs₀ (F := F)) 𝒱₀ (thr d L) none) Set.univ
              (cc1__sc_lookup L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1)
              fun _ => iprop(Transfers.MayWaits (thr d L) (none : HIx 1) O
                ∗ ((idxWB).view.loc (thr d L) ↦{q} fi) ∗ ((ptWB).view.loc (thr d L) ↦{q0} fp) ∗ ((ptWB).view.loc (thr d L) ↦{q1} fp)
                ∗ ((ctWB).view.loc (thr d L) ↦{q} fc)
                ∗ (∃ f : Buf (Elt F) ((outWB).view.loc (thr d L)), ((outWB).view.loc (thr d L) ↦[oSet L]{fullShare} f) ∗ ⌜TileSpec.OutOK (F := F) fi fp fc (wid L) f⌝)
                ∗ scratchAny d L ∗ semsZero d L ∗ ∃ W', ⌜∀ p ∈ W', p ∈ W ∨ p.2 = none⌝ ∗ owes (thr d L) O W')

end Cert.Proof.KB

end
-- ==== Proof.TileWrapB.lean ====
/-
  The kernel on one vector subcore, in the launch's spelling of what the subcore holds, from the same statement over the
  resources named one by one (taken as a hypothesis): the subcore's own buffers are its ten scratch buffers and a rest,
  its own cells are the kernel's six DMA semaphores and a rest; the arrays' locations are the same under both names; the
  pair table's read token is halved for the two row gathers that are outstanding at once, and joined again afterwards.
-/
import proofs.«207215_g13752485282153_cont_week2b_1454_30_alg».proof.Proof.TileRunB

noncomputable section

namespace Cert.Proof.KB

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

open Idealize.ShloMosaic.Transfers (shareTok)

section Wrap

variable (d : Dev nD) (L : grid1.Coords)

/-- The SparseCore of subcore `L`, as the chip numbers its SparseCores, -/
abbrev wrapC (L : grid1.Coords) : Fin τ.nSC := (L 0).castLE hcore1
/-- and its place among that SparseCore's vector subcores. -/
abbrev wrapS (L : grid1.Coords) : Fin τ.nSub := (L 1).castLE hsub1
/-- The subcore as a processor of its device. -/
abbrev wrapP (L : grid1.Coords) : Proc τ := .scVector (wrapC L) (wrapS L)

/-- Two cells of one thread on different semaphores are different cells. -/
theorem wrap_cell_ne {t : Thread nD τ} {a b : SemLoc sig} (h : a ≠ b) : ((t, a) : GSem nD τ sig) ≠ (t, b) :=
  fun e => h (Prod.ext_iff.mp e).2

/-- Two references of one processor that differ name different buffers of the device. -/
theorem wrap_ref_ne {p : Proc τ} {a b : Ref sig p.kind} (h : a ≠ b) : p.devRef a ≠ p.devRef b :=
  fun e => h (Proc.devRef_injective _ e)

/-- A DMA semaphore of the kernel is one of the subcore's own cells. -/
theorem wrap_dma_mem (a : DmaSems sig S_) (h : (SemLoc.dma a.sem : SemLoc sig).isScoped .scVector = true) :
    ((thr d L, SemLoc.dma a.sem) : GSem nD τ sig) ∈ ownCells (thr d L) :=
  mem_ownCells.mpr ⟨rfl, h⟩

/-- The subcore's own cells other than the kernel's six DMA semaphores. -/
abbrev wrapRestCells : Finset (GSem nD τ sig) :=
  ((((((ownCells (thr d L)).erase (thr d L, SemLoc.dma cc1_scratch10.sem)).erase (thr d L, SemLoc.dma cc1_scratch11.sem)).erase
    (thr d L, SemLoc.dma cc1_scratch12.sem)).erase (thr d L, SemLoc.dma cc1_scratch13.sem)).erase (thr d L, SemLoc.dma cc1_scoped0.sem)).erase
    (thr d L, SemLoc.dma cc1_scoped1.sem)

omit [FloatOps F] in
/-- The six DMA semaphores are among the subcore's own cells: its cells at zero are those six at zero, and the rest. -/
theorem wrap_ownSems0 :
    (ownSems0 (thr d L) : sProp 𝕄)
      = iprop(semVal (thr d L, SemLoc.dma cc1_scratch10.sem) 0 ∗ semVal (thr d L, SemLoc.dma cc1_scratch11.sem) 0
          ∗ semVal (thr d L, SemLoc.dma cc1_scratch12.sem) 0 ∗ semVal (thr d L, SemLoc.dma cc1_scratch13.sem) 0
          ∗ semVal (thr d L, SemLoc.dma cc1_scoped0.sem) 0 ∗ semVal (thr d L, SemLoc.dma cc1_scoped1.sem) 0
          ∗ bigSep (wrapRestCells d L) fun g => semVal g 0) := by
  unfold SparseCore.Cfg.ownSems0
  have m10 := wrap_dma_mem d L cc1_scratch10 (by decide)
  have m11 := wrap_dma_mem d L cc1_scratch11 (by decide)
  have m12 := wrap_dma_mem d L cc1_scratch12 (by decide)
  have m13 := wrap_dma_mem d L cc1_scratch13 (by decide)
  have m14 := wrap_dma_mem d L cc1_scoped0 (by decide)
  have m15 := wrap_dma_mem d L cc1_scoped1 (by decide)
  rw [SparseCore.bigSep_erase' m10,
    SparseCore.bigSep_erase' (i := (thr d L, SemLoc.dma cc1_scratch11.sem)) (by
      repeat (apply Finset.mem_erase_of_ne_of_mem (wrap_cell_ne (by decide)))
      exact m11),
    SparseCore.bigSep_erase' (i := (thr d L, SemLoc.dma cc1_scratch12.sem)) (by
      repeat (apply Finset.mem_erase_of_ne_of_mem (wrap_cell_ne (by decide)))
      exact m12),
    SparseCore.bigSep_erase' (i := (thr d L, SemLoc.dma cc1_scratch13.sem)) (by
      repeat (apply Finset.mem_erase_of_ne_of_mem (wrap_cell_ne (by decide)))
      exact m13),
    SparseCore.bigSep_erase' (i := (thr d L, SemLoc.dma cc1_scoped0.sem)) (by
      repeat (apply Finset.mem_erase_of_ne_of_mem (wrap_cell_ne (by decide)))
      exact m14),
    SparseCore.bigSep_erase' (i := (thr d L, SemLoc.dma cc1_scoped1.sem)) (by
      repeat (apply Finset.mem_erase_of_ne_of_mem (wrap_cell_ne (by decide)))
      exact m15)]

/-- The subcore's own buffers other than the kernel's ten scratch buffers. -/
abbrev wrapRestRefs (L : grid1.Coords) : Finset (DevRef τ sig) :=
  (((((((((((ownRefs (τ := τ) (wrapP L)).erase ((wrapP L).devRef cc1_scratch0)).erase ((wrapP L).devRef cc1_scratch1)).erase
    ((wrapP L).devRef cc1_scratch2)).erase ((wrapP L).devRef cc1_scratch3)).erase ((wrapP L).devRef cc1_scratch4)).erase
    ((wrapP L).devRef cc1_scratch5)).erase ((wrapP L).devRef cc1_scratch6)).erase ((wrapP L).devRef cc1_scratch7)).erase
    ((wrapP L).devRef cc1_scratch8)).erase ((wrapP L).devRef cc1_scratch9))

omit [FloatOps F] in
/-- The ten scratch buffers are among the subcore's own: its buffers are those ten, each at some contents, and the rest. -/
theorem wrap_ownBufs :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ (∃ f, (thr d L).loc cc1_scratch3 ↦{fullShare} f) ∗ (∃ f, (thr d L).loc cc1_scratch4 ↦{fullShare} f) ∗ (∃ f, (thr d L).loc cc1_scratch5 ↦{fullShare} f)
          ∗ (∃ f, (thr d L).loc cc1_scratch6 ↦{fullShare} f) ∗ (∃ f, (thr d L).loc cc1_scratch7 ↦{fullShare} f)
          ∗ (∃ f, (thr d L).loc cc1_scratch8 ↦{fullShare} f) ∗ (∃ f, (thr d L).loc cc1_scratch9 ↦{fullShare} f)
          ∗ bigSep (wrapRestRefs L) fun b => iprop(∃ f, ((d, b) : Loc nD τ sig) ↦{fullShare} f)) := by
  unfold SparseCore.Cfg.ownBufs
  refine (SparseCore.bigSep_erase' (SparseCore.Cfg.mem_ownRefs_of_owner (p := wrapP L) (b := (wrapP L).devRef cc1_scratch0) rfl)).trans ?_
  rw [
    SparseCore.bigSep_erase' (i := (wrapP L).devRef cc1_scratch1)
      (Finset.mem_erase_of_ne_of_mem (wrap_ref_ne (show (cc1_scratch1 : Ref sig .scVector) ≠ cc1_scratch0 by decide))
      (SparseCore.Cfg.mem_ownRefs_of_owner (p := wrapP L) (b := (wrapP L).devRef cc1_scratch1) rfl)),
    SparseCore.bigSep_erase' (i := (wrapP L).devRef cc1_scratch2)
      (Finset.mem_erase_of_ne_of_mem (wrap_ref_ne (show (cc1_scratch2 : Ref sig .scVector) ≠ cc1_scratch1 by decide))
      (Finset.mem_erase_of_ne_of_mem (wrap_ref_ne (show (cc1_scratch2 : Ref sig .scVector) ≠ cc1_scratch0 by decide))
      (SparseCore.Cfg.mem_ownRefs_of_owner (p := wrapP L) (b := (wrapP L).devRef cc1_scratch2) rfl))),
    SparseCore.bigSep_erase' (i := (wrapP L).devRef cc1_scratch3)
      (Finset.mem_erase_of_ne_of_mem (wrap_ref_ne (show (cc1_scratch3 : Ref sig .scVector) ≠ cc1_scratch2 by decide))
      (Finset.mem_erase_of_ne_of_mem (wrap_ref_ne (show (cc1_scratch3 : Ref sig .scVector) ≠ cc1_scratch1 by decide))
      (Finset.mem_erase_of_ne_of_mem (wrap_ref_ne (show (cc1_scratch3 : Ref sig .scVector) ≠ cc1_scratch0 by decide))
      (SparseCore.Cfg.mem_ownRefs_of_owner (p := wrapP L) (b := (wrapP L).devRef cc1_scratch3) rfl)))),
    SparseCore.bigSep_erase' (i := (wrapP L).devRef cc1_scratch4)
      (Finset.mem_erase_of_ne_of_mem (wrap_ref_ne (show (cc1_scratch4 : Ref sig .scVector) ≠ cc1_scratch3 by decide))
      (Finset.mem_erase_of_ne_of_mem (wrap_ref_ne (show (cc1_scratch4 : Ref sig .scVector) ≠ cc1_scratch2 by decide))
      (Finset.mem_erase_of_ne_of_mem (wrap_ref_ne (show (cc1_scratch4 : Ref sig .scVector) ≠ cc1_scratch1 by decide))
      (Finset.mem_erase_of_ne_of_mem (wrap_ref_ne (show (cc1_scratch4 : Ref sig .scVector) ≠ cc1_scratch0 by decide))
      (SparseCore.Cfg.mem_ownRefs_of_owner (p := wrapP L) (b := (wrapP L).devRef cc1_scratch4) rfl))))),
    SparseCore.bigSep_erase' (i := (wrapP L).devRef cc1_scratch5)
      (Finset.mem_erase_of_ne_of_mem (wrap_ref_ne (show (cc1_scratch5 : Ref sig .scVector) ≠ cc1_scratch4 by decide))
      (Finset.mem_erase_of_ne_of_mem (wrap_ref_ne (show (cc1_scratch5 : Ref sig .scVector) ≠ cc1_scratch3 by decide))
      (Finset.mem_erase_of_ne_of_mem (wrap_ref_ne (show (cc1_scratch5 : Ref sig .scVector) ≠ cc1_scratch2 by decide))
      (Finset.mem_erase_of_ne_of_mem (wrap_ref_ne (show (cc1_scratch5 : Ref sig .scVector) ≠ cc1_scratch1 by decide))
      (Finset.mem_erase_of_ne_of_mem (wrap_ref_ne (show (cc1_scratch5 : Ref sig .scVector) ≠ cc1_scratch0 by decide))
      (SparseCore.Cfg.mem_ownRefs_of_owner (p := wrapP L) (b := (wrapP L).devRef cc1_scratch5) rfl)))))),
    SparseCore.bigSep_erase' (i := (wrapP L).devRef cc1_scratch6)
      (Finset.mem_erase_of_ne_of_mem (wrap_ref_ne (show (cc1_scratch6 : Ref sig .scVector) ≠ cc1_scratch5 by decide))
      (Finset.mem_erase_of_ne_of_mem (wrap_ref_ne (show (cc1_scratch6 : Ref sig .scVector) ≠ cc1_scratch4 by decide))
      (Finset.mem_erase_of_ne_of_mem (wrap_ref_ne (show (cc1_scratch6 : Ref sig .scVector) ≠ cc1_scratch3 by decide))
      (Finset.mem_erase_of_ne_of_mem (wrap_ref_ne (show (cc1_scratch6 : Ref sig .scVector) ≠ cc1_scratch2 by decide))
      (Finset.mem_erase_of_ne_of_mem (wrap_ref_ne (show (cc1_scratch6 : Ref sig .scVector) ≠ cc1_scratch1 by decide))
      (Finset.mem_erase_of_ne_of_mem (wrap_ref_ne (show (cc1_scratch6 : Ref sig .scVector) ≠ cc1_scratch0 by decide))
      (SparseCore.Cfg.mem_ownRefs_of_owner (p := wrapP L) (b := (wrapP L).devRef cc1_scratch6) rfl))))))),
    SparseCore.bigSep_erase' (i := (wrapP L).devRef cc1_scratch7)
      (Finset.mem_erase_of_ne_of_mem (wrap_ref_ne (show (cc1_scratch7 : Ref sig .scVector) ≠ cc1_scratch6 by decide))
      (Finset.mem_erase_of_ne_of_mem (wrap_ref_ne (show (cc1_scratch7 : Ref sig .scVector) ≠ cc1_scratch5 by decide))
      (Finset.mem_erase_of_ne_of_mem (wrap_ref_ne (show (cc1_scratch7 : Ref sig .scVector) ≠ cc1_scratch4 by decide))
      (Finset.mem_erase_of_ne_of_mem (wrap_ref_ne (show (cc1_scratch7 : Ref sig .scVector) ≠ cc1_scratch3 by decide))
      (Finset.mem_erase_of_ne_of_mem (wrap_ref_ne (show (cc1_scratch7 : Ref sig .scVector) ≠ cc1_scratch2 by decide))
      (Finset.mem_erase_of_ne_of_mem (wrap_ref_ne (show (cc1_scratch7 : Ref sig .scVector) ≠ cc1_scratch1 by decide))
      (Finset.mem_erase_of_ne_of_mem (wrap_ref_ne (show (cc1_scratch7 : Ref sig .scVector) ≠ cc1_scratch0 by decide))
      (SparseCore.Cfg.mem_ownRefs_of_owner (p := wrapP L) (b := (wrapP L).devRef cc1_scratch7) rfl)))))))),
    SparseCore.bigSep_erase' (i := (wrapP L).devRef cc1_scratch8)
      (Finset.mem_erase_of_ne_of_mem (wrap_ref_ne (show (cc1_scratch8 : Ref sig .scVector) ≠ cc1_scratch7 by decide))
      (Finset.mem_erase_of_ne_of_mem (wrap_ref_ne (show (cc1_scratch8 : Ref sig .scVector) ≠ cc1_scratch6 by decide))
      (Finset.mem_erase_of_ne_of_mem (wrap_ref_ne (show (cc1_scratch8 : Ref sig .scVector) ≠ cc1_scratch5 by decide))
      (Finset.mem_erase_of_ne_of_mem (wrap_ref_ne (show (cc1_scratch8 : Ref sig .scVector) ≠ cc1_scratch4 by decide))
      (Finset.mem_erase_of_ne_of_mem (wrap_ref_ne (show (cc1_scratch8 : Ref sig .scVector) ≠ cc1_scratch3 by decide))
      (Finset.mem_erase_of_ne_of_mem (wrap_ref_ne (show (cc1_scratch8 : Ref sig .scVector) ≠ cc1_scratch2 by decide))
      (Finset.mem_erase_of_ne_of_mem (wrap_ref_ne (show (cc1_scratch8 : Ref sig .scVector) ≠ cc1_scratch1 by decide))
      (Finset.mem_erase_of_ne_of_mem (wrap_ref_ne (show (cc1_scratch8 : Ref sig .scVector) ≠ cc1_scratch0 by decide))
      (SparseCore.Cfg.mem_ownRefs_of_owner (p := wrapP L) (b := (wrapP L).devRef cc1_scratch8) rfl))))))))),
    SparseCore.bigSep_erase' (i := (wrapP L).devRef cc1_scratch9)
      (Finset.mem_erase_of_ne_of_mem (wrap_ref_ne (show (cc1_scratch9 : Ref sig .scVector) ≠ cc1_scratch8 by decide))
      (Finset.mem_erase_of_ne_of_mem (wrap_ref_ne (show (cc1_scratch9 : Ref sig .scVector) ≠ cc1_scratch7 by decide))
      (Finset.mem_erase_of_ne_of_mem (wrap_ref_ne (show (cc1_scratch9 : Ref sig .scVector) ≠ cc1_scratch6 by decide))
      (Finset.mem_erase_of_ne_of_mem (wrap_ref_ne (show (cc1_scratch9 : Ref sig .scVector) ≠ cc1_scratch5 by decide))
      (Finset.mem_erase_of_ne_of_mem (wrap_ref_ne (show (cc1_scratch9 : Ref sig .scVector) ≠ cc1_scratch4 by decide))
      (Finset.mem_erase_of_ne_of_mem (wrap_ref_ne (show (cc1_scratch9 : Ref sig .scVector) ≠ cc1_scratch3 by decide))
      (Finset.mem_erase_of_ne_of_mem (wrap_ref_ne (show (cc1_scratch9 : Ref sig .scVector) ≠ cc1_scratch2 by decide))
      (Finset.mem_erase_of_ne_of_mem (wrap_ref_ne (show (cc1_scratch9 : Ref sig .scVector) ≠ cc1_scratch1 by decide))
      (Finset.mem_erase_of_ne_of_mem (wrap_ref_ne (show (cc1_scratch9 : Ref sig .scVector) ≠ cc1_scratch0 by decide))
      (SparseCore.Cfg.mem_ownRefs_of_owner (p := wrapP L) (b := (wrapP L).devRef cc1_scratch9) rfl))))))))))]

end Wrap

section Tile

variable (d : Dev nD)
variable (fi : Buf (Elt F) (idxLoc d)) (fp : Buf (Elt F) (ptLoc d)) (fc : Buf (Elt F) (ctLoc d)) (fo : Buf (Elt F) (outLoc d))

/-- The read token of subcore `L`: one of 32 tokens of the full share. -/
abbrev wrapTok (L : grid1.Coords) : PosShare TreeShare := shareTok fullShare 32 ⟨wid L, wid_lt L⟩

/-- The kernel on vector subcore `L` of device `d`, in the launch's spelling of what the subcore holds, from the same
    over the resources named one by one (`hrun`): the subcore's
    own buffers and cells are its ten scratch buffers, its six DMA semaphores and a rest the kernel never touches; the
    arrays' locations are the same under both names; the pair table's read token is halved for the two row gathers that
    are outstanding at once and the halves are joined again at the end. -/
theorem tile_body_proved (hrun : TileRunOK F) (hH : Hundredth.OK F (c100 (F := F))) (hidx : ∀ j, 0 ≤ (fi j).toInt ∧ (fi j).toInt ≤ 999999)
    (hF : (K (F := F)).Facts) (L : grid1.Coords) (O : CellTallies nD τ sig (HIx 1)) (W : Waits sig (HIx 1)) (hO : ∀ g, O g none = 0) :
    iprop(levAts (K (F := F)).L (K (F := F)).lev ∗ emp ∗ goP d fi fp fc fo L
        ∗ scopedBufs (thr d L) ∗ scopedSems0 (thr d L) ∗ owes (thr d L) O W)
      ⊢ wp frame (wpE (defs₀ (F := F)) 𝒱₀ (thr d L) none) Set.univ
          (cc1__sc_lookup L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1)
          fun _ => iprop(tdP d fi fp fc L ∗ scopedBufs (thr d L) ∗ scopedSems0 (thr d L)
            ∗ ∃ W', ⌜∀ p ∈ W', p ∈ W ∨ p.2 = none⌝ ∗ owes (thr d L) O W') := by
  rw [(K (F := F)).scopedBufs_V hF d (wrapC L) (wrapS L), SparseCore.Cfg.scopedSems0_V (Val := Elt F) d (wrapC L) (wrapS L),
    wrap_ownSems0, wrap_ownBufs]
  unfold goP tdP
  iintro ⟨#Hlv, -, ⟨Hi, Hp, Hc, Ho⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, Hbufs⟩,
    ⟨Hm10, Hm11, Hm12, Hm13, Hm14, Hm15, Hsems⟩, HO⟩
  ihave Hmw := ((K (F := F)).mayWaits_none (thr := thr d L) hO) $$ Hlv
  ihave Hp' := (pointsTo_share (PosShare.mem_left_op_right (wrapTok L))).1 $$ Hp
  icases Hp' with ⟨Hp0, Hp1⟩
  iapply (wp_wand_r frame _ Set.univ)
  isplitl [Hmw Hi Hp0 Hp1 Hc Ho H0 H1 H2 H3 H4 H5 H6 H7 H8 H9 Hm10 Hm11 Hm12 Hm13 Hm14 Hm15 HO]
  · iapply (hrun d L (wrapTok L) (wrapTok L).left (wrapTok L).right fi fp fc fo hH hidx O W)
    unfold scratchAny semsZero
    isplitl [Hmw]; · iexact Hmw
    isplitl [Hi]; · iexact Hi
    isplitl [Hp0]; · iexact Hp0
    isplitl [Hp1]; · iexact Hp1
    isplitl [Hc]; · iexact Hc
    isplitl [Ho]; · iexact Ho
    isplitl [H0 H1 H2 H3 H4 H5 H6 H7 H8 H9]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      iexists _; iexact H9
    isplitl [Hm10 Hm11 Hm12 Hm13 Hm14 Hm15]
    · isplitl [Hm10]; · iexact Hm10
      isplitl [Hm11]; · iexact Hm11
      isplitl [Hm12]; · iexact Hm12
      isplitl [Hm13]; · iexact Hm13
      isplitl [Hm14]; · iexact Hm14
      iexact Hm15
    iexact HO
  iintro %_ Hpost
  unfold scratchAny semsZero
  icases Hpost with ⟨-, Hi, Hp0, Hp1, Hc, ⟨%f, Hout, %hok⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩⟩,
    ⟨Hm10, Hm11, Hm12, Hm13, Hm14, Hm15⟩, %W', %hW', HO⟩
  ihave Hp := (pointsTo_share (PosShare.mem_left_op_right (wrapTok L))).2 $$ [Hp0 Hp1]
  · isplitl [Hp0]; · iexact Hp0
    iexact Hp1
  isplitl [Hi Hp Hc Hout]
  · isplitl [Hi]; · iexact Hi
    isplitl [Hp]; · iexact Hp
    isplitl [Hc]; · iexact Hc
    iexists f; isplitl [Hout]; · iexact Hout
    ipureintro; exact hok
  isplitl [H0 H1 H2 H3 H4 H5 H6 H7 H8 H9 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexact Hbufs
  isplitl [Hm10 Hm11 Hm12 Hm13 Hm14 Hm15 Hsems]
  · isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact Hsems
  iexists W'; isplitr
  · ipureintro; exact hW'
  · iexact HO

end Tile

/-- The same for every device, contents, subcore and debt at once: the statement the launch asks of the kernel's body. -/
theorem tileBodyOK (hrun : TileRunOK F) : TileBodyOK F :=
  fun d fi fp fc fo hH hidx hF L O W hO => tile_body_proved d fi fp fc fo hrun hH hidx hF L O W hO

end Cert.Proof.KB

end
-- ==== Proof.TileData.lean ====
/-
  The tile's data in closed form. Worker w owns index words [13312 w, 13312 (w + 1)); block b of the tile is its
  words [128 b, 128 (b + 1)). The digit split sends an index word n in [0, 10^6) to the pair-table row n / 100 and the
  third digit n % 100; the indirect gather fetches, for each of a block's 128 tokens, the row of the pair table its
  quotient names. Every statement here is an equation between contents terms.
-/
import proofs.«207215_g13752485282153_cont_week2b_1454_30_alg».proof.Proof.Common
import proofs.«207215_g13752485282153_cont_week2b_1454_30_alg».proof.Proof.TileSpec
import proofs.«207215_g13752485282153_cont_week2b_1454_30_alg».proof.Proof.Hundredth
import Idealize.ShloMosaic.Lib.Writes
import Idealize.ShloMosaic.Lib.ValueIdx
import Idealize.ShloMosaic.Lib.SparseCore.Stream

noncomputable section

namespace Cert.Proof.KI

open Cert.KernelIdeal Cert.KernelIdeal.Gen
open Idealize.ShloMosaic Idealize.ShloMosaic.ValueIdx

variable {F : FTy → Type} [FloatOps F] [Named F]

/-! ## The data -/

/-- The 13312 index words of worker `w`'s tile. -/
def IDXV (fi : IVec S425984 32) (w : ℕ) : IVec S13312 32 :=
  fun j => fi (ix1 (⟨(13312 * w + (j 0).val) % 425984, Nat.mod_lt _ (by decide)⟩ : Fin 425984))

/-- Sixteen consecutive index words of the tile: words [128 b + 16 k, 128 b + 16 (k + 1)). -/
def SEG (fi : IVec S425984 32) (w b k : ℕ) : IVec S16 32 :=
  fun x => fi (ix1 (⟨(13312 * w + 128 * b + 16 * k + (x 0).val) % 425984, Nat.mod_lt _ (by decide)⟩ : Fin 425984))

/-- The pair-table rows of block `b`: the quotients by 100 of its 128 index words. -/
def G12 (fi : IVec S425984 32) (w b : ℕ) : IVec S128 32 :=
  fun j => BitVec.ofNat 32 ((fi (ix1 (⟨(13312 * w + 128 * b + (j 0).val) % 425984, Nat.mod_lt _ (by decide)⟩ : Fin 425984))).toNat / 100)

/-- The third digits of block `b`: the remainders modulo 100 of its 128 index words. -/
def I3 (fi : IVec S425984 32) (w b : ℕ) : IVec S128 32 :=
  fun j => BitVec.ofNat 32 ((fi (ix1 (⟨(13312 * w + 128 * b + (j 0).val) % 425984, Nat.mod_lt _ (by decide)⟩ : Fin 425984))).toNat % 100)

/-- The rows of the pair table a list of 128 row numbers names. -/
def ROWS (fp : Vec F S10000x128 .f32) (g : IVec S128 32) : Vec F S128x128 .f32 :=
  fun j => fp (ix2 (⟨(g (ix1 (j 0))).toNat % 10000, Nat.mod_lt _ (by decide)⟩ : Fin 10000) (j 1))

/-- The quotient lane computation on sixteen words, as the kernel prints it. -/
def q12 (v : IVec S16 32) : IVec S16 32 :=
  fptosi 32 (mulf (addf (sitofp .f32 v) (broadcast S16 (Scalar.ofBits .f32 0x3F000000#32)))
    (broadcast S16 (Named.named (F := F) κ "inv_100" 0x3C23D70A#32)))

/-- The remainder lane computation on sixteen words, as the kernel prints it. -/
def r3 (v : IVec S16 32) : IVec S16 32 :=
  subi v (muli (q12 (F := F) v) (broadcast S16 100#32))

/-! ## Index words in range -/

/-- A 32-bit word read as a signed integer in [0, 999999] is that natural number. -/
theorem toNat_le_of_range (v : BitVec 32) (h0 : 0 ≤ v.toInt) (h1 : v.toInt ≤ 999999) : v.toNat ≤ 999999 := by
  have h := BitVec.toInt_eq_toNat_cond v
  have hlt := v.isLt
  split at h <;> omega

/-! ## The first copy -/

/-- The first copy's payload: the source slice reads the tile's index words. -/
theorem dma0_read (fi : IVec S425984 32) (L : grid1.Coords) :
    ((idxW).slice (Rect.unit (s := S425984) (k1_off1 L) S13312.size (k1_off1_inb L)) (fun _ => rfl)).view.read (Elt F) fi
      = IDXV fi (wid L) := by
  funext j
  have h0 : (L 0).val < 2 := (L 0).isLt
  have h1 : (L 1).val < 16 := (L 1).isLt
  have hj : (j 0).val < 13312 := (j 0).isLt
  show fi _ = fi _
  congr 1
  funext a
  match a with
  | ⟨0, _⟩ =>
    apply Fin.ext
    show (k1_off1 L) 0 + 1 * (j 0).val = (13312 * wid L + (j 0).val) % 425984
    have hk : (k1_off1 L) 0 = 26624 * (L 1).val + 13312 * (L 0).val := congrFun (k1_off1_eq L) 0
    unfold wid
    omega

/-- After the first copy the index scratch holds the tile's index words, whatever it held before. -/
theorem dma0_eq (fi : IVec S425984 32) (L : grid1.Coords) (f0 : IVec S13312 32) :
    View.write (Elt F) (s0W).view f0
        (((idxW).slice (Rect.unit (s := S425984) (k1_off1 L) S13312.size (k1_off1_inb L)) (fun _ => rfl)).view.read (Elt F) fi) Finset.univ
      = IDXV fi (wid L) := by
  rw [dma0_read]
  exact View.write_whole_univ _ _ _

/-! ## The digit split on sixteen lanes -/

/-- The quotient lanes: on index words in range, `⌊(n + 1/2) · c⌋ = n / 100` lane by lane. -/
theorem lane12 (hH : Hundredth.OK F (Named.named (F := F) κ "inv_100" (φ := .f32) 0x3C23D70A#32)) (v : IVec S16 32)
    (hv : ∀ x, 0 ≤ (v x).toInt ∧ (v x).toInt ≤ 999999) :
    q12 (F := F) v = fun x => BitVec.ofNat 32 ((v x).toNat / 100) := by
  funext x
  exact hH (v x) (hv x).1 (hv x).2

/-- `n - 100 (n / 100) = n % 100` in 32-bit arithmetic, for `n` in range: nothing wraps. -/
theorem sub_mul_hundred (n : BitVec 32) (hn : n.toNat ≤ 999999) :
    n - BitVec.ofNat 32 (n.toNat / 100) * 100#32 = BitVec.ofNat 32 (n.toNat % 100) := by
  apply BitVec.eq_of_toNat_eq
  rw [BitVec.toNat_sub, BitVec.toNat_mul, BitVec.toNat_ofNat, BitVec.toNat_ofNat, BitVec.toNat_ofNat]
  have hlt := n.isLt
  omega

/-- The remainder lanes: on index words in range, `n - 100 (n / 100) = n % 100` lane by lane. -/
theorem lane3 (hH : Hundredth.OK F (Named.named (F := F) κ "inv_100" (φ := .f32) 0x3C23D70A#32)) (v : IVec S16 32)
    (hv : ∀ x, 0 ≤ (v x).toInt ∧ (v x).toInt ≤ 999999) :
    r3 (F := F) v = fun x => BitVec.ofNat 32 ((v x).toNat % 100) := by
  unfold r3
  rw [lane12 hH v hv]
  funext x
  exact sub_mul_hundred (v x) (toNat_le_of_range (v x) (hv x).1 (hv x).2)

/-! ## The rows in range, the digits below 100 -/

theorem G12_lt (fi : IVec S425984 32) (hidx : ∀ j, 0 ≤ (fi j).toInt ∧ (fi j).toInt ≤ 999999) (w b : ℕ) (j : S128.Idx) :
    (G12 fi w b j).toNat < 10000 := by
  unfold G12
  have h := toNat_le_of_range _ (hidx (ix1 (⟨(13312 * w + 128 * b + (j 0).val) % 425984, Nat.mod_lt _ (by decide)⟩ : Fin 425984))).1
    (hidx (ix1 (⟨(13312 * w + 128 * b + (j 0).val) % 425984, Nat.mod_lt _ (by decide)⟩ : Fin 425984))).2
  rw [BitVec.toNat_ofNat]
  omega

/-- The row numbers the digit split leaves are rows of the pair table: what the indirect gather asks of its list. -/
theorem hin_of (fi : IVec S425984 32) (hidx : ∀ j, 0 ≤ (fi j).toInt ∧ (fi j).toInt ≤ 999999) (w b : ℕ) :
    ∀ j, ((s2W).view.read (Elt F) (G12 fi w b) j).toNat < S10000x128.size gathers_S10000x128_S128x128.axis :=
  fun j => G12_lt fi hidx w b j

theorem hin_of' (fi : IVec S425984 32) (hidx : ∀ j, 0 ≤ (fi j).toInt ∧ (fi j).toInt ≤ 999999) (w b : ℕ) :
    ∀ j, ((s3W).view.read (Elt F) (G12 fi w b) j).toNat < S10000x128.size gathers_S10000x128_S128x128.axis :=
  fun j => G12_lt fi hidx w b j

/-- The third digits are below 100. -/
theorem i3_le (fi : IVec S425984 32) (w b : ℕ) (j : S128.Idx) : (I3 fi w b j).toNat ≤ 99 := by
  unfold I3
  rw [BitVec.toNat_ofNat]
  omega

/-! ## Blocks of the tile's words -/

/-- The index array at two equal positions. -/
theorem fi_congr (fi : IVec S425984 32) {m n : ℕ} (h : m = n) :
    fi (ix1 (⟨m % 425984, Nat.mod_lt _ (by decide)⟩ : Fin 425984)) = fi (ix1 (⟨n % 425984, Nat.mod_lt _ (by decide)⟩ : Fin 425984)) := by
  subst h; rfl

/-- Sixteen words of the index scratch at offset `128 b + 16 k`, once it holds the tile's words. -/
theorem seg_read (fi : IVec S425984 32) (w b k : ℕ) (off : Fin 1 → ℕ) (inb : ∀ a, off a + S16.size a ≤ S13312.size a)
    (ho : off 0 = 128 * b + 16 * k) :
    View.readAt (Elt F) (s0W).view (Rect.unit (s := S13312) off S16.size inb).toLoadRect (IDXV fi w) = SEG fi w b k := by
  funext x
  show fi (ix1 (⟨(13312 * w + (off 0 + 1 * (x 0).val)) % 425984, Nat.mod_lt _ (by decide)⟩ : Fin 425984))
    = fi (ix1 (⟨(13312 * w + 128 * b + 16 * k + (x 0).val) % 425984, Nat.mod_lt _ (by decide)⟩ : Fin 425984))
  exact fi_congr fi (by omega)

theorem seg_range (fi : IVec S425984 32) (hidx : ∀ j, 0 ≤ (fi j).toInt ∧ (fi j).toInt ≤ 999999) (w b k : ℕ) :
    ∀ x, 0 ≤ (SEG fi w b k x).toInt ∧ (SEG fi w b k x).toInt ≤ 999999 := fun _ => hidx _

/-- Block `k` of sixteen of the row list is the quotients of the tile's sixteen words there. -/
theorem G12_block (fi : IVec S425984 32) (w b k : ℕ) (off : Fin 1 → ℕ) (inb : ∀ a, off a + S16.size a ≤ S128.size a)
    (ho : off 0 = 16 * k) (x : S16.Idx) :
    G12 fi w b ((Rect.unit (s := S128) off S16.size inb).emb x) = BitVec.ofNat 32 ((SEG fi w b k x).toNat / 100) := by
  show BitVec.ofNat 32 ((fi (ix1 (⟨(13312 * w + 128 * b + (off 0 + 1 * (x 0).val)) % 425984, Nat.mod_lt _ (by decide)⟩ : Fin 425984))).toNat / 100)
    = BitVec.ofNat 32 ((fi (ix1 (⟨(13312 * w + 128 * b + 16 * k + (x 0).val) % 425984, Nat.mod_lt _ (by decide)⟩ : Fin 425984))).toNat / 100)
  exact congrArg (fun z : BitVec 32 => BitVec.ofNat 32 (z.toNat / 100)) (fi_congr fi (by omega))

/-- Block `k` of sixteen of the digit list is the remainders of the tile's sixteen words there. -/
theorem I3_block (fi : IVec S425984 32) (w b k : ℕ) (off : Fin 1 → ℕ) (inb : ∀ a, off a + S16.size a ≤ S128.size a)
    (ho : off 0 = 16 * k) (x : S16.Idx) :
    I3 fi w b ((Rect.unit (s := S128) off S16.size inb).emb x) = BitVec.ofNat 32 ((SEG fi w b k x).toNat % 100) := by
  show BitVec.ofNat 32 ((fi (ix1 (⟨(13312 * w + 128 * b + (off 0 + 1 * (x 0).val)) % 425984, Nat.mod_lt _ (by decide)⟩ : Fin 425984))).toNat % 100)
    = BitVec.ofNat 32 ((fi (ix1 (⟨(13312 * w + 128 * b + 16 * k + (x 0).val) % 425984, Nat.mod_lt _ (by decide)⟩ : Fin 425984))).toNat % 100)
  exact congrArg (fun z : BitVec 32 => BitVec.ofNat 32 (z.toNat % 100)) (fi_congr fi (by omega))

/-! ## Eight stores fill a list -/

/-- Eight unmasked stores of sixteen lanes at offsets 0, 16, …, 112 through a view of 128 words: if each payload is
    its block of one function `G`, the view reads `G` afterwards, whatever the buffer held before. -/
theorem read_eight {sigr : RefSig} {κ' : Kind} {sp : Space} {Val : EltTy → Type} {e : EltTy} (v : View sigr κ' sp S128 e)
    (f : v.ty.Contents Val) (G : S128.Idx → Val e) (p0 p1 p2 p3 p4 p5 p6 p7 : S16.Idx → Val e)
    (i0 : ∀ a, (![0] : Fin 1 → ℕ) a + S16.size a ≤ S128.size a) (i1 : ∀ a, (![16] : Fin 1 → ℕ) a + S16.size a ≤ S128.size a)
    (i2 : ∀ a, (![32] : Fin 1 → ℕ) a + S16.size a ≤ S128.size a) (i3 : ∀ a, (![48] : Fin 1 → ℕ) a + S16.size a ≤ S128.size a)
    (i4 : ∀ a, (![64] : Fin 1 → ℕ) a + S16.size a ≤ S128.size a) (i5 : ∀ a, (![80] : Fin 1 → ℕ) a + S16.size a ≤ S128.size a)
    (i6 : ∀ a, (![96] : Fin 1 → ℕ) a + S16.size a ≤ S128.size a) (i7 : ∀ a, (![112] : Fin 1 → ℕ) a + S16.size a ≤ S128.size a)
    (h0 : ∀ x, p0 x = G ((Rect.unit (s := S128) ![0] S16.size i0).emb x)) (h1 : ∀ x, p1 x = G ((Rect.unit (s := S128) ![16] S16.size i1).emb x))
    (h2 : ∀ x, p2 x = G ((Rect.unit (s := S128) ![32] S16.size i2).emb x)) (h3 : ∀ x, p3 x = G ((Rect.unit (s := S128) ![48] S16.size i3).emb x))
    (h4 : ∀ x, p4 x = G ((Rect.unit (s := S128) ![64] S16.size i4).emb x)) (h5 : ∀ x, p5 x = G ((Rect.unit (s := S128) ![80] S16.size i5).emb x))
    (h6 : ∀ x, p6 x = G ((Rect.unit (s := S128) ![96] S16.size i6).emb x)) (h7 : ∀ x, p7 x = G ((Rect.unit (s := S128) ![112] S16.size i7).emb x)) :
    v.read Val (v.writes Val f
      [⟨Rect.unit (s := S128) ![112] S16.size i7, p7⟩, ⟨Rect.unit (s := S128) ![96] S16.size i6, p6⟩,
       ⟨Rect.unit (s := S128) ![80] S16.size i5, p5⟩, ⟨Rect.unit (s := S128) ![64] S16.size i4, p4⟩,
       ⟨Rect.unit (s := S128) ![48] S16.size i3, p3⟩, ⟨Rect.unit (s := S128) ![32] S16.size i2, p2⟩,
       ⟨Rect.unit (s := S128) ![16] S16.size i1, p1⟩, ⟨Rect.unit (s := S128) ![0] S16.size i0, p0⟩]) = G := by
  funext y
  refine View.read_writes_apply_of_pieces v f G _ ?_ y (View.cover_of_tiled _ (fun _ => 16) rfl y)
  intro p hp
  simp only [List.mem_cons, List.not_mem_nil, or_false] at hp
  rcases hp with rfl | rfl | rfl | rfl | rfl | rfl | rfl | rfl
  · exact h7
  · exact h6
  · exact h5
  · exact h4
  · exact h3
  · exact h2
  · exact h1
  · exact h0

/-! ## The two lists of a block -/

section Lists

variable {κ' : Kind} {sp : Space}
variable (hH : Hundredth.OK F (Named.named (F := F) κ "inv_100" (φ := .f32) 0x3C23D70A#32))
variable (fi : IVec S425984 32) (hidx : ∀ j, 0 ≤ (fi j).toInt ∧ (fi j).toInt ≤ 999999) (w b : ℕ)
variable (p0 p1 p2 p3 p4 p5 p6 p7 : IVec S16 32)
variable (i0 : ∀ a, (![0] : Fin 1 → ℕ) a + S16.size a ≤ S128.size a) (i1 : ∀ a, (![16] : Fin 1 → ℕ) a + S16.size a ≤ S128.size a)
  (i2 : ∀ a, (![32] : Fin 1 → ℕ) a + S16.size a ≤ S128.size a) (i3 : ∀ a, (![48] : Fin 1 → ℕ) a + S16.size a ≤ S128.size a)
  (i4 : ∀ a, (![64] : Fin 1 → ℕ) a + S16.size a ≤ S128.size a) (i5 : ∀ a, (![80] : Fin 1 → ℕ) a + S16.size a ≤ S128.size a)
  (i6 : ∀ a, (![96] : Fin 1 → ℕ) a + S16.size a ≤ S128.size a) (i7 : ∀ a, (![112] : Fin 1 → ℕ) a + S16.size a ≤ S128.size a)

include hH hidx in
/-- The row list of block `b`: eight stores of the quotient lanes of the tile's words [128 b + 16 k, 128 b + 16 (k + 1)),
    k = 0..7, leave the block's 128 quotients, read through any view of the 128 words over any prior contents. -/
theorem lists12 (v : View sig κ' sp S128 .i32) (f : v.ty.Contents (Elt F))
    (h0 : p0 = q12 (F := F) (SEG fi w b 0)) (h1 : p1 = q12 (F := F) (SEG fi w b 1)) (h2 : p2 = q12 (F := F) (SEG fi w b 2))
    (h3 : p3 = q12 (F := F) (SEG fi w b 3)) (h4 : p4 = q12 (F := F) (SEG fi w b 4)) (h5 : p5 = q12 (F := F) (SEG fi w b 5))
    (h6 : p6 = q12 (F := F) (SEG fi w b 6)) (h7 : p7 = q12 (F := F) (SEG fi w b 7)) :
    v.read (Elt F) (v.writes (Elt F) f
      [⟨Rect.unit (s := S128) ![112] S16.size i7, p7⟩, ⟨Rect.unit (s := S128) ![96] S16.size i6, p6⟩,
       ⟨Rect.unit (s := S128) ![80] S16.size i5, p5⟩, ⟨Rect.unit (s := S128) ![64] S16.size i4, p4⟩,
       ⟨Rect.unit (s := S128) ![48] S16.size i3, p3⟩, ⟨Rect.unit (s := S128) ![32] S16.size i2, p2⟩,
       ⟨Rect.unit (s := S128) ![16] S16.size i1, p1⟩, ⟨Rect.unit (s := S128) ![0] S16.size i0, p0⟩]) = G12 fi w b := by
  subst h0 h1 h2 h3 h4 h5 h6 h7
  refine read_eight v f (G12 fi w b) _ _ _ _ _ _ _ _ i0 i1 i2 i3 i4 i5 i6 i7 ?_ ?_ ?_ ?_ ?_ ?_ ?_ ?_ <;> intro x
  · rw [G12_block fi w b 0 _ _ rfl, lane12 hH _ (seg_range fi hidx w b 0)]
  · rw [G12_block fi w b 1 _ _ rfl, lane12 hH _ (seg_range fi hidx w b 1)]
  · rw [G12_block fi w b 2 _ _ rfl, lane12 hH _ (seg_range fi hidx w b 2)]
  · rw [G12_block fi w b 3 _ _ rfl, lane12 hH _ (seg_range fi hidx w b 3)]
  · rw [G12_block fi w b 4 _ _ rfl, lane12 hH _ (seg_range fi hidx w b 4)]
  · rw [G12_block fi w b 5 _ _ rfl, lane12 hH _ (seg_range fi hidx w b 5)]
  · rw [G12_block fi w b 6 _ _ rfl, lane12 hH _ (seg_range fi hidx w b 6)]
  · rw [G12_block fi w b 7 _ _ rfl, lane12 hH _ (seg_range fi hidx w b 7)]

include hH hidx in
/-- The digit list of block `b`: the same eight stores of the remainder lanes leave the block's 128 third digits. -/
theorem lists3 (v : View sig κ' sp S128 .i32) (f : v.ty.Contents (Elt F))
    (h0 : p0 = r3 (F := F) (SEG fi w b 0)) (h1 : p1 = r3 (F := F) (SEG fi w b 1)) (h2 : p2 = r3 (F := F) (SEG fi w b 2))
    (h3 : p3 = r3 (F := F) (SEG fi w b 3)) (h4 : p4 = r3 (F := F) (SEG fi w b 4)) (h5 : p5 = r3 (F := F) (SEG fi w b 5))
    (h6 : p6 = r3 (F := F) (SEG fi w b 6)) (h7 : p7 = r3 (F := F) (SEG fi w b 7)) :
    v.read (Elt F) (v.writes (Elt F) f
      [⟨Rect.unit (s := S128) ![112] S16.size i7, p7⟩, ⟨Rect.unit (s := S128) ![96] S16.size i6, p6⟩,
       ⟨Rect.unit (s := S128) ![80] S16.size i5, p5⟩, ⟨Rect.unit (s := S128) ![64] S16.size i4, p4⟩,
       ⟨Rect.unit (s := S128) ![48] S16.size i3, p3⟩, ⟨Rect.unit (s := S128) ![32] S16.size i2, p2⟩,
       ⟨Rect.unit (s := S128) ![16] S16.size i1, p1⟩, ⟨Rect.unit (s := S128) ![0] S16.size i0, p0⟩]) = I3 fi w b := by
  subst h0 h1 h2 h3 h4 h5 h6 h7
  refine read_eight v f (I3 fi w b) _ _ _ _ _ _ _ _ i0 i1 i2 i3 i4 i5 i6 i7 ?_ ?_ ?_ ?_ ?_ ?_ ?_ ?_ <;> intro x
  · rw [I3_block fi w b 0 _ _ rfl, lane3 hH _ (seg_range fi hidx w b 0)]
  · rw [I3_block fi w b 1 _ _ rfl, lane3 hH _ (seg_range fi hidx w b 1)]
  · rw [I3_block fi w b 2 _ _ rfl, lane3 hH _ (seg_range fi hidx w b 2)]
  · rw [I3_block fi w b 3 _ _ rfl, lane3 hH _ (seg_range fi hidx w b 3)]
  · rw [I3_block fi w b 4 _ _ rfl, lane3 hH _ (seg_range fi hidx w b 4)]
  · rw [I3_block fi w b 5 _ _ rfl, lane3 hH _ (seg_range fi hidx w b 5)]
  · rw [I3_block fi w b 6 _ _ rfl, lane3 hH _ (seg_range fi hidx w b 6)]
  · rw [I3_block fi w b 7 _ _ rfl, lane3 hH _ (seg_range fi hidx w b 7)]

end Lists

/-! ## The indirect row gather -/

/-- At rank one the row-major numbering is the coordinate. -/
theorem rowMajor_symm_one {n : ℕ} (k : Fin (⟨1, ![n]⟩ : Shape).numel) :
    (((⟨1, ![n]⟩ : Shape).rowMajor.symm k) 0).val = k.val := by
  have h := Shape.rowMajor_val_one (d := ![n]) ((⟨1, ![n]⟩ : Shape).rowMajor.symm k)
  rw [Equiv.apply_symm_apply] at h
  exact h.symm

/-- The gather's payload over a source `P` and a list `O` of 128 row numbers, each a row of the source: row `t` of the
    payload is row `O t` of `P`. -/
theorem gather_payload (P : Vec F S10000x128 .f32) (O : IVec S128 32)
    (hin : ∀ x, (O x).toNat < S10000x128.size gathers_S10000x128_S128x128.axis) :
    SparseCore.gatherPayload (F := F) gathers_S10000x128_S128x128 P (SparseCore.rows (F := F) (si := S128) O rfl hin) = ROWS P O := by
  funext j
  show P _ = P _
  congr 1
  funext a
  match a with
  | ⟨0, _⟩ =>
    apply Fin.ext
    show (O (S128.rowMajor.symm _)).toNat = (O (ix1 (j 0))).toNat % 10000
    have hj : S128.rowMajor.symm (Fin.cast (rfl : S128.numel = S128x128.size gathers_S10000x128_S128x128.axis').symm (j gathers_S10000x128_S128x128.axis')) = ix1 (j 0) := by
      funext c
      match c with
      | ⟨0, _⟩ => exact Fin.ext (rowMajor_symm_one _)
    have hlt : (O (ix1 (j 0))).toNat < 10000 := hin (ix1 (j 0))
    rw [Nat.mod_eq_of_lt hlt]
    exact congrArg (fun z => (O z).toNat) hj
  | ⟨1, _⟩ => rfl

/-- The pair table read through the slice that is all of it. -/
theorem pt_read (fp : Vec F S10000x128 .f32) (inb : ∀ a, (![0, 0] : Fin 2 → ℕ) a + S10000x128.size a ≤ S10000x128.size a) :
    ((ptW).slice (Rect.unit (s := S10000x128) ![0, 0] S10000x128.size inb) (fun _ => rfl)).view.read (Elt F) fp = fp := by
  funext j
  show fp _ = fp j
  congr 1
  funext a
  match a with
  | ⟨0, _⟩ => exact Fin.ext (by show 0 + 1 * (j 0).val = (j 0).val; omega)
  | ⟨1, _⟩ => exact Fin.ext (by show 0 + 1 * (j 1).val = (j 1).val; omega)

/-- The indirect gather's payload, slot 0: over pair-table contents `fp` and row list `g` in the list scratch, the
    rows of `fp` that `g` names. -/
theorem gather_rows (fp : Vec F S10000x128 .f32) (g : IVec S128 32)
    (inb : ∀ a, (![0, 0] : Fin 2 → ℕ) a + S10000x128.size a ≤ S10000x128.size a)
    (hin : ∀ j, ((s2W).view.read (Elt F) g j).toNat < S10000x128.size gathers_S10000x128_S128x128.axis) :
    SparseCore.gatherPayload (F := F) gathers_S10000x128_S128x128
        (((ptW).slice (Rect.unit (s := S10000x128) ![0, 0] S10000x128.size inb) (fun _ => rfl)).view.read (Elt F) fp)
        (SparseCore.rows (F := F) ((s2W).view.read (Elt F) g) rfl hin)
      = ROWS fp g := by
  rw [pt_read]
  exact gather_payload fp g hin

/-- The same for slot 1's list scratch. -/
theorem gather_rows' (fp : Vec F S10000x128 .f32) (g : IVec S128 32)
    (inb : ∀ a, (![0, 0] : Fin 2 → ℕ) a + S10000x128.size a ≤ S10000x128.size a)
    (hin : ∀ j, ((s3W).view.read (Elt F) g j).toNat < S10000x128.size gathers_S10000x128_S128x128.axis) :
    SparseCore.gatherPayload (F := F) gathers_S10000x128_S128x128
        (((ptW).slice (Rect.unit (s := S10000x128) ![0, 0] S10000x128.size inb) (fun _ => rfl)).view.read (Elt F) fp)
        (SparseCore.rows (F := F) ((s3W).view.read (Elt F) g) rfl hin)
      = ROWS fp g := by
  rw [pt_read]
  exact gather_payload fp g hin

/-- One listed write of all of a whole buffer leaves its payload. -/
theorem writes_whole_one {κ' : Kind} {Val : EltTy → Type} (b : Ref sig κ') (f w : b.ty.Contents Val) :
    (View.whole b).writes Val f [⟨Rect.whole _, w⟩] = w := by
  funext y
  have h := View.read_writes_cons_emb (View.whole b) f (Rect.whole _) w [] y
  rw [Rect.emb_whole_apply] at h
  exact h

/-! ## The printed lane payloads are the two lane computations

Each store of the digit split carries its own printed copy of the lane arithmetic; where the printed program was cut
between two of its operations the copy is in two or three pieces. All of them unfold to `q12` and `r3`. -/

section Pay
variable (v : IVec S16 32)

/-! The first block, before the loop. -/
theorem pay419 : k1_pay419 (F := F) v = q12 (F := F) v := rfl
theorem pay420 : k1_pay420 (F := F) v = r3 (F := F) v := rfl
theorem pay421 : k1_pay421 (F := F) v = q12 (F := F) v := rfl
theorem pay422 : k1_pay422 (F := F) v = r3 (F := F) v := rfl
theorem pay425 : k1_pay425 (F := F) (k1_pay423 (F := F) v) (k1_pay424 (F := F)) = q12 (F := F) v := rfl
theorem pay426 : k1_pay426 (F := F) v (k1_pay423 (F := F) v) (k1_pay424 (F := F)) = r3 (F := F) v := rfl
theorem pay427 : k1_pay427 (F := F) v = q12 (F := F) v := rfl
theorem pay428 : k1_pay428 (F := F) v = r3 (F := F) v := rfl
theorem pay429 : k1_pay429 (F := F) v = q12 (F := F) v := rfl
theorem pay430 : k1_pay430 (F := F) v = r3 (F := F) v := rfl
theorem pay433 : k1_pay433 (F := F) (k1_pay431 (F := F) v) (k1_pay432 (F := F)) = q12 (F := F) v := rfl
theorem pay434 : k1_pay434 (F := F) v (k1_pay431 (F := F) v) (k1_pay432 (F := F)) = r3 (F := F) v := rfl
theorem pay435 : k1_pay435 (F := F) v = q12 (F := F) v := rfl
theorem pay436 : k1_pay436 (F := F) v = r3 (F := F) v := rfl
theorem pay437 : k1_pay437 (F := F) v = q12 (F := F) v := rfl
theorem pay438 : k1_pay438 (F := F) v = r3 (F := F) v := rfl

/-! The loop's first prefetch (the odd blocks). -/
theorem pay9 : k1_pay9 (F := F) v = q12 (F := F) v := rfl
theorem pay10 : k1_pay10 (F := F) v = r3 (F := F) v := rfl
theorem pay11 : k1_pay11 (F := F) v = q12 (F := F) v := rfl
theorem pay12 : k1_pay12 (F := F) v = r3 (F := F) v := rfl
theorem pay14 : k1_pay14 (F := F) (k1_pay13 (F := F) v) = q12 (F := F) v := rfl
theorem pay15 : k1_pay15 (F := F) v (k1_pay13 (F := F) v) = r3 (F := F) v := rfl
theorem pay16 : k1_pay16 (F := F) v = q12 (F := F) v := rfl
theorem pay17 : k1_pay17 (F := F) v = r3 (F := F) v := rfl
theorem pay18 : k1_pay18 (F := F) v = q12 (F := F) v := rfl
theorem pay19 : k1_pay19 (F := F) v = r3 (F := F) v := rfl
theorem pay20 : k1_pay20 (F := F) v = q12 (F := F) v := rfl
theorem pay21 : k1_pay21 (F := F) v = r3 (F := F) v := rfl
theorem pay22 : k1_pay22 (F := F) v = q12 (F := F) v := rfl
theorem pay23 : k1_pay23 (F := F) v = r3 (F := F) v := rfl
theorem pay391 : k1_pay391 (F := F) (k1_pay24 (F := F) v) = q12 (F := F) v := rfl
theorem pay392 : k1_pay392 (F := F) v (k1_pay24 (F := F) v) = r3 (F := F) v := rfl

/-! The loop's second prefetch (the even blocks from 2). -/
theorem pay200 : k1_pay200 (F := F) v = q12 (F := F) v := rfl
theorem pay201 : k1_pay201 (F := F) v = r3 (F := F) v := rfl
theorem pay202 : k1_pay202 (F := F) v = q12 (F := F) v := rfl
theorem pay203 : k1_pay203 (F := F) v = r3 (F := F) v := rfl
theorem pay205 : k1_pay205 (F := F) (k1_pay204 (F := F) v) = q12 (F := F) v := rfl
theorem pay206 : k1_pay206 (F := F) v (k1_pay204 (F := F) v) = r3 (F := F) v := rfl
theorem pay207 : k1_pay207 (F := F) v = q12 (F := F) v := rfl
theorem pay208 : k1_pay208 (F := F) v = r3 (F := F) v := rfl
theorem pay209 : k1_pay209 (F := F) v = q12 (F := F) v := rfl
theorem pay210 : k1_pay210 (F := F) v = r3 (F := F) v := rfl
theorem pay211 : k1_pay211 (F := F) v = q12 (F := F) v := rfl
theorem pay212 : k1_pay212 (F := F) v = r3 (F := F) v := rfl
theorem pay213 : k1_pay213 (F := F) v = q12 (F := F) v := rfl
theorem pay214 : k1_pay214 (F := F) v = r3 (F := F) v := rfl
theorem pay409 : k1_pay409 (F := F) (k1_pay215 (F := F) v) = q12 (F := F) v := rfl
theorem pay410 : k1_pay410 (F := F) v (k1_pay215 (F := F) v) = r3 (F := F) v := rfl

end Pay

/-! ## The three places the digit split runs

Before the loop the index scratch is read at the literal offsets 0, 16, …, 112 (block 0); in trip `t` of the loop at
`128 (2 t + 1) + 16 r` (block 2 t + 1) and at `128 (2 t + 2) + 16 r` (block 2 t + 2). -/

theorem seg_read_off2 (fi : IVec S425984 32) (w : ℕ) (t : Fin k1_t1_loop.trips) (r : Fin 8)
    (inb : ∀ a, (k1_off2 t (BitVec.ofNat 32 (16 * r.val))) a + S16.size a ≤ S13312.size a) :
    View.readAt (Elt F) (s0W).view (Rect.unit (s := S13312) (k1_off2 t (BitVec.ofNat 32 (16 * r.val))) S16.size inb).toLoadRect (IDXV fi w)
      = SEG fi w (2 * t.val + 1) r.val :=
  seg_read fi w (2 * t.val + 1) r.val _ inb (by
    have h : (k1_off2 t (BitVec.ofNat 32 (16 * r.val))) 0 = 256 * t.val + 16 * r.val + 128 := congrFun (k1_off2_eq t r) 0
    omega)

theorem seg_read_off6 (fi : IVec S425984 32) (w : ℕ) (t : Fin k1_t1_loop.trips) (r : Fin 8)
    (inb : ∀ a, (k1_off6 t (BitVec.ofNat 32 (16 * r.val))) a + S16.size a ≤ S13312.size a) :
    View.readAt (Elt F) (s0W).view (Rect.unit (s := S13312) (k1_off6 t (BitVec.ofNat 32 (16 * r.val))) S16.size inb).toLoadRect (IDXV fi w)
      = SEG fi w (2 * t.val + 2) r.val :=
  seg_read fi w (2 * t.val + 2) r.val _ inb (by
    have h : (k1_off6 t (BitVec.ofNat 32 (16 * r.val))) 0 = 256 * t.val + 16 * r.val + 256 := congrFun (k1_off6_eq t r) 0
    omega)

section Reads

variable {κ' : Kind} {sp : Space}
variable (hH : Hundredth.OK F (Named.named (F := F) κ "inv_100" (φ := .f32) 0x3C23D70A#32))
variable (fi : IVec S425984 32) (hidx : ∀ j, 0 ≤ (fi j).toInt ∧ (fi j).toInt ≤ 999999) (w b : ℕ)
variable (o0 o1 o2 o3 o4 o5 o6 o7 : Fin 1 → ℕ)
variable (j0 : ∀ a, o0 a + S16.size a ≤ S13312.size a) (j1 : ∀ a, o1 a + S16.size a ≤ S13312.size a)
  (j2 : ∀ a, o2 a + S16.size a ≤ S13312.size a) (j3 : ∀ a, o3 a + S16.size a ≤ S13312.size a)
  (j4 : ∀ a, o4 a + S16.size a ≤ S13312.size a) (j5 : ∀ a, o5 a + S16.size a ≤ S13312.size a)
  (j6 : ∀ a, o6 a + S16.size a ≤ S13312.size a) (j7 : ∀ a, o7 a + S16.size a ≤ S13312.size a)
variable (e0 : o0 0 = 128 * b + 16 * 0) (e1 : o1 0 = 128 * b + 16 * 1) (e2 : o2 0 = 128 * b + 16 * 2) (e3 : o3 0 = 128 * b + 16 * 3)
  (e4 : o4 0 = 128 * b + 16 * 4) (e5 : o5 0 = 128 * b + 16 * 5) (e6 : o6 0 = 128 * b + 16 * 6) (e7 : o7 0 = 128 * b + 16 * 7)
variable (i0 : ∀ a, (![0] : Fin 1 → ℕ) a + S16.size a ≤ S128.size a) (i1 : ∀ a, (![16] : Fin 1 → ℕ) a + S16.size a ≤ S128.size a)
  (i2 : ∀ a, (![32] : Fin 1 → ℕ) a + S16.size a ≤ S128.size a) (i3 : ∀ a, (![48] : Fin 1 → ℕ) a + S16.size a ≤ S128.size a)
  (i4 : ∀ a, (![64] : Fin 1 → ℕ) a + S16.size a ≤ S128.size a) (i5 : ∀ a, (![80] : Fin 1 → ℕ) a + S16.size a ≤ S128.size a)
  (i6 : ∀ a, (![96] : Fin 1 → ℕ) a + S16.size a ≤ S128.size a) (i7 : ∀ a, (![112] : Fin 1 → ℕ) a + S16.size a ≤ S128.size a)

include hH hidx e0 e1 e2 e3 e4 e5 e6 e7 in
/-- The row list of block `b`, stated over the eight loads of the index scratch (holding the tile's words) at the
    block's offsets. -/
theorem lists12_reads (v : View sig κ' sp S128 .i32) (f : v.ty.Contents (Elt F)) :
    v.read (Elt F) (v.writes (Elt F) f
      [⟨Rect.unit (s := S128) ![112] S16.size i7, q12 (F := F) (View.readAt (Elt F) (s0W).view (Rect.unit (s := S13312) o7 S16.size j7).toLoadRect (IDXV fi w))⟩,
       ⟨Rect.unit (s := S128) ![96] S16.size i6, q12 (F := F) (View.readAt (Elt F) (s0W).view (Rect.unit (s := S13312) o6 S16.size j6).toLoadRect (IDXV fi w))⟩,
       ⟨Rect.unit (s := S128) ![80] S16.size i5, q12 (F := F) (View.readAt (Elt F) (s0W).view (Rect.unit (s := S13312) o5 S16.size j5).toLoadRect (IDXV fi w))⟩,
       ⟨Rect.unit (s := S128) ![64] S16.size i4, q12 (F := F) (View.readAt (Elt F) (s0W).view (Rect.unit (s := S13312) o4 S16.size j4).toLoadRect (IDXV fi w))⟩,
       ⟨Rect.unit (s := S128) ![48] S16.size i3, q12 (F := F) (View.readAt (Elt F) (s0W).view (Rect.unit (s := S13312) o3 S16.size j3).toLoadRect (IDXV fi w))⟩,
       ⟨Rect.unit (s := S128) ![32] S16.size i2, q12 (F := F) (View.readAt (Elt F) (s0W).view (Rect.unit (s := S13312) o2 S16.size j2).toLoadRect (IDXV fi w))⟩,
       ⟨Rect.unit (s := S128) ![16] S16.size i1, q12 (F := F) (View.readAt (Elt F) (s0W).view (Rect.unit (s := S13312) o1 S16.size j1).toLoadRect (IDXV fi w))⟩,
       ⟨Rect.unit (s := S128) ![0] S16.size i0, q12 (F := F) (View.readAt (Elt F) (s0W).view (Rect.unit (s := S13312) o0 S16.size j0).toLoadRect (IDXV fi w))⟩])
      = G12 fi w b :=
  lists12 hH fi hidx w b _ _ _ _ _ _ _ _ i0 i1 i2 i3 i4 i5 i6 i7 v f
    (by rw [seg_read fi w b 0 o0 j0 e0]) (by rw [seg_read fi w b 1 o1 j1 e1]) (by rw [seg_read fi w b 2 o2 j2 e2])
    (by rw [seg_read fi w b 3 o3 j3 e3]) (by rw [seg_read fi w b 4 o4 j4 e4]) (by rw [seg_read fi w b 5 o5 j5 e5])
    (by rw [seg_read fi w b 6 o6 j6 e6]) (by rw [seg_read fi w b 7 o7 j7 e7])

include hH hidx e0 e1 e2 e3 e4 e5 e6 e7 in
/-- The digit list of block `b`, stated the same way. -/
theorem lists3_reads (v : View sig κ' sp S128 .i32) (f : v.ty.Contents (Elt F)) :
    v.read (Elt F) (v.writes (Elt F) f
      [⟨Rect.unit (s := S128) ![112] S16.size i7, r3 (F := F) (View.readAt (Elt F) (s0W).view (Rect.unit (s := S13312) o7 S16.size j7).toLoadRect (IDXV fi w))⟩,
       ⟨Rect.unit (s := S128) ![96] S16.size i6, r3 (F := F) (View.readAt (Elt F) (s0W).view (Rect.unit (s := S13312) o6 S16.size j6).toLoadRect (IDXV fi w))⟩,
       ⟨Rect.unit (s := S128) ![80] S16.size i5, r3 (F := F) (View.readAt (Elt F) (s0W).view (Rect.unit (s := S13312) o5 S16.size j5).toLoadRect (IDXV fi w))⟩,
       ⟨Rect.unit (s := S128) ![64] S16.size i4, r3 (F := F) (View.readAt (Elt F) (s0W).view (Rect.unit (s := S13312) o4 S16.size j4).toLoadRect (IDXV fi w))⟩,
       ⟨Rect.unit (s := S128) ![48] S16.size i3, r3 (F := F) (View.readAt (Elt F) (s0W).view (Rect.unit (s := S13312) o3 S16.size j3).toLoadRect (IDXV fi w))⟩,
       ⟨Rect.unit (s := S128) ![32] S16.size i2, r3 (F := F) (View.readAt (Elt F) (s0W).view (Rect.unit (s := S13312) o2 S16.size j2).toLoadRect (IDXV fi w))⟩,
       ⟨Rect.unit (s := S128) ![16] S16.size i1, r3 (F := F) (View.readAt (Elt F) (s0W).view (Rect.unit (s := S13312) o1 S16.size j1).toLoadRect (IDXV fi w))⟩,
       ⟨Rect.unit (s := S128) ![0] S16.size i0, r3 (F := F) (View.readAt (Elt F) (s0W).view (Rect.unit (s := S13312) o0 S16.size j0).toLoadRect (IDXV fi w))⟩])
      = I3 fi w b :=
  lists3 hH fi hidx w b _ _ _ _ _ _ _ _ i0 i1 i2 i3 i4 i5 i6 i7 v f
    (by rw [seg_read fi w b 0 o0 j0 e0]) (by rw [seg_read fi w b 1 o1 j1 e1]) (by rw [seg_read fi w b 2 o2 j2 e2])
    (by rw [seg_read fi w b 3 o3 j3 e3]) (by rw [seg_read fi w b 4 o4 j4 e4]) (by rw [seg_read fi w b 5 o5 j5 e5])
    (by rw [seg_read fi w b 6 o6 j6 e6]) (by rw [seg_read fi w b 7 o7 j7 e7])

end Reads

/-- The prologue's row list in the executor's own spelling (slot 0, block 0): the printed payloads of the eight stores over
    the eight loads of the index scratch at the literal offsets, the scratch holding the tile's words. -/
theorem prologue12 (hH : Hundredth.OK F (Named.named (F := F) κ "inv_100" (φ := .f32) 0x3C23D70A#32))
    (fi : IVec S425984 32) (hidx : ∀ j, 0 ≤ (fi j).toInt ∧ (fi j).toInt ≤ 999999) (w : ℕ) (f2 : IVec S128 32) :
    (s2W).view.writes (Elt F) f2
      [⟨Rect.unit (s := S128) ![112] S16.size inb_S128_S16_112, k1_pay437 (F := F) (View.readAt (Elt F) (s0W).view (Rect.unit (s := S13312) ![112] S16.size inb_S13312_S16_112).toLoadRect (IDXV fi w))⟩,
       ⟨Rect.unit (s := S128) ![96] S16.size inb_S128_S16_96, k1_pay435 (F := F) (View.readAt (Elt F) (s0W).view (Rect.unit (s := S13312) ![96] S16.size inb_S13312_S16_96).toLoadRect (IDXV fi w))⟩,
       ⟨Rect.unit (s := S128) ![80] S16.size inb_S128_S16_80, k1_pay433 (F := F) (k1_pay431 (F := F) (View.readAt (Elt F) (s0W).view (Rect.unit (s := S13312) ![80] S16.size inb_S13312_S16_80).toLoadRect (IDXV fi w))) (k1_pay432 (F := F))⟩,
       ⟨Rect.unit (s := S128) ![64] S16.size inb_S128_S16_64, k1_pay429 (F := F) (View.readAt (Elt F) (s0W).view (Rect.unit (s := S13312) ![64] S16.size inb_S13312_S16_64).toLoadRect (IDXV fi w))⟩,
       ⟨Rect.unit (s := S128) ![48] S16.size inb_S128_S16_48, k1_pay427 (F := F) (View.readAt (Elt F) (s0W).view (Rect.unit (s := S13312) ![48] S16.size inb_S13312_S16_48).toLoadRect (IDXV fi w))⟩,
       ⟨Rect.unit (s := S128) ![32] S16.size inb_S128_S16_32, k1_pay425 (F := F) (k1_pay423 (F := F) (View.readAt (Elt F) (s0W).view (Rect.unit (s := S13312) ![32] S16.size inb_S13312_S16_32).toLoadRect (IDXV fi w))) (k1_pay424 (F := F))⟩,
       ⟨Rect.unit (s := S128) ![16] S16.size inb_S128_S16_16, k1_pay421 (F := F) (View.readAt (Elt F) (s0W).view (Rect.unit (s := S13312) ![16] S16.size inb_S13312_S16_16).toLoadRect (IDXV fi w))⟩,
       ⟨Rect.unit (s := S128) ![0] S16.size inb_S128_S16_0, k1_pay419 (F := F) (View.readAt (Elt F) (s0W).view (Rect.unit (s := S13312) ![0] S16.size inb_S13312_S16_0).toLoadRect (IDXV fi w))⟩]
      = G12 fi w 0 :=
  lists12_reads hH fi hidx w 0 ![0] ![16] ![32] ![48] ![64] ![80] ![96] ![112] _ _ _ _ _ _ _ _ rfl rfl rfl rfl rfl rfl rfl rfl
    _ _ _ _ _ _ _ _ (s2W).view f2

/-- The prologue's digit list in the executor's own spelling (slot 0, block 0). -/
theorem prologue3 (hH : Hundredth.OK F (Named.named (F := F) κ "inv_100" (φ := .f32) 0x3C23D70A#32))
    (fi : IVec S425984 32) (hidx : ∀ j, 0 ≤ (fi j).toInt ∧ (fi j).toInt ≤ 999999) (w : ℕ) (f4 : IVec S128 32) :
    (s4W).view.writes (Elt F) f4
      [⟨Rect.unit (s := S128) ![112] S16.size inb_S128_S16_112, k1_pay438 (F := F) (View.readAt (Elt F) (s0W).view (Rect.unit (s := S13312) ![112] S16.size inb_S13312_S16_112).toLoadRect (IDXV fi w))⟩,
       ⟨Rect.unit (s := S128) ![96] S16.size inb_S128_S16_96, k1_pay436 (F := F) (View.readAt (Elt F) (s0W).view (Rect.unit (s := S13312) ![96] S16.size inb_S13312_S16_96).toLoadRect (IDXV fi w))⟩,
       ⟨Rect.unit (s := S128) ![80] S16.size inb_S128_S16_80, k1_pay434 (F := F) (View.readAt (Elt F) (s0W).view (Rect.unit (s := S13312) ![80] S16.size inb_S13312_S16_80).toLoadRect (IDXV fi w)) (k1_pay431 (F := F) (View.readAt (Elt F) (s0W).view (Rect.unit (s := S13312) ![80] S16.size inb_S13312_S16_80).toLoadRect (IDXV fi w))) (k1_pay432 (F := F))⟩,
       ⟨Rect.unit (s := S128) ![64] S16.size inb_S128_S16_64, k1_pay430 (F := F) (View.readAt (Elt F) (s0W).view (Rect.unit (s := S13312) ![64] S16.size inb_S13312_S16_64).toLoadRect (IDXV fi w))⟩,
       ⟨Rect.unit (s := S128) ![48] S16.size inb_S128_S16_48, k1_pay428 (F := F) (View.readAt (Elt F) (s0W).view (Rect.unit (s := S13312) ![48] S16.size inb_S13312_S16_48).toLoadRect (IDXV fi w))⟩,
       ⟨Rect.unit (s := S128) ![32] S16.size inb_S128_S16_32, k1_pay426 (F := F) (View.readAt (Elt F) (s0W).view (Rect.unit (s := S13312) ![32] S16.size inb_S13312_S16_32).toLoadRect (IDXV fi w)) (k1_pay423 (F := F) (View.readAt (Elt F) (s0W).view (Rect.unit (s := S13312) ![32] S16.size inb_S13312_S16_32).toLoadRect (IDXV fi w))) (k1_pay424 (F := F))⟩,
       ⟨Rect.unit (s := S128) ![16] S16.size inb_S128_S16_16, k1_pay422 (F := F) (View.readAt (Elt F) (s0W).view (Rect.unit (s := S13312) ![16] S16.size inb_S13312_S16_16).toLoadRect (IDXV fi w))⟩,
       ⟨Rect.unit (s := S128) ![0] S16.size inb_S128_S16_0, k1_pay420 (F := F) (View.readAt (Elt F) (s0W).view (Rect.unit (s := S13312) ![0] S16.size inb_S13312_S16_0).toLoadRect (IDXV fi w))⟩]
      = I3 fi w 0 :=
  lists3_reads hH fi hidx w 0 ![0] ![16] ![32] ![48] ![64] ![80] ![96] ![112] _ _ _ _ _ _ _ _ rfl rfl rfl rfl rfl rfl rfl rfl
    _ _ _ _ _ _ _ _ (s4W).view f4

/-! ## The digit split inside the loop, in the printed spelling

Trip `t` reads the index scratch at `k1_off2 t c` (block 2 t + 1, into the second pair of lists) and at `k1_off6 t c`
(block 2 t + 2, into the first pair), `c` = 0, 16, …, 112. -/

theorem off2_apply (t : Fin k1_t1_loop.trips) (r : Fin 8) :
    (k1_off2 t (BitVec.ofNat 32 (16 * r.val))) 0 = 128 * (2 * t.val + 1) + 16 * r.val := by
  have h : (k1_off2 t (BitVec.ofNat 32 (16 * r.val))) 0 = 256 * t.val + 16 * r.val + 128 := congrFun (k1_off2_eq t r) 0
  omega

theorem off6_apply (t : Fin k1_t1_loop.trips) (r : Fin 8) :
    (k1_off6 t (BitVec.ofNat 32 (16 * r.val))) 0 = 128 * (2 * t.val + 2) + 16 * r.val := by
  have h : (k1_off6 t (BitVec.ofNat 32 (16 * r.val))) 0 = 256 * t.val + 16 * r.val + 256 := congrFun (k1_off6_eq t r) 0
  omega

section Loop
variable (hH : Hundredth.OK F (Named.named (F := F) κ "inv_100" (φ := .f32) 0x3C23D70A#32))
variable (fi : IVec S425984 32) (hidx : ∀ j, 0 ≤ (fi j).toInt ∧ (fi j).toInt ≤ 999999) (w : ℕ)
variable (t : Fin k1_t1_loop.trips)

include hH hidx in
/-- The first prefetch's row list (second pair of lists, block 2 t + 1). -/
theorem prefetchA12 (h1 : k1_cond1 t = 1#1) (f3 : IVec S128 32) :
    (s3W).view.writes (Elt F) f3
      [⟨Rect.unit (s := S128) ![112] S16.size inb_S128_S16_112, k1_pay391 (F := F) (k1_pay24 (F := F) (View.readAt (Elt F) (s0W).view (Rect.unit (s := S13312) (k1_off2 t 112#32) S16.size (k1_off2_inb t h1 7)).toLoadRect (IDXV fi w)))⟩,
       ⟨Rect.unit (s := S128) ![96] S16.size inb_S128_S16_96, k1_pay22 (F := F) (View.readAt (Elt F) (s0W).view (Rect.unit (s := S13312) (k1_off2 t 96#32) S16.size (k1_off2_inb t h1 6)).toLoadRect (IDXV fi w))⟩,
       ⟨Rect.unit (s := S128) ![80] S16.size inb_S128_S16_80, k1_pay20 (F := F) (View.readAt (Elt F) (s0W).view (Rect.unit (s := S13312) (k1_off2 t 80#32) S16.size (k1_off2_inb t h1 5)).toLoadRect (IDXV fi w))⟩,
       ⟨Rect.unit (s := S128) ![64] S16.size inb_S128_S16_64, k1_pay18 (F := F) (View.readAt (Elt F) (s0W).view (Rect.unit (s := S13312) (k1_off2 t 64#32) S16.size (k1_off2_inb t h1 4)).toLoadRect (IDXV fi w))⟩,
       ⟨Rect.unit (s := S128) ![48] S16.size inb_S128_S16_48, k1_pay16 (F := F) (View.readAt (Elt F) (s0W).view (Rect.unit (s := S13312) (k1_off2 t 48#32) S16.size (k1_off2_inb t h1 3)).toLoadRect (IDXV fi w))⟩,
       ⟨Rect.unit (s := S128) ![32] S16.size inb_S128_S16_32, k1_pay14 (F := F) (k1_pay13 (F := F) (View.readAt (Elt F) (s0W).view (Rect.unit (s := S13312) (k1_off2 t 32#32) S16.size (k1_off2_inb t h1 2)).toLoadRect (IDXV fi w)))⟩,
       ⟨Rect.unit (s := S128) ![16] S16.size inb_S128_S16_16, k1_pay11 (F := F) (View.readAt (Elt F) (s0W).view (Rect.unit (s := S13312) (k1_off2 t 16#32) S16.size (k1_off2_inb t h1 1)).toLoadRect (IDXV fi w))⟩,
       ⟨Rect.unit (s := S128) ![0] S16.size inb_S128_S16_0, k1_pay9 (F := F) (View.readAt (Elt F) (s0W).view (Rect.unit (s := S13312) (k1_off2 t 0#32) S16.size (k1_off2_inb t h1 0)).toLoadRect (IDXV fi w))⟩]
      = G12 fi w (2 * t.val + 1) :=
  lists12_reads hH fi hidx w (2 * t.val + 1) (k1_off2 t 0#32) (k1_off2 t 16#32) (k1_off2 t 32#32) (k1_off2 t 48#32) (k1_off2 t 64#32)
    (k1_off2 t 80#32) (k1_off2 t 96#32) (k1_off2 t 112#32) _ _ _ _ _ _ _ _
    (off2_apply t 0) (off2_apply t 1) (off2_apply t 2) (off2_apply t 3) (off2_apply t 4) (off2_apply t 5) (off2_apply t 6) (off2_apply t 7)
    _ _ _ _ _ _ _ _ (s3W).view f3

include hH hidx in
/-- The first prefetch's digit list (second pair of lists, block 2 t + 1). -/
theorem prefetchA3 (h1 : k1_cond1 t = 1#1) (f5 : IVec S128 32) :
    (s5W).view.writes (Elt F) f5
      [⟨Rect.unit (s := S128) ![112] S16.size inb_S128_S16_112, k1_pay392 (F := F) (View.readAt (Elt F) (s0W).view (Rect.unit (s := S13312) (k1_off2 t 112#32) S16.size (k1_off2_inb t h1 7)).toLoadRect (IDXV fi w)) (k1_pay24 (F := F) (View.readAt (Elt F) (s0W).view (Rect.unit (s := S13312) (k1_off2 t 112#32) S16.size (k1_off2_inb t h1 7)).toLoadRect (IDXV fi w)))⟩,
       ⟨Rect.unit (s := S128) ![96] S16.size inb_S128_S16_96, k1_pay23 (F := F) (View.readAt (Elt F) (s0W).view (Rect.unit (s := S13312) (k1_off2 t 96#32) S16.size (k1_off2_inb t h1 6)).toLoadRect (IDXV fi w))⟩,
       ⟨Rect.unit (s := S128) ![80] S16.size inb_S128_S16_80, k1_pay21 (F := F) (View.readAt (Elt F) (s0W).view (Rect.unit (s := S13312) (k1_off2 t 80#32) S16.size (k1_off2_inb t h1 5)).toLoadRect (IDXV fi w))⟩,
       ⟨Rect.unit (s := S128) ![64] S16.size inb_S128_S16_64, k1_pay19 (F := F) (View.readAt (Elt F) (s0W).view (Rect.unit (s := S13312) (k1_off2 t 64#32) S16.size (k1_off2_inb t h1 4)).toLoadRect (IDXV fi w))⟩,
       ⟨Rect.unit (s := S128) ![48] S16.size inb_S128_S16_48, k1_pay17 (F := F) (View.readAt (Elt F) (s0W).view (Rect.unit (s := S13312) (k1_off2 t 48#32) S16.size (k1_off2_inb t h1 3)).toLoadRect (IDXV fi w))⟩,
       ⟨Rect.unit (s := S128) ![32] S16.size inb_S128_S16_32, k1_pay15 (F := F) (View.readAt (Elt F) (s0W).view (Rect.unit (s := S13312) (k1_off2 t 32#32) S16.size (k1_off2_inb t h1 2)).toLoadRect (IDXV fi w)) (k1_pay13 (F := F) (View.readAt (Elt F) (s0W).view (Rect.unit (s := S13312) (k1_off2 t 32#32) S16.size (k1_off2_inb t h1 2)).toLoadRect (IDXV fi w)))⟩,
       ⟨Rect.unit (s := S128) ![16] S16.size inb_S128_S16_16, k1_pay12 (F := F) (View.readAt (Elt F) (s0W).view (Rect.unit (s := S13312) (k1_off2 t 16#32) S16.size (k1_off2_inb t h1 1)).toLoadRect (IDXV fi w))⟩,
       ⟨Rect.unit (s := S128) ![0] S16.size inb_S128_S16_0, k1_pay10 (F := F) (View.readAt (Elt F) (s0W).view (Rect.unit (s := S13312) (k1_off2 t 0#32) S16.size (k1_off2_inb t h1 0)).toLoadRect (IDXV fi w))⟩]
      = I3 fi w (2 * t.val + 1) :=
  lists3_reads hH fi hidx w (2 * t.val + 1) (k1_off2 t 0#32) (k1_off2 t 16#32) (k1_off2 t 32#32) (k1_off2 t 48#32) (k1_off2 t 64#32)
    (k1_off2 t 80#32) (k1_off2 t 96#32) (k1_off2 t 112#32) _ _ _ _ _ _ _ _
    (off2_apply t 0) (off2_apply t 1) (off2_apply t 2) (off2_apply t 3) (off2_apply t 4) (off2_apply t 5) (off2_apply t 6) (off2_apply t 7)
    _ _ _ _ _ _ _ _ (s5W).view f5

include hH hidx in
/-- The second prefetch's row list (first pair of lists, block 2 t + 2). -/
theorem prefetchB12 (h3 : k1_cond3 t = 1#1) (f2 : IVec S128 32) :
    (s2W).view.writes (Elt F) f2
      [⟨Rect.unit (s := S128) ![112] S16.size inb_S128_S16_112, k1_pay409 (F := F) (k1_pay215 (F := F) (View.readAt (Elt F) (s0W).view (Rect.unit (s := S13312) (k1_off6 t 112#32) S16.size (k1_off6_inb t h3 7)).toLoadRect (IDXV fi w)))⟩,
       ⟨Rect.unit (s := S128) ![96] S16.size inb_S128_S16_96, k1_pay213 (F := F) (View.readAt (Elt F) (s0W).view (Rect.unit (s := S13312) (k1_off6 t 96#32) S16.size (k1_off6_inb t h3 6)).toLoadRect (IDXV fi w))⟩,
       ⟨Rect.unit (s := S128) ![80] S16.size inb_S128_S16_80, k1_pay211 (F := F) (View.readAt (Elt F) (s0W).view (Rect.unit (s := S13312) (k1_off6 t 80#32) S16.size (k1_off6_inb t h3 5)).toLoadRect (IDXV fi w))⟩,
       ⟨Rect.unit (s := S128) ![64] S16.size inb_S128_S16_64, k1_pay209 (F := F) (View.readAt (Elt F) (s0W).view (Rect.unit (s := S13312) (k1_off6 t 64#32) S16.size (k1_off6_inb t h3 4)).toLoadRect (IDXV fi w))⟩,
       ⟨Rect.unit (s := S128) ![48] S16.size inb_S128_S16_48, k1_pay207 (F := F) (View.readAt (Elt F) (s0W).view (Rect.unit (s := S13312) (k1_off6 t 48#32) S16.size (k1_off6_inb t h3 3)).toLoadRect (IDXV fi w))⟩,
       ⟨Rect.unit (s := S128) ![32] S16.size inb_S128_S16_32, k1_pay205 (F := F) (k1_pay204 (F := F) (View.readAt (Elt F) (s0W).view (Rect.unit (s := S13312) (k1_off6 t 32#32) S16.size (k1_off6_inb t h3 2)).toLoadRect (IDXV fi w)))⟩,
       ⟨Rect.unit (s := S128) ![16] S16.size inb_S128_S16_16, k1_pay202 (F := F) (View.readAt (Elt F) (s0W).view (Rect.unit (s := S13312) (k1_off6 t 16#32) S16.size (k1_off6_inb t h3 1)).toLoadRect (IDXV fi w))⟩,
       ⟨Rect.unit (s := S128) ![0] S16.size inb_S128_S16_0, k1_pay200 (F := F) (View.readAt (Elt F) (s0W).view (Rect.unit (s := S13312) (k1_off6 t 0#32) S16.size (k1_off6_inb t h3 0)).toLoadRect (IDXV fi w))⟩]
      = G12 fi w (2 * t.val + 2) :=
  lists12_reads hH fi hidx w (2 * t.val + 2) (k1_off6 t 0#32) (k1_off6 t 16#32) (k1_off6 t 32#32) (k1_off6 t 48#32) (k1_off6 t 64#32)
    (k1_off6 t 80#32) (k1_off6 t 96#32) (k1_off6 t 112#32) _ _ _ _ _ _ _ _
    (off6_apply t 0) (off6_apply t 1) (off6_apply t 2) (off6_apply t 3) (off6_apply t 4) (off6_apply t 5) (off6_apply t 6) (off6_apply t 7)
    _ _ _ _ _ _ _ _ (s2W).view f2

include hH hidx in
/-- The second prefetch's digit list (first pair of lists, block 2 t + 2). -/
theorem prefetchB3 (h3 : k1_cond3 t = 1#1) (f4 : IVec S128 32) :
    (s4W).view.writes (Elt F) f4
      [⟨Rect.unit (s := S128) ![112] S16.size inb_S128_S16_112, k1_pay410 (F := F) (View.readAt (Elt F) (s0W).view (Rect.unit (s := S13312) (k1_off6 t 112#32) S16.size (k1_off6_inb t h3 7)).toLoadRect (IDXV fi w)) (k1_pay215 (F := F) (View.readAt (Elt F) (s0W).view (Rect.unit (s := S13312) (k1_off6 t 112#32) S16.size (k1_off6_inb t h3 7)).toLoadRect (IDXV fi w)))⟩,
       ⟨Rect.unit (s := S128) ![96] S16.size inb_S128_S16_96, k1_pay214 (F := F) (View.readAt (Elt F) (s0W).view (Rect.unit (s := S13312) (k1_off6 t 96#32) S16.size (k1_off6_inb t h3 6)).toLoadRect (IDXV fi w))⟩,
       ⟨Rect.unit (s := S128) ![80] S16.size inb_S128_S16_80, k1_pay212 (F := F) (View.readAt (Elt F) (s0W).view (Rect.unit (s := S13312) (k1_off6 t 80#32) S16.size (k1_off6_inb t h3 5)).toLoadRect (IDXV fi w))⟩,
       ⟨Rect.unit (s := S128) ![64] S16.size inb_S128_S16_64, k1_pay210 (F := F) (View.readAt (Elt F) (s0W).view (Rect.unit (s := S13312) (k1_off6 t 64#32) S16.size (k1_off6_inb t h3 4)).toLoadRect (IDXV fi w))⟩,
       ⟨Rect.unit (s := S128) ![48] S16.size inb_S128_S16_48, k1_pay208 (F := F) (View.readAt (Elt F) (s0W).view (Rect.unit (s := S13312) (k1_off6 t 48#32) S16.size (k1_off6_inb t h3 3)).toLoadRect (IDXV fi w))⟩,
       ⟨Rect.unit (s := S128) ![32] S16.size inb_S128_S16_32, k1_pay206 (F := F) (View.readAt (Elt F) (s0W).view (Rect.unit (s := S13312) (k1_off6 t 32#32) S16.size (k1_off6_inb t h3 2)).toLoadRect (IDXV fi w)) (k1_pay204 (F := F) (View.readAt (Elt F) (s0W).view (Rect.unit (s := S13312) (k1_off6 t 32#32) S16.size (k1_off6_inb t h3 2)).toLoadRect (IDXV fi w)))⟩,
       ⟨Rect.unit (s := S128) ![16] S16.size inb_S128_S16_16, k1_pay203 (F := F) (View.readAt (Elt F) (s0W).view (Rect.unit (s := S13312) (k1_off6 t 16#32) S16.size (k1_off6_inb t h3 1)).toLoadRect (IDXV fi w))⟩,
       ⟨Rect.unit (s := S128) ![0] S16.size inb_S128_S16_0, k1_pay201 (F := F) (View.readAt (Elt F) (s0W).view (Rect.unit (s := S13312) (k1_off6 t 0#32) S16.size (k1_off6_inb t h3 0)).toLoadRect (IDXV fi w))⟩]
      = I3 fi w (2 * t.val + 2) :=
  lists3_reads hH fi hidx w (2 * t.val + 2) (k1_off6 t 0#32) (k1_off6 t 16#32) (k1_off6 t 32#32) (k1_off6 t 48#32) (k1_off6 t 64#32)
    (k1_off6 t 80#32) (k1_off6 t 96#32) (k1_off6 t 112#32) _ _ _ _ _ _ _ _
    (off6_apply t 0) (off6_apply t 1) (off6_apply t 2) (off6_apply t 3) (off6_apply t 4) (off6_apply t 5) (off6_apply t 6) (off6_apply t 7)
    _ _ _ _ _ _ _ _ (s4W).view f4

end Loop

end Cert.Proof.KI

end
-- ==== Proof.LibStoreIdx.lean ====
/-
  The indexed store of a vector subcore, read back pointwise.

  An unmasked, non-accumulating indexed store writes lane `x`'s value at the index the index vectors name for `x`,
  lanes in ascending order. When the named indices are pairwise distinct the order does not matter: the result holds
  lane `x`'s value at lane `x`'s index and the old contents everywhere else.
-/
import Idealize.ShloMosaic.PureOps

namespace Idealize.ShloMosaic

variable {F : FTy → Type} [FloatOps F] {s : Shape} {e : EltTy}

/-- Every index of a rank-one shape is the index of its lane. -/
theorem Shape.ofLane_eta {d : Fin 1 → Nat} (x : (⟨1, d⟩ : Shape).Idx) : Shape.ofLane (x 0) = x := by
  funext a
  match a with
  | ⟨0, _⟩ => rfl

/-- One lane's step of the indexed store (all lanes set, no accumulation). -/
private def stepIdx {d : Fin 1 → Nat} (idxs : Fin s.rank → IVec ⟨1, d⟩ 32) (v : Vec F ⟨1, d⟩ e)
    (h : ∀ a x, (idxs a x).toNat < s.size a) (g : Vec F s e) (k : Fin (d 0)) : Vec F s e :=
  fun j => if (∀ a, (j a).val = (idxAt idxs h (Shape.ofLane k) a).val) then v (Shape.ofLane k) else g j

private theorem storeIdx_eq_foldl {d : Fin 1 → Nat} (f : Vec F s e) (idxs : Fin s.rank → IVec ⟨1, d⟩ 32) (v : Vec F ⟨1, d⟩ e)
    (h : ∀ a x, (idxs a x).toNat < s.size a) :
    storeIdx f idxs v (fun _ => 1) false h = (List.finRange (d 0)).foldl (stepIdx idxs v h) f := by
  unfold storeIdx stepIdx
  simp

private theorem idx_eq_iff {j i : s.Idx} : (∀ a, (j a).val = (i a).val) ↔ j = i :=
  ⟨fun hji => funext fun a => Fin.ext (hji a), fun hji a => by rw [hji]⟩

private theorem foldl_stepIdx_other {d : Fin 1 → Nat} (idxs : Fin s.rank → IVec ⟨1, d⟩ 32) (v : Vec F ⟨1, d⟩ e)
    (h : ∀ a x, (idxs a x).toNat < s.size a) (j : s.Idx) :
    ∀ (l : List (Fin (d 0))) (f : Vec F s e), (∀ k ∈ l, idxAt idxs h (Shape.ofLane k) ≠ j) →
      l.foldl (stepIdx idxs v h) f j = f j := by
  intro l
  induction l with
  | nil => intro f _; rfl
  | cons k l ih =>
    intro f hl
    rw [List.foldl_cons, ih _ (fun k' hk' => hl k' (List.mem_cons_of_mem _ hk'))]
    unfold stepIdx
    rw [if_neg]
    intro hji
    exact hl k (List.mem_cons_self) (idx_eq_iff.1 hji).symm

private theorem foldl_stepIdx_hit {d : Fin 1 → Nat} (idxs : Fin s.rank → IVec ⟨1, d⟩ 32) (v : Vec F ⟨1, d⟩ e)
    (h : ∀ a x, (idxs a x).toNat < s.size a) (k : Fin (d 0)) :
    ∀ (l : List (Fin (d 0))) (f : Vec F s e), l.Nodup → k ∈ l →
      (∀ k' ∈ l, idxAt idxs h (Shape.ofLane k') = idxAt idxs h (Shape.ofLane k) → k' = k) →
      l.foldl (stepIdx idxs v h) f (idxAt idxs h (Shape.ofLane k)) = v (Shape.ofLane k) := by
  intro l
  induction l with
  | nil => intro f _ hk; exact absurd hk (List.not_mem_nil)
  | cons a l ih =>
    intro f hnd hk hinj
    rw [List.foldl_cons]
    rcases List.nodup_cons.1 hnd with ⟨hal, hndl⟩
    by_cases hak : a = k
    · subst hak
      rw [foldl_stepIdx_other idxs v h _ l _ (fun k' hk' hkk => hal ((hinj k' (List.mem_cons_of_mem _ hk') hkk) ▸ hk'))]
      unfold stepIdx
      rw [if_pos (fun _ => rfl)]
    · have hkl : k ∈ l := by
        rcases List.mem_cons.1 hk with hk' | hk'
        · exact absurd hk'.symm hak
        · exact hk'
      exact ih _ hndl hkl (fun k' hk' => hinj k' (List.mem_cons_of_mem _ hk'))

/-- An unmasked, non-accumulating indexed store leaves the old contents at every index no lane names. -/
theorem storeIdx_apply_of_forall_ne {d : Fin 1 → Nat} (f : Vec F s e) (idxs : Fin s.rank → IVec ⟨1, d⟩ 32) (v : Vec F ⟨1, d⟩ e)
    (h : ∀ a x, (idxs a x).toNat < s.size a) (j : s.Idx) (hj : ∀ x, idxAt idxs h x ≠ j) :
    storeIdx f idxs v (fun _ => 1) false h j = f j := by
  rw [storeIdx_eq_foldl]
  exact foldl_stepIdx_other idxs v h j _ f (fun k _ => hj _)

/-- An unmasked, non-accumulating indexed store whose lanes name pairwise distinct indices leaves lane `x`'s value
    at the index lane `x` names. -/
theorem storeIdx_apply_of_injective {d : Fin 1 → Nat} (f : Vec F s e) (idxs : Fin s.rank → IVec ⟨1, d⟩ 32) (v : Vec F ⟨1, d⟩ e)
    (h : ∀ a x, (idxs a x).toNat < s.size a) (hinj : ∀ x x', idxAt idxs h x = idxAt idxs h x' → x = x') (x : (⟨1, d⟩ : Shape).Idx) :
    storeIdx f idxs v (fun _ => 1) false h (idxAt idxs h x) = v x := by
  rw [storeIdx_eq_foldl, ← Shape.ofLane_eta x]
  refine foldl_stepIdx_hit idxs v h (x 0) _ f (List.nodup_finRange _) (List.mem_finRange _) (fun k' _ hk' => ?_)
  have := hinj _ _ hk'
  have h0 := congrFun this 0
  exact h0

end Idealize.ShloMosaic
-- ==== Proof.ComputeLib.lean ====
/-
  What one trip of a compute loop leaves in its slot's result scratch, apart from the program text.

  A trip handles sixteen tokens, one a lane: lane `l` of trip `k` handles row `j = 16 k + l` of the slot's block. For
  output column `e = 4 q + c` the lane adds eight products, rank index `(l + r) % 8` for `r = 0..7`, paired `(r, r + 4)`
  and summed pairwise,
    p_r = rows[j, 8 q + (l + r) % 8] · table[33 i₃(j) + 4 ((l + r) % 8) + c],
  where `rows` is the slot's gathered rows, `table` the third-core table (33 words a digit) and `i₃(j)` the token's
  third digit. The trip writes its sixteen rows by sixty-four indexed stores; store `n = 4 q' + c'` writes, in lane
  `l`, column `4 ((l / 8 + q') % 16) + (l + c') % 4` of row `16 k + l`: for a fixed lane the sixty-four stores hit the
  sixty-four columns once each, and different lanes write different rows. This module states the word, the
  invariant of the sixty-four stores and its step.
-/
import Idealize.ShloMosaic.PureOps
import Idealize.ShloMosaic.Lib.ValueIdx
import proofs.«207215_g13752485282153_cont_week2b_1454_30_alg».proof.Proof.LibStoreIdx

noncomputable section

namespace Cert.Proof.Compute

open Idealize.ShloMosaic Idealize.ShloMosaic.ValueIdx

abbrev SR : Shape := ⟨2, ![128, 128]⟩
abbrev SC : Shape := ⟨1, ![3304]⟩
abbrev SI : Shape := ⟨1, ![128]⟩
abbrev SOut : Shape := ⟨1, ![8192]⟩
abbrev SL : Shape := ⟨1, ![16]⟩

variable {F : FTy → Type} [FloatOps F]

/-- The number of lane `x` of a sixteen-lane vector. -/
abbrev ln (x : SL.Idx) : ℕ := (x 0).val

theorem ln_lt (x : SL.Idx) : ln x < 16 := (x 0).isLt

/-- Entry `(j, c)` of the slot's gathered rows, indices reduced modulo the extents. -/
def rowAt (fr : Vec F SR .f32) (j c : ℕ) : F .f32 :=
  fr (ix2 (⟨j % 128, Nat.mod_lt _ (by decide)⟩ : Fin 128) (⟨c % 128, Nat.mod_lt _ (by decide)⟩ : Fin 128))

/-- Word `i` of the third-core table, the index reduced modulo the extent. -/
def ctAt (fc : Vec F SC .f32) (i : ℕ) : F .f32 := fc (ix1 (⟨i % 3304, Nat.mod_lt _ (by decide)⟩ : Fin 3304))

/-- Word `i` of the slot's result scratch, the index reduced modulo the extent. -/
def outAt (f : Vec F SOut .f32) (i : ℕ) : F .f32 := f (ix1 (⟨i % 8192, Nat.mod_lt _ (by decide)⟩ : Fin 8192))

/-- The third digit of the slot's token `j`. -/
def i3At (fi3 : IVec SI 32) (j : ℕ) : ℕ := (fi3 (ix1 (⟨j % 128, Nat.mod_lt _ (by decide)⟩ : Fin 128))).toNat

/-- The product the lane of token `j` forms for rank rotation `r` at output column `e`. -/
def slotProd (fr : Vec F SR .f32) (fc : Vec F SC .f32) (n3 j e r : ℕ) : F .f32 :=
  FloatOps.mulf (rowAt fr j (8 * (e / 4) + (j % 16 + r) % 8)) (ctAt fc (33 * n3 + 4 * ((j % 16 + r) % 8) + e % 4))

/-- The word the compute loop leaves at column `e` of row `j` of the slot's result scratch: the lane's eight
    products, paired `(r, r + 4)` and summed pairwise. -/
def slotWord (fr : Vec F SR .f32) (fc : Vec F SC .f32) (n3 j e : ℕ) : F .f32 :=
  FloatOps.addf
    (FloatOps.addf (FloatOps.addf (slotProd fr fc n3 j e 0) (slotProd fr fc n3 j e 4))
      (FloatOps.addf (slotProd fr fc n3 j e 1) (slotProd fr fc n3 j e 5)))
    (FloatOps.addf (FloatOps.addf (slotProd fr fc n3 j e 2) (slotProd fr fc n3 j e 6))
      (FloatOps.addf (slotProd fr fc n3 j e 3) (slotProd fr fc n3 j e 7)))

/-- The first `g` groups of sixteen rows of the slot's result scratch hold the loop's words. -/
def Done (g : ℕ) (fr : Vec F SR .f32) (fc : Vec F SC .f32) (fi3 : IVec SI 32) (f : Vec F SOut .f32) : Prop :=
  ∀ j < 16 * g, ∀ e < 64, outAt f (64 * j + e) = slotWord fr fc (i3At fi3 j) j e

/-! ## The sixty-four stores of a trip

Store `n = 4 q + c` (`q < 16`, `c < 4`) of trip `k` writes, in lane `l`, column `colOf l n` of row `16 k + l`. For a
fixed lane the sixty-four columns are hit once each: column `e` by store `storeNo l e`. -/

/-- The column lane `l` writes in store `n`. -/
def colOf (l n : ℕ) : ℕ := 4 * ((l / 8 + n / 4) % 16) + (l + n % 4) % 4

/-- The store in which lane `l` writes column `e`. -/
def storeNo (l e : ℕ) : ℕ := 4 * ((e / 4 + 16 - l / 8) % 16) + (e % 4 + 4 - l % 4) % 4

theorem colOf_lt (l n : ℕ) : colOf l n < 64 := by unfold colOf; omega

theorem storeNo_lt (l e : ℕ) : storeNo l e < 64 := by unfold storeNo; omega

theorem storeNo_eq_iff {l e n : ℕ} (hl : l < 16) (he : e < 64) (hn : n < 64) : storeNo l e = n ↔ e = colOf l n := by
  unfold storeNo colOf; omega

/-- After the first `n` stores of trip `k`: a word of the trip's sixteen rows whose store has run holds `W`, every
    other word what `f` held. -/
def Inv (k n : ℕ) (W : ℕ → ℕ → F .f32) (f g : Vec F SOut .f32) : Prop :=
  ∀ j < 128, ∀ e < 64, outAt g (64 * j + e)
    = if 16 * k ≤ j ∧ j < 16 * k + 16 ∧ storeNo (j % 16) e < n then W j e else outAt f (64 * j + e)

theorem inv_zero (k : ℕ) (W : ℕ → ℕ → F .f32) (f : Vec F SOut .f32) : Inv k 0 W f f := by
  intro j _ e _
  rw [if_neg]; omega

theorem inv_step {k n : ℕ} (hk : k < 8) (hn : n < 64) {W : ℕ → ℕ → F .f32} {f g : Vec F SOut .f32}
    {idxs : Fin SOut.rank → IVec SL 32} {v : Vec F SL .f32} {h : ∀ a x, (idxs a x).toNat < SOut.size a}
    (hg : Inv k n W f g)
    (hidx : ∀ x, (idxs 0 x).toNat = 64 * (16 * k + ln x) + colOf (ln x) n)
    (hv : ∀ x, v x = W (16 * k + ln x) (colOf (ln x) n)) :
    Inv k (n + 1) W f (storeIdx g idxs v (fun _ => 1) false h) := by
  have hinj : ∀ x x', idxAt idxs h x = idxAt idxs h x' → x = x' := by
    intro x x' hxx
    have h0 : (idxs 0 x).toNat = (idxs 0 x').toNat := congrArg (fun i : SOut.Idx => (i 0).val) hxx
    rw [hidx x, hidx x'] at h0
    have := colOf_lt (ln x) n; have := colOf_lt (ln x') n
    have hl : ln x = ln x' := by omega
    rw [eq_ix1 x, eq_ix1 x']; exact congrArg ix1 (Fin.ext hl)
  intro j hj e he
  by_cases hit : 16 * k ≤ j ∧ j < 16 * k + 16 ∧ e = colOf (j % 16) n
  · obtain ⟨h1, h2, h3⟩ := hit
    have hl : j - 16 * k < 16 := by omega
    have hjl : j % 16 = j - 16 * k := by omega
    have hx : idxAt idxs h (ix1 (⟨j - 16 * k, hl⟩ : Fin 16)) = ix1 (⟨(64 * j + e) % 8192, Nat.mod_lt _ (by decide)⟩ : Fin 8192) := by
      funext a
      match a with
      | ⟨0, _⟩ =>
        apply Fin.ext
        show (idxs 0 (ix1 (⟨j - 16 * k, hl⟩ : Fin 16))).toNat = (64 * j + e) % 8192
        rw [hidx]
        show 64 * (16 * k + (j - 16 * k)) + colOf (j - 16 * k) n = (64 * j + e) % 8192
        have := colOf_lt (j - 16 * k) n
        rw [h3, hjl]; omega
    unfold outAt
    rw [← hx, storeIdx_apply_of_injective g idxs v h hinj, hv,
      if_pos ⟨h1, h2, by rw [(storeNo_eq_iff (by omega) he hn).2 h3]; omega⟩]
    show W (16 * k + (j - 16 * k)) (colOf (j - 16 * k) n) = W j e
    rw [h3, hjl]; congr 1; omega
  · have hne : ∀ x, idxAt idxs h x ≠ ix1 (⟨(64 * j + e) % 8192, Nat.mod_lt _ (by decide)⟩ : Fin 8192) := by
      intro x hx
      have h0 : (idxs 0 x).toNat = (64 * j + e) % 8192 := congrArg (fun i : SOut.Idx => (i 0).val) hx
      rw [hidx x] at h0
      have := colOf_lt (ln x) n; have := ln_lt x
      apply hit
      have hjx : j = 16 * k + ln x := by omega
      have hex : e = colOf (ln x) n := by omega
      refine ⟨by omega, by omega, ?_⟩
      have : j % 16 = ln x := by omega
      rw [this]; exact hex
    have hgj := hg j hj e he
    unfold outAt at hgj ⊢
    rw [storeIdx_apply_of_forall_ne g idxs v h _ hne, hgj]
    by_cases hr : 16 * k ≤ j ∧ j < 16 * k + 16
    · have hsn : storeNo (j % 16) e ≠ n := fun hsn => hit ⟨hr.1, hr.2, (storeNo_eq_iff (by omega) he hn).1 hsn⟩
      by_cases hlt : storeNo (j % 16) e < n
      · rw [if_pos ⟨hr.1, hr.2, hlt⟩, if_pos ⟨hr.1, hr.2, by omega⟩]
      · rw [if_neg (fun hc => hlt hc.2.2), if_neg (fun hc => by have := hc.2.2; omega)]
    · rw [if_neg (fun hc => hr ⟨hc.1, hc.2.1⟩), if_neg (fun hc => hr ⟨hc.1, hc.2.1⟩)]

theorem done_of_inv {k : ℕ} (hk : k < 8) {fr : Vec F SR .f32} {fc : Vec F SC .f32} {fi3 : IVec SI 32} {f g : Vec F SOut .f32}
    (hf : Done k fr fc fi3 f) (hg : Inv k 64 (fun j e => slotWord fr fc (i3At fi3 j) j e) f g) :
    Done (k + 1) fr fc fi3 g := by
  intro j hj e he
  rw [hg j (by omega) e he]
  by_cases hr : 16 * k ≤ j
  · rw [if_pos ⟨hr, by omega, storeNo_lt _ _⟩]
  · rw [if_neg (fun hc => hr hc.1)]
    exact hf j (by omega) e he

end Cert.Proof.Compute

end
-- ==== Proof.OutBlocks.lean ====
/-
  A subcore's 851968 words of the flat result as 104 blocks of 8192. Block b of worker w is tokens
  [13312 w + 128 b, 13312 w + 128 (b + 1)), 64 words a token: words [851968 w + 8192 b, 851968 w + 8192 (b + 1)). The
  blocks are pairwise disjoint and cover the subcore's words, so the subcore's hold on its words splits into a hold on
  each block and joins back. Block b holds the kernel's words when word p of it is the word of token p / 64 at column
  p % 64; a write of those 8192 words through the block's slice makes the block so whatever the array held, and
  leaves every other block as it was; a subcore all of whose blocks are so has done its work.
-/
import proofs.«207215_g13752485282153_cont_week2b_1454_30_alg».proof.Proof.Common
import proofs.«207215_g13752485282153_cont_week2b_1454_30_alg».proof.Proof.TileSpec
import proofs.«207215_g13752485282153_cont_week2b_1454_30_alg».proof.Proof.TileData
import proofs.«207215_g13752485282153_cont_week2b_1454_30_alg».proof.Proof.TileIface
import proofs.«207215_g13752485282153_cont_week2b_1454_30_alg».proof.Proof.ComputeLib

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F] [Named F]

/-! ## The blocks -/

theorem blkRect_inb (L : grid1.Coords) (b : ℕ) :
    ∀ a, (![851968 * wid L + 8192 * (b % 104)] : Fin 1 → Nat) a + (![8192] : Fin 1 → Nat) a ≤ S27262976.size a := by
  have h := wid_lt L
  have hb : b % 104 < 104 := Nat.mod_lt _ (by decide)
  intro a; fin_cases a; simp; omega

/-- Block b (taken modulo 104) of subcore L's words: [851968 w + 8192 b, 851968 w + 8192 (b + 1)). -/
abbrev blkRect (L : grid1.Coords) (b : ℕ) : Rect S27262976 :=
  Rect.unit (s := S27262976) ![851968 * wid L + 8192 * (b % 104)] ![8192] (blkRect_inb L b)
abbrev blkSet (L : grid1.Coords) (b : ℕ) : Finset S27262976.Idx := ((outW).view.slice (blkRect L b)).set

omit [FloatOps F] [Named F] in
theorem mem_blkSet (L : grid1.Coords) (b : ℕ) (i : S27262976.Idx) :
    i ∈ blkSet L b ↔ 851968 * wid L + 8192 * (b % 104) ≤ (i 0).val ∧ (i 0).val < 851968 * wid L + 8192 * (b % 104) + 8192 := by
  show i ∈ ((View.whole (main_v23_scv : Ref sig .scVector)).slice (blkRect L b)).set ↔ _
  rw [View.set_slice_whole, Rect.mem_set_unit]
  exact Fin.forall_fin_one

omit [FloatOps F] [Named F] in
theorem mem_oSet (L : grid1.Coords) (i : S27262976.Idx) :
    i ∈ oSet L ↔ 851968 * wid L ≤ (i 0).val ∧ (i 0).val < 851968 * wid L + 851968 := by
  show i ∈ ((View.whole (main_v23_scv : Ref sig .scVector)).slice (oRect L)).set ↔ _
  rw [View.set_slice_whole, Rect.mem_set_unit]
  exact Fin.forall_fin_one

omit [FloatOps F] [Named F] in
/-- A slice of 8192 words of the flat result at offset off holds exactly the words [off, off + 8192). -/
theorem mem_sliceSet (off : Fin 1 → ℕ) (inb : ∀ a, off a + S8192.size a ≤ S27262976.size a) (i : S27262976.Idx) :
    i ∈ ((outW).slice (Rect.unit (s := S27262976) off S8192.size inb) (fun _ => rfl)).view.set
      ↔ off 0 ≤ (i 0).val ∧ (i 0).val < off 0 + 8192 := by
  show i ∈ ((View.whole (main_v23_scv : Ref sig .scVector)).slice (Rect.unit (s := S27262976) off S8192.size inb)).set ↔ _
  rw [View.set_slice_whole, Rect.mem_set_unit]
  exact Fin.forall_fin_one

omit [FloatOps F] [Named F] in
/-- The slice the body copies a block out through, at outer trip t and parity r, holds block 2 t + r. -/
theorem off5_set (L : grid1.Coords) (t : Fin k1_t1_loop.trips) (r : Fin 2) (par : BitVec 32) (hpar : par = BitVec.ofNat 32 r.val)
    (inb : ∀ a, (k1_off5 L t par) a + S8192.size a ≤ S27262976.size a) :
    ((outW).slice (Rect.unit (s := S27262976) (k1_off5 L t par) S8192.size inb) (fun _ => rfl)).view.set
      = blkSet L (2 * t.val + r.val) := by
  subst hpar
  ext i
  rw [mem_blkSet, mem_sliceSet]
  have hk : (k1_off5 L t (BitVec.ofNat 32 r.val)) 0 = 1703936 * (L 1).val + 851968 * (L 0).val + 16384 * t.val + 8192 * r.val :=
    congrFun (k1_off5_eq L t r) 0
  have ht : t.val < 52 := Nat.lt_of_lt_of_le t.isLt k1_t1_abs.2.1
  have hr := r.isLt
  rw [hk]; unfold wid; omega

omit [FloatOps F] [Named F] in
/-- The slice the waits name, at the subcore's first words, holds block 0. -/
theorem off_first_set (L : grid1.Coords) (off : Fin 1 → ℕ) (ho : off = ![1703936 * (L 1).val + 851968 * (L 0).val])
    (inb : ∀ a, off a + S8192.size a ≤ S27262976.size a) :
    ((outW).slice (Rect.unit (s := S27262976) off S8192.size inb) (fun _ => rfl)).view.set = blkSet L 0 := by
  subst ho
  ext i
  rw [mem_blkSet, mem_sliceSet]
  show 1703936 * (L 1).val + 851968 * (L 0).val ≤ (i 0).val ∧ (i 0).val < 1703936 * (L 1).val + 851968 * (L 0).val + 8192 ↔ _
  unfold wid; omega

omit [FloatOps F] [Named F] in
theorem blk_disjoint (L : grid1.Coords) :
    ∀ b ∈ Finset.range 104, ∀ b' ∈ Finset.range 104, b ≠ b' → Disjoint (blkSet L b) (blkSet L b') := by
  intro b hb b' hb' hne
  have h1 := Finset.mem_range.mp hb
  have h2 := Finset.mem_range.mp hb'
  rw [Finset.disjoint_left]
  intro i hi hi'
  rw [mem_blkSet] at hi hi'
  omega

omit [FloatOps F] [Named F] in
theorem blk_cover (L : grid1.Coords) : (Finset.range 104).biUnion (blkSet L) = oSet L := by
  ext i
  rw [Finset.mem_biUnion, mem_oSet]
  constructor
  · rintro ⟨b, hb, hi⟩
    rw [mem_blkSet] at hi
    have := Finset.mem_range.mp hb
    omega
  · intro h
    refine ⟨((i 0).val - 851968 * wid L) / 8192, Finset.mem_range.mpr (by omega), ?_⟩
    rw [mem_blkSet]
    omega

/-! ## The subcore's hold on its words, block by block -/

omit [FloatOps F] [Named F] in
/-- Holding the subcore's words is holding each of its 104 blocks. -/
theorem oPts_blocks (d : Dev nD) (L : grid1.Coords) (f : Buf (Elt F) (outLoc d)) :
    (outLoc d ↦[oSet L]{fullShare} f : sProp 𝕄) = bigSep (Finset.range 104) fun b => outLoc d ↦[blkSet L b]{fullShare} f := by
  rw [← pointsTo_biUnion (Finset.range 104) (ℓ := outLoc d) (blkSet L) (blk_disjoint L), blk_cover]; try rfl

omit [FloatOps F] [Named F] in
/-- The 104 blocks held at contents of their own join into the subcore's words held at one array that agrees with each
    block's contents on that block. -/
theorem oBlocks_join (d : Dev nD) (L : grid1.Coords) (fs : ℕ → Buf (Elt F) (outLoc d)) :
    (bigSep (Finset.range 104) fun b => outLoc d ↦[blkSet L b]{fullShare} fs b)
      ⊢ (iprop(∃ g : Buf (Elt F) (outLoc d), ⌜∀ b, b < 104 → ∀ i ∈ blkSet L b, g i = fs b i⌝ ∗ outLoc d ↦[oSet L]{fullShare} g) : sProp 𝕄) := by
  iintro H
  ihave H' := (pointsTo_biUnion_join (ℓ := outLoc d) (q := fullShare) (Finset.range 104) (blkSet L) fs (fs 0) (blk_disjoint L)) $$ H
  icases H' with ⟨%g, %hg, Hg⟩
  rw [blk_cover]
  iexists g
  isplitr
  · ipureintro; exact fun b hb => hg b (Finset.mem_range.mpr hb)
  · iexact Hg

/-! ## What a block holds -/

/-- The 8192 words of block b of worker w: word p is the kernel's word of token 13312 w + 128 b + p / 64 at column
    p % 64. -/
def OUTS (fi : IVec S425984 32) (fp : Vec F S10000x128 .f32) (fc : Vec F S3304 .f32) (w b : ℕ) : Vec F S8192 .f32 :=
  fun p => TileSpec.word fp fc
    (fi (ix1 (⟨(13312 * w + 128 * b + (p 0).val / 64) % 425984, Nat.mod_lt _ (by decide)⟩ : Fin 425984))).toNat
    (13312 * w + 128 * b + (p 0).val / 64) ((p 0).val % 64)

/-- Block b of worker w holds the kernel's words in f. -/
def BlockOK (fi : IVec S425984 32) (fp : Vec F S10000x128 .f32) (fc : Vec F S3304 .f32) (w b : ℕ) (f : Vec F S27262976 .f32) : Prop :=
  ∀ p : Fin 8192,
    f (ix1 (⟨(851968 * w + 8192 * b + p.val) % 27262976, Nat.mod_lt _ (by decide)⟩ : Fin 27262976)) = OUTS fi fp fc w b (ix1 p)

omit [Named F] in
/-- A worker all of whose 104 blocks hold the kernel's words has done its work. -/
theorem outOK_of_blocks (fi : IVec S425984 32) (fp : Vec F S10000x128 .f32) (fc : Vec F S3304 .f32) (w : ℕ) (f : Vec F S27262976 .f32)
    (h : ∀ b, b < 104 → BlockOK fi fp fc w b f) : TileSpec.OutOK (F := F) fi fp fc w f := by
  intro t e
  have ht := t.isLt
  have he := e.isLt
  have hb : t.val / 128 < 104 := by omega
  have hp : 64 * (t.val % 128) + e.val < 8192 := by omega
  have H := h _ hb ⟨64 * (t.val % 128) + e.val, hp⟩
  have e1 : (⟨(851968 * w + 8192 * (t.val / 128) + (64 * (t.val % 128) + e.val)) % 27262976, Nat.mod_lt _ (by decide)⟩ : Fin 27262976)
      = ⟨(64 * (13312 * w + t.val) + e.val) % 27262976, Nat.mod_lt _ (by decide)⟩ :=
    Fin.ext (by
      show (851968 * w + 8192 * (t.val / 128) + (64 * (t.val % 128) + e.val)) % 27262976 = (64 * (13312 * w + t.val) + e.val) % 27262976
      congr 1; omega)
  simp only [] at H
  rw [e1] at H
  rw [H]
  have e2 : (64 * (t.val % 128) + e.val) / 64 = t.val % 128 := by omega
  have e3 : (64 * (t.val % 128) + e.val) % 64 = e.val := by omega
  have e4 : 13312 * w + 128 * (t.val / 128) + t.val % 128 = 13312 * w + t.val := by omega
  show TileSpec.word fp fc
      (fi (ix1 (⟨(13312 * w + 128 * (t.val / 128) + (64 * (t.val % 128) + e.val) / 64) % 425984, Nat.mod_lt _ (by decide)⟩ : Fin 425984))).toNat
      (13312 * w + 128 * (t.val / 128) + (64 * (t.val % 128) + e.val) / 64) ((64 * (t.val % 128) + e.val) % 64) = _
  rw [e2, e3]
  rw [fi_congr fi e4, e4]

omit [Named F] in
/-- Whether a block holds the kernel's words depends on the array at that block's words alone. -/
theorem blockOK_congr (fi : IVec S425984 32) (fp : Vec F S10000x128 .f32) (fc : Vec F S3304 .f32) (L : grid1.Coords) (b : ℕ) (hb : b < 104)
    (f g : Vec F S27262976 .f32) (hg : ∀ i ∈ blkSet L b, g i = f i) (h : BlockOK fi fp fc (wid L) b f) :
    BlockOK fi fp fc (wid L) b g := by
  intro p
  have hp := p.isLt
  have hw := wid_lt L
  rw [hg _ ((mem_blkSet L b _).mpr (by
    show 851968 * wid L + 8192 * (b % 104) ≤ (851968 * wid L + 8192 * b + p.val) % 27262976
      ∧ (851968 * wid L + 8192 * b + p.val) % 27262976 < 851968 * wid L + 8192 * (b % 104) + 8192
    omega))]
  exact h p

omit [Named F] in
/-- The subcore's words joined from blocks that each hold the kernel's words: the subcore has done its work. -/
theorem outOK_of_join (fi : IVec S425984 32) (fp : Vec F S10000x128 .f32) (fc : Vec F S3304 .f32) (L : grid1.Coords)
    (fs : ℕ → Vec F S27262976 .f32) (g : Vec F S27262976 .f32) (hfs : ∀ b, b < 104 → BlockOK fi fp fc (wid L) b (fs b))
    (hg : ∀ b, b < 104 → ∀ i ∈ blkSet L b, g i = fs b i) : TileSpec.OutOK (F := F) fi fp fc (wid L) g :=
  outOK_of_blocks fi fp fc (wid L) g fun b hb => blockOK_congr fi fp fc L b hb (fs b) g (hg b hb) (hfs b hb)

/-! ## A block written through its slice -/

omit [Named F] in
/-- The block's 8192 words written through a slice of the flat result at the block's offset: the block holds the
    kernel's words afterwards, whatever the array held. -/
theorem blockOK_write (fi : IVec S425984 32) (fp : Vec F S10000x128 .f32) (fc : Vec F S3304 .f32) (w b : ℕ) (hw : w < 32) (hb : b < 104)
    (off : Fin 1 → ℕ) (inb : ∀ a, off a + S8192.size a ≤ S27262976.size a) (ho : off 0 = 851968 * w + 8192 * b)
    (f : Vec F S27262976 .f32) (g : Vec F S8192 .f32) (hg : g = OUTS fi fp fc w b) :
    BlockOK fi fp fc w b
      (View.write (Elt F) ((outW).slice (Rect.unit (s := S27262976) off S8192.size inb) (fun _ => rfl)).view f g Finset.univ) := by
  subst hg
  intro p
  have hp := p.isLt
  have he : (ix1 (⟨(851968 * w + 8192 * b + p.val) % 27262976, Nat.mod_lt _ (by decide)⟩ : Fin 27262976) : S27262976.Idx)
      = ((outW).slice (Rect.unit (s := S27262976) off S8192.size inb) (fun _ => rfl)).view.emb (ix1 p) := by
    funext a
    match a with
    | ⟨0, _⟩ => exact Fin.ext (by show (851968 * w + 8192 * b + p.val) % 27262976 = off 0 + 1 * p.val; omega)
  rw [he, View.write_emb_of_mem _ _ (Finset.mem_univ _)]
  rfl

omit [Named F] in
/-- The same write leaves every other block of the worker as it was. -/
theorem blockOK_write_other (fi : IVec S425984 32) (fp : Vec F S10000x128 .f32) (fc : Vec F S3304 .f32) (w b b' : ℕ) (hw : w < 32)
    (hb : b < 104) (hb' : b' < 104) (hne : b' ≠ b)
    (off : Fin 1 → ℕ) (inb : ∀ a, off a + S8192.size a ≤ S27262976.size a) (ho : off 0 = 851968 * w + 8192 * b)
    (f : Vec F S27262976 .f32) (g : Vec F S8192 .f32) (h : BlockOK fi fp fc w b' f) :
    BlockOK fi fp fc w b'
      (View.write (Elt F) ((outW).slice (Rect.unit (s := S27262976) off S8192.size inb) (fun _ => rfl)).view f g Finset.univ) := by
  intro p
  have hp := p.isLt
  rw [View.write_of_not_mem]
  · exact h p
  · rw [View.setOn_univ, mem_sliceSet]
    show ¬(off 0 ≤ (851968 * w + 8192 * b' + p.val) % 27262976 ∧ (851968 * w + 8192 * b' + p.val) % 27262976 < off 0 + 8192)
    omega

/-! ## The compute loop's words are the kernel's words

The compute loop works on a slot: the 128 rows of the pair table its block's row list names, the third-core table, the
block's 128 third digits. Row j of the slot is token 13312 w + 128 b + j, whose lane is j % 16, because
13312 w + 128 b is a multiple of sixteen. -/

omit [Named F] in
/-- The product the lane of slot row j forms over the gathered rows is the product the kernel's word is made of, when
    the row list names the token's pair-table row at j, the digit is the token's third digit and the token's lane is
    the row's. -/
theorem slotProd_rows (fp : Vec F S10000x128 .f32) (fc : Vec F S3304 .f32) (g : IVec S128 32) (n n3 j t e r : ℕ)
    (hg : (g (ix1 (⟨j % 128, Nat.mod_lt _ (by decide)⟩ : Fin 128))).toNat = n / 100) (hn3 : n3 = n % 100) (ht : t % 16 = j % 16) :
    Compute.slotProd (ROWS fp g) fc n3 j e r = TileSpec.prod fp fc (n / 100) (n % 100) (t % 16) (e / 4) (e % 4) r := by
  subst hn3
  show FloatOps.mulf
      (fp (ix2 (⟨(g (ix1 (⟨j % 128, Nat.mod_lt _ (by decide)⟩ : Fin 128))).toNat % 10000, Nat.mod_lt _ (by decide)⟩ : Fin 10000)
        (⟨(8 * (e / 4) + (j % 16 + r) % 8) % 128, Nat.mod_lt _ (by decide)⟩ : Fin 128)))
      (fc (ix1 (⟨(33 * (n % 100) + 4 * ((j % 16 + r) % 8) + e % 4) % 3304, Nat.mod_lt _ (by decide)⟩ : Fin 3304)))
    = FloatOps.mulf
      (fp (ix2 (⟨(n / 100) % 10000, Nat.mod_lt _ (by decide)⟩ : Fin 10000)
        (⟨(8 * (e / 4) + (t % 16 + r) % 8) % 128, Nat.mod_lt _ (by decide)⟩ : Fin 128)))
      (fc (ix1 (⟨(33 * (n % 100) + 4 * ((t % 16 + r) % 8) + e % 4) % 3304, Nat.mod_lt _ (by decide)⟩ : Fin 3304)))
  rw [hg, ht]

omit [Named F] in
/-- The word the compute loop leaves at column e of slot row j is the kernel's word of the row's token. -/
theorem slotWord_rows (fp : Vec F S10000x128 .f32) (fc : Vec F S3304 .f32) (g : IVec S128 32) (n n3 j t e : ℕ)
    (hg : (g (ix1 (⟨j % 128, Nat.mod_lt _ (by decide)⟩ : Fin 128))).toNat = n / 100) (hn3 : n3 = n % 100) (ht : t % 16 = j % 16) :
    Compute.slotWord (ROWS fp g) fc n3 j e = TileSpec.word fp fc n t e := by
  unfold Compute.slotWord TileSpec.word TileSpec.lane
  simp only [slotProd_rows fp fc g n n3 j t e _ hg hn3 ht]

omit [Named F] in
/-- THE BLOCK: once the compute loop has done all eight groups of sixteen rows of block b's slot, the slot's result
    scratch is the block of the kernel's words. -/
theorem outs_of_done (fi : IVec S425984 32) (fp : Vec F S10000x128 .f32) (fc : Vec F S3304 .f32) (w b : ℕ) (f : Vec F S8192 .f32)
    (h : Compute.Done 8 (ROWS fp (G12 fi w b)) fc (I3 fi w b) f) : f = OUTS fi fp fc w b := by
  funext p
  obtain ⟨q, rfl⟩ : ∃ q : Fin 8192, p = ix1 q := ⟨p 0, eq_ix1 p⟩
  have hq := q.isLt
  have hj : q.val / 64 < 16 * 8 := by omega
  have he : q.val % 64 < 64 := Nat.mod_lt _ (by decide)
  have H := h (q.val / 64) hj (q.val % 64) he
  have e0 : (⟨(64 * (q.val / 64) + q.val % 64) % 8192, Nat.mod_lt _ (by decide)⟩ : Fin 8192) = q :=
    Fin.ext (by show (64 * (q.val / 64) + q.val % 64) % 8192 = q.val; omega)
  have hf : Compute.outAt f (64 * (q.val / 64) + q.val % 64) = f (ix1 q) := by
    unfold Compute.outAt; rw [e0]
  rw [← hf, H]
  -- the token of slot row q / 64 and its index word
  have e1 : (q.val / 64) % 128 = q.val / 64 := by omega
  have hword : fi (ix1 (⟨(13312 * w + 128 * b + (q.val / 64) % 128) % 425984, Nat.mod_lt _ (by decide)⟩ : Fin 425984))
      = fi (ix1 (⟨(13312 * w + 128 * b + q.val / 64) % 425984, Nat.mod_lt _ (by decide)⟩ : Fin 425984)) :=
    fi_congr fi (by omega)
  have hlt := (fi (ix1 (⟨(13312 * w + 128 * b + q.val / 64) % 425984, Nat.mod_lt _ (by decide)⟩ : Fin 425984))).isLt
  refine slotWord_rows fp fc (G12 fi w b) _ _ (q.val / 64) (13312 * w + 128 * b + q.val / 64) (q.val % 64) ?_ ?_ (by omega)
  · show (BitVec.ofNat 32 ((fi (ix1 (⟨(13312 * w + 128 * b + (q.val / 64) % 128) % 425984, Nat.mod_lt _ (by decide)⟩ : Fin 425984))).toNat / 100)).toNat = _
    rw [hword, BitVec.toNat_ofNat]
    show _ % 2 ^ 32 = (fi (ix1 (⟨(13312 * w + 128 * b + q.val / 64) % 425984, Nat.mod_lt _ (by decide)⟩ : Fin 425984))).toNat / 100
    omega
  · show (BitVec.ofNat 32 ((fi (ix1 (⟨(13312 * w + 128 * b + (q.val / 64) % 128) % 425984, Nat.mod_lt _ (by decide)⟩ : Fin 425984))).toNat % 100)).toNat = _
    rw [hword, BitVec.toNat_ofNat]
    show _ % 2 ^ 32 = (fi (ix1 (⟨(13312 * w + 128 * b + q.val / 64) % 425984, Nat.mod_lt _ (by decide)⟩ : Fin 425984))).toNat % 100
    omega

end Cert.Proof.KI

end
-- ==== Proof.TileInv.lean ====
import proofs.«207215_g13752485282153_cont_week2b_1454_30_alg».proof.Proof.Common
import proofs.«207215_g13752485282153_cont_week2b_1454_30_alg».proof.Proof.TileRun
import proofs.«207215_g13752485282153_cont_week2b_1454_30_alg».proof.Proof.TileData
import proofs.«207215_g13752485282153_cont_week2b_1454_30_alg».proof.Proof.OutBlocks

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

/-! The states of one vector subcore between the pieces of its outer loop: what it holds of the shared arrays and
    of its scratch, which row gather and which copy-outs are outstanding, what its words of the result hold. -/

variable (d : Dev nD) (L : grid1.Coords) (q q0 q1 : PosShare TreeShare)
variable (fi : Buf (Elt F) ((idxW).view.loc (thr d L))) (fp : Buf (Elt F) ((ptW).view.loc (thr d L)))
  (fc : Buf (Elt F) ((ctW).view.loc (thr d L)))
variable (O : CellTallies nD τ sig (HIx 1)) (W : Waits sig (HIx 1))

/-- The pair table as the gathers name their source: the full-rectangle slice. -/
abbrev ptSl : Memref sig .scVector .hbm S10000x128 .f32 :=
  (ptW).slice (Rect.unit (s := S10000x128) ![0, 0] S10000x128.size inb_S10000x128_S10000x128_0_0) (fun _ => rfl)

theorem oRectC_inb (L : grid1.Coords) : ∀ a, (![1703936 * (L 1).val + 851968 * (L 0).val] : Fin 1 → Nat) a + (![851968] : Fin 1 → Nat) a ≤ S27262976.size a := by
  have h0 : (L 0).val < 2 := (L 0).isLt
  have h1 : (L 1).val < 16 := (L 1).isLt
  intro a; fin_cases a; simp; omega

/-- The subcore's words of the flat result, offset spelt over the grid coordinates as the printed offsets' closed forms
    spell it. -/
abbrev oRectC (L : grid1.Coords) : Rect S27262976 :=
  Rect.unit (s := S27262976) ![1703936 * (L 1).val + 851968 * (L 0).val] ![851968] (oRectC_inb L)
abbrev oReg (L : grid1.Coords) : Finset S27262976.Idx := (outW).view.setOn (oRectC L).set

/-- What every piece keeps: the wait evidence, the read shares of the indices and of the third-core table, the index
    scratch holding the subcore's 13312 index words, the table scratch holding the third-core table. -/
def Base : sProp 𝕄 :=
  iprop(Transfers.MayWaits (thr d L) (none : HIx 1) O
    ∗ ((idxW).view.loc (thr d L) ↦{q} fi) ∗ ((ctW).view.loc (thr d L) ↦{q} fc)
    ∗ ((s0W).view.loc (thr d L) ↦{fullShare} IDXV fi (wid L))
    ∗ ((s1W).view.loc (thr d L) ↦{fullShare} fc))

/-- Slot 0's row gather of block `b` outstanding: the flight delivering the rows buffer at the gathered rows, the row
    list and the table's share back; the (empty) rest of the table's share. -/
def GFlight0 (b : ℕ) : sProp 𝕄 :=
  iprop(Transfers.Flight countersEmb (thr d L) (SemLoc.dma cc1_scratch10.sem) default 524288
      iprop((((s6W).view.loc (thr d L) ↦{fullShare} ROWS fp (G12 fi (wid L) b)) ∗ ((s2W).view.loc (thr d L) ↦{fullShare} G12 fi (wid L) b))
        ∗ ((ptW).view.loc (thr d L) ↦[(ptSl).view.set]{q0} fp))
    ∗ ((ptW).view.loc (thr d L) ↦[Finset.univ \ (ptSl).view.set]{q0} fp))
def GFlight1 (b : ℕ) : sProp 𝕄 :=
  iprop(Transfers.Flight countersEmb (thr d L) (SemLoc.dma cc1_scratch11.sem) default 524288
      iprop((((s7W).view.loc (thr d L) ↦{fullShare} ROWS fp (G12 fi (wid L) b)) ∗ ((s3W).view.loc (thr d L) ↦{fullShare} G12 fi (wid L) b))
        ∗ ((ptW).view.loc (thr d L) ↦[(ptSl).view.set]{q1} fp))
    ∗ ((ptW).view.loc (thr d L) ↦[Finset.univ \ (ptSl).view.set]{q1} fp))

/-- Slot 0's rows landed: block `b`'s gathered rows, its row list, the table's share whole, the counter at zero. -/
def GLanded0 (b : ℕ) : sProp 𝕄 :=
  iprop(((s6W).view.loc (thr d L) ↦{fullShare} ROWS fp (G12 fi (wid L) b)) ∗ ((s2W).view.loc (thr d L) ↦{fullShare} G12 fi (wid L) b)
    ∗ ((ptW).view.loc (thr d L) ↦{q0} fp) ∗ semVal (thr d L, SemLoc.dma cc1_scratch10.sem) 0)
def GLanded1 (b : ℕ) : sProp 𝕄 :=
  iprop(((s7W).view.loc (thr d L) ↦{fullShare} ROWS fp (G12 fi (wid L) b)) ∗ ((s3W).view.loc (thr d L) ↦{fullShare} G12 fi (wid L) b)
    ∗ ((ptW).view.loc (thr d L) ↦{q1} fp) ∗ semVal (thr d L, SemLoc.dma cc1_scratch11.sem) 0)

/-- Slot 0's gather side idle: rows buffer and row list at anything, the table's share, the counter at zero. -/
def GIdle0 : sProp 𝕄 :=
  iprop((∃ f, (s6W).view.loc (thr d L) ↦{fullShare} f) ∗ (∃ f, (s2W).view.loc (thr d L) ↦{fullShare} f)
    ∗ ((ptW).view.loc (thr d L) ↦{q0} fp) ∗ semVal (thr d L, SemLoc.dma cc1_scratch10.sem) 0)
def GIdle1 : sProp 𝕄 :=
  iprop((∃ f, (s7W).view.loc (thr d L) ↦{fullShare} f) ∗ (∃ f, (s3W).view.loc (thr d L) ↦{fullShare} f)
    ∗ ((ptW).view.loc (thr d L) ↦{q1} fp) ∗ semVal (thr d L, SemLoc.dma cc1_scratch11.sem) 0)

/-- A slot's third-digit list: block `b`'s, or anything. -/
def D3At0 (b : ℕ) : sProp 𝕄 := (s4W).view.loc (thr d L) ↦{fullShare} I3 fi (wid L) b
def D3At1 (b : ℕ) : sProp 𝕄 := (s5W).view.loc (thr d L) ↦{fullShare} I3 fi (wid L) b
def D3Any0 : sProp 𝕄 := iprop(∃ f, (s4W).view.loc (thr d L) ↦{fullShare} f)
def D3Any1 : sProp 𝕄 := iprop(∃ f, (s5W).view.loc (thr d L) ↦{fullShare} f)

/-- What the subcore owes, with the waits it has recorded beyond `W` all at index `none`. -/
def Owes : sProp 𝕄 := iprop(∃ W', ⌜∀ p ∈ W', p ∈ W ∨ p.2 = none⌝ ∗ owes (thr d L) O W')

end Cert.Proof.KI

end
-- ==== Proof.CopyOut.lean ====
/-
  The copy-out of a slot's out scratch into its block of the flat result, and the wait for it.

  Each half-step of the tile kernel ends by issuing a local copy of the slot's 8192-word out scratch into one block of
  the flat result, on the slot's own copy-out semaphore, and the copy is waited for two half-steps later by a wait whose
  descriptor names the tile's FIRST block. A wait lowers the semaphore's counter by the amount its descriptor credits —
  8192 words of 32 bits, whichever block of that size it names — so the flight issued for block (t, slot) is the one the
  later wait collects. Stated once per slot: the issue (from the scratch whole, any held elements of the result that
  include the block, the semaphore at zero), the wait (for any descriptor of that credit), and the block rejoined with
  the rest it was carved from.
-/
import proofs.«207215_g13752485282153_cont_week2b_1454_30_alg».proof.Proof.Common
import proofs.«207215_g13752485282153_cont_week2b_1454_30_alg».proof.Proof.TileIface
import proofs.«207215_g13752485282153_cont_week2b_1454_30_alg».proof.Proof.OutBlocks

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

variable (d : Dev nD) (L : grid1.Coords)

/-! ## Slot 0: scratch 8, semaphore 12 -/

/-- The block of the flat result that outer trip `t` fills from slot 0's out scratch: 8192 words at the kernel's own
    offset for that half-step, spelt as the kernel slices it. -/
abbrev blk0 (t : Fin k1_t1_loop.trips) : Memref sig .scVector .hbm S8192 .f32 :=
  (outW).slice (Rect.unit (s := S27262976) (k1_off5 L t 0#32) S8192.size (k1_off5_inb L t 0)) (fun _ => rfl)

/-- The result array's contents once slot 0's out scratch, at contents `fs`, has been copied into block `(t, 0)`
    of contents `fo`: the scratch's words written through the block's view. -/
abbrev wr0 (t : Fin k1_t1_loop.trips) (fo : Buf (Elt F) ((outW).view.loc (thr d L)))
    (fs : Buf (Elt F) ((s8W).view.loc (thr d L))) : Buf (Elt F) ((outW).view.loc (thr d L)) :=
  (blk0 L t).view.write (Elt F) fo ((s8W).view.read (Elt F) fs) Finset.univ

/-- Slot 0's copy-out of trip `t` in flight: the capability to lower the slot's copy-out semaphore by the block's
    credit (8192 words of 32 bits), which then hands over the block written with the scratch's words and the scratch. -/
def CopyFlight0 (t : Fin k1_t1_loop.trips) (fo : Buf (Elt F) ((outW).view.loc (thr d L)))
    (fs : Buf (Elt F) ((s8W).view.loc (thr d L))) : sProp 𝕄 :=
  Transfers.Flight countersEmb (thr d L) (SemLoc.dma cc1_scratch12.sem) (none : HIx 1) 262144
    iprop(((outW).view.loc (thr d L) ↦[(blk0 L t).view.set]{fullShare} wr0 d L t fo fs)
      ∗ ((s8W).view.loc (thr d L) ↦[(s8W).view.set]{fullShare} fs))

/-- The issue of slot 0's copy-out: holding the scratch whole, any elements `Sd` of the result that include the
    block, and the slot's copy-out semaphore at zero, the subcore issues the copy and goes on holding the flight and
    the REST of `Sd`, unchanged. -/
theorem copyout_issue0 {α : Type} {Q : α → sProp 𝕄} (t : Fin k1_t1_loop.trips)
    (fo : Buf (Elt F) ((outW).view.loc (thr d L))) (fs : Buf (Elt F) ((s8W).view.loc (thr d L)))
    (Sd : Finset (Idx ((outW).view.loc (thr d L)))) (hSd : (blk0 L t).view.set ⊆ Sd)
    (k : PUnit → Prog (TpuEff nD τ sig (Elt F) Λ₀ (thr d L).2) α) :
    (iprop(((s8W).view.loc (thr d L) ↦{fullShare} fs) ∗ ((outW).view.loc (thr d L) ↦[Sd]{fullShare} fo)
        ∗ semVal (thr d L, SemLoc.dma cc1_scratch12.sem) 0) : sProp 𝕄)
      ⊢ iprop((iprop(CopyFlight0 d L t fo fs ∗ ((outW).view.loc (thr d L) ↦[Sd \ (blk0 L t).view.set]{fullShare} fo))
                -∗ wp frame (wpE (defs₀ (F := F)) 𝒱₀ (thr d L) none) Set.univ (k ⟨⟩) Q)
          -∗ wp frame (wpE (defs₀ (F := F)) 𝒱₀ (thr d L) none) Set.univ
              (.op (.enqueueDma s8W (.here (blk0 L t)) (.dma cc1_scratch12.sem) (Memref.isWhole_whole _).wordExact
                (View.wordExact_bits rfl) ⟨Or.inl rfl, trivial⟩) k) Q) := by
  iintro ⟨Hs, Hd, Hv⟩ Hk
  ihave Hd' := (pointsTo_split_subset hSd).1 $$ Hd
  icases Hd' with ⟨Hd, Hrest⟩
  rw [← (Memref.isWhole_whole _).set_eq_univ (m := s8W)]
  iapply (Transfers.wp_dmaLocal countersEmb 𝒱₀ (thr d L) none (none : HIx 1) 262144 rfl (by decide) subset_rfl) $$ [Hs Hd Hv]
  · isplitl [Hs]; · iexact Hs
    isplitl [Hd] <;> iassumption
  iintro Hf
  iapply Hk
  isplitl [Hf]
  · unfold CopyFlight0; iexact Hf
  · iexact Hrest

/-- The wait for slot 0's copy-out, whatever block of 8192 words the wait's descriptor names (the kernel names the
    tile's first): the subcore lowers the semaphore by the block's credit and goes on holding the block written with the
    scratch's words, the scratch whole, the semaphore at zero, and the wait recorded. -/
theorem copyout_wait0 {α : Type} {Q : α → sProp 𝕄} (t : Fin k1_t1_loop.trips)
    (fo : Buf (Elt F) ((outW).view.loc (thr d L))) (fs : Buf (Elt F) ((s8W).view.loc (thr d L)))
    (O : CellTallies nD τ sig (HIx 1)) (W : Waits sig (HIx 1))
    (dstw : Memref sig .scVector .hbm S8192 .f32) (hcr : dstw.view.dmaCredit = 262144)
    (hsrc : (s8W).view.WordExact) (hdst : dstw.view.WordExact)
    (k : PUnit → Prog (TpuEff nD τ sig (Elt F) Λ₀ (thr d L).2) α) :
    (iprop(CopyFlight0 d L t fo fs ∗ owes (thr d L) O W ∗ Transfers.MayWaits (thr d L) (none : HIx 1) O) : sProp 𝕄)
      ⊢ iprop((iprop(((outW).view.loc (thr d L) ↦[(blk0 L t).view.set]{fullShare} wr0 d L t fo fs)
                ∗ ((s8W).view.loc (thr d L) ↦{fullShare} fs)
                ∗ semVal (thr d L, SemLoc.dma cc1_scratch12.sem) 0
                ∗ owes (thr d L) O (insert (SemLoc.dma cc1_scratch12.sem, (none : HIx 1)) W))
                -∗ wp frame (wpE (defs₀ (F := F)) 𝒱₀ (thr d L) none) Set.univ (k ⟨⟩) Q)
          -∗ wp frame (wpE (defs₀ (F := F)) 𝒱₀ (thr d L) none) Set.univ
              (.op (.waitDma2 cc1_scratch12.sem s8W dstw hsrc hdst) k) Q) := by
  iintro ⟨Hf, HO, #Hmw⟩ Hk
  unfold CopyFlight0
  iapply (Transfers.wp_waitLocalO countersEmb 𝒱₀ (thr d L) none (none : HIx 1) hcr) $$ [Hf HO]
  · isplitl [Hf]; · iexact Hf
    isplitl [HO]; · iexact HO
    iapply (Transfers.MayWaits.elim (SemLoc.dma cc1_scratch12.sem)) $$ Hmw
  iintro ⟨⟨Hd, Hs⟩, Hv, HO⟩
  iapply Hk
  isplitl [Hd]; · iexact Hd
  isplitl [Hs]
  · rw [(Memref.isWhole_whole _).set_eq_univ (m := s8W)]; iexact Hs
  isplitl [Hv] <;> iassumption

/-- The block rejoined with the rest it was carved from: off the block the written contents are the old ones. -/
theorem copyout_join0 (t : Fin k1_t1_loop.trips) (fo : Buf (Elt F) ((outW).view.loc (thr d L)))
    (fs : Buf (Elt F) ((s8W).view.loc (thr d L))) (Sd : Finset (Idx ((outW).view.loc (thr d L))))
    (hSd : (blk0 L t).view.set ⊆ Sd) :
    (iprop(((outW).view.loc (thr d L) ↦[(blk0 L t).view.set]{fullShare} wr0 d L t fo fs)
        ∗ ((outW).view.loc (thr d L) ↦[Sd \ (blk0 L t).view.set]{fullShare} fo)) : sProp 𝕄)
      ⊢ ((outW).view.loc (thr d L) ↦[Sd]{fullShare} wr0 d L t fo fs) := by
  iintro ⟨Hd, Hrest⟩
  iapply (pointsTo_split_subset hSd).2
  isplitl [Hd]; · iexact Hd
  iapply (Entails.of_eq (pointsTo_rest_write (v := (blk0 L t).view) (S := Sd) (thr d L) fo ((s8W).view.read (Elt F) fs))) $$ Hrest

/-! ## Slot 1: scratch 9, semaphore 13 -/

/-- The block of the flat result that outer trip `t` fills from slot 1's out scratch: 8192 words at the kernel's own
    offset for that half-step, spelt as the kernel slices it. -/
abbrev blk1 (t : Fin k1_t1_loop.trips) : Memref sig .scVector .hbm S8192 .f32 :=
  (outW).slice (Rect.unit (s := S27262976) (k1_off5 L t 1#32) S8192.size (k1_off5_inb L t 1)) (fun _ => rfl)

/-- The result array's contents once slot 1's out scratch, at contents `fs`, has been copied into block `(t, 1)`
    of contents `fo`: the scratch's words written through the block's view. -/
abbrev wr1 (t : Fin k1_t1_loop.trips) (fo : Buf (Elt F) ((outW).view.loc (thr d L)))
    (fs : Buf (Elt F) ((s9W).view.loc (thr d L))) : Buf (Elt F) ((outW).view.loc (thr d L)) :=
  (blk1 L t).view.write (Elt F) fo ((s9W).view.read (Elt F) fs) Finset.univ

/-- Slot 1's copy-out of trip `t` in flight: the capability to lower the slot's copy-out semaphore by the block's
    credit (8192 words of 32 bits), which then hands over the block written with the scratch's words and the scratch. -/
def CopyFlight1 (t : Fin k1_t1_loop.trips) (fo : Buf (Elt F) ((outW).view.loc (thr d L)))
    (fs : Buf (Elt F) ((s9W).view.loc (thr d L))) : sProp 𝕄 :=
  Transfers.Flight countersEmb (thr d L) (SemLoc.dma cc1_scratch13.sem) (none : HIx 1) 262144
    iprop(((outW).view.loc (thr d L) ↦[(blk1 L t).view.set]{fullShare} wr1 d L t fo fs)
      ∗ ((s9W).view.loc (thr d L) ↦[(s9W).view.set]{fullShare} fs))

/-- The issue of slot 1's copy-out: holding the scratch whole, any elements `Sd` of the result that include the
    block, and the slot's copy-out semaphore at zero, the subcore issues the copy and goes on holding the flight and
    the REST of `Sd`, unchanged. -/
theorem copyout_issue1 {α : Type} {Q : α → sProp 𝕄} (t : Fin k1_t1_loop.trips)
    (fo : Buf (Elt F) ((outW).view.loc (thr d L))) (fs : Buf (Elt F) ((s9W).view.loc (thr d L)))
    (Sd : Finset (Idx ((outW).view.loc (thr d L)))) (hSd : (blk1 L t).view.set ⊆ Sd)
    (k : PUnit → Prog (TpuEff nD τ sig (Elt F) Λ₀ (thr d L).2) α) :
    (iprop(((s9W).view.loc (thr d L) ↦{fullShare} fs) ∗ ((outW).view.loc (thr d L) ↦[Sd]{fullShare} fo)
        ∗ semVal (thr d L, SemLoc.dma cc1_scratch13.sem) 0) : sProp 𝕄)
      ⊢ iprop((iprop(CopyFlight1 d L t fo fs ∗ ((outW).view.loc (thr d L) ↦[Sd \ (blk1 L t).view.set]{fullShare} fo))
                -∗ wp frame (wpE (defs₀ (F := F)) 𝒱₀ (thr d L) none) Set.univ (k ⟨⟩) Q)
          -∗ wp frame (wpE (defs₀ (F := F)) 𝒱₀ (thr d L) none) Set.univ
              (.op (.enqueueDma s9W (.here (blk1 L t)) (.dma cc1_scratch13.sem) (Memref.isWhole_whole _).wordExact
                (View.wordExact_bits rfl) ⟨Or.inl rfl, trivial⟩) k) Q) := by
  iintro ⟨Hs, Hd, Hv⟩ Hk
  ihave Hd' := (pointsTo_split_subset hSd).1 $$ Hd
  icases Hd' with ⟨Hd, Hrest⟩
  rw [← (Memref.isWhole_whole _).set_eq_univ (m := s9W)]
  iapply (Transfers.wp_dmaLocal countersEmb 𝒱₀ (thr d L) none (none : HIx 1) 262144 rfl (by decide) subset_rfl) $$ [Hs Hd Hv]
  · isplitl [Hs]; · iexact Hs
    isplitl [Hd] <;> iassumption
  iintro Hf
  iapply Hk
  isplitl [Hf]
  · unfold CopyFlight1; iexact Hf
  · iexact Hrest

/-- The wait for slot 1's copy-out, whatever block of 8192 words the wait's descriptor names (the kernel names the
    tile's first): the subcore lowers the semaphore by the block's credit and goes on holding the block written with the
    scratch's words, the scratch whole, the semaphore at zero, and the wait recorded. -/
theorem copyout_wait1 {α : Type} {Q : α → sProp 𝕄} (t : Fin k1_t1_loop.trips)
    (fo : Buf (Elt F) ((outW).view.loc (thr d L))) (fs : Buf (Elt F) ((s9W).view.loc (thr d L)))
    (O : CellTallies nD τ sig (HIx 1)) (W : Waits sig (HIx 1))
    (dstw : Memref sig .scVector .hbm S8192 .f32) (hcr : dstw.view.dmaCredit = 262144)
    (hsrc : (s9W).view.WordExact) (hdst : dstw.view.WordExact)
    (k : PUnit → Prog (TpuEff nD τ sig (Elt F) Λ₀ (thr d L).2) α) :
    (iprop(CopyFlight1 d L t fo fs ∗ owes (thr d L) O W ∗ Transfers.MayWaits (thr d L) (none : HIx 1) O) : sProp 𝕄)
      ⊢ iprop((iprop(((outW).view.loc (thr d L) ↦[(blk1 L t).view.set]{fullShare} wr1 d L t fo fs)
                ∗ ((s9W).view.loc (thr d L) ↦{fullShare} fs)
                ∗ semVal (thr d L, SemLoc.dma cc1_scratch13.sem) 0
                ∗ owes (thr d L) O (insert (SemLoc.dma cc1_scratch13.sem, (none : HIx 1)) W))
                -∗ wp frame (wpE (defs₀ (F := F)) 𝒱₀ (thr d L) none) Set.univ (k ⟨⟩) Q)
          -∗ wp frame (wpE (defs₀ (F := F)) 𝒱₀ (thr d L) none) Set.univ
              (.op (.waitDma2 cc1_scratch13.sem s9W dstw hsrc hdst) k) Q) := by
  iintro ⟨Hf, HO, #Hmw⟩ Hk
  unfold CopyFlight1
  iapply (Transfers.wp_waitLocalO countersEmb 𝒱₀ (thr d L) none (none : HIx 1) hcr) $$ [Hf HO]
  · isplitl [Hf]; · iexact Hf
    isplitl [HO]; · iexact HO
    iapply (Transfers.MayWaits.elim (SemLoc.dma cc1_scratch13.sem)) $$ Hmw
  iintro ⟨⟨Hd, Hs⟩, Hv, HO⟩
  iapply Hk
  isplitl [Hd]; · iexact Hd
  isplitl [Hs]
  · rw [(Memref.isWhole_whole _).set_eq_univ (m := s9W)]; iexact Hs
  isplitl [Hv] <;> iassumption

/-- The block rejoined with the rest it was carved from: off the block the written contents are the old ones. -/
theorem copyout_join1 (t : Fin k1_t1_loop.trips) (fo : Buf (Elt F) ((outW).view.loc (thr d L)))
    (fs : Buf (Elt F) ((s9W).view.loc (thr d L))) (Sd : Finset (Idx ((outW).view.loc (thr d L))))
    (hSd : (blk1 L t).view.set ⊆ Sd) :
    (iprop(((outW).view.loc (thr d L) ↦[(blk1 L t).view.set]{fullShare} wr1 d L t fo fs)
        ∗ ((outW).view.loc (thr d L) ↦[Sd \ (blk1 L t).view.set]{fullShare} fo)) : sProp 𝕄)
      ⊢ ((outW).view.loc (thr d L) ↦[Sd]{fullShare} wr1 d L t fo fs) := by
  iintro ⟨Hd, Hrest⟩
  iapply (pointsTo_split_subset hSd).2
  isplitl [Hd]; · iexact Hd
  iapply (Entails.of_eq (pointsTo_rest_write (v := (blk1 L t).view) (S := Sd) (thr d L) fo ((s9W).view.read (Elt F) fs))) $$ Hrest

/-! ## The out side of the outer loop's invariant, as the symbolic run leaves and takes it

The run issues a copy-out from the subcore's region held under its rectangle: it lends the block's window into the
flight, keeps the region LESS the window at the written contents, and lends the scratch whole (its rest is empty). -/

/-- Slot 0's copy-out of trip `t` outstanding: the flight on slot 0's copy-out semaphore delivering the block's window
    written with the scratch's words `g` over `fo`, and the scratch's own elements at `g`; beside it the scratch's
    (empty) rest. -/
def OFlight0 (t : Fin k1_t1_loop.trips) (fo : Buf (Elt F) ((outW).view.loc (thr d L)))
    (g : Buf (Elt F) ((s8W).view.loc (thr d L))) : sProp 𝕄 :=
  iprop(Transfers.Flight countersEmb (thr d L) (SemLoc.dma cc1_scratch12.sem) default 262144
      iprop(((outW).view.loc (thr d L) ↦[(blk0 L t).view.set]{fullShare} wr0 d L t fo g)
        ∗ ((s8W).view.loc (thr d L) ↦[(s8W).view.set]{fullShare} g))
    ∗ ((s8W).view.loc (thr d L) ↦[Finset.univ \ (s8W).view.set]{fullShare} g))

/-- Slot 1's copy-out of trip `t` outstanding, likewise. -/
def OFlight1 (t : Fin k1_t1_loop.trips) (fo : Buf (Elt F) ((outW).view.loc (thr d L)))
    (g : Buf (Elt F) ((s9W).view.loc (thr d L))) : sProp 𝕄 :=
  iprop(Transfers.Flight countersEmb (thr d L) (SemLoc.dma cc1_scratch13.sem) default 262144
      iprop(((outW).view.loc (thr d L) ↦[(blk1 L t).view.set]{fullShare} wr1 d L t fo g)
        ∗ ((s9W).view.loc (thr d L) ↦[(s9W).view.set]{fullShare} g))
    ∗ ((s9W).view.loc (thr d L) ↦[Finset.univ \ (s9W).view.set]{fullShare} g))

/-- The elements `S` of the flat result the subcore holds, at contents `f`. -/
def ORest (S : Finset S27262976.Idx) (f : Buf (Elt F) ((outW).view.loc (thr d L))) : sProp 𝕄 :=
  (outW).view.loc (thr d L) ↦[S]{fullShare} f

/-! ## Between the run's hypotheses and the invariant's -/

/-- What the run holds after slot 0's enqueue — the flight, the scratch's empty rest, the region less the window,
    both at the contents `f'` the run names — is the invariant's, once `f'` is read as the block written (`rfl` at the
    run's own name for it). -/
theorem oflight0_of_run (t : Fin k1_t1_loop.trips) (fo : Buf (Elt F) ((outW).view.loc (thr d L)))
    (g : Buf (Elt F) ((s8W).view.loc (thr d L))) (S : Finset S27262976.Idx) (f' : Buf (Elt F) ((outW).view.loc (thr d L)))
    (hf' : f' = wr0 d L t fo g) :
    (iprop(Transfers.Flight countersEmb (thr d L) (SemLoc.dma cc1_scratch12.sem) default 262144
          iprop(((outW).view.loc (thr d L) ↦[(blk0 L t).view.set]{fullShare} f')
            ∗ ((s8W).view.loc (thr d L) ↦[(s8W).view.set]{fullShare} g))
        ∗ ((s8W).view.loc (thr d L) ↦[Finset.univ \ (s8W).view.set]{fullShare} g)
        ∗ ((outW).view.loc (thr d L) ↦[S \ (blk0 L t).view.set]{fullShare} f')) : sProp 𝕄)
      ⊢ iprop(OFlight0 d L t fo g ∗ ORest d L (S \ (blk0 L t).view.set) (wr0 d L t fo g)) := by
  subst hf'
  unfold OFlight0 ORest
  iintro ⟨Hf, Hr, Ho⟩
  isplitl [Hf Hr]
  · isplitl [Hf] <;> iassumption
  · iexact Ho

/-- The invariant's flight laid out as the run's wait reads it: the flight on the semaphore and the scratch's rest. -/
theorem oflight0_to_run (t : Fin k1_t1_loop.trips) (fo : Buf (Elt F) ((outW).view.loc (thr d L)))
    (g : Buf (Elt F) ((s8W).view.loc (thr d L))) :
    (OFlight0 d L t fo g : sProp 𝕄)
      ⊢ iprop(Transfers.Flight countersEmb (thr d L) (SemLoc.dma cc1_scratch12.sem) default 262144
          iprop(((outW).view.loc (thr d L) ↦[(blk0 L t).view.set]{fullShare} wr0 d L t fo g)
            ∗ ((s8W).view.loc (thr d L) ↦[(s8W).view.set]{fullShare} g))
        ∗ ((s8W).view.loc (thr d L) ↦[Finset.univ \ (s8W).view.set]{fullShare} g)) := by
  unfold OFlight0; exact Entails.rfl

/-- What the run holds after slot 1's enqueue — the flight, the scratch's empty rest, the region less the window,
    both at the contents `f'` the run names — is the invariant's, once `f'` is read as the block written (`rfl` at the
    run's own name for it). -/
theorem oflight1_of_run (t : Fin k1_t1_loop.trips) (fo : Buf (Elt F) ((outW).view.loc (thr d L)))
    (g : Buf (Elt F) ((s9W).view.loc (thr d L))) (S : Finset S27262976.Idx) (f' : Buf (Elt F) ((outW).view.loc (thr d L)))
    (hf' : f' = wr1 d L t fo g) :
    (iprop(Transfers.Flight countersEmb (thr d L) (SemLoc.dma cc1_scratch13.sem) default 262144
          iprop(((outW).view.loc (thr d L) ↦[(blk1 L t).view.set]{fullShare} f')
            ∗ ((s9W).view.loc (thr d L) ↦[(s9W).view.set]{fullShare} g))
        ∗ ((s9W).view.loc (thr d L) ↦[Finset.univ \ (s9W).view.set]{fullShare} g)
        ∗ ((outW).view.loc (thr d L) ↦[S \ (blk1 L t).view.set]{fullShare} f')) : sProp 𝕄)
      ⊢ iprop(OFlight1 d L t fo g ∗ ORest d L (S \ (blk1 L t).view.set) (wr1 d L t fo g)) := by
  subst hf'
  unfold OFlight1 ORest
  iintro ⟨Hf, Hr, Ho⟩
  isplitl [Hf Hr]
  · isplitl [Hf] <;> iassumption
  · iexact Ho

/-- The invariant's flight laid out as the run's wait reads it: the flight on the semaphore and the scratch's rest. -/
theorem oflight1_to_run (t : Fin k1_t1_loop.trips) (fo : Buf (Elt F) ((outW).view.loc (thr d L)))
    (g : Buf (Elt F) ((s9W).view.loc (thr d L))) :
    (OFlight1 d L t fo g : sProp 𝕄)
      ⊢ iprop(Transfers.Flight countersEmb (thr d L) (SemLoc.dma cc1_scratch13.sem) default 262144
          iprop(((outW).view.loc (thr d L) ↦[(blk1 L t).view.set]{fullShare} wr1 d L t fo g)
            ∗ ((s9W).view.loc (thr d L) ↦[(s9W).view.set]{fullShare} g))
        ∗ ((s9W).view.loc (thr d L) ↦[Finset.univ \ (s9W).view.set]{fullShare} g)) := by
  unfold OFlight1; exact Entails.rfl

/-- Both of trip `t`'s copy-outs outstanding, slot 0's issued first: what the run holds — the two flights, the two
    scratches' empty rests, the region less both windows — is the invariant's two flights and rest, the second flight
    over the contents the first leaves. -/
theorem oflights_of_run (t : Fin k1_t1_loop.trips) (fo : Buf (Elt F) ((outW).view.loc (thr d L)))
    (g0 : Buf (Elt F) ((s8W).view.loc (thr d L))) (g1 : Buf (Elt F) ((s9W).view.loc (thr d L))) (S : Finset S27262976.Idx)
    (f0' f1' : Buf (Elt F) ((outW).view.loc (thr d L))) (hf0' : f0' = wr0 d L t fo g0) (hf1' : f1' = wr1 d L t (wr0 d L t fo g0) g1) :
    (iprop(Transfers.Flight countersEmb (thr d L) (SemLoc.dma cc1_scratch12.sem) default 262144
          iprop(((outW).view.loc (thr d L) ↦[(blk0 L t).view.set]{fullShare} f0')
            ∗ ((s8W).view.loc (thr d L) ↦[(s8W).view.set]{fullShare} g0))
        ∗ ((s8W).view.loc (thr d L) ↦[Finset.univ \ (s8W).view.set]{fullShare} g0)
        ∗ Transfers.Flight countersEmb (thr d L) (SemLoc.dma cc1_scratch13.sem) default 262144
          iprop(((outW).view.loc (thr d L) ↦[(blk1 L t).view.set]{fullShare} f1')
            ∗ ((s9W).view.loc (thr d L) ↦[(s9W).view.set]{fullShare} g1))
        ∗ ((s9W).view.loc (thr d L) ↦[Finset.univ \ (s9W).view.set]{fullShare} g1)
        ∗ ((outW).view.loc (thr d L) ↦[(S \ (blk0 L t).view.set) \ (blk1 L t).view.set]{fullShare} f1')) : sProp 𝕄)
      ⊢ iprop(OFlight0 d L t fo g0 ∗ OFlight1 d L t (wr0 d L t fo g0) g1
          ∗ ORest d L ((S \ (blk0 L t).view.set) \ (blk1 L t).view.set) (wr1 d L t (wr0 d L t fo g0) g1)) := by
  subst hf0' hf1'
  unfold OFlight0 OFlight1 ORest
  iintro ⟨Hf0, Hr0, Hf1, Hr1, Ho⟩
  isplitl [Hf0 Hr0]
  · isplitl [Hf0] <;> iassumption
  isplitl [Hf1 Hr1]
  · isplitl [Hf1] <;> iassumption
  · iexact Ho

/-! ## The contents, block by block

Trip `t` copies slot 0's scratch into block `2 t` and slot 1's into block `2 t + 1`: after both the region holds
`wr1 t (wr0 t fo g₀) g₁`. A block written with its own words holds the kernel's words whatever it held; the others keep
what they held. -/

omit [FloatOps F] [Named F] in
/-- The kernel's offset for the half-step `(t, r)` is the subcore's block `2 t + r`. -/
theorem off5_at (L : grid1.Coords) (t : Fin k1_t1_loop.trips) (r : Fin 2) :
    (k1_off5 L t (BitVec.ofNat 32 r.val)) 0 = 851968 * wid L + 8192 * (2 * t.val + r.val) := by
  have hk : (k1_off5 L t (BitVec.ofNat 32 r.val)) 0 = 1703936 * (L 1).val + 851968 * (L 0).val + 16384 * t.val + 8192 * r.val :=
    congrFun (k1_off5_eq L t r) 0
  rw [hk]; unfold wid; omega

omit [Named F] in
/-- Slot 0's copy-out of trip `t` makes block `2 t` hold the kernel's words when the scratch held that block's words. -/
theorem blockOK_wr0 (fi : IVec S425984 32) (fp : Vec F S10000x128 .f32) (fc : Vec F S3304 .f32) (t : Fin k1_t1_loop.trips)
    (fo : Buf (Elt F) ((outW).view.loc (thr d L))) (g : Buf (Elt F) ((s8W).view.loc (thr d L)))
    (hg : (g : Vec F S8192 .f32) = OUTS fi fp fc (wid L) (2 * t.val + 0)) :
    BlockOK fi fp fc (wid L) (2 * t.val + 0) (wr0 d L t fo g) := by
  have ht : t.val < 52 := Nat.lt_of_lt_of_le t.isLt k1_t1_abs.2.1
  exact blockOK_write fi fp fc (wid L) (2 * t.val + 0) (wid_lt L) (by omega) (k1_off5 L t 0#32) (k1_off5_inb L t 0)
    (off5_at L t 0) fo g hg

omit [Named F] in
/-- and leaves every other block of the subcore as it was. -/
theorem blockOK_wr0_other (fi : IVec S425984 32) (fp : Vec F S10000x128 .f32) (fc : Vec F S3304 .f32) (t : Fin k1_t1_loop.trips)
    (fo : Buf (Elt F) ((outW).view.loc (thr d L))) (g : Buf (Elt F) ((s8W).view.loc (thr d L)))
    (b' : ℕ) (hb' : b' < 104) (hne : b' ≠ 2 * t.val + 0) (h : BlockOK fi fp fc (wid L) b' fo) :
    BlockOK fi fp fc (wid L) b' (wr0 d L t fo g) := by
  have ht : t.val < 52 := Nat.lt_of_lt_of_le t.isLt k1_t1_abs.2.1
  exact blockOK_write_other fi fp fc (wid L) (2 * t.val + 0) b' (wid_lt L) (by omega) hb' hne (k1_off5 L t 0#32)
    (k1_off5_inb L t 0) (off5_at L t 0) fo g h

omit [Named F] in
/-- Slot 1's copy-out of trip `t` makes block `2 t + 1` hold the kernel's words when the scratch held that block's words. -/
theorem blockOK_wr1 (fi : IVec S425984 32) (fp : Vec F S10000x128 .f32) (fc : Vec F S3304 .f32) (t : Fin k1_t1_loop.trips)
    (fo : Buf (Elt F) ((outW).view.loc (thr d L))) (g : Buf (Elt F) ((s9W).view.loc (thr d L)))
    (hg : (g : Vec F S8192 .f32) = OUTS fi fp fc (wid L) (2 * t.val + 1)) :
    BlockOK fi fp fc (wid L) (2 * t.val + 1) (wr1 d L t fo g) := by
  have ht : t.val < 52 := Nat.lt_of_lt_of_le t.isLt k1_t1_abs.2.1
  exact blockOK_write fi fp fc (wid L) (2 * t.val + 1) (wid_lt L) (by omega) (k1_off5 L t 1#32) (k1_off5_inb L t 1)
    (off5_at L t 1) fo g hg

omit [Named F] in
/-- and leaves every other block of the subcore as it was. -/
theorem blockOK_wr1_other (fi : IVec S425984 32) (fp : Vec F S10000x128 .f32) (fc : Vec F S3304 .f32) (t : Fin k1_t1_loop.trips)
    (fo : Buf (Elt F) ((outW).view.loc (thr d L))) (g : Buf (Elt F) ((s9W).view.loc (thr d L)))
    (b' : ℕ) (hb' : b' < 104) (hne : b' ≠ 2 * t.val + 1) (h : BlockOK fi fp fc (wid L) b' fo) :
    BlockOK fi fp fc (wid L) b' (wr1 d L t fo g) := by
  have ht : t.val < 52 := Nat.lt_of_lt_of_le t.isLt k1_t1_abs.2.1
  exact blockOK_write_other fi fp fc (wid L) (2 * t.val + 1) b' (wid_lt L) (by omega) hb' hne (k1_off5 L t 1#32)
    (k1_off5_inb L t 1) (off5_at L t 1) fo g h

omit [Named F] in
/-- One outer trip's two copy-outs: the blocks below `2 t` that held the kernel's words still do, and blocks `2 t` and
    `2 t + 1` now do. -/
theorem blockOK_trip (fi : IVec S425984 32) (fp : Vec F S10000x128 .f32) (fc : Vec F S3304 .f32) (t : Fin k1_t1_loop.trips)
    (fo : Buf (Elt F) ((outW).view.loc (thr d L))) (g0 : Buf (Elt F) ((s8W).view.loc (thr d L)))
    (g1 : Buf (Elt F) ((s9W).view.loc (thr d L)))
    (h0 : (g0 : Vec F S8192 .f32) = OUTS fi fp fc (wid L) (2 * t.val + 0))
    (h1 : (g1 : Vec F S8192 .f32) = OUTS fi fp fc (wid L) (2 * t.val + 1))
    (hprev : ∀ b, b < 2 * t.val → BlockOK fi fp fc (wid L) b fo) :
    ∀ b, b < 2 * t.val + 2 → BlockOK fi fp fc (wid L) b (wr1 d L t (wr0 d L t fo g0) g1) := by
  have ht : t.val < 52 := Nat.lt_of_lt_of_le t.isLt k1_t1_abs.2.1
  intro b hb
  by_cases e1 : b = 2 * t.val + 1
  · subst e1; exact blockOK_wr1 d L fi fp fc t _ g1 h1
  · refine blockOK_wr1_other d L fi fp fc t _ g1 b (by omega) e1 ?_
    by_cases e0 : b = 2 * t.val + 0
    · subst e0; exact blockOK_wr0 d L fi fp fc t fo g0 h0
    · exact blockOK_wr0_other d L fi fp fc t fo g0 b (by omega) e0 (hprev b (by omega))

end Cert.Proof.KI

end
-- ==== Proof.TileInv2.lean ====
import proofs.«207215_g13752485282153_cont_week2b_1454_30_alg».proof.Proof.Common
import proofs.«207215_g13752485282153_cont_week2b_1454_30_alg».proof.Proof.TileInv
import proofs.«207215_g13752485282153_cont_week2b_1454_30_alg».proof.Proof.CopyOut

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

/-! The outer loop's invariant of one vector subcore: at the head of trip `n` (block 2 n next on slot 0), slot 0's row
    gather of block 2 n is outstanding (none after the last trip), slot 1's gather side is idle, and — after the first
    trip — each slot's copy-out of the previous trip's block is outstanding; slot 0 writes the even blocks of the
    subcore's words and slot 1 the odd ones, so the two halves are held apart. -/

variable (d : Dev nD) (L : grid1.Coords) (q q0 q1 : PosShare TreeShare)
variable (fi : Buf (Elt F) ((idxW).view.loc (thr d L))) (fp : Buf (Elt F) ((ptW).view.loc (thr d L)))
  (fc : Buf (Elt F) ((ctW).view.loc (thr d L)))
variable (O : CellTallies nD τ sig (HIx 1)) (W : Waits sig (HIx 1))

omit [FloatOps F] [Named F] in
theorem trips52 : k1_t1_loop.trips = 52 := by decide

/-- The trip before loop head `n` (total: reduced modulo 52). -/
def tOf (n : ℕ) : Fin k1_t1_loop.trips := ⟨(n - 1) % 52, by rw [trips52]; exact Nat.mod_lt _ (by decide)⟩

/-- The copy-out side at loop head `n`: the subcore's words of the result at `fo` with blocks 0 … 2 (n − 1) − 1 done;
    nothing outstanding before the first trip; afterwards both slots' copies of the previous trip's two blocks are
    outstanding and the rest of the words is held apart. -/
def OS (n : ℕ) : sProp 𝕄 :=
  iprop(∃ fo : Buf (Elt F) ((outW).view.loc (thr d L)), ⌜∀ b, b < 2 * (n - 1) → BlockOK fi fp fc (wid L) b fo⌝ ∗
    (if n = 0 then
        iprop((∃ f, (s8W).view.loc (thr d L) ↦{fullShare} f) ∗ semVal (thr d L, SemLoc.dma cc1_scratch12.sem) 0
          ∗ (∃ f, (s9W).view.loc (thr d L) ↦{fullShare} f) ∗ semVal (thr d L, SemLoc.dma cc1_scratch13.sem) 0
          ∗ ((outW).view.loc (thr d L) ↦[(outW).view.setOn (oRectC L).set]{fullShare} fo))
      else
        iprop(OFlight0 d L (tOf n) fo (OUTS fi fp fc (wid L) (2 * (tOf n).val + 0))
          ∗ OFlight1 d L (tOf n) (wr0 d L (tOf n) fo (OUTS fi fp fc (wid L) (2 * (tOf n).val + 0))) (OUTS fi fp fc (wid L) (2 * (tOf n).val + 1))
          ∗ ORest d L (((outW).view.setOn (oRectC L).set \ (blk0 L (tOf n)).view.set) \ (blk1 L (tOf n)).view.set)
              (wr1 d L (tOf n) (wr0 d L (tOf n) fo (OUTS fi fp fc (wid L) (2 * (tOf n).val + 0))) (OUTS fi fp fc (wid L) (2 * (tOf n).val + 1))))))

/-- Slot 0's gather side at loop head `n`: block 2 n's rows outstanding and its digit list ready, until the last trip. -/
def GSide0 (n : ℕ) : sProp 𝕄 :=
  if n < 52 then iprop(GFlight0 d L q0 fi fp (2 * n) ∗ D3At0 d L fi (2 * n)) else iprop(GIdle0 d L q0 fp ∗ D3Any0 d L)

/-- The invariant at the head of trip `n`. -/
def Inv (n : ℕ) (_ : PUnit) : sProp 𝕄 :=
  iprop(Base d L q fi fc O ∗ GSide0 d L q0 fi fp n ∗ GIdle1 d L q1 fp ∗ D3Any1 d L
    ∗ OS d L fi fp fc n ∗ Cert.Proof.KI.Owes d L O W)

/-! ## The guards of the outer loop's region, by the trip -/

omit [FloatOps F] [Named F] in
theorem cond1_all : ∀ t : Fin k1_t1_loop.trips, k1_cond1 t = 1#1 := by decide
omit [FloatOps F] [Named F] in
theorem cond2_iff : ∀ t : Fin k1_t1_loop.trips, k1_cond2 t = 1#1 ↔ 1 ≤ t.val := by decide
omit [FloatOps F] [Named F] in
theorem cond4_iff : ∀ t : Fin k1_t1_loop.trips, k1_cond4 t = 1#1 ↔ 1 ≤ t.val := by decide
omit [FloatOps F] [Named F] in
theorem cond3_iff : ∀ t : Fin k1_t1_loop.trips, k1_cond3 t = 1#1 ↔ t.val < 51 := by decide

/-! ## The invariant's sides, by the trip -/

theorem GSide0_lt {n : ℕ} (h : n < 52) : GSide0 d L q0 fi fp n = iprop(GFlight0 d L q0 fi fp (2 * n) ∗ D3At0 d L fi (2 * n)) := by
  unfold GSide0; rw [if_pos h]
theorem GSide0_ge {n : ℕ} (h : ¬ n < 52) : GSide0 d L q0 fi fp n = iprop(GIdle0 d L q0 fp ∗ D3Any0 d L) := by
  unfold GSide0; rw [if_neg h]

theorem OS_zero : OS d L fi fp fc 0 =
    iprop(∃ fo : Buf (Elt F) ((outW).view.loc (thr d L)), ⌜∀ b, b < 2 * (0 - 1) → BlockOK fi fp fc (wid L) b fo⌝ ∗
      iprop((∃ f, (s8W).view.loc (thr d L) ↦{fullShare} f) ∗ semVal (thr d L, SemLoc.dma cc1_scratch12.sem) 0
        ∗ (∃ f, (s9W).view.loc (thr d L) ↦{fullShare} f) ∗ semVal (thr d L, SemLoc.dma cc1_scratch13.sem) 0
        ∗ ((outW).view.loc (thr d L) ↦[(outW).view.setOn (oRectC L).set]{fullShare} fo))) := by
  unfold OS; simp only [if_pos]

theorem OS_pos {n : ℕ} (h : n ≠ 0) : OS d L fi fp fc n =
    iprop(∃ fo : Buf (Elt F) ((outW).view.loc (thr d L)), ⌜∀ b, b < 2 * (n - 1) → BlockOK fi fp fc (wid L) b fo⌝ ∗
      iprop(OFlight0 d L (tOf n) fo (OUTS fi fp fc (wid L) (2 * (tOf n).val + 0))
        ∗ OFlight1 d L (tOf n) (wr0 d L (tOf n) fo (OUTS fi fp fc (wid L) (2 * (tOf n).val + 0))) (OUTS fi fp fc (wid L) (2 * (tOf n).val + 1))
        ∗ ORest d L (((outW).view.setOn (oRectC L).set \ (blk0 L (tOf n)).view.set) \ (blk1 L (tOf n)).view.set)
            (wr1 d L (tOf n) (wr0 d L (tOf n) fo (OUTS fi fp fc (wid L) (2 * (tOf n).val + 0))) (OUTS fi fp fc (wid L) (2 * (tOf n).val + 1))))) := by
  unfold OS; simp only [if_neg h]

omit [FloatOps F] [Named F] in
theorem tOf_succ (k : Fin k1_t1_loop.trips) : tOf (k.val + 1) = k := by
  apply Fin.ext
  have h : k.val < 52 := trips52 ▸ k.isLt
  show (k.val + 1 - 1) % 52 = k.val
  omega

end Cert.Proof.KI

end
-- ==== Proof.TileData2.lean ====
/-
  The second copy of the prologue: the whole padded third-core table into the table scratch. The two buffers have the
  same shape and element type, so after the copy the scratch holds the table's contents, whatever it held before.
-/
import proofs.«207215_g13752485282153_cont_week2b_1454_30_alg».proof.Proof.Common
import Idealize.ShloMosaic.Lib.Writes

noncomputable section

namespace Cert.Proof.KI

open Cert.KernelIdeal Cert.KernelIdeal.Gen
open Idealize.ShloMosaic

variable {F : FTy → Type} [FloatOps F] [Named F]

/-- The table copy's payload is the table's contents. -/
theorem dma1_read (fc : Vec F S3304 .f32) :
    (ReadAs.same : ReadAs (Elt F) S3304 .f32 S3304 .f32).apply ((ctW).view.read (Elt F) fc) = fc := rfl

/-- After the table copy the table scratch holds the table's contents, whatever it held before. -/
theorem dma1_eq (fc : Vec F S3304 .f32) (f1 : Vec F S3304 .f32) :
    View.write (Elt F) (s1W).view f1 ((ReadAs.same : ReadAs (Elt F) S3304 .f32 S3304 .f32).apply ((ctW).view.read (Elt F) fc)) Finset.univ
      = fc :=
  View.write_whole_univ cc1_scratch1 f1 fc

end Cert.Proof.KI

end
-- ==== Proof.OutBlocks2.lean ====
/-
  The subcore's words as two halves, one per slot of the double buffer. Slot 0 copies its out scratch into the even
  blocks (block 2 t at outer trip t), slot 1 into the odd ones (block 2 t + 1). The even blocks and the odd blocks
  are disjoint and together are the subcore's words, so the hold on the words splits into a hold on each half and
  joins back, also when the two halves are held at different contents; if every even block holds the kernel's words in
  the one contents and every odd block in the other, the joined array has the subcore's work done.
-/
import proofs.«207215_g13752485282153_cont_week2b_1454_30_alg».proof.Proof.OutBlocks
import proofs.«207215_g13752485282153_cont_week2b_1454_30_alg».proof.Proof.CopyOut

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F] [Named F]

/-! ## The two halves -/

/-- The even blocks of subcore L's words: what slot 0 fills. -/
def evenSet (L : grid1.Coords) : Finset S27262976.Idx := (Finset.range 52).biUnion fun t => blkSet L (2 * t)

/-- The odd blocks of subcore L's words: what slot 1 fills. -/
def oddSet (L : grid1.Coords) : Finset S27262976.Idx := (Finset.range 52).biUnion fun t => blkSet L (2 * t + 1)

omit [FloatOps F] [Named F] in
theorem mem_evenSet (L : grid1.Coords) (i : S27262976.Idx) : i ∈ evenSet L ↔ ∃ t, t < 52 ∧ i ∈ blkSet L (2 * t) := by
  unfold evenSet
  rw [Finset.mem_biUnion]
  exact ⟨fun ⟨t, ht, h⟩ => ⟨t, Finset.mem_range.mp ht, h⟩, fun ⟨t, ht, h⟩ => ⟨t, Finset.mem_range.mpr ht, h⟩⟩

omit [FloatOps F] [Named F] in
theorem mem_oddSet (L : grid1.Coords) (i : S27262976.Idx) : i ∈ oddSet L ↔ ∃ t, t < 52 ∧ i ∈ blkSet L (2 * t + 1) := by
  unfold oddSet
  rw [Finset.mem_biUnion]
  exact ⟨fun ⟨t, ht, h⟩ => ⟨t, Finset.mem_range.mp ht, h⟩, fun ⟨t, ht, h⟩ => ⟨t, Finset.mem_range.mpr ht, h⟩⟩

omit [FloatOps F] [Named F] in
theorem even_odd_disjoint (L : grid1.Coords) : Disjoint (evenSet L) (oddSet L) := by
  rw [Finset.disjoint_left]
  intro i hi hi'
  obtain ⟨t, ht, h1⟩ := (mem_evenSet L i).mp hi
  obtain ⟨t', ht', h2⟩ := (mem_oddSet L i).mp hi'
  rw [mem_blkSet] at h1 h2
  omega

omit [FloatOps F] [Named F] in
theorem even_union_odd (L : grid1.Coords) : evenSet L ∪ oddSet L = oSet L := by
  ext i
  rw [Finset.mem_union, mem_oSet, mem_evenSet, mem_oddSet]
  constructor
  · rintro (⟨t, ht, h⟩ | ⟨t, ht, h⟩) <;> rw [mem_blkSet] at h <;> omega
  · intro h
    by_cases hb : (((i 0).val - 851968 * wid L) / 8192) % 2 = 0
    · left
      refine ⟨(((i 0).val - 851968 * wid L) / 8192) / 2, by omega, ?_⟩
      rw [mem_blkSet]; omega
    · right
      refine ⟨(((i 0).val - 851968 * wid L) / 8192) / 2, by omega, ?_⟩
      rw [mem_blkSet]; omega

omit [FloatOps F] [Named F] in
theorem blkSet_sub_even (L : grid1.Coords) (t : ℕ) (ht : t < 52) : blkSet L (2 * t) ⊆ evenSet L :=
  fun i hi => (mem_evenSet L i).mpr ⟨t, ht, hi⟩

omit [FloatOps F] [Named F] in
theorem blkSet_sub_odd (L : grid1.Coords) (t : ℕ) (ht : t < 52) : blkSet L (2 * t + 1) ⊆ oddSet L :=
  fun i hi => (mem_oddSet L i).mpr ⟨t, ht, hi⟩

/-! ## The copy-out windows are blocks -/

omit [FloatOps F] [Named F] in
/-- Slot 0's window of outer trip t is block 2 t. -/
theorem blk0_set (L : grid1.Coords) (t : Fin k1_t1_loop.trips) : (blk0 L t).view.set = blkSet L (2 * t.val) :=
  off5_set L t 0 0#32 rfl _

omit [FloatOps F] [Named F] in
/-- Slot 1's window of outer trip t is block 2 t + 1. -/
theorem blk1_set (L : grid1.Coords) (t : Fin k1_t1_loop.trips) : (blk1 L t).view.set = blkSet L (2 * t.val + 1) :=
  off5_set L t 1 1#32 rfl _

omit [FloatOps F] [Named F] in
theorem trip_lt (t : Fin k1_t1_loop.trips) : t.val < 52 := Nat.lt_of_lt_of_le t.isLt k1_t1_abs.2.1

omit [FloatOps F] [Named F] in
theorem blk0_sub_even (L : grid1.Coords) (t : Fin k1_t1_loop.trips) : (blk0 L t).view.set ⊆ evenSet L := by
  rw [blk0_set]; exact blkSet_sub_even L t.val (trip_lt t)

omit [FloatOps F] [Named F] in
theorem blk1_sub_odd (L : grid1.Coords) (t : Fin k1_t1_loop.trips) : (blk1 L t).view.set ⊆ oddSet L := by
  rw [blk1_set]; exact blkSet_sub_odd L t.val (trip_lt t)

/-! ## The hold on the subcore's words, half by half -/

omit [FloatOps F] [Named F] in
/-- Holding the subcore's words is holding its even blocks and its odd blocks. -/
theorem oPts_halves (d : Dev nD) (L : grid1.Coords) (f : Buf (Elt F) ((outW).view.loc (thr d L))) :
    ((outW).view.loc (thr d L) ↦[oSet L]{fullShare} f : sProp 𝕄)
      ⊣⊢ iprop(((outW).view.loc (thr d L) ↦[evenSet L]{fullShare} f) ∗ ((outW).view.loc (thr d L) ↦[oddSet L]{fullShare} f)) := by
  rw [← even_union_odd]
  exact pointsTo_union (even_odd_disjoint L)

omit [FloatOps F] [Named F] in
/-- The same at the result array as the TensorCore names it: the two places are one. -/
theorem oPts_halves' (d : Dev nD) (L : grid1.Coords) (f : Buf (Elt F) (outLoc d)) :
    (outLoc d ↦[oSet L]{fullShare} f : sProp 𝕄)
      ⊣⊢ iprop((outLoc d ↦[evenSet L]{fullShare} f) ∗ (outLoc d ↦[oddSet L]{fullShare} f)) :=
  oPts_halves d L f

omit [FloatOps F] [Named F] in
/-- The two halves held at contents of their own join into the subcore's words held at one array that agrees with each
    half's contents on that half. -/
theorem oHalves_join (d : Dev nD) (L : grid1.Coords) (fE fO : Buf (Elt F) ((outW).view.loc (thr d L))) :
    (iprop(((outW).view.loc (thr d L) ↦[evenSet L]{fullShare} fE) ∗ ((outW).view.loc (thr d L) ↦[oddSet L]{fullShare} fO)) : sProp 𝕄)
      ⊢ iprop(∃ g : Buf (Elt F) ((outW).view.loc (thr d L)),
          ⌜(∀ i ∈ evenSet L, g i = fE i) ∧ (∀ i ∈ oddSet L, g i = fO i)⌝ ∗ (outW).view.loc (thr d L) ↦[oSet L]{fullShare} g) := by
  iintro H
  ihave H' := (pointsTo_join (ℓ := (outW).view.loc (thr d L)) (q := fullShare) (f := fE) (g := fO) (even_odd_disjoint L)) $$ H
  rw [even_union_odd]
  iexists ((oddSet L).piecewise fO fE)
  isplitr
  · ipureintro
    refine ⟨fun i hi => ?_, fun i hi => ?_⟩
    · exact Finset.piecewise_eq_of_notMem _ _ _ (fun h => (Finset.disjoint_left.mp (even_odd_disjoint L) hi) h)
    · exact Finset.piecewise_eq_of_mem _ _ _ hi
  · iexact H'

omit [FloatOps F] [Named F] in
theorem oHalves_join' (d : Dev nD) (L : grid1.Coords) (fE fO : Buf (Elt F) (outLoc d)) :
    (iprop((outLoc d ↦[evenSet L]{fullShare} fE) ∗ (outLoc d ↦[oddSet L]{fullShare} fO)) : sProp 𝕄)
      ⊢ iprop(∃ g : Buf (Elt F) (outLoc d),
          ⌜(∀ i ∈ evenSet L, g i = fE i) ∧ (∀ i ∈ oddSet L, g i = fO i)⌝ ∗ outLoc d ↦[oSet L]{fullShare} g) :=
  oHalves_join d L fE fO

/-! ## Both halves done: the subcore's work is done -/

omit [Named F] in
/-- If every even block holds the kernel's words in one array and every odd block in another, an array that agrees
    with the first on the even half and with the second on the odd half has the subcore's work done. -/
theorem outOK_of_halves (fi : IVec S425984 32) (fp : Vec F S10000x128 .f32) (fc : Vec F S3304 .f32) (L : grid1.Coords)
    (fE fO g : Vec F S27262976 .f32) (hE : ∀ t, t < 52 → BlockOK fi fp fc (wid L) (2 * t) fE)
    (hO : ∀ t, t < 52 → BlockOK fi fp fc (wid L) (2 * t + 1) fO)
    (hg : (∀ i ∈ evenSet L, g i = fE i) ∧ (∀ i ∈ oddSet L, g i = fO i)) : TileSpec.OutOK (F := F) fi fp fc (wid L) g := by
  refine outOK_of_blocks fi fp fc (wid L) g fun b hb => ?_
  by_cases hpar : b % 2 = 0
  · have hb2 : b = 2 * (b / 2) := by omega
    have ht : b / 2 < 52 := by omega
    refine blockOK_congr fi fp fc L b hb fE g (fun i hi => hg.1 i ?_) (by rw [hb2]; exact hE _ ht)
    rw [hb2] at hi
    exact blkSet_sub_even L _ ht hi
  · have hb2 : b = 2 * (b / 2) + 1 := by omega
    have ht : b / 2 < 52 := by omega
    refine blockOK_congr fi fp fc L b hb fO g (fun i hi => hg.2 i ?_) (by rw [hb2]; exact hO _ ht)
    rw [hb2] at hi
    exact blkSet_sub_odd L _ ht hi

end Cert.Proof.KI

end
-- ==== Proof.OutBlocks3.lean ====
/-
  The subcore's words under the two spellings of their offset: 851968 w with w = 2 s + c the worker number, and
  1703936 s + 851968 c as the kernel's own offsets come out in closed form. They are the same 851968 words.
-/
import proofs.«207215_g13752485282153_cont_week2b_1454_30_alg».proof.Proof.TileInv
import proofs.«207215_g13752485282153_cont_week2b_1454_30_alg».proof.Proof.OutBlocks2

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F] [Named F]

omit [FloatOps F] [Named F] in
theorem mem_oReg (L : grid1.Coords) (i : S27262976.Idx) :
    i ∈ (outW).view.setOn (oRectC L).set
      ↔ 1703936 * (L 1).val + 851968 * (L 0).val ≤ (i 0).val ∧ (i 0).val < 1703936 * (L 1).val + 851968 * (L 0).val + 851968 := by
  show i ∈ (oRectC L).set.map (Function.Embedding.refl _) ↔ _
  rw [Finset.map_refl, Rect.mem_set_unit]
  exact Fin.forall_fin_one

omit [FloatOps F] [Named F] in
/-- The subcore's words under the worker number's spelling are its words under the kernel's closed-form offset. -/
theorem oSet_eq_oReg (L : grid1.Coords) : oSet L = (outW).view.setOn (oRectC L).set := by
  ext i
  rw [mem_oSet, mem_oReg]
  unfold wid
  omega

omit [FloatOps F] [Named F] in
/-- So holding the one is holding the other. -/
theorem oPts_oReg (d : Dev nD) (L : grid1.Coords) (f : Buf (Elt F) ((outW).view.loc (thr d L))) :
    ((outW).view.loc (thr d L) ↦[oSet L]{fullShare} f : sProp 𝕄)
      = ((outW).view.loc (thr d L) ↦[(outW).view.setOn (oRectC L).set]{fullShare} f) := by
  rw [oSet_eq_oReg]

end Cert.Proof.KI

end
-- ==== Proof.Lanes.lean ====
/-
  The index vectors of the compute loops, lane by lane.

  A compute loop handles sixteen tokens a trip, one a lane. From the lane number l (the iota vector) it forms, before
  the loop, the lane's rotations of the rank axis (l + r) % 8 for r = 0..7, its rotations (l + j) % 4 of the last
  output axis, and l / 8; in trip g the token's place in the block is l + 16 g < 128. Every index the loop gathers
  or scatters at is a sum of such vectors, of the token's third digit (at most 99, read from the slot's digit
  scratch) times 33, and of masked and shifted copies of them:
    the third-core table at 33 i₃ + 4 ((l + r) % 8) + (l + j) % 4 ≤ 99 · 33 + 28 + 3 = 3298 < 3304,
    the gathered rows at (l + 16 g, 8 ((l / 8 + jj) % 16) + (l + r) % 8), both below 128,
    the block's result at 64 (l + 16 g) + 4 ((l / 8 + jj) % 16) + (l + j) % 4 ≤ 64 · 127 + 60 + 3 = 8191 < 8192.
  This module states the closed form of each vector that enters the loops, and proves every index in range from
  them by a calculus of lane bounds that follows the index vector's own construction.
-/
import proofs.«207215_g13752485282153_cont_week2b_1454_30_alg».proof.Proof.Common

noncomputable section

/-! # Lane arithmetic of 32-bit index vectors

What each lane of a sum, a product, a mask or a shift by a constant is as a natural number, and a calculus of lane
bounds — every lane of `v` at most `b` — closed under the operations an index vector is built from. All sums and
products here stay far below 2 ^ 32, so no lane wraps. -/

namespace Cert.Proof.Lane

open Idealize.ShloMosaic

variable {s : Shape}

/-! ## One lane of each operation -/

theorem addi_toNat (u v : IVec s 32) (x : s.Idx) :
    (addi u v x).toNat = ((u x).toNat + (v x).toNat) % 2 ^ 32 := BitVec.toNat_add _ _

theorem muli_toNat (u v : IVec s 32) (x : s.Idx) :
    (muli u v x).toNat = ((u x).toNat * (v x).toNat) % 2 ^ 32 := BitVec.toNat_mul _ _

theorem andi_toNat (u v : IVec s 32) (x : s.Idx) :
    (andi u v x).toNat = (u x).toNat &&& (v x).toNat := BitVec.toNat_and _ _

theorem broadcast_toNat (c : BitVec 32) (x : s.Idx) : ((broadcast s c : IVec s 32) x).toNat = c.toNat := rfl

/-- A mask by `2 ^ k - 1` is the remainder modulo `2 ^ k`. -/
theorem andi_mask_toNat (u : IVec s 32) (c : BitVec 32) (k : ℕ) (hc : c.toNat = 2 ^ k - 1) (x : s.Idx) :
    (andi u (broadcast s c) x).toNat = (u x).toNat % 2 ^ k := by
  rw [andi_toNat, broadcast_toNat, hc, Nat.and_two_pow_sub_one_eq_mod]

/-- A left shift by a constant below the width multiplies by the power of two, modulo `2 ^ 32`. -/
theorem shli_toNat (u : IVec s 32) (c : BitVec 32) (hc : c.toNat < 32) (x : s.Idx) :
    (shli u (broadcast s c) x).toNat = ((u x).toNat * 2 ^ c.toNat) % 2 ^ 32 := by
  show (IntOp.shli .vector (u x) c).toNat = _
  unfold IntOp.shli
  rw [if_pos hc, BitVec.shiftLeft_eq', BitVec.toNat_shiftLeft, Nat.shiftLeft_eq]

/-- An arithmetic right shift of a non-negative lane by a constant below the width divides by the power of two. -/
theorem shrsi_toNat (u : IVec s 32) (c : BitVec 32) (hc : c.toNat < 32) (x : s.Idx) (hu : (u x).toNat < 2 ^ 31) :
    (shrsi u (broadcast s c) x).toNat = (u x).toNat / 2 ^ c.toNat := by
  show (IntOp.shrsi .vector (u x) c).toNat = _
  unfold IntOp.shrsi
  have hm : (u x).msb = false := by
    rw [BitVec.msb_eq_decide]; simp; omega
  rw [if_pos hc, BitVec.sshiftRight_eq', BitVec.sshiftRight_eq_of_msb_false hm, BitVec.toNat_ushiftRight,
    Nat.shiftRight_eq_div_pow]

/-! ## Lane bounds -/

/-- Every lane of `v` is at most `b`. -/
structure Le (v : IVec s 32) (b : ℕ) : Prop where
  le : ∀ x, (v x).toNat ≤ b

theorem Le.mono {v : IVec s 32} {a b : ℕ} (h : Le v a) (hab : a ≤ b) : Le v b := ⟨fun x => Nat.le_trans (h.le x) hab⟩

theorem Le.lt {v : IVec s 32} {b n : ℕ} (h : Le v b) (hb : b < n) : ∀ x, (v x).toNat < n :=
  fun x => Nat.lt_of_le_of_lt (h.le x) hb

theorem Le.of_eq {v : IVec s 32} {g : s.Idx → ℕ} {b : ℕ} (h : ∀ x, (v x).toNat = g x) (hg : ∀ x, g x ≤ b) : Le v b :=
  ⟨fun x => (h x) ▸ hg x⟩

theorem Le.const (c : BitVec 32) : Le (broadcast s c : IVec s 32) c.toNat := ⟨fun _ => Nat.le_refl _⟩

/-- A mask is at most the mask word, whatever is masked. -/
theorem Le.and_right (u : IVec s 32) (c : BitVec 32) : Le (andi u (broadcast s c)) c.toNat := ⟨fun x => by
  rw [andi_toNat, broadcast_toNat]; exact Nat.and_le_right⟩

theorem Le.add {u v : IVec s 32} {a b : ℕ} (hu : Le u a) (hv : Le v b) : Le (addi u v) (a + b) := ⟨fun x => by
  rw [addi_toNat]; exact Nat.le_trans (Nat.mod_le _ _) (Nat.add_le_add (hu.le x) (hv.le x))⟩

theorem Le.mul_const {u : IVec s 32} {a : ℕ} (hu : Le u a) (c : BitVec 32) :
    Le (muli u (broadcast s c)) (a * c.toNat) := ⟨fun x => by
  rw [muli_toNat, broadcast_toNat]; exact Nat.le_trans (Nat.mod_le _ _) (Nat.mul_le_mul_right _ (hu.le x))⟩

theorem Le.shl_const {u : IVec s 32} {a : ℕ} (hu : Le u a) (c : BitVec 32) (hc : c.toNat < 32) :
    Le (shli u (broadcast s c)) (a * 2 ^ c.toNat) := ⟨fun x => by
  rw [shli_toNat u c hc]; exact Nat.le_trans (Nat.mod_le _ _) (Nat.mul_le_mul_right _ (hu.le x))⟩

end Cert.Proof.Lane

/-! # The compute loops' vectors -/

namespace Cert.Proof.KI

open Cert.KernelIdeal Cert.KernelIdeal.Gen
open Idealize.ShloMosaic
open Idealize.ShloMosaic.SparseCore (S V T)
open Idealize.ShloMosaic.SparseCore.Cfg (HIx Pay)
open Cert.Proof.Lane

variable {F : FTy → Type}
variable [FloatOps F] [Named F]

/-! ## The lane number and the vectors made from it -/

/-- The number of lane `x` of a sixteen-lane vector. -/
abbrev ln (x : S16.Idx) : ℕ := (x 0).val

theorem ln_lt (x : S16.Idx) : ln x < 16 := (x 0).isLt

/-- The iota vector holds each lane's number. -/
theorem iota_lane (h : S16.Iotas .scVector 32 [0]) (x : S16.Idx) : (iota .scVector S16 32 [0] h x).toNat = ln x := by
  have hx := ln_lt x
  show (BitVec.ofNat 32 (0 * 16 + ln x)).toNat = ln x
  rw [BitVec.toNat_ofNat]; omega

/-- `v` holds each lane's number. -/
def IsIota (v : IVec S16 32) : Prop := ∀ x, (v x).toNat = ln x

/-- Adding a small constant to the lane numbers. -/
theorem plus_lane {v : IVec S16 32} (hv : IsIota v) (c : BitVec 32) (n : ℕ) (hn : c.toNat = n) (hc : n ≤ 4096) :
    ∀ x, (addi v (broadcast S16 c) x).toNat = ln x + n := by
  intro x; have hx := ln_lt x
  rw [addi_toNat, hv x, broadcast_toNat, hn]; omega

/-- Masking by 7 a vector whose lanes are known: the remainder modulo 8. -/
theorem mask8_lane {v : IVec S16 32} {g : S16.Idx → ℕ} (hv : ∀ x, (v x).toNat = g x) :
    ∀ x, (andi v (broadcast S16 7#32) x).toNat = g x % 8 := by
  intro x; rw [andi_mask_toNat v 7#32 3 rfl, hv x]; rfl

/-- Masking by 3: the remainder modulo 4. -/
theorem mask4_lane {v : IVec S16 32} {g : S16.Idx → ℕ} (hv : ∀ x, (v x).toNat = g x) :
    ∀ x, (andi v (broadcast S16 3#32) x).toNat = g x % 4 := by
  intro x; rw [andi_mask_toNat v 3#32 2 rfl, hv x]; rfl

/-- Masking by 15: the remainder modulo 16. -/
theorem mask16_lane {v : IVec S16 32} {g : S16.Idx → ℕ} (hv : ∀ x, (v x).toNat = g x) :
    ∀ x, (andi v (broadcast S16 15#32) x).toNat = g x % 16 := by
  intro x; rw [andi_mask_toNat v 15#32 4 rfl, hv x]; rfl

/-- The rotation of the rank axis by `n`: `(l + n) % 8`. -/
theorem rot8_lane {v : IVec S16 32} (hv : IsIota v) (c : BitVec 32) (n : ℕ) (hn : c.toNat = n) (hc : n ≤ 4096) :
    ∀ x, (andi (addi v (broadcast S16 c)) (broadcast S16 7#32) x).toNat = (ln x + n) % 8 :=
  mask8_lane (plus_lane hv c n hn hc)

/-- The rotation of the last output axis by `n`: `(l + n) % 4`. -/
theorem rot4_lane {v : IVec S16 32} (hv : IsIota v) (c : BitVec 32) (n : ℕ) (hn : c.toNat = n) (hc : n ≤ 4096) :
    ∀ x, (andi (addi v (broadcast S16 c)) (broadcast S16 3#32) x).toNat = (ln x + n) % 4 :=
  mask4_lane (plus_lane hv c n hn hc)

/-- The lane number's high bit: `l / 8`. -/
theorem shr3_lane {v : IVec S16 32} (hv : IsIota v) : ∀ x, (shrsi v (broadcast S16 3#32) x).toNat = ln x / 8 := by
  intro x; have hx := ln_lt x
  rw [shrsi_toNat v 3#32 (by decide) x (by rw [hv x]; omega), hv x]; rfl

/-- The offset of trip `k`'s tokens in the block, for a loop from 0 by 1: the word `16 k`. -/
theorem trip_off_toNat (k : ℕ) (hk : k < 8) : (Scalar.muli (Scf.iv 0#32 1#32 k) 16#32).toNat = 16 * k := by
  show ((0#32 + BitVec.ofNat 32 k * 1#32) * 16#32).toNat = 16 * k
  rw [BitVec.toNat_mul, BitVec.toNat_add, BitVec.toNat_mul, BitVec.toNat_ofNat]
  show ((0 + k % 2 ^ 32 * 1 % 2 ^ 32) % 2 ^ 32 * 16) % 2 ^ 32 = 16 * k
  omega

/-- The place in its block of the token lane `l` handles in trip `k`: `l + 16 k`. -/
theorem tvec_lane {v : IVec S16 32} (hv : IsIota v) (k : ℕ) (hk : k < 8) :
    ∀ x, (addi v (broadcast S16 (Scalar.muli (Scf.iv 0#32 1#32 k) 16#32)) x).toNat = ln x + 16 * k := by
  intro x; have hx := ln_lt x
  rw [addi_toNat, hv x, broadcast_toNat, trip_off_toNat k hk]; omega

theorem t2_trips : k1_t2_loop.trips = 8 := by decide
theorem t3_trips : k1_t3_loop.trips = 8 := by decide

theorem trip2_lt (k : Fin k1_t2_loop.trips) : k.val < 8 := t2_trips ▸ k.isLt
theorem trip3_lt (k : Fin k1_t3_loop.trips) : k.val < 8 := t3_trips ▸ k.isLt

/-! ## What enters the loops

Each compute loop reads, besides the trip number, vectors made once before it from the iota vector: the lane
number, its high bit, the first rotations of the rank axis, and one sum the loop region masks itself. The other
rotations are made inside the region from the iota vector, the same every trip. -/

/-- The vectors that enter the slot-0 loop: the lane number `l`, `l / 8`, `(l + r) % 8` for `r = 0..4`, and
    `l + 5`. -/
structure LiveIn0 (v117 v119 v123 v127 v131 v135 v139 v141 : IVec S16 32) : Prop where
  io : IsIota v117
  sh : ∀ x, (v119 x).toNat = ln x / 8
  r0 : ∀ x, (v123 x).toNat = (ln x + 0) % 8
  r1 : ∀ x, (v127 x).toNat = (ln x + 1) % 8
  r2 : ∀ x, (v131 x).toNat = (ln x + 2) % 8
  r3 : ∀ x, (v135 x).toNat = (ln x + 3) % 8
  r4 : ∀ x, (v139 x).toNat = (ln x + 4) % 8
  p5 : ∀ x, (v141 x).toNat = ln x + 5

/-- The vectors that enter the slot-1 loop: the lane number `l`, `l / 8`, `(l + r) % 8` for `r = 0..5`, `l + 6`,
    and the mask word 7. -/
structure LiveIn1 (v184 v186 v190 v194 v198 v202 v206 v210 v212 : IVec S16 32) (c7 : BitVec 32) : Prop where
  io : IsIota v184
  sh : ∀ x, (v186 x).toNat = ln x / 8
  r0 : ∀ x, (v190 x).toNat = (ln x + 0) % 8
  r1 : ∀ x, (v194 x).toNat = (ln x + 1) % 8
  r2 : ∀ x, (v198 x).toNat = (ln x + 2) % 8
  r3 : ∀ x, (v202 x).toNat = (ln x + 3) % 8
  r4 : ∀ x, (v206 x).toNat = (ln x + 4) % 8
  r5 : ∀ x, (v210 x).toNat = (ln x + 5) % 8
  p6 : ∀ x, (v212 x).toNat = ln x + 6
  c7 : c7 = 7#32

/-- The vectors the kernel makes before the slot-0 loop are these. -/
theorem liveIn0 (h : S16.Iotas .scVector 32 [0]) :
    LiveIn0 (iota .scVector S16 32 [0] h) k1_pay393 k1_pay394 k1_pay395 k1_pay396 k1_pay397 k1_pay398 k1_pay399 where
  io := iota_lane h
  sh := shr3_lane (iota_lane _)
  r0 := rot8_lane (iota_lane _) 0#32 0 rfl (by decide)
  r1 := rot8_lane (iota_lane _) 1#32 1 rfl (by decide)
  r2 := rot8_lane (iota_lane _) 2#32 2 rfl (by decide)
  r3 := rot8_lane (iota_lane _) 3#32 3 rfl (by decide)
  r4 := rot8_lane (iota_lane _) 4#32 4 rfl (by decide)
  p5 := plus_lane (iota_lane _) 5#32 5 rfl (by decide)

/-- The vectors the kernel makes before the slot-1 loop are these. -/
theorem liveIn1 (h : S16.Iotas .scVector 32 [0]) :
    LiveIn1 (iota .scVector S16 32 [0] h) k1_pay411 k1_pay412 k1_pay413 k1_pay414 k1_pay415 k1_pay416 k1_pay417 k1_pay418
      7#32 where
  io := iota_lane h
  sh := shr3_lane (iota_lane _)
  r0 := rot8_lane (iota_lane _) 0#32 0 rfl (by decide)
  r1 := rot8_lane (iota_lane _) 1#32 1 rfl (by decide)
  r2 := rot8_lane (iota_lane _) 2#32 2 rfl (by decide)
  r3 := rot8_lane (iota_lane _) 3#32 3 rfl (by decide)
  r4 := rot8_lane (iota_lane _) 4#32 4 rfl (by decide)
  r5 := rot8_lane (iota_lane _) 5#32 5 rfl (by decide)
  p6 := plus_lane (iota_lane _) 6#32 6 rfl (by decide)
  c7 := rfl

section InLoop0

variable {v117 v119 v123 v127 v131 v135 v139 v141 : IVec S16 32}

/-- The rotations the slot-0 region makes itself, and its tokens' places. -/
theorem LiveIn0.r5 (h : LiveIn0 v117 v119 v123 v127 v131 v135 v139 v141) :
    ∀ x, (k1_pay400 v141 x).toNat = (ln x + 5) % 8 := mask8_lane h.p5
theorem LiveIn0.r6 (h : LiveIn0 v117 v119 v123 v127 v131 v135 v139 v141) :
    ∀ x, (k1_pay401 v117 x).toNat = (ln x + 6) % 8 := rot8_lane h.io 6#32 6 rfl (by decide)
theorem LiveIn0.r7 (h : LiveIn0 v117 v119 v123 v127 v131 v135 v139 v141) :
    ∀ x, (k1_pay402 v117 x).toNat = (ln x + 7) % 8 := rot8_lane h.io 7#32 7 rfl (by decide)
theorem LiveIn0.j0 (h : LiveIn0 v117 v119 v123 v127 v131 v135 v139 v141) :
    ∀ x, (k1_pay403 v117 x).toNat = (ln x + 0) % 4 := rot4_lane h.io 0#32 0 rfl (by decide)
theorem LiveIn0.j1 (h : LiveIn0 v117 v119 v123 v127 v131 v135 v139 v141) :
    ∀ x, (k1_pay404 v117 x).toNat = (ln x + 1) % 4 := rot4_lane h.io 1#32 1 rfl (by decide)
theorem LiveIn0.j2 (h : LiveIn0 v117 v119 v123 v127 v131 v135 v139 v141) :
    ∀ x, (k1_pay405 v117 x).toNat = (ln x + 2) % 4 := rot4_lane h.io 2#32 2 rfl (by decide)
theorem LiveIn0.j3 (h : LiveIn0 v117 v119 v123 v127 v131 v135 v139 v141) :
    ∀ x, (k1_pay406 v117 x).toNat = (ln x + 3) % 4 := rot4_lane h.io 3#32 3 rfl (by decide)
theorem LiveIn0.tvec (h : LiveIn0 v117 v119 v123 v127 v131 v135 v139 v141) (k : Fin k1_t2_loop.trips) :
    ∀ x, (k1_pay25 v117 0#32 1#32 k x).toNat = ln x + 16 * k.val := tvec_lane h.io k (trip2_lt k)

end InLoop0

section InLoop1

variable {v184 v186 v190 v194 v198 v202 v206 v210 v212 : IVec S16 32} {c7 : BitVec 32}

/-- The rotations the slot-1 region makes itself, and its tokens' places. -/
theorem LiveIn1.r6 (h : LiveIn1 v184 v186 v190 v194 v198 v202 v206 v210 v212 c7) :
    ∀ x, (k1_pay1 v212 c7 x).toNat = (ln x + 6) % 8 := by
  have e : k1_pay1 v212 c7 = andi v212 (broadcast S16 7#32) := by rw [h.c7]; rfl
  rw [e]; exact mask8_lane h.p6
theorem LiveIn1.r7 (h : LiveIn1 v184 v186 v190 v194 v198 v202 v206 v210 v212 c7) :
    ∀ x, (k1_pay2 v184 x).toNat = (ln x + 7) % 8 := rot8_lane h.io 7#32 7 rfl (by decide)
theorem LiveIn1.j0 (h : LiveIn1 v184 v186 v190 v194 v198 v202 v206 v210 v212 c7) :
    ∀ x, (k1_pay3 v184 x).toNat = (ln x + 0) % 4 := rot4_lane h.io 0#32 0 rfl (by decide)
theorem LiveIn1.j1 (h : LiveIn1 v184 v186 v190 v194 v198 v202 v206 v210 v212 c7) :
    ∀ x, (k1_pay4 v184 x).toNat = (ln x + 1) % 4 := rot4_lane h.io 1#32 1 rfl (by decide)
theorem LiveIn1.j2 (h : LiveIn1 v184 v186 v190 v194 v198 v202 v206 v210 v212 c7) :
    ∀ x, (k1_pay5 v184 x).toNat = (ln x + 2) % 4 := rot4_lane h.io 2#32 2 rfl (by decide)
theorem LiveIn1.j3 (h : LiveIn1 v184 v186 v190 v194 v198 v202 v206 v210 v212 c7) :
    ∀ x, (k1_pay6 v184 x).toNat = (ln x + 3) % 4 := rot4_lane h.io 3#32 3 rfl (by decide)
theorem LiveIn1.tvec (h : LiveIn1 v184 v186 v190 v194 v198 v202 v206 v210 v212 c7) (k : Fin k1_t3_loop.trips) :
    ∀ x, (k1_pay216 v184 0#32 1#32 k x).toNat = ln x + 16 * k.val := tvec_lane h.io k (trip3_lt k)

end InLoop1

/-! ## Bounds from the closed forms -/

theorem le_of_iota {v : IVec S16 32} (h : IsIota v) : Le v 15 :=
  Le.of_eq h fun x => by have := ln_lt x; omega

theorem le_of_rot8 {v : IVec S16 32} {n : ℕ} (h : ∀ x, (v x).toNat = (ln x + n) % 8) : Le v 7 :=
  Le.of_eq h fun x => by omega

theorem le_of_rot4 {v : IVec S16 32} {n : ℕ} (h : ∀ x, (v x).toNat = (ln x + n) % 4) : Le v 3 :=
  Le.of_eq h fun x => by omega

/-- The slot-1 loop's mask word, carried into the loop as a value, is 7: a mask by it is at most 7. -/
theorem le_mask_c7 {v184 v186 v190 v194 v198 v202 v206 v210 v212 : IVec S16 32} {c7 : BitVec 32}
    (h : LiveIn1 v184 v186 v190 v194 v198 v202 v206 v210 v212 c7) (u : IVec S16 32) :
    Le (andi u (broadcast S16 c7)) 7 := by
  rw [h.c7]; exact Le.and_right u 7#32

/-- The offset of trip `k`'s tokens, `16 k`, is at most 112. -/
theorem le_trip_off (k : ℕ) (hk : k < 8) :
    Le (broadcast S16 (Scalar.muli (Scf.iv 0#32 1#32 k) 16#32) : IVec S16 32) 112 := ⟨fun x => by
  rw [broadcast_toNat, trip_off_toNat k hk]; omega⟩

/-- The words a slot's digit scratch holds are digits: each at most 99. -/
structure I3OK (v : IVec S128 32) : Prop where
  le : ∀ j, (v j).toNat ≤ 99

theorem i3_read_le0 (d : Dev nD) (L : grid1.Coords) (f : Buf (Elt F) ((s4W).view.loc (thr d L))) (h : I3OK f)
    (r : LoadRect S128) : Le ((s4W).view.readAt (Elt F) r f) 99 := ⟨fun _ => h.le _⟩

theorem i3_read_le1 (d : Dev nD) (L : grid1.Coords) (f : Buf (Elt F) ((s5W).view.loc (thr d L))) (h : I3OK f)
    (r : LoadRect S128) : Le ((s5W).view.readAt (Elt F) r f) 99 := ⟨fun _ => h.le _⟩

/-! ## The three kinds of check -/

/-- A gather from the third-core table: its one index vector below 3304. -/
theorem chk_ct {v : IVec S16 32} {b : ℕ} (h : Le v b) (hb : b < 3304) :
    ∀ a x, ((![v] : Fin 1 → IVec S16 32) a x).toNat < S3304.size a := by
  intro a x
  have ha : a = 0 := Subsingleton.elim _ _
  subst ha
  exact h.lt hb x

/-- A scatter into the block's result: its one index vector below 8192. -/
theorem chk_out {v : IVec S16 32} {b : ℕ} (h : Le v b) (hb : b < 8192) :
    ∀ a x, ((![v] : Fin 1 → IVec S16 32) a x).toNat < S8192.size a := by
  intro a x
  have ha : a = 0 := Subsingleton.elim _ _
  subst ha
  exact h.lt hb x

/-- A gather from the gathered rows: row and column both below 128. -/
theorem chk_rows {u v : IVec S16 32} {a b : ℕ} (hu : Le u a) (hv : Le v b) (ha : a < 128) (hb : b < 128) :
    ∀ i x, ((![u, v] : Fin 2 → IVec S16 32) i x).toNat < S128x128.size i := by
  intro i x
  match i with
  | ⟨0, _⟩ => exact hu.lt ha x
  | ⟨1, _⟩ => exact hv.lt hb x

/-! ## The bound of an index vector, read off its construction

`lane_le` proves `Le v ?b` for an index vector `v` of the compute loops and finds the bound `?b` on the way: it
lays `v` open to its last operation and follows it — a sum adds its operands' bounds, a product or a left shift
by a constant scales one, a mask is bounded by its mask word whatever it masks, a trip's offset by 112, a read of
the digit scratch by 99 —, and at a vector that entered the loop uses what is known of it (a `LiveIn0` / `LiveIn1`
or a closed form among the hypotheses). `lane_chk` closes a printed range check with it. -/

open Lean Meta Elab Tactic in
/-- On a goal `Le v b`: unfold definitions at the head of `v` until it is an operation on vectors, a read of a
    buffer, or a variable. -/
elab "lane_open" : tactic => withMainContext do
  let g ← getMainGoal
  let tgt := (← instantiateMVars (← g.getType)).consumeMData
  unless tgt.isAppOfArity ``Cert.Proof.Lane.Le 3 do throwError "lane_open: the goal is not a lane bound"
  let ops : List Name := [``addi, ``muli, ``andi, ``shli, ``shrsi, ``broadcast, ``iota, ``View.readAt]
  let mut v ← whnfCore (tgt.getArg! 1)
  for _ in [0:64] do
    match v.getAppFn with
    | .const n _ =>
      if ops.contains n then break
      match ← unfoldDefinition? v with
      | some v' => v ← whnfCore v'
      | none => break
    | _ => break
  let tgt' := mkAppN tgt.getAppFn (tgt.getAppArgs.set! 1 v)
  replaceMainGoal [← g.replaceTargetDefEq tgt']

open Lean Meta Elab Tactic in
/-- On a goal `Le v b`: succeed if `v` is an application of the named constant. -/
elab "lane_is " n:ident : tactic => withMainContext do
  let g ← getMainGoal
  let tgt := (← instantiateMVars (← g.getType)).consumeMData
  unless tgt.isAppOfArity ``Cert.Proof.Lane.Le 3 do throwError "lane_is: the goal is not a lane bound"
  let c ← realizeGlobalConstNoOverloadWithInfo n
  unless (tgt.getArg! 1).getAppFn.isConstOf c do throwError "lane_is: another operation"

open Lean Meta Elab Tactic in
/-- On a goal `Le (broadcast s c) b`: succeed if the word `c` is a product (a trip's offset, not a literal). -/
elab "lane_bc_prod" : tactic => withMainContext do
  let g ← getMainGoal
  let tgt := (← instantiateMVars (← g.getType)).consumeMData
  unless tgt.isAppOfArity ``Cert.Proof.Lane.Le 3 do throwError "lane_bc_prod: the goal is not a lane bound"
  let v := tgt.getArg! 1
  unless v.getAppFn.isConstOf ``broadcast && v.getAppNumArgs ≥ 2 do throwError "lane_bc_prod: not a broadcast"
  let c ← whnfCore v.appArg!
  unless c.getAppFn.isConstOf ``Scalar.muli do throwError "lane_bc_prod: a literal"

syntax "lane_iota" : tactic
syntax "lane_trip" : tactic
syntax "lane_hyp" : tactic
syntax "lane_le" : tactic

/-- The vector holds the lane numbers: a hypothesis, a `LiveIn`'s field, or the iota vector itself. -/
macro_rules | `(tactic| lane_iota) => `(tactic| first
  | exact LiveIn1.io (by assumption)
  | exact LiveIn0.io (by assumption)
  | exact iota_lane _
  | assumption)

/-- The trip number is below 8. -/
macro_rules | `(tactic| lane_trip) => `(tactic| first
  | exact trip3_lt _
  | exact trip2_lt _
  | assumption
  | omega)

/-- The bound of a vector that entered the loop, from what the context knows of it. -/
macro_rules | `(tactic| lane_hyp) => `(tactic| first
  | exact le_of_rot8 (LiveIn1.r0 (by assumption)) | exact le_of_rot8 (LiveIn1.r1 (by assumption))
  | exact le_of_rot8 (LiveIn1.r2 (by assumption)) | exact le_of_rot8 (LiveIn1.r3 (by assumption))
  | exact le_of_rot8 (LiveIn1.r4 (by assumption)) | exact le_of_rot8 (LiveIn1.r5 (by assumption))
  | exact le_of_rot8 (LiveIn0.r0 (by assumption)) | exact le_of_rot8 (LiveIn0.r1 (by assumption))
  | exact le_of_rot8 (LiveIn0.r2 (by assumption)) | exact le_of_rot8 (LiveIn0.r3 (by assumption))
  | exact le_of_rot8 (LiveIn0.r4 (by assumption))
  | exact le_of_iota (LiveIn1.io (by assumption)) | exact le_of_iota (LiveIn0.io (by assumption))
  | exact le_of_rot8 (by assumption) | exact le_of_rot4 (by assumption) | exact le_of_iota (by assumption)
  | exact Le.of_eq (b := 127) (by assumption) (fun x => by have := ln_lt x; omega))

macro_rules | `(tactic| lane_le) => `(tactic| first
  | assumption
  | (lane_open; first
      | (lane_is andi; first
          | exact le_mask_c7 (by assumption) _
          | exact Le.and_right _ _)
      | (lane_is broadcast; first
          | (lane_bc_prod; exact le_trip_off _ (by lane_trip))
          | exact Le.const _)
      | (lane_is addi; apply Le.add; (lane_le); (lane_le))
      | (lane_is muli; apply Le.mul_const; (lane_le))
      | (lane_is shli; apply Le.shl_const; (lane_le); (decide))
      | (lane_is View.readAt; first
          | exact i3_read_le1 _ _ _ (by assumption) _
          | exact i3_read_le0 _ _ _ (by assumption) _)
      | (lane_is iota; exact le_of_iota (iota_lane _))
      | lane_hyp))

/-- Close a printed range check of a compute loop: of a third-core gather, a row gather or a scatter. -/
macro "lane_chk" : tactic => `(tactic| first
  | (apply chk_ct; (lane_le); (decide))
  | (apply chk_out; (lane_le); (decide))
  | (apply chk_rows; (lane_le); (lane_le); (decide); (decide)))

end Cert.Proof.KI

end
-- ==== Proof.ComputeLoop.lean ====
/-
  The two compute loops as wholes. A compute loop makes eight trips over its slot's block of 128 tokens, sixteen a
  trip; a trip leaves the next sixteen rows of the slot's result holding the loop's words and touches nothing else
  (the trip's statement, taken here as a hypothesis). So the loop, from any contents of the slot's result, leaves all
  128 rows done, the third-core table, the digits and the gathered rows as they were. Stated with the rest of the
  program as a continuation, which runs from what the loop leaves.
-/
import proofs.«207215_g13752485282153_cont_week2b_1454_30_alg».proof.Proof.Common
import proofs.«207215_g13752485282153_cont_week2b_1454_30_alg».proof.Proof.Lanes
import proofs.«207215_g13752485282153_cont_week2b_1454_30_alg».proof.Proof.ComputeLib

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

variable (d : Dev nD) (L : grid1.Coords)

/-! ## Slot 1 -/

/-- One trip of the slot-1 compute loop: from the first `k` groups of sixteen rows done to the first `k + 1`. -/
def Trip1 : Prop :=
  ∀ (O : CellTallies nD τ sig (HIx 1)) (W : Waits sig (HIx 1))
    (fc : Buf (Elt F) ((s1W).view.loc (thr d L))) (fi3 : Buf (Elt F) ((s5W).view.loc (thr d L)))
    (fr : Buf (Elt F) ((s7W).view.loc (thr d L))) (f : Buf (Elt F) ((s9W).view.loc (thr d L)))
    (v184 v186 v190 v194 v198 v202 v206 v210 v212 : IVec S16 32) (c7 : BitVec 32)
    (_ : LiveIn1 v184 v186 v190 v194 v198 v202 v206 v210 v212 c7) (_ : I3OK fi3)
    (k : Fin k1_t3_loop.trips) (_ : Compute.Done k.val fr fc fi3 f),
    (iprop(Transfers.MayWaits (thr d L) (none : HIx 1) O
        ∗ ((s1W).view.loc (thr d L) ↦{fullShare} fc) ∗ ((s5W).view.loc (thr d L) ↦{fullShare} fi3)
        ∗ ((s7W).view.loc (thr d L) ↦{fullShare} fr) ∗ ((s9W).view.loc (thr d L) ↦{fullShare} f)
        ∗ owes (thr d L) O W) : sProp 𝕄)
      ⊢ wp frame (wpE (defs₀ (F := F)) 𝒱₀ (thr d L) none) Set.univ
          (k1_t3_body L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1 v184 v186 v190 v194 v198 v202 v206 v210 v212 c7 k ⟨⟩)
          fun _ => iprop(Transfers.MayWaits (thr d L) (none : HIx 1) O
        ∗ ((s1W).view.loc (thr d L) ↦{fullShare} fc) ∗ ((s5W).view.loc (thr d L) ↦{fullShare} fi3)
        ∗ ((s7W).view.loc (thr d L) ↦{fullShare} fr)
        ∗ (∃ f' : Buf (Elt F) ((s9W).view.loc (thr d L)), ((s9W).view.loc (thr d L) ↦{fullShare} f') ∗ ⌜Compute.Done (k.val + 1) fr fc fi3 f'⌝)
        ∗ owes (thr d L) O W)

/-- Between trips of the slot-1 loop: the table, the digits and the gathered rows as they were, the first `n` groups
    of sixteen rows of the slot's result done. -/
def inv1 (O : CellTallies nD τ sig (HIx 1)) (W : Waits sig (HIx 1))
    (fc : Buf (Elt F) ((s1W).view.loc (thr d L))) (fi3 : Buf (Elt F) ((s5W).view.loc (thr d L)))
    (fr : Buf (Elt F) ((s7W).view.loc (thr d L))) (n : ℕ) (_ : Unit) : sProp 𝕄 :=
  iprop(Transfers.MayWaits (thr d L) (none : HIx 1) O
        ∗ ((s1W).view.loc (thr d L) ↦{fullShare} fc) ∗ ((s5W).view.loc (thr d L) ↦{fullShare} fi3)
        ∗ ((s7W).view.loc (thr d L) ↦{fullShare} fr)
        ∗ (∃ f' : Buf (Elt F) ((s9W).view.loc (thr d L)), ((s9W).view.loc (thr d L) ↦{fullShare} f') ∗ ⌜Compute.Done n fr fc fi3 f'⌝)
        ∗ owes (thr d L) O W)

/-- The slot-1 compute loop: eight trips leave all 128 rows of the slot's result done. -/
theorem compute1_loop (htrip : Trip1 (F := F) d L) (O : CellTallies nD τ sig (HIx 1)) (W : Waits sig (HIx 1))
    (fc : Buf (Elt F) ((s1W).view.loc (thr d L))) (fi3 : Buf (Elt F) ((s5W).view.loc (thr d L)))
    (fr : Buf (Elt F) ((s7W).view.loc (thr d L)))
    (v184 v186 v190 v194 v198 v202 v206 v210 v212 : IVec S16 32) (c7 : BitVec 32)
    (hL : LiveIn1 v184 v186 v190 v194 v198 v202 v206 v210 v212 c7) (hI3 : I3OK fi3) {α : Type}
    (kont : Unit → Prog (TpuEff nD τ sig (Elt F) Λ₀ (.scVector ((L 0).castLE hcore1) ((L 1).castLE hsub1))) α)
    (Q : α → sProp 𝕄) :
    (iprop(Transfers.MayWaits (thr d L) (none : HIx 1) O
        ∗ ((s1W).view.loc (thr d L) ↦{fullShare} fc) ∗ ((s5W).view.loc (thr d L) ↦{fullShare} fi3)
        ∗ ((s7W).view.loc (thr d L) ↦{fullShare} fr)
        ∗ (∃ f : Buf (Elt F) ((s9W).view.loc (thr d L)), ((s9W).view.loc (thr d L) ↦{fullShare} f))
        ∗ (∃ W', ⌜∀ p ∈ W', p ∈ W ∨ p.2 = none⌝ ∗ owes (thr d L) O W')
        ∗ (iprop(Transfers.MayWaits (thr d L) (none : HIx 1) O
        ∗ ((s1W).view.loc (thr d L) ↦{fullShare} fc) ∗ ((s5W).view.loc (thr d L) ↦{fullShare} fi3)
        ∗ ((s7W).view.loc (thr d L) ↦{fullShare} fr)
        ∗ (∃ f' : Buf (Elt F) ((s9W).view.loc (thr d L)), ((s9W).view.loc (thr d L) ↦{fullShare} f') ∗ ⌜Compute.Done 8 fr fc fi3 f'⌝)
        ∗ (∃ W', ⌜∀ p ∈ W', p ∈ W ∨ p.2 = none⌝ ∗ owes (thr d L) O W'))
            -∗ wp frame (wpE (defs₀ (F := F)) 𝒱₀ (thr d L) none) Set.univ (kont ()) Q)) : sProp 𝕄)
      ⊢ wp frame (wpE (defs₀ (F := F)) 𝒱₀ (thr d L) none) Set.univ
          (Scf.Loop.for k1_t3_loop k1_t3_ok ⟨⟩ (k1_t3_body L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1 v184 v186 v190 v194 v198 v202 v206 v210 v212 c7) >>= kont) Q := by
  iintro ⟨Hmw, H1, H5, H7, ⟨%f, H9⟩, ⟨%W', %hW', HO⟩, HK⟩
  sl_for (inv1 d L O W' fc fi3 fr) $$ [Hmw H1 H5 H7 H9 HO]
  case region =>
    intro k _
    unfold inv1
    iintro ⟨Hmw, H1, H5, H7, ⟨%f', H9, %hf⟩, HO⟩
    iapply (htrip O W' fc fi3 fr f' v184 v186 v190 v194 v198 v202 v206 v210 v212 c7 hL hI3 k hf)
    isplitl [Hmw]; · iexact Hmw
    isplitl [H1]; · iexact H1
    isplitl [H5]; · iexact H5
    isplitl [H7]; · iexact H7
    isplitl [H9]; · iexact H9
    iexact HO
  · unfold inv1
    isplitl [Hmw]; · iexact Hmw
    isplitl [H1]; · iexact H1
    isplitl [H5]; · iexact H5
    isplitl [H7]; · iexact H7
    isplitl [H9]
    · iexists f
      isplitl [H9]; · iexact H9
      ipureintro; intro j hj; omega
    · iexact HO
  iintro %_ HI
  unfold inv1
  icases HI with ⟨Hmw, H1, H5, H7, ⟨%f', H9, %hf⟩, HO⟩
  iapply HK
  isplitl [Hmw]; · iexact Hmw
  isplitl [H1]; · iexact H1
  isplitl [H5]; · iexact H5
  isplitl [H7]; · iexact H7
  isplitl [H9]
  · iexists f'
    isplitl [H9]; · iexact H9
    ipureintro
    have h8 : Compute.Done k1_t3_loop.trips fr fc fi3 f' := hf
    rw [t3_trips] at h8; exact h8
  · iexists W'; isplitr
    · ipureintro; exact hW'
    · iexact HO

/-! ## Slot 0 -/

/-- One trip of the slot-0 compute loop: from the first `k` groups of sixteen rows done to the first `k + 1`. The
    region also reads, without using them, the block number's words of the enclosing trip. -/
def Trip0 : Prop :=
  ∀ (O : CellTallies nD τ sig (HIx 1)) (W : Waits sig (HIx 1))
    (fc : Buf (Elt F) ((s1W).view.loc (thr d L))) (fi3 : Buf (Elt F) ((s4W).view.loc (thr d L)))
    (fr : Buf (Elt F) ((s6W).view.loc (thr d L))) (f : Buf (Elt F) ((s8W).view.loc (thr d L)))
    (v2 : BitVec 32) (k1 : Fin k1_t1_loop.trips) (arg20 v108 : BitVec 32)
    (v117 v119 v123 v127 v131 v135 v139 v141 : IVec S16 32)
    (_ : LiveIn0 v117 v119 v123 v127 v131 v135 v139 v141) (_ : I3OK fi3)
    (k : Fin k1_t2_loop.trips) (_ : Compute.Done k.val fr fc fi3 f),
    (iprop(Transfers.MayWaits (thr d L) (none : HIx 1) O
        ∗ ((s1W).view.loc (thr d L) ↦{fullShare} fc) ∗ ((s4W).view.loc (thr d L) ↦{fullShare} fi3)
        ∗ ((s6W).view.loc (thr d L) ↦{fullShare} fr) ∗ ((s8W).view.loc (thr d L) ↦{fullShare} f)
        ∗ owes (thr d L) O W) : sProp 𝕄)
      ⊢ wp frame (wpE (defs₀ (F := F)) 𝒱₀ (thr d L) none) Set.univ
          (k1_t2_body L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1 v2 k1 arg20 v108 v117 v119 v123 v127 v131 v135 v139 v141 k ⟨⟩)
          fun _ => iprop(Transfers.MayWaits (thr d L) (none : HIx 1) O
        ∗ ((s1W).view.loc (thr d L) ↦{fullShare} fc) ∗ ((s4W).view.loc (thr d L) ↦{fullShare} fi3)
        ∗ ((s6W).view.loc (thr d L) ↦{fullShare} fr)
        ∗ (∃ f' : Buf (Elt F) ((s8W).view.loc (thr d L)), ((s8W).view.loc (thr d L) ↦{fullShare} f') ∗ ⌜Compute.Done (k.val + 1) fr fc fi3 f'⌝)
        ∗ owes (thr d L) O W)

/-- Between trips of the slot-0 loop: the table, the digits and the gathered rows as they were, the first `n` groups
    of sixteen rows of the slot's result done. -/
def inv0 (O : CellTallies nD τ sig (HIx 1)) (W : Waits sig (HIx 1))
    (fc : Buf (Elt F) ((s1W).view.loc (thr d L))) (fi3 : Buf (Elt F) ((s4W).view.loc (thr d L)))
    (fr : Buf (Elt F) ((s6W).view.loc (thr d L))) (n : ℕ) (_ : Unit) : sProp 𝕄 :=
  iprop(Transfers.MayWaits (thr d L) (none : HIx 1) O
        ∗ ((s1W).view.loc (thr d L) ↦{fullShare} fc) ∗ ((s4W).view.loc (thr d L) ↦{fullShare} fi3)
        ∗ ((s6W).view.loc (thr d L) ↦{fullShare} fr)
        ∗ (∃ f' : Buf (Elt F) ((s8W).view.loc (thr d L)), ((s8W).view.loc (thr d L) ↦{fullShare} f') ∗ ⌜Compute.Done n fr fc fi3 f'⌝)
        ∗ owes (thr d L) O W)

/-- The slot-0 compute loop: eight trips leave all 128 rows of the slot's result done. -/
theorem compute0_loop (htrip : Trip0 (F := F) d L) (O : CellTallies nD τ sig (HIx 1)) (W : Waits sig (HIx 1))
    (fc : Buf (Elt F) ((s1W).view.loc (thr d L))) (fi3 : Buf (Elt F) ((s4W).view.loc (thr d L)))
    (fr : Buf (Elt F) ((s6W).view.loc (thr d L)))
    (v2 : BitVec 32) (k1 : Fin k1_t1_loop.trips) (arg20 v108 : BitVec 32)
    (v117 v119 v123 v127 v131 v135 v139 v141 : IVec S16 32)
    (hL : LiveIn0 v117 v119 v123 v127 v131 v135 v139 v141) (hI3 : I3OK fi3) {α : Type}
    (kont : Unit → Prog (TpuEff nD τ sig (Elt F) Λ₀ (.scVector ((L 0).castLE hcore1) ((L 1).castLE hsub1))) α)
    (Q : α → sProp 𝕄) :
    (iprop(Transfers.MayWaits (thr d L) (none : HIx 1) O
        ∗ ((s1W).view.loc (thr d L) ↦{fullShare} fc) ∗ ((s4W).view.loc (thr d L) ↦{fullShare} fi3)
        ∗ ((s6W).view.loc (thr d L) ↦{fullShare} fr)
        ∗ (∃ f : Buf (Elt F) ((s8W).view.loc (thr d L)), ((s8W).view.loc (thr d L) ↦{fullShare} f))
        ∗ (∃ W', ⌜∀ p ∈ W', p ∈ W ∨ p.2 = none⌝ ∗ owes (thr d L) O W')
        ∗ (iprop(Transfers.MayWaits (thr d L) (none : HIx 1) O
        ∗ ((s1W).view.loc (thr d L) ↦{fullShare} fc) ∗ ((s4W).view.loc (thr d L) ↦{fullShare} fi3)
        ∗ ((s6W).view.loc (thr d L) ↦{fullShare} fr)
        ∗ (∃ f' : Buf (Elt F) ((s8W).view.loc (thr d L)), ((s8W).view.loc (thr d L) ↦{fullShare} f') ∗ ⌜Compute.Done 8 fr fc fi3 f'⌝)
        ∗ (∃ W', ⌜∀ p ∈ W', p ∈ W ∨ p.2 = none⌝ ∗ owes (thr d L) O W'))
            -∗ wp frame (wpE (defs₀ (F := F)) 𝒱₀ (thr d L) none) Set.univ (kont ()) Q)) : sProp 𝕄)
      ⊢ wp frame (wpE (defs₀ (F := F)) 𝒱₀ (thr d L) none) Set.univ
          (Scf.Loop.for k1_t2_loop k1_t2_ok ⟨⟩ (k1_t2_body L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1 v2 k1 arg20 v108 v117 v119 v123 v127 v131 v135 v139 v141) >>= kont) Q := by
  iintro ⟨Hmw, H1, H4, H6, ⟨%f, H8⟩, ⟨%W', %hW', HO⟩, HK⟩
  sl_for (inv0 d L O W' fc fi3 fr) $$ [Hmw H1 H4 H6 H8 HO]
  case region =>
    intro k _
    unfold inv0
    iintro ⟨Hmw, H1, H4, H6, ⟨%f', H8, %hf⟩, HO⟩
    iapply (htrip O W' fc fi3 fr f' v2 k1 arg20 v108 v117 v119 v123 v127 v131 v135 v139 v141 hL hI3 k hf)
    isplitl [Hmw]; · iexact Hmw
    isplitl [H1]; · iexact H1
    isplitl [H4]; · iexact H4
    isplitl [H6]; · iexact H6
    isplitl [H8]; · iexact H8
    iexact HO
  · unfold inv0
    isplitl [Hmw]; · iexact Hmw
    isplitl [H1]; · iexact H1
    isplitl [H4]; · iexact H4
    isplitl [H6]; · iexact H6
    isplitl [H8]
    · iexists f
      isplitl [H8]; · iexact H8
      ipureintro; intro j hj; omega
    · iexact HO
  iintro %_ HI
  unfold inv0
  icases HI with ⟨Hmw, H1, H4, H6, ⟨%f', H8, %hf⟩, HO⟩
  iapply HK
  isplitl [Hmw]; · iexact Hmw
  isplitl [H1]; · iexact H1
  isplitl [H4]; · iexact H4
  isplitl [H6]; · iexact H6
  isplitl [H8]
  · iexists f'
    isplitl [H8]; · iexact H8
    ipureintro
    have h8 : Compute.Done k1_t2_loop.trips fr fc fi3 f' := hf
    rw [t2_trips] at h8; exact h8
  · iexists W'; isplitr
    · ipureintro; exact hW'
    · iexact HO

end Cert.Proof.KI

end
-- ==== Proof.ComputeRun.lean ====
/-
  Reading back what a trip of a compute loop has written: the parts that do not depend on the slot.

  After a trip the slot's result scratch holds sixty-four indexed stores over what it held before, each a write of
  the whole buffer; a whole-buffer write read back is its payload. The index vectors of the trip's stores and of its
  row gathers are built from the lane number and the trip number alone, so what each lane of such a vector holds is a
  fact about 8 × 16 trips and lanes, checked on all of them; the index vector of a gather from the third-core table
  also holds the token's third digit, which stays a variable (at most 99, so nothing wraps). A stored word is a sum
  of eight products of a gathered row entry and a gathered table word: it is the slot's word once each of its sixteen
  operands is the entry, or the word, the specification names.
-/
import proofs.«207215_g13752485282153_cont_week2b_1454_30_alg».proof.Proof.Common
import proofs.«207215_g13752485282153_cont_week2b_1454_30_alg».proof.Proof.Lanes
import proofs.«207215_g13752485282153_cont_week2b_1454_30_alg».proof.Proof.LibStoreIdx
import proofs.«207215_g13752485282153_cont_week2b_1454_30_alg».proof.Proof.ComputeLib

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.Proof.Lane

variable {F : FTy → Type}

local notation "𝕄" => MT nD τ sig (HIx 1) (Elt F) ℕ UU ℕ

variable [FloatOps F] [Named F]

/-! ## Whole-buffer writes read back -/

section Whole
variable {κ : Kind}

/-- The last write through the whole view of a buffer is what the buffer holds. -/
theorem writes_whole_cons (b : Ref sig κ) (f w : b.ty.Contents (Elt F)) (Ls : List (View.Piece (Elt F) b.ty.shape b.ty.elt)) :
    (Memref.whole b).view.writes (Elt F) f (⟨Rect.whole b.ty.shape, w⟩ :: Ls) = w := by
  show (View.whole b).writes (Elt F) f (⟨Rect.whole b.ty.shape, w⟩ :: Ls) = w
  rw [← View.write_univ_eq_writes_whole]; exact View.write_whole_univ b _ w

/-- A load of the whole buffer after a write through its whole view reads that write's payload. -/
theorem readCov_whole_cons (b : Ref sig κ) (w : b.ty.Contents (Elt F)) (Ls : List (View.Piece (Elt F) b.ty.shape b.ty.elt)) :
    (Memref.whole b).view.readCov (⟨Rect.whole b.ty.shape, w⟩ :: Ls) (LoadRect.whole b.ty.shape) = w := by
  unfold View.readCov
  rw [writes_whole_cons]; exact Memref.readAt_whole (Elt F) b w

end Whole

/-! ## Lanes of closed index vectors -/

/-- The sixteen-lane vector whose lane `l` holds `g l`. -/
def laneVec (g : ℕ → ℕ) : IVec S16 32 := fun x => BitVec.ofNat 32 (g (x 0).val)

theorem eq_laneVec {v : IVec S16 32} (g : ℕ → ℕ) (h : ∀ x, (v x).toNat = g (ln x)) : v = laneVec g := by
  funext x
  apply BitVec.eq_of_toNat_eq
  have hlt := (v x).isLt
  rw [h x] at hlt
  rw [h x]; unfold laneVec; rw [BitVec.toNat_ofNat]
  exact (Nat.mod_eq_of_lt hlt).symm

/-- A property of every lane index, from the sixteen lanes. -/
theorem forall_lane {P : S16.Idx → Prop} (h : ∀ l : Fin 16, P (ix1 l)) : ∀ x, P x := fun x => (eq_ix1 x) ▸ h (x 0)

/-- A fact about lane `x` of closed index vectors at trip `k`: checked on the 8 × 16 trips and lanes. -/
macro "lane_dec" k:ident x:ident : tactic => `(tactic| (revert $x:ident; refine forall_lane ?_; clear * - $k:ident; revert $k:ident; decide +kernel))

open Lean Elab Tactic Meta in
/-- Unfold, in the goal, the names the symbolic run gave to this declaration's intermediate values and the printed
    program's payload definitions. -/
elab "unfold_run_names" : tactic => do
  let some decl ← Term.getDeclName? | throwError "unfold_run_names: no declaration"
  let pre := decl ++ `sl
  liftMetaTactic fun g => do
    return [← g.deltaTarget fun n => pre.isPrefixOf n || (match n with | .str _ s => s.startsWith "k1_pay" | _ => false)]

/-! ## The word's sixteen operands -/

theorem word_eq (fr : Vec F Compute.SR .f32) (fc : Vec F Compute.SC .f32) (n3 j e : ℕ) {p0 p1 p2 p3 p4 p5 p6 p7 c0 c1 c2 c3 c4 c5 c6 c7 : F .f32}
    (hp0 : p0 = Compute.rowAt fr j (8 * (e / 4) + (j % 16 + 0) % 8)) (hc0 : c0 = Compute.ctAt fc (33 * n3 + 4 * ((j % 16 + 0) % 8) + e % 4))
    (hp4 : p4 = Compute.rowAt fr j (8 * (e / 4) + (j % 16 + 4) % 8)) (hc4 : c4 = Compute.ctAt fc (33 * n3 + 4 * ((j % 16 + 4) % 8) + e % 4))
    (hp1 : p1 = Compute.rowAt fr j (8 * (e / 4) + (j % 16 + 1) % 8)) (hc1 : c1 = Compute.ctAt fc (33 * n3 + 4 * ((j % 16 + 1) % 8) + e % 4))
    (hp5 : p5 = Compute.rowAt fr j (8 * (e / 4) + (j % 16 + 5) % 8)) (hc5 : c5 = Compute.ctAt fc (33 * n3 + 4 * ((j % 16 + 5) % 8) + e % 4))
    (hp2 : p2 = Compute.rowAt fr j (8 * (e / 4) + (j % 16 + 2) % 8)) (hc2 : c2 = Compute.ctAt fc (33 * n3 + 4 * ((j % 16 + 2) % 8) + e % 4))
    (hp6 : p6 = Compute.rowAt fr j (8 * (e / 4) + (j % 16 + 6) % 8)) (hc6 : c6 = Compute.ctAt fc (33 * n3 + 4 * ((j % 16 + 6) % 8) + e % 4))
    (hp3 : p3 = Compute.rowAt fr j (8 * (e / 4) + (j % 16 + 3) % 8)) (hc3 : c3 = Compute.ctAt fc (33 * n3 + 4 * ((j % 16 + 3) % 8) + e % 4))
    (hp7 : p7 = Compute.rowAt fr j (8 * (e / 4) + (j % 16 + 7) % 8)) (hc7 : c7 = Compute.ctAt fc (33 * n3 + 4 * ((j % 16 + 7) % 8) + e % 4)) :
    FloatOps.addf
      (FloatOps.addf (FloatOps.addf (FloatOps.mulf p0 c0) (FloatOps.mulf p4 c4)) (FloatOps.addf (FloatOps.mulf p1 c1) (FloatOps.mulf p5 c5)))
      (FloatOps.addf (FloatOps.addf (FloatOps.mulf p2 c2) (FloatOps.mulf p6 c6)) (FloatOps.addf (FloatOps.mulf p3 c3) (FloatOps.mulf p7 c7)))
      = Compute.slotWord fr fc n3 j e := by
  subst hp0 hp1 hp2 hp3 hp4 hp5 hp6 hp7 hc0 hc1 hc2 hc3 hc4 hc5 hc6 hc7
  rfl

section Leaves

variable (d : Dev nD) (L : grid1.Coords)

/-- A gather from the third-core table at lane `x`: the word at 33 times the digit, plus four times the rank
    rotation, plus the column rotation. -/
theorem ct_leaf (fc : Buf (Elt F) ((s1W).view.loc (thr d L))) (Vv Rv Jv : IVec S16 32)
    (h : ∀ a x, ((![addi (addi (muli Vv (broadcast S16 33#32)) (shli Rv (broadcast S16 2#32))) Jv] : Fin 1 → IVec S16 32) a x).toNat < S3304.size a)
    (x : S16.Idx) (n3 a c : ℕ)
    (hV : (Vv x).toNat = n3) (h3 : n3 ≤ 99) (hR : (Rv x).toNat = a) (ha : a < 8) (hJ : (Jv x).toNat = c) (hc : c < 4) :
    loadIdx (View.readAt (Elt F) (s1W).view (LoadRect.whole S3304) fc)
        ![addi (addi (muli Vv (broadcast S16 33#32)) (shli Rv (broadcast S16 2#32))) Jv] h x
      = Compute.ctAt fc (33 * n3 + 4 * a + c) := by
  have e : View.readAt (Elt F) (s1W).view (LoadRect.whole S3304) fc = fc := Memref.readAt_whole (Elt F) cc1_scratch1 fc
  rw [e]
  unfold loadIdx Compute.ctAt
  congr 1
  funext i
  match i with
  | ⟨0, _⟩ =>
    apply Fin.ext
    show (addi (addi (muli Vv (broadcast S16 33#32)) (shli Rv (broadcast S16 2#32))) Jv x).toNat = (33 * n3 + 4 * a + c) % 3304
    rw [addi_toNat, addi_toNat, muli_toNat, shli_toNat Rv 2#32 (by decide), broadcast_toNat, hV, hR, hJ]
    show ((n3 * 33 % 2 ^ 32 + a * 2 ^ 2 % 2 ^ 32) % 2 ^ 32 + c) % 2 ^ 32 = (33 * n3 + 4 * a + c) % 3304
    have e1 : n3 * 33 % 2 ^ 32 = n3 * 33 := Nat.mod_eq_of_lt (by omega)
    have e2 : a * 2 ^ 2 % 2 ^ 32 = a * 2 ^ 2 := Nat.mod_eq_of_lt (by omega)
    rw [e1, e2]
    have e3 : (n3 * 33 + a * 2 ^ 2) % 2 ^ 32 = n3 * 33 + a * 2 ^ 2 := Nat.mod_eq_of_lt (by omega)
    rw [e3]
    have e4 : (n3 * 33 + a * 2 ^ 2 + c) % 2 ^ 32 = n3 * 33 + a * 2 ^ 2 + c := Nat.mod_eq_of_lt (by omega)
    have e5 : (33 * n3 + 4 * a + c) % 3304 = 33 * n3 + 4 * a + c := Nat.mod_eq_of_lt (by omega)
    rw [e4, e5]; omega

end Leaves

end Cert.Proof.KI

end
-- ==== Proof.Compute1.lean ====
/-
  One trip of the compute loop of double-buffer slot 1.

  Trip `k` handles rows `16 k .. 16 k + 15` of the slot's block, one a lane. It reads the sixteen tokens' third digits,
  gathers for each lane thirty-two words of the third-core table and a hundred and twenty-eight entries of the lane's
  gathered row, and writes the lane's sixty-four words by sixty-four indexed stores into the slot's result scratch.
  Run from the four buffers it touches, the trip leaves the table, the digits and the rows as they were and the
  result scratch holding the loop's words in the rows of the first `k + 1` trips: the rows of earlier trips are not
  written again, and the sixty-four stores of this trip cover its sixteen rows' columns once each.
-/
import proofs.«207215_g13752485282153_cont_week2b_1454_30_alg».proof.Proof.ComputeRun

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.Proof.Lane

variable {F : FTy → Type}

local notation "𝕄" => MT nD τ sig (HIx 1) (Elt F) ℕ UU ℕ

variable [FloatOps F] [Named F]

variable (d : Dev nD) (L : grid1.Coords)

/-! ## The slot's gathers at a lane -/

/-- A gather from the slot's rows at lane `x`: the entry at the lane's row and column. -/
theorem row_leaf1 (fr : Buf (Elt F) ((s7W).view.loc (thr d L))) (Tv Cv : IVec S16 32)
    (h : ∀ a x, ((![Tv, Cv] : Fin 2 → IVec S16 32) a x).toNat < S128x128.size a) (x : S16.Idx) (j c : ℕ)
    (hT : (Tv x).toNat = j) (hC : (Cv x).toNat = c) (hj : j < 128) (hc : c < 128) :
    loadIdx (View.readAt (Elt F) (s7W).view (LoadRect.whole S128x128) fr) ![Tv, Cv] h x = Compute.rowAt fr j c := by
  have e : View.readAt (Elt F) (s7W).view (LoadRect.whole S128x128) fr = fr := Memref.readAt_whole (Elt F) cc1_scratch7 fr
  rw [e]
  unfold loadIdx Compute.rowAt
  congr 1
  funext a
  match a with
  | ⟨0, _⟩ => exact Fin.ext (by show (Tv x).toNat = j % 128; rw [hT, Nat.mod_eq_of_lt hj])
  | ⟨1, _⟩ => exact Fin.ext (by show (Cv x).toNat = c % 128; rw [hC, Nat.mod_eq_of_lt hc])

/-- The sixteen digits a trip reads: lane `x` of trip `k` reads the digit of row `16 k + x`. -/
theorem i3_lane1 (fi3 : Buf (Elt F) ((s5W).view.loc (thr d L))) (k : Fin k1_t3_loop.trips)
    (inb : ∀ a, (k1_off8 k) a + S16.size a ≤ S128.size a) (x : S16.Idx) :
    (View.readAt (Elt F) (s5W).view (Rect.unit (s := S128) (k1_off8 k) S16.size inb).toLoadRect fi3 x).toNat
      = Compute.i3At fi3 (16 * k.val + ln x) := by
  have hk : ∀ k : Fin k1_t3_loop.trips, k1_off8 k 0 = 16 * k.val := by decide +kernel
  have hx := ln_lt x
  have hk8 := trip3_lt k
  unfold Compute.i3At
  show (fi3 ((Rect.unit (s := S128) (k1_off8 k) S16.size inb).toLoadRect.idx x)).toNat = _
  congr 2
  funext a
  match a with
  | ⟨0, _⟩ =>
    apply Fin.ext
    show k1_off8 k 0 + 1 * (x 0).val = (16 * k.val + ln x) % 128
    rw [hk k]; show 16 * k.val + 1 * ln x = _; omega

/-! ## The invariant of the sixty-four stores, on the slot's result scratch -/

theorem inv_top1 {k n : ℕ} (hk : k < 8) (hn : n < 64) {W : ℕ → ℕ → F .f32}
    {f f0 g : Buf (Elt F) ((s9W).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s9W).view.writes (Elt F) f0 (⟨Rect.whole S8192, storeIdx g idxs v (fun _ => 1#1) false h⟩ :: Ls)) := by
  have e : (s9W).view.writes (Elt F) f0 (⟨Rect.whole S8192, storeIdx g idxs v (fun _ => 1#1) false h⟩ :: Ls)
      = storeIdx g idxs v (fun _ => 1#1) false h :=
    writes_whole_cons (F := F) cc1_scratch9 f0 (storeIdx g idxs v (fun _ => 1#1) false h) Ls
  rw [e]; exact Compute.inv_step hk hn hg hidx hv

theorem inv_cov1 {k n : ℕ} (hk : k < 8) (hn : n < 64) {W : ℕ → ℕ → F .f32}
    {f g : Buf (Elt F) ((s9W).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s9W).view.readCov (⟨Rect.whole S8192, storeIdx g idxs v (fun _ => 1#1) false h⟩ :: Ls) (LoadRect.whole S8192)) := by
  have e : (s9W).view.readCov (⟨Rect.whole S8192, storeIdx g idxs v (fun _ => 1#1) false h⟩ :: Ls) (LoadRect.whole S8192)
      = storeIdx g idxs v (fun _ => 1#1) false h :=
    readCov_whole_cons (F := F) cc1_scratch9 (storeIdx g idxs v (fun _ => 1#1) false h) Ls
  rw [e]; exact Compute.inv_step hk hn hg hidx hv

theorem inv_base1 (k : ℕ) (W : ℕ → ℕ → F .f32) (f : Buf (Elt F) ((s9W).view.loc (thr d L))) :
    Compute.Inv k 0 W f (View.readAt (Elt F) (s9W).view (LoadRect.whole S8192) f) := by
  have e : View.readAt (Elt F) (s9W).view (LoadRect.whole S8192) f = f := Memref.readAt_whole (Elt F) cc1_scratch9 f
  rw [e]; exact Compute.inv_zero k W f

/-! ## The trip -/

set_option maxHeartbeats 16000000 in
set_option maxRecDepth 65536 in
/-- Trip `k` of the slot's compute loop: from the third-core table, the slot's digits and gathered rows, and a result
    scratch whose first `16 k` rows hold the loop's words, it runs to the end and leaves the first `16 (k + 1)` rows
    holding them, the other three buffers as they were. -/
theorem compute1_trip (O : CellTallies nD τ sig (HIx 1)) (W : Waits sig (HIx 1))
    (fc : Buf (Elt F) ((s1W).view.loc (thr d L))) (fi3 : Buf (Elt F) ((s5W).view.loc (thr d L)))
    (fr : Buf (Elt F) ((s7W).view.loc (thr d L))) (f : Buf (Elt F) ((s9W).view.loc (thr d L)))
    (v184 v186 v190 v194 v198 v202 v206 v210 v212 : IVec S16 32) (c7 : BitVec 32)
    (hL : LiveIn1 v184 v186 v190 v194 v198 v202 v206 v210 v212 c7)
    (hI3 : I3OK fi3)
    (k : Fin k1_t3_loop.trips) (hf : Compute.Done k.val fr fc fi3 f) :
    (iprop(Transfers.MayWaits (thr d L) (none : HIx 1) O
        ∗ ((s1W).view.loc (thr d L) ↦{fullShare} fc) ∗ ((s5W).view.loc (thr d L) ↦{fullShare} fi3)
        ∗ ((s7W).view.loc (thr d L) ↦{fullShare} fr) ∗ ((s9W).view.loc (thr d L) ↦{fullShare} f)
        ∗ owes (thr d L) O W) : sProp 𝕄)
      ⊢ wp frame (wpE (defs₀ (F := F)) 𝒱₀ (thr d L) none) Set.univ
          (k1_t3_body L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1 v184 v186 v190 v194 v198 v202 v206 v210 v212 c7 k ⟨⟩)
          fun _ => iprop(Transfers.MayWaits (thr d L) (none : HIx 1) O
            ∗ ((s1W).view.loc (thr d L) ↦{fullShare} fc) ∗ ((s5W).view.loc (thr d L) ↦{fullShare} fi3)
            ∗ ((s7W).view.loc (thr d L) ↦{fullShare} fr)
            ∗ (∃ f' : Buf (Elt F) ((s9W).view.loc (thr d L)), ((s9W).view.loc (thr d L) ↦{fullShare} f') ∗ ⌜Compute.Done (k.val + 1) fr fc fi3 f'⌝)
            ∗ owes (thr d L) O W) := by
  unfold k1_t3_body
  rw [k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton]
  unfold k1_part38_skel k1_part39_skel k1_part40_skel k1_part41_skel k1_part42_skel k1_part43_skel k1_part44_skel k1_part45_skel k1_part46_skel k1_part47_skel k1_part48_skel k1_part49_skel k1_part50_skel k1_part51_skel k1_part52_skel k1_part53_skel k1_part54_skel k1_part55_skel k1_part56_skel k1_part57_skel k1_part58_skel k1_part59_skel k1_part60_skel k1_part61_skel k1_part62_skel k1_part63_skel k1_part64_skel k1_part65_skel k1_part66_skel k1_part67_skel k1_part68_skel
  unfold SparseCore.vectorLoadIdx SparseCore.vectorStoreIdx
  iintro ⟨Hmw, H1, H5, H7, H9, HO⟩
  sl_exec (disch := lane_chk)
  sl_step
  isplitl [Hmw]; · iexact Hmw
  isplitl [H1]; · iexact H1
  isplitl [H5]; · iexact H5
  isplitl [H7]; · iexact H7
  isplitl [H9]
  · iexists _
    isplitl [H9]; · iexact H9
    ipureintro
    have hk : k.val < 8 := trip3_lt k
    refine Compute.done_of_inv hk hf ?_
    -- the vectors that enter the loop are functions of the lane number: from here every index vector of the trip
    -- is a closed term in the trip and the lane
    obtain rfl := eq_laneVec (fun l => l) hL.io
    obtain rfl := eq_laneVec (fun l => l / 8) hL.sh
    obtain rfl := eq_laneVec (fun l => (l + 0) % 8) hL.r0
    obtain rfl := eq_laneVec (fun l => (l + 1) % 8) hL.r1
    obtain rfl := eq_laneVec (fun l => (l + 2) % 8) hL.r2
    obtain rfl := eq_laneVec (fun l => (l + 3) % 8) hL.r3
    obtain rfl := eq_laneVec (fun l => (l + 4) % 8) hL.r4
    obtain rfl := eq_laneVec (fun l => (l + 5) % 8) hL.r5
    obtain rfl := eq_laneVec (fun l => l + 6) hL.p6
    have hc7 := hL.c7
    subst hc7
    -- the last store, then the sixty-three before it, down to the scratch as the trip found it
    refine inv_top1 d L hk (by omega) _ ?_ ?hidx ?hv
    case hidx => intro x; lane_dec k x
    case hv =>
      intro x
      unfold_run_names
      refine word_eq _ _ _ _ _ ?_ ?_ ?_ ?_ ?_ ?_ ?_ ?_ ?_ ?_ ?_ ?_ ?_ ?_ ?_ ?_
      all_goals first
        | (refine row_leaf1 d L fr _ _ _ x _ _ ?_ ?_ ?_ ?_
           · lane_dec k x
           · lane_dec k x
           · have := ln_lt x; omega
           · have := ln_lt x; unfold Compute.colOf; omega)
        | (refine ct_leaf d L fc _ _ _ _ x _ _ _ (i3_lane1 d L fi3 k _ x) (hI3.le _) ?_ ?_ ?_ ?_
           · lane_dec k x
           · omega
           · lane_dec k x
           · omega)
    iterate 63
      refine inv_cov1 d L hk (by omega) _ ?_ ?hidx ?hv
      case hidx => intro x; lane_dec k x
      case hv =>
        intro x
        unfold_run_names
        refine word_eq _ _ _ _ _ ?_ ?_ ?_ ?_ ?_ ?_ ?_ ?_ ?_ ?_ ?_ ?_ ?_ ?_ ?_ ?_
        all_goals first
          | (refine row_leaf1 d L fr _ _ _ x _ _ ?_ ?_ ?_ ?_
             · lane_dec k x
             · lane_dec k x
             · have := ln_lt x; omega
             · have := ln_lt x; unfold Compute.colOf; omega)
          | (refine ct_leaf d L fc _ _ _ _ x _ _ _ (i3_lane1 d L fi3 k _ x) (hI3.le _) ?_ ?_ ?_ ?_
             · lane_dec k x
             · omega
             · lane_dec k x
             · omega)
    exact inv_base1 d L _ _ f
  · iexact HO

end Cert.Proof.KI

end
-- ==== Proof.Compute0.lean ====
/-
  One trip of the compute loop of double-buffer slot 0.

  Trip `k` handles rows `16 k .. 16 k + 15` of the slot's block, one a lane. It reads the sixteen tokens' third digits,
  gathers for each lane thirty-two words of the third-core table and a hundred and twenty-eight entries of the lane's
  gathered row, and writes the lane's sixty-four words by sixty-four indexed stores into the slot's result scratch.
  Run from the four buffers it touches, the trip leaves the table, the digits and the rows as they were and the
  result scratch holding the loop's words in the rows of the first `k + 1` trips: the rows of earlier trips are not
  written again, and the sixty-four stores of this trip cover its sixteen rows' columns once each.
-/
import proofs.«207215_g13752485282153_cont_week2b_1454_30_alg».proof.Proof.ComputeRun
import proofs.«207215_g13752485282153_cont_week2b_1454_30_alg».proof.Proof.Compute1

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.Proof.Lane

variable {F : FTy → Type}

local notation "𝕄" => MT nD τ sig (HIx 1) (Elt F) ℕ UU ℕ

variable [FloatOps F] [Named F]

variable (d : Dev nD) (L : grid1.Coords)

/-! ## The slot's gathers at a lane -/

/-- A gather from the slot's rows at lane `x`: the entry at the lane's row and column. -/
theorem row_leaf0 (fr : Buf (Elt F) ((s6W).view.loc (thr d L))) (Tv Cv : IVec S16 32)
    (h : ∀ a x, ((![Tv, Cv] : Fin 2 → IVec S16 32) a x).toNat < S128x128.size a) (x : S16.Idx) (j c : ℕ)
    (hT : (Tv x).toNat = j) (hC : (Cv x).toNat = c) (hj : j < 128) (hc : c < 128) :
    loadIdx (View.readAt (Elt F) (s6W).view (LoadRect.whole S128x128) fr) ![Tv, Cv] h x = Compute.rowAt fr j c := by
  have e : View.readAt (Elt F) (s6W).view (LoadRect.whole S128x128) fr = fr := Memref.readAt_whole (Elt F) cc1_scratch6 fr
  rw [e]
  unfold loadIdx Compute.rowAt
  congr 1
  funext a
  match a with
  | ⟨0, _⟩ => exact Fin.ext (by show (Tv x).toNat = j % 128; rw [hT, Nat.mod_eq_of_lt hj])
  | ⟨1, _⟩ => exact Fin.ext (by show (Cv x).toNat = c % 128; rw [hC, Nat.mod_eq_of_lt hc])

/-- The sixteen digits a trip reads: lane `x` of trip `k` reads the digit of row `16 k + x`. -/
theorem i3_lane0 (fi3 : Buf (Elt F) ((s4W).view.loc (thr d L))) (k : Fin k1_t2_loop.trips)
    (inb : ∀ a, (k1_off4 k) a + S16.size a ≤ S128.size a) (x : S16.Idx) :
    (View.readAt (Elt F) (s4W).view (Rect.unit (s := S128) (k1_off4 k) S16.size inb).toLoadRect fi3 x).toNat
      = Compute.i3At fi3 (16 * k.val + ln x) := by
  have hk : ∀ k : Fin k1_t2_loop.trips, k1_off4 k 0 = 16 * k.val := by decide +kernel
  have hx := ln_lt x
  have hk8 := trip2_lt k
  unfold Compute.i3At
  show (fi3 ((Rect.unit (s := S128) (k1_off4 k) S16.size inb).toLoadRect.idx x)).toNat = _
  congr 2
  funext a
  match a with
  | ⟨0, _⟩ =>
    apply Fin.ext
    show k1_off4 k 0 + 1 * (x 0).val = (16 * k.val + ln x) % 128
    rw [hk k]; show 16 * k.val + 1 * ln x = _; omega

/-! ## The invariant of the sixty-four stores, on the slot's result scratch -/

theorem inv_top0 {k n : ℕ} (hk : k < 8) (hn : n < 64) {W : ℕ → ℕ → F .f32}
    {f f0 g : Buf (Elt F) ((s8W).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s8W).view.writes (Elt F) f0 (⟨Rect.whole S8192, storeIdx g idxs v (fun _ => 1#1) false h⟩ :: Ls)) := by
  have e : (s8W).view.writes (Elt F) f0 (⟨Rect.whole S8192, storeIdx g idxs v (fun _ => 1#1) false h⟩ :: Ls)
      = storeIdx g idxs v (fun _ => 1#1) false h :=
    writes_whole_cons (F := F) cc1_scratch8 f0 (storeIdx g idxs v (fun _ => 1#1) false h) Ls
  rw [e]; exact Compute.inv_step hk hn hg hidx hv

theorem inv_cov0 {k n : ℕ} (hk : k < 8) (hn : n < 64) {W : ℕ → ℕ → F .f32}
    {f g : Buf (Elt F) ((s8W).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s8W).view.readCov (⟨Rect.whole S8192, storeIdx g idxs v (fun _ => 1#1) false h⟩ :: Ls) (LoadRect.whole S8192)) := by
  have e : (s8W).view.readCov (⟨Rect.whole S8192, storeIdx g idxs v (fun _ => 1#1) false h⟩ :: Ls) (LoadRect.whole S8192)
      = storeIdx g idxs v (fun _ => 1#1) false h :=
    readCov_whole_cons (F := F) cc1_scratch8 (storeIdx g idxs v (fun _ => 1#1) false h) Ls
  rw [e]; exact Compute.inv_step hk hn hg hidx hv

theorem inv_base0 (k : ℕ) (W : ℕ → ℕ → F .f32) (f : Buf (Elt F) ((s8W).view.loc (thr d L))) :
    Compute.Inv k 0 W f (View.readAt (Elt F) (s8W).view (LoadRect.whole S8192) f) := by
  have e : View.readAt (Elt F) (s8W).view (LoadRect.whole S8192) f = f := Memref.readAt_whole (Elt F) cc1_scratch8 f
  rw [e]; exact Compute.inv_zero k W f

/-! ## The trip -/

set_option maxHeartbeats 16000000 in
set_option maxRecDepth 65536 in
/-- Trip `k` of the slot's compute loop: from the third-core table, the slot's digits and gathered rows, and a result
    scratch whose first `16 k` rows hold the loop's words, it runs to the end and leaves the first `16 (k + 1)` rows
    holding them, the other three buffers as they were. -/
theorem compute0_trip (O : CellTallies nD τ sig (HIx 1)) (W : Waits sig (HIx 1))
    (fc : Buf (Elt F) ((s1W).view.loc (thr d L))) (fi3 : Buf (Elt F) ((s4W).view.loc (thr d L)))
    (fr : Buf (Elt F) ((s6W).view.loc (thr d L))) (f : Buf (Elt F) ((s8W).view.loc (thr d L)))
    (v2 : BitVec 32) (k1 : Fin k1_t1_loop.trips) (arg20 v108 : BitVec 32)
    (v117 v119 v123 v127 v131 v135 v139 v141 : IVec S16 32)
    (hL : LiveIn0 v117 v119 v123 v127 v131 v135 v139 v141)
    (hI3 : I3OK fi3)
    (k : Fin k1_t2_loop.trips) (hf : Compute.Done k.val fr fc fi3 f) :
    (iprop(Transfers.MayWaits (thr d L) (none : HIx 1) O
        ∗ ((s1W).view.loc (thr d L) ↦{fullShare} fc) ∗ ((s4W).view.loc (thr d L) ↦{fullShare} fi3)
        ∗ ((s6W).view.loc (thr d L) ↦{fullShare} fr) ∗ ((s8W).view.loc (thr d L) ↦{fullShare} f)
        ∗ owes (thr d L) O W) : sProp 𝕄)
      ⊢ wp frame (wpE (defs₀ (F := F)) 𝒱₀ (thr d L) none) Set.univ
          (k1_t2_body L idxW (Memref.isWhole_whole _) ptW (Memref.isWhole_whole _) ctW (Memref.isWhole_whole _) outW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) s9W (Memref.isWhole_whole _) cc1_scratch10 cc1_scratch11 cc1_scratch12 cc1_scratch13 cc1_scoped0 cc1_scoped1 v2 k1 arg20 v108 v117 v119 v123 v127 v131 v135 v139 v141 k ⟨⟩)
          fun _ => iprop(Transfers.MayWaits (thr d L) (none : HIx 1) O
            ∗ ((s1W).view.loc (thr d L) ↦{fullShare} fc) ∗ ((s4W).view.loc (thr d L) ↦{fullShare} fi3)
            ∗ ((s6W).view.loc (thr d L) ↦{fullShare} fr)
            ∗ (∃ f' : Buf (Elt F) ((s8W).view.loc (thr d L)), ((s8W).view.loc (thr d L) ↦{fullShare} f') ∗ ⌜Compute.Done (k.val + 1) fr fc fi3 f'⌝)
            ∗ owes (thr d L) O W) := by
  unfold k1_t2_body
  rw [k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
  unfold k1_part4_skel k1_part5_skel k1_part6_skel k1_part7_skel k1_part8_skel k1_part9_skel k1_part10_skel k1_part11_skel k1_part12_skel k1_part13_skel k1_part14_skel k1_part15_skel k1_part16_skel k1_part17_skel k1_part18_skel k1_part19_skel k1_part20_skel k1_part21_skel k1_part22_skel k1_part23_skel k1_part24_skel k1_part25_skel k1_part26_skel k1_part27_skel k1_part28_skel k1_part29_skel k1_part30_skel k1_part31_skel k1_part32_skel k1_part33_skel k1_part34_skel
  unfold SparseCore.vectorLoadIdx SparseCore.vectorStoreIdx
  iintro ⟨Hmw, H1, H5, H7, H9, HO⟩
  sl_exec (disch := lane_chk)
  sl_step
  isplitl [Hmw]; · iexact Hmw
  isplitl [H1]; · iexact H1
  isplitl [H5]; · iexact H5
  isplitl [H7]; · iexact H7
  isplitl [H9]
  · iexists _
    isplitl [H9]; · iexact H9
    ipureintro
    have hk : k.val < 8 := trip2_lt k
    refine Compute.done_of_inv hk hf ?_
    -- the vectors that enter the loop are functions of the lane number: from here every index vector of the trip
    -- is a closed term in the trip and the lane
    obtain rfl := eq_laneVec (fun l => l) hL.io
    obtain rfl := eq_laneVec (fun l => l / 8) hL.sh
    obtain rfl := eq_laneVec (fun l => (l + 0) % 8) hL.r0
    obtain rfl := eq_laneVec (fun l => (l + 1) % 8) hL.r1
    obtain rfl := eq_laneVec (fun l => (l + 2) % 8) hL.r2
    obtain rfl := eq_laneVec (fun l => (l + 3) % 8) hL.r3
    obtain rfl := eq_laneVec (fun l => (l + 4) % 8) hL.r4
    obtain rfl := eq_laneVec (fun l => l + 5) hL.p5
    -- the last store, then the sixty-three before it, down to the scratch as the trip found it
    refine inv_top0 d L hk (by omega) _ ?_ ?hidx ?hv
    case hidx => intro x; lane_dec k x
    case hv =>
      intro x
      unfold_run_names
      refine word_eq _ _ _ _ _ ?_ ?_ ?_ ?_ ?_ ?_ ?_ ?_ ?_ ?_ ?_ ?_ ?_ ?_ ?_ ?_
      all_goals first
        | (refine row_leaf0 d L fr _ _ _ x _ _ ?_ ?_ ?_ ?_
           · lane_dec k x
           · lane_dec k x
           · have := ln_lt x; omega
           · have := ln_lt x; unfold Compute.colOf; omega)
        | (refine ct_leaf d L fc _ _ _ _ x _ _ _ (i3_lane0 d L fi3 k _ x) (hI3.le _) ?_ ?_ ?_ ?_
           · lane_dec k x
           · omega
           · lane_dec k x
           · omega)
    iterate 63
      refine inv_cov0 d L hk (by omega) _ ?_ ?hidx ?hv
      case hidx => intro x; lane_dec k x
      case hv =>
        intro x
        unfold_run_names
        refine word_eq _ _ _ _ _ ?_ ?_ ?_ ?_ ?_ ?_ ?_ ?_ ?_ ?_ ?_ ?_ ?_ ?_ ?_ ?_
        all_goals first
          | (refine row_leaf0 d L fr _ _ _ x _ _ ?_ ?_ ?_ ?_
             · lane_dec k x
             · lane_dec k x
             · have := ln_lt x; omega
             · have := ln_lt x; unfold Compute.colOf; omega)
          | (refine ct_leaf d L fc _ _ _ _ x _ _ _ (i3_lane0 d L fi3 k _ x) (hI3.le _) ?_ ?_ ?_ ?_
             · lane_dec k x
             · omega
             · lane_dec k x
             · omega)
    exact inv_base0 d L _ _ f
  · iexact HO

end Cert.Proof.KI

end
-- ==== Proof.GatherBridge.lean ====
/-
  The row gather's flight, from the run's spelling to the loop invariant's. When the executor issues a slot's indirect
  row gather it holds the flight delivering the rows buffer written — one listed write of the gather's payload through
  the whole buffer, over whatever the buffer held —, the row list and the pair table's elements back, and beside it
  the (empty) rest of the pair table's share. The invariant states the same flight with the rows buffer at the rows of
  the pair table the block's quotients name: the two differ by the value of one contents term.
-/
import proofs.«207215_g13752485282153_cont_week2b_1454_30_alg».proof.Proof.TileInv
import proofs.«207215_g13752485282153_cont_week2b_1454_30_alg».proof.Proof.TileData

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

variable (d : Dev nD) (L : grid1.Coords) (q0 q1 : PosShare TreeShare)
variable (fi : Buf (Elt F) ((idxW).view.loc (thr d L))) (fp : Buf (Elt F) ((ptW).view.loc (thr d L)))

/-- What the run holds after slot 0's row gather of block `b` is issued — the flight delivering the rows buffer with
    the payload `P` written through all of it over its prior contents `f6`, and the pair table's empty rest — is the
    invariant's flight, once `P` is read as the rows the block's quotients name. -/
theorem gflight0_of_run (b : ℕ) (f6 : Buf (Elt F) ((s6W).view.loc (thr d L))) (P : S128x128.Idx → Elt F .f32)
    (hP : P = ROWS fp (G12 fi (wid L) b)) :
    (iprop(Transfers.Flight countersEmb (thr d L) (SemLoc.dma cc1_scratch10.sem) default 524288
          iprop((((s6W).view.loc (thr d L) ↦{fullShare} (s6W).view.writes (Elt F) f6 [⟨Rect.whole cc1_scratch6.ty.shape, P⟩])
              ∗ ((s2W).view.loc (thr d L) ↦{fullShare} G12 fi (wid L) b))
            ∗ ((ptW).view.loc (thr d L) ↦[(ptSl).view.set]{q0} fp))
        ∗ ((ptW).view.loc (thr d L) ↦[Finset.univ \ (ptSl).view.set]{q0} fp)) : sProp 𝕄)
      ⊢ GFlight0 d L q0 fi fp b := by
  subst hP
  rw [show (s6W).view.writes (Elt F) f6 [⟨Rect.whole cc1_scratch6.ty.shape, ROWS fp (G12 fi (wid L) b)⟩] = ROWS fp (G12 fi (wid L) b)
    from writes_whole_one cc1_scratch6 f6 _]
  unfold GFlight0
  exact Entails.rfl

/-- The same for slot 1: rows buffer 7, row list 3, the second gather semaphore. -/
theorem gflight1_of_run (b : ℕ) (f7 : Buf (Elt F) ((s7W).view.loc (thr d L))) (P : S128x128.Idx → Elt F .f32)
    (hP : P = ROWS fp (G12 fi (wid L) b)) :
    (iprop(Transfers.Flight countersEmb (thr d L) (SemLoc.dma cc1_scratch11.sem) default 524288
          iprop((((s7W).view.loc (thr d L) ↦{fullShare} (s7W).view.writes (Elt F) f7 [⟨Rect.whole cc1_scratch7.ty.shape, P⟩])
              ∗ ((s3W).view.loc (thr d L) ↦{fullShare} G12 fi (wid L) b))
            ∗ ((ptW).view.loc (thr d L) ↦[(ptSl).view.set]{q1} fp))
        ∗ ((ptW).view.loc (thr d L) ↦[Finset.univ \ (ptSl).view.set]{q1} fp)) : sProp 𝕄)
      ⊢ GFlight1 d L q1 fi fp b := by
  subst hP
  rw [show (s7W).view.writes (Elt F) f7 [⟨Rect.whole cc1_scratch7.ty.shape, ROWS fp (G12 fi (wid L) b)⟩] = ROWS fp (G12 fi (wid L) b)
    from writes_whole_one cc1_scratch7 f7 _]
  unfold GFlight1
  exact Entails.rfl

/-- The invariant's flight laid out as the run's wait reads it (slot 0). -/
theorem gflight0_to_run (b : ℕ) :
    (GFlight0 d L q0 fi fp b : sProp 𝕄)
      ⊢ iprop(Transfers.Flight countersEmb (thr d L) (SemLoc.dma cc1_scratch10.sem) default 524288
          iprop((((s6W).view.loc (thr d L) ↦{fullShare} ROWS fp (G12 fi (wid L) b)) ∗ ((s2W).view.loc (thr d L) ↦{fullShare} G12 fi (wid L) b))
            ∗ ((ptW).view.loc (thr d L) ↦[(ptSl).view.set]{q0} fp))
        ∗ ((ptW).view.loc (thr d L) ↦[Finset.univ \ (ptSl).view.set]{q0} fp)) := by
  unfold GFlight0; exact Entails.rfl

/-- The invariant's flight laid out as the run's wait reads it (slot 1). -/
theorem gflight1_to_run (b : ℕ) :
    (GFlight1 d L q1 fi fp b : sProp 𝕄)
      ⊢ iprop(Transfers.Flight countersEmb (thr d L) (SemLoc.dma cc1_scratch11.sem) default 524288
          iprop((((s7W).view.loc (thr d L) ↦{fullShare} ROWS fp (G12 fi (wid L) b)) ∗ ((s3W).view.loc (thr d L) ↦{fullShare} G12 fi (wid L) b))
            ∗ ((ptW).view.loc (thr d L) ↦[(ptSl).view.set]{q1} fp))
        ∗ ((ptW).view.loc (thr d L) ↦[Finset.univ \ (ptSl).view.set]{q1} fp)) := by
  unfold GFlight1; exact Entails.rfl

/-- The same, stated at the gather's own payload term: with the row list's words in range (`hin`) the payload is the
    rows the quotients name, so the run's flight is the invariant's as it stands. -/
theorem gflight0_run (b : ℕ) (f6 : Buf (Elt F) ((s6W).view.loc (thr d L)))
    (hin : ∀ j, ((s2W).view.read (Elt F) (G12 fi (wid L) b) j).toNat < S10000x128.size gathers_S10000x128_S128x128.axis) :
    (iprop(Transfers.Flight countersEmb (thr d L) (SemLoc.dma cc1_scratch10.sem) default 524288
          iprop((((s6W).view.loc (thr d L) ↦{fullShare} (s6W).view.writes (Elt F) f6 [⟨Rect.whole cc1_scratch6.ty.shape,
                  SparseCore.gatherPayload (F := F) gathers_S10000x128_S128x128 ((ptSl).view.read (Elt F) fp)
                    (SparseCore.rows (F := F) ((s2W).view.read (Elt F) (G12 fi (wid L) b)) rfl hin)⟩])
              ∗ ((s2W).view.loc (thr d L) ↦{fullShare} G12 fi (wid L) b))
            ∗ ((ptW).view.loc (thr d L) ↦[(ptSl).view.set]{q0} fp))
        ∗ ((ptW).view.loc (thr d L) ↦[Finset.univ \ (ptSl).view.set]{q0} fp)) : sProp 𝕄)
      ⊢ GFlight0 d L q0 fi fp b :=
  gflight0_of_run d L q0 fi fp b f6 _ (gather_rows fp _ _ hin)

theorem gflight1_run (b : ℕ) (f7 : Buf (Elt F) ((s7W).view.loc (thr d L)))
    (hin : ∀ j, ((s3W).view.read (Elt F) (G12 fi (wid L) b) j).toNat < S10000x128.size gathers_S10000x128_S128x128.axis) :
    (iprop(Transfers.Flight countersEmb (thr d L) (SemLoc.dma cc1_scratch11.sem) default 524288
          iprop((((s7W).view.loc (thr d L) ↦{fullShare} (s7W).view.writes (Elt F) f7 [⟨Rect.whole cc1_scratch7.ty.shape,
                  SparseCore.gatherPayload (F := F) gathers_S10000x128_S128x128 ((ptSl).view.read (Elt F) fp)
                    (SparseCore.rows (F := F) ((s3W).view.read (Elt F) (G12 fi (wid L) b)) rfl hin)⟩])
              ∗ ((s3W).view.loc (thr d L) ↦{fullShare} G12 fi (wid L) b))
            ∗ ((ptW).view.loc (thr d L) ↦[(ptSl).view.set]{q1} fp))
        ∗ ((ptW).view.loc (thr d L) ↦[Finset.univ \ (ptSl).view.set]{q1} fp)) : sProp 𝕄)
      ⊢ GFlight1 d L q1 fi fp b :=
  gflight1_of_run d L q1 fi fp b f7 _ (gather_rows' fp _ _ hin)

end Cert.Proof.KI

end
-- ==== Proof.OSStep.lean ====
/-
  The copy-out side of one outer trip of a vector subcore, as statements about what it holds of the flat result.
  Trip k issues two copies, slot 0's out scratch into block 2 k and slot 1's into block 2 k + 1, after the two copies of
  the trip before have landed in blocks 2 (k − 1) and 2 (k − 1) + 1. The 104 blocks of the subcore's words are pairwise
  disjoint, so: the two landed windows and what was left of the region rejoin to the region less the two new blocks; off
  those two blocks the new writes change nothing; on a block just written the contents are the scratch's words whatever
  was there before. Hence the two flights and the rest are the loop invariant's copy-out side for the next trip, and the
  blocks below 2 k hold the kernel's words.
-/
import proofs.«207215_g13752485282153_cont_week2b_1454_30_alg».proof.Proof.Common
import proofs.«207215_g13752485282153_cont_week2b_1454_30_alg».proof.Proof.TileInv
import proofs.«207215_g13752485282153_cont_week2b_1454_30_alg».proof.Proof.TileInv2
import proofs.«207215_g13752485282153_cont_week2b_1454_30_alg».proof.Proof.CopyOut
import proofs.«207215_g13752485282153_cont_week2b_1454_30_alg».proof.Proof.OutBlocks3

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

variable (d : Dev nD) (L : grid1.Coords) (q q0 q1 : PosShare TreeShare)
variable (fi : Buf (Elt F) ((idxW).view.loc (thr d L))) (fp : Buf (Elt F) ((ptW).view.loc (thr d L)))
  (fc : Buf (Elt F) ((ctW).view.loc (thr d L)))
variable (O : CellTallies nD τ sig (HIx 1)) (W : Waits sig (HIx 1))

/-! ## Blocks of different numbers are disjoint; each lies in the subcore's words -/

omit [FloatOps F] [Named F] in
theorem sub_sdiff2 {α : Type} [DecidableEq α] {s r a b : Finset α} (hr : s ⊆ r) (ha : Disjoint s a) (hb : Disjoint s b) :
    s ⊆ (r \ a) \ b :=
  Finset.subset_sdiff.mpr ⟨Finset.subset_sdiff.mpr ⟨hr, ha⟩, hb⟩

omit [FloatOps F] [Named F] in
theorem sdiff_comm4 {α : Type} [DecidableEq α] (r a b c e : Finset α) : (((r \ a) \ b) \ c) \ e = (((r \ c) \ e) \ a) \ b := by
  ext i; simp only [Finset.mem_sdiff]; tauto

omit [FloatOps F] [Named F] in
theorem sub_sdiff3 {α : Type} [DecidableEq α] {s r a b c : Finset α} (hr : s ⊆ r) (ha : Disjoint s a) (hb : Disjoint s b)
    (hc : Disjoint s c) : s ⊆ ((r \ a) \ b) \ c :=
  Finset.subset_sdiff.mpr ⟨sub_sdiff2 hr ha hb, hc⟩

omit [FloatOps F] [Named F] in
theorem blkD (b b' : ℕ) (hb : b < 104) (hb' : b' < 104) (hne : b ≠ b') : Disjoint (blkSet L b) (blkSet L b') :=
  blk_disjoint L b (Finset.mem_range.mpr hb) b' (Finset.mem_range.mpr hb') hne

omit [FloatOps F] [Named F] in
theorem os_blk0_reg (t : Fin k1_t1_loop.trips) : (blk0 L t).view.set ⊆ (outW).view.setOn (oRectC L).set := by
  rw [← oSet_eq_oReg, ← even_union_odd]
  exact (blk0_sub_even L t).trans Finset.subset_union_left

omit [FloatOps F] [Named F] in
theorem os_blk1_reg (t : Fin k1_t1_loop.trips) : (blk1 L t).view.set ⊆ (outW).view.setOn (oRectC L).set := by
  rw [← oSet_eq_oReg, ← even_union_odd]
  exact (blk1_sub_odd L t).trans Finset.subset_union_right

omit [FloatOps F] [Named F] in
theorem os_d00 (t t' : Fin k1_t1_loop.trips) (h : t.val ≠ t'.val) : Disjoint (blk0 L t).view.set (blk0 L t').view.set := by
  rw [blk0_set, blk0_set]; have := trip_lt t; have := trip_lt t'
  exact blkD L _ _ (by omega) (by omega) (by omega)

omit [FloatOps F] [Named F] in
theorem os_d11 (t t' : Fin k1_t1_loop.trips) (h : t.val ≠ t'.val) : Disjoint (blk1 L t).view.set (blk1 L t').view.set := by
  rw [blk1_set, blk1_set]; have := trip_lt t; have := trip_lt t'
  exact blkD L _ _ (by omega) (by omega) (by omega)

omit [FloatOps F] [Named F] in
theorem os_d01 (t t' : Fin k1_t1_loop.trips) : Disjoint (blk0 L t).view.set (blk1 L t').view.set := by
  rw [blk0_set, blk1_set]; have := trip_lt t; have := trip_lt t'
  exact blkD L _ _ (by omega) (by omega) (by omega)

omit [FloatOps F] [Named F] in
theorem tOf_val (k : Fin k1_t1_loop.trips) (hk0 : k.val ≠ 0) : (tOf k.val).val = k.val - 1 := by
  have h := trip_lt k
  show (k.val - 1) % 52 = k.val - 1
  omega

/-! ## What the two by-hand issues of trip k ask: the new blocks lie in what is held -/

omit [FloatOps F] [Named F] in
/-- Slot 0's new block lies in the region less the previous trip's two blocks. -/
theorem blk0_sub_R (k : Fin k1_t1_loop.trips) (hk0 : k.val ≠ 0) :
    (blk0 L k).view.set ⊆ ((outW).view.setOn (oRectC L).set \ (blk0 L (tOf k.val)).view.set) \ (blk1 L (tOf k.val)).view.set := by
  have hp := tOf_val k hk0
  exact sub_sdiff2 (os_blk0_reg L k) (os_d00 L k (tOf k.val) (by omega)) (os_d01 L k (tOf k.val))

omit [FloatOps F] [Named F] in
/-- Slot 1's new block lies in that, less slot 0's new block. -/
theorem blk1_sub_R' (k : Fin k1_t1_loop.trips) (hk0 : k.val ≠ 0) :
    (blk1 L k).view.set ⊆ (((outW).view.setOn (oRectC L).set \ (blk0 L (tOf k.val)).view.set) \ (blk1 L (tOf k.val)).view.set) \ (blk0 L k).view.set := by
  have hp := tOf_val k hk0
  exact sub_sdiff3 (os_blk1_reg L k) (os_d01 L (tOf k.val) k).symm (os_d11 L k (tOf k.val) (by omega)) (os_d01 L k k).symm

omit [FloatOps F] [Named F] in
/-- On the first trip the region is whole: slot 0's block lies in it. -/
theorem blk0_sub_reg0 (k : Fin k1_t1_loop.trips) : (blk0 L k).view.set ⊆ (outW).view.setOn (oRectC L).set := os_blk0_reg L k

omit [FloatOps F] [Named F] in
/-- On the first trip: slot 1's block lies in the region less slot 0's. -/
theorem blk1_sub_reg0 (k : Fin k1_t1_loop.trips) : (blk1 L k).view.set ⊆ (outW).view.setOn (oRectC L).set \ (blk0 L k).view.set :=
  Finset.subset_sdiff.mpr ⟨os_blk1_reg L k, (os_d01 L k k).symm⟩

/-! ## Contents: a block just written holds the scratch's words; off the written blocks nothing changes -/

omit [FloatOps F] [Named F] in
/-- On slot 1's block the written contents do not depend on what was there. -/
theorem wr1_on_blk1 (k : Fin k1_t1_loop.trips) (f f' : Buf (Elt F) ((outW).view.loc (thr d L)))
    (g : Buf (Elt F) ((s9W).view.loc (thr d L))) :
    ∀ i ∈ (blk1 L k).view.set, wr1 d L k f g i = wr1 d L k f' g i := by
  intro i hi
  obtain ⟨x, -, rfl⟩ := Finset.mem_map.mp hi
  exact (View.write_emb_of_mem _ _ (Finset.mem_univ x)).trans (View.write_emb_of_mem _ _ (Finset.mem_univ x)).symm

omit [FloatOps F] [Named F] in
/-- Off both new blocks the two writes of trip k change nothing. -/
theorem wr_off (k : Fin k1_t1_loop.trips) (C : Buf (Elt F) ((outW).view.loc (thr d L)))
    (g0 : Buf (Elt F) ((s8W).view.loc (thr d L))) (g1 : Buf (Elt F) ((s9W).view.loc (thr d L))) :
    ∀ i ∈ ((outW).view.setOn (oRectC L).set \ (blk0 L k).view.set) \ (blk1 L k).view.set, C i = wr1 d L k (wr0 d L k C g0) g1 i := by
  intro i hi
  obtain ⟨hi0, hn1⟩ := Finset.mem_sdiff.mp hi
  obtain ⟨-, hn0⟩ := Finset.mem_sdiff.mp hi0
  exact ((View.write_of_not_mem (v := (blk1 L k).view) _ _ Finset.univ (fun hm => hn1 (by rwa [View.setOn_univ] at hm))).trans
    (View.write_of_not_mem (v := (blk0 L k).view) _ _ Finset.univ (fun hm => hn0 (by rwa [View.setOn_univ] at hm)))).symm

/-! ## The two flights as the invariant holds them -/

/-- The words slot 0's out scratch holds at the end of trip `t`: block 2 t's. -/
abbrev og0 (t : Fin k1_t1_loop.trips) : Buf (Elt F) ((s8W).view.loc (thr d L)) := OUTS fi fp fc (wid L) (2 * t.val + 0)
/-- The words slot 1's out scratch holds at the end of trip `t`: block 2 t + 1's. -/
abbrev og1 (t : Fin k1_t1_loop.trips) : Buf (Elt F) ((s9W).view.loc (thr d L)) := OUTS fi fp fc (wid L) (2 * t.val + 1)
/-- The result's contents at the head of trip `k`'s copy-outs: `fo` after the previous trip's two writes. -/
abbrev oC (k : Fin k1_t1_loop.trips) (fo : Buf (Elt F) ((outW).view.loc (thr d L))) : Buf (Elt F) ((outW).view.loc (thr d L)) :=
  wr1 d L (tOf k.val) (wr0 d L (tOf k.val) fo (og0 d L fi fp fc (tOf k.val))) (og1 d L fi fp fc (tOf k.val))

/-- From the two copies issued by hand on trip k over contents C, and the region less the two new blocks at C: the
    invariant's two flights and rest for the next loop head. -/
theorem os_core (k : Fin k1_t1_loop.trips) (C : Buf (Elt F) ((outW).view.loc (thr d L)))
    (g0 : Buf (Elt F) ((s8W).view.loc (thr d L))) (g1 : Buf (Elt F) ((s9W).view.loc (thr d L))) :
    (iprop(CopyFlight0 d L k C g0 ∗ CopyFlight1 d L k C g1
        ∗ ((outW).view.loc (thr d L) ↦[((outW).view.setOn (oRectC L).set \ (blk0 L k).view.set) \ (blk1 L k).view.set]{fullShare} C)) : sProp 𝕄)
      ⊢ iprop(OFlight0 d L k C g0 ∗ OFlight1 d L k (wr0 d L k C g0) g1
          ∗ ORest d L (((outW).view.setOn (oRectC L).set \ (blk0 L k).view.set) \ (blk1 L k).view.set) (wr1 d L k (wr0 d L k C g0) g1)) := by
  have e1 : ((outW).view.loc (thr d L) ↦[(blk1 L k).view.set]{fullShare} wr1 d L k C g1 : sProp 𝕄)
      = ((outW).view.loc (thr d L) ↦[(blk1 L k).view.set]{fullShare} wr1 d L k (wr0 d L k C g0) g1) :=
    pointsTo_congr (wr1_on_blk1 d L k _ _ g1)
  have e8 : ((s8W).view.loc (thr d L) ↦[Finset.univ \ (s8W).view.set]{fullShare} g0 : sProp 𝕄) = (iprop(emp) : sProp 𝕄) := by
    rw [(Memref.isWhole_whole _).set_eq_univ (m := s8W), Finset.sdiff_self, pointsTo_empty]
  have e9 : ((s9W).view.loc (thr d L) ↦[Finset.univ \ (s9W).view.set]{fullShare} g1 : sProp 𝕄) = (iprop(emp) : sProp 𝕄) := by
    rw [(Memref.isWhole_whole _).set_eq_univ (m := s9W), Finset.sdiff_self, pointsTo_empty]
  unfold CopyFlight0 CopyFlight1 OFlight0 OFlight1 ORest
  rw [e8, e9, ← e1]
  iintro ⟨HA, HB, HR⟩
  isplitl [HA]
  · isplitl [HA]; · iexact HA
    iempintro
  isplitl [HB]
  · isplitl [HB]
    · iexact HB
    · iempintro
  · iapply (Entails.of_eq (pointsTo_congr (ℓ := (outW).view.loc (thr d L)) (wr_off d L k C g0 g1))) $$ HR

/-- THE FIRST TRIP: nothing has landed, the region is whole at `fo`. -/
theorem os_step_first (k : Fin k1_t1_loop.trips) (fo : Buf (Elt F) ((outW).view.loc (thr d L))) :
    (iprop(CopyFlight0 d L k fo (og0 d L fi fp fc k) ∗ CopyFlight1 d L k fo (og1 d L fi fp fc k)
        ∗ ((outW).view.loc (thr d L) ↦[((outW).view.setOn (oRectC L).set \ (blk0 L k).view.set) \ (blk1 L k).view.set]{fullShare} fo)) : sProp 𝕄)
      ⊢ iprop(OFlight0 d L k fo (og0 d L fi fp fc k)
          ∗ OFlight1 d L k (wr0 d L k fo (og0 d L fi fp fc k)) (og1 d L fi fp fc k)
          ∗ ORest d L (((outW).view.setOn (oRectC L).set \ (blk0 L k).view.set) \ (blk1 L k).view.set)
              (wr1 d L k (wr0 d L k fo (og0 d L fi fp fc k)) (og1 d L fi fp fc k))) :=
  os_core d L k fo _ _

set_option maxHeartbeats 2000000 in
/-- A LATER TRIP k: the previous trip's two windows have landed (slot 0's at the contents its own write left, slot 1's at
    the contents C after both), the two new copies are issued over C, and what is left of the region is at C: the
    invariant's copy-out side for loop head k + 1, over C. -/
theorem os_step (k : Fin k1_t1_loop.trips) (hk0 : k.val ≠ 0) (fo : Buf (Elt F) ((outW).view.loc (thr d L))) :
    (iprop(CopyFlight0 d L k (oC d L fi fp fc k fo) (og0 d L fi fp fc k)
        ∗ CopyFlight1 d L k (oC d L fi fp fc k fo) (og1 d L fi fp fc k)
        ∗ ((outW).view.loc (thr d L) ↦[(blk0 L (tOf k.val)).view.set]{fullShare} wr0 d L (tOf k.val) fo (og0 d L fi fp fc (tOf k.val)))
        ∗ ((outW).view.loc (thr d L) ↦[(blk1 L (tOf k.val)).view.set]{fullShare} oC d L fi fp fc k fo)
        ∗ ((outW).view.loc (thr d L) ↦[(((((outW).view.setOn (oRectC L).set \ (blk0 L (tOf k.val)).view.set) \ (blk1 L (tOf k.val)).view.set) \ (blk0 L k).view.set) \ (blk1 L k).view.set)]{fullShare}
            oC d L fi fp fc k fo)) : sProp 𝕄)
      ⊢ iprop(OFlight0 d L k (oC d L fi fp fc k fo) (og0 d L fi fp fc k)
          ∗ OFlight1 d L k (wr0 d L k (oC d L fi fp fc k fo) (og0 d L fi fp fc k)) (og1 d L fi fp fc k)
          ∗ ORest d L (((outW).view.setOn (oRectC L).set \ (blk0 L k).view.set) \ (blk1 L k).view.set)
              (wr1 d L k (wr0 d L k (oC d L fi fp fc k fo) (og0 d L fi fp fc k)) (og1 d L fi fp fc k))) := by
  have hp := tOf_val k hk0
  -- the previous trip's blocks lie in the region less the two new ones
  have h0T : (blk0 L (tOf k.val)).view.set ⊆ ((outW).view.setOn (oRectC L).set \ (blk0 L k).view.set) \ (blk1 L k).view.set :=
    sub_sdiff2 (os_blk0_reg L (tOf k.val)) (os_d00 L (tOf k.val) k (by omega)) (os_d01 L (tOf k.val) k)
  have h1T : (blk1 L (tOf k.val)).view.set ⊆ (((outW).view.setOn (oRectC L).set \ (blk0 L k).view.set) \ (blk1 L k).view.set) \ (blk0 L (tOf k.val)).view.set :=
    sub_sdiff3 (os_blk1_reg L (tOf k.val)) (os_d01 L k (tOf k.val)).symm (os_d11 L (tOf k.val) k (by omega)) (os_d01 L (tOf k.val) (tOf k.val)).symm
  have hset : (((((outW).view.setOn (oRectC L).set \ (blk0 L (tOf k.val)).view.set) \ (blk1 L (tOf k.val)).view.set) \ (blk0 L k).view.set) \ (blk1 L k).view.set)
      = ((((outW).view.setOn (oRectC L).set \ (blk0 L k).view.set) \ (blk1 L k).view.set) \ (blk0 L (tOf k.val)).view.set) \ (blk1 L (tOf k.val)).view.set :=
    sdiff_comm4 _ _ _ _ _
  -- on slot 0's previous block, slot 1's previous write changed nothing
  have hW0 : ∀ i ∈ (blk0 L (tOf k.val)).view.set,
      wr0 d L (tOf k.val) fo (og0 d L fi fp fc (tOf k.val)) i = oC d L fi fp fc k fo i :=
    fun i hi => (View.write_of_not_mem (v := (blk1 L (tOf k.val)).view) _ _ Finset.univ (fun hm =>
      Finset.disjoint_left.mp (os_d01 L (tOf k.val) (tOf k.val)) hi (by rwa [View.setOn_univ] at hm))).symm
  rw [hset]
  iintro ⟨HA, HB, HW0, HW1, HRr⟩
  ihave HW0' := (Entails.of_eq (pointsTo_congr (ℓ := (outW).view.loc (thr d L)) hW0)) $$ HW0
  ihave H1 := ((pointsTo_split_subset (ℓ := (outW).view.loc (thr d L)) h1T).2) $$ [HW1 HRr]
  · isplitl [HW1]; · iexact HW1
    iexact HRr
  ihave HT := ((pointsTo_split_subset (ℓ := (outW).view.loc (thr d L)) h0T).2) $$ [HW0' H1]
  · isplitl [HW0']; · iexact HW0'
    iexact H1
  iapply (os_core d L k _ _ _) $$ [HA HB HT]
  isplitl [HA]; · iexact HA
  isplitl [HB]; · iexact HB
  iexact HT

/-! ## The pure part: the blocks below 2 k hold the kernel's words after the previous trip's two writes -/

omit [Named F] in
theorem os_blocks (k : Fin k1_t1_loop.trips) (hk0 : k.val ≠ 0) (fo : Buf (Elt F) ((outW).view.loc (thr d L)))
    (hprev : ∀ b, b < 2 * (k.val - 1) → BlockOK fi fp fc (wid L) b fo) :
    ∀ b, b < 2 * k.val → BlockOK fi fp fc (wid L) b (oC d L fi fp fc k fo) := by
  have hp := tOf_val k hk0
  intro b hb
  exact blockOK_trip d L fi fp fc (tOf k.val) fo _ _ rfl rfl (fun b' hb' => hprev b' (by rw [hp] at hb'; exact hb')) b (by rw [hp]; omega)

end Cert.Proof.KI

end
-- ==== Proof.LoopExit.lean ====
/-
  The exit of the outer loop of one vector subcore. After the last of the 52 trips both slots' gather sides are idle and
  the two copy-outs of that trip's blocks 102 and 103 are outstanding. The kernel's two closing waits, each naming the
  subcore's first block, lower the two copy-out counters by one block's credit: the two blocks land, the subcore's words
  of the result are whole again at the contents the last two writes leave, and with the 102 blocks the invariant
  records, all 104 blocks hold the kernel's words.
-/
import proofs.«207215_g13752485282153_cont_week2b_1454_30_alg».proof.Proof.Common
import proofs.«207215_g13752485282153_cont_week2b_1454_30_alg».proof.Proof.TileInv
import proofs.«207215_g13752485282153_cont_week2b_1454_30_alg».proof.Proof.TileInv2
import proofs.«207215_g13752485282153_cont_week2b_1454_30_alg».proof.Proof.CopyOut
import proofs.«207215_g13752485282153_cont_week2b_1454_30_alg».proof.Proof.OutBlocks3

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

variable (d : Dev nD) (L : grid1.Coords) (q q0 q1 : PosShare TreeShare)
variable (fi : Buf (Elt F) ((idxW).view.loc (thr d L))) (fp : Buf (Elt F) ((ptW).view.loc (thr d L)))
  (fc : Buf (Elt F) ((ctW).view.loc (thr d L)))
variable (O : CellTallies nD τ sig (HIx 1)) (W : Waits sig (HIx 1))

/-- The first block of the subcore's words, as the two closing waits name it. -/
abbrev blkFirst : Memref sig .scVector .hbm S8192 .f32 :=
  (outW).slice (Rect.unit (s := S27262976) (k1_off9 L) S8192.size (k1_off9_inb L)) (fun _ => rfl)

/-- The kernel's closing statements after the outer loop: the two waits for the last trip's copy-outs, and the return. -/
def exitTail : Prog (TpuEff nD τ sig (Elt F) Λ₀ (thr d L).2) PUnit := do
  let v103 : Memref sig .scVector .hbm S8192 .f32 := (outW).slice (Rect.unit (s := S27262976) (k1_off9 L) S8192.size (k1_off9_inb L)) (fun _ => rfl)
  Prog.lift (.waitDma2 cc1_scratch12.sem s8W v103 (Memref.isWhole_whole _).wordExact (View.wordExact_bits rfl))
  let v106 : Memref sig .scVector .hbm S8192 .f32 := (outW).slice (Rect.unit (s := S27262976) (k1_off9 L) S8192.size (k1_off9_inb L)) (fun _ => rfl)
  Prog.lift (.waitDma2 cc1_scratch13.sem s9W v106 (Memref.isWhole_whole _).wordExact (View.wordExact_bits rfl))
  pure ⟨⟩

/-- The four semaphores of the loop (two gather, two copy-out), counters at zero. -/
def semsZero4 : sProp 𝕄 :=
  iprop(semVal (thr d L, SemLoc.dma cc1_scratch10.sem) 0 ∗ semVal (thr d L, SemLoc.dma cc1_scratch11.sem) 0
    ∗ semVal (thr d L, SemLoc.dma cc1_scratch12.sem) 0 ∗ semVal (thr d L, SemLoc.dma cc1_scratch13.sem) 0)

/-- What the subcore holds at the return: the read shares back, its words of the result holding the kernel's words, its
    scratch at anything, the loop's four semaphores at zero, and what it owes. -/
def ExitPost (_ : PUnit) : sProp 𝕄 :=
  iprop(Transfers.MayWaits (thr d L) (none : HIx 1) O
    ∗ ((idxW).view.loc (thr d L) ↦{q} fi) ∗ ((ptW).view.loc (thr d L) ↦{q0} fp) ∗ ((ptW).view.loc (thr d L) ↦{q1} fp)
    ∗ ((ctW).view.loc (thr d L) ↦{q} fc)
    ∗ (∃ f : Buf (Elt F) ((outW).view.loc (thr d L)), ((outW).view.loc (thr d L) ↦[oSet L]{fullShare} f) ∗ ⌜TileSpec.OutOK (F := F) fi fp fc (wid L) f⌝)
    ∗ scratchAny d L ∗ semsZero4 d L ∗ ∃ W', ⌜∀ p ∈ W', p ∈ W ∨ p.2 = none⌝ ∗ owes (thr d L) O W')

omit [FloatOps F] [Named F] in
theorem tOf52 : ((tOf 52 : Fin k1_t1_loop.trips) : ℕ) = 51 := rfl

/-- The closing statements in head form: the first wait, then the second, then the return. -/
theorem exitTail_eq :
    exitTail (F := F) d L
      = .op (.waitDma2 cc1_scratch12.sem s8W (blkFirst L) (Memref.isWhole_whole _).wordExact (View.wordExact_bits rfl))
          (fun _ => .op (.waitDma2 cc1_scratch13.sem s9W (blkFirst L) (Memref.isWhole_whole _).wordExact (View.wordExact_bits rfl))
            (fun _ => .ret ⟨⟩)) := rfl

omit [FloatOps F] [Named F] in
/-- A block of 8192 words credits 8192 · 32 bits, whichever block it is. -/
theorem blkFirst_credit : (blkFirst L).view.dmaCredit = 262144 := rfl

omit [FloatOps F] [Named F] in
theorem blk0_sub_reg (t : Fin k1_t1_loop.trips) : (blk0 L t).view.set ⊆ (outW).view.setOn (oRectC L).set := by
  rw [← oSet_eq_oReg, ← even_union_odd]
  exact (blk0_sub_even L t).trans Finset.subset_union_left

omit [FloatOps F] [Named F] in
theorem blk01_disjoint (t : Fin k1_t1_loop.trips) : Disjoint (blk0 L t).view.set (blk1 L t).view.set :=
  Finset.disjoint_of_subset_left (blk0_sub_even L t) (Finset.disjoint_of_subset_right (blk1_sub_odd L t) (even_odd_disjoint L))

omit [FloatOps F] [Named F] in
theorem blk1_sub_reg (t : Fin k1_t1_loop.trips) :
    (blk1 L t).view.set ⊆ (outW).view.setOn (oRectC L).set \ (blk0 L t).view.set := by
  intro i hi
  refine Finset.mem_sdiff.mpr ⟨?_, fun h0 => Finset.disjoint_left.mp (blk01_disjoint L t) h0 hi⟩
  rw [← oSet_eq_oReg, ← even_union_odd]
  exact Finset.mem_union_right _ (blk1_sub_odd L t hi)

/-- THE EXIT: from the invariant after the last trip, the two closing waits land the last trip's two blocks, the subcore's
    words are whole again and every one of its 104 blocks holds the kernel's words. -/
theorem loop_exit :
    KI.Inv d L q q0 q1 fi fp fc O W 52 ⟨⟩
      ⊢ wp frame (wpE (defs₀ (F := F)) 𝒱₀ (thr d L) none) Set.univ (exitTail (F := F) d L) (ExitPost d L q q0 q1 fi fp fc O W) := by
  rw [exitTail_eq]
  unfold KI.Inv
  rw [GSide0_ge d L q0 fi fp (show ¬ (52 < 52) by decide), OS_pos d L fi fp fc (show (52 : ℕ) ≠ 0 by decide)]
  unfold Base KI.Owes GIdle0 D3Any0 GIdle1 D3Any1 OFlight0 OFlight1 ORest
  iintro ⟨⟨#Hmw, Hi, Hc, H0, H1⟩, ⟨⟨H6, H2, Hp0, Hg0⟩, H4⟩, ⟨H7, H3, Hp1, Hg1⟩, H5, ⟨%fo, %hprev, ⟨HF0, Hr8⟩, ⟨HF1, Hr9⟩, HR⟩, ⟨%W', %hW', HO⟩⟩
  -- the first wait: slot 0's copy-out of the last trip lands
  iapply (Transfers.wp_waitLocalO countersEmb 𝒱₀ (thr d L) none (none : HIx 1) (blkFirst_credit L)) $$ [HF0 HO]
  · isplitl [HF0]; · iexact HF0
    isplitl [HO]; · iexact HO
    iapply (Transfers.MayWaits.elim (SemLoc.dma cc1_scratch12.sem)) $$ Hmw
  iintro ⟨⟨Hd0, Hs8⟩, Hv12, HO⟩
  -- the second wait: slot 1's
  iapply (Transfers.wp_waitLocalO countersEmb 𝒱₀ (thr d L) none (none : HIx 1) (blkFirst_credit L)) $$ [HF1 HO]
  · isplitl [HF1]; · iexact HF1
    isplitl [HO]; · iexact HO
    iapply (Transfers.MayWaits.elim (SemLoc.dma cc1_scratch13.sem)) $$ Hmw
  iintro ⟨⟨Hd1, Hs9⟩, Hv13, HO⟩
  -- the contents after both copy-outs, block by block
  have ht : ((tOf 52 : Fin k1_t1_loop.trips) : ℕ) = 51 := tOf52
  have hall : ∀ b, b < 104 → BlockOK fi fp fc (wid L) b
      (wr1 d L (tOf 52) (wr0 d L (tOf 52) fo (OUTS fi fp fc (wid L) (2 * (tOf 52).val + 0))) (OUTS fi fp fc (wid L) (2 * (tOf 52).val + 1))) :=
    fun b hb => blockOK_trip d L fi fp fc (tOf 52) fo _ _ rfl rfl (fun b' hb' => hprev b' (by rw [ht] at hb'; omega)) b (by rw [ht]; omega)
  have hOutOK := outOK_of_blocks fi fp fc (wid L) _ hall
  -- off slot 1's block the second write changes nothing: slot 0's block is at the final contents
  have hagree : ∀ i ∈ (blk0 L (tOf 52)).view.set,
      wr0 d L (tOf 52) fo (OUTS fi fp fc (wid L) (2 * (tOf 52).val + 0)) i
        = wr1 d L (tOf 52) (wr0 d L (tOf 52) fo (OUTS fi fp fc (wid L) (2 * (tOf 52).val + 0))) (OUTS fi fp fc (wid L) (2 * (tOf 52).val + 1)) i :=
    fun i hi => (View.write_of_not_mem (v := (blk1 L (tOf 52)).view) _ _ Finset.univ (fun hm =>
      Finset.disjoint_left.mp (blk01_disjoint L (tOf 52)) hi (by rwa [View.setOn_univ] at hm))).symm
  -- the subcore's words whole again
  ihave HRa := ((pointsTo_split_subset (ℓ := (outW).view.loc (thr d L)) (blk1_sub_reg L (tOf 52))).2) $$ [Hd1 HR]
  · isplitl [Hd1]; · iexact Hd1
    iexact HR
  ihave Hd0' := (Entails.of_eq (pointsTo_congr (ℓ := (outW).view.loc (thr d L)) hagree)) $$ Hd0
  ihave Hall := ((pointsTo_split_subset (ℓ := (outW).view.loc (thr d L)) (blk0_sub_reg L (tOf 52))).2) $$ [Hd0' HRa]
  · isplitl [Hd0']; · iexact Hd0'
    iexact HRa
  iclear Hr8 Hr9
  iapply (le_wp_ret _ _)
  unfold ExitPost scratchAny semsZero4
  isplitl []; · iexact Hmw
  isplitl [Hi]; · iexact Hi
  isplitl [Hp0]; · iexact Hp0
  isplitl [Hp1]; · iexact Hp1
  isplitl [Hc]; · iexact Hc
  isplitl [Hall]
  · iexists _
    isplitl [Hall]
    · rw [oPts_oReg]; iexact Hall
    · ipureintro; exact hOutOK
  isplitl [H0 H1 H2 H3 H4 H5 H6 H7 Hs8 Hs9]
  · isplitl [H0]; · iexists _; iexact H0
    isplitl [H1]; · iexists _; iexact H1
    isplitl [H2]; · iexact H2
    isplitl [H3]; · iexact H3
    isplitl [H4]; · iexact H4
    isplitl [H5]; · iexact H5
    isplitl [H6]; · iexact H6
    isplitl [H7]; · iexact H7
    isplitl [Hs8]
    · iexists _; rw [(Memref.isWhole_whole _).set_eq_univ (m := s8W)]; iexact Hs8
    · iexists _; rw [(Memref.isWhole_whole _).set_eq_univ (m := s9W)]; iexact Hs9
  isplitl [Hg0 Hg1 Hv12 Hv13]
  · isplitl [Hg0]; · iexact Hg0
    isplitl [Hg1]; · iexact Hg1
    isplitl [Hv12]; · iexact Hv12
    iexact Hv13
  iexists (insert (SemLoc.dma cc1_scratch13.sem, (none : HIx 1)) (insert (SemLoc.dma cc1_scratch12.sem, (none : HIx 1)) W'))
  isplitr
  · ipureintro
    intro p hp
    rcases Finset.mem_insert.mp hp with rfl | hp
    · exact Or.inr rfl
    rcases Finset.mem_insert.mp hp with rfl | hp
    · exact Or.inr rfl
    exact hW' p hp
  · iexact HO

end Cert.Proof.KI

end
-- ==== Proof.TileRunProof.lean ====
import proofs.«207215_g13752485282153_cont_week2b_1454_30_alg».proof.Proof.Common
import proofs.«207215_g13752485282153_cont_week2b_1454_30_alg».proof.Proof.TileInv2
import proofs.«207215_g13752485282153_cont_week2b_1454_30_alg».proof.Proof.TileData2
import proofs.«207215_g13752485282153_cont_week2b_1454_30_alg».proof.Proof.OutBlocks3
import proofs.«207215_g13752485282153_cont_week2b_1454_30_alg».proof.Proof.ComputeLoop
import proofs.«207215_g13752485282153_cont_week2b_1454_30_alg».proof.Proof.Compute0
import proofs.«207215_g13752485282153_cont_week2b_1454_30_alg».proof.Proof.Compute1
import proofs.«207215_g13752485282153_cont_week2b_1454_30_alg».proof.Proof.GatherBridge
import proofs.«207215_g13752485282153_cont_week2b_1454_30_alg».proof.Proof.OSStep
import proofs.«207215_g13752485282153_cont_week2b_1454_30_alg».proof.Proof.LoopExit
/-
  The tile kernel on one vector subcore, run from its head to its end.

  Prologue: the subcore copies its 13312 index words and the third-core table into scratch, splits the first block's
  128 words into their digits (n / 100 for the row list, n % 100 for the digit list) and issues the row gather of
  block 0. Outer loop, 52 trips of two half-steps (slot 0 handles block 2 k, slot 1 block 2 k + 1): each half-step
  first prefetches the other slot's next block (digit split and row gather), waits for its own rows, waits for its
  own previous copy-out (none in the first trip), computes its block in the eight-trip inner loop and issues the
  copy of its 8192 words to the result. The invariant at the head of trip k says which gather and which copy-outs
  are outstanding and that blocks 0 … 2 (k − 1) − 1 of the subcore's words already hold the kernel's words. After the
  loop the last two copy-outs are waited for and every block holds its words.
-/

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [Named F]

omit [FloatOps F] [Named F] in
/-- A points-to at equal contents. -/
theorem pts_congr {ℓ : Loc nD τ sig} {q : PosShare TreeShare} {f g : Buf (Elt F) ℓ} (h : f = g) :
    (ℓ ↦{q} f : sProp 𝕄) ⊢ (ℓ ↦{q} g) := by subst h; iintro H; iexact H

set_option maxHeartbeats 8000000 in
/-- The kernel on a vector subcore runs to its end and leaves the kernel's words in the subcore's part of the result. -/
theorem tile_run_ok : TileRunOK F := by
  intro d L q q0 q1 fi fp fc fo hH hidx O W
  have h0 : Trip0 (F := F) d L := compute0_trip d L
  have h1 : Trip1 (F := F) d L := compute1_trip d L
  rw [cc1__sc_lookup_eq_skeleton]; unfold cc1__sc_lookup_skel
  rw [k1_part72_eq_skeleton, k1_part73_eq_skeleton, k1_part74_eq_skeleton]; unfold k1_part72_skel k1_part73_skel k1_part74_skel
  unfold scratchAny semsZero
  iintro ⟨Hmw, Hi, Hp0, Hp1, Hc, Ho, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, ⟨Hg0, Hg1, Ho0, Ho1, Hsa, Hsb⟩, HO⟩
  sl_exec
  ihave H0 := (pts_congr (F := F) (ℓ := (s0W).view.loc (thr d L)) (g := IDXV fi (wid L)) ?e0) $$ H0
  case e0 => sl_unfold_run_names; exact dma0_eq fi L f0
  ihave H1 := (pts_congr (F := F) (ℓ := (s1W).view.loc (thr d L)) (g := fc) ?e1) $$ H1
  case e1 => sl_unfold_run_names; exact dma1_eq fc f1
  ihave H2 := (pts_congr (F := F) (ℓ := (s2W).view.loc (thr d L)) (g := G12 fi (wid L) 0) ?e2) $$ H2
  case e2 =>
    sl_unfold_run_names
    first
      | (rw [dma0_eq fi L f0]; exact prologue12 hH fi hidx (wid L) _)
      | (simp only [dma0_eq fi L f0]; exact prologue12 hH fi hidx (wid L) _)
  ihave H4 := (pts_congr (F := F) (ℓ := (s4W).view.loc (thr d L)) (g := I3 fi (wid L) 0) ?e4) $$ H4
  case e4 =>
    sl_unfold_run_names
    first
      | (rw [dma0_eq fi L f0]; exact prologue3 hH fi hidx (wid L) _)
      | (simp only [dma0_eq fi L f0]; exact prologue3 hH fi hidx (wid L) _)
  have hin := hin_of (F := F) fi hidx (wid L) 0
  sl_exec
  -- the row gather of block 0 is outstanding; the subcore's words of the result in the spelling the copy-outs use
  sl_unfold_run_names
  ihave HGF := (gflight0_run d L q0 fi fp 0 _ hin) $$ [Hg0 Hp0]
  · isplitl [Hg0]; · iexact Hg0
    iexact Hp0
  ihave Ho := (Entails.of_eq (oPts_oReg d L fo)) $$ Ho
  sl_for (KI.Inv d L q q0 q1 fi fp fc O W) $$ [Hmw Hi Hc H0 H1 HGF H4 H3 H5 H7 Hp1 Hg1 H8 H9 Ho Ho0 Ho1 HO]
  case region =>
    intro k _
    have ht : (k : ℕ) < 52 := trip_lt k
    have k1_h1 : k1_cond1 k = 1#1 := cond1_all k
    by_cases hk0 : k.val = 0
    ·
      have k1_h2 : ¬ k1_cond2 k = 1#1 := fun h => by have := (cond2_iff k).mp h; omega
      have k1_h4 : ¬ k1_cond4 k = 1#1 := fun h => by have := (cond4_iff k).mp h; omega
      have k1_h3 : k1_cond3 k = 1#1 := (cond3_iff k).mpr (by omega)
      have hOS : OS d L fi fp fc k.val = OS d L fi fp fc 0 := congrArg (OS d L fi fp fc) hk0
      unfold KI.Inv
      rw [GSide0_lt d L q0 fi fp ht, hOS, OS_zero d L fi fp fc]
      unfold Base GFlight0 D3At0 GIdle1 D3Any1 KI.Owes
      iintro ⟨⟨Hmw, Hi, Hc, H0, H1⟩, ⟨⟨HF0, Hp0r⟩, H4⟩, ⟨⟨%f7, H7⟩, ⟨%f3, H3⟩, Hp1, Hg1⟩, ⟨%f5, H5⟩, ⟨%fo, %hfo, ⟨%f8, H8⟩, Hs0, ⟨%f9, H9⟩, Hs1, Hor⟩, ⟨%W', %hW', HO⟩⟩
      sl_unfold_run_names
      unfold k1_t1_body
      rw [k1_part69_eq_skeleton, k1_part70_eq_skeleton, k1_part71_eq_skeleton]; unfold k1_part69_skel k1_part70_skel k1_part71_skel
      rw [k1_part1_eq_skeleton, k1_part2_eq_skeleton, k1_part3_eq_skeleton, k1_part35_eq_skeleton, k1_part36_eq_skeleton, k1_part37_eq_skeleton]
      unfold k1_part1_skel k1_part2_skel k1_part3_skel k1_part35_skel k1_part36_skel k1_part37_skel
      sl_exec
      ihave H3 := (pts_congr (F := F) (ℓ := (s3W).view.loc (thr d L)) (g := G12 fi (wid L) (2 * k.val + 1)) ?e3) $$ H3
      case e3 => sl_unfold_run_names; exact prefetchA12 hH fi hidx (wid L) k k1_h1 _
      ihave H5 := (pts_congr (F := F) (ℓ := (s5W).view.loc (thr d L)) (g := I3 fi (wid L) (2 * k.val + 1)) ?e5) $$ H5
      case e5 => sl_unfold_run_names; exact prefetchA3 hH fi hidx (wid L) k k1_h1 _
      have hin1 := hin_of' (F := F) fi hidx (wid L) (2 * k.val + 1)
      sl_exec
      -- slot 0's compute loop, by the loop lemma over the trip lemma
      first | sl_rw [Prog.bind_assoc] | sl_rw [bind_assoc]
      iapply (compute0_loop d L h0 O W fc (I3 fi (wid L) (2 * k.val)) (ROWS fp (G12 fi (wid L) (2 * k.val))) _ k _ _ _ _ _ _ _ _ _ _ (liveIn0 _) ⟨i3_le fi (wid L) (2 * k.val)⟩ _ _)
      isplitl [Hmw]; · iexact Hmw
      isplitl [H1]; · iexact H1
      isplitl [H4]; · iexact H4
      isplitl [HF0_dst]; · iexact HF0_dst
      isplitl [H8]; · iexists _; iexact H8
      isplitl [HO]
      · iexists _; isplitr
        swap
        · iexact HO
        · ipureintro; intro p hp
          rcases Finset.mem_insert.mp hp with hp | hp
          · exact .inr (hp ▸ rfl)
          · exact hW' p hp
      iintro ⟨Hmw, H1, H4, H6, ⟨%f8', H8, %hdone⟩, ⟨%W2, %hW2, HO⟩⟩
      have e8 := outs_of_done fi fp fc (wid L) (2 * k.val) f8' hdone
      subst e8
      -- slot 0's copy-out of block 2 k: issued by hand from the rest of the result's words
      have hsub0 := blk0_sub_reg0 L k
      first | sl_rw [Prog.bind_assoc] | skip
      first | sl_rw [Prog.bind_lift] | skip
      iapply (copyout_issue0 d L k _ (OUTS fi fp fc (wid L) (2 * k.val)) _ hsub0) $$ [H8 Hor Hs0]
      · isplitl [H8]; · iexact H8
        isplitl [Hor]; · iexact Hor
        iexact Hs0
      iintro ⟨HCF0, Hor⟩
      sl_exec
      -- slot 0's prefetch of block 2 k + 2: the two lists it wrote
      ihave H2 := (pts_congr (F := F) (ℓ := (s2W).view.loc (thr d L)) (g := G12 fi (wid L) (2 * k.val + 2)) ?e2) $$ HF0_dst_and
      case e2 => sl_unfold_run_names; exact prefetchB12 hH fi hidx (wid L) k k1_h3 _
      ihave H4 := (pts_congr (F := F) (ℓ := (s4W).view.loc (thr d L)) (g := I3 fi (wid L) (2 * k.val + 2)) ?e4) $$ H4
      case e4 => sl_unfold_run_names; exact prefetchB3 hH fi hidx (wid L) k k1_h3 _
      have hin2 := hin_of (F := F) fi hidx (wid L) (2 * k.val + 2)
      sl_exec
      -- slot 1's rows have landed: block 2 k + 1's gathered rows
      ihave H7 := (pts_congr (F := F) (ℓ := (s7W).view.loc (thr d L)) (g := ROWS fp (G12 fi (wid L) (2 * k.val + 1))) ?e7) $$ H7
      case e7 =>
        sl_unfold_run_names
        exact (congrArg (fun P => (s7W).view.writes (Elt F) _ [⟨Rect.whole _, P⟩]) (gather_rows' fp _ _ hin1)).trans (writes_whole_one cc1_scratch7 _ _)
      -- slot 1's compute loop
      iapply (compute1_loop d L h1 O W fc (I3 fi (wid L) (2 * k.val + 1)) (ROWS fp (G12 fi (wid L) (2 * k.val + 1))) _ _ _ _ _ _ _ _ _ _ (liveIn1 _) ⟨i3_le fi (wid L) (2 * k.val + 1)⟩ _ _)
      isplitl [Hmw]; · iexact Hmw
      isplitl [H1]; · iexact H1
      isplitl [H5]; · iexact H5
      isplitl [H7]; · iexact H7
      isplitl [H9]; · iexists _; iexact H9
      isplitl [HO]
      · iexists _; isplitr
        swap
        · iexact HO
        · ipureintro; intro p hp
          rcases Finset.mem_insert.mp hp with hp | hp
          · exact .inr (hp ▸ rfl)
          · exact hW2 p hp
      iintro ⟨Hmw, H1, H5, H7, ⟨%f9', H9, %hdone1⟩, ⟨%W3, %hW3, HO⟩⟩
      have e9 := outs_of_done fi fp fc (wid L) (2 * k.val + 1) f9' hdone1
      subst e9
      -- slot 1's copy-out of block 2 k + 1, by hand
      have hsub1 := blk1_sub_reg0 L k
      first | sl_rw [Prog.bind_lift] | skip
      iapply (copyout_issue1 d L k _ (OUTS fi fp fc (wid L) (2 * k.val + 1)) _ hsub1) $$ [H9 Hor Hs1]
      · isplitl [H9]; · iexact H9
        isplitl [Hor]; · iexact Hor
        iexact Hs1
      iintro ⟨HCF1, Hor⟩
      sl_step
      -- the invariant at the head of trip k + 1
      have hk1 : k.val + 1 < 52 := by omega
      have e2 : 2 * (k.val + 1) = 2 * k.val + 2 := by ring
      irw [GSide0_lt d L q0 fi fp hk1, OS_pos d L fi fp fc (Nat.succ_ne_zero k.val), tOf_succ k, e2]
      sl_unfold_run_names
      ihave HGF := (gflight0_run d L q0 fi fp (2 * k.val + 2) _ hin2) $$ [HF0 Hp0r]
      · isplitl [HF0]; · iexact HF0
        iexact Hp0r
      ihave HOS := (os_step_first d L fi fp fc k fo) $$ [HCF0 HCF1 Hor]
      · isplitl [HCF0]; · iexact HCF0
        isplitl [HCF1]; · iexact HCF1
        iexact Hor
      isplitl [Hmw Hi Hc H0 H1]
      · isplitl [Hmw]; · iexact Hmw
        isplitl [Hi]; · iexact Hi
        isplitl [Hc]; · iexact Hc
        isplitl [H0]; · iexact H0
        iexact H1
      isplitl [HGF H4]
      · isplitl [HGF]; · iexact HGF
        unfold D3At0; iexact H4
      isplitl [H7 H3 Hp1 Hg1]
      · isplitl [H7]; · iexists _; iexact H7
        isplitl [H3]; · iexists _; iexact H3
        isplitl [Hp1]; · iexact Hp1
        iexact Hg1
      isplitl [H5]; · iexists _; iexact H5
      isplitl [HOS]
      · iexists fo; isplitr
        · ipureintro; intro b hb
          exact absurd hb (by omega)
        · iexact HOS
      · iexists _; isplitr
        swap
        · iexact HO
        · ipureintro; exact hW3
    by_cases hk51 : k.val = 51
    ·
      have k1_h2 : k1_cond2 k = 1#1 := (cond2_iff k).mpr (by omega)
      have k1_h4 : k1_cond4 k = 1#1 := (cond4_iff k).mpr (by omega)
      have k1_h3 : ¬ k1_cond3 k = 1#1 := fun h => by have := (cond3_iff k).mp h; omega
      unfold KI.Inv
      rw [GSide0_lt d L q0 fi fp ht, OS_pos d L fi fp fc hk0]
      unfold Base GFlight0 D3At0 GIdle1 D3Any1 KI.Owes ORest
      iintro ⟨⟨Hmw, Hi, Hc, H0, H1⟩, ⟨⟨HF0, Hp0r⟩, H4⟩, ⟨⟨%f7, H7⟩, ⟨%f3, H3⟩, Hp1, Hg1⟩, ⟨%f5, H5⟩, ⟨%fo, %hfo, HOF0, HOF1, Hor⟩, ⟨%W', %hW', HO⟩⟩
      ihave HX := (oflight0_to_run d L (tOf k.val) fo _) $$ HOF0
      icases HX with ⟨Hs0, H8⟩
      ihave HY := (oflight1_to_run d L (tOf k.val) _ _) $$ HOF1
      icases HY with ⟨Hs1, H9⟩
      sl_unfold_run_names
      unfold k1_t1_body
      rw [k1_part69_eq_skeleton, k1_part70_eq_skeleton, k1_part71_eq_skeleton]; unfold k1_part69_skel k1_part70_skel k1_part71_skel
      rw [k1_part1_eq_skeleton, k1_part2_eq_skeleton, k1_part3_eq_skeleton, k1_part35_eq_skeleton, k1_part36_eq_skeleton, k1_part37_eq_skeleton]
      unfold k1_part1_skel k1_part2_skel k1_part3_skel k1_part35_skel k1_part36_skel k1_part37_skel
      sl_exec
      ihave H3 := (pts_congr (F := F) (ℓ := (s3W).view.loc (thr d L)) (g := G12 fi (wid L) (2 * k.val + 1)) ?e3) $$ H3
      case e3 => sl_unfold_run_names; exact prefetchA12 hH fi hidx (wid L) k k1_h1 _
      ihave H5 := (pts_congr (F := F) (ℓ := (s5W).view.loc (thr d L)) (g := I3 fi (wid L) (2 * k.val + 1)) ?e5) $$ H5
      case e5 => sl_unfold_run_names; exact prefetchA3 hH fi hidx (wid L) k k1_h1 _
      have hin1 := hin_of' (F := F) fi hidx (wid L) (2 * k.val + 1)
      sl_exec
      -- slot 0's compute loop, by the loop lemma over the trip lemma
      first | sl_rw [Prog.bind_assoc] | sl_rw [bind_assoc]
      iapply (compute0_loop d L h0 O W fc (I3 fi (wid L) (2 * k.val)) (ROWS fp (G12 fi (wid L) (2 * k.val))) _ k _ _ _ _ _ _ _ _ _ _ (liveIn0 _) ⟨i3_le fi (wid L) (2 * k.val)⟩ _ _)
      isplitl [Hmw]; · iexact Hmw
      isplitl [H1]; · iexact H1
      isplitl [H4]; · iexact H4
      isplitl [HF0_dst]; · iexact HF0_dst
      isplitl [H8]; · iexists _; iexact H8
      isplitl [HO]
      · iexists _; isplitr
        swap
        · iexact HO
        · ipureintro; intro p hp
          rcases Finset.mem_insert.mp hp with hp | hp
          · exact .inr (hp ▸ rfl)
          rcases Finset.mem_insert.mp hp with hp | hp
          · exact .inr (hp ▸ rfl)
          · exact hW' p hp
      iintro ⟨Hmw, H1, H4, H6, ⟨%f8', H8, %hdone⟩, ⟨%W2, %hW2, HO⟩⟩
      have e8 := outs_of_done fi fp fc (wid L) (2 * k.val) f8' hdone
      subst e8
      have hto : ((tOf k.val : Fin k1_t1_loop.trips) : ℕ) + 1 = k.val := by
        show (k.val - 1) % 52 + 1 = k.val
        omega
      have hto' : ((tOf k.val : Fin k1_t1_loop.trips) : ℕ) < 52 := trip_lt _
      -- slot 0's copy-out of block 2 k: issued by hand from the rest of the result's words
      have hsub0 := blk0_sub_R L k hk0
      first | sl_rw [Prog.bind_assoc] | skip
      first | sl_rw [Prog.bind_lift] | skip
      iapply (copyout_issue0 d L k _ (OUTS fi fp fc (wid L) (2 * k.val)) _ hsub0) $$ [H8 Hor Hs0]
      · isplitl [H8]; · iexact H8
        isplitl [Hor]; · iexact Hor
        iexact Hs0
      iintro ⟨HCF0, Hor⟩
      sl_exec
      -- slot 1's rows have landed: block 2 k + 1's gathered rows
      ihave H7 := (pts_congr (F := F) (ℓ := (s7W).view.loc (thr d L)) (g := ROWS fp (G12 fi (wid L) (2 * k.val + 1))) ?e7) $$ H7
      case e7 =>
        sl_unfold_run_names
        exact (congrArg (fun P => (s7W).view.writes (Elt F) _ [⟨Rect.whole _, P⟩]) (gather_rows' fp _ _ hin1)).trans (writes_whole_one cc1_scratch7 _ _)
      -- slot 1's compute loop
      iapply (compute1_loop d L h1 O W fc (I3 fi (wid L) (2 * k.val + 1)) (ROWS fp (G12 fi (wid L) (2 * k.val + 1))) _ _ _ _ _ _ _ _ _ _ (liveIn1 _) ⟨i3_le fi (wid L) (2 * k.val + 1)⟩ _ _)
      isplitl [Hmw]; · iexact Hmw
      isplitl [H1]; · iexact H1
      isplitl [H5]; · iexact H5
      isplitl [H7]; · iexact H7
      isplitl [H9]; · iexists _; iexact H9
      isplitl [HO]
      · iexists _; isplitr
        swap
        · iexact HO
        · ipureintro; intro p hp
          rcases Finset.mem_insert.mp hp with hp | hp
          · exact .inr (hp ▸ rfl)
          rcases Finset.mem_insert.mp hp with hp | hp
          · exact .inr (hp ▸ rfl)
          · exact hW2 p hp
      iintro ⟨Hmw, H1, H5, H7, ⟨%f9', H9, %hdone1⟩, ⟨%W3, %hW3, HO⟩⟩
      have e9 := outs_of_done fi fp fc (wid L) (2 * k.val + 1) f9' hdone1
      subst e9
      -- slot 1's copy-out of block 2 k + 1, by hand
      have hsub1 := blk1_sub_R' L k hk0
      first | sl_rw [Prog.bind_lift] | skip
      iapply (copyout_issue1 d L k _ (OUTS fi fp fc (wid L) (2 * k.val + 1)) _ hsub1) $$ [H9 Hor Hs1]
      · isplitl [H9]; · iexact H9
        isplitl [Hor]; · iexact Hor
        iexact Hs1
      iintro ⟨HCF1, Hor⟩
      sl_step
      -- the invariant at the head of trip k + 1
      have hk1 : ¬ k.val + 1 < 52 := by omega
      irw [GSide0_ge d L q0 fi fp hk1, OS_pos d L fi fp fc (Nat.succ_ne_zero k.val), tOf_succ k]
      unfold GIdle0 D3Any0
      sl_unfold_run_names
      ihave HOS := (os_step d L fi fp fc k hk0 fo) $$ [HCF0 HCF1 Hs0_dst Hs1_dst Hor]
      · isplitl [HCF0]; · iexact HCF0
        isplitl [HCF1]; · iexact HCF1
        isplitl [Hs0_dst]; · iexact Hs0_dst
        isplitl [Hs1_dst]; · iexact Hs1_dst
        iexact Hor
      isplitl [Hmw Hi Hc H0 H1]
      · isplitl [Hmw]; · iexact Hmw
        isplitl [Hi]; · iexact Hi
        isplitl [Hc]; · iexact Hc
        isplitl [H0]; · iexact H0
        iexact H1
      isplitl [H6 HF0_dst_and Hp0r HF0 H4]
      · isplitl [H6 HF0_dst_and Hp0r HF0]
        · isplitl [H6]; · iexists _; iexact H6
          isplitl [HF0_dst_and]; · iexists _; iexact HF0_dst_and
          isplitl [Hp0r]; · iexact Hp0r
          iexact HF0
        · iexists _; iexact H4
      isplitl [H7 H3 Hp1 Hg1]
      · isplitl [H7]; · iexists _; iexact H7
        isplitl [H3]; · iexists _; iexact H3
        isplitl [Hp1]; · iexact Hp1
        iexact Hg1
      isplitl [H5]; · iexists _; iexact H5
      isplitl [HOS]
      · iexists (oC d L fi fp fc k fo); isplitr
        · ipureintro; intro b hb
          exact os_blocks d L fi fp fc k hk0 fo hfo b (by omega)
        · iexact HOS
      · iexists _; isplitr
        swap
        · iexact HO
        · ipureintro; exact hW3
    have k1_h2 : k1_cond2 k = 1#1 := (cond2_iff k).mpr (by omega)
    have k1_h4 : k1_cond4 k = 1#1 := (cond4_iff k).mpr (by omega)
    have k1_h3 : k1_cond3 k = 1#1 := (cond3_iff k).mpr (by omega)
    unfold KI.Inv
    rw [GSide0_lt d L q0 fi fp ht, OS_pos d L fi fp fc hk0]
    unfold Base GFlight0 D3At0 GIdle1 D3Any1 KI.Owes ORest
    iintro ⟨⟨Hmw, Hi, Hc, H0, H1⟩, ⟨⟨HF0, Hp0r⟩, H4⟩, ⟨⟨%f7, H7⟩, ⟨%f3, H3⟩, Hp1, Hg1⟩, ⟨%f5, H5⟩, ⟨%fo, %hfo, HOF0, HOF1, Hor⟩, ⟨%W', %hW', HO⟩⟩
    ihave HX := (oflight0_to_run d L (tOf k.val) fo _) $$ HOF0
    icases HX with ⟨Hs0, H8⟩
    ihave HY := (oflight1_to_run d L (tOf k.val) _ _) $$ HOF1
    icases HY with ⟨Hs1, H9⟩
    sl_unfold_run_names
    unfold k1_t1_body
    rw [k1_part69_eq_skeleton, k1_part70_eq_skeleton, k1_part71_eq_skeleton]; unfold k1_part69_skel k1_part70_skel k1_part71_skel
    rw [k1_part1_eq_skeleton, k1_part2_eq_skeleton, k1_part3_eq_skeleton, k1_part35_eq_skeleton, k1_part36_eq_skeleton, k1_part37_eq_skeleton]
    unfold k1_part1_skel k1_part2_skel k1_part3_skel k1_part35_skel k1_part36_skel k1_part37_skel
    sl_exec
    ihave H3 := (pts_congr (F := F) (ℓ := (s3W).view.loc (thr d L)) (g := G12 fi (wid L) (2 * k.val + 1)) ?e3) $$ H3
    case e3 => sl_unfold_run_names; exact prefetchA12 hH fi hidx (wid L) k k1_h1 _
    ihave H5 := (pts_congr (F := F) (ℓ := (s5W).view.loc (thr d L)) (g := I3 fi (wid L) (2 * k.val + 1)) ?e5) $$ H5
    case e5 => sl_unfold_run_names; exact prefetchA3 hH fi hidx (wid L) k k1_h1 _
    have hin1 := hin_of' (F := F) fi hidx (wid L) (2 * k.val + 1)
    sl_exec
    -- slot 0's compute loop, by the loop lemma over the trip lemma
    first | sl_rw [Prog.bind_assoc] | sl_rw [bind_assoc]
    iapply (compute0_loop d L h0 O W fc (I3 fi (wid L) (2 * k.val)) (ROWS fp (G12 fi (wid L) (2 * k.val))) _ k _ _ _ _ _ _ _ _ _ _ (liveIn0 _) ⟨i3_le fi (wid L) (2 * k.val)⟩ _ _)
    isplitl [Hmw]; · iexact Hmw
    isplitl [H1]; · iexact H1
    isplitl [H4]; · iexact H4
    isplitl [HF0_dst]; · iexact HF0_dst
    isplitl [H8]; · iexists _; iexact H8
    isplitl [HO]
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    iintro ⟨Hmw, H1, H4, H6, ⟨%f8', H8, %hdone⟩, ⟨%W2, %hW2, HO⟩⟩
    have e8 := outs_of_done fi fp fc (wid L) (2 * k.val) f8' hdone
    subst e8
    have hto : ((tOf k.val : Fin k1_t1_loop.trips) : ℕ) + 1 = k.val := by
      show (k.val - 1) % 52 + 1 = k.val
      omega
    have hto' : ((tOf k.val : Fin k1_t1_loop.trips) : ℕ) < 52 := trip_lt _
    -- slot 0's copy-out of block 2 k: issued by hand from the rest of the result's words
    have hsub0 := blk0_sub_R L k hk0
    first | sl_rw [Prog.bind_assoc] | skip
    first | sl_rw [Prog.bind_lift] | skip
    iapply (copyout_issue0 d L k _ (OUTS fi fp fc (wid L) (2 * k.val)) _ hsub0) $$ [H8 Hor Hs0]
    · isplitl [H8]; · iexact H8
      isplitl [Hor]; · iexact Hor
      iexact Hs0
    iintro ⟨HCF0, Hor⟩
    sl_exec
    -- slot 0's prefetch of block 2 k + 2: the two lists it wrote
    ihave H2 := (pts_congr (F := F) (ℓ := (s2W).view.loc (thr d L)) (g := G12 fi (wid L) (2 * k.val + 2)) ?e2) $$ HF0_dst_and
    case e2 => sl_unfold_run_names; exact prefetchB12 hH fi hidx (wid L) k k1_h3 _
    ihave H4 := (pts_congr (F := F) (ℓ := (s4W).view.loc (thr d L)) (g := I3 fi (wid L) (2 * k.val + 2)) ?e4) $$ H4
    case e4 => sl_unfold_run_names; exact prefetchB3 hH fi hidx (wid L) k k1_h3 _
    have hin2 := hin_of (F := F) fi hidx (wid L) (2 * k.val + 2)
    sl_exec
    -- slot 1's rows have landed: block 2 k + 1's gathered rows
    ihave H7 := (pts_congr (F := F) (ℓ := (s7W).view.loc (thr d L)) (g := ROWS fp (G12 fi (wid L) (2 * k.val + 1))) ?e7) $$ H7
    case e7 =>
      sl_unfold_run_names
      exact (congrArg (fun P => (s7W).view.writes (Elt F) _ [⟨Rect.whole _, P⟩]) (gather_rows' fp _ _ hin1)).trans (writes_whole_one cc1_scratch7 _ _)
    -- slot 1's compute loop
    iapply (compute1_loop d L h1 O W fc (I3 fi (wid L) (2 * k.val + 1)) (ROWS fp (G12 fi (wid L) (2 * k.val + 1))) _ _ _ _ _ _ _ _ _ _ (liveIn1 _) ⟨i3_le fi (wid L) (2 * k.val + 1)⟩ _ _)
    isplitl [Hmw]; · iexact Hmw
    isplitl [H1]; · iexact H1
    isplitl [H5]; · iexact H5
    isplitl [H7]; · iexact H7
    isplitl [H9]; · iexists _; iexact H9
    isplitl [HO]
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW2 p hp
    iintro ⟨Hmw, H1, H5, H7, ⟨%f9', H9, %hdone1⟩, ⟨%W3, %hW3, HO⟩⟩
    have e9 := outs_of_done fi fp fc (wid L) (2 * k.val + 1) f9' hdone1
    subst e9
    -- slot 1's copy-out of block 2 k + 1, by hand
    have hsub1 := blk1_sub_R' L k hk0
    first | sl_rw [Prog.bind_lift] | skip
    iapply (copyout_issue1 d L k _ (OUTS fi fp fc (wid L) (2 * k.val + 1)) _ hsub1) $$ [H9 Hor Hs1]
    · isplitl [H9]; · iexact H9
      isplitl [Hor]; · iexact Hor
      iexact Hs1
    iintro ⟨HCF1, Hor⟩
    sl_step
    -- the invariant at the head of trip k + 1
    have hk1 : k.val + 1 < 52 := by omega
    have e2 : 2 * (k.val + 1) = 2 * k.val + 2 := by ring
    irw [GSide0_lt d L q0 fi fp hk1, OS_pos d L fi fp fc (Nat.succ_ne_zero k.val), tOf_succ k, e2]
    sl_unfold_run_names
    ihave HGF := (gflight0_run d L q0 fi fp (2 * k.val + 2) _ hin2) $$ [HF0 Hp0r]
    · isplitl [HF0]; · iexact HF0
      iexact Hp0r
    ihave HOS := (os_step d L fi fp fc k hk0 fo) $$ [HCF0 HCF1 Hs0_dst Hs1_dst Hor]
    · isplitl [HCF0]; · iexact HCF0
      isplitl [HCF1]; · iexact HCF1
      isplitl [Hs0_dst]; · iexact Hs0_dst
      isplitl [Hs1_dst]; · iexact Hs1_dst
      iexact Hor
    isplitl [Hmw Hi Hc H0 H1]
    · isplitl [Hmw]; · iexact Hmw
      isplitl [Hi]; · iexact Hi
      isplitl [Hc]; · iexact Hc
      isplitl [H0]; · iexact H0
      iexact H1
    isplitl [HGF H4]
    · isplitl [HGF]; · iexact HGF
      unfold D3At0; iexact H4
    isplitl [H7 H3 Hp1 Hg1]
    · isplitl [H7]; · iexists _; iexact H7
      isplitl [H3]; · iexists _; iexact H3
      isplitl [Hp1]; · iexact Hp1
      iexact Hg1
    isplitl [H5]; · iexists _; iexact H5
    isplitl [HOS]
    · iexists (oC d L fi fp fc k fo); isplitr
      · ipureintro; intro b hb
        exact os_blocks d L fi fp fc k hk0 fo hfo b (by omega)
      · iexact HOS
    · iexists _; isplitr
      swap
      · iexact HO
      · ipureintro; exact hW3
  · -- the invariant holds at the loop's head
    unfold KI.Inv
    rw [GSide0_lt d L q0 fi fp (by decide : 0 < 52), OS_zero d L fi fp fc]
    unfold Base D3At0 GIdle1 D3Any1 KI.Owes
    isplitl [Hmw Hi Hc H0 H1]
    · isplitl [Hmw]; · iexact Hmw
      isplitl [Hi]; · iexact Hi
      isplitl [Hc]; · iexact Hc
      isplitl [H0]; · iexact H0
      iexact H1
    isplitl [HGF H4]
    · isplitl [HGF]; · iexact HGF
      iexact H4
    isplitl [H7 H3 Hp1 Hg1]
    · isplitl [H7]; · iexists _; iexact H7
      isplitl [H3]; · iexists _; iexact H3
      isplitl [Hp1]; · iexact Hp1
      iexact Hg1
    isplitl [H5]; · iexists _; iexact H5
    isplitl [H8 H9 Ho Ho0 Ho1]
    · iexists fo; isplitr
      · ipureintro; intro b hb; exact absurd hb (by omega)
      · isplitl [H8]; · iexists _; iexact H8
        isplitl [Ho0]; · iexact Ho0
        isplitl [H9]; · iexists _; iexact H9
        isplitl [Ho1]; · iexact Ho1
        iexact Ho
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        · exact .inl hp
  -- after the loop: the two last copy-outs are waited for
  iintro %_ HI
  iapply (wp_wand_r frame _ Set.univ (Q := ExitPost d L q q0 q1 fi fp fc O W))
  isplitl [HI]
  · iapply (loop_exit d L q q0 q1 fi fp fc O W)
    iexact HI
  · iintro %a HP
    unfold ExitPost semsZero4 scratchAny
    icases HP with ⟨Hmw, Hi, Hp0, Hp1, Hc, Hout, Hscr, ⟨Hg0, Hg1, Ho0, Ho1⟩, HO⟩
    isplitl [Hmw]; · iexact Hmw
    isplitl [Hi]; · iexact Hi
    isplitl [Hp0]; · iexact Hp0
    isplitl [Hp1]; · iexact Hp1
    isplitl [Hc]; · iexact Hc
    isplitl [Hout]; · iexact Hout
    isplitl [Hscr]; · iexact Hscr
    isplitl [Hg0 Hg1 Ho0 Ho1 Hsa Hsb]
    · isplitl [Hg0]; · iexact Hg0
      isplitl [Hg1]; · iexact Hg1
      isplitl [Ho0]; · iexact Ho0
      isplitl [Ho1]; · iexact Ho1
      isplitl [Hsa]; · iexact Hsa
      iexact Hsb
    iexact HO

end Cert.Proof.KI

end
-- ==== Proof.TileDataB.lean ====
/-
  The tile's data in closed form. Worker w owns index words [13312 w, 13312 (w + 1)); block b of the tile is its
  words [128 b, 128 (b + 1)). The digit split sends an index word n in [0, 10^6) to the pair-table row n / 100 and the
  third digit n % 100; the indirect gather fetches, for each of a block's 128 tokens, the row of the pair table its
  quotient names. Every statement here is an equation between contents terms.
-/
import proofs.«207215_g13752485282153_cont_week2b_1454_30_alg».proof.Proof.CommonB
import proofs.«207215_g13752485282153_cont_week2b_1454_30_alg».proof.Proof.TileSpec
import proofs.«207215_g13752485282153_cont_week2b_1454_30_alg».proof.Proof.Hundredth
import Idealize.ShloMosaic.Lib.Writes
import Idealize.ShloMosaic.Lib.ValueIdx
import Idealize.ShloMosaic.Lib.SparseCore.Stream

noncomputable section

namespace Cert.Proof.KB

open Cert.Kernel Cert.Kernel.Gen
open Idealize.ShloMosaic Idealize.ShloMosaic.ValueIdx

variable {F : FTy → Type} [FloatOps F]

/-! ## The data -/

/-- The 13312 index words of worker `w`'s tile. -/
def IDXV (fi : IVec S425984 32) (w : ℕ) : IVec S13312 32 :=
  fun j => fi (ix1 (⟨(13312 * w + (j 0).val) % 425984, Nat.mod_lt _ (by decide)⟩ : Fin 425984))

/-- Sixteen consecutive index words of the tile: words [128 b + 16 k, 128 b + 16 (k + 1)). -/
def SEG (fi : IVec S425984 32) (w b k : ℕ) : IVec S16 32 :=
  fun x => fi (ix1 (⟨(13312 * w + 128 * b + 16 * k + (x 0).val) % 425984, Nat.mod_lt _ (by decide)⟩ : Fin 425984))

/-- The pair-table rows of block `b`: the quotients by 100 of its 128 index words. -/
def G12 (fi : IVec S425984 32) (w b : ℕ) : IVec S128 32 :=
  fun j => BitVec.ofNat 32 ((fi (ix1 (⟨(13312 * w + 128 * b + (j 0).val) % 425984, Nat.mod_lt _ (by decide)⟩ : Fin 425984))).toNat / 100)

/-- The third digits of block `b`: the remainders modulo 100 of its 128 index words. -/
def I3 (fi : IVec S425984 32) (w b : ℕ) : IVec S128 32 :=
  fun j => BitVec.ofNat 32 ((fi (ix1 (⟨(13312 * w + 128 * b + (j 0).val) % 425984, Nat.mod_lt _ (by decide)⟩ : Fin 425984))).toNat % 100)

/-- The rows of the pair table a list of 128 row numbers names. -/
def ROWS (fp : Vec F S10000x128 .f32) (g : IVec S128 32) : Vec F S128x128 .f32 :=
  fun j => fp (ix2 (⟨(g (ix1 (j 0))).toNat % 10000, Nat.mod_lt _ (by decide)⟩ : Fin 10000) (j 1))

/-- The quotient lane computation on sixteen words, as the kernel prints it. -/
def q12 (v : IVec S16 32) : IVec S16 32 :=
  fptosi 32 (mulf (addf (sitofp .f32 v) (broadcast S16 (Scalar.ofBits .f32 0x3F000000#32)))
    (broadcast S16 (Scalar.ofBits (F := F) .f32 0x3C23D70A#32)))

/-- The remainder lane computation on sixteen words, as the kernel prints it. -/
def r3 (v : IVec S16 32) : IVec S16 32 :=
  subi v (muli (q12 (F := F) v) (broadcast S16 100#32))

/-! ## Index words in range -/

/-- A 32-bit word read as a signed integer in [0, 999999] is that natural number. -/
theorem toNat_le_of_range (v : BitVec 32) (h0 : 0 ≤ v.toInt) (h1 : v.toInt ≤ 999999) : v.toNat ≤ 999999 := by
  have h := BitVec.toInt_eq_toNat_cond v
  have hlt := v.isLt
  split at h <;> omega

/-! ## The first copy -/

/-- The first copy's payload: the source slice reads the tile's index words. -/
theorem dma0_read (fi : IVec S425984 32) (L : grid1.Coords) :
    ((idxWB).slice (Rect.unit (s := S425984) (k1_off1 L) S13312.size (k1_off1_inb L)) (fun _ => rfl)).view.read (Elt F) fi
      = IDXV fi (wid L) := by
  funext j
  have h0 : (L 0).val < 2 := (L 0).isLt
  have h1 : (L 1).val < 16 := (L 1).isLt
  have hj : (j 0).val < 13312 := (j 0).isLt
  show fi _ = fi _
  congr 1
  funext a
  match a with
  | ⟨0, _⟩ =>
    apply Fin.ext
    show (k1_off1 L) 0 + 1 * (j 0).val = (13312 * wid L + (j 0).val) % 425984
    have hk : (k1_off1 L) 0 = 26624 * (L 1).val + 13312 * (L 0).val := congrFun (k1_off1_eq L) 0
    unfold wid
    omega

/-- After the first copy the index scratch holds the tile's index words, whatever it held before. -/
theorem dma0_eq (fi : IVec S425984 32) (L : grid1.Coords) (f0 : IVec S13312 32) :
    View.write (Elt F) (s0WB).view f0
        (((idxWB).slice (Rect.unit (s := S425984) (k1_off1 L) S13312.size (k1_off1_inb L)) (fun _ => rfl)).view.read (Elt F) fi) Finset.univ
      = IDXV fi (wid L) := by
  rw [dma0_read]
  exact View.write_whole_univ _ _ _

/-! ## The digit split on sixteen lanes -/

/-- The quotient lanes: on index words in range, `⌊(n + 1/2) · c⌋ = n / 100` lane by lane. -/
theorem lane12 (hH : Hundredth.OK F (Scalar.ofBits (F := F) .f32 0x3C23D70A#32)) (v : IVec S16 32)
    (hv : ∀ x, 0 ≤ (v x).toInt ∧ (v x).toInt ≤ 999999) :
    q12 (F := F) v = fun x => BitVec.ofNat 32 ((v x).toNat / 100) := by
  funext x
  exact hH (v x) (hv x).1 (hv x).2

/-- `n - 100 (n / 100) = n % 100` in 32-bit arithmetic, for `n` in range: nothing wraps. -/
theorem sub_mul_hundred (n : BitVec 32) (hn : n.toNat ≤ 999999) :
    n - BitVec.ofNat 32 (n.toNat / 100) * 100#32 = BitVec.ofNat 32 (n.toNat % 100) := by
  apply BitVec.eq_of_toNat_eq
  rw [BitVec.toNat_sub, BitVec.toNat_mul, BitVec.toNat_ofNat, BitVec.toNat_ofNat, BitVec.toNat_ofNat]
  have hlt := n.isLt
  omega

/-- The remainder lanes: on index words in range, `n - 100 (n / 100) = n % 100` lane by lane. -/
theorem lane3 (hH : Hundredth.OK F (Scalar.ofBits (F := F) .f32 0x3C23D70A#32)) (v : IVec S16 32)
    (hv : ∀ x, 0 ≤ (v x).toInt ∧ (v x).toInt ≤ 999999) :
    r3 (F := F) v = fun x => BitVec.ofNat 32 ((v x).toNat % 100) := by
  unfold r3
  rw [lane12 hH v hv]
  funext x
  exact sub_mul_hundred (v x) (toNat_le_of_range (v x) (hv x).1 (hv x).2)

/-! ## The rows in range, the digits below 100 -/

theorem G12_lt (fi : IVec S425984 32) (hidx : ∀ j, 0 ≤ (fi j).toInt ∧ (fi j).toInt ≤ 999999) (w b : ℕ) (j : S128.Idx) :
    (G12 fi w b j).toNat < 10000 := by
  unfold G12
  have h := toNat_le_of_range _ (hidx (ix1 (⟨(13312 * w + 128 * b + (j 0).val) % 425984, Nat.mod_lt _ (by decide)⟩ : Fin 425984))).1
    (hidx (ix1 (⟨(13312 * w + 128 * b + (j 0).val) % 425984, Nat.mod_lt _ (by decide)⟩ : Fin 425984))).2
  rw [BitVec.toNat_ofNat]
  omega

/-- The row numbers the digit split leaves are rows of the pair table: what the indirect gather asks of its list. -/
theorem hin_of (fi : IVec S425984 32) (hidx : ∀ j, 0 ≤ (fi j).toInt ∧ (fi j).toInt ≤ 999999) (w b : ℕ) :
    ∀ j, ((s2WB).view.read (Elt F) (G12 fi w b) j).toNat < S10000x128.size gathers_S10000x128_S128x128.axis :=
  fun j => G12_lt fi hidx w b j

theorem hin_of' (fi : IVec S425984 32) (hidx : ∀ j, 0 ≤ (fi j).toInt ∧ (fi j).toInt ≤ 999999) (w b : ℕ) :
    ∀ j, ((s3WB).view.read (Elt F) (G12 fi w b) j).toNat < S10000x128.size gathers_S10000x128_S128x128.axis :=
  fun j => G12_lt fi hidx w b j

/-- The third digits are below 100. -/
theorem i3_le (fi : IVec S425984 32) (w b : ℕ) (j : S128.Idx) : (I3 fi w b j).toNat ≤ 99 := by
  unfold I3
  rw [BitVec.toNat_ofNat]
  omega

/-! ## Blocks of the tile's words -/

/-- The index array at two equal positions. -/
theorem fi_congr (fi : IVec S425984 32) {m n : ℕ} (h : m = n) :
    fi (ix1 (⟨m % 425984, Nat.mod_lt _ (by decide)⟩ : Fin 425984)) = fi (ix1 (⟨n % 425984, Nat.mod_lt _ (by decide)⟩ : Fin 425984)) := by
  subst h; rfl

/-- Sixteen words of the index scratch at offset `128 b + 16 k`, once it holds the tile's words. -/
theorem seg_read (fi : IVec S425984 32) (w b k : ℕ) (off : Fin 1 → ℕ) (inb : ∀ a, off a + S16.size a ≤ S13312.size a)
    (ho : off 0 = 128 * b + 16 * k) :
    View.readAt (Elt F) (s0WB).view (Rect.unit (s := S13312) off S16.size inb).toLoadRect (IDXV fi w) = SEG fi w b k := by
  funext x
  show fi (ix1 (⟨(13312 * w + (off 0 + 1 * (x 0).val)) % 425984, Nat.mod_lt _ (by decide)⟩ : Fin 425984))
    = fi (ix1 (⟨(13312 * w + 128 * b + 16 * k + (x 0).val) % 425984, Nat.mod_lt _ (by decide)⟩ : Fin 425984))
  exact fi_congr fi (by omega)

theorem seg_range (fi : IVec S425984 32) (hidx : ∀ j, 0 ≤ (fi j).toInt ∧ (fi j).toInt ≤ 999999) (w b k : ℕ) :
    ∀ x, 0 ≤ (SEG fi w b k x).toInt ∧ (SEG fi w b k x).toInt ≤ 999999 := fun _ => hidx _

/-- Block `k` of sixteen of the row list is the quotients of the tile's sixteen words there. -/
theorem G12_block (fi : IVec S425984 32) (w b k : ℕ) (off : Fin 1 → ℕ) (inb : ∀ a, off a + S16.size a ≤ S128.size a)
    (ho : off 0 = 16 * k) (x : S16.Idx) :
    G12 fi w b ((Rect.unit (s := S128) off S16.size inb).emb x) = BitVec.ofNat 32 ((SEG fi w b k x).toNat / 100) := by
  show BitVec.ofNat 32 ((fi (ix1 (⟨(13312 * w + 128 * b + (off 0 + 1 * (x 0).val)) % 425984, Nat.mod_lt _ (by decide)⟩ : Fin 425984))).toNat / 100)
    = BitVec.ofNat 32 ((fi (ix1 (⟨(13312 * w + 128 * b + 16 * k + (x 0).val) % 425984, Nat.mod_lt _ (by decide)⟩ : Fin 425984))).toNat / 100)
  exact congrArg (fun z : BitVec 32 => BitVec.ofNat 32 (z.toNat / 100)) (fi_congr fi (by omega))

/-- Block `k` of sixteen of the digit list is the remainders of the tile's sixteen words there. -/
theorem I3_block (fi : IVec S425984 32) (w b k : ℕ) (off : Fin 1 → ℕ) (inb : ∀ a, off a + S16.size a ≤ S128.size a)
    (ho : off 0 = 16 * k) (x : S16.Idx) :
    I3 fi w b ((Rect.unit (s := S128) off S16.size inb).emb x) = BitVec.ofNat 32 ((SEG fi w b k x).toNat % 100) := by
  show BitVec.ofNat 32 ((fi (ix1 (⟨(13312 * w + 128 * b + (off 0 + 1 * (x 0).val)) % 425984, Nat.mod_lt _ (by decide)⟩ : Fin 425984))).toNat % 100)
    = BitVec.ofNat 32 ((fi (ix1 (⟨(13312 * w + 128 * b + 16 * k + (x 0).val) % 425984, Nat.mod_lt _ (by decide)⟩ : Fin 425984))).toNat % 100)
  exact congrArg (fun z : BitVec 32 => BitVec.ofNat 32 (z.toNat % 100)) (fi_congr fi (by omega))

/-! ## Eight stores fill a list -/

/-- Eight unmasked stores of sixteen lanes at offsets 0, 16, …, 112 through a view of 128 words: if each payload is
    its block of one function `G`, the view reads `G` afterwards, whatever the buffer held before. -/
theorem read_eight {sigr : RefSig} {κ' : Kind} {sp : Space} {Val : EltTy → Type} {e : EltTy} (v : View sigr κ' sp S128 e)
    (f : v.ty.Contents Val) (G : S128.Idx → Val e) (p0 p1 p2 p3 p4 p5 p6 p7 : S16.Idx → Val e)
    (i0 : ∀ a, (![0] : Fin 1 → ℕ) a + S16.size a ≤ S128.size a) (i1 : ∀ a, (![16] : Fin 1 → ℕ) a + S16.size a ≤ S128.size a)
    (i2 : ∀ a, (![32] : Fin 1 → ℕ) a + S16.size a ≤ S128.size a) (i3 : ∀ a, (![48] : Fin 1 → ℕ) a + S16.size a ≤ S128.size a)
    (i4 : ∀ a, (![64] : Fin 1 → ℕ) a + S16.size a ≤ S128.size a) (i5 : ∀ a, (![80] : Fin 1 → ℕ) a + S16.size a ≤ S128.size a)
    (i6 : ∀ a, (![96] : Fin 1 → ℕ) a + S16.size a ≤ S128.size a) (i7 : ∀ a, (![112] : Fin 1 → ℕ) a + S16.size a ≤ S128.size a)
    (h0 : ∀ x, p0 x = G ((Rect.unit (s := S128) ![0] S16.size i0).emb x)) (h1 : ∀ x, p1 x = G ((Rect.unit (s := S128) ![16] S16.size i1).emb x))
    (h2 : ∀ x, p2 x = G ((Rect.unit (s := S128) ![32] S16.size i2).emb x)) (h3 : ∀ x, p3 x = G ((Rect.unit (s := S128) ![48] S16.size i3).emb x))
    (h4 : ∀ x, p4 x = G ((Rect.unit (s := S128) ![64] S16.size i4).emb x)) (h5 : ∀ x, p5 x = G ((Rect.unit (s := S128) ![80] S16.size i5).emb x))
    (h6 : ∀ x, p6 x = G ((Rect.unit (s := S128) ![96] S16.size i6).emb x)) (h7 : ∀ x, p7 x = G ((Rect.unit (s := S128) ![112] S16.size i7).emb x)) :
    v.read Val (v.writes Val f
      [⟨Rect.unit (s := S128) ![112] S16.size i7, p7⟩, ⟨Rect.unit (s := S128) ![96] S16.size i6, p6⟩,
       ⟨Rect.unit (s := S128) ![80] S16.size i5, p5⟩, ⟨Rect.unit (s := S128) ![64] S16.size i4, p4⟩,
       ⟨Rect.unit (s := S128) ![48] S16.size i3, p3⟩, ⟨Rect.unit (s := S128) ![32] S16.size i2, p2⟩,
       ⟨Rect.unit (s := S128) ![16] S16.size i1, p1⟩, ⟨Rect.unit (s := S128) ![0] S16.size i0, p0⟩]) = G := by
  funext y
  refine View.read_writes_apply_of_pieces v f G _ ?_ y (View.cover_of_tiled _ (fun _ => 16) rfl y)
  intro p hp
  simp only [List.mem_cons, List.not_mem_nil, or_false] at hp
  rcases hp with rfl | rfl | rfl | rfl | rfl | rfl | rfl | rfl
  · exact h7
  · exact h6
  · exact h5
  · exact h4
  · exact h3
  · exact h2
  · exact h1
  · exact h0

/-! ## The two lists of a block -/

section Lists

variable {κ' : Kind} {sp : Space}
variable (hH : Hundredth.OK F (Scalar.ofBits (F := F) .f32 0x3C23D70A#32))
variable (fi : IVec S425984 32) (hidx : ∀ j, 0 ≤ (fi j).toInt ∧ (fi j).toInt ≤ 999999) (w b : ℕ)
variable (p0 p1 p2 p3 p4 p5 p6 p7 : IVec S16 32)
variable (i0 : ∀ a, (![0] : Fin 1 → ℕ) a + S16.size a ≤ S128.size a) (i1 : ∀ a, (![16] : Fin 1 → ℕ) a + S16.size a ≤ S128.size a)
  (i2 : ∀ a, (![32] : Fin 1 → ℕ) a + S16.size a ≤ S128.size a) (i3 : ∀ a, (![48] : Fin 1 → ℕ) a + S16.size a ≤ S128.size a)
  (i4 : ∀ a, (![64] : Fin 1 → ℕ) a + S16.size a ≤ S128.size a) (i5 : ∀ a, (![80] : Fin 1 → ℕ) a + S16.size a ≤ S128.size a)
  (i6 : ∀ a, (![96] : Fin 1 → ℕ) a + S16.size a ≤ S128.size a) (i7 : ∀ a, (![112] : Fin 1 → ℕ) a + S16.size a ≤ S128.size a)

include hH hidx in
/-- The row list of block `b`: eight stores of the quotient lanes of the tile's words [128 b + 16 k, 128 b + 16 (k + 1)),
    k = 0..7, leave the block's 128 quotients, read through any view of the 128 words over any prior contents. -/
theorem lists12 (v : View sig κ' sp S128 .i32) (f : v.ty.Contents (Elt F))
    (h0 : p0 = q12 (F := F) (SEG fi w b 0)) (h1 : p1 = q12 (F := F) (SEG fi w b 1)) (h2 : p2 = q12 (F := F) (SEG fi w b 2))
    (h3 : p3 = q12 (F := F) (SEG fi w b 3)) (h4 : p4 = q12 (F := F) (SEG fi w b 4)) (h5 : p5 = q12 (F := F) (SEG fi w b 5))
    (h6 : p6 = q12 (F := F) (SEG fi w b 6)) (h7 : p7 = q12 (F := F) (SEG fi w b 7)) :
    v.read (Elt F) (v.writes (Elt F) f
      [⟨Rect.unit (s := S128) ![112] S16.size i7, p7⟩, ⟨Rect.unit (s := S128) ![96] S16.size i6, p6⟩,
       ⟨Rect.unit (s := S128) ![80] S16.size i5, p5⟩, ⟨Rect.unit (s := S128) ![64] S16.size i4, p4⟩,
       ⟨Rect.unit (s := S128) ![48] S16.size i3, p3⟩, ⟨Rect.unit (s := S128) ![32] S16.size i2, p2⟩,
       ⟨Rect.unit (s := S128) ![16] S16.size i1, p1⟩, ⟨Rect.unit (s := S128) ![0] S16.size i0, p0⟩]) = G12 fi w b := by
  subst h0 h1 h2 h3 h4 h5 h6 h7
  refine read_eight v f (G12 fi w b) _ _ _ _ _ _ _ _ i0 i1 i2 i3 i4 i5 i6 i7 ?_ ?_ ?_ ?_ ?_ ?_ ?_ ?_ <;> intro x
  · rw [G12_block fi w b 0 _ _ rfl, lane12 hH _ (seg_range fi hidx w b 0)]
  · rw [G12_block fi w b 1 _ _ rfl, lane12 hH _ (seg_range fi hidx w b 1)]
  · rw [G12_block fi w b 2 _ _ rfl, lane12 hH _ (seg_range fi hidx w b 2)]
  · rw [G12_block fi w b 3 _ _ rfl, lane12 hH _ (seg_range fi hidx w b 3)]
  · rw [G12_block fi w b 4 _ _ rfl, lane12 hH _ (seg_range fi hidx w b 4)]
  · rw [G12_block fi w b 5 _ _ rfl, lane12 hH _ (seg_range fi hidx w b 5)]
  · rw [G12_block fi w b 6 _ _ rfl, lane12 hH _ (seg_range fi hidx w b 6)]
  · rw [G12_block fi w b 7 _ _ rfl, lane12 hH _ (seg_range fi hidx w b 7)]

include hH hidx in
/-- The digit list of block `b`: the same eight stores of the remainder lanes leave the block's 128 third digits. -/
theorem lists3 (v : View sig κ' sp S128 .i32) (f : v.ty.Contents (Elt F))
    (h0 : p0 = r3 (F := F) (SEG fi w b 0)) (h1 : p1 = r3 (F := F) (SEG fi w b 1)) (h2 : p2 = r3 (F := F) (SEG fi w b 2))
    (h3 : p3 = r3 (F := F) (SEG fi w b 3)) (h4 : p4 = r3 (F := F) (SEG fi w b 4)) (h5 : p5 = r3 (F := F) (SEG fi w b 5))
    (h6 : p6 = r3 (F := F) (SEG fi w b 6)) (h7 : p7 = r3 (F := F) (SEG fi w b 7)) :
    v.read (Elt F) (v.writes (Elt F) f
      [⟨Rect.unit (s := S128) ![112] S16.size i7, p7⟩, ⟨Rect.unit (s := S128) ![96] S16.size i6, p6⟩,
       ⟨Rect.unit (s := S128) ![80] S16.size i5, p5⟩, ⟨Rect.unit (s := S128) ![64] S16.size i4, p4⟩,
       ⟨Rect.unit (s := S128) ![48] S16.size i3, p3⟩, ⟨Rect.unit (s := S128) ![32] S16.size i2, p2⟩,
       ⟨Rect.unit (s := S128) ![16] S16.size i1, p1⟩, ⟨Rect.unit (s := S128) ![0] S16.size i0, p0⟩]) = I3 fi w b := by
  subst h0 h1 h2 h3 h4 h5 h6 h7
  refine read_eight v f (I3 fi w b) _ _ _ _ _ _ _ _ i0 i1 i2 i3 i4 i5 i6 i7 ?_ ?_ ?_ ?_ ?_ ?_ ?_ ?_ <;> intro x
  · rw [I3_block fi w b 0 _ _ rfl, lane3 hH _ (seg_range fi hidx w b 0)]
  · rw [I3_block fi w b 1 _ _ rfl, lane3 hH _ (seg_range fi hidx w b 1)]
  · rw [I3_block fi w b 2 _ _ rfl, lane3 hH _ (seg_range fi hidx w b 2)]
  · rw [I3_block fi w b 3 _ _ rfl, lane3 hH _ (seg_range fi hidx w b 3)]
  · rw [I3_block fi w b 4 _ _ rfl, lane3 hH _ (seg_range fi hidx w b 4)]
  · rw [I3_block fi w b 5 _ _ rfl, lane3 hH _ (seg_range fi hidx w b 5)]
  · rw [I3_block fi w b 6 _ _ rfl, lane3 hH _ (seg_range fi hidx w b 6)]
  · rw [I3_block fi w b 7 _ _ rfl, lane3 hH _ (seg_range fi hidx w b 7)]

end Lists

/-! ## The indirect row gather -/

/-- At rank one the row-major numbering is the coordinate. -/
theorem rowMajor_symm_one {n : ℕ} (k : Fin (⟨1, ![n]⟩ : Shape).numel) :
    (((⟨1, ![n]⟩ : Shape).rowMajor.symm k) 0).val = k.val := by
  have h := Shape.rowMajor_val_one (d := ![n]) ((⟨1, ![n]⟩ : Shape).rowMajor.symm k)
  rw [Equiv.apply_symm_apply] at h
  exact h.symm

/-- The gather's payload over a source `P` and a list `O` of 128 row numbers, each a row of the source: row `t` of the
    payload is row `O t` of `P`. -/
theorem gather_payload (P : Vec F S10000x128 .f32) (O : IVec S128 32)
    (hin : ∀ x, (O x).toNat < S10000x128.size gathers_S10000x128_S128x128.axis) :
    SparseCore.gatherPayload (F := F) gathers_S10000x128_S128x128 P (SparseCore.rows (F := F) (si := S128) O rfl hin) = ROWS P O := by
  funext j
  show P _ = P _
  congr 1
  funext a
  match a with
  | ⟨0, _⟩ =>
    apply Fin.ext
    show (O (S128.rowMajor.symm _)).toNat = (O (ix1 (j 0))).toNat % 10000
    have hj : S128.rowMajor.symm (Fin.cast (rfl : S128.numel = S128x128.size gathers_S10000x128_S128x128.axis').symm (j gathers_S10000x128_S128x128.axis')) = ix1 (j 0) := by
      funext c
      match c with
      | ⟨0, _⟩ => exact Fin.ext (rowMajor_symm_one _)
    have hlt : (O (ix1 (j 0))).toNat < 10000 := hin (ix1 (j 0))
    rw [Nat.mod_eq_of_lt hlt]
    exact congrArg (fun z => (O z).toNat) hj
  | ⟨1, _⟩ => rfl

/-- The pair table read through the slice that is all of it. -/
theorem pt_read (fp : Vec F S10000x128 .f32) (inb : ∀ a, (![0, 0] : Fin 2 → ℕ) a + S10000x128.size a ≤ S10000x128.size a) :
    ((ptWB).slice (Rect.unit (s := S10000x128) ![0, 0] S10000x128.size inb) (fun _ => rfl)).view.read (Elt F) fp = fp := by
  funext j
  show fp _ = fp j
  congr 1
  funext a
  match a with
  | ⟨0, _⟩ => exact Fin.ext (by show 0 + 1 * (j 0).val = (j 0).val; omega)
  | ⟨1, _⟩ => exact Fin.ext (by show 0 + 1 * (j 1).val = (j 1).val; omega)

/-- The indirect gather's payload, slot 0: over pair-table contents `fp` and row list `g` in the list scratch, the
    rows of `fp` that `g` names. -/
theorem gather_rows (fp : Vec F S10000x128 .f32) (g : IVec S128 32)
    (inb : ∀ a, (![0, 0] : Fin 2 → ℕ) a + S10000x128.size a ≤ S10000x128.size a)
    (hin : ∀ j, ((s2WB).view.read (Elt F) g j).toNat < S10000x128.size gathers_S10000x128_S128x128.axis) :
    SparseCore.gatherPayload (F := F) gathers_S10000x128_S128x128
        (((ptWB).slice (Rect.unit (s := S10000x128) ![0, 0] S10000x128.size inb) (fun _ => rfl)).view.read (Elt F) fp)
        (SparseCore.rows (F := F) ((s2WB).view.read (Elt F) g) rfl hin)
      = ROWS fp g := by
  rw [pt_read]
  exact gather_payload fp g hin

/-- The same for slot 1's list scratch. -/
theorem gather_rows' (fp : Vec F S10000x128 .f32) (g : IVec S128 32)
    (inb : ∀ a, (![0, 0] : Fin 2 → ℕ) a + S10000x128.size a ≤ S10000x128.size a)
    (hin : ∀ j, ((s3WB).view.read (Elt F) g j).toNat < S10000x128.size gathers_S10000x128_S128x128.axis) :
    SparseCore.gatherPayload (F := F) gathers_S10000x128_S128x128
        (((ptWB).slice (Rect.unit (s := S10000x128) ![0, 0] S10000x128.size inb) (fun _ => rfl)).view.read (Elt F) fp)
        (SparseCore.rows (F := F) ((s3WB).view.read (Elt F) g) rfl hin)
      = ROWS fp g := by
  rw [pt_read]
  exact gather_payload fp g hin

/-- One listed write of all of a whole buffer leaves its payload. -/
theorem writes_whole_one {κ' : Kind} {Val : EltTy → Type} (b : Ref sig κ') (f w : b.ty.Contents Val) :
    (View.whole b).writes Val f [⟨Rect.whole _, w⟩] = w := by
  funext y
  have h := View.read_writes_cons_emb (View.whole b) f (Rect.whole _) w [] y
  rw [Rect.emb_whole_apply] at h
  exact h

/-! ## The printed lane payloads are the two lane computations

Each store of the digit split carries its own printed copy of the lane arithmetic; where the printed program was cut
between two of its operations the copy is in two or three pieces. All of them unfold to `q12` and `r3`. -/

section Pay
variable (v : IVec S16 32)

/-! The first block, before the loop. -/
theorem pay419 : k1_pay419 (F := F) v = q12 (F := F) v := rfl
theorem pay420 : k1_pay420 (F := F) v = r3 (F := F) v := rfl
theorem pay421 : k1_pay421 (F := F) v = q12 (F := F) v := rfl
theorem pay422 : k1_pay422 (F := F) v = r3 (F := F) v := rfl
theorem pay425 : k1_pay425 (F := F) (k1_pay423 (F := F) v) (k1_pay424 (F := F)) = q12 (F := F) v := rfl
theorem pay426 : k1_pay426 (F := F) v (k1_pay423 (F := F) v) (k1_pay424 (F := F)) = r3 (F := F) v := rfl
theorem pay427 : k1_pay427 (F := F) v = q12 (F := F) v := rfl
theorem pay428 : k1_pay428 (F := F) v = r3 (F := F) v := rfl
theorem pay429 : k1_pay429 (F := F) v = q12 (F := F) v := rfl
theorem pay430 : k1_pay430 (F := F) v = r3 (F := F) v := rfl
theorem pay433 : k1_pay433 (F := F) (k1_pay431 (F := F) v) (k1_pay432 (F := F)) = q12 (F := F) v := rfl
theorem pay434 : k1_pay434 (F := F) v (k1_pay431 (F := F) v) (k1_pay432 (F := F)) = r3 (F := F) v := rfl
theorem pay435 : k1_pay435 (F := F) v = q12 (F := F) v := rfl
theorem pay436 : k1_pay436 (F := F) v = r3 (F := F) v := rfl
theorem pay437 : k1_pay437 (F := F) v = q12 (F := F) v := rfl
theorem pay438 : k1_pay438 (F := F) v = r3 (F := F) v := rfl

/-! The loop's first prefetch (the odd blocks). -/
theorem pay9 : k1_pay9 (F := F) v = q12 (F := F) v := rfl
theorem pay10 : k1_pay10 (F := F) v = r3 (F := F) v := rfl
theorem pay11 : k1_pay11 (F := F) v = q12 (F := F) v := rfl
theorem pay12 : k1_pay12 (F := F) v = r3 (F := F) v := rfl
theorem pay14 : k1_pay14 (F := F) (k1_pay13 (F := F) v) = q12 (F := F) v := rfl
theorem pay15 : k1_pay15 (F := F) v (k1_pay13 (F := F) v) = r3 (F := F) v := rfl
theorem pay16 : k1_pay16 (F := F) v = q12 (F := F) v := rfl
theorem pay17 : k1_pay17 (F := F) v = r3 (F := F) v := rfl
theorem pay18 : k1_pay18 (F := F) v = q12 (F := F) v := rfl
theorem pay19 : k1_pay19 (F := F) v = r3 (F := F) v := rfl
theorem pay20 : k1_pay20 (F := F) v = q12 (F := F) v := rfl
theorem pay21 : k1_pay21 (F := F) v = r3 (F := F) v := rfl
theorem pay22 : k1_pay22 (F := F) v = q12 (F := F) v := rfl
theorem pay23 : k1_pay23 (F := F) v = r3 (F := F) v := rfl
theorem pay391 : k1_pay391 (F := F) (k1_pay24 (F := F) v) = q12 (F := F) v := rfl
theorem pay392 : k1_pay392 (F := F) v (k1_pay24 (F := F) v) = r3 (F := F) v := rfl

/-! The loop's second prefetch (the even blocks from 2). -/
theorem pay200 : k1_pay200 (F := F) v = q12 (F := F) v := rfl
theorem pay201 : k1_pay201 (F := F) v = r3 (F := F) v := rfl
theorem pay202 : k1_pay202 (F := F) v = q12 (F := F) v := rfl
theorem pay203 : k1_pay203 (F := F) v = r3 (F := F) v := rfl
theorem pay205 : k1_pay205 (F := F) (k1_pay204 (F := F) v) = q12 (F := F) v := rfl
theorem pay206 : k1_pay206 (F := F) v (k1_pay204 (F := F) v) = r3 (F := F) v := rfl
theorem pay207 : k1_pay207 (F := F) v = q12 (F := F) v := rfl
theorem pay208 : k1_pay208 (F := F) v = r3 (F := F) v := rfl
theorem pay209 : k1_pay209 (F := F) v = q12 (F := F) v := rfl
theorem pay210 : k1_pay210 (F := F) v = r3 (F := F) v := rfl
theorem pay211 : k1_pay211 (F := F) v = q12 (F := F) v := rfl
theorem pay212 : k1_pay212 (F := F) v = r3 (F := F) v := rfl
theorem pay213 : k1_pay213 (F := F) v = q12 (F := F) v := rfl
theorem pay214 : k1_pay214 (F := F) v = r3 (F := F) v := rfl
theorem pay409 : k1_pay409 (F := F) (k1_pay215 (F := F) v) = q12 (F := F) v := rfl
theorem pay410 : k1_pay410 (F := F) v (k1_pay215 (F := F) v) = r3 (F := F) v := rfl

end Pay

/-! ## The three places the digit split runs

Before the loop the index scratch is read at the literal offsets 0, 16, …, 112 (block 0); in trip `t` of the loop at
`128 (2 t + 1) + 16 r` (block 2 t + 1) and at `128 (2 t + 2) + 16 r` (block 2 t + 2). -/

theorem seg_read_off2 (fi : IVec S425984 32) (w : ℕ) (t : Fin k1_t1_loop.trips) (r : Fin 8)
    (inb : ∀ a, (k1_off2 t (BitVec.ofNat 32 (16 * r.val))) a + S16.size a ≤ S13312.size a) :
    View.readAt (Elt F) (s0WB).view (Rect.unit (s := S13312) (k1_off2 t (BitVec.ofNat 32 (16 * r.val))) S16.size inb).toLoadRect (IDXV fi w)
      = SEG fi w (2 * t.val + 1) r.val :=
  seg_read fi w (2 * t.val + 1) r.val _ inb (by
    have h : (k1_off2 t (BitVec.ofNat 32 (16 * r.val))) 0 = 256 * t.val + 16 * r.val + 128 := congrFun (k1_off2_eq t r) 0
    omega)

theorem seg_read_off6 (fi : IVec S425984 32) (w : ℕ) (t : Fin k1_t1_loop.trips) (r : Fin 8)
    (inb : ∀ a, (k1_off6 t (BitVec.ofNat 32 (16 * r.val))) a + S16.size a ≤ S13312.size a) :
    View.readAt (Elt F) (s0WB).view (Rect.unit (s := S13312) (k1_off6 t (BitVec.ofNat 32 (16 * r.val))) S16.size inb).toLoadRect (IDXV fi w)
      = SEG fi w (2 * t.val + 2) r.val :=
  seg_read fi w (2 * t.val + 2) r.val _ inb (by
    have h : (k1_off6 t (BitVec.ofNat 32 (16 * r.val))) 0 = 256 * t.val + 16 * r.val + 256 := congrFun (k1_off6_eq t r) 0
    omega)

section Reads

variable {κ' : Kind} {sp : Space}
variable (hH : Hundredth.OK F (Scalar.ofBits (F := F) .f32 0x3C23D70A#32))
variable (fi : IVec S425984 32) (hidx : ∀ j, 0 ≤ (fi j).toInt ∧ (fi j).toInt ≤ 999999) (w b : ℕ)
variable (o0 o1 o2 o3 o4 o5 o6 o7 : Fin 1 → ℕ)
variable (j0 : ∀ a, o0 a + S16.size a ≤ S13312.size a) (j1 : ∀ a, o1 a + S16.size a ≤ S13312.size a)
  (j2 : ∀ a, o2 a + S16.size a ≤ S13312.size a) (j3 : ∀ a, o3 a + S16.size a ≤ S13312.size a)
  (j4 : ∀ a, o4 a + S16.size a ≤ S13312.size a) (j5 : ∀ a, o5 a + S16.size a ≤ S13312.size a)
  (j6 : ∀ a, o6 a + S16.size a ≤ S13312.size a) (j7 : ∀ a, o7 a + S16.size a ≤ S13312.size a)
variable (e0 : o0 0 = 128 * b + 16 * 0) (e1 : o1 0 = 128 * b + 16 * 1) (e2 : o2 0 = 128 * b + 16 * 2) (e3 : o3 0 = 128 * b + 16 * 3)
  (e4 : o4 0 = 128 * b + 16 * 4) (e5 : o5 0 = 128 * b + 16 * 5) (e6 : o6 0 = 128 * b + 16 * 6) (e7 : o7 0 = 128 * b + 16 * 7)
variable (i0 : ∀ a, (![0] : Fin 1 → ℕ) a + S16.size a ≤ S128.size a) (i1 : ∀ a, (![16] : Fin 1 → ℕ) a + S16.size a ≤ S128.size a)
  (i2 : ∀ a, (![32] : Fin 1 → ℕ) a + S16.size a ≤ S128.size a) (i3 : ∀ a, (![48] : Fin 1 → ℕ) a + S16.size a ≤ S128.size a)
  (i4 : ∀ a, (![64] : Fin 1 → ℕ) a + S16.size a ≤ S128.size a) (i5 : ∀ a, (![80] : Fin 1 → ℕ) a + S16.size a ≤ S128.size a)
  (i6 : ∀ a, (![96] : Fin 1 → ℕ) a + S16.size a ≤ S128.size a) (i7 : ∀ a, (![112] : Fin 1 → ℕ) a + S16.size a ≤ S128.size a)

include hH hidx e0 e1 e2 e3 e4 e5 e6 e7 in
/-- The row list of block `b`, stated over the eight loads of the index scratch (holding the tile's words) at the
    block's offsets. -/
theorem lists12_reads (v : View sig κ' sp S128 .i32) (f : v.ty.Contents (Elt F)) :
    v.read (Elt F) (v.writes (Elt F) f
      [⟨Rect.unit (s := S128) ![112] S16.size i7, q12 (F := F) (View.readAt (Elt F) (s0WB).view (Rect.unit (s := S13312) o7 S16.size j7).toLoadRect (IDXV fi w))⟩,
       ⟨Rect.unit (s := S128) ![96] S16.size i6, q12 (F := F) (View.readAt (Elt F) (s0WB).view (Rect.unit (s := S13312) o6 S16.size j6).toLoadRect (IDXV fi w))⟩,
       ⟨Rect.unit (s := S128) ![80] S16.size i5, q12 (F := F) (View.readAt (Elt F) (s0WB).view (Rect.unit (s := S13312) o5 S16.size j5).toLoadRect (IDXV fi w))⟩,
       ⟨Rect.unit (s := S128) ![64] S16.size i4, q12 (F := F) (View.readAt (Elt F) (s0WB).view (Rect.unit (s := S13312) o4 S16.size j4).toLoadRect (IDXV fi w))⟩,
       ⟨Rect.unit (s := S128) ![48] S16.size i3, q12 (F := F) (View.readAt (Elt F) (s0WB).view (Rect.unit (s := S13312) o3 S16.size j3).toLoadRect (IDXV fi w))⟩,
       ⟨Rect.unit (s := S128) ![32] S16.size i2, q12 (F := F) (View.readAt (Elt F) (s0WB).view (Rect.unit (s := S13312) o2 S16.size j2).toLoadRect (IDXV fi w))⟩,
       ⟨Rect.unit (s := S128) ![16] S16.size i1, q12 (F := F) (View.readAt (Elt F) (s0WB).view (Rect.unit (s := S13312) o1 S16.size j1).toLoadRect (IDXV fi w))⟩,
       ⟨Rect.unit (s := S128) ![0] S16.size i0, q12 (F := F) (View.readAt (Elt F) (s0WB).view (Rect.unit (s := S13312) o0 S16.size j0).toLoadRect (IDXV fi w))⟩])
      = G12 fi w b :=
  lists12 hH fi hidx w b _ _ _ _ _ _ _ _ i0 i1 i2 i3 i4 i5 i6 i7 v f
    (by rw [seg_read fi w b 0 o0 j0 e0]) (by rw [seg_read fi w b 1 o1 j1 e1]) (by rw [seg_read fi w b 2 o2 j2 e2])
    (by rw [seg_read fi w b 3 o3 j3 e3]) (by rw [seg_read fi w b 4 o4 j4 e4]) (by rw [seg_read fi w b 5 o5 j5 e5])
    (by rw [seg_read fi w b 6 o6 j6 e6]) (by rw [seg_read fi w b 7 o7 j7 e7])

include hH hidx e0 e1 e2 e3 e4 e5 e6 e7 in
/-- The digit list of block `b`, stated the same way. -/
theorem lists3_reads (v : View sig κ' sp S128 .i32) (f : v.ty.Contents (Elt F)) :
    v.read (Elt F) (v.writes (Elt F) f
      [⟨Rect.unit (s := S128) ![112] S16.size i7, r3 (F := F) (View.readAt (Elt F) (s0WB).view (Rect.unit (s := S13312) o7 S16.size j7).toLoadRect (IDXV fi w))⟩,
       ⟨Rect.unit (s := S128) ![96] S16.size i6, r3 (F := F) (View.readAt (Elt F) (s0WB).view (Rect.unit (s := S13312) o6 S16.size j6).toLoadRect (IDXV fi w))⟩,
       ⟨Rect.unit (s := S128) ![80] S16.size i5, r3 (F := F) (View.readAt (Elt F) (s0WB).view (Rect.unit (s := S13312) o5 S16.size j5).toLoadRect (IDXV fi w))⟩,
       ⟨Rect.unit (s := S128) ![64] S16.size i4, r3 (F := F) (View.readAt (Elt F) (s0WB).view (Rect.unit (s := S13312) o4 S16.size j4).toLoadRect (IDXV fi w))⟩,
       ⟨Rect.unit (s := S128) ![48] S16.size i3, r3 (F := F) (View.readAt (Elt F) (s0WB).view (Rect.unit (s := S13312) o3 S16.size j3).toLoadRect (IDXV fi w))⟩,
       ⟨Rect.unit (s := S128) ![32] S16.size i2, r3 (F := F) (View.readAt (Elt F) (s0WB).view (Rect.unit (s := S13312) o2 S16.size j2).toLoadRect (IDXV fi w))⟩,
       ⟨Rect.unit (s := S128) ![16] S16.size i1, r3 (F := F) (View.readAt (Elt F) (s0WB).view (Rect.unit (s := S13312) o1 S16.size j1).toLoadRect (IDXV fi w))⟩,
       ⟨Rect.unit (s := S128) ![0] S16.size i0, r3 (F := F) (View.readAt (Elt F) (s0WB).view (Rect.unit (s := S13312) o0 S16.size j0).toLoadRect (IDXV fi w))⟩])
      = I3 fi w b :=
  lists3 hH fi hidx w b _ _ _ _ _ _ _ _ i0 i1 i2 i3 i4 i5 i6 i7 v f
    (by rw [seg_read fi w b 0 o0 j0 e0]) (by rw [seg_read fi w b 1 o1 j1 e1]) (by rw [seg_read fi w b 2 o2 j2 e2])
    (by rw [seg_read fi w b 3 o3 j3 e3]) (by rw [seg_read fi w b 4 o4 j4 e4]) (by rw [seg_read fi w b 5 o5 j5 e5])
    (by rw [seg_read fi w b 6 o6 j6 e6]) (by rw [seg_read fi w b 7 o7 j7 e7])

end Reads

/-- The prologue's row list in the executor's own spelling (slot 0, block 0): the printed payloads of the eight stores over
    the eight loads of the index scratch at the literal offsets, the scratch holding the tile's words. -/
theorem prologue12 (hH : Hundredth.OK F (Scalar.ofBits (F := F) .f32 0x3C23D70A#32))
    (fi : IVec S425984 32) (hidx : ∀ j, 0 ≤ (fi j).toInt ∧ (fi j).toInt ≤ 999999) (w : ℕ) (f2 : IVec S128 32) :
    (s2WB).view.writes (Elt F) f2
      [⟨Rect.unit (s := S128) ![112] S16.size inb_S128_S16_112, k1_pay437 (F := F) (View.readAt (Elt F) (s0WB).view (Rect.unit (s := S13312) ![112] S16.size inb_S13312_S16_112).toLoadRect (IDXV fi w))⟩,
       ⟨Rect.unit (s := S128) ![96] S16.size inb_S128_S16_96, k1_pay435 (F := F) (View.readAt (Elt F) (s0WB).view (Rect.unit (s := S13312) ![96] S16.size inb_S13312_S16_96).toLoadRect (IDXV fi w))⟩,
       ⟨Rect.unit (s := S128) ![80] S16.size inb_S128_S16_80, k1_pay433 (F := F) (k1_pay431 (F := F) (View.readAt (Elt F) (s0WB).view (Rect.unit (s := S13312) ![80] S16.size inb_S13312_S16_80).toLoadRect (IDXV fi w))) (k1_pay432 (F := F))⟩,
       ⟨Rect.unit (s := S128) ![64] S16.size inb_S128_S16_64, k1_pay429 (F := F) (View.readAt (Elt F) (s0WB).view (Rect.unit (s := S13312) ![64] S16.size inb_S13312_S16_64).toLoadRect (IDXV fi w))⟩,
       ⟨Rect.unit (s := S128) ![48] S16.size inb_S128_S16_48, k1_pay427 (F := F) (View.readAt (Elt F) (s0WB).view (Rect.unit (s := S13312) ![48] S16.size inb_S13312_S16_48).toLoadRect (IDXV fi w))⟩,
       ⟨Rect.unit (s := S128) ![32] S16.size inb_S128_S16_32, k1_pay425 (F := F) (k1_pay423 (F := F) (View.readAt (Elt F) (s0WB).view (Rect.unit (s := S13312) ![32] S16.size inb_S13312_S16_32).toLoadRect (IDXV fi w))) (k1_pay424 (F := F))⟩,
       ⟨Rect.unit (s := S128) ![16] S16.size inb_S128_S16_16, k1_pay421 (F := F) (View.readAt (Elt F) (s0WB).view (Rect.unit (s := S13312) ![16] S16.size inb_S13312_S16_16).toLoadRect (IDXV fi w))⟩,
       ⟨Rect.unit (s := S128) ![0] S16.size inb_S128_S16_0, k1_pay419 (F := F) (View.readAt (Elt F) (s0WB).view (Rect.unit (s := S13312) ![0] S16.size inb_S13312_S16_0).toLoadRect (IDXV fi w))⟩]
      = G12 fi w 0 :=
  lists12_reads hH fi hidx w 0 ![0] ![16] ![32] ![48] ![64] ![80] ![96] ![112] _ _ _ _ _ _ _ _ rfl rfl rfl rfl rfl rfl rfl rfl
    _ _ _ _ _ _ _ _ (s2WB).view f2

/-- The prologue's digit list in the executor's own spelling (slot 0, block 0). -/
theorem prologue3 (hH : Hundredth.OK F (Scalar.ofBits (F := F) .f32 0x3C23D70A#32))
    (fi : IVec S425984 32) (hidx : ∀ j, 0 ≤ (fi j).toInt ∧ (fi j).toInt ≤ 999999) (w : ℕ) (f4 : IVec S128 32) :
    (s4WB).view.writes (Elt F) f4
      [⟨Rect.unit (s := S128) ![112] S16.size inb_S128_S16_112, k1_pay438 (F := F) (View.readAt (Elt F) (s0WB).view (Rect.unit (s := S13312) ![112] S16.size inb_S13312_S16_112).toLoadRect (IDXV fi w))⟩,
       ⟨Rect.unit (s := S128) ![96] S16.size inb_S128_S16_96, k1_pay436 (F := F) (View.readAt (Elt F) (s0WB).view (Rect.unit (s := S13312) ![96] S16.size inb_S13312_S16_96).toLoadRect (IDXV fi w))⟩,
       ⟨Rect.unit (s := S128) ![80] S16.size inb_S128_S16_80, k1_pay434 (F := F) (View.readAt (Elt F) (s0WB).view (Rect.unit (s := S13312) ![80] S16.size inb_S13312_S16_80).toLoadRect (IDXV fi w)) (k1_pay431 (F := F) (View.readAt (Elt F) (s0WB).view (Rect.unit (s := S13312) ![80] S16.size inb_S13312_S16_80).toLoadRect (IDXV fi w))) (k1_pay432 (F := F))⟩,
       ⟨Rect.unit (s := S128) ![64] S16.size inb_S128_S16_64, k1_pay430 (F := F) (View.readAt (Elt F) (s0WB).view (Rect.unit (s := S13312) ![64] S16.size inb_S13312_S16_64).toLoadRect (IDXV fi w))⟩,
       ⟨Rect.unit (s := S128) ![48] S16.size inb_S128_S16_48, k1_pay428 (F := F) (View.readAt (Elt F) (s0WB).view (Rect.unit (s := S13312) ![48] S16.size inb_S13312_S16_48).toLoadRect (IDXV fi w))⟩,
       ⟨Rect.unit (s := S128) ![32] S16.size inb_S128_S16_32, k1_pay426 (F := F) (View.readAt (Elt F) (s0WB).view (Rect.unit (s := S13312) ![32] S16.size inb_S13312_S16_32).toLoadRect (IDXV fi w)) (k1_pay423 (F := F) (View.readAt (Elt F) (s0WB).view (Rect.unit (s := S13312) ![32] S16.size inb_S13312_S16_32).toLoadRect (IDXV fi w))) (k1_pay424 (F := F))⟩,
       ⟨Rect.unit (s := S128) ![16] S16.size inb_S128_S16_16, k1_pay422 (F := F) (View.readAt (Elt F) (s0WB).view (Rect.unit (s := S13312) ![16] S16.size inb_S13312_S16_16).toLoadRect (IDXV fi w))⟩,
       ⟨Rect.unit (s := S128) ![0] S16.size inb_S128_S16_0, k1_pay420 (F := F) (View.readAt (Elt F) (s0WB).view (Rect.unit (s := S13312) ![0] S16.size inb_S13312_S16_0).toLoadRect (IDXV fi w))⟩]
      = I3 fi w 0 :=
  lists3_reads hH fi hidx w 0 ![0] ![16] ![32] ![48] ![64] ![80] ![96] ![112] _ _ _ _ _ _ _ _ rfl rfl rfl rfl rfl rfl rfl rfl
    _ _ _ _ _ _ _ _ (s4WB).view f4

/-! ## The digit split inside the loop, in the printed spelling

Trip `t` reads the index scratch at `k1_off2 t c` (block 2 t + 1, into the second pair of lists) and at `k1_off6 t c`
(block 2 t + 2, into the first pair), `c` = 0, 16, …, 112. -/

theorem off2_apply (t : Fin k1_t1_loop.trips) (r : Fin 8) :
    (k1_off2 t (BitVec.ofNat 32 (16 * r.val))) 0 = 128 * (2 * t.val + 1) + 16 * r.val := by
  have h : (k1_off2 t (BitVec.ofNat 32 (16 * r.val))) 0 = 256 * t.val + 16 * r.val + 128 := congrFun (k1_off2_eq t r) 0
  omega

theorem off6_apply (t : Fin k1_t1_loop.trips) (r : Fin 8) :
    (k1_off6 t (BitVec.ofNat 32 (16 * r.val))) 0 = 128 * (2 * t.val + 2) + 16 * r.val := by
  have h : (k1_off6 t (BitVec.ofNat 32 (16 * r.val))) 0 = 256 * t.val + 16 * r.val + 256 := congrFun (k1_off6_eq t r) 0
  omega

section Loop
variable (hH : Hundredth.OK F (Scalar.ofBits (F := F) .f32 0x3C23D70A#32))
variable (fi : IVec S425984 32) (hidx : ∀ j, 0 ≤ (fi j).toInt ∧ (fi j).toInt ≤ 999999) (w : ℕ)
variable (t : Fin k1_t1_loop.trips)

include hH hidx in
/-- The first prefetch's row list (second pair of lists, block 2 t + 1). -/
theorem prefetchA12 (h1 : k1_cond1 t = 1#1) (f3 : IVec S128 32) :
    (s3WB).view.writes (Elt F) f3
      [⟨Rect.unit (s := S128) ![112] S16.size inb_S128_S16_112, k1_pay391 (F := F) (k1_pay24 (F := F) (View.readAt (Elt F) (s0WB).view (Rect.unit (s := S13312) (k1_off2 t 112#32) S16.size (k1_off2_inb t h1 7)).toLoadRect (IDXV fi w)))⟩,
       ⟨Rect.unit (s := S128) ![96] S16.size inb_S128_S16_96, k1_pay22 (F := F) (View.readAt (Elt F) (s0WB).view (Rect.unit (s := S13312) (k1_off2 t 96#32) S16.size (k1_off2_inb t h1 6)).toLoadRect (IDXV fi w))⟩,
       ⟨Rect.unit (s := S128) ![80] S16.size inb_S128_S16_80, k1_pay20 (F := F) (View.readAt (Elt F) (s0WB).view (Rect.unit (s := S13312) (k1_off2 t 80#32) S16.size (k1_off2_inb t h1 5)).toLoadRect (IDXV fi w))⟩,
       ⟨Rect.unit (s := S128) ![64] S16.size inb_S128_S16_64, k1_pay18 (F := F) (View.readAt (Elt F) (s0WB).view (Rect.unit (s := S13312) (k1_off2 t 64#32) S16.size (k1_off2_inb t h1 4)).toLoadRect (IDXV fi w))⟩,
       ⟨Rect.unit (s := S128) ![48] S16.size inb_S128_S16_48, k1_pay16 (F := F) (View.readAt (Elt F) (s0WB).view (Rect.unit (s := S13312) (k1_off2 t 48#32) S16.size (k1_off2_inb t h1 3)).toLoadRect (IDXV fi w))⟩,
       ⟨Rect.unit (s := S128) ![32] S16.size inb_S128_S16_32, k1_pay14 (F := F) (k1_pay13 (F := F) (View.readAt (Elt F) (s0WB).view (Rect.unit (s := S13312) (k1_off2 t 32#32) S16.size (k1_off2_inb t h1 2)).toLoadRect (IDXV fi w)))⟩,
       ⟨Rect.unit (s := S128) ![16] S16.size inb_S128_S16_16, k1_pay11 (F := F) (View.readAt (Elt F) (s0WB).view (Rect.unit (s := S13312) (k1_off2 t 16#32) S16.size (k1_off2_inb t h1 1)).toLoadRect (IDXV fi w))⟩,
       ⟨Rect.unit (s := S128) ![0] S16.size inb_S128_S16_0, k1_pay9 (F := F) (View.readAt (Elt F) (s0WB).view (Rect.unit (s := S13312) (k1_off2 t 0#32) S16.size (k1_off2_inb t h1 0)).toLoadRect (IDXV fi w))⟩]
      = G12 fi w (2 * t.val + 1) :=
  lists12_reads hH fi hidx w (2 * t.val + 1) (k1_off2 t 0#32) (k1_off2 t 16#32) (k1_off2 t 32#32) (k1_off2 t 48#32) (k1_off2 t 64#32)
    (k1_off2 t 80#32) (k1_off2 t 96#32) (k1_off2 t 112#32) _ _ _ _ _ _ _ _
    (off2_apply t 0) (off2_apply t 1) (off2_apply t 2) (off2_apply t 3) (off2_apply t 4) (off2_apply t 5) (off2_apply t 6) (off2_apply t 7)
    _ _ _ _ _ _ _ _ (s3WB).view f3

include hH hidx in
/-- The first prefetch's digit list (second pair of lists, block 2 t + 1). -/
theorem prefetchA3 (h1 : k1_cond1 t = 1#1) (f5 : IVec S128 32) :
    (s5WB).view.writes (Elt F) f5
      [⟨Rect.unit (s := S128) ![112] S16.size inb_S128_S16_112, k1_pay392 (F := F) (View.readAt (Elt F) (s0WB).view (Rect.unit (s := S13312) (k1_off2 t 112#32) S16.size (k1_off2_inb t h1 7)).toLoadRect (IDXV fi w)) (k1_pay24 (F := F) (View.readAt (Elt F) (s0WB).view (Rect.unit (s := S13312) (k1_off2 t 112#32) S16.size (k1_off2_inb t h1 7)).toLoadRect (IDXV fi w)))⟩,
       ⟨Rect.unit (s := S128) ![96] S16.size inb_S128_S16_96, k1_pay23 (F := F) (View.readAt (Elt F) (s0WB).view (Rect.unit (s := S13312) (k1_off2 t 96#32) S16.size (k1_off2_inb t h1 6)).toLoadRect (IDXV fi w))⟩,
       ⟨Rect.unit (s := S128) ![80] S16.size inb_S128_S16_80, k1_pay21 (F := F) (View.readAt (Elt F) (s0WB).view (Rect.unit (s := S13312) (k1_off2 t 80#32) S16.size (k1_off2_inb t h1 5)).toLoadRect (IDXV fi w))⟩,
       ⟨Rect.unit (s := S128) ![64] S16.size inb_S128_S16_64, k1_pay19 (F := F) (View.readAt (Elt F) (s0WB).view (Rect.unit (s := S13312) (k1_off2 t 64#32) S16.size (k1_off2_inb t h1 4)).toLoadRect (IDXV fi w))⟩,
       ⟨Rect.unit (s := S128) ![48] S16.size inb_S128_S16_48, k1_pay17 (F := F) (View.readAt (Elt F) (s0WB).view (Rect.unit (s := S13312) (k1_off2 t 48#32) S16.size (k1_off2_inb t h1 3)).toLoadRect (IDXV fi w))⟩,
       ⟨Rect.unit (s := S128) ![32] S16.size inb_S128_S16_32, k1_pay15 (F := F) (View.readAt (Elt F) (s0WB).view (Rect.unit (s := S13312) (k1_off2 t 32#32) S16.size (k1_off2_inb t h1 2)).toLoadRect (IDXV fi w)) (k1_pay13 (F := F) (View.readAt (Elt F) (s0WB).view (Rect.unit (s := S13312) (k1_off2 t 32#32) S16.size (k1_off2_inb t h1 2)).toLoadRect (IDXV fi w)))⟩,
       ⟨Rect.unit (s := S128) ![16] S16.size inb_S128_S16_16, k1_pay12 (F := F) (View.readAt (Elt F) (s0WB).view (Rect.unit (s := S13312) (k1_off2 t 16#32) S16.size (k1_off2_inb t h1 1)).toLoadRect (IDXV fi w))⟩,
       ⟨Rect.unit (s := S128) ![0] S16.size inb_S128_S16_0, k1_pay10 (F := F) (View.readAt (Elt F) (s0WB).view (Rect.unit (s := S13312) (k1_off2 t 0#32) S16.size (k1_off2_inb t h1 0)).toLoadRect (IDXV fi w))⟩]
      = I3 fi w (2 * t.val + 1) :=
  lists3_reads hH fi hidx w (2 * t.val + 1) (k1_off2 t 0#32) (k1_off2 t 16#32) (k1_off2 t 32#32) (k1_off2 t 48#32) (k1_off2 t 64#32)
    (k1_off2 t 80#32) (k1_off2 t 96#32) (k1_off2 t 112#32) _ _ _ _ _ _ _ _
    (off2_apply t 0) (off2_apply t 1) (off2_apply t 2) (off2_apply t 3) (off2_apply t 4) (off2_apply t 5) (off2_apply t 6) (off2_apply t 7)
    _ _ _ _ _ _ _ _ (s5WB).view f5

include hH hidx in
/-- The second prefetch's row list (first pair of lists, block 2 t + 2). -/
theorem prefetchB12 (h3 : k1_cond3 t = 1#1) (f2 : IVec S128 32) :
    (s2WB).view.writes (Elt F) f2
      [⟨Rect.unit (s := S128) ![112] S16.size inb_S128_S16_112, k1_pay409 (F := F) (k1_pay215 (F := F) (View.readAt (Elt F) (s0WB).view (Rect.unit (s := S13312) (k1_off6 t 112#32) S16.size (k1_off6_inb t h3 7)).toLoadRect (IDXV fi w)))⟩,
       ⟨Rect.unit (s := S128) ![96] S16.size inb_S128_S16_96, k1_pay213 (F := F) (View.readAt (Elt F) (s0WB).view (Rect.unit (s := S13312) (k1_off6 t 96#32) S16.size (k1_off6_inb t h3 6)).toLoadRect (IDXV fi w))⟩,
       ⟨Rect.unit (s := S128) ![80] S16.size inb_S128_S16_80, k1_pay211 (F := F) (View.readAt (Elt F) (s0WB).view (Rect.unit (s := S13312) (k1_off6 t 80#32) S16.size (k1_off6_inb t h3 5)).toLoadRect (IDXV fi w))⟩,
       ⟨Rect.unit (s := S128) ![64] S16.size inb_S128_S16_64, k1_pay209 (F := F) (View.readAt (Elt F) (s0WB).view (Rect.unit (s := S13312) (k1_off6 t 64#32) S16.size (k1_off6_inb t h3 4)).toLoadRect (IDXV fi w))⟩,
       ⟨Rect.unit (s := S128) ![48] S16.size inb_S128_S16_48, k1_pay207 (F := F) (View.readAt (Elt F) (s0WB).view (Rect.unit (s := S13312) (k1_off6 t 48#32) S16.size (k1_off6_inb t h3 3)).toLoadRect (IDXV fi w))⟩,
       ⟨Rect.unit (s := S128) ![32] S16.size inb_S128_S16_32, k1_pay205 (F := F) (k1_pay204 (F := F) (View.readAt (Elt F) (s0WB).view (Rect.unit (s := S13312) (k1_off6 t 32#32) S16.size (k1_off6_inb t h3 2)).toLoadRect (IDXV fi w)))⟩,
       ⟨Rect.unit (s := S128) ![16] S16.size inb_S128_S16_16, k1_pay202 (F := F) (View.readAt (Elt F) (s0WB).view (Rect.unit (s := S13312) (k1_off6 t 16#32) S16.size (k1_off6_inb t h3 1)).toLoadRect (IDXV fi w))⟩,
       ⟨Rect.unit (s := S128) ![0] S16.size inb_S128_S16_0, k1_pay200 (F := F) (View.readAt (Elt F) (s0WB).view (Rect.unit (s := S13312) (k1_off6 t 0#32) S16.size (k1_off6_inb t h3 0)).toLoadRect (IDXV fi w))⟩]
      = G12 fi w (2 * t.val + 2) :=
  lists12_reads hH fi hidx w (2 * t.val + 2) (k1_off6 t 0#32) (k1_off6 t 16#32) (k1_off6 t 32#32) (k1_off6 t 48#32) (k1_off6 t 64#32)
    (k1_off6 t 80#32) (k1_off6 t 96#32) (k1_off6 t 112#32) _ _ _ _ _ _ _ _
    (off6_apply t 0) (off6_apply t 1) (off6_apply t 2) (off6_apply t 3) (off6_apply t 4) (off6_apply t 5) (off6_apply t 6) (off6_apply t 7)
    _ _ _ _ _ _ _ _ (s2WB).view f2

include hH hidx in
/-- The second prefetch's digit list (first pair of lists, block 2 t + 2). -/
theorem prefetchB3 (h3 : k1_cond3 t = 1#1) (f4 : IVec S128 32) :
    (s4WB).view.writes (Elt F) f4
      [⟨Rect.unit (s := S128) ![112] S16.size inb_S128_S16_112, k1_pay410 (F := F) (View.readAt (Elt F) (s0WB).view (Rect.unit (s := S13312) (k1_off6 t 112#32) S16.size (k1_off6_inb t h3 7)).toLoadRect (IDXV fi w)) (k1_pay215 (F := F) (View.readAt (Elt F) (s0WB).view (Rect.unit (s := S13312) (k1_off6 t 112#32) S16.size (k1_off6_inb t h3 7)).toLoadRect (IDXV fi w)))⟩,
       ⟨Rect.unit (s := S128) ![96] S16.size inb_S128_S16_96, k1_pay214 (F := F) (View.readAt (Elt F) (s0WB).view (Rect.unit (s := S13312) (k1_off6 t 96#32) S16.size (k1_off6_inb t h3 6)).toLoadRect (IDXV fi w))⟩,
       ⟨Rect.unit (s := S128) ![80] S16.size inb_S128_S16_80, k1_pay212 (F := F) (View.readAt (Elt F) (s0WB).view (Rect.unit (s := S13312) (k1_off6 t 80#32) S16.size (k1_off6_inb t h3 5)).toLoadRect (IDXV fi w))⟩,
       ⟨Rect.unit (s := S128) ![64] S16.size inb_S128_S16_64, k1_pay210 (F := F) (View.readAt (Elt F) (s0WB).view (Rect.unit (s := S13312) (k1_off6 t 64#32) S16.size (k1_off6_inb t h3 4)).toLoadRect (IDXV fi w))⟩,
       ⟨Rect.unit (s := S128) ![48] S16.size inb_S128_S16_48, k1_pay208 (F := F) (View.readAt (Elt F) (s0WB).view (Rect.unit (s := S13312) (k1_off6 t 48#32) S16.size (k1_off6_inb t h3 3)).toLoadRect (IDXV fi w))⟩,
       ⟨Rect.unit (s := S128) ![32] S16.size inb_S128_S16_32, k1_pay206 (F := F) (View.readAt (Elt F) (s0WB).view (Rect.unit (s := S13312) (k1_off6 t 32#32) S16.size (k1_off6_inb t h3 2)).toLoadRect (IDXV fi w)) (k1_pay204 (F := F) (View.readAt (Elt F) (s0WB).view (Rect.unit (s := S13312) (k1_off6 t 32#32) S16.size (k1_off6_inb t h3 2)).toLoadRect (IDXV fi w)))⟩,
       ⟨Rect.unit (s := S128) ![16] S16.size inb_S128_S16_16, k1_pay203 (F := F) (View.readAt (Elt F) (s0WB).view (Rect.unit (s := S13312) (k1_off6 t 16#32) S16.size (k1_off6_inb t h3 1)).toLoadRect (IDXV fi w))⟩,
       ⟨Rect.unit (s := S128) ![0] S16.size inb_S128_S16_0, k1_pay201 (F := F) (View.readAt (Elt F) (s0WB).view (Rect.unit (s := S13312) (k1_off6 t 0#32) S16.size (k1_off6_inb t h3 0)).toLoadRect (IDXV fi w))⟩]
      = I3 fi w (2 * t.val + 2) :=
  lists3_reads hH fi hidx w (2 * t.val + 2) (k1_off6 t 0#32) (k1_off6 t 16#32) (k1_off6 t 32#32) (k1_off6 t 48#32) (k1_off6 t 64#32)
    (k1_off6 t 80#32) (k1_off6 t 96#32) (k1_off6 t 112#32) _ _ _ _ _ _ _ _
    (off6_apply t 0) (off6_apply t 1) (off6_apply t 2) (off6_apply t 3) (off6_apply t 4) (off6_apply t 5) (off6_apply t 6) (off6_apply t 7)
    _ _ _ _ _ _ _ _ (s4WB).view f4

end Loop

end Cert.Proof.KB

end
-- ==== Proof.OutBlocksB.lean ====
/-
  A subcore's 851968 words of the flat result as 104 blocks of 8192. Block b of worker w is tokens
  [13312 w + 128 b, 13312 w + 128 (b + 1)), 64 words a token: words [851968 w + 8192 b, 851968 w + 8192 (b + 1)). The
  blocks are pairwise disjoint and cover the subcore's words, so the subcore's hold on its words splits into a hold on
  each block and joins back. Block b holds the kernel's words when word p of it is the word of token p / 64 at column
  p % 64; a write of those 8192 words through the block's slice makes the block so whatever the array held, and
  leaves every other block as it was; a subcore all of whose blocks are so has done its work.
-/
import proofs.«207215_g13752485282153_cont_week2b_1454_30_alg».proof.Proof.CommonB
import proofs.«207215_g13752485282153_cont_week2b_1454_30_alg».proof.Proof.TileSpec
import proofs.«207215_g13752485282153_cont_week2b_1454_30_alg».proof.Proof.TileDataB
import proofs.«207215_g13752485282153_cont_week2b_1454_30_alg».proof.Proof.TileIfaceB
import proofs.«207215_g13752485282153_cont_week2b_1454_30_alg».proof.Proof.ComputeLib

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F]

/-! ## The blocks -/

theorem blkRect_inb (L : grid1.Coords) (b : ℕ) :
    ∀ a, (![851968 * wid L + 8192 * (b % 104)] : Fin 1 → Nat) a + (![8192] : Fin 1 → Nat) a ≤ S27262976.size a := by
  have h := wid_lt L
  have hb : b % 104 < 104 := Nat.mod_lt _ (by decide)
  intro a; fin_cases a; simp; omega

/-- Block b (taken modulo 104) of subcore L's words: [851968 w + 8192 b, 851968 w + 8192 (b + 1)). -/
abbrev blkRect (L : grid1.Coords) (b : ℕ) : Rect S27262976 :=
  Rect.unit (s := S27262976) ![851968 * wid L + 8192 * (b % 104)] ![8192] (blkRect_inb L b)
abbrev blkSet (L : grid1.Coords) (b : ℕ) : Finset S27262976.Idx := ((outWB).view.slice (blkRect L b)).set

omit [FloatOps F] in
theorem mem_blkSet (L : grid1.Coords) (b : ℕ) (i : S27262976.Idx) :
    i ∈ blkSet L b ↔ 851968 * wid L + 8192 * (b % 104) ≤ (i 0).val ∧ (i 0).val < 851968 * wid L + 8192 * (b % 104) + 8192 := by
  show i ∈ ((View.whole (main_v23_scv : Ref sig .scVector)).slice (blkRect L b)).set ↔ _
  rw [View.set_slice_whole, Rect.mem_set_unit]
  exact Fin.forall_fin_one

omit [FloatOps F] in
theorem mem_oSet (L : grid1.Coords) (i : S27262976.Idx) :
    i ∈ oSet L ↔ 851968 * wid L ≤ (i 0).val ∧ (i 0).val < 851968 * wid L + 851968 := by
  show i ∈ ((View.whole (main_v23_scv : Ref sig .scVector)).slice (oRect L)).set ↔ _
  rw [View.set_slice_whole, Rect.mem_set_unit]
  exact Fin.forall_fin_one

omit [FloatOps F] in
/-- A slice of 8192 words of the flat result at offset off holds exactly the words [off, off + 8192). -/
theorem mem_sliceSet (off : Fin 1 → ℕ) (inb : ∀ a, off a + S8192.size a ≤ S27262976.size a) (i : S27262976.Idx) :
    i ∈ ((outWB).slice (Rect.unit (s := S27262976) off S8192.size inb) (fun _ => rfl)).view.set
      ↔ off 0 ≤ (i 0).val ∧ (i 0).val < off 0 + 8192 := by
  show i ∈ ((View.whole (main_v23_scv : Ref sig .scVector)).slice (Rect.unit (s := S27262976) off S8192.size inb)).set ↔ _
  rw [View.set_slice_whole, Rect.mem_set_unit]
  exact Fin.forall_fin_one

omit [FloatOps F] in
/-- The slice the body copies a block out through, at outer trip t and parity r, holds block 2 t + r. -/
theorem off5_set (L : grid1.Coords) (t : Fin k1_t1_loop.trips) (r : Fin 2) (par : BitVec 32) (hpar : par = BitVec.ofNat 32 r.val)
    (inb : ∀ a, (k1_off5 L t par) a + S8192.size a ≤ S27262976.size a) :
    ((outWB).slice (Rect.unit (s := S27262976) (k1_off5 L t par) S8192.size inb) (fun _ => rfl)).view.set
      = blkSet L (2 * t.val + r.val) := by
  subst hpar
  ext i
  rw [mem_blkSet, mem_sliceSet]
  have hk : (k1_off5 L t (BitVec.ofNat 32 r.val)) 0 = 1703936 * (L 1).val + 851968 * (L 0).val + 16384 * t.val + 8192 * r.val :=
    congrFun (k1_off5_eq L t r) 0
  have ht : t.val < 52 := Nat.lt_of_lt_of_le t.isLt k1_t1_abs.2.1
  have hr := r.isLt
  rw [hk]; unfold wid; omega

omit [FloatOps F] in
/-- The slice the waits name, at the subcore's first words, holds block 0. -/
theorem off_first_set (L : grid1.Coords) (off : Fin 1 → ℕ) (ho : off = ![1703936 * (L 1).val + 851968 * (L 0).val])
    (inb : ∀ a, off a + S8192.size a ≤ S27262976.size a) :
    ((outWB).slice (Rect.unit (s := S27262976) off S8192.size inb) (fun _ => rfl)).view.set = blkSet L 0 := by
  subst ho
  ext i
  rw [mem_blkSet, mem_sliceSet]
  show 1703936 * (L 1).val + 851968 * (L 0).val ≤ (i 0).val ∧ (i 0).val < 1703936 * (L 1).val + 851968 * (L 0).val + 8192 ↔ _
  unfold wid; omega

omit [FloatOps F] in
theorem blk_disjoint (L : grid1.Coords) :
    ∀ b ∈ Finset.range 104, ∀ b' ∈ Finset.range 104, b ≠ b' → Disjoint (blkSet L b) (blkSet L b') := by
  intro b hb b' hb' hne
  have h1 := Finset.mem_range.mp hb
  have h2 := Finset.mem_range.mp hb'
  rw [Finset.disjoint_left]
  intro i hi hi'
  rw [mem_blkSet] at hi hi'
  omega

omit [FloatOps F] in
theorem blk_cover (L : grid1.Coords) : (Finset.range 104).biUnion (blkSet L) = oSet L := by
  ext i
  rw [Finset.mem_biUnion, mem_oSet]
  constructor
  · rintro ⟨b, hb, hi⟩
    rw [mem_blkSet] at hi
    have := Finset.mem_range.mp hb
    omega
  · intro h
    refine ⟨((i 0).val - 851968 * wid L) / 8192, Finset.mem_range.mpr (by omega), ?_⟩
    rw [mem_blkSet]
    omega

/-! ## The subcore's hold on its words, block by block -/

omit [FloatOps F] in
/-- Holding the subcore's words is holding each of its 104 blocks. -/
theorem oPts_blocks (d : Dev nD) (L : grid1.Coords) (f : Buf (Elt F) (outLoc d)) :
    (outLoc d ↦[oSet L]{fullShare} f : sProp 𝕄) = bigSep (Finset.range 104) fun b => outLoc d ↦[blkSet L b]{fullShare} f := by
  rw [← pointsTo_biUnion (Finset.range 104) (ℓ := outLoc d) (blkSet L) (blk_disjoint L), blk_cover]; try rfl

omit [FloatOps F] in
/-- The 104 blocks held at contents of their own join into the subcore's words held at one array that agrees with each
    block's contents on that block. -/
theorem oBlocks_join (d : Dev nD) (L : grid1.Coords) (fs : ℕ → Buf (Elt F) (outLoc d)) :
    (bigSep (Finset.range 104) fun b => outLoc d ↦[blkSet L b]{fullShare} fs b)
      ⊢ (iprop(∃ g : Buf (Elt F) (outLoc d), ⌜∀ b, b < 104 → ∀ i ∈ blkSet L b, g i = fs b i⌝ ∗ outLoc d ↦[oSet L]{fullShare} g) : sProp 𝕄) := by
  iintro H
  ihave H' := (pointsTo_biUnion_join (ℓ := outLoc d) (q := fullShare) (Finset.range 104) (blkSet L) fs (fs 0) (blk_disjoint L)) $$ H
  icases H' with ⟨%g, %hg, Hg⟩
  rw [blk_cover]
  iexists g
  isplitr
  · ipureintro; exact fun b hb => hg b (Finset.mem_range.mpr hb)
  · iexact Hg

/-! ## What a block holds -/

/-- The 8192 words of block b of worker w: word p is the kernel's word of token 13312 w + 128 b + p / 64 at column
    p % 64. -/
def OUTS (fi : IVec S425984 32) (fp : Vec F S10000x128 .f32) (fc : Vec F S3304 .f32) (w b : ℕ) : Vec F S8192 .f32 :=
  fun p => TileSpec.word fp fc
    (fi (ix1 (⟨(13312 * w + 128 * b + (p 0).val / 64) % 425984, Nat.mod_lt _ (by decide)⟩ : Fin 425984))).toNat
    (13312 * w + 128 * b + (p 0).val / 64) ((p 0).val % 64)

/-- Block b of worker w holds the kernel's words in f. -/
def BlockOK (fi : IVec S425984 32) (fp : Vec F S10000x128 .f32) (fc : Vec F S3304 .f32) (w b : ℕ) (f : Vec F S27262976 .f32) : Prop :=
  ∀ p : Fin 8192,
    f (ix1 (⟨(851968 * w + 8192 * b + p.val) % 27262976, Nat.mod_lt _ (by decide)⟩ : Fin 27262976)) = OUTS fi fp fc w b (ix1 p)

/-- A worker all of whose 104 blocks hold the kernel's words has done its work. -/
theorem outOK_of_blocks (fi : IVec S425984 32) (fp : Vec F S10000x128 .f32) (fc : Vec F S3304 .f32) (w : ℕ) (f : Vec F S27262976 .f32)
    (h : ∀ b, b < 104 → BlockOK fi fp fc w b f) : TileSpec.OutOK (F := F) fi fp fc w f := by
  intro t e
  have ht := t.isLt
  have he := e.isLt
  have hb : t.val / 128 < 104 := by omega
  have hp : 64 * (t.val % 128) + e.val < 8192 := by omega
  have H := h _ hb ⟨64 * (t.val % 128) + e.val, hp⟩
  have e1 : (⟨(851968 * w + 8192 * (t.val / 128) + (64 * (t.val % 128) + e.val)) % 27262976, Nat.mod_lt _ (by decide)⟩ : Fin 27262976)
      = ⟨(64 * (13312 * w + t.val) + e.val) % 27262976, Nat.mod_lt _ (by decide)⟩ :=
    Fin.ext (by
      show (851968 * w + 8192 * (t.val / 128) + (64 * (t.val % 128) + e.val)) % 27262976 = (64 * (13312 * w + t.val) + e.val) % 27262976
      congr 1; omega)
  simp only [] at H
  rw [e1] at H
  rw [H]
  have e2 : (64 * (t.val % 128) + e.val) / 64 = t.val % 128 := by omega
  have e3 : (64 * (t.val % 128) + e.val) % 64 = e.val := by omega
  have e4 : 13312 * w + 128 * (t.val / 128) + t.val % 128 = 13312 * w + t.val := by omega
  show TileSpec.word fp fc
      (fi (ix1 (⟨(13312 * w + 128 * (t.val / 128) + (64 * (t.val % 128) + e.val) / 64) % 425984, Nat.mod_lt _ (by decide)⟩ : Fin 425984))).toNat
      (13312 * w + 128 * (t.val / 128) + (64 * (t.val % 128) + e.val) / 64) ((64 * (t.val % 128) + e.val) % 64) = _
  rw [e2, e3]
  rw [fi_congr fi e4, e4]

/-- Whether a block holds the kernel's words depends on the array at that block's words alone. -/
theorem blockOK_congr (fi : IVec S425984 32) (fp : Vec F S10000x128 .f32) (fc : Vec F S3304 .f32) (L : grid1.Coords) (b : ℕ) (hb : b < 104)
    (f g : Vec F S27262976 .f32) (hg : ∀ i ∈ blkSet L b, g i = f i) (h : BlockOK fi fp fc (wid L) b f) :
    BlockOK fi fp fc (wid L) b g := by
  intro p
  have hp := p.isLt
  have hw := wid_lt L
  rw [hg _ ((mem_blkSet L b _).mpr (by
    show 851968 * wid L + 8192 * (b % 104) ≤ (851968 * wid L + 8192 * b + p.val) % 27262976
      ∧ (851968 * wid L + 8192 * b + p.val) % 27262976 < 851968 * wid L + 8192 * (b % 104) + 8192
    omega))]
  exact h p

/-- The subcore's words joined from blocks that each hold the kernel's words: the subcore has done its work. -/
theorem outOK_of_join (fi : IVec S425984 32) (fp : Vec F S10000x128 .f32) (fc : Vec F S3304 .f32) (L : grid1.Coords)
    (fs : ℕ → Vec F S27262976 .f32) (g : Vec F S27262976 .f32) (hfs : ∀ b, b < 104 → BlockOK fi fp fc (wid L) b (fs b))
    (hg : ∀ b, b < 104 → ∀ i ∈ blkSet L b, g i = fs b i) : TileSpec.OutOK (F := F) fi fp fc (wid L) g :=
  outOK_of_blocks fi fp fc (wid L) g fun b hb => blockOK_congr fi fp fc L b hb (fs b) g (hg b hb) (hfs b hb)

/-! ## A block written through its slice -/

/-- The block's 8192 words written through a slice of the flat result at the block's offset: the block holds the
    kernel's words afterwards, whatever the array held. -/
theorem blockOK_write (fi : IVec S425984 32) (fp : Vec F S10000x128 .f32) (fc : Vec F S3304 .f32) (w b : ℕ) (hw : w < 32) (hb : b < 104)
    (off : Fin 1 → ℕ) (inb : ∀ a, off a + S8192.size a ≤ S27262976.size a) (ho : off 0 = 851968 * w + 8192 * b)
    (f : Vec F S27262976 .f32) (g : Vec F S8192 .f32) (hg : g = OUTS fi fp fc w b) :
    BlockOK fi fp fc w b
      (View.write (Elt F) ((outWB).slice (Rect.unit (s := S27262976) off S8192.size inb) (fun _ => rfl)).view f g Finset.univ) := by
  subst hg
  intro p
  have hp := p.isLt
  have he : (ix1 (⟨(851968 * w + 8192 * b + p.val) % 27262976, Nat.mod_lt _ (by decide)⟩ : Fin 27262976) : S27262976.Idx)
      = ((outWB).slice (Rect.unit (s := S27262976) off S8192.size inb) (fun _ => rfl)).view.emb (ix1 p) := by
    funext a
    match a with
    | ⟨0, _⟩ => exact Fin.ext (by show (851968 * w + 8192 * b + p.val) % 27262976 = off 0 + 1 * p.val; omega)
  rw [he, View.write_emb_of_mem _ _ (Finset.mem_univ _)]
  rfl

/-- The same write leaves every other block of the worker as it was. -/
theorem blockOK_write_other (fi : IVec S425984 32) (fp : Vec F S10000x128 .f32) (fc : Vec F S3304 .f32) (w b b' : ℕ) (hw : w < 32)
    (hb : b < 104) (hb' : b' < 104) (hne : b' ≠ b)
    (off : Fin 1 → ℕ) (inb : ∀ a, off a + S8192.size a ≤ S27262976.size a) (ho : off 0 = 851968 * w + 8192 * b)
    (f : Vec F S27262976 .f32) (g : Vec F S8192 .f32) (h : BlockOK fi fp fc w b' f) :
    BlockOK fi fp fc w b'
      (View.write (Elt F) ((outWB).slice (Rect.unit (s := S27262976) off S8192.size inb) (fun _ => rfl)).view f g Finset.univ) := by
  intro p
  have hp := p.isLt
  rw [View.write_of_not_mem]
  · exact h p
  · rw [View.setOn_univ, mem_sliceSet]
    show ¬(off 0 ≤ (851968 * w + 8192 * b' + p.val) % 27262976 ∧ (851968 * w + 8192 * b' + p.val) % 27262976 < off 0 + 8192)
    omega

/-! ## The compute loop's words are the kernel's words

The compute loop works on a slot: the 128 rows of the pair table its block's row list names, the third-core table, the
block's 128 third digits. Row j of the slot is token 13312 w + 128 b + j, whose lane is j % 16, because
13312 w + 128 b is a multiple of sixteen. -/

/-- The product the lane of slot row j forms over the gathered rows is the product the kernel's word is made of, when
    the row list names the token's pair-table row at j, the digit is the token's third digit and the token's lane is
    the row's. -/
theorem slotProd_rows (fp : Vec F S10000x128 .f32) (fc : Vec F S3304 .f32) (g : IVec S128 32) (n n3 j t e r : ℕ)
    (hg : (g (ix1 (⟨j % 128, Nat.mod_lt _ (by decide)⟩ : Fin 128))).toNat = n / 100) (hn3 : n3 = n % 100) (ht : t % 16 = j % 16) :
    Compute.slotProd (ROWS fp g) fc n3 j e r = TileSpec.prod fp fc (n / 100) (n % 100) (t % 16) (e / 4) (e % 4) r := by
  subst hn3
  show FloatOps.mulf
      (fp (ix2 (⟨(g (ix1 (⟨j % 128, Nat.mod_lt _ (by decide)⟩ : Fin 128))).toNat % 10000, Nat.mod_lt _ (by decide)⟩ : Fin 10000)
        (⟨(8 * (e / 4) + (j % 16 + r) % 8) % 128, Nat.mod_lt _ (by decide)⟩ : Fin 128)))
      (fc (ix1 (⟨(33 * (n % 100) + 4 * ((j % 16 + r) % 8) + e % 4) % 3304, Nat.mod_lt _ (by decide)⟩ : Fin 3304)))
    = FloatOps.mulf
      (fp (ix2 (⟨(n / 100) % 10000, Nat.mod_lt _ (by decide)⟩ : Fin 10000)
        (⟨(8 * (e / 4) + (t % 16 + r) % 8) % 128, Nat.mod_lt _ (by decide)⟩ : Fin 128)))
      (fc (ix1 (⟨(33 * (n % 100) + 4 * ((t % 16 + r) % 8) + e % 4) % 3304, Nat.mod_lt _ (by decide)⟩ : Fin 3304)))
  rw [hg, ht]

/-- The word the compute loop leaves at column e of slot row j is the kernel's word of the row's token. -/
theorem slotWord_rows (fp : Vec F S10000x128 .f32) (fc : Vec F S3304 .f32) (g : IVec S128 32) (n n3 j t e : ℕ)
    (hg : (g (ix1 (⟨j % 128, Nat.mod_lt _ (by decide)⟩ : Fin 128))).toNat = n / 100) (hn3 : n3 = n % 100) (ht : t % 16 = j % 16) :
    Compute.slotWord (ROWS fp g) fc n3 j e = TileSpec.word fp fc n t e := by
  unfold Compute.slotWord TileSpec.word TileSpec.lane
  simp only [slotProd_rows fp fc g n n3 j t e _ hg hn3 ht]

/-- THE BLOCK: once the compute loop has done all eight groups of sixteen rows of block b's slot, the slot's result
    scratch is the block of the kernel's words. -/
theorem outs_of_done (fi : IVec S425984 32) (fp : Vec F S10000x128 .f32) (fc : Vec F S3304 .f32) (w b : ℕ) (f : Vec F S8192 .f32)
    (h : Compute.Done 8 (ROWS fp (G12 fi w b)) fc (I3 fi w b) f) : f = OUTS fi fp fc w b := by
  funext p
  obtain ⟨q, rfl⟩ : ∃ q : Fin 8192, p = ix1 q := ⟨p 0, eq_ix1 p⟩
  have hq := q.isLt
  have hj : q.val / 64 < 16 * 8 := by omega
  have he : q.val % 64 < 64 := Nat.mod_lt _ (by decide)
  have H := h (q.val / 64) hj (q.val % 64) he
  have e0 : (⟨(64 * (q.val / 64) + q.val % 64) % 8192, Nat.mod_lt _ (by decide)⟩ : Fin 8192) = q :=
    Fin.ext (by show (64 * (q.val / 64) + q.val % 64) % 8192 = q.val; omega)
  have hf : Compute.outAt f (64 * (q.val / 64) + q.val % 64) = f (ix1 q) := by
    unfold Compute.outAt; rw [e0]
  rw [← hf, H]
  -- the token of slot row q / 64 and its index word
  have e1 : (q.val / 64) % 128 = q.val / 64 := by omega
  have hword : fi (ix1 (⟨(13312 * w + 128 * b + (q.val / 64) % 128) % 425984, Nat.mod_lt _ (by decide)⟩ : Fin 425984))
      = fi (ix1 (⟨(13312 * w + 128 * b + q.val / 64) % 425984, Nat.mod_lt _ (by decide)⟩ : Fin 425984)) :=
    fi_congr fi (by omega)
  have hlt := (fi (ix1 (⟨(13312 * w + 128 * b + q.val / 64) % 425984, Nat.mod_lt _ (by decide)⟩ : Fin 425984))).isLt
  refine slotWord_rows fp fc (G12 fi w b) _ _ (q.val / 64) (13312 * w + 128 * b + q.val / 64) (q.val % 64) ?_ ?_ (by omega)
  · show (BitVec.ofNat 32 ((fi (ix1 (⟨(13312 * w + 128 * b + (q.val / 64) % 128) % 425984, Nat.mod_lt _ (by decide)⟩ : Fin 425984))).toNat / 100)).toNat = _
    rw [hword, BitVec.toNat_ofNat]
    show _ % 2 ^ 32 = (fi (ix1 (⟨(13312 * w + 128 * b + q.val / 64) % 425984, Nat.mod_lt _ (by decide)⟩ : Fin 425984))).toNat / 100
    omega
  · show (BitVec.ofNat 32 ((fi (ix1 (⟨(13312 * w + 128 * b + (q.val / 64) % 128) % 425984, Nat.mod_lt _ (by decide)⟩ : Fin 425984))).toNat % 100)).toNat = _
    rw [hword, BitVec.toNat_ofNat]
    show _ % 2 ^ 32 = (fi (ix1 (⟨(13312 * w + 128 * b + q.val / 64) % 425984, Nat.mod_lt _ (by decide)⟩ : Fin 425984))).toNat % 100
    omega

end Cert.Proof.KB

end
-- ==== Proof.TileInvB.lean ====
import proofs.«207215_g13752485282153_cont_week2b_1454_30_alg».proof.Proof.CommonB
import proofs.«207215_g13752485282153_cont_week2b_1454_30_alg».proof.Proof.TileRunB
import proofs.«207215_g13752485282153_cont_week2b_1454_30_alg».proof.Proof.TileDataB
import proofs.«207215_g13752485282153_cont_week2b_1454_30_alg».proof.Proof.OutBlocksB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! The states of one vector subcore between the pieces of its outer loop: what it holds of the shared arrays and
    of its scratch, which row gather and which copy-outs are outstanding, what its words of the result hold. -/

variable (d : Dev nD) (L : grid1.Coords) (q q0 q1 : PosShare TreeShare)
variable (fi : Buf (Elt F) ((idxWB).view.loc (thr d L))) (fp : Buf (Elt F) ((ptWB).view.loc (thr d L)))
  (fc : Buf (Elt F) ((ctWB).view.loc (thr d L)))
variable (O : CellTallies nD τ sig (HIx 1)) (W : Waits sig (HIx 1))

/-- The pair table as the gathers name their source: the full-rectangle slice. -/
abbrev ptSl : Memref sig .scVector .hbm S10000x128 .f32 :=
  (ptWB).slice (Rect.unit (s := S10000x128) ![0, 0] S10000x128.size inb_S10000x128_S10000x128_0_0) (fun _ => rfl)

theorem oRectC_inb (L : grid1.Coords) : ∀ a, (![1703936 * (L 1).val + 851968 * (L 0).val] : Fin 1 → Nat) a + (![851968] : Fin 1 → Nat) a ≤ S27262976.size a := by
  have h0 : (L 0).val < 2 := (L 0).isLt
  have h1 : (L 1).val < 16 := (L 1).isLt
  intro a; fin_cases a; simp; omega

/-- The subcore's words of the flat result, offset spelt over the grid coordinates as the printed offsets' closed forms
    spell it. -/
abbrev oRectC (L : grid1.Coords) : Rect S27262976 :=
  Rect.unit (s := S27262976) ![1703936 * (L 1).val + 851968 * (L 0).val] ![851968] (oRectC_inb L)
abbrev oReg (L : grid1.Coords) : Finset S27262976.Idx := (outWB).view.setOn (oRectC L).set

/-- What every piece keeps: the wait evidence, the read shares of the indices and of the third-core table, the index
    scratch holding the subcore's 13312 index words, the table scratch holding the third-core table. -/
def Base : sProp 𝕄 :=
  iprop(Transfers.MayWaits (thr d L) (none : HIx 1) O
    ∗ ((idxWB).view.loc (thr d L) ↦{q} fi) ∗ ((ctWB).view.loc (thr d L) ↦{q} fc)
    ∗ ((s0WB).view.loc (thr d L) ↦{fullShare} IDXV fi (wid L))
    ∗ ((s1WB).view.loc (thr d L) ↦{fullShare} fc))

/-- Slot 0's row gather of block `b` outstanding: the flight delivering the rows buffer at the gathered rows, the row
    list and the table's share back; the (empty) rest of the table's share. -/
def GFlight0 (b : ℕ) : sProp 𝕄 :=
  iprop(Transfers.Flight countersEmb (thr d L) (SemLoc.dma cc1_scratch10.sem) default 524288
      iprop((((s6WB).view.loc (thr d L) ↦{fullShare} ROWS fp (G12 fi (wid L) b)) ∗ ((s2WB).view.loc (thr d L) ↦{fullShare} G12 fi (wid L) b))
        ∗ ((ptWB).view.loc (thr d L) ↦[(ptSl).view.set]{q0} fp))
    ∗ ((ptWB).view.loc (thr d L) ↦[Finset.univ \ (ptSl).view.set]{q0} fp))
def GFlight1 (b : ℕ) : sProp 𝕄 :=
  iprop(Transfers.Flight countersEmb (thr d L) (SemLoc.dma cc1_scratch11.sem) default 524288
      iprop((((s7WB).view.loc (thr d L) ↦{fullShare} ROWS fp (G12 fi (wid L) b)) ∗ ((s3WB).view.loc (thr d L) ↦{fullShare} G12 fi (wid L) b))
        ∗ ((ptWB).view.loc (thr d L) ↦[(ptSl).view.set]{q1} fp))
    ∗ ((ptWB).view.loc (thr d L) ↦[Finset.univ \ (ptSl).view.set]{q1} fp))

/-- Slot 0's rows landed: block `b`'s gathered rows, its row list, the table's share whole, the counter at zero. -/
def GLanded0 (b : ℕ) : sProp 𝕄 :=
  iprop(((s6WB).view.loc (thr d L) ↦{fullShare} ROWS fp (G12 fi (wid L) b)) ∗ ((s2WB).view.loc (thr d L) ↦{fullShare} G12 fi (wid L) b)
    ∗ ((ptWB).view.loc (thr d L) ↦{q0} fp) ∗ semVal (thr d L, SemLoc.dma cc1_scratch10.sem) 0)
def GLanded1 (b : ℕ) : sProp 𝕄 :=
  iprop(((s7WB).view.loc (thr d L) ↦{fullShare} ROWS fp (G12 fi (wid L) b)) ∗ ((s3WB).view.loc (thr d L) ↦{fullShare} G12 fi (wid L) b)
    ∗ ((ptWB).view.loc (thr d L) ↦{q1} fp) ∗ semVal (thr d L, SemLoc.dma cc1_scratch11.sem) 0)

/-- Slot 0's gather side idle: rows buffer and row list at anything, the table's share, the counter at zero. -/
def GIdle0 : sProp 𝕄 :=
  iprop((∃ f, (s6WB).view.loc (thr d L) ↦{fullShare} f) ∗ (∃ f, (s2WB).view.loc (thr d L) ↦{fullShare} f)
    ∗ ((ptWB).view.loc (thr d L) ↦{q0} fp) ∗ semVal (thr d L, SemLoc.dma cc1_scratch10.sem) 0)
def GIdle1 : sProp 𝕄 :=
  iprop((∃ f, (s7WB).view.loc (thr d L) ↦{fullShare} f) ∗ (∃ f, (s3WB).view.loc (thr d L) ↦{fullShare} f)
    ∗ ((ptWB).view.loc (thr d L) ↦{q1} fp) ∗ semVal (thr d L, SemLoc.dma cc1_scratch11.sem) 0)

/-- A slot's third-digit list: block `b`'s, or anything. -/
def D3At0 (b : ℕ) : sProp 𝕄 := (s4WB).view.loc (thr d L) ↦{fullShare} I3 fi (wid L) b
def D3At1 (b : ℕ) : sProp 𝕄 := (s5WB).view.loc (thr d L) ↦{fullShare} I3 fi (wid L) b
def D3Any0 : sProp 𝕄 := iprop(∃ f, (s4WB).view.loc (thr d L) ↦{fullShare} f)
def D3Any1 : sProp 𝕄 := iprop(∃ f, (s5WB).view.loc (thr d L) ↦{fullShare} f)

/-- What the subcore owes, with the waits it has recorded beyond `W` all at index `none`. -/
def Owes : sProp 𝕄 := iprop(∃ W', ⌜∀ p ∈ W', p ∈ W ∨ p.2 = none⌝ ∗ owes (thr d L) O W')

end Cert.Proof.KB

end
-- ==== Proof.CopyOutB.lean ====
/-
  The copy-out of a slot's out scratch into its block of the flat result, and the wait for it.

  Each half-step of the tile kernel ends by issuing a local copy of the slot's 8192-word out scratch into one block of
  the flat result, on the slot's own copy-out semaphore, and the copy is waited for two half-steps later by a wait whose
  descriptor names the tile's FIRST block. A wait lowers the semaphore's counter by the amount its descriptor credits —
  8192 words of 32 bits, whichever block of that size it names — so the flight issued for block (t, slot) is the one the
  later wait collects. Stated once per slot: the issue (from the scratch whole, any held elements of the result that
  include the block, the semaphore at zero), the wait (for any descriptor of that credit), and the block rejoined with
  the rest it was carved from.
-/
import proofs.«207215_g13752485282153_cont_week2b_1454_30_alg».proof.Proof.CommonB
import proofs.«207215_g13752485282153_cont_week2b_1454_30_alg».proof.Proof.TileIfaceB
import proofs.«207215_g13752485282153_cont_week2b_1454_30_alg».proof.Proof.OutBlocksB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (d : Dev nD) (L : grid1.Coords)

/-! ## Slot 0: scratch 8, semaphore 12 -/

/-- The block of the flat result that outer trip `t` fills from slot 0's out scratch: 8192 words at the kernel's own
    offset for that half-step, spelt as the kernel slices it. -/
abbrev blk0 (t : Fin k1_t1_loop.trips) : Memref sig .scVector .hbm S8192 .f32 :=
  (outWB).slice (Rect.unit (s := S27262976) (k1_off5 L t 0#32) S8192.size (k1_off5_inb L t 0)) (fun _ => rfl)

/-- The result array's contents once slot 0's out scratch, at contents `fs`, has been copied into block `(t, 0)`
    of contents `fo`: the scratch's words written through the block's view. -/
abbrev wr0 (t : Fin k1_t1_loop.trips) (fo : Buf (Elt F) ((outWB).view.loc (thr d L)))
    (fs : Buf (Elt F) ((s8WB).view.loc (thr d L))) : Buf (Elt F) ((outWB).view.loc (thr d L)) :=
  (blk0 L t).view.write (Elt F) fo ((s8WB).view.read (Elt F) fs) Finset.univ

/-- Slot 0's copy-out of trip `t` in flight: the capability to lower the slot's copy-out semaphore by the block's
    credit (8192 words of 32 bits), which then hands over the block written with the scratch's words and the scratch. -/
def CopyFlight0 (t : Fin k1_t1_loop.trips) (fo : Buf (Elt F) ((outWB).view.loc (thr d L)))
    (fs : Buf (Elt F) ((s8WB).view.loc (thr d L))) : sProp 𝕄 :=
  Transfers.Flight countersEmb (thr d L) (SemLoc.dma cc1_scratch12.sem) (none : HIx 1) 262144
    iprop(((outWB).view.loc (thr d L) ↦[(blk0 L t).view.set]{fullShare} wr0 d L t fo fs)
      ∗ ((s8WB).view.loc (thr d L) ↦[(s8WB).view.set]{fullShare} fs))

/-- The issue of slot 0's copy-out: holding the scratch whole, any elements `Sd` of the result that include the
    block, and the slot's copy-out semaphore at zero, the subcore issues the copy and goes on holding the flight and
    the REST of `Sd`, unchanged. -/
theorem copyout_issue0 {α : Type} {Q : α → sProp 𝕄} (t : Fin k1_t1_loop.trips)
    (fo : Buf (Elt F) ((outWB).view.loc (thr d L))) (fs : Buf (Elt F) ((s8WB).view.loc (thr d L)))
    (Sd : Finset (Idx ((outWB).view.loc (thr d L)))) (hSd : (blk0 L t).view.set ⊆ Sd)
    (k : PUnit → Prog (TpuEff nD τ sig (Elt F) Λ₀ (thr d L).2) α) :
    (iprop(((s8WB).view.loc (thr d L) ↦{fullShare} fs) ∗ ((outWB).view.loc (thr d L) ↦[Sd]{fullShare} fo)
        ∗ semVal (thr d L, SemLoc.dma cc1_scratch12.sem) 0) : sProp 𝕄)
      ⊢ iprop((iprop(CopyFlight0 d L t fo fs ∗ ((outWB).view.loc (thr d L) ↦[Sd \ (blk0 L t).view.set]{fullShare} fo))
                -∗ wp frame (wpE (defs₀ (F := F)) 𝒱₀ (thr d L) none) Set.univ (k ⟨⟩) Q)
          -∗ wp frame (wpE (defs₀ (F := F)) 𝒱₀ (thr d L) none) Set.univ
              (.op (.enqueueDma s8WB (.here (blk0 L t)) (.dma cc1_scratch12.sem) (Memref.isWhole_whole _).wordExact
                (View.wordExact_bits rfl) ⟨Or.inl rfl, trivial⟩) k) Q) := by
  iintro ⟨Hs, Hd, Hv⟩ Hk
  ihave Hd' := (pointsTo_split_subset hSd).1 $$ Hd
  icases Hd' with ⟨Hd, Hrest⟩
  rw [← (Memref.isWhole_whole _).set_eq_univ (m := s8WB)]
  iapply (Transfers.wp_dmaLocal countersEmb 𝒱₀ (thr d L) none (none : HIx 1) 262144 rfl (by decide) subset_rfl) $$ [Hs Hd Hv]
  · isplitl [Hs]; · iexact Hs
    isplitl [Hd] <;> iassumption
  iintro Hf
  iapply Hk
  isplitl [Hf]
  · unfold CopyFlight0; iexact Hf
  · iexact Hrest

/-- The wait for slot 0's copy-out, whatever block of 8192 words the wait's descriptor names (the kernel names the
    tile's first): the subcore lowers the semaphore by the block's credit and goes on holding the block written with the
    scratch's words, the scratch whole, the semaphore at zero, and the wait recorded. -/
theorem copyout_wait0 {α : Type} {Q : α → sProp 𝕄} (t : Fin k1_t1_loop.trips)
    (fo : Buf (Elt F) ((outWB).view.loc (thr d L))) (fs : Buf (Elt F) ((s8WB).view.loc (thr d L)))
    (O : CellTallies nD τ sig (HIx 1)) (W : Waits sig (HIx 1))
    (dstw : Memref sig .scVector .hbm S8192 .f32) (hcr : dstw.view.dmaCredit = 262144)
    (hsrc : (s8WB).view.WordExact) (hdst : dstw.view.WordExact)
    (k : PUnit → Prog (TpuEff nD τ sig (Elt F) Λ₀ (thr d L).2) α) :
    (iprop(CopyFlight0 d L t fo fs ∗ owes (thr d L) O W ∗ Transfers.MayWaits (thr d L) (none : HIx 1) O) : sProp 𝕄)
      ⊢ iprop((iprop(((outWB).view.loc (thr d L) ↦[(blk0 L t).view.set]{fullShare} wr0 d L t fo fs)
                ∗ ((s8WB).view.loc (thr d L) ↦{fullShare} fs)
                ∗ semVal (thr d L, SemLoc.dma cc1_scratch12.sem) 0
                ∗ owes (thr d L) O (insert (SemLoc.dma cc1_scratch12.sem, (none : HIx 1)) W))
                -∗ wp frame (wpE (defs₀ (F := F)) 𝒱₀ (thr d L) none) Set.univ (k ⟨⟩) Q)
          -∗ wp frame (wpE (defs₀ (F := F)) 𝒱₀ (thr d L) none) Set.univ
              (.op (.waitDma2 cc1_scratch12.sem s8WB dstw hsrc hdst) k) Q) := by
  iintro ⟨Hf, HO, #Hmw⟩ Hk
  unfold CopyFlight0
  iapply (Transfers.wp_waitLocalO countersEmb 𝒱₀ (thr d L) none (none : HIx 1) hcr) $$ [Hf HO]
  · isplitl [Hf]; · iexact Hf
    isplitl [HO]; · iexact HO
    iapply (Transfers.MayWaits.elim (SemLoc.dma cc1_scratch12.sem)) $$ Hmw
  iintro ⟨⟨Hd, Hs⟩, Hv, HO⟩
  iapply Hk
  isplitl [Hd]; · iexact Hd
  isplitl [Hs]
  · rw [(Memref.isWhole_whole _).set_eq_univ (m := s8WB)]; iexact Hs
  isplitl [Hv] <;> iassumption

/-- The block rejoined with the rest it was carved from: off the block the written contents are the old ones. -/
theorem copyout_join0 (t : Fin k1_t1_loop.trips) (fo : Buf (Elt F) ((outWB).view.loc (thr d L)))
    (fs : Buf (Elt F) ((s8WB).view.loc (thr d L))) (Sd : Finset (Idx ((outWB).view.loc (thr d L))))
    (hSd : (blk0 L t).view.set ⊆ Sd) :
    (iprop(((outWB).view.loc (thr d L) ↦[(blk0 L t).view.set]{fullShare} wr0 d L t fo fs)
        ∗ ((outWB).view.loc (thr d L) ↦[Sd \ (blk0 L t).view.set]{fullShare} fo)) : sProp 𝕄)
      ⊢ ((outWB).view.loc (thr d L) ↦[Sd]{fullShare} wr0 d L t fo fs) := by
  iintro ⟨Hd, Hrest⟩
  iapply (pointsTo_split_subset hSd).2
  isplitl [Hd]; · iexact Hd
  iapply (Entails.of_eq (pointsTo_rest_write (v := (blk0 L t).view) (S := Sd) (thr d L) fo ((s8WB).view.read (Elt F) fs))) $$ Hrest

/-! ## Slot 1: scratch 9, semaphore 13 -/

/-- The block of the flat result that outer trip `t` fills from slot 1's out scratch: 8192 words at the kernel's own
    offset for that half-step, spelt as the kernel slices it. -/
abbrev blk1 (t : Fin k1_t1_loop.trips) : Memref sig .scVector .hbm S8192 .f32 :=
  (outWB).slice (Rect.unit (s := S27262976) (k1_off5 L t 1#32) S8192.size (k1_off5_inb L t 1)) (fun _ => rfl)

/-- The result array's contents once slot 1's out scratch, at contents `fs`, has been copied into block `(t, 1)`
    of contents `fo`: the scratch's words written through the block's view. -/
abbrev wr1 (t : Fin k1_t1_loop.trips) (fo : Buf (Elt F) ((outWB).view.loc (thr d L)))
    (fs : Buf (Elt F) ((s9WB).view.loc (thr d L))) : Buf (Elt F) ((outWB).view.loc (thr d L)) :=
  (blk1 L t).view.write (Elt F) fo ((s9WB).view.read (Elt F) fs) Finset.univ

/-- Slot 1's copy-out of trip `t` in flight: the capability to lower the slot's copy-out semaphore by the block's
    credit (8192 words of 32 bits), which then hands over the block written with the scratch's words and the scratch. -/
def CopyFlight1 (t : Fin k1_t1_loop.trips) (fo : Buf (Elt F) ((outWB).view.loc (thr d L)))
    (fs : Buf (Elt F) ((s9WB).view.loc (thr d L))) : sProp 𝕄 :=
  Transfers.Flight countersEmb (thr d L) (SemLoc.dma cc1_scratch13.sem) (none : HIx 1) 262144
    iprop(((outWB).view.loc (thr d L) ↦[(blk1 L t).view.set]{fullShare} wr1 d L t fo fs)
      ∗ ((s9WB).view.loc (thr d L) ↦[(s9WB).view.set]{fullShare} fs))

/-- The issue of slot 1's copy-out: holding the scratch whole, any elements `Sd` of the result that include the
    block, and the slot's copy-out semaphore at zero, the subcore issues the copy and goes on holding the flight and
    the REST of `Sd`, unchanged. -/
theorem copyout_issue1 {α : Type} {Q : α → sProp 𝕄} (t : Fin k1_t1_loop.trips)
    (fo : Buf (Elt F) ((outWB).view.loc (thr d L))) (fs : Buf (Elt F) ((s9WB).view.loc (thr d L)))
    (Sd : Finset (Idx ((outWB).view.loc (thr d L)))) (hSd : (blk1 L t).view.set ⊆ Sd)
    (k : PUnit → Prog (TpuEff nD τ sig (Elt F) Λ₀ (thr d L).2) α) :
    (iprop(((s9WB).view.loc (thr d L) ↦{fullShare} fs) ∗ ((outWB).view.loc (thr d L) ↦[Sd]{fullShare} fo)
        ∗ semVal (thr d L, SemLoc.dma cc1_scratch13.sem) 0) : sProp 𝕄)
      ⊢ iprop((iprop(CopyFlight1 d L t fo fs ∗ ((outWB).view.loc (thr d L) ↦[Sd \ (blk1 L t).view.set]{fullShare} fo))
                -∗ wp frame (wpE (defs₀ (F := F)) 𝒱₀ (thr d L) none) Set.univ (k ⟨⟩) Q)
          -∗ wp frame (wpE (defs₀ (F := F)) 𝒱₀ (thr d L) none) Set.univ
              (.op (.enqueueDma s9WB (.here (blk1 L t)) (.dma cc1_scratch13.sem) (Memref.isWhole_whole _).wordExact
                (View.wordExact_bits rfl) ⟨Or.inl rfl, trivial⟩) k) Q) := by
  iintro ⟨Hs, Hd, Hv⟩ Hk
  ihave Hd' := (pointsTo_split_subset hSd).1 $$ Hd
  icases Hd' with ⟨Hd, Hrest⟩
  rw [← (Memref.isWhole_whole _).set_eq_univ (m := s9WB)]
  iapply (Transfers.wp_dmaLocal countersEmb 𝒱₀ (thr d L) none (none : HIx 1) 262144 rfl (by decide) subset_rfl) $$ [Hs Hd Hv]
  · isplitl [Hs]; · iexact Hs
    isplitl [Hd] <;> iassumption
  iintro Hf
  iapply Hk
  isplitl [Hf]
  · unfold CopyFlight1; iexact Hf
  · iexact Hrest

/-- The wait for slot 1's copy-out, whatever block of 8192 words the wait's descriptor names (the kernel names the
    tile's first): the subcore lowers the semaphore by the block's credit and goes on holding the block written with the
    scratch's words, the scratch whole, the semaphore at zero, and the wait recorded. -/
theorem copyout_wait1 {α : Type} {Q : α → sProp 𝕄} (t : Fin k1_t1_loop.trips)
    (fo : Buf (Elt F) ((outWB).view.loc (thr d L))) (fs : Buf (Elt F) ((s9WB).view.loc (thr d L)))
    (O : CellTallies nD τ sig (HIx 1)) (W : Waits sig (HIx 1))
    (dstw : Memref sig .scVector .hbm S8192 .f32) (hcr : dstw.view.dmaCredit = 262144)
    (hsrc : (s9WB).view.WordExact) (hdst : dstw.view.WordExact)
    (k : PUnit → Prog (TpuEff nD τ sig (Elt F) Λ₀ (thr d L).2) α) :
    (iprop(CopyFlight1 d L t fo fs ∗ owes (thr d L) O W ∗ Transfers.MayWaits (thr d L) (none : HIx 1) O) : sProp 𝕄)
      ⊢ iprop((iprop(((outWB).view.loc (thr d L) ↦[(blk1 L t).view.set]{fullShare} wr1 d L t fo fs)
                ∗ ((s9WB).view.loc (thr d L) ↦{fullShare} fs)
                ∗ semVal (thr d L, SemLoc.dma cc1_scratch13.sem) 0
                ∗ owes (thr d L) O (insert (SemLoc.dma cc1_scratch13.sem, (none : HIx 1)) W))
                -∗ wp frame (wpE (defs₀ (F := F)) 𝒱₀ (thr d L) none) Set.univ (k ⟨⟩) Q)
          -∗ wp frame (wpE (defs₀ (F := F)) 𝒱₀ (thr d L) none) Set.univ
              (.op (.waitDma2 cc1_scratch13.sem s9WB dstw hsrc hdst) k) Q) := by
  iintro ⟨Hf, HO, #Hmw⟩ Hk
  unfold CopyFlight1
  iapply (Transfers.wp_waitLocalO countersEmb 𝒱₀ (thr d L) none (none : HIx 1) hcr) $$ [Hf HO]
  · isplitl [Hf]; · iexact Hf
    isplitl [HO]; · iexact HO
    iapply (Transfers.MayWaits.elim (SemLoc.dma cc1_scratch13.sem)) $$ Hmw
  iintro ⟨⟨Hd, Hs⟩, Hv, HO⟩
  iapply Hk
  isplitl [Hd]; · iexact Hd
  isplitl [Hs]
  · rw [(Memref.isWhole_whole _).set_eq_univ (m := s9WB)]; iexact Hs
  isplitl [Hv] <;> iassumption

/-- The block rejoined with the rest it was carved from: off the block the written contents are the old ones. -/
theorem copyout_join1 (t : Fin k1_t1_loop.trips) (fo : Buf (Elt F) ((outWB).view.loc (thr d L)))
    (fs : Buf (Elt F) ((s9WB).view.loc (thr d L))) (Sd : Finset (Idx ((outWB).view.loc (thr d L))))
    (hSd : (blk1 L t).view.set ⊆ Sd) :
    (iprop(((outWB).view.loc (thr d L) ↦[(blk1 L t).view.set]{fullShare} wr1 d L t fo fs)
        ∗ ((outWB).view.loc (thr d L) ↦[Sd \ (blk1 L t).view.set]{fullShare} fo)) : sProp 𝕄)
      ⊢ ((outWB).view.loc (thr d L) ↦[Sd]{fullShare} wr1 d L t fo fs) := by
  iintro ⟨Hd, Hrest⟩
  iapply (pointsTo_split_subset hSd).2
  isplitl [Hd]; · iexact Hd
  iapply (Entails.of_eq (pointsTo_rest_write (v := (blk1 L t).view) (S := Sd) (thr d L) fo ((s9WB).view.read (Elt F) fs))) $$ Hrest

/-! ## The out side of the outer loop's invariant, as the symbolic run leaves and takes it

The run issues a copy-out from the subcore's region held under its rectangle: it lends the block's window into the
flight, keeps the region LESS the window at the written contents, and lends the scratch whole (its rest is empty). -/

/-- Slot 0's copy-out of trip `t` outstanding: the flight on slot 0's copy-out semaphore delivering the block's window
    written with the scratch's words `g` over `fo`, and the scratch's own elements at `g`; beside it the scratch's
    (empty) rest. -/
def OFlight0 (t : Fin k1_t1_loop.trips) (fo : Buf (Elt F) ((outWB).view.loc (thr d L)))
    (g : Buf (Elt F) ((s8WB).view.loc (thr d L))) : sProp 𝕄 :=
  iprop(Transfers.Flight countersEmb (thr d L) (SemLoc.dma cc1_scratch12.sem) default 262144
      iprop(((outWB).view.loc (thr d L) ↦[(blk0 L t).view.set]{fullShare} wr0 d L t fo g)
        ∗ ((s8WB).view.loc (thr d L) ↦[(s8WB).view.set]{fullShare} g))
    ∗ ((s8WB).view.loc (thr d L) ↦[Finset.univ \ (s8WB).view.set]{fullShare} g))

/-- Slot 1's copy-out of trip `t` outstanding, likewise. -/
def OFlight1 (t : Fin k1_t1_loop.trips) (fo : Buf (Elt F) ((outWB).view.loc (thr d L)))
    (g : Buf (Elt F) ((s9WB).view.loc (thr d L))) : sProp 𝕄 :=
  iprop(Transfers.Flight countersEmb (thr d L) (SemLoc.dma cc1_scratch13.sem) default 262144
      iprop(((outWB).view.loc (thr d L) ↦[(blk1 L t).view.set]{fullShare} wr1 d L t fo g)
        ∗ ((s9WB).view.loc (thr d L) ↦[(s9WB).view.set]{fullShare} g))
    ∗ ((s9WB).view.loc (thr d L) ↦[Finset.univ \ (s9WB).view.set]{fullShare} g))

/-- The elements `S` of the flat result the subcore holds, at contents `f`. -/
def ORest (S : Finset S27262976.Idx) (f : Buf (Elt F) ((outWB).view.loc (thr d L))) : sProp 𝕄 :=
  (outWB).view.loc (thr d L) ↦[S]{fullShare} f

/-! ## Between the run's hypotheses and the invariant's -/

/-- What the run holds after slot 0's enqueue — the flight, the scratch's empty rest, the region less the window,
    both at the contents `f'` the run names — is the invariant's, once `f'` is read as the block written (`rfl` at the
    run's own name for it). -/
theorem oflight0_of_run (t : Fin k1_t1_loop.trips) (fo : Buf (Elt F) ((outWB).view.loc (thr d L)))
    (g : Buf (Elt F) ((s8WB).view.loc (thr d L))) (S : Finset S27262976.Idx) (f' : Buf (Elt F) ((outWB).view.loc (thr d L)))
    (hf' : f' = wr0 d L t fo g) :
    (iprop(Transfers.Flight countersEmb (thr d L) (SemLoc.dma cc1_scratch12.sem) default 262144
          iprop(((outWB).view.loc (thr d L) ↦[(blk0 L t).view.set]{fullShare} f')
            ∗ ((s8WB).view.loc (thr d L) ↦[(s8WB).view.set]{fullShare} g))
        ∗ ((s8WB).view.loc (thr d L) ↦[Finset.univ \ (s8WB).view.set]{fullShare} g)
        ∗ ((outWB).view.loc (thr d L) ↦[S \ (blk0 L t).view.set]{fullShare} f')) : sProp 𝕄)
      ⊢ iprop(OFlight0 d L t fo g ∗ ORest d L (S \ (blk0 L t).view.set) (wr0 d L t fo g)) := by
  subst hf'
  unfold OFlight0 ORest
  iintro ⟨Hf, Hr, Ho⟩
  isplitl [Hf Hr]
  · isplitl [Hf] <;> iassumption
  · iexact Ho

/-- The invariant's flight laid out as the run's wait reads it: the flight on the semaphore and the scratch's rest. -/
theorem oflight0_to_run (t : Fin k1_t1_loop.trips) (fo : Buf (Elt F) ((outWB).view.loc (thr d L)))
    (g : Buf (Elt F) ((s8WB).view.loc (thr d L))) :
    (OFlight0 d L t fo g : sProp 𝕄)
      ⊢ iprop(Transfers.Flight countersEmb (thr d L) (SemLoc.dma cc1_scratch12.sem) default 262144
          iprop(((outWB).view.loc (thr d L) ↦[(blk0 L t).view.set]{fullShare} wr0 d L t fo g)
            ∗ ((s8WB).view.loc (thr d L) ↦[(s8WB).view.set]{fullShare} g))
        ∗ ((s8WB).view.loc (thr d L) ↦[Finset.univ \ (s8WB).view.set]{fullShare} g)) := by
  unfold OFlight0; exact Entails.rfl

/-- What the run holds after slot 1's enqueue — the flight, the scratch's empty rest, the region less the window,
    both at the contents `f'` the run names — is the invariant's, once `f'` is read as the block written (`rfl` at the
    run's own name for it). -/
theorem oflight1_of_run (t : Fin k1_t1_loop.trips) (fo : Buf (Elt F) ((outWB).view.loc (thr d L)))
    (g : Buf (Elt F) ((s9WB).view.loc (thr d L))) (S : Finset S27262976.Idx) (f' : Buf (Elt F) ((outWB).view.loc (thr d L)))
    (hf' : f' = wr1 d L t fo g) :
    (iprop(Transfers.Flight countersEmb (thr d L) (SemLoc.dma cc1_scratch13.sem) default 262144
          iprop(((outWB).view.loc (thr d L) ↦[(blk1 L t).view.set]{fullShare} f')
            ∗ ((s9WB).view.loc (thr d L) ↦[(s9WB).view.set]{fullShare} g))
        ∗ ((s9WB).view.loc (thr d L) ↦[Finset.univ \ (s9WB).view.set]{fullShare} g)
        ∗ ((outWB).view.loc (thr d L) ↦[S \ (blk1 L t).view.set]{fullShare} f')) : sProp 𝕄)
      ⊢ iprop(OFlight1 d L t fo g ∗ ORest d L (S \ (blk1 L t).view.set) (wr1 d L t fo g)) := by
  subst hf'
  unfold OFlight1 ORest
  iintro ⟨Hf, Hr, Ho⟩
  isplitl [Hf Hr]
  · isplitl [Hf] <;> iassumption
  · iexact Ho

/-- The invariant's flight laid out as the run's wait reads it: the flight on the semaphore and the scratch's rest. -/
theorem oflight1_to_run (t : Fin k1_t1_loop.trips) (fo : Buf (Elt F) ((outWB).view.loc (thr d L)))
    (g : Buf (Elt F) ((s9WB).view.loc (thr d L))) :
    (OFlight1 d L t fo g : sProp 𝕄)
      ⊢ iprop(Transfers.Flight countersEmb (thr d L) (SemLoc.dma cc1_scratch13.sem) default 262144
          iprop(((outWB).view.loc (thr d L) ↦[(blk1 L t).view.set]{fullShare} wr1 d L t fo g)
            ∗ ((s9WB).view.loc (thr d L) ↦[(s9WB).view.set]{fullShare} g))
        ∗ ((s9WB).view.loc (thr d L) ↦[Finset.univ \ (s9WB).view.set]{fullShare} g)) := by
  unfold OFlight1; exact Entails.rfl

/-- Both of trip `t`'s copy-outs outstanding, slot 0's issued first: what the run holds — the two flights, the two
    scratches' empty rests, the region less both windows — is the invariant's two flights and rest, the second flight
    over the contents the first leaves. -/
theorem oflights_of_run (t : Fin k1_t1_loop.trips) (fo : Buf (Elt F) ((outWB).view.loc (thr d L)))
    (g0 : Buf (Elt F) ((s8WB).view.loc (thr d L))) (g1 : Buf (Elt F) ((s9WB).view.loc (thr d L))) (S : Finset S27262976.Idx)
    (f0' f1' : Buf (Elt F) ((outWB).view.loc (thr d L))) (hf0' : f0' = wr0 d L t fo g0) (hf1' : f1' = wr1 d L t (wr0 d L t fo g0) g1) :
    (iprop(Transfers.Flight countersEmb (thr d L) (SemLoc.dma cc1_scratch12.sem) default 262144
          iprop(((outWB).view.loc (thr d L) ↦[(blk0 L t).view.set]{fullShare} f0')
            ∗ ((s8WB).view.loc (thr d L) ↦[(s8WB).view.set]{fullShare} g0))
        ∗ ((s8WB).view.loc (thr d L) ↦[Finset.univ \ (s8WB).view.set]{fullShare} g0)
        ∗ Transfers.Flight countersEmb (thr d L) (SemLoc.dma cc1_scratch13.sem) default 262144
          iprop(((outWB).view.loc (thr d L) ↦[(blk1 L t).view.set]{fullShare} f1')
            ∗ ((s9WB).view.loc (thr d L) ↦[(s9WB).view.set]{fullShare} g1))
        ∗ ((s9WB).view.loc (thr d L) ↦[Finset.univ \ (s9WB).view.set]{fullShare} g1)
        ∗ ((outWB).view.loc (thr d L) ↦[(S \ (blk0 L t).view.set) \ (blk1 L t).view.set]{fullShare} f1')) : sProp 𝕄)
      ⊢ iprop(OFlight0 d L t fo g0 ∗ OFlight1 d L t (wr0 d L t fo g0) g1
          ∗ ORest d L ((S \ (blk0 L t).view.set) \ (blk1 L t).view.set) (wr1 d L t (wr0 d L t fo g0) g1)) := by
  subst hf0' hf1'
  unfold OFlight0 OFlight1 ORest
  iintro ⟨Hf0, Hr0, Hf1, Hr1, Ho⟩
  isplitl [Hf0 Hr0]
  · isplitl [Hf0] <;> iassumption
  isplitl [Hf1 Hr1]
  · isplitl [Hf1] <;> iassumption
  · iexact Ho

/-! ## The contents, block by block

Trip `t` copies slot 0's scratch into block `2 t` and slot 1's into block `2 t + 1`: after both the region holds
`wr1 t (wr0 t fo g₀) g₁`. A block written with its own words holds the kernel's words whatever it held; the others keep
what they held. -/

omit [FloatOps F] in
/-- The kernel's offset for the half-step `(t, r)` is the subcore's block `2 t + r`. -/
theorem off5_at (L : grid1.Coords) (t : Fin k1_t1_loop.trips) (r : Fin 2) :
    (k1_off5 L t (BitVec.ofNat 32 r.val)) 0 = 851968 * wid L + 8192 * (2 * t.val + r.val) := by
  have hk : (k1_off5 L t (BitVec.ofNat 32 r.val)) 0 = 1703936 * (L 1).val + 851968 * (L 0).val + 16384 * t.val + 8192 * r.val :=
    congrFun (k1_off5_eq L t r) 0
  rw [hk]; unfold wid; omega

/-- Slot 0's copy-out of trip `t` makes block `2 t` hold the kernel's words when the scratch held that block's words. -/
theorem blockOK_wr0 (fi : IVec S425984 32) (fp : Vec F S10000x128 .f32) (fc : Vec F S3304 .f32) (t : Fin k1_t1_loop.trips)
    (fo : Buf (Elt F) ((outWB).view.loc (thr d L))) (g : Buf (Elt F) ((s8WB).view.loc (thr d L)))
    (hg : (g : Vec F S8192 .f32) = OUTS fi fp fc (wid L) (2 * t.val + 0)) :
    BlockOK fi fp fc (wid L) (2 * t.val + 0) (wr0 d L t fo g) := by
  have ht : t.val < 52 := Nat.lt_of_lt_of_le t.isLt k1_t1_abs.2.1
  exact blockOK_write fi fp fc (wid L) (2 * t.val + 0) (wid_lt L) (by omega) (k1_off5 L t 0#32) (k1_off5_inb L t 0)
    (off5_at L t 0) fo g hg

/-- and leaves every other block of the subcore as it was. -/
theorem blockOK_wr0_other (fi : IVec S425984 32) (fp : Vec F S10000x128 .f32) (fc : Vec F S3304 .f32) (t : Fin k1_t1_loop.trips)
    (fo : Buf (Elt F) ((outWB).view.loc (thr d L))) (g : Buf (Elt F) ((s8WB).view.loc (thr d L)))
    (b' : ℕ) (hb' : b' < 104) (hne : b' ≠ 2 * t.val + 0) (h : BlockOK fi fp fc (wid L) b' fo) :
    BlockOK fi fp fc (wid L) b' (wr0 d L t fo g) := by
  have ht : t.val < 52 := Nat.lt_of_lt_of_le t.isLt k1_t1_abs.2.1
  exact blockOK_write_other fi fp fc (wid L) (2 * t.val + 0) b' (wid_lt L) (by omega) hb' hne (k1_off5 L t 0#32)
    (k1_off5_inb L t 0) (off5_at L t 0) fo g h

/-- Slot 1's copy-out of trip `t` makes block `2 t + 1` hold the kernel's words when the scratch held that block's words. -/
theorem blockOK_wr1 (fi : IVec S425984 32) (fp : Vec F S10000x128 .f32) (fc : Vec F S3304 .f32) (t : Fin k1_t1_loop.trips)
    (fo : Buf (Elt F) ((outWB).view.loc (thr d L))) (g : Buf (Elt F) ((s9WB).view.loc (thr d L)))
    (hg : (g : Vec F S8192 .f32) = OUTS fi fp fc (wid L) (2 * t.val + 1)) :
    BlockOK fi fp fc (wid L) (2 * t.val + 1) (wr1 d L t fo g) := by
  have ht : t.val < 52 := Nat.lt_of_lt_of_le t.isLt k1_t1_abs.2.1
  exact blockOK_write fi fp fc (wid L) (2 * t.val + 1) (wid_lt L) (by omega) (k1_off5 L t 1#32) (k1_off5_inb L t 1)
    (off5_at L t 1) fo g hg

/-- and leaves every other block of the subcore as it was. -/
theorem blockOK_wr1_other (fi : IVec S425984 32) (fp : Vec F S10000x128 .f32) (fc : Vec F S3304 .f32) (t : Fin k1_t1_loop.trips)
    (fo : Buf (Elt F) ((outWB).view.loc (thr d L))) (g : Buf (Elt F) ((s9WB).view.loc (thr d L)))
    (b' : ℕ) (hb' : b' < 104) (hne : b' ≠ 2 * t.val + 1) (h : BlockOK fi fp fc (wid L) b' fo) :
    BlockOK fi fp fc (wid L) b' (wr1 d L t fo g) := by
  have ht : t.val < 52 := Nat.lt_of_lt_of_le t.isLt k1_t1_abs.2.1
  exact blockOK_write_other fi fp fc (wid L) (2 * t.val + 1) b' (wid_lt L) (by omega) hb' hne (k1_off5 L t 1#32)
    (k1_off5_inb L t 1) (off5_at L t 1) fo g h

/-- One outer trip's two copy-outs: the blocks below `2 t` that held the kernel's words still do, and blocks `2 t` and
    `2 t + 1` now do. -/
theorem blockOK_trip (fi : IVec S425984 32) (fp : Vec F S10000x128 .f32) (fc : Vec F S3304 .f32) (t : Fin k1_t1_loop.trips)
    (fo : Buf (Elt F) ((outWB).view.loc (thr d L))) (g0 : Buf (Elt F) ((s8WB).view.loc (thr d L)))
    (g1 : Buf (Elt F) ((s9WB).view.loc (thr d L)))
    (h0 : (g0 : Vec F S8192 .f32) = OUTS fi fp fc (wid L) (2 * t.val + 0))
    (h1 : (g1 : Vec F S8192 .f32) = OUTS fi fp fc (wid L) (2 * t.val + 1))
    (hprev : ∀ b, b < 2 * t.val → BlockOK fi fp fc (wid L) b fo) :
    ∀ b, b < 2 * t.val + 2 → BlockOK fi fp fc (wid L) b (wr1 d L t (wr0 d L t fo g0) g1) := by
  have ht : t.val < 52 := Nat.lt_of_lt_of_le t.isLt k1_t1_abs.2.1
  intro b hb
  by_cases e1 : b = 2 * t.val + 1
  · subst e1; exact blockOK_wr1 d L fi fp fc t _ g1 h1
  · refine blockOK_wr1_other d L fi fp fc t _ g1 b (by omega) e1 ?_
    by_cases e0 : b = 2 * t.val + 0
    · subst e0; exact blockOK_wr0 d L fi fp fc t fo g0 h0
    · exact blockOK_wr0_other d L fi fp fc t fo g0 b (by omega) e0 (hprev b (by omega))

end Cert.Proof.KB

end
-- ==== Proof.TileInv2B.lean ====
import proofs.«207215_g13752485282153_cont_week2b_1454_30_alg».proof.Proof.CommonB
import proofs.«207215_g13752485282153_cont_week2b_1454_30_alg».proof.Proof.TileInvB
import proofs.«207215_g13752485282153_cont_week2b_1454_30_alg».proof.Proof.CopyOutB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! The outer loop's invariant of one vector subcore: at the head of trip `n` (block 2 n next on slot 0), slot 0's row
    gather of block 2 n is outstanding (none after the last trip), slot 1's gather side is idle, and — after the first
    trip — each slot's copy-out of the previous trip's block is outstanding; slot 0 writes the even blocks of the
    subcore's words and slot 1 the odd ones, so the two halves are held apart. -/

variable (d : Dev nD) (L : grid1.Coords) (q q0 q1 : PosShare TreeShare)
variable (fi : Buf (Elt F) ((idxWB).view.loc (thr d L))) (fp : Buf (Elt F) ((ptWB).view.loc (thr d L)))
  (fc : Buf (Elt F) ((ctWB).view.loc (thr d L)))
variable (O : CellTallies nD τ sig (HIx 1)) (W : Waits sig (HIx 1))

omit [FloatOps F] in
theorem trips52 : k1_t1_loop.trips = 52 := by decide

/-- The trip before loop head `n` (total: reduced modulo 52). -/
def tOf (n : ℕ) : Fin k1_t1_loop.trips := ⟨(n - 1) % 52, by rw [trips52]; exact Nat.mod_lt _ (by decide)⟩

/-- The copy-out side at loop head `n`: the subcore's words of the result at `fo` with blocks 0 … 2 (n − 1) − 1 done;
    nothing outstanding before the first trip; afterwards both slots' copies of the previous trip's two blocks are
    outstanding and the rest of the words is held apart. -/
def OS (n : ℕ) : sProp 𝕄 :=
  iprop(∃ fo : Buf (Elt F) ((outWB).view.loc (thr d L)), ⌜∀ b, b < 2 * (n - 1) → BlockOK fi fp fc (wid L) b fo⌝ ∗
    (if n = 0 then
        iprop((∃ f, (s8WB).view.loc (thr d L) ↦{fullShare} f) ∗ semVal (thr d L, SemLoc.dma cc1_scratch12.sem) 0
          ∗ (∃ f, (s9WB).view.loc (thr d L) ↦{fullShare} f) ∗ semVal (thr d L, SemLoc.dma cc1_scratch13.sem) 0
          ∗ ((outWB).view.loc (thr d L) ↦[(outWB).view.setOn (oRectC L).set]{fullShare} fo))
      else
        iprop(OFlight0 d L (tOf n) fo (OUTS fi fp fc (wid L) (2 * (tOf n).val + 0))
          ∗ OFlight1 d L (tOf n) (wr0 d L (tOf n) fo (OUTS fi fp fc (wid L) (2 * (tOf n).val + 0))) (OUTS fi fp fc (wid L) (2 * (tOf n).val + 1))
          ∗ ORest d L (((outWB).view.setOn (oRectC L).set \ (blk0 L (tOf n)).view.set) \ (blk1 L (tOf n)).view.set)
              (wr1 d L (tOf n) (wr0 d L (tOf n) fo (OUTS fi fp fc (wid L) (2 * (tOf n).val + 0))) (OUTS fi fp fc (wid L) (2 * (tOf n).val + 1))))))

/-- Slot 0's gather side at loop head `n`: block 2 n's rows outstanding and its digit list ready, until the last trip. -/
def GSide0 (n : ℕ) : sProp 𝕄 :=
  if n < 52 then iprop(GFlight0 d L q0 fi fp (2 * n) ∗ D3At0 d L fi (2 * n)) else iprop(GIdle0 d L q0 fp ∗ D3Any0 d L)

/-- The invariant at the head of trip `n`. -/
def Inv (n : ℕ) (_ : PUnit) : sProp 𝕄 :=
  iprop(Base d L q fi fc O ∗ GSide0 d L q0 fi fp n ∗ GIdle1 d L q1 fp ∗ D3Any1 d L
    ∗ OS d L fi fp fc n ∗ Cert.Proof.KB.Owes d L O W)

/-! ## The guards of the outer loop's region, by the trip -/

omit [FloatOps F] in
theorem cond1_all : ∀ t : Fin k1_t1_loop.trips, k1_cond1 t = 1#1 := by decide
omit [FloatOps F] in
theorem cond2_iff : ∀ t : Fin k1_t1_loop.trips, k1_cond2 t = 1#1 ↔ 1 ≤ t.val := by decide
omit [FloatOps F] in
theorem cond4_iff : ∀ t : Fin k1_t1_loop.trips, k1_cond4 t = 1#1 ↔ 1 ≤ t.val := by decide
omit [FloatOps F] in
theorem cond3_iff : ∀ t : Fin k1_t1_loop.trips, k1_cond3 t = 1#1 ↔ t.val < 51 := by decide

/-! ## The invariant's sides, by the trip -/

theorem GSide0_lt {n : ℕ} (h : n < 52) : GSide0 d L q0 fi fp n = iprop(GFlight0 d L q0 fi fp (2 * n) ∗ D3At0 d L fi (2 * n)) := by
  unfold GSide0; rw [if_pos h]
theorem GSide0_ge {n : ℕ} (h : ¬ n < 52) : GSide0 d L q0 fi fp n = iprop(GIdle0 d L q0 fp ∗ D3Any0 d L) := by
  unfold GSide0; rw [if_neg h]

theorem OS_zero : OS d L fi fp fc 0 =
    iprop(∃ fo : Buf (Elt F) ((outWB).view.loc (thr d L)), ⌜∀ b, b < 2 * (0 - 1) → BlockOK fi fp fc (wid L) b fo⌝ ∗
      iprop((∃ f, (s8WB).view.loc (thr d L) ↦{fullShare} f) ∗ semVal (thr d L, SemLoc.dma cc1_scratch12.sem) 0
        ∗ (∃ f, (s9WB).view.loc (thr d L) ↦{fullShare} f) ∗ semVal (thr d L, SemLoc.dma cc1_scratch13.sem) 0
        ∗ ((outWB).view.loc (thr d L) ↦[(outWB).view.setOn (oRectC L).set]{fullShare} fo))) := by
  unfold OS; simp only [if_pos]

theorem OS_pos {n : ℕ} (h : n ≠ 0) : OS d L fi fp fc n =
    iprop(∃ fo : Buf (Elt F) ((outWB).view.loc (thr d L)), ⌜∀ b, b < 2 * (n - 1) → BlockOK fi fp fc (wid L) b fo⌝ ∗
      iprop(OFlight0 d L (tOf n) fo (OUTS fi fp fc (wid L) (2 * (tOf n).val + 0))
        ∗ OFlight1 d L (tOf n) (wr0 d L (tOf n) fo (OUTS fi fp fc (wid L) (2 * (tOf n).val + 0))) (OUTS fi fp fc (wid L) (2 * (tOf n).val + 1))
        ∗ ORest d L (((outWB).view.setOn (oRectC L).set \ (blk0 L (tOf n)).view.set) \ (blk1 L (tOf n)).view.set)
            (wr1 d L (tOf n) (wr0 d L (tOf n) fo (OUTS fi fp fc (wid L) (2 * (tOf n).val + 0))) (OUTS fi fp fc (wid L) (2 * (tOf n).val + 1))))) := by
  unfold OS; simp only [if_neg h]

omit [FloatOps F] in
theorem tOf_succ (k : Fin k1_t1_loop.trips) : tOf (k.val + 1) = k := by
  apply Fin.ext
  have h : k.val < 52 := trips52 ▸ k.isLt
  show (k.val + 1 - 1) % 52 = k.val
  omega

end Cert.Proof.KB

end
-- ==== Proof.TileData2B.lean ====
/-
  The second copy of the prologue: the whole padded third-core table into the table scratch. The two buffers have the
  same shape and element type, so after the copy the scratch holds the table's contents, whatever it held before.
-/
import proofs.«207215_g13752485282153_cont_week2b_1454_30_alg».proof.Proof.CommonB
import Idealize.ShloMosaic.Lib.Writes

noncomputable section

namespace Cert.Proof.KB

open Cert.Kernel Cert.Kernel.Gen
open Idealize.ShloMosaic

variable {F : FTy → Type} [FloatOps F]

/-- The table copy's payload is the table's contents. -/
theorem dma1_read (fc : Vec F S3304 .f32) :
    (ReadAs.same : ReadAs (Elt F) S3304 .f32 S3304 .f32).apply ((ctWB).view.read (Elt F) fc) = fc := rfl

/-- After the table copy the table scratch holds the table's contents, whatever it held before. -/
theorem dma1_eq (fc : Vec F S3304 .f32) (f1 : Vec F S3304 .f32) :
    View.write (Elt F) (s1WB).view f1 ((ReadAs.same : ReadAs (Elt F) S3304 .f32 S3304 .f32).apply ((ctWB).view.read (Elt F) fc)) Finset.univ
      = fc :=
  View.write_whole_univ cc1_scratch1 f1 fc

end Cert.Proof.KB

end
-- ==== Proof.OutBlocks2B.lean ====
/-
  The subcore's words as two halves, one per slot of the double buffer. Slot 0 copies its out scratch into the even
  blocks (block 2 t at outer trip t), slot 1 into the odd ones (block 2 t + 1). The even blocks and the odd blocks
  are disjoint and together are the subcore's words, so the hold on the words splits into a hold on each half and
  joins back, also when the two halves are held at different contents; if every even block holds the kernel's words in
  the one contents and every odd block in the other, the joined array has the subcore's work done.
-/
import proofs.«207215_g13752485282153_cont_week2b_1454_30_alg».proof.Proof.OutBlocksB
import proofs.«207215_g13752485282153_cont_week2b_1454_30_alg».proof.Proof.CopyOutB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F]

/-! ## The two halves -/

/-- The even blocks of subcore L's words: what slot 0 fills. -/
def evenSet (L : grid1.Coords) : Finset S27262976.Idx := (Finset.range 52).biUnion fun t => blkSet L (2 * t)

/-- The odd blocks of subcore L's words: what slot 1 fills. -/
def oddSet (L : grid1.Coords) : Finset S27262976.Idx := (Finset.range 52).biUnion fun t => blkSet L (2 * t + 1)

omit [FloatOps F] in
theorem mem_evenSet (L : grid1.Coords) (i : S27262976.Idx) : i ∈ evenSet L ↔ ∃ t, t < 52 ∧ i ∈ blkSet L (2 * t) := by
  unfold evenSet
  rw [Finset.mem_biUnion]
  exact ⟨fun ⟨t, ht, h⟩ => ⟨t, Finset.mem_range.mp ht, h⟩, fun ⟨t, ht, h⟩ => ⟨t, Finset.mem_range.mpr ht, h⟩⟩

omit [FloatOps F] in
theorem mem_oddSet (L : grid1.Coords) (i : S27262976.Idx) : i ∈ oddSet L ↔ ∃ t, t < 52 ∧ i ∈ blkSet L (2 * t + 1) := by
  unfold oddSet
  rw [Finset.mem_biUnion]
  exact ⟨fun ⟨t, ht, h⟩ => ⟨t, Finset.mem_range.mp ht, h⟩, fun ⟨t, ht, h⟩ => ⟨t, Finset.mem_range.mpr ht, h⟩⟩

omit [FloatOps F] in
theorem even_odd_disjoint (L : grid1.Coords) : Disjoint (evenSet L) (oddSet L) := by
  rw [Finset.disjoint_left]
  intro i hi hi'
  obtain ⟨t, ht, h1⟩ := (mem_evenSet L i).mp hi
  obtain ⟨t', ht', h2⟩ := (mem_oddSet L i).mp hi'
  rw [mem_blkSet] at h1 h2
  omega

omit [FloatOps F] in
theorem even_union_odd (L : grid1.Coords) : evenSet L ∪ oddSet L = oSet L := by
  ext i
  rw [Finset.mem_union, mem_oSet, mem_evenSet, mem_oddSet]
  constructor
  · rintro (⟨t, ht, h⟩ | ⟨t, ht, h⟩) <;> rw [mem_blkSet] at h <;> omega
  · intro h
    by_cases hb : (((i 0).val - 851968 * wid L) / 8192) % 2 = 0
    · left
      refine ⟨(((i 0).val - 851968 * wid L) / 8192) / 2, by omega, ?_⟩
      rw [mem_blkSet]; omega
    · right
      refine ⟨(((i 0).val - 851968 * wid L) / 8192) / 2, by omega, ?_⟩
      rw [mem_blkSet]; omega

omit [FloatOps F] in
theorem blkSet_sub_even (L : grid1.Coords) (t : ℕ) (ht : t < 52) : blkSet L (2 * t) ⊆ evenSet L :=
  fun i hi => (mem_evenSet L i).mpr ⟨t, ht, hi⟩

omit [FloatOps F] in
theorem blkSet_sub_odd (L : grid1.Coords) (t : ℕ) (ht : t < 52) : blkSet L (2 * t + 1) ⊆ oddSet L :=
  fun i hi => (mem_oddSet L i).mpr ⟨t, ht, hi⟩

/-! ## The copy-out windows are blocks -/

omit [FloatOps F] in
/-- Slot 0's window of outer trip t is block 2 t. -/
theorem blk0_set (L : grid1.Coords) (t : Fin k1_t1_loop.trips) : (blk0 L t).view.set = blkSet L (2 * t.val) :=
  off5_set L t 0 0#32 rfl _

omit [FloatOps F] in
/-- Slot 1's window of outer trip t is block 2 t + 1. -/
theorem blk1_set (L : grid1.Coords) (t : Fin k1_t1_loop.trips) : (blk1 L t).view.set = blkSet L (2 * t.val + 1) :=
  off5_set L t 1 1#32 rfl _

omit [FloatOps F] in
theorem trip_lt (t : Fin k1_t1_loop.trips) : t.val < 52 := Nat.lt_of_lt_of_le t.isLt k1_t1_abs.2.1

omit [FloatOps F] in
theorem blk0_sub_even (L : grid1.Coords) (t : Fin k1_t1_loop.trips) : (blk0 L t).view.set ⊆ evenSet L := by
  rw [blk0_set]; exact blkSet_sub_even L t.val (trip_lt t)

omit [FloatOps F] in
theorem blk1_sub_odd (L : grid1.Coords) (t : Fin k1_t1_loop.trips) : (blk1 L t).view.set ⊆ oddSet L := by
  rw [blk1_set]; exact blkSet_sub_odd L t.val (trip_lt t)

/-! ## The hold on the subcore's words, half by half -/

omit [FloatOps F] in
/-- Holding the subcore's words is holding its even blocks and its odd blocks. -/
theorem oPts_halves (d : Dev nD) (L : grid1.Coords) (f : Buf (Elt F) ((outWB).view.loc (thr d L))) :
    ((outWB).view.loc (thr d L) ↦[oSet L]{fullShare} f : sProp 𝕄)
      ⊣⊢ iprop(((outWB).view.loc (thr d L) ↦[evenSet L]{fullShare} f) ∗ ((outWB).view.loc (thr d L) ↦[oddSet L]{fullShare} f)) := by
  rw [← even_union_odd]
  exact pointsTo_union (even_odd_disjoint L)

omit [FloatOps F] in
/-- The same at the result array as the TensorCore names it: the two places are one. -/
theorem oPts_halves' (d : Dev nD) (L : grid1.Coords) (f : Buf (Elt F) (outLoc d)) :
    (outLoc d ↦[oSet L]{fullShare} f : sProp 𝕄)
      ⊣⊢ iprop((outLoc d ↦[evenSet L]{fullShare} f) ∗ (outLoc d ↦[oddSet L]{fullShare} f)) :=
  oPts_halves d L f

omit [FloatOps F] in
/-- The two halves held at contents of their own join into the subcore's words held at one array that agrees with each
    half's contents on that half. -/
theorem oHalves_join (d : Dev nD) (L : grid1.Coords) (fE fO : Buf (Elt F) ((outWB).view.loc (thr d L))) :
    (iprop(((outWB).view.loc (thr d L) ↦[evenSet L]{fullShare} fE) ∗ ((outWB).view.loc (thr d L) ↦[oddSet L]{fullShare} fO)) : sProp 𝕄)
      ⊢ iprop(∃ g : Buf (Elt F) ((outWB).view.loc (thr d L)),
          ⌜(∀ i ∈ evenSet L, g i = fE i) ∧ (∀ i ∈ oddSet L, g i = fO i)⌝ ∗ (outWB).view.loc (thr d L) ↦[oSet L]{fullShare} g) := by
  iintro H
  ihave H' := (pointsTo_join (ℓ := (outWB).view.loc (thr d L)) (q := fullShare) (f := fE) (g := fO) (even_odd_disjoint L)) $$ H
  rw [even_union_odd]
  iexists ((oddSet L).piecewise fO fE)
  isplitr
  · ipureintro
    refine ⟨fun i hi => ?_, fun i hi => ?_⟩
    · exact Finset.piecewise_eq_of_notMem _ _ _ (fun h => (Finset.disjoint_left.mp (even_odd_disjoint L) hi) h)
    · exact Finset.piecewise_eq_of_mem _ _ _ hi
  · iexact H'

omit [FloatOps F] in
theorem oHalves_join' (d : Dev nD) (L : grid1.Coords) (fE fO : Buf (Elt F) (outLoc d)) :
    (iprop((outLoc d ↦[evenSet L]{fullShare} fE) ∗ (outLoc d ↦[oddSet L]{fullShare} fO)) : sProp 𝕄)
      ⊢ iprop(∃ g : Buf (Elt F) (outLoc d),
          ⌜(∀ i ∈ evenSet L, g i = fE i) ∧ (∀ i ∈ oddSet L, g i = fO i)⌝ ∗ outLoc d ↦[oSet L]{fullShare} g) :=
  oHalves_join d L fE fO

/-! ## Both halves done: the subcore's work is done -/

/-- If every even block holds the kernel's words in one array and every odd block in another, an array that agrees
    with the first on the even half and with the second on the odd half has the subcore's work done. -/
theorem outOK_of_halves (fi : IVec S425984 32) (fp : Vec F S10000x128 .f32) (fc : Vec F S3304 .f32) (L : grid1.Coords)
    (fE fO g : Vec F S27262976 .f32) (hE : ∀ t, t < 52 → BlockOK fi fp fc (wid L) (2 * t) fE)
    (hO : ∀ t, t < 52 → BlockOK fi fp fc (wid L) (2 * t + 1) fO)
    (hg : (∀ i ∈ evenSet L, g i = fE i) ∧ (∀ i ∈ oddSet L, g i = fO i)) : TileSpec.OutOK (F := F) fi fp fc (wid L) g := by
  refine outOK_of_blocks fi fp fc (wid L) g fun b hb => ?_
  by_cases hpar : b % 2 = 0
  · have hb2 : b = 2 * (b / 2) := by omega
    have ht : b / 2 < 52 := by omega
    refine blockOK_congr fi fp fc L b hb fE g (fun i hi => hg.1 i ?_) (by rw [hb2]; exact hE _ ht)
    rw [hb2] at hi
    exact blkSet_sub_even L _ ht hi
  · have hb2 : b = 2 * (b / 2) + 1 := by omega
    have ht : b / 2 < 52 := by omega
    refine blockOK_congr fi fp fc L b hb fO g (fun i hi => hg.2 i ?_) (by rw [hb2]; exact hO _ ht)
    rw [hb2] at hi
    exact blkSet_sub_odd L _ ht hi

end Cert.Proof.KB

end
-- ==== Proof.OutBlocks3B.lean ====
/-
  The subcore's words under the two spellings of their offset: 851968 w with w = 2 s + c the worker number, and
  1703936 s + 851968 c as the kernel's own offsets come out in closed form. They are the same 851968 words.
-/
import proofs.«207215_g13752485282153_cont_week2b_1454_30_alg».proof.Proof.TileInvB
import proofs.«207215_g13752485282153_cont_week2b_1454_30_alg».proof.Proof.OutBlocks2B

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

omit [FloatOps F] in
theorem mem_oReg (L : grid1.Coords) (i : S27262976.Idx) :
    i ∈ (outWB).view.setOn (oRectC L).set
      ↔ 1703936 * (L 1).val + 851968 * (L 0).val ≤ (i 0).val ∧ (i 0).val < 1703936 * (L 1).val + 851968 * (L 0).val + 851968 := by
  show i ∈ (oRectC L).set.map (Function.Embedding.refl _) ↔ _
  rw [Finset.map_refl, Rect.mem_set_unit]
  exact Fin.forall_fin_one

omit [FloatOps F] in
/-- The subcore's words under the worker number's spelling are its words under the kernel's closed-form offset. -/
theorem oSet_eq_oReg (L : grid1.Coords) : oSet L = (outWB).view.setOn (oRectC L).set := by
  ext i
  rw [mem_oSet, mem_oReg]
  unfold wid
  omega

omit [FloatOps F] in
/-- So holding the one is holding the other. -/
theorem oPts_oReg (d : Dev nD) (L : grid1.Coords) (f : Buf (Elt F) ((outWB).view.loc (thr d L))) :
    ((outWB).view.loc (thr d L) ↦[oSet L]{fullShare} f : sProp 𝕄)
      = ((outWB).view.loc (thr d L) ↦[(outWB).view.setOn (oRectC L).set]{fullShare} f) := by
  rw [oSet_eq_oReg]

end Cert.Proof.KB

end
-- ==== Proof.LanesB.lean ====
/-
  The index vectors of the compute loops, lane by lane.

  A compute loop handles sixteen tokens a trip, one a lane. From the lane number l (the iota vector) it forms, before
  the loop, the lane's rotations of the rank axis (l + r) % 8 for r = 0..7, its rotations (l + j) % 4 of the last
  output axis, and l / 8; in trip g the token's place in the block is l + 16 g < 128. Every index the loop gathers
  or scatters at is a sum of such vectors, of the token's third digit (at most 99, read from the slot's digit
  scratch) times 33, and of masked and shifted copies of them:
    the third-core table at 33 i₃ + 4 ((l + r) % 8) + (l + j) % 4 ≤ 99 · 33 + 28 + 3 = 3298 < 3304,
    the gathered rows at (l + 16 g, 8 ((l / 8 + jj) % 16) + (l + r) % 8), both below 128,
    the block's result at 64 (l + 16 g) + 4 ((l / 8 + jj) % 16) + (l + j) % 4 ≤ 64 · 127 + 60 + 3 = 8191 < 8192.
  This module states the closed form of each vector that enters the loops, and proves every index in range from
  them by a calculus of lane bounds that follows the index vector's own construction.
-/
import proofs.«207215_g13752485282153_cont_week2b_1454_30_alg».proof.Proof.CommonB

noncomputable section

/-! # Lane arithmetic of 32-bit index vectors

What each lane of a sum, a product, a mask or a shift by a constant is as a natural number, and a calculus of lane
bounds — every lane of `v` at most `b` — closed under the operations an index vector is built from. All sums and
products here stay far below 2 ^ 32, so no lane wraps. -/

namespace Cert.Proof.LaneB

open Idealize.ShloMosaic

variable {s : Shape}

/-! ## One lane of each operation -/

theorem addi_toNat (u v : IVec s 32) (x : s.Idx) :
    (addi u v x).toNat = ((u x).toNat + (v x).toNat) % 2 ^ 32 := BitVec.toNat_add _ _

theorem muli_toNat (u v : IVec s 32) (x : s.Idx) :
    (muli u v x).toNat = ((u x).toNat * (v x).toNat) % 2 ^ 32 := BitVec.toNat_mul _ _

theorem andi_toNat (u v : IVec s 32) (x : s.Idx) :
    (andi u v x).toNat = (u x).toNat &&& (v x).toNat := BitVec.toNat_and _ _

theorem broadcast_toNat (c : BitVec 32) (x : s.Idx) : ((broadcast s c : IVec s 32) x).toNat = c.toNat := rfl

/-- A mask by `2 ^ k - 1` is the remainder modulo `2 ^ k`. -/
theorem andi_mask_toNat (u : IVec s 32) (c : BitVec 32) (k : ℕ) (hc : c.toNat = 2 ^ k - 1) (x : s.Idx) :
    (andi u (broadcast s c) x).toNat = (u x).toNat % 2 ^ k := by
  rw [andi_toNat, broadcast_toNat, hc, Nat.and_two_pow_sub_one_eq_mod]

/-- A left shift by a constant below the width multiplies by the power of two, modulo `2 ^ 32`. -/
theorem shli_toNat (u : IVec s 32) (c : BitVec 32) (hc : c.toNat < 32) (x : s.Idx) :
    (shli u (broadcast s c) x).toNat = ((u x).toNat * 2 ^ c.toNat) % 2 ^ 32 := by
  show (IntOp.shli .vector (u x) c).toNat = _
  unfold IntOp.shli
  rw [if_pos hc, BitVec.shiftLeft_eq', BitVec.toNat_shiftLeft, Nat.shiftLeft_eq]

/-- An arithmetic right shift of a non-negative lane by a constant below the width divides by the power of two. -/
theorem shrsi_toNat (u : IVec s 32) (c : BitVec 32) (hc : c.toNat < 32) (x : s.Idx) (hu : (u x).toNat < 2 ^ 31) :
    (shrsi u (broadcast s c) x).toNat = (u x).toNat / 2 ^ c.toNat := by
  show (IntOp.shrsi .vector (u x) c).toNat = _
  unfold IntOp.shrsi
  have hm : (u x).msb = false := by
    rw [BitVec.msb_eq_decide]; simp; omega
  rw [if_pos hc, BitVec.sshiftRight_eq', BitVec.sshiftRight_eq_of_msb_false hm, BitVec.toNat_ushiftRight,
    Nat.shiftRight_eq_div_pow]

/-! ## Lane bounds -/

/-- Every lane of `v` is at most `b`. -/
structure Le (v : IVec s 32) (b : ℕ) : Prop where
  le : ∀ x, (v x).toNat ≤ b

theorem Le.mono {v : IVec s 32} {a b : ℕ} (h : Le v a) (hab : a ≤ b) : Le v b := ⟨fun x => Nat.le_trans (h.le x) hab⟩

theorem Le.lt {v : IVec s 32} {b n : ℕ} (h : Le v b) (hb : b < n) : ∀ x, (v x).toNat < n :=
  fun x => Nat.lt_of_le_of_lt (h.le x) hb

theorem Le.of_eq {v : IVec s 32} {g : s.Idx → ℕ} {b : ℕ} (h : ∀ x, (v x).toNat = g x) (hg : ∀ x, g x ≤ b) : Le v b :=
  ⟨fun x => (h x) ▸ hg x⟩

theorem Le.const (c : BitVec 32) : Le (broadcast s c : IVec s 32) c.toNat := ⟨fun _ => Nat.le_refl _⟩

/-- A mask is at most the mask word, whatever is masked. -/
theorem Le.and_right (u : IVec s 32) (c : BitVec 32) : Le (andi u (broadcast s c)) c.toNat := ⟨fun x => by
  rw [andi_toNat, broadcast_toNat]; exact Nat.and_le_right⟩

theorem Le.add {u v : IVec s 32} {a b : ℕ} (hu : Le u a) (hv : Le v b) : Le (addi u v) (a + b) := ⟨fun x => by
  rw [addi_toNat]; exact Nat.le_trans (Nat.mod_le _ _) (Nat.add_le_add (hu.le x) (hv.le x))⟩

theorem Le.mul_const {u : IVec s 32} {a : ℕ} (hu : Le u a) (c : BitVec 32) :
    Le (muli u (broadcast s c)) (a * c.toNat) := ⟨fun x => by
  rw [muli_toNat, broadcast_toNat]; exact Nat.le_trans (Nat.mod_le _ _) (Nat.mul_le_mul_right _ (hu.le x))⟩

theorem Le.shl_const {u : IVec s 32} {a : ℕ} (hu : Le u a) (c : BitVec 32) (hc : c.toNat < 32) :
    Le (shli u (broadcast s c)) (a * 2 ^ c.toNat) := ⟨fun x => by
  rw [shli_toNat u c hc]; exact Nat.le_trans (Nat.mod_le _ _) (Nat.mul_le_mul_right _ (hu.le x))⟩

end Cert.Proof.LaneB

/-! # The compute loops' vectors -/

namespace Cert.Proof.KB

open Cert.Kernel Cert.Kernel.Gen
open Idealize.ShloMosaic
open Idealize.ShloMosaic.SparseCore (S V T)
open Idealize.ShloMosaic.SparseCore.Cfg (HIx Pay)
open Cert.Proof.LaneB

variable {F : FTy → Type}
variable [FloatOps F]

/-! ## The lane number and the vectors made from it -/

/-- The number of lane `x` of a sixteen-lane vector. -/
abbrev ln (x : S16.Idx) : ℕ := (x 0).val

theorem ln_lt (x : S16.Idx) : ln x < 16 := (x 0).isLt

/-- The iota vector holds each lane's number. -/
theorem iota_lane (h : S16.Iotas .scVector 32 [0]) (x : S16.Idx) : (iota .scVector S16 32 [0] h x).toNat = ln x := by
  have hx := ln_lt x
  show (BitVec.ofNat 32 (0 * 16 + ln x)).toNat = ln x
  rw [BitVec.toNat_ofNat]; omega

/-- `v` holds each lane's number. -/
def IsIota (v : IVec S16 32) : Prop := ∀ x, (v x).toNat = ln x

/-- Adding a small constant to the lane numbers. -/
theorem plus_lane {v : IVec S16 32} (hv : IsIota v) (c : BitVec 32) (n : ℕ) (hn : c.toNat = n) (hc : n ≤ 4096) :
    ∀ x, (addi v (broadcast S16 c) x).toNat = ln x + n := by
  intro x; have hx := ln_lt x
  rw [addi_toNat, hv x, broadcast_toNat, hn]; omega

/-- Masking by 7 a vector whose lanes are known: the remainder modulo 8. -/
theorem mask8_lane {v : IVec S16 32} {g : S16.Idx → ℕ} (hv : ∀ x, (v x).toNat = g x) :
    ∀ x, (andi v (broadcast S16 7#32) x).toNat = g x % 8 := by
  intro x; rw [andi_mask_toNat v 7#32 3 rfl, hv x]; rfl

/-- Masking by 3: the remainder modulo 4. -/
theorem mask4_lane {v : IVec S16 32} {g : S16.Idx → ℕ} (hv : ∀ x, (v x).toNat = g x) :
    ∀ x, (andi v (broadcast S16 3#32) x).toNat = g x % 4 := by
  intro x; rw [andi_mask_toNat v 3#32 2 rfl, hv x]; rfl

/-- Masking by 15: the remainder modulo 16. -/
theorem mask16_lane {v : IVec S16 32} {g : S16.Idx → ℕ} (hv : ∀ x, (v x).toNat = g x) :
    ∀ x, (andi v (broadcast S16 15#32) x).toNat = g x % 16 := by
  intro x; rw [andi_mask_toNat v 15#32 4 rfl, hv x]; rfl

/-- The rotation of the rank axis by `n`: `(l + n) % 8`. -/
theorem rot8_lane {v : IVec S16 32} (hv : IsIota v) (c : BitVec 32) (n : ℕ) (hn : c.toNat = n) (hc : n ≤ 4096) :
    ∀ x, (andi (addi v (broadcast S16 c)) (broadcast S16 7#32) x).toNat = (ln x + n) % 8 :=
  mask8_lane (plus_lane hv c n hn hc)

/-- The rotation of the last output axis by `n`: `(l + n) % 4`. -/
theorem rot4_lane {v : IVec S16 32} (hv : IsIota v) (c : BitVec 32) (n : ℕ) (hn : c.toNat = n) (hc : n ≤ 4096) :
    ∀ x, (andi (addi v (broadcast S16 c)) (broadcast S16 3#32) x).toNat = (ln x + n) % 4 :=
  mask4_lane (plus_lane hv c n hn hc)

/-- The lane number's high bit: `l / 8`. -/
theorem shr3_lane {v : IVec S16 32} (hv : IsIota v) : ∀ x, (shrsi v (broadcast S16 3#32) x).toNat = ln x / 8 := by
  intro x; have hx := ln_lt x
  rw [shrsi_toNat v 3#32 (by decide) x (by rw [hv x]; omega), hv x]; rfl

/-- The offset of trip `k`'s tokens in the block, for a loop from 0 by 1: the word `16 k`. -/
theorem trip_off_toNat (k : ℕ) (hk : k < 8) : (Scalar.muli (Scf.iv 0#32 1#32 k) 16#32).toNat = 16 * k := by
  show ((0#32 + BitVec.ofNat 32 k * 1#32) * 16#32).toNat = 16 * k
  rw [BitVec.toNat_mul, BitVec.toNat_add, BitVec.toNat_mul, BitVec.toNat_ofNat]
  show ((0 + k % 2 ^ 32 * 1 % 2 ^ 32) % 2 ^ 32 * 16) % 2 ^ 32 = 16 * k
  omega

/-- The place in its block of the token lane `l` handles in trip `k`: `l + 16 k`. -/
theorem tvec_lane {v : IVec S16 32} (hv : IsIota v) (k : ℕ) (hk : k < 8) :
    ∀ x, (addi v (broadcast S16 (Scalar.muli (Scf.iv 0#32 1#32 k) 16#32)) x).toNat = ln x + 16 * k := by
  intro x; have hx := ln_lt x
  rw [addi_toNat, hv x, broadcast_toNat, trip_off_toNat k hk]; omega

theorem t2_trips : k1_t2_loop.trips = 8 := by decide
theorem t3_trips : k1_t3_loop.trips = 8 := by decide

theorem trip2_lt (k : Fin k1_t2_loop.trips) : k.val < 8 := t2_trips ▸ k.isLt
theorem trip3_lt (k : Fin k1_t3_loop.trips) : k.val < 8 := t3_trips ▸ k.isLt

/-! ## What enters the loops

Each compute loop reads, besides the trip number, vectors made once before it from the iota vector: the lane
number, its high bit, the first rotations of the rank axis, and one sum the loop region masks itself. The other
rotations are made inside the region from the iota vector, the same every trip. -/

/-- The vectors that enter the slot-0 loop: the lane number `l`, `l / 8`, `(l + r) % 8` for `r = 0..4`, and
    `l + 5`. -/
structure LiveIn0 (v117 v119 v123 v127 v131 v135 v139 v141 : IVec S16 32) : Prop where
  io : IsIota v117
  sh : ∀ x, (v119 x).toNat = ln x / 8
  r0 : ∀ x, (v123 x).toNat = (ln x + 0) % 8
  r1 : ∀ x, (v127 x).toNat = (ln x + 1) % 8
  r2 : ∀ x, (v131 x).toNat = (ln x + 2) % 8
  r3 : ∀ x, (v135 x).toNat = (ln x + 3) % 8
  r4 : ∀ x, (v139 x).toNat = (ln x + 4) % 8
  p5 : ∀ x, (v141 x).toNat = ln x + 5

/-- The vectors that enter the slot-1 loop: the lane number `l`, `l / 8`, `(l + r) % 8` for `r = 0..5`, `l + 6`,
    and the mask word 7. -/
structure LiveIn1 (v184 v186 v190 v194 v198 v202 v206 v210 v212 : IVec S16 32) (c7 : BitVec 32) : Prop where
  io : IsIota v184
  sh : ∀ x, (v186 x).toNat = ln x / 8
  r0 : ∀ x, (v190 x).toNat = (ln x + 0) % 8
  r1 : ∀ x, (v194 x).toNat = (ln x + 1) % 8
  r2 : ∀ x, (v198 x).toNat = (ln x + 2) % 8
  r3 : ∀ x, (v202 x).toNat = (ln x + 3) % 8
  r4 : ∀ x, (v206 x).toNat = (ln x + 4) % 8
  r5 : ∀ x, (v210 x).toNat = (ln x + 5) % 8
  p6 : ∀ x, (v212 x).toNat = ln x + 6
  c7 : c7 = 7#32

/-- The vectors the kernel makes before the slot-0 loop are these. -/
theorem liveIn0 (h : S16.Iotas .scVector 32 [0]) :
    LiveIn0 (iota .scVector S16 32 [0] h) k1_pay393 k1_pay394 k1_pay395 k1_pay396 k1_pay397 k1_pay398 k1_pay399 where
  io := iota_lane h
  sh := shr3_lane (iota_lane _)
  r0 := rot8_lane (iota_lane _) 0#32 0 rfl (by decide)
  r1 := rot8_lane (iota_lane _) 1#32 1 rfl (by decide)
  r2 := rot8_lane (iota_lane _) 2#32 2 rfl (by decide)
  r3 := rot8_lane (iota_lane _) 3#32 3 rfl (by decide)
  r4 := rot8_lane (iota_lane _) 4#32 4 rfl (by decide)
  p5 := plus_lane (iota_lane _) 5#32 5 rfl (by decide)

/-- The vectors the kernel makes before the slot-1 loop are these. -/
theorem liveIn1 (h : S16.Iotas .scVector 32 [0]) :
    LiveIn1 (iota .scVector S16 32 [0] h) k1_pay411 k1_pay412 k1_pay413 k1_pay414 k1_pay415 k1_pay416 k1_pay417 k1_pay418
      7#32 where
  io := iota_lane h
  sh := shr3_lane (iota_lane _)
  r0 := rot8_lane (iota_lane _) 0#32 0 rfl (by decide)
  r1 := rot8_lane (iota_lane _) 1#32 1 rfl (by decide)
  r2 := rot8_lane (iota_lane _) 2#32 2 rfl (by decide)
  r3 := rot8_lane (iota_lane _) 3#32 3 rfl (by decide)
  r4 := rot8_lane (iota_lane _) 4#32 4 rfl (by decide)
  r5 := rot8_lane (iota_lane _) 5#32 5 rfl (by decide)
  p6 := plus_lane (iota_lane _) 6#32 6 rfl (by decide)
  c7 := rfl

section InLoop0

variable {v117 v119 v123 v127 v131 v135 v139 v141 : IVec S16 32}

/-- The rotations the slot-0 region makes itself, and its tokens' places. -/
theorem LiveIn0.r5 (h : LiveIn0 v117 v119 v123 v127 v131 v135 v139 v141) :
    ∀ x, (k1_pay400 v141 x).toNat = (ln x + 5) % 8 := mask8_lane h.p5
theorem LiveIn0.r6 (h : LiveIn0 v117 v119 v123 v127 v131 v135 v139 v141) :
    ∀ x, (k1_pay401 v117 x).toNat = (ln x + 6) % 8 := rot8_lane h.io 6#32 6 rfl (by decide)
theorem LiveIn0.r7 (h : LiveIn0 v117 v119 v123 v127 v131 v135 v139 v141) :
    ∀ x, (k1_pay402 v117 x).toNat = (ln x + 7) % 8 := rot8_lane h.io 7#32 7 rfl (by decide)
theorem LiveIn0.j0 (h : LiveIn0 v117 v119 v123 v127 v131 v135 v139 v141) :
    ∀ x, (k1_pay403 v117 x).toNat = (ln x + 0) % 4 := rot4_lane h.io 0#32 0 rfl (by decide)
theorem LiveIn0.j1 (h : LiveIn0 v117 v119 v123 v127 v131 v135 v139 v141) :
    ∀ x, (k1_pay404 v117 x).toNat = (ln x + 1) % 4 := rot4_lane h.io 1#32 1 rfl (by decide)
theorem LiveIn0.j2 (h : LiveIn0 v117 v119 v123 v127 v131 v135 v139 v141) :
    ∀ x, (k1_pay405 v117 x).toNat = (ln x + 2) % 4 := rot4_lane h.io 2#32 2 rfl (by decide)
theorem LiveIn0.j3 (h : LiveIn0 v117 v119 v123 v127 v131 v135 v139 v141) :
    ∀ x, (k1_pay406 v117 x).toNat = (ln x + 3) % 4 := rot4_lane h.io 3#32 3 rfl (by decide)
theorem LiveIn0.tvec (h : LiveIn0 v117 v119 v123 v127 v131 v135 v139 v141) (k : Fin k1_t2_loop.trips) :
    ∀ x, (k1_pay25 v117 0#32 1#32 k x).toNat = ln x + 16 * k.val := tvec_lane h.io k (trip2_lt k)

end InLoop0

section InLoop1

variable {v184 v186 v190 v194 v198 v202 v206 v210 v212 : IVec S16 32} {c7 : BitVec 32}

/-- The rotations the slot-1 region makes itself, and its tokens' places. -/
theorem LiveIn1.r6 (h : LiveIn1 v184 v186 v190 v194 v198 v202 v206 v210 v212 c7) :
    ∀ x, (k1_pay1 v212 c7 x).toNat = (ln x + 6) % 8 := by
  have e : k1_pay1 v212 c7 = andi v212 (broadcast S16 7#32) := by rw [h.c7]; rfl
  rw [e]; exact mask8_lane h.p6
theorem LiveIn1.r7 (h : LiveIn1 v184 v186 v190 v194 v198 v202 v206 v210 v212 c7) :
    ∀ x, (k1_pay2 v184 x).toNat = (ln x + 7) % 8 := rot8_lane h.io 7#32 7 rfl (by decide)
theorem LiveIn1.j0 (h : LiveIn1 v184 v186 v190 v194 v198 v202 v206 v210 v212 c7) :
    ∀ x, (k1_pay3 v184 x).toNat = (ln x + 0) % 4 := rot4_lane h.io 0#32 0 rfl (by decide)
theorem LiveIn1.j1 (h : LiveIn1 v184 v186 v190 v194 v198 v202 v206 v210 v212 c7) :
    ∀ x, (k1_pay4 v184 x).toNat = (ln x + 1) % 4 := rot4_lane h.io 1#32 1 rfl (by decide)
theorem LiveIn1.j2 (h : LiveIn1 v184 v186 v190 v194 v198 v202 v206 v210 v212 c7) :
    ∀ x, (k1_pay5 v184 x).toNat = (ln x + 2) % 4 := rot4_lane h.io 2#32 2 rfl (by decide)
theorem LiveIn1.j3 (h : LiveIn1 v184 v186 v190 v194 v198 v202 v206 v210 v212 c7) :
    ∀ x, (k1_pay6 v184 x).toNat = (ln x + 3) % 4 := rot4_lane h.io 3#32 3 rfl (by decide)
theorem LiveIn1.tvec (h : LiveIn1 v184 v186 v190 v194 v198 v202 v206 v210 v212 c7) (k : Fin k1_t3_loop.trips) :
    ∀ x, (k1_pay216 v184 0#32 1#32 k x).toNat = ln x + 16 * k.val := tvec_lane h.io k (trip3_lt k)

end InLoop1

/-! ## Bounds from the closed forms -/

theorem le_of_iota {v : IVec S16 32} (h : IsIota v) : Le v 15 :=
  Le.of_eq h fun x => by have := ln_lt x; omega

theorem le_of_rot8 {v : IVec S16 32} {n : ℕ} (h : ∀ x, (v x).toNat = (ln x + n) % 8) : Le v 7 :=
  Le.of_eq h fun x => by omega

theorem le_of_rot4 {v : IVec S16 32} {n : ℕ} (h : ∀ x, (v x).toNat = (ln x + n) % 4) : Le v 3 :=
  Le.of_eq h fun x => by omega

/-- The slot-1 loop's mask word, carried into the loop as a value, is 7: a mask by it is at most 7. -/
theorem le_mask_c7 {v184 v186 v190 v194 v198 v202 v206 v210 v212 : IVec S16 32} {c7 : BitVec 32}
    (h : LiveIn1 v184 v186 v190 v194 v198 v202 v206 v210 v212 c7) (u : IVec S16 32) :
    Le (andi u (broadcast S16 c7)) 7 := by
  rw [h.c7]; exact Le.and_right u 7#32

/-- The offset of trip `k`'s tokens, `16 k`, is at most 112. -/
theorem le_trip_off (k : ℕ) (hk : k < 8) :
    Le (broadcast S16 (Scalar.muli (Scf.iv 0#32 1#32 k) 16#32) : IVec S16 32) 112 := ⟨fun x => by
  rw [broadcast_toNat, trip_off_toNat k hk]; omega⟩

/-- The words a slot's digit scratch holds are digits: each at most 99. -/
structure I3OK (v : IVec S128 32) : Prop where
  le : ∀ j, (v j).toNat ≤ 99

theorem i3_read_le0 (d : Dev nD) (L : grid1.Coords) (f : Buf (Elt F) ((s4WB).view.loc (thr d L))) (h : I3OK f)
    (r : LoadRect S128) : Le ((s4WB).view.readAt (Elt F) r f) 99 := ⟨fun _ => h.le _⟩

theorem i3_read_le1 (d : Dev nD) (L : grid1.Coords) (f : Buf (Elt F) ((s5WB).view.loc (thr d L))) (h : I3OK f)
    (r : LoadRect S128) : Le ((s5WB).view.readAt (Elt F) r f) 99 := ⟨fun _ => h.le _⟩

/-! ## The three kinds of check -/

/-- A gather from the third-core table: its one index vector below 3304. -/
theorem chk_ct {v : IVec S16 32} {b : ℕ} (h : Le v b) (hb : b < 3304) :
    ∀ a x, ((![v] : Fin 1 → IVec S16 32) a x).toNat < S3304.size a := by
  intro a x
  have ha : a = 0 := Subsingleton.elim _ _
  subst ha
  exact h.lt hb x

/-- A scatter into the block's result: its one index vector below 8192. -/
theorem chk_out {v : IVec S16 32} {b : ℕ} (h : Le v b) (hb : b < 8192) :
    ∀ a x, ((![v] : Fin 1 → IVec S16 32) a x).toNat < S8192.size a := by
  intro a x
  have ha : a = 0 := Subsingleton.elim _ _
  subst ha
  exact h.lt hb x

/-- A gather from the gathered rows: row and column both below 128. -/
theorem chk_rows {u v : IVec S16 32} {a b : ℕ} (hu : Le u a) (hv : Le v b) (ha : a < 128) (hb : b < 128) :
    ∀ i x, ((![u, v] : Fin 2 → IVec S16 32) i x).toNat < S128x128.size i := by
  intro i x
  match i with
  | ⟨0, _⟩ => exact hu.lt ha x
  | ⟨1, _⟩ => exact hv.lt hb x

/-! ## The bound of an index vector, read off its construction

`lane_leB` proves `Le v ?b` for an index vector `v` of the compute loops and finds the bound `?b` on the way: it
lays `v` open to its last operation and follows it — a sum adds its operands' bounds, a product or a left shift
by a constant scales one, a mask is bounded by its mask word whatever it masks, a trip's offset by 112, a read of
the digit scratch by 99 —, and at a vector that entered the loop uses what is known of it (a `LiveIn0` / `LiveIn1`
or a closed form among the hypotheses). `lane_chkB` closes a printed range check with it. -/

open Lean Meta Elab Tactic in
/-- On a goal `Le v b`: unfold definitions at the head of `v` until it is an operation on vectors, a read of a
    buffer, or a variable. -/
elab "lane_openB" : tactic => withMainContext do
  let g ← getMainGoal
  let tgt := (← instantiateMVars (← g.getType)).consumeMData
  unless tgt.isAppOfArity ``Cert.Proof.LaneB.Le 3 do throwError "lane_openB: the goal is not a lane bound"
  let ops : List Name := [``addi, ``muli, ``andi, ``shli, ``shrsi, ``broadcast, ``iota, ``View.readAt]
  let mut v ← whnfCore (tgt.getArg! 1)
  for _ in [0:64] do
    match v.getAppFn with
    | .const n _ =>
      if ops.contains n then break
      match ← unfoldDefinition? v with
      | some v' => v ← whnfCore v'
      | none => break
    | _ => break
  let tgt' := mkAppN tgt.getAppFn (tgt.getAppArgs.set! 1 v)
  replaceMainGoal [← g.replaceTargetDefEq tgt']

open Lean Meta Elab Tactic in
/-- On a goal `Le v b`: succeed if `v` is an application of the named constant. -/
elab "lane_isB " n:ident : tactic => withMainContext do
  let g ← getMainGoal
  let tgt := (← instantiateMVars (← g.getType)).consumeMData
  unless tgt.isAppOfArity ``Cert.Proof.LaneB.Le 3 do throwError "lane_isB: the goal is not a lane bound"
  let c ← realizeGlobalConstNoOverloadWithInfo n
  unless (tgt.getArg! 1).getAppFn.isConstOf c do throwError "lane_isB: another operation"

open Lean Meta Elab Tactic in
/-- On a goal `Le (broadcast s c) b`: succeed if the word `c` is a product (a trip's offset, not a literal). -/
elab "lane_bc_prodB" : tactic => withMainContext do
  let g ← getMainGoal
  let tgt := (← instantiateMVars (← g.getType)).consumeMData
  unless tgt.isAppOfArity ``Cert.Proof.LaneB.Le 3 do throwError "lane_bc_prodB: the goal is not a lane bound"
  let v := tgt.getArg! 1
  unless v.getAppFn.isConstOf ``broadcast && v.getAppNumArgs ≥ 2 do throwError "lane_bc_prodB: not a broadcast"
  let c ← whnfCore v.appArg!
  unless c.getAppFn.isConstOf ``Scalar.muli do throwError "lane_bc_prodB: a literal"

syntax "lane_iotaB" : tactic
syntax "lane_tripB" : tactic
syntax "lane_hypB" : tactic
syntax "lane_leB" : tactic

/-- The vector holds the lane numbers: a hypothesis, a `LiveIn`'s field, or the iota vector itself. -/
macro_rules | `(tactic| lane_iotaB) => `(tactic| first
  | exact LiveIn1.io (by assumption)
  | exact LiveIn0.io (by assumption)
  | exact iota_lane _
  | assumption)

/-- The trip number is below 8. -/
macro_rules | `(tactic| lane_tripB) => `(tactic| first
  | exact trip3_lt _
  | exact trip2_lt _
  | assumption
  | omega)

/-- The bound of a vector that entered the loop, from what the context knows of it. -/
macro_rules | `(tactic| lane_hypB) => `(tactic| first
  | exact le_of_rot8 (LiveIn1.r0 (by assumption)) | exact le_of_rot8 (LiveIn1.r1 (by assumption))
  | exact le_of_rot8 (LiveIn1.r2 (by assumption)) | exact le_of_rot8 (LiveIn1.r3 (by assumption))
  | exact le_of_rot8 (LiveIn1.r4 (by assumption)) | exact le_of_rot8 (LiveIn1.r5 (by assumption))
  | exact le_of_rot8 (LiveIn0.r0 (by assumption)) | exact le_of_rot8 (LiveIn0.r1 (by assumption))
  | exact le_of_rot8 (LiveIn0.r2 (by assumption)) | exact le_of_rot8 (LiveIn0.r3 (by assumption))
  | exact le_of_rot8 (LiveIn0.r4 (by assumption))
  | exact le_of_iota (LiveIn1.io (by assumption)) | exact le_of_iota (LiveIn0.io (by assumption))
  | exact le_of_rot8 (by assumption) | exact le_of_rot4 (by assumption) | exact le_of_iota (by assumption)
  | exact Le.of_eq (b := 127) (by assumption) (fun x => by have := ln_lt x; omega))

macro_rules | `(tactic| lane_leB) => `(tactic| first
  | assumption
  | (lane_openB; first
      | (lane_isB andi; first
          | exact le_mask_c7 (by assumption) _
          | exact Le.and_right _ _)
      | (lane_isB broadcast; first
          | (lane_bc_prodB; exact le_trip_off _ (by lane_tripB))
          | exact Le.const _)
      | (lane_isB addi; apply Le.add; (lane_leB); (lane_leB))
      | (lane_isB muli; apply Le.mul_const; (lane_leB))
      | (lane_isB shli; apply Le.shl_const; (lane_leB); (decide))
      | (lane_isB View.readAt; first
          | exact i3_read_le1 _ _ _ (by assumption) _
          | exact i3_read_le0 _ _ _ (by assumption) _)
      | (lane_isB iota; exact le_of_iota (iota_lane _))
      | lane_hypB))

/-- Close a printed range check of a compute loop: of a third-core gather, a row gather or a scatter. -/
macro "lane_chkB" : tactic => `(tactic| first
  | (apply chk_ct; (lane_leB); (decide))
  | (apply chk_out; (lane_leB); (decide))
  | (apply chk_rows; (lane_leB); (lane_leB); (decide); (decide)))

end Cert.Proof.KB

end
-- ==== Proof.ComputeLoopB.lean ====
/-
  The two compute loops as wholes. A compute loop makes eight trips over its slot's block of 128 tokens, sixteen a
  trip; a trip leaves the next sixteen rows of the slot's result holding the loop's words and touches nothing else
  (the trip's statement, taken here as a hypothesis). So the loop, from any contents of the slot's result, leaves all
  128 rows done, the third-core table, the digits and the gathered rows as they were. Stated with the rest of the
  program as a continuation, which runs from what the loop leaves.
-/
import proofs.«207215_g13752485282153_cont_week2b_1454_30_alg».proof.Proof.CommonB
import proofs.«207215_g13752485282153_cont_week2b_1454_30_alg».proof.Proof.LanesB
import proofs.«207215_g13752485282153_cont_week2b_1454_30_alg».proof.Proof.ComputeLib

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (d : Dev nD) (L : grid1.Coords)

/-! ## Slot 1 -/

/-- One trip of the slot-1 compute loop: from the first `k` groups of sixteen rows done to the first `k + 1`. -/
def Trip1 : Prop :=
  ∀ (O : CellTallies nD τ sig (HIx 1)) (W : Waits sig (HIx 1))
    (fc : Buf (Elt F) ((s1WB).view.loc (thr d L))) (fi3 : Buf (Elt F) ((s5WB).view.loc (thr d L)))
    (fr : Buf (Elt F) ((s7WB).view.loc (thr d L))) (f : Buf (Elt F) ((s9WB).view.loc (thr d L)))
    (v184 v186 v190 v194 v198 v202 v206 v210 v212 : IVec S16 32) (c7 : BitVec 32)
    (_ : LiveIn1 v184 v186 v190 v194 v198 v202 v206 v210 v212 c7) (_ : I3OK fi3)
    (k : Fin k1_t3_loop.trips) (_ : Compute.Done k.val fr fc fi3 f),
    (iprop(Transfers.MayWaits (thr d L) (none : HIx 1) O
        ∗ ((s1WB).view.loc (thr d L) ↦{fullShare} fc) ∗ ((s5WB).view.loc (thr d L) ↦{fullShare} fi3)
        ∗ ((s7WB).view.loc (thr d L) ↦{fullShare} fr) ∗ ((s9WB).view.loc (thr d L) ↦{fullShare} f)
        ∗ owes (thr d L) O W) : sProp 𝕄)
      ⊢ wp frame (wpE (defs₀ (F := F)) 𝒱₀ (thr d L) none) Set.univ
          (k1_t3_body L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1 v184 v186 v190 v194 v198 v202 v206 v210 v212 c7 k ⟨⟩)
          fun _ => iprop(Transfers.MayWaits (thr d L) (none : HIx 1) O
        ∗ ((s1WB).view.loc (thr d L) ↦{fullShare} fc) ∗ ((s5WB).view.loc (thr d L) ↦{fullShare} fi3)
        ∗ ((s7WB).view.loc (thr d L) ↦{fullShare} fr)
        ∗ (∃ f' : Buf (Elt F) ((s9WB).view.loc (thr d L)), ((s9WB).view.loc (thr d L) ↦{fullShare} f') ∗ ⌜Compute.Done (k.val + 1) fr fc fi3 f'⌝)
        ∗ owes (thr d L) O W)

/-- Between trips of the slot-1 loop: the table, the digits and the gathered rows as they were, the first `n` groups
    of sixteen rows of the slot's result done. -/
def inv1 (O : CellTallies nD τ sig (HIx 1)) (W : Waits sig (HIx 1))
    (fc : Buf (Elt F) ((s1WB).view.loc (thr d L))) (fi3 : Buf (Elt F) ((s5WB).view.loc (thr d L)))
    (fr : Buf (Elt F) ((s7WB).view.loc (thr d L))) (n : ℕ) (_ : Unit) : sProp 𝕄 :=
  iprop(Transfers.MayWaits (thr d L) (none : HIx 1) O
        ∗ ((s1WB).view.loc (thr d L) ↦{fullShare} fc) ∗ ((s5WB).view.loc (thr d L) ↦{fullShare} fi3)
        ∗ ((s7WB).view.loc (thr d L) ↦{fullShare} fr)
        ∗ (∃ f' : Buf (Elt F) ((s9WB).view.loc (thr d L)), ((s9WB).view.loc (thr d L) ↦{fullShare} f') ∗ ⌜Compute.Done n fr fc fi3 f'⌝)
        ∗ owes (thr d L) O W)

/-- The slot-1 compute loop: eight trips leave all 128 rows of the slot's result done. -/
theorem compute1_loop (htrip : Trip1 (F := F) d L) (O : CellTallies nD τ sig (HIx 1)) (W : Waits sig (HIx 1))
    (fc : Buf (Elt F) ((s1WB).view.loc (thr d L))) (fi3 : Buf (Elt F) ((s5WB).view.loc (thr d L)))
    (fr : Buf (Elt F) ((s7WB).view.loc (thr d L)))
    (v184 v186 v190 v194 v198 v202 v206 v210 v212 : IVec S16 32) (c7 : BitVec 32)
    (hL : LiveIn1 v184 v186 v190 v194 v198 v202 v206 v210 v212 c7) (hI3 : I3OK fi3) {α : Type}
    (kont : Unit → Prog (TpuEff nD τ sig (Elt F) Λ₀ (.scVector ((L 0).castLE hcore1) ((L 1).castLE hsub1))) α)
    (Q : α → sProp 𝕄) :
    (iprop(Transfers.MayWaits (thr d L) (none : HIx 1) O
        ∗ ((s1WB).view.loc (thr d L) ↦{fullShare} fc) ∗ ((s5WB).view.loc (thr d L) ↦{fullShare} fi3)
        ∗ ((s7WB).view.loc (thr d L) ↦{fullShare} fr)
        ∗ (∃ f : Buf (Elt F) ((s9WB).view.loc (thr d L)), ((s9WB).view.loc (thr d L) ↦{fullShare} f))
        ∗ (∃ W', ⌜∀ p ∈ W', p ∈ W ∨ p.2 = none⌝ ∗ owes (thr d L) O W')
        ∗ (iprop(Transfers.MayWaits (thr d L) (none : HIx 1) O
        ∗ ((s1WB).view.loc (thr d L) ↦{fullShare} fc) ∗ ((s5WB).view.loc (thr d L) ↦{fullShare} fi3)
        ∗ ((s7WB).view.loc (thr d L) ↦{fullShare} fr)
        ∗ (∃ f' : Buf (Elt F) ((s9WB).view.loc (thr d L)), ((s9WB).view.loc (thr d L) ↦{fullShare} f') ∗ ⌜Compute.Done 8 fr fc fi3 f'⌝)
        ∗ (∃ W', ⌜∀ p ∈ W', p ∈ W ∨ p.2 = none⌝ ∗ owes (thr d L) O W'))
            -∗ wp frame (wpE (defs₀ (F := F)) 𝒱₀ (thr d L) none) Set.univ (kont ()) Q)) : sProp 𝕄)
      ⊢ wp frame (wpE (defs₀ (F := F)) 𝒱₀ (thr d L) none) Set.univ
          (Scf.Loop.for k1_t3_loop k1_t3_ok ⟨⟩ (k1_t3_body L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1 v184 v186 v190 v194 v198 v202 v206 v210 v212 c7) >>= kont) Q := by
  iintro ⟨Hmw, H1, H5, H7, ⟨%f, H9⟩, ⟨%W', %hW', HO⟩, HK⟩
  sl_for (inv1 d L O W' fc fi3 fr) $$ [Hmw H1 H5 H7 H9 HO]
  case region =>
    intro k _
    unfold inv1
    iintro ⟨Hmw, H1, H5, H7, ⟨%f', H9, %hf⟩, HO⟩
    iapply (htrip O W' fc fi3 fr f' v184 v186 v190 v194 v198 v202 v206 v210 v212 c7 hL hI3 k hf)
    isplitl [Hmw]; · iexact Hmw
    isplitl [H1]; · iexact H1
    isplitl [H5]; · iexact H5
    isplitl [H7]; · iexact H7
    isplitl [H9]; · iexact H9
    iexact HO
  · unfold inv1
    isplitl [Hmw]; · iexact Hmw
    isplitl [H1]; · iexact H1
    isplitl [H5]; · iexact H5
    isplitl [H7]; · iexact H7
    isplitl [H9]
    · iexists f
      isplitl [H9]; · iexact H9
      ipureintro; intro j hj; omega
    · iexact HO
  iintro %_ HI
  unfold inv1
  icases HI with ⟨Hmw, H1, H5, H7, ⟨%f', H9, %hf⟩, HO⟩
  iapply HK
  isplitl [Hmw]; · iexact Hmw
  isplitl [H1]; · iexact H1
  isplitl [H5]; · iexact H5
  isplitl [H7]; · iexact H7
  isplitl [H9]
  · iexists f'
    isplitl [H9]; · iexact H9
    ipureintro
    have h8 : Compute.Done k1_t3_loop.trips fr fc fi3 f' := hf
    rw [t3_trips] at h8; exact h8
  · iexists W'; isplitr
    · ipureintro; exact hW'
    · iexact HO

/-! ## Slot 0 -/

/-- One trip of the slot-0 compute loop: from the first `k` groups of sixteen rows done to the first `k + 1`. The
    region also reads, without using them, the block number's words of the enclosing trip. -/
def Trip0 : Prop :=
  ∀ (O : CellTallies nD τ sig (HIx 1)) (W : Waits sig (HIx 1))
    (fc : Buf (Elt F) ((s1WB).view.loc (thr d L))) (fi3 : Buf (Elt F) ((s4WB).view.loc (thr d L)))
    (fr : Buf (Elt F) ((s6WB).view.loc (thr d L))) (f : Buf (Elt F) ((s8WB).view.loc (thr d L)))
    (v2 : BitVec 32) (k1 : Fin k1_t1_loop.trips) (arg20 v108 : BitVec 32)
    (v117 v119 v123 v127 v131 v135 v139 v141 : IVec S16 32)
    (_ : LiveIn0 v117 v119 v123 v127 v131 v135 v139 v141) (_ : I3OK fi3)
    (k : Fin k1_t2_loop.trips) (_ : Compute.Done k.val fr fc fi3 f),
    (iprop(Transfers.MayWaits (thr d L) (none : HIx 1) O
        ∗ ((s1WB).view.loc (thr d L) ↦{fullShare} fc) ∗ ((s4WB).view.loc (thr d L) ↦{fullShare} fi3)
        ∗ ((s6WB).view.loc (thr d L) ↦{fullShare} fr) ∗ ((s8WB).view.loc (thr d L) ↦{fullShare} f)
        ∗ owes (thr d L) O W) : sProp 𝕄)
      ⊢ wp frame (wpE (defs₀ (F := F)) 𝒱₀ (thr d L) none) Set.univ
          (k1_t2_body L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1 v2 k1 arg20 v108 v117 v119 v123 v127 v131 v135 v139 v141 k ⟨⟩)
          fun _ => iprop(Transfers.MayWaits (thr d L) (none : HIx 1) O
        ∗ ((s1WB).view.loc (thr d L) ↦{fullShare} fc) ∗ ((s4WB).view.loc (thr d L) ↦{fullShare} fi3)
        ∗ ((s6WB).view.loc (thr d L) ↦{fullShare} fr)
        ∗ (∃ f' : Buf (Elt F) ((s8WB).view.loc (thr d L)), ((s8WB).view.loc (thr d L) ↦{fullShare} f') ∗ ⌜Compute.Done (k.val + 1) fr fc fi3 f'⌝)
        ∗ owes (thr d L) O W)

/-- Between trips of the slot-0 loop: the table, the digits and the gathered rows as they were, the first `n` groups
    of sixteen rows of the slot's result done. -/
def inv0 (O : CellTallies nD τ sig (HIx 1)) (W : Waits sig (HIx 1))
    (fc : Buf (Elt F) ((s1WB).view.loc (thr d L))) (fi3 : Buf (Elt F) ((s4WB).view.loc (thr d L)))
    (fr : Buf (Elt F) ((s6WB).view.loc (thr d L))) (n : ℕ) (_ : Unit) : sProp 𝕄 :=
  iprop(Transfers.MayWaits (thr d L) (none : HIx 1) O
        ∗ ((s1WB).view.loc (thr d L) ↦{fullShare} fc) ∗ ((s4WB).view.loc (thr d L) ↦{fullShare} fi3)
        ∗ ((s6WB).view.loc (thr d L) ↦{fullShare} fr)
        ∗ (∃ f' : Buf (Elt F) ((s8WB).view.loc (thr d L)), ((s8WB).view.loc (thr d L) ↦{fullShare} f') ∗ ⌜Compute.Done n fr fc fi3 f'⌝)
        ∗ owes (thr d L) O W)

/-- The slot-0 compute loop: eight trips leave all 128 rows of the slot's result done. -/
theorem compute0_loop (htrip : Trip0 (F := F) d L) (O : CellTallies nD τ sig (HIx 1)) (W : Waits sig (HIx 1))
    (fc : Buf (Elt F) ((s1WB).view.loc (thr d L))) (fi3 : Buf (Elt F) ((s4WB).view.loc (thr d L)))
    (fr : Buf (Elt F) ((s6WB).view.loc (thr d L)))
    (v2 : BitVec 32) (k1 : Fin k1_t1_loop.trips) (arg20 v108 : BitVec 32)
    (v117 v119 v123 v127 v131 v135 v139 v141 : IVec S16 32)
    (hL : LiveIn0 v117 v119 v123 v127 v131 v135 v139 v141) (hI3 : I3OK fi3) {α : Type}
    (kont : Unit → Prog (TpuEff nD τ sig (Elt F) Λ₀ (.scVector ((L 0).castLE hcore1) ((L 1).castLE hsub1))) α)
    (Q : α → sProp 𝕄) :
    (iprop(Transfers.MayWaits (thr d L) (none : HIx 1) O
        ∗ ((s1WB).view.loc (thr d L) ↦{fullShare} fc) ∗ ((s4WB).view.loc (thr d L) ↦{fullShare} fi3)
        ∗ ((s6WB).view.loc (thr d L) ↦{fullShare} fr)
        ∗ (∃ f : Buf (Elt F) ((s8WB).view.loc (thr d L)), ((s8WB).view.loc (thr d L) ↦{fullShare} f))
        ∗ (∃ W', ⌜∀ p ∈ W', p ∈ W ∨ p.2 = none⌝ ∗ owes (thr d L) O W')
        ∗ (iprop(Transfers.MayWaits (thr d L) (none : HIx 1) O
        ∗ ((s1WB).view.loc (thr d L) ↦{fullShare} fc) ∗ ((s4WB).view.loc (thr d L) ↦{fullShare} fi3)
        ∗ ((s6WB).view.loc (thr d L) ↦{fullShare} fr)
        ∗ (∃ f' : Buf (Elt F) ((s8WB).view.loc (thr d L)), ((s8WB).view.loc (thr d L) ↦{fullShare} f') ∗ ⌜Compute.Done 8 fr fc fi3 f'⌝)
        ∗ (∃ W', ⌜∀ p ∈ W', p ∈ W ∨ p.2 = none⌝ ∗ owes (thr d L) O W'))
            -∗ wp frame (wpE (defs₀ (F := F)) 𝒱₀ (thr d L) none) Set.univ (kont ()) Q)) : sProp 𝕄)
      ⊢ wp frame (wpE (defs₀ (F := F)) 𝒱₀ (thr d L) none) Set.univ
          (Scf.Loop.for k1_t2_loop k1_t2_ok ⟨⟩ (k1_t2_body L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1 v2 k1 arg20 v108 v117 v119 v123 v127 v131 v135 v139 v141) >>= kont) Q := by
  iintro ⟨Hmw, H1, H4, H6, ⟨%f, H8⟩, ⟨%W', %hW', HO⟩, HK⟩
  sl_for (inv0 d L O W' fc fi3 fr) $$ [Hmw H1 H4 H6 H8 HO]
  case region =>
    intro k _
    unfold inv0
    iintro ⟨Hmw, H1, H4, H6, ⟨%f', H8, %hf⟩, HO⟩
    iapply (htrip O W' fc fi3 fr f' v2 k1 arg20 v108 v117 v119 v123 v127 v131 v135 v139 v141 hL hI3 k hf)
    isplitl [Hmw]; · iexact Hmw
    isplitl [H1]; · iexact H1
    isplitl [H4]; · iexact H4
    isplitl [H6]; · iexact H6
    isplitl [H8]; · iexact H8
    iexact HO
  · unfold inv0
    isplitl [Hmw]; · iexact Hmw
    isplitl [H1]; · iexact H1
    isplitl [H4]; · iexact H4
    isplitl [H6]; · iexact H6
    isplitl [H8]
    · iexists f
      isplitl [H8]; · iexact H8
      ipureintro; intro j hj; omega
    · iexact HO
  iintro %_ HI
  unfold inv0
  icases HI with ⟨Hmw, H1, H4, H6, ⟨%f', H8, %hf⟩, HO⟩
  iapply HK
  isplitl [Hmw]; · iexact Hmw
  isplitl [H1]; · iexact H1
  isplitl [H4]; · iexact H4
  isplitl [H6]; · iexact H6
  isplitl [H8]
  · iexists f'
    isplitl [H8]; · iexact H8
    ipureintro
    have h8 : Compute.Done k1_t2_loop.trips fr fc fi3 f' := hf
    rw [t2_trips] at h8; exact h8
  · iexists W'; isplitr
    · ipureintro; exact hW'
    · iexact HO

end Cert.Proof.KB

end
-- ==== Proof.ComputeRunB.lean ====
/-
  Reading back what a trip of a compute loop has written: the parts that do not depend on the slot.

  After a trip the slot's result scratch holds sixty-four indexed stores over what it held before, each a write of
  the whole buffer; a whole-buffer write read back is its payload. The index vectors of the trip's stores and of its
  row gathers are built from the lane number and the trip number alone, so what each lane of such a vector holds is a
  fact about 8 × 16 trips and lanes, checked on all of them; the index vector of a gather from the third-core table
  also holds the token's third digit, which stays a variable (at most 99, so nothing wraps). A stored word is a sum
  of eight products of a gathered row entry and a gathered table word: it is the slot's word once each of its sixteen
  operands is the entry, or the word, the specification names.
-/
import proofs.«207215_g13752485282153_cont_week2b_1454_30_alg».proof.Proof.CommonB
import proofs.«207215_g13752485282153_cont_week2b_1454_30_alg».proof.Proof.LanesB
import proofs.«207215_g13752485282153_cont_week2b_1454_30_alg».proof.Proof.LibStoreIdx
import proofs.«207215_g13752485282153_cont_week2b_1454_30_alg».proof.Proof.ComputeLib

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.Proof.LaneB

variable {F : FTy → Type}

local notation "𝕄" => MT nD τ sig (HIx 1) (Elt F) ℕ UU ℕ

variable [FloatOps F]

/-! ## Whole-buffer writes read back -/

section Whole
variable {κ : Kind}

/-- The last write through the whole view of a buffer is what the buffer holds. -/
theorem writes_whole_cons (b : Ref sig κ) (f w : b.ty.Contents (Elt F)) (Ls : List (View.Piece (Elt F) b.ty.shape b.ty.elt)) :
    (Memref.whole b).view.writes (Elt F) f (⟨Rect.whole b.ty.shape, w⟩ :: Ls) = w := by
  show (View.whole b).writes (Elt F) f (⟨Rect.whole b.ty.shape, w⟩ :: Ls) = w
  rw [← View.write_univ_eq_writes_whole]; exact View.write_whole_univ b _ w

/-- A load of the whole buffer after a write through its whole view reads that write's payload. -/
theorem readCov_whole_cons (b : Ref sig κ) (w : b.ty.Contents (Elt F)) (Ls : List (View.Piece (Elt F) b.ty.shape b.ty.elt)) :
    (Memref.whole b).view.readCov (⟨Rect.whole b.ty.shape, w⟩ :: Ls) (LoadRect.whole b.ty.shape) = w := by
  unfold View.readCov
  rw [writes_whole_cons]; exact Memref.readAt_whole (Elt F) b w

end Whole

/-! ## Lanes of closed index vectors -/

/-- The sixteen-lane vector whose lane `l` holds `g l`. -/
def laneVec (g : ℕ → ℕ) : IVec S16 32 := fun x => BitVec.ofNat 32 (g (x 0).val)

theorem eq_laneVec {v : IVec S16 32} (g : ℕ → ℕ) (h : ∀ x, (v x).toNat = g (ln x)) : v = laneVec g := by
  funext x
  apply BitVec.eq_of_toNat_eq
  have hlt := (v x).isLt
  rw [h x] at hlt
  rw [h x]; unfold laneVec; rw [BitVec.toNat_ofNat]
  exact (Nat.mod_eq_of_lt hlt).symm

/-- A property of every lane index, from the sixteen lanes. -/
theorem forall_lane {P : S16.Idx → Prop} (h : ∀ l : Fin 16, P (ix1 l)) : ∀ x, P x := fun x => (eq_ix1 x) ▸ h (x 0)

/-- A fact about lane `x` of closed index vectors at trip `k`: checked on the 8 × 16 trips and lanes. -/
macro "lane_decB" k:ident x:ident : tactic => `(tactic| (revert $x:ident; refine forall_lane ?_; clear * - $k:ident; revert $k:ident; decide +kernel))

open Lean Elab Tactic Meta in
/-- Unfold, in the goal, the names the symbolic run gave to this declaration's intermediate values and the printed
    program's payload definitions. -/
elab "unfold_run_namesB" : tactic => do
  let some decl ← Term.getDeclName? | throwError "unfold_run_namesB: no declaration"
  let pre := decl ++ `sl
  liftMetaTactic fun g => do
    return [← g.deltaTarget fun n => pre.isPrefixOf n || (match n with | .str _ s => s.startsWith "k1_pay" | _ => false)]

/-! ## The word's sixteen operands -/

theorem word_eq (fr : Vec F Compute.SR .f32) (fc : Vec F Compute.SC .f32) (n3 j e : ℕ) {p0 p1 p2 p3 p4 p5 p6 p7 c0 c1 c2 c3 c4 c5 c6 c7 : F .f32}
    (hp0 : p0 = Compute.rowAt fr j (8 * (e / 4) + (j % 16 + 0) % 8)) (hc0 : c0 = Compute.ctAt fc (33 * n3 + 4 * ((j % 16 + 0) % 8) + e % 4))
    (hp4 : p4 = Compute.rowAt fr j (8 * (e / 4) + (j % 16 + 4) % 8)) (hc4 : c4 = Compute.ctAt fc (33 * n3 + 4 * ((j % 16 + 4) % 8) + e % 4))
    (hp1 : p1 = Compute.rowAt fr j (8 * (e / 4) + (j % 16 + 1) % 8)) (hc1 : c1 = Compute.ctAt fc (33 * n3 + 4 * ((j % 16 + 1) % 8) + e % 4))
    (hp5 : p5 = Compute.rowAt fr j (8 * (e / 4) + (j % 16 + 5) % 8)) (hc5 : c5 = Compute.ctAt fc (33 * n3 + 4 * ((j % 16 + 5) % 8) + e % 4))
    (hp2 : p2 = Compute.rowAt fr j (8 * (e / 4) + (j % 16 + 2) % 8)) (hc2 : c2 = Compute.ctAt fc (33 * n3 + 4 * ((j % 16 + 2) % 8) + e % 4))
    (hp6 : p6 = Compute.rowAt fr j (8 * (e / 4) + (j % 16 + 6) % 8)) (hc6 : c6 = Compute.ctAt fc (33 * n3 + 4 * ((j % 16 + 6) % 8) + e % 4))
    (hp3 : p3 = Compute.rowAt fr j (8 * (e / 4) + (j % 16 + 3) % 8)) (hc3 : c3 = Compute.ctAt fc (33 * n3 + 4 * ((j % 16 + 3) % 8) + e % 4))
    (hp7 : p7 = Compute.rowAt fr j (8 * (e / 4) + (j % 16 + 7) % 8)) (hc7 : c7 = Compute.ctAt fc (33 * n3 + 4 * ((j % 16 + 7) % 8) + e % 4)) :
    FloatOps.addf
      (FloatOps.addf (FloatOps.addf (FloatOps.mulf p0 c0) (FloatOps.mulf p4 c4)) (FloatOps.addf (FloatOps.mulf p1 c1) (FloatOps.mulf p5 c5)))
      (FloatOps.addf (FloatOps.addf (FloatOps.mulf p2 c2) (FloatOps.mulf p6 c6)) (FloatOps.addf (FloatOps.mulf p3 c3) (FloatOps.mulf p7 c7)))
      = Compute.slotWord fr fc n3 j e := by
  subst hp0 hp1 hp2 hp3 hp4 hp5 hp6 hp7 hc0 hc1 hc2 hc3 hc4 hc5 hc6 hc7
  rfl

section Leaves

variable (d : Dev nD) (L : grid1.Coords)

/-- A gather from the third-core table at lane `x`: the word at 33 times the digit, plus four times the rank
    rotation, plus the column rotation. -/
theorem ct_leaf (fc : Buf (Elt F) ((s1WB).view.loc (thr d L))) (Vv Rv Jv : IVec S16 32)
    (h : ∀ a x, ((![addi (addi (muli Vv (broadcast S16 33#32)) (shli Rv (broadcast S16 2#32))) Jv] : Fin 1 → IVec S16 32) a x).toNat < S3304.size a)
    (x : S16.Idx) (n3 a c : ℕ)
    (hV : (Vv x).toNat = n3) (h3 : n3 ≤ 99) (hR : (Rv x).toNat = a) (ha : a < 8) (hJ : (Jv x).toNat = c) (hc : c < 4) :
    loadIdx (View.readAt (Elt F) (s1WB).view (LoadRect.whole S3304) fc)
        ![addi (addi (muli Vv (broadcast S16 33#32)) (shli Rv (broadcast S16 2#32))) Jv] h x
      = Compute.ctAt fc (33 * n3 + 4 * a + c) := by
  have e : View.readAt (Elt F) (s1WB).view (LoadRect.whole S3304) fc = fc := Memref.readAt_whole (Elt F) cc1_scratch1 fc
  rw [e]
  unfold loadIdx Compute.ctAt
  congr 1
  funext i
  match i with
  | ⟨0, _⟩ =>
    apply Fin.ext
    show (addi (addi (muli Vv (broadcast S16 33#32)) (shli Rv (broadcast S16 2#32))) Jv x).toNat = (33 * n3 + 4 * a + c) % 3304
    rw [addi_toNat, addi_toNat, muli_toNat, shli_toNat Rv 2#32 (by decide), broadcast_toNat, hV, hR, hJ]
    show ((n3 * 33 % 2 ^ 32 + a * 2 ^ 2 % 2 ^ 32) % 2 ^ 32 + c) % 2 ^ 32 = (33 * n3 + 4 * a + c) % 3304
    have e1 : n3 * 33 % 2 ^ 32 = n3 * 33 := Nat.mod_eq_of_lt (by omega)
    have e2 : a * 2 ^ 2 % 2 ^ 32 = a * 2 ^ 2 := Nat.mod_eq_of_lt (by omega)
    rw [e1, e2]
    have e3 : (n3 * 33 + a * 2 ^ 2) % 2 ^ 32 = n3 * 33 + a * 2 ^ 2 := Nat.mod_eq_of_lt (by omega)
    rw [e3]
    have e4 : (n3 * 33 + a * 2 ^ 2 + c) % 2 ^ 32 = n3 * 33 + a * 2 ^ 2 + c := Nat.mod_eq_of_lt (by omega)
    have e5 : (33 * n3 + 4 * a + c) % 3304 = 33 * n3 + 4 * a + c := Nat.mod_eq_of_lt (by omega)
    rw [e4, e5]; omega

end Leaves

end Cert.Proof.KB

end
-- ==== Proof.Compute1B.lean ====
/-
  One trip of the compute loop of double-buffer slot 1.

  Trip `k` handles rows `16 k .. 16 k + 15` of the slot's block, one a lane. It reads the sixteen tokens' third digits,
  gathers for each lane thirty-two words of the third-core table and a hundred and twenty-eight entries of the lane's
  gathered row, and writes the lane's sixty-four words by sixty-four indexed stores into the slot's result scratch.
  Run from the four buffers it touches, the trip leaves the table, the digits and the rows as they were and the
  result scratch holding the loop's words in the rows of the first `k + 1` trips: the rows of earlier trips are not
  written again, and the sixty-four stores of this trip cover its sixteen rows' columns once each.
-/
import proofs.«207215_g13752485282153_cont_week2b_1454_30_alg».proof.Proof.ComputeRunB
import proofs.«207215_g13752485282153_cont_week2b_1454_30_alg».proof.Proof.Compute0

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.Proof.LaneB

variable {F : FTy → Type}

local notation "𝕄" => MT nD τ sig (HIx 1) (Elt F) ℕ UU ℕ

variable [FloatOps F]

variable (d : Dev nD) (L : grid1.Coords)

/-! ## The slot's gathers at a lane -/

/-- A gather from the slot's rows at lane `x`: the entry at the lane's row and column. -/
theorem row_leaf1 (fr : Buf (Elt F) ((s7WB).view.loc (thr d L))) (Tv Cv : IVec S16 32)
    (h : ∀ a x, ((![Tv, Cv] : Fin 2 → IVec S16 32) a x).toNat < S128x128.size a) (x : S16.Idx) (j c : ℕ)
    (hT : (Tv x).toNat = j) (hC : (Cv x).toNat = c) (hj : j < 128) (hc : c < 128) :
    loadIdx (View.readAt (Elt F) (s7WB).view (LoadRect.whole S128x128) fr) ![Tv, Cv] h x = Compute.rowAt fr j c := by
  have e : View.readAt (Elt F) (s7WB).view (LoadRect.whole S128x128) fr = fr := Memref.readAt_whole (Elt F) cc1_scratch7 fr
  rw [e]
  unfold loadIdx Compute.rowAt
  congr 1
  funext a
  match a with
  | ⟨0, _⟩ => exact Fin.ext (by show (Tv x).toNat = j % 128; rw [hT, Nat.mod_eq_of_lt hj])
  | ⟨1, _⟩ => exact Fin.ext (by show (Cv x).toNat = c % 128; rw [hC, Nat.mod_eq_of_lt hc])

/-- The sixteen digits a trip reads: lane `x` of trip `k` reads the digit of row `16 k + x`. -/
theorem i3_lane1 (fi3 : Buf (Elt F) ((s5WB).view.loc (thr d L))) (k : Fin k1_t3_loop.trips)
    (inb : ∀ a, (k1_off8 k) a + S16.size a ≤ S128.size a) (x : S16.Idx) :
    (View.readAt (Elt F) (s5WB).view (Rect.unit (s := S128) (k1_off8 k) S16.size inb).toLoadRect fi3 x).toNat
      = Compute.i3At fi3 (16 * k.val + ln x) := by
  have hk : ∀ k : Fin k1_t3_loop.trips, k1_off8 k 0 = 16 * k.val := by decide +kernel
  have hx := ln_lt x
  have hk8 := trip3_lt k
  unfold Compute.i3At
  show (fi3 ((Rect.unit (s := S128) (k1_off8 k) S16.size inb).toLoadRect.idx x)).toNat = _
  congr 2
  funext a
  match a with
  | ⟨0, _⟩ =>
    apply Fin.ext
    show k1_off8 k 0 + 1 * (x 0).val = (16 * k.val + ln x) % 128
    rw [hk k]; show 16 * k.val + 1 * ln x = _; omega

/-! ## The invariant of the sixty-four stores, on the slot's result scratch -/

theorem inv_top1 {k n : ℕ} (hk : k < 8) (hn : n < 64) {W : ℕ → ℕ → F .f32}
    {f f0 g : Buf (Elt F) ((s9WB).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s9WB).view.writes (Elt F) f0 (⟨Rect.whole S8192, storeIdx g idxs v (fun _ => 1#1) false h⟩ :: Ls)) := by
  have e : (s9WB).view.writes (Elt F) f0 (⟨Rect.whole S8192, storeIdx g idxs v (fun _ => 1#1) false h⟩ :: Ls)
      = storeIdx g idxs v (fun _ => 1#1) false h :=
    writes_whole_cons (F := F) cc1_scratch9 f0 (storeIdx g idxs v (fun _ => 1#1) false h) Ls
  rw [e]; exact Compute.inv_step hk hn hg hidx hv

theorem inv_cov1 {k n : ℕ} (hk : k < 8) (hn : n < 64) {W : ℕ → ℕ → F .f32}
    {f g : Buf (Elt F) ((s9WB).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s9WB).view.readCov (⟨Rect.whole S8192, storeIdx g idxs v (fun _ => 1#1) false h⟩ :: Ls) (LoadRect.whole S8192)) := by
  have e : (s9WB).view.readCov (⟨Rect.whole S8192, storeIdx g idxs v (fun _ => 1#1) false h⟩ :: Ls) (LoadRect.whole S8192)
      = storeIdx g idxs v (fun _ => 1#1) false h :=
    readCov_whole_cons (F := F) cc1_scratch9 (storeIdx g idxs v (fun _ => 1#1) false h) Ls
  rw [e]; exact Compute.inv_step hk hn hg hidx hv

theorem inv_base1 (k : ℕ) (W : ℕ → ℕ → F .f32) (f : Buf (Elt F) ((s9WB).view.loc (thr d L))) :
    Compute.Inv k 0 W f (View.readAt (Elt F) (s9WB).view (LoadRect.whole S8192) f) := by
  have e : View.readAt (Elt F) (s9WB).view (LoadRect.whole S8192) f = f := Memref.readAt_whole (Elt F) cc1_scratch9 f
  rw [e]; exact Compute.inv_zero k W f

/-! ## The trip -/

set_option maxHeartbeats 16000000 in
set_option maxRecDepth 65536 in
/-- Trip `k` of the slot's compute loop: from the third-core table, the slot's digits and gathered rows, and a result
    scratch whose first `16 k` rows hold the loop's words, it runs to the end and leaves the first `16 (k + 1)` rows
    holding them, the other three buffers as they were. -/
theorem compute1_trip (O : CellTallies nD τ sig (HIx 1)) (W : Waits sig (HIx 1))
    (fc : Buf (Elt F) ((s1WB).view.loc (thr d L))) (fi3 : Buf (Elt F) ((s5WB).view.loc (thr d L)))
    (fr : Buf (Elt F) ((s7WB).view.loc (thr d L))) (f : Buf (Elt F) ((s9WB).view.loc (thr d L)))
    (v184 v186 v190 v194 v198 v202 v206 v210 v212 : IVec S16 32) (c7 : BitVec 32)
    (hL : LiveIn1 v184 v186 v190 v194 v198 v202 v206 v210 v212 c7)
    (hI3 : I3OK fi3)
    (k : Fin k1_t3_loop.trips) (hf : Compute.Done k.val fr fc fi3 f) :
    (iprop(Transfers.MayWaits (thr d L) (none : HIx 1) O
        ∗ ((s1WB).view.loc (thr d L) ↦{fullShare} fc) ∗ ((s5WB).view.loc (thr d L) ↦{fullShare} fi3)
        ∗ ((s7WB).view.loc (thr d L) ↦{fullShare} fr) ∗ ((s9WB).view.loc (thr d L) ↦{fullShare} f)
        ∗ owes (thr d L) O W) : sProp 𝕄)
      ⊢ wp frame (wpE (defs₀ (F := F)) 𝒱₀ (thr d L) none) Set.univ
          (k1_t3_body L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1 v184 v186 v190 v194 v198 v202 v206 v210 v212 c7 k ⟨⟩)
          fun _ => iprop(Transfers.MayWaits (thr d L) (none : HIx 1) O
            ∗ ((s1WB).view.loc (thr d L) ↦{fullShare} fc) ∗ ((s5WB).view.loc (thr d L) ↦{fullShare} fi3)
            ∗ ((s7WB).view.loc (thr d L) ↦{fullShare} fr)
            ∗ (∃ f' : Buf (Elt F) ((s9WB).view.loc (thr d L)), ((s9WB).view.loc (thr d L) ↦{fullShare} f') ∗ ⌜Compute.Done (k.val + 1) fr fc fi3 f'⌝)
            ∗ owes (thr d L) O W) := by
  unfold k1_t3_body
  rw [k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton]
  unfold k1_part38_skel k1_part39_skel k1_part40_skel k1_part41_skel k1_part42_skel k1_part43_skel k1_part44_skel k1_part45_skel k1_part46_skel k1_part47_skel k1_part48_skel k1_part49_skel k1_part50_skel k1_part51_skel k1_part52_skel k1_part53_skel k1_part54_skel k1_part55_skel k1_part56_skel k1_part57_skel k1_part58_skel k1_part59_skel k1_part60_skel k1_part61_skel k1_part62_skel k1_part63_skel k1_part64_skel k1_part65_skel k1_part66_skel k1_part67_skel k1_part68_skel
  unfold SparseCore.vectorLoadIdx SparseCore.vectorStoreIdx
  iintro ⟨Hmw, H1, H5, H7, H9, HO⟩
  sl_exec (disch := lane_chkB)
  sl_step
  isplitl [Hmw]; · iexact Hmw
  isplitl [H1]; · iexact H1
  isplitl [H5]; · iexact H5
  isplitl [H7]; · iexact H7
  isplitl [H9]
  · iexists _
    isplitl [H9]; · iexact H9
    ipureintro
    have hk : k.val < 8 := trip3_lt k
    refine Compute.done_of_inv hk hf ?_
    -- the vectors that enter the loop are functions of the lane number: from here every index vector of the trip
    -- is a closed term in the trip and the lane
    obtain rfl := eq_laneVec (fun l => l) hL.io
    obtain rfl := eq_laneVec (fun l => l / 8) hL.sh
    obtain rfl := eq_laneVec (fun l => (l + 0) % 8) hL.r0
    obtain rfl := eq_laneVec (fun l => (l + 1) % 8) hL.r1
    obtain rfl := eq_laneVec (fun l => (l + 2) % 8) hL.r2
    obtain rfl := eq_laneVec (fun l => (l + 3) % 8) hL.r3
    obtain rfl := eq_laneVec (fun l => (l + 4) % 8) hL.r4
    obtain rfl := eq_laneVec (fun l => (l + 5) % 8) hL.r5
    obtain rfl := eq_laneVec (fun l => l + 6) hL.p6
    have hc7 := hL.c7
    subst hc7
    -- the last store, then the sixty-three before it, down to the scratch as the trip found it
    refine inv_top1 d L hk (by omega) _ ?_ ?hidx ?hv
    case hidx => intro x; lane_decB k x
    case hv =>
      intro x
      unfold_run_namesB
      refine word_eq _ _ _ _ _ ?_ ?_ ?_ ?_ ?_ ?_ ?_ ?_ ?_ ?_ ?_ ?_ ?_ ?_ ?_ ?_
      all_goals first
        | (refine row_leaf1 d L fr _ _ _ x _ _ ?_ ?_ ?_ ?_
           · lane_decB k x
           · lane_decB k x
           · have := ln_lt x; omega
           · have := ln_lt x; unfold Compute.colOf; omega)
        | (refine ct_leaf d L fc _ _ _ _ x _ _ _ (i3_lane1 d L fi3 k _ x) (hI3.le _) ?_ ?_ ?_ ?_
           · lane_decB k x
           · omega
           · lane_decB k x
           · omega)
    iterate 63
      refine inv_cov1 d L hk (by omega) _ ?_ ?hidx ?hv
      case hidx => intro x; lane_decB k x
      case hv =>
        intro x
        unfold_run_namesB
        refine word_eq _ _ _ _ _ ?_ ?_ ?_ ?_ ?_ ?_ ?_ ?_ ?_ ?_ ?_ ?_ ?_ ?_ ?_ ?_
        all_goals first
          | (refine row_leaf1 d L fr _ _ _ x _ _ ?_ ?_ ?_ ?_
             · lane_decB k x
             · lane_decB k x
             · have := ln_lt x; omega
             · have := ln_lt x; unfold Compute.colOf; omega)
          | (refine ct_leaf d L fc _ _ _ _ x _ _ _ (i3_lane1 d L fi3 k _ x) (hI3.le _) ?_ ?_ ?_ ?_
             · lane_decB k x
             · omega
             · lane_decB k x
             · omega)
    exact inv_base1 d L _ _ f
  · iexact HO

end Cert.Proof.KB

end
-- ==== Proof.Compute0B.lean ====
/-
  One trip of the compute loop of double-buffer slot 0.

  Trip `k` handles rows `16 k .. 16 k + 15` of the slot's block, one a lane. It reads the sixteen tokens' third digits,
  gathers for each lane thirty-two words of the third-core table and a hundred and twenty-eight entries of the lane's
  gathered row, and writes the lane's sixty-four words by sixty-four indexed stores into the slot's result scratch.
  Run from the four buffers it touches, the trip leaves the table, the digits and the rows as they were and the
  result scratch holding the loop's words in the rows of the first `k + 1` trips: the rows of earlier trips are not
  written again, and the sixty-four stores of this trip cover its sixteen rows' columns once each.
-/
import proofs.«207215_g13752485282153_cont_week2b_1454_30_alg».proof.Proof.ComputeRunB
import proofs.«207215_g13752485282153_cont_week2b_1454_30_alg».proof.Proof.Compute1B

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.Proof.LaneB

variable {F : FTy → Type}

local notation "𝕄" => MT nD τ sig (HIx 1) (Elt F) ℕ UU ℕ

variable [FloatOps F]

variable (d : Dev nD) (L : grid1.Coords)

/-! ## The slot's gathers at a lane -/

/-- A gather from the slot's rows at lane `x`: the entry at the lane's row and column. -/
theorem row_leaf0 (fr : Buf (Elt F) ((s6WB).view.loc (thr d L))) (Tv Cv : IVec S16 32)
    (h : ∀ a x, ((![Tv, Cv] : Fin 2 → IVec S16 32) a x).toNat < S128x128.size a) (x : S16.Idx) (j c : ℕ)
    (hT : (Tv x).toNat = j) (hC : (Cv x).toNat = c) (hj : j < 128) (hc : c < 128) :
    loadIdx (View.readAt (Elt F) (s6WB).view (LoadRect.whole S128x128) fr) ![Tv, Cv] h x = Compute.rowAt fr j c := by
  have e : View.readAt (Elt F) (s6WB).view (LoadRect.whole S128x128) fr = fr := Memref.readAt_whole (Elt F) cc1_scratch6 fr
  rw [e]
  unfold loadIdx Compute.rowAt
  congr 1
  funext a
  match a with
  | ⟨0, _⟩ => exact Fin.ext (by show (Tv x).toNat = j % 128; rw [hT, Nat.mod_eq_of_lt hj])
  | ⟨1, _⟩ => exact Fin.ext (by show (Cv x).toNat = c % 128; rw [hC, Nat.mod_eq_of_lt hc])

/-- The sixteen digits a trip reads: lane `x` of trip `k` reads the digit of row `16 k + x`. -/
theorem i3_lane0 (fi3 : Buf (Elt F) ((s4WB).view.loc (thr d L))) (k : Fin k1_t2_loop.trips)
    (inb : ∀ a, (k1_off4 k) a + S16.size a ≤ S128.size a) (x : S16.Idx) :
    (View.readAt (Elt F) (s4WB).view (Rect.unit (s := S128) (k1_off4 k) S16.size inb).toLoadRect fi3 x).toNat
      = Compute.i3At fi3 (16 * k.val + ln x) := by
  have hk : ∀ k : Fin k1_t2_loop.trips, k1_off4 k 0 = 16 * k.val := by decide +kernel
  have hx := ln_lt x
  have hk8 := trip2_lt k
  unfold Compute.i3At
  show (fi3 ((Rect.unit (s := S128) (k1_off4 k) S16.size inb).toLoadRect.idx x)).toNat = _
  congr 2
  funext a
  match a with
  | ⟨0, _⟩ =>
    apply Fin.ext
    show k1_off4 k 0 + 1 * (x 0).val = (16 * k.val + ln x) % 128
    rw [hk k]; show 16 * k.val + 1 * ln x = _; omega

/-! ## The invariant of the sixty-four stores, on the slot's result scratch -/

theorem inv_top0 {k n : ℕ} (hk : k < 8) (hn : n < 64) {W : ℕ → ℕ → F .f32}
    {f f0 g : Buf (Elt F) ((s8WB).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s8WB).view.writes (Elt F) f0 (⟨Rect.whole S8192, storeIdx g idxs v (fun _ => 1#1) false h⟩ :: Ls)) := by
  have e : (s8WB).view.writes (Elt F) f0 (⟨Rect.whole S8192, storeIdx g idxs v (fun _ => 1#1) false h⟩ :: Ls)
      = storeIdx g idxs v (fun _ => 1#1) false h :=
    writes_whole_cons (F := F) cc1_scratch8 f0 (storeIdx g idxs v (fun _ => 1#1) false h) Ls
  rw [e]; exact Compute.inv_step hk hn hg hidx hv

theorem inv_cov0 {k n : ℕ} (hk : k < 8) (hn : n < 64) {W : ℕ → ℕ → F .f32}
    {f g : Buf (Elt F) ((s8WB).view.loc (thr d L))}
    {idxs : Fin 1 → IVec S16 32} {v : Vec F S16 .f32} {h : ∀ a x, (idxs a x).toNat < S8192.size a}
    (Ls : List (View.Piece (Elt F) S8192 .f32))
    (hg : Compute.Inv k n W f g)
    (hidx : ∀ x, (idxs 0 x).toNat = 64 * (16 * k + ln x) + Compute.colOf (ln x) n)
    (hv : ∀ x, v x = W (16 * k + ln x) (Compute.colOf (ln x) n)) :
    Compute.Inv k (n + 1) W f ((s8WB).view.readCov (⟨Rect.whole S8192, storeIdx g idxs v (fun _ => 1#1) false h⟩ :: Ls) (LoadRect.whole S8192)) := by
  have e : (s8WB).view.readCov (⟨Rect.whole S8192, storeIdx g idxs v (fun _ => 1#1) false h⟩ :: Ls) (LoadRect.whole S8192)
      = storeIdx g idxs v (fun _ => 1#1) false h :=
    readCov_whole_cons (F := F) cc1_scratch8 (storeIdx g idxs v (fun _ => 1#1) false h) Ls
  rw [e]; exact Compute.inv_step hk hn hg hidx hv

theorem inv_base0 (k : ℕ) (W : ℕ → ℕ → F .f32) (f : Buf (Elt F) ((s8WB).view.loc (thr d L))) :
    Compute.Inv k 0 W f (View.readAt (Elt F) (s8WB).view (LoadRect.whole S8192) f) := by
  have e : View.readAt (Elt F) (s8WB).view (LoadRect.whole S8192) f = f := Memref.readAt_whole (Elt F) cc1_scratch8 f
  rw [e]; exact Compute.inv_zero k W f

/-! ## The trip -/

set_option maxHeartbeats 16000000 in
set_option maxRecDepth 65536 in
/-- Trip `k` of the slot's compute loop: from the third-core table, the slot's digits and gathered rows, and a result
    scratch whose first `16 k` rows hold the loop's words, it runs to the end and leaves the first `16 (k + 1)` rows
    holding them, the other three buffers as they were. -/
theorem compute0_trip (O : CellTallies nD τ sig (HIx 1)) (W : Waits sig (HIx 1))
    (fc : Buf (Elt F) ((s1WB).view.loc (thr d L))) (fi3 : Buf (Elt F) ((s4WB).view.loc (thr d L)))
    (fr : Buf (Elt F) ((s6WB).view.loc (thr d L))) (f : Buf (Elt F) ((s8WB).view.loc (thr d L)))
    (v2 : BitVec 32) (k1 : Fin k1_t1_loop.trips) (arg20 v108 : BitVec 32)
    (v117 v119 v123 v127 v131 v135 v139 v141 : IVec S16 32)
    (hL : LiveIn0 v117 v119 v123 v127 v131 v135 v139 v141)
    (hI3 : I3OK fi3)
    (k : Fin k1_t2_loop.trips) (hf : Compute.Done k.val fr fc fi3 f) :
    (iprop(Transfers.MayWaits (thr d L) (none : HIx 1) O
        ∗ ((s1WB).view.loc (thr d L) ↦{fullShare} fc) ∗ ((s4WB).view.loc (thr d L) ↦{fullShare} fi3)
        ∗ ((s6WB).view.loc (thr d L) ↦{fullShare} fr) ∗ ((s8WB).view.loc (thr d L) ↦{fullShare} f)
        ∗ owes (thr d L) O W) : sProp 𝕄)
      ⊢ wp frame (wpE (defs₀ (F := F)) 𝒱₀ (thr d L) none) Set.univ
          (k1_t2_body L idxWB (Memref.isWhole_whole _) ptWB (Memref.isWhole_whole _) ctWB (Memref.isWhole_whole _) outWB (Memref.isWhole_whole _) s0WB (Memref.isWhole_whole _) s1WB (Memref.isWhole_whole _) s2WB (Memref.isWhole_whole _) s3WB (Memref.isWhole_whole _) s4WB (Memref.isWhole_whole _) s5WB (Memref.isWhole_whole _) s6WB (Memref.isWhole_whole _) s7WB (Memref.isWhole_whole _) s8WB (Memref.isWhole_whole _) s9WB (Memref.isWhole_whole _) cc1_scratch10 cc1_scratch11 cc1_scratch12 cc1_scratch13 cc1_scoped0 cc1_scoped1 v2 k1 arg20 v108 v117 v119 v123 v127 v131 v135 v139 v141 k ⟨⟩)
          fun _ => iprop(Transfers.MayWaits (thr d L) (none : HIx 1) O
            ∗ ((s1WB).view.loc (thr d L) ↦{fullShare} fc) ∗ ((s4WB).view.loc (thr d L) ↦{fullShare} fi3)
            ∗ ((s6WB).view.loc (thr d L) ↦{fullShare} fr)
            ∗ (∃ f' : Buf (Elt F) ((s8WB).view.loc (thr d L)), ((s8WB).view.loc (thr d L) ↦{fullShare} f') ∗ ⌜Compute.Done (k.val + 1) fr fc fi3 f'⌝)
            ∗ owes (thr d L) O W) := by
  unfold k1_t2_body
  rw [k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
  unfold k1_part4_skel k1_part5_skel k1_part6_skel k1_part7_skel k1_part8_skel k1_part9_skel k1_part10_skel k1_part11_skel k1_part12_skel k1_part13_skel k1_part14_skel k1_part15_skel k1_part16_skel k1_part17_skel k1_part18_skel k1_part19_skel k1_part20_skel k1_part21_skel k1_part22_skel k1_part23_skel k1_part24_skel k1_part25_skel k1_part26_skel k1_part27_skel k1_part28_skel k1_part29_skel k1_part30_skel k1_part31_skel k1_part32_skel k1_part33_skel k1_part34_skel
  unfold SparseCore.vectorLoadIdx SparseCore.vectorStoreIdx
  iintro ⟨Hmw, H1, H5, H7, H9, HO⟩
  sl_exec (disch := lane_chkB)
  sl_step
  isplitl [Hmw]; · iexact Hmw
  isplitl [H1]; · iexact H1
  isplitl [H5]; · iexact H5
  isplitl [H7]; · iexact H7
  isplitl [H9]
  · iexists _
    isplitl [H9]; · iexact H9
    ipureintro
    have hk : k.val < 8 := trip2_lt k
    refine Compute.done_of_inv hk hf ?_
    -- the vectors that enter the loop are functions of the lane number: from here every index vector of the trip
    -- is a closed term in the trip and the lane
    obtain rfl := eq_laneVec (fun l => l) hL.io
    obtain rfl := eq_laneVec (fun l => l / 8) hL.sh
    obtain rfl := eq_laneVec (fun l => (l + 0) % 8) hL.r0
    obtain rfl := eq_laneVec (fun l => (l + 1) % 8) hL.r1
    obtain rfl := eq_laneVec (fun l => (l + 2) % 8) hL.r2
    obtain rfl := eq_laneVec (fun l => (l + 3) % 8) hL.r3
    obtain rfl := eq_laneVec (fun l => (l + 4) % 8) hL.r4
    obtain rfl := eq_laneVec (fun l => l + 5) hL.p5
    -- the last store, then the sixty-three before it, down to the scratch as the trip found it
    refine inv_top0 d L hk (by omega) _ ?_ ?hidx ?hv
    case hidx => intro x; lane_decB k x
    case hv =>
      intro x
      unfold_run_namesB
      refine word_eq _ _ _ _ _ ?_ ?_ ?_ ?_ ?_ ?_ ?_ ?_ ?_ ?_ ?_ ?_ ?_ ?_ ?_ ?_
      all_goals first
        | (refine row_leaf0 d L fr _ _ _ x _ _ ?_ ?_ ?_ ?_
           · lane_decB k x
           · lane_decB k x
           · have := ln_lt x; omega
           · have := ln_lt x; unfold Compute.colOf; omega)
        | (refine ct_leaf d L fc _ _ _ _ x _ _ _ (i3_lane0 d L fi3 k _ x) (hI3.le _) ?_ ?_ ?_ ?_
           · lane_decB k x
           · omega
           · lane_decB k x
           · omega)
    iterate 63
      refine inv_cov0 d L hk (by omega) _ ?_ ?hidx ?hv
      case hidx => intro x; lane_decB k x
      case hv =>
        intro x
        unfold_run_namesB
        refine word_eq _ _ _ _ _ ?_ ?_ ?_ ?_ ?_ ?_ ?_ ?_ ?_ ?_ ?_ ?_ ?_ ?_ ?_ ?_
        all_goals first
          | (refine row_leaf0 d L fr _ _ _ x _ _ ?_ ?_ ?_ ?_
             · lane_decB k x
             · lane_decB k x
             · have := ln_lt x; omega
             · have := ln_lt x; unfold Compute.colOf; omega)
          | (refine ct_leaf d L fc _ _ _ _ x _ _ _ (i3_lane0 d L fi3 k _ x) (hI3.le _) ?_ ?_ ?_ ?_
             · lane_decB k x
             · omega
             · lane_decB k x
             · omega)
    exact inv_base0 d L _ _ f
  · iexact HO

end Cert.Proof.KB

end
-- ==== Proof.GatherBridgeB.lean ====
/-
  The row gather's flight, from the run's spelling to the loop invariant's. When the executor issues a slot's indirect
  row gather it holds the flight delivering the rows buffer written — one listed write of the gather's payload through
  the whole buffer, over whatever the buffer held —, the row list and the pair table's elements back, and beside it
  the (empty) rest of the pair table's share. The invariant states the same flight with the rows buffer at the rows of
  the pair table the block's quotients name: the two differ by the value of one contents term.
-/
import proofs.«207215_g13752485282153_cont_week2b_1454_30_alg».proof.Proof.TileInvB
import proofs.«207215_g13752485282153_cont_week2b_1454_30_alg».proof.Proof.TileDataB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (d : Dev nD) (L : grid1.Coords) (q0 q1 : PosShare TreeShare)
variable (fi : Buf (Elt F) ((idxWB).view.loc (thr d L))) (fp : Buf (Elt F) ((ptWB).view.loc (thr d L)))

/-- What the run holds after slot 0's row gather of block `b` is issued — the flight delivering the rows buffer with
    the payload `P` written through all of it over its prior contents `f6`, and the pair table's empty rest — is the
    invariant's flight, once `P` is read as the rows the block's quotients name. -/
theorem gflight0_of_run (b : ℕ) (f6 : Buf (Elt F) ((s6WB).view.loc (thr d L))) (P : S128x128.Idx → Elt F .f32)
    (hP : P = ROWS fp (G12 fi (wid L) b)) :
    (iprop(Transfers.Flight countersEmb (thr d L) (SemLoc.dma cc1_scratch10.sem) default 524288
          iprop((((s6WB).view.loc (thr d L) ↦{fullShare} (s6WB).view.writes (Elt F) f6 [⟨Rect.whole cc1_scratch6.ty.shape, P⟩])
              ∗ ((s2WB).view.loc (thr d L) ↦{fullShare} G12 fi (wid L) b))
            ∗ ((ptWB).view.loc (thr d L) ↦[(ptSl).view.set]{q0} fp))
        ∗ ((ptWB).view.loc (thr d L) ↦[Finset.univ \ (ptSl).view.set]{q0} fp)) : sProp 𝕄)
      ⊢ GFlight0 d L q0 fi fp b := by
  subst hP
  rw [show (s6WB).view.writes (Elt F) f6 [⟨Rect.whole cc1_scratch6.ty.shape, ROWS fp (G12 fi (wid L) b)⟩] = ROWS fp (G12 fi (wid L) b)
    from writes_whole_one cc1_scratch6 f6 _]
  unfold GFlight0
  exact Entails.rfl

/-- The same for slot 1: rows buffer 7, row list 3, the second gather semaphore. -/
theorem gflight1_of_run (b : ℕ) (f7 : Buf (Elt F) ((s7WB).view.loc (thr d L))) (P : S128x128.Idx → Elt F .f32)
    (hP : P = ROWS fp (G12 fi (wid L) b)) :
    (iprop(Transfers.Flight countersEmb (thr d L) (SemLoc.dma cc1_scratch11.sem) default 524288
          iprop((((s7WB).view.loc (thr d L) ↦{fullShare} (s7WB).view.writes (Elt F) f7 [⟨Rect.whole cc1_scratch7.ty.shape, P⟩])
              ∗ ((s3WB).view.loc (thr d L) ↦{fullShare} G12 fi (wid L) b))
            ∗ ((ptWB).view.loc (thr d L) ↦[(ptSl).view.set]{q1} fp))
        ∗ ((ptWB).view.loc (thr d L) ↦[Finset.univ \ (ptSl).view.set]{q1} fp)) : sProp 𝕄)
      ⊢ GFlight1 d L q1 fi fp b := by
  subst hP
  rw [show (s7WB).view.writes (Elt F) f7 [⟨Rect.whole cc1_scratch7.ty.shape, ROWS fp (G12 fi (wid L) b)⟩] = ROWS fp (G12 fi (wid L) b)
    from writes_whole_one cc1_scratch7 f7 _]
  unfold GFlight1
  exact Entails.rfl

/-- The invariant's flight laid out as the run's wait reads it (slot 0). -/
theorem gflight0_to_run (b : ℕ) :
    (GFlight0 d L q0 fi fp b : sProp 𝕄)
      ⊢ iprop(Transfers.Flight countersEmb (thr d L) (SemLoc.dma cc1_scratch10.sem) default 524288
          iprop((((s6WB).view.loc (thr d L) ↦{fullShare} ROWS fp (G12 fi (wid L) b)) ∗ ((s2WB).view.loc (thr d L) ↦{fullShare} G12 fi (wid L) b))
            ∗ ((ptWB).view.loc (thr d L) ↦[(ptSl).view.set]{q0} fp))
        ∗ ((ptWB).view.loc (thr d L) ↦[Finset.univ \ (ptSl).view.set]{q0} fp)) := by
  unfold GFlight0; exact Entails.rfl

/-- The invariant's flight laid out as the run's wait reads it (slot 1). -/
theorem gflight1_to_run (b : ℕ) :
    (GFlight1 d L q1 fi fp b : sProp 𝕄)
      ⊢ iprop(Transfers.Flight countersEmb (thr d L) (SemLoc.dma cc1_scratch11.sem) default 524288
          iprop((((s7WB).view.loc (thr d L) ↦{fullShare} ROWS fp (G12 fi (wid L) b)) ∗ ((s3WB).view.loc (thr d L) ↦{fullShare} G12 fi (wid L) b))
            ∗ ((ptWB).view.loc (thr d L) ↦[(ptSl).view.set]{q1} fp))
        ∗ ((ptWB).view.loc (thr d L) ↦[Finset.univ \ (ptSl).view.set]{q1} fp)) := by
  unfold GFlight1; exact Entails.rfl

/-- The same, stated at the gather's own payload term: with the row list's words in range (`hin`) the payload is the
    rows the quotients name, so the run's flight is the invariant's as it stands. -/
theorem gflight0_run (b : ℕ) (f6 : Buf (Elt F) ((s6WB).view.loc (thr d L)))
    (hin : ∀ j, ((s2WB).view.read (Elt F) (G12 fi (wid L) b) j).toNat < S10000x128.size gathers_S10000x128_S128x128.axis) :
    (iprop(Transfers.Flight countersEmb (thr d L) (SemLoc.dma cc1_scratch10.sem) default 524288
          iprop((((s6WB).view.loc (thr d L) ↦{fullShare} (s6WB).view.writes (Elt F) f6 [⟨Rect.whole cc1_scratch6.ty.shape,
                  SparseCore.gatherPayload (F := F) gathers_S10000x128_S128x128 ((ptSl).view.read (Elt F) fp)
                    (SparseCore.rows (F := F) ((s2WB).view.read (Elt F) (G12 fi (wid L) b)) rfl hin)⟩])
              ∗ ((s2WB).view.loc (thr d L) ↦{fullShare} G12 fi (wid L) b))
            ∗ ((ptWB).view.loc (thr d L) ↦[(ptSl).view.set]{q0} fp))
        ∗ ((ptWB).view.loc (thr d L) ↦[Finset.univ \ (ptSl).view.set]{q0} fp)) : sProp 𝕄)
      ⊢ GFlight0 d L q0 fi fp b :=
  gflight0_of_run d L q0 fi fp b f6 _ (gather_rows fp _ _ hin)

theorem gflight1_run (b : ℕ) (f7 : Buf (Elt F) ((s7WB).view.loc (thr d L)))
    (hin : ∀ j, ((s3WB).view.read (Elt F) (G12 fi (wid L) b) j).toNat < S10000x128.size gathers_S10000x128_S128x128.axis) :
    (iprop(Transfers.Flight countersEmb (thr d L) (SemLoc.dma cc1_scratch11.sem) default 524288
          iprop((((s7WB).view.loc (thr d L) ↦{fullShare} (s7WB).view.writes (Elt F) f7 [⟨Rect.whole cc1_scratch7.ty.shape,
                  SparseCore.gatherPayload (F := F) gathers_S10000x128_S128x128 ((ptSl).view.read (Elt F) fp)
                    (SparseCore.rows (F := F) ((s3WB).view.read (Elt F) (G12 fi (wid L) b)) rfl hin)⟩])
              ∗ ((s3WB).view.loc (thr d L) ↦{fullShare} G12 fi (wid L) b))
            ∗ ((ptWB).view.loc (thr d L) ↦[(ptSl).view.set]{q1} fp))
        ∗ ((ptWB).view.loc (thr d L) ↦[Finset.univ \ (ptSl).view.set]{q1} fp)) : sProp 𝕄)
      ⊢ GFlight1 d L q1 fi fp b :=
  gflight1_of_run d L q1 fi fp b f7 _ (gather_rows' fp _ _ hin)

end Cert.Proof.KB

end
-- ==== Proof.OSStepB.lean ====
/-
  The copy-out side of one outer trip of a vector subcore, as statements about what it holds of the flat result.
  Trip k issues two copies, slot 0's out scratch into block 2 k and slot 1's into block 2 k + 1, after the two copies of
  the trip before have landed in blocks 2 (k − 1) and 2 (k − 1) + 1. The 104 blocks of the subcore's words are pairwise
  disjoint, so: the two landed windows and what was left of the region rejoin to the region less the two new blocks; off
  those two blocks the new writes change nothing; on a block just written the contents are the scratch's words whatever
  was there before. Hence the two flights and the rest are the loop invariant's copy-out side for the next trip, and the
  blocks below 2 k hold the kernel's words.
-/
import proofs.«207215_g13752485282153_cont_week2b_1454_30_alg».proof.Proof.CommonB
import proofs.«207215_g13752485282153_cont_week2b_1454_30_alg».proof.Proof.TileInvB
import proofs.«207215_g13752485282153_cont_week2b_1454_30_alg».proof.Proof.TileInv2B
import proofs.«207215_g13752485282153_cont_week2b_1454_30_alg».proof.Proof.CopyOutB
import proofs.«207215_g13752485282153_cont_week2b_1454_30_alg».proof.Proof.OutBlocks3B

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (d : Dev nD) (L : grid1.Coords) (q q0 q1 : PosShare TreeShare)
variable (fi : Buf (Elt F) ((idxWB).view.loc (thr d L))) (fp : Buf (Elt F) ((ptWB).view.loc (thr d L)))
  (fc : Buf (Elt F) ((ctWB).view.loc (thr d L)))
variable (O : CellTallies nD τ sig (HIx 1)) (W : Waits sig (HIx 1))

/-! ## Blocks of different numbers are disjoint; each lies in the subcore's words -/

omit [FloatOps F] in
theorem sub_sdiff2 {α : Type} [DecidableEq α] {s r a b : Finset α} (hr : s ⊆ r) (ha : Disjoint s a) (hb : Disjoint s b) :
    s ⊆ (r \ a) \ b :=
  Finset.subset_sdiff.mpr ⟨Finset.subset_sdiff.mpr ⟨hr, ha⟩, hb⟩

omit [FloatOps F] in
theorem sdiff_comm4 {α : Type} [DecidableEq α] (r a b c e : Finset α) : (((r \ a) \ b) \ c) \ e = (((r \ c) \ e) \ a) \ b := by
  ext i; simp only [Finset.mem_sdiff]; tauto

omit [FloatOps F] in
theorem sub_sdiff3 {α : Type} [DecidableEq α] {s r a b c : Finset α} (hr : s ⊆ r) (ha : Disjoint s a) (hb : Disjoint s b)
    (hc : Disjoint s c) : s ⊆ ((r \ a) \ b) \ c :=
  Finset.subset_sdiff.mpr ⟨sub_sdiff2 hr ha hb, hc⟩

omit [FloatOps F] in
theorem blkD (b b' : ℕ) (hb : b < 104) (hb' : b' < 104) (hne : b ≠ b') : Disjoint (blkSet L b) (blkSet L b') :=
  blk_disjoint L b (Finset.mem_range.mpr hb) b' (Finset.mem_range.mpr hb') hne

omit [FloatOps F] in
theorem os_blk0_reg (t : Fin k1_t1_loop.trips) : (blk0 L t).view.set ⊆ (outWB).view.setOn (oRectC L).set := by
  rw [← oSet_eq_oReg, ← even_union_odd]
  exact (blk0_sub_even L t).trans Finset.subset_union_left

omit [FloatOps F] in
theorem os_blk1_reg (t : Fin k1_t1_loop.trips) : (blk1 L t).view.set ⊆ (outWB).view.setOn (oRectC L).set := by
  rw [← oSet_eq_oReg, ← even_union_odd]
  exact (blk1_sub_odd L t).trans Finset.subset_union_right

omit [FloatOps F] in
theorem os_d00 (t t' : Fin k1_t1_loop.trips) (h : t.val ≠ t'.val) : Disjoint (blk0 L t).view.set (blk0 L t').view.set := by
  rw [blk0_set, blk0_set]; have := trip_lt t; have := trip_lt t'
  exact blkD L _ _ (by omega) (by omega) (by omega)

omit [FloatOps F] in
theorem os_d11 (t t' : Fin k1_t1_loop.trips) (h : t.val ≠ t'.val) : Disjoint (blk1 L t).view.set (blk1 L t').view.set := by
  rw [blk1_set, blk1_set]; have := trip_lt t; have := trip_lt t'
  exact blkD L _ _ (by omega) (by omega) (by omega)

omit [FloatOps F] in
theorem os_d01 (t t' : Fin k1_t1_loop.trips) : Disjoint (blk0 L t).view.set (blk1 L t').view.set := by
  rw [blk0_set, blk1_set]; have := trip_lt t; have := trip_lt t'
  exact blkD L _ _ (by omega) (by omega) (by omega)

omit [FloatOps F] in
theorem tOf_val (k : Fin k1_t1_loop.trips) (hk0 : k.val ≠ 0) : (tOf k.val).val = k.val - 1 := by
  have h := trip_lt k
  show (k.val - 1) % 52 = k.val - 1
  omega

/-! ## What the two by-hand issues of trip k ask: the new blocks lie in what is held -/

omit [FloatOps F] in
/-- Slot 0's new block lies in the region less the previous trip's two blocks. -/
theorem blk0_sub_R (k : Fin k1_t1_loop.trips) (hk0 : k.val ≠ 0) :
    (blk0 L k).view.set ⊆ ((outWB).view.setOn (oRectC L).set \ (blk0 L (tOf k.val)).view.set) \ (blk1 L (tOf k.val)).view.set := by
  have hp := tOf_val k hk0
  exact sub_sdiff2 (os_blk0_reg L k) (os_d00 L k (tOf k.val) (by omega)) (os_d01 L k (tOf k.val))

omit [FloatOps F] in
/-- Slot 1's new block lies in that, less slot 0's new block. -/
theorem blk1_sub_R' (k : Fin k1_t1_loop.trips) (hk0 : k.val ≠ 0) :
    (blk1 L k).view.set ⊆ (((outWB).view.setOn (oRectC L).set \ (blk0 L (tOf k.val)).view.set) \ (blk1 L (tOf k.val)).view.set) \ (blk0 L k).view.set := by
  have hp := tOf_val k hk0
  exact sub_sdiff3 (os_blk1_reg L k) (os_d01 L (tOf k.val) k).symm (os_d11 L k (tOf k.val) (by omega)) (os_d01 L k k).symm

omit [FloatOps F] in
/-- On the first trip the region is whole: slot 0's block lies in it. -/
theorem blk0_sub_reg0 (k : Fin k1_t1_loop.trips) : (blk0 L k).view.set ⊆ (outWB).view.setOn (oRectC L).set := os_blk0_reg L k

omit [FloatOps F] in
/-- On the first trip: slot 1's block lies in the region less slot 0's. -/
theorem blk1_sub_reg0 (k : Fin k1_t1_loop.trips) : (blk1 L k).view.set ⊆ (outWB).view.setOn (oRectC L).set \ (blk0 L k).view.set :=
  Finset.subset_sdiff.mpr ⟨os_blk1_reg L k, (os_d01 L k k).symm⟩

/-! ## Contents: a block just written holds the scratch's words; off the written blocks nothing changes -/

omit [FloatOps F] in
/-- On slot 1's block the written contents do not depend on what was there. -/
theorem wr1_on_blk1 (k : Fin k1_t1_loop.trips) (f f' : Buf (Elt F) ((outWB).view.loc (thr d L)))
    (g : Buf (Elt F) ((s9WB).view.loc (thr d L))) :
    ∀ i ∈ (blk1 L k).view.set, wr1 d L k f g i = wr1 d L k f' g i := by
  intro i hi
  obtain ⟨x, -, rfl⟩ := Finset.mem_map.mp hi
  exact (View.write_emb_of_mem _ _ (Finset.mem_univ x)).trans (View.write_emb_of_mem _ _ (Finset.mem_univ x)).symm

omit [FloatOps F] in
/-- Off both new blocks the two writes of trip k change nothing. -/
theorem wr_off (k : Fin k1_t1_loop.trips) (C : Buf (Elt F) ((outWB).view.loc (thr d L)))
    (g0 : Buf (Elt F) ((s8WB).view.loc (thr d L))) (g1 : Buf (Elt F) ((s9WB).view.loc (thr d L))) :
    ∀ i ∈ ((outWB).view.setOn (oRectC L).set \ (blk0 L k).view.set) \ (blk1 L k).view.set, C i = wr1 d L k (wr0 d L k C g0) g1 i := by
  intro i hi
  obtain ⟨hi0, hn1⟩ := Finset.mem_sdiff.mp hi
  obtain ⟨-, hn0⟩ := Finset.mem_sdiff.mp hi0
  exact ((View.write_of_not_mem (v := (blk1 L k).view) _ _ Finset.univ (fun hm => hn1 (by rwa [View.setOn_univ] at hm))).trans
    (View.write_of_not_mem (v := (blk0 L k).view) _ _ Finset.univ (fun hm => hn0 (by rwa [View.setOn_univ] at hm)))).symm

/-! ## The two flights as the invariant holds them -/

/-- The words slot 0's out scratch holds at the end of trip `t`: block 2 t's. -/
abbrev og0 (t : Fin k1_t1_loop.trips) : Buf (Elt F) ((s8WB).view.loc (thr d L)) := OUTS fi fp fc (wid L) (2 * t.val + 0)
/-- The words slot 1's out scratch holds at the end of trip `t`: block 2 t + 1's. -/
abbrev og1 (t : Fin k1_t1_loop.trips) : Buf (Elt F) ((s9WB).view.loc (thr d L)) := OUTS fi fp fc (wid L) (2 * t.val + 1)
/-- The result's contents at the head of trip `k`'s copy-outs: `fo` after the previous trip's two writes. -/
abbrev oC (k : Fin k1_t1_loop.trips) (fo : Buf (Elt F) ((outWB).view.loc (thr d L))) : Buf (Elt F) ((outWB).view.loc (thr d L)) :=
  wr1 d L (tOf k.val) (wr0 d L (tOf k.val) fo (og0 d L fi fp fc (tOf k.val))) (og1 d L fi fp fc (tOf k.val))

/-- From the two copies issued by hand on trip k over contents C, and the region less the two new blocks at C: the
    invariant's two flights and rest for the next loop head. -/
theorem os_core (k : Fin k1_t1_loop.trips) (C : Buf (Elt F) ((outWB).view.loc (thr d L)))
    (g0 : Buf (Elt F) ((s8WB).view.loc (thr d L))) (g1 : Buf (Elt F) ((s9WB).view.loc (thr d L))) :
    (iprop(CopyFlight0 d L k C g0 ∗ CopyFlight1 d L k C g1
        ∗ ((outWB).view.loc (thr d L) ↦[((outWB).view.setOn (oRectC L).set \ (blk0 L k).view.set) \ (blk1 L k).view.set]{fullShare} C)) : sProp 𝕄)
      ⊢ iprop(OFlight0 d L k C g0 ∗ OFlight1 d L k (wr0 d L k C g0) g1
          ∗ ORest d L (((outWB).view.setOn (oRectC L).set \ (blk0 L k).view.set) \ (blk1 L k).view.set) (wr1 d L k (wr0 d L k C g0) g1)) := by
  have e1 : ((outWB).view.loc (thr d L) ↦[(blk1 L k).view.set]{fullShare} wr1 d L k C g1 : sProp 𝕄)
      = ((outWB).view.loc (thr d L) ↦[(blk1 L k).view.set]{fullShare} wr1 d L k (wr0 d L k C g0) g1) :=
    pointsTo_congr (wr1_on_blk1 d L k _ _ g1)
  have e8 : ((s8WB).view.loc (thr d L) ↦[Finset.univ \ (s8WB).view.set]{fullShare} g0 : sProp 𝕄) = (iprop(emp) : sProp 𝕄) := by
    rw [(Memref.isWhole_whole _).set_eq_univ (m := s8WB), Finset.sdiff_self, pointsTo_empty]
  have e9 : ((s9WB).view.loc (thr d L) ↦[Finset.univ \ (s9WB).view.set]{fullShare} g1 : sProp 𝕄) = (iprop(emp) : sProp 𝕄) := by
    rw [(Memref.isWhole_whole _).set_eq_univ (m := s9WB), Finset.sdiff_self, pointsTo_empty]
  unfold CopyFlight0 CopyFlight1 OFlight0 OFlight1 ORest
  rw [e8, e9, ← e1]
  iintro ⟨HA, HB, HR⟩
  isplitl [HA]
  · isplitl [HA]; · iexact HA
    iempintro
  isplitl [HB]
  · isplitl [HB]
    · iexact HB
    · iempintro
  · iapply (Entails.of_eq (pointsTo_congr (ℓ := (outWB).view.loc (thr d L)) (wr_off d L k C g0 g1))) $$ HR

/-- THE FIRST TRIP: nothing has landed, the region is whole at `fo`. -/
theorem os_step_first (k : Fin k1_t1_loop.trips) (fo : Buf (Elt F) ((outWB).view.loc (thr d L))) :
    (iprop(CopyFlight0 d L k fo (og0 d L fi fp fc k) ∗ CopyFlight1 d L k fo (og1 d L fi fp fc k)
        ∗ ((outWB).view.loc (thr d L) ↦[((outWB).view.setOn (oRectC L).set \ (blk0 L k).view.set) \ (blk1 L k).view.set]{fullShare} fo)) : sProp 𝕄)
      ⊢ iprop(OFlight0 d L k fo (og0 d L fi fp fc k)
          ∗ OFlight1 d L k (wr0 d L k fo (og0 d L fi fp fc k)) (og1 d L fi fp fc k)
          ∗ ORest d L (((outWB).view.setOn (oRectC L).set \ (blk0 L k).view.set) \ (blk1 L k).view.set)
              (wr1 d L k (wr0 d L k fo (og0 d L fi fp fc k)) (og1 d L fi fp fc k))) :=
  os_core d L k fo _ _

set_option maxHeartbeats 2000000 in
/-- A LATER TRIP k: the previous trip's two windows have landed (slot 0's at the contents its own write left, slot 1's at
    the contents C after both), the two new copies are issued over C, and what is left of the region is at C: the
    invariant's copy-out side for loop head k + 1, over C. -/
theorem os_step (k : Fin k1_t1_loop.trips) (hk0 : k.val ≠ 0) (fo : Buf (Elt F) ((outWB).view.loc (thr d L))) :
    (iprop(CopyFlight0 d L k (oC d L fi fp fc k fo) (og0 d L fi fp fc k)
        ∗ CopyFlight1 d L k (oC d L fi fp fc k fo) (og1 d L fi fp fc k)
        ∗ ((outWB).view.loc (thr d L) ↦[(blk0 L (tOf k.val)).view.set]{fullShare} wr0 d L (tOf k.val) fo (og0 d L fi fp fc (tOf k.val)))
        ∗ ((outWB).view.loc (thr d L) ↦[(blk1 L (tOf k.val)).view.set]{fullShare} oC d L fi fp fc k fo)
        ∗ ((outWB).view.loc (thr d L) ↦[(((((outWB).view.setOn (oRectC L).set \ (blk0 L (tOf k.val)).view.set) \ (blk1 L (tOf k.val)).view.set) \ (blk0 L k).view.set) \ (blk1 L k).view.set)]{fullShare}
            oC d L fi fp fc k fo)) : sProp 𝕄)
      ⊢ iprop(OFlight0 d L k (oC d L fi fp fc k fo) (og0 d L fi fp fc k)
          ∗ OFlight1 d L k (wr0 d L k (oC d L fi fp fc k fo) (og0 d L fi fp fc k)) (og1 d L fi fp fc k)
          ∗ ORest d L (((outWB).view.setOn (oRectC L).set \ (blk0 L k).view.set) \ (blk1 L k).view.set)
              (wr1 d L k (wr0 d L k (oC d L fi fp fc k fo) (og0 d L fi fp fc k)) (og1 d L fi fp fc k))) := by
  have hp := tOf_val k hk0
  -- the previous trip's blocks lie in the region less the two new ones
  have h0T : (blk0 L (tOf k.val)).view.set ⊆ ((outWB).view.setOn (oRectC L).set \ (blk0 L k).view.set) \ (blk1 L k).view.set :=
    sub_sdiff2 (os_blk0_reg L (tOf k.val)) (os_d00 L (tOf k.val) k (by omega)) (os_d01 L (tOf k.val) k)
  have h1T : (blk1 L (tOf k.val)).view.set ⊆ (((outWB).view.setOn (oRectC L).set \ (blk0 L k).view.set) \ (blk1 L k).view.set) \ (blk0 L (tOf k.val)).view.set :=
    sub_sdiff3 (os_blk1_reg L (tOf k.val)) (os_d01 L k (tOf k.val)).symm (os_d11 L (tOf k.val) k (by omega)) (os_d01 L (tOf k.val) (tOf k.val)).symm
  have hset : (((((outWB).view.setOn (oRectC L).set \ (blk0 L (tOf k.val)).view.set) \ (blk1 L (tOf k.val)).view.set) \ (blk0 L k).view.set) \ (blk1 L k).view.set)
      = ((((outWB).view.setOn (oRectC L).set \ (blk0 L k).view.set) \ (blk1 L k).view.set) \ (blk0 L (tOf k.val)).view.set) \ (blk1 L (tOf k.val)).view.set :=
    sdiff_comm4 _ _ _ _ _
  -- on slot 0's previous block, slot 1's previous write changed nothing
  have hW0 : ∀ i ∈ (blk0 L (tOf k.val)).view.set,
      wr0 d L (tOf k.val) fo (og0 d L fi fp fc (tOf k.val)) i = oC d L fi fp fc k fo i :=
    fun i hi => (View.write_of_not_mem (v := (blk1 L (tOf k.val)).view) _ _ Finset.univ (fun hm =>
      Finset.disjoint_left.mp (os_d01 L (tOf k.val) (tOf k.val)) hi (by rwa [View.setOn_univ] at hm))).symm
  rw [hset]
  iintro ⟨HA, HB, HW0, HW1, HRr⟩
  ihave HW0' := (Entails.of_eq (pointsTo_congr (ℓ := (outWB).view.loc (thr d L)) hW0)) $$ HW0
  ihave H1 := ((pointsTo_split_subset (ℓ := (outWB).view.loc (thr d L)) h1T).2) $$ [HW1 HRr]
  · isplitl [HW1]; · iexact HW1
    iexact HRr
  ihave HT := ((pointsTo_split_subset (ℓ := (outWB).view.loc (thr d L)) h0T).2) $$ [HW0' H1]
  · isplitl [HW0']; · iexact HW0'
    iexact H1
  iapply (os_core d L k _ _ _) $$ [HA HB HT]
  isplitl [HA]; · iexact HA
  isplitl [HB]; · iexact HB
  iexact HT

/-! ## The pure part: the blocks below 2 k hold the kernel's words after the previous trip's two writes -/

theorem os_blocks (k : Fin k1_t1_loop.trips) (hk0 : k.val ≠ 0) (fo : Buf (Elt F) ((outWB).view.loc (thr d L)))
    (hprev : ∀ b, b < 2 * (k.val - 1) → BlockOK fi fp fc (wid L) b fo) :
    ∀ b, b < 2 * k.val → BlockOK fi fp fc (wid L) b (oC d L fi fp fc k fo) := by
  have hp := tOf_val k hk0
  intro b hb
  exact blockOK_trip d L fi fp fc (tOf k.val) fo _ _ rfl rfl (fun b' hb' => hprev b' (by rw [hp] at hb'; exact hb')) b (by rw [hp]; omega)

end Cert.Proof.KB

end
-- ==== Proof.LoopExitB.lean ====
/-
  The exit of the outer loop of one vector subcore. After the last of the 52 trips both slots' gather sides are idle and
  the two copy-outs of that trip's blocks 102 and 103 are outstanding. The kernel's two closing waits, each naming the
  subcore's first block, lower the two copy-out counters by one block's credit: the two blocks land, the subcore's words
  of the result are whole again at the contents the last two writes leave, and with the 102 blocks the invariant
  records, all 104 blocks hold the kernel's words.
-/
import proofs.«207215_g13752485282153_cont_week2b_1454_30_alg».proof.Proof.CommonB
import proofs.«207215_g13752485282153_cont_week2b_1454_30_alg».proof.Proof.TileInvB
import proofs.«207215_g13752485282153_cont_week2b_1454_30_alg».proof.Proof.TileInv2B
import proofs.«207215_g13752485282153_cont_week2b_1454_30_alg».proof.Proof.CopyOutB
import proofs.«207215_g13752485282153_cont_week2b_1454_30_alg».proof.Proof.OutBlocks3B

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (d : Dev nD) (L : grid1.Coords) (q q0 q1 : PosShare TreeShare)
variable (fi : Buf (Elt F) ((idxWB).view.loc (thr d L))) (fp : Buf (Elt F) ((ptWB).view.loc (thr d L)))
  (fc : Buf (Elt F) ((ctWB).view.loc (thr d L)))
variable (O : CellTallies nD τ sig (HIx 1)) (W : Waits sig (HIx 1))

/-- The first block of the subcore's words, as the two closing waits name it. -/
abbrev blkFirst : Memref sig .scVector .hbm S8192 .f32 :=
  (outWB).slice (Rect.unit (s := S27262976) (k1_off9 L) S8192.size (k1_off9_inb L)) (fun _ => rfl)

/-- The kernel's closing statements after the outer loop: the two waits for the last trip's copy-outs, and the return. -/
def exitTail : Prog (TpuEff nD τ sig (Elt F) Λ₀ (thr d L).2) PUnit := do
  let v103 : Memref sig .scVector .hbm S8192 .f32 := (outWB).slice (Rect.unit (s := S27262976) (k1_off9 L) S8192.size (k1_off9_inb L)) (fun _ => rfl)
  Prog.lift (.waitDma2 cc1_scratch12.sem s8WB v103 (Memref.isWhole_whole _).wordExact (View.wordExact_bits rfl))
  let v106 : Memref sig .scVector .hbm S8192 .f32 := (outWB).slice (Rect.unit (s := S27262976) (k1_off9 L) S8192.size (k1_off9_inb L)) (fun _ => rfl)
  Prog.lift (.waitDma2 cc1_scratch13.sem s9WB v106 (Memref.isWhole_whole _).wordExact (View.wordExact_bits rfl))
  pure ⟨⟩

/-- The four semaphores of the loop (two gather, two copy-out), counters at zero. -/
def semsZero4 : sProp 𝕄 :=
  iprop(semVal (thr d L, SemLoc.dma cc1_scratch10.sem) 0 ∗ semVal (thr d L, SemLoc.dma cc1_scratch11.sem) 0
    ∗ semVal (thr d L, SemLoc.dma cc1_scratch12.sem) 0 ∗ semVal (thr d L, SemLoc.dma cc1_scratch13.sem) 0)

/-- What the subcore holds at the return: the read shares back, its words of the result holding the kernel's words, its
    scratch at anything, the loop's four semaphores at zero, and what it owes. -/
def ExitPost (_ : PUnit) : sProp 𝕄 :=
  iprop(Transfers.MayWaits (thr d L) (none : HIx 1) O
    ∗ ((idxWB).view.loc (thr d L) ↦{q} fi) ∗ ((ptWB).view.loc (thr d L) ↦{q0} fp) ∗ ((ptWB).view.loc (thr d L) ↦{q1} fp)
    ∗ ((ctWB).view.loc (thr d L) ↦{q} fc)
    ∗ (∃ f : Buf (Elt F) ((outWB).view.loc (thr d L)), ((outWB).view.loc (thr d L) ↦[oSet L]{fullShare} f) ∗ ⌜TileSpec.OutOK (F := F) fi fp fc (wid L) f⌝)
    ∗ scratchAny d L ∗ semsZero4 d L ∗ ∃ W', ⌜∀ p ∈ W', p ∈ W ∨ p.2 = none⌝ ∗ owes (thr d L) O W')

omit [FloatOps F] in
theorem tOf52 : ((tOf 52 : Fin k1_t1_loop.trips) : ℕ) = 51 := rfl

/-- The closing statements in head form: the first wait, then the second, then the return. -/
theorem exitTail_eq :
    exitTail (F := F) d L
      = .op (.waitDma2 cc1_scratch12.sem s8WB (blkFirst L) (Memref.isWhole_whole _).wordExact (View.wordExact_bits rfl))
          (fun _ => .op (.waitDma2 cc1_scratch13.sem s9WB (blkFirst L) (Memref.isWhole_whole _).wordExact (View.wordExact_bits rfl))
            (fun _ => .ret ⟨⟩)) := rfl

omit [FloatOps F] in
/-- A block of 8192 words credits 8192 · 32 bits, whichever block it is. -/
theorem blkFirst_credit : (blkFirst L).view.dmaCredit = 262144 := rfl

omit [FloatOps F] in
theorem blk0_sub_reg (t : Fin k1_t1_loop.trips) : (blk0 L t).view.set ⊆ (outWB).view.setOn (oRectC L).set := by
  rw [← oSet_eq_oReg, ← even_union_odd]
  exact (blk0_sub_even L t).trans Finset.subset_union_left

omit [FloatOps F] in
theorem blk01_disjoint (t : Fin k1_t1_loop.trips) : Disjoint (blk0 L t).view.set (blk1 L t).view.set :=
  Finset.disjoint_of_subset_left (blk0_sub_even L t) (Finset.disjoint_of_subset_right (blk1_sub_odd L t) (even_odd_disjoint L))

omit [FloatOps F] in
theorem blk1_sub_reg (t : Fin k1_t1_loop.trips) :
    (blk1 L t).view.set ⊆ (outWB).view.setOn (oRectC L).set \ (blk0 L t).view.set := by
  intro i hi
  refine Finset.mem_sdiff.mpr ⟨?_, fun h0 => Finset.disjoint_left.mp (blk01_disjoint L t) h0 hi⟩
  rw [← oSet_eq_oReg, ← even_union_odd]
  exact Finset.mem_union_right _ (blk1_sub_odd L t hi)

/-- THE EXIT: from the invariant after the last trip, the two closing waits land the last trip's two blocks, the subcore's
    words are whole again and every one of its 104 blocks holds the kernel's words. -/
theorem loop_exit :
    KB.Inv d L q q0 q1 fi fp fc O W 52 ⟨⟩
      ⊢ wp frame (wpE (defs₀ (F := F)) 𝒱₀ (thr d L) none) Set.univ (exitTail (F := F) d L) (ExitPost d L q q0 q1 fi fp fc O W) := by
  rw [exitTail_eq]
  unfold KB.Inv
  rw [GSide0_ge d L q0 fi fp (show ¬ (52 < 52) by decide), OS_pos d L fi fp fc (show (52 : ℕ) ≠ 0 by decide)]
  unfold Base KB.Owes GIdle0 D3Any0 GIdle1 D3Any1 OFlight0 OFlight1 ORest
  iintro ⟨⟨#Hmw, Hi, Hc, H0, H1⟩, ⟨⟨H6, H2, Hp0, Hg0⟩, H4⟩, ⟨H7, H3, Hp1, Hg1⟩, H5, ⟨%fo, %hprev, ⟨HF0, Hr8⟩, ⟨HF1, Hr9⟩, HR⟩, ⟨%W', %hW', HO⟩⟩
  -- the first wait: slot 0's copy-out of the last trip lands
  iapply (Transfers.wp_waitLocalO countersEmb 𝒱₀ (thr d L) none (none : HIx 1) (blkFirst_credit L)) $$ [HF0 HO]
  · isplitl [HF0]; · iexact HF0
    isplitl [HO]; · iexact HO
    iapply (Transfers.MayWaits.elim (SemLoc.dma cc1_scratch12.sem)) $$ Hmw
  iintro ⟨⟨Hd0, Hs8⟩, Hv12, HO⟩
  -- the second wait: slot 1's
  iapply (Transfers.wp_waitLocalO countersEmb 𝒱₀ (thr d L) none (none : HIx 1) (blkFirst_credit L)) $$ [HF1 HO]
  · isplitl [HF1]; · iexact HF1
    isplitl [HO]; · iexact HO
    iapply (Transfers.MayWaits.elim (SemLoc.dma cc1_scratch13.sem)) $$ Hmw
  iintro ⟨⟨Hd1, Hs9⟩, Hv13, HO⟩
  -- the contents after both copy-outs, block by block
  have ht : ((tOf 52 : Fin k1_t1_loop.trips) : ℕ) = 51 := tOf52
  have hall : ∀ b, b < 104 → BlockOK fi fp fc (wid L) b
      (wr1 d L (tOf 52) (wr0 d L (tOf 52) fo (OUTS fi fp fc (wid L) (2 * (tOf 52).val + 0))) (OUTS fi fp fc (wid L) (2 * (tOf 52).val + 1))) :=
    fun b hb => blockOK_trip d L fi fp fc (tOf 52) fo _ _ rfl rfl (fun b' hb' => hprev b' (by rw [ht] at hb'; omega)) b (by rw [ht]; omega)
  have hOutOK := outOK_of_blocks fi fp fc (wid L) _ hall
  -- off slot 1's block the second write changes nothing: slot 0's block is at the final contents
  have hagree : ∀ i ∈ (blk0 L (tOf 52)).view.set,
      wr0 d L (tOf 52) fo (OUTS fi fp fc (wid L) (2 * (tOf 52).val + 0)) i
        = wr1 d L (tOf 52) (wr0 d L (tOf 52) fo (OUTS fi fp fc (wid L) (2 * (tOf 52).val + 0))) (OUTS fi fp fc (wid L) (2 * (tOf 52).val + 1)) i :=
    fun i hi => (View.write_of_not_mem (v := (blk1 L (tOf 52)).view) _ _ Finset.univ (fun hm =>
      Finset.disjoint_left.mp (blk01_disjoint L (tOf 52)) hi (by rwa [View.setOn_univ] at hm))).symm
  -- the subcore's words whole again
  ihave HRa := ((pointsTo_split_subset (ℓ := (outWB).view.loc (thr d L)) (blk1_sub_reg L (tOf 52))).2) $$ [Hd1 HR]
  · isplitl [Hd1]; · iexact Hd1
    iexact HR
  ihave Hd0' := (Entails.of_eq (pointsTo_congr (ℓ := (outWB).view.loc (thr d L)) hagree)) $$ Hd0
  ihave Hall := ((pointsTo_split_subset (ℓ := (outWB).view.loc (thr d L)) (blk0_sub_reg L (tOf 52))).2) $$ [Hd0' HRa]
  · isplitl [Hd0']; · iexact Hd0'
    iexact HRa
  iclear Hr8 Hr9
  iapply (le_wp_ret _ _)
  unfold ExitPost scratchAny semsZero4
  isplitl []; · iexact Hmw
  isplitl [Hi]; · iexact Hi
  isplitl [Hp0]; · iexact Hp0
  isplitl [Hp1]; · iexact Hp1
  isplitl [Hc]; · iexact Hc
  isplitl [Hall]
  · iexists _
    isplitl [Hall]
    · rw [oPts_oReg]; iexact Hall
    · ipureintro; exact hOutOK
  isplitl [H0 H1 H2 H3 H4 H5 H6 H7 Hs8 Hs9]
  · isplitl [H0]; · iexists _; iexact H0
    isplitl [H1]; · iexists _; iexact H1
    isplitl [H2]; · iexact H2
    isplitl [H3]; · iexact H3
    isplitl [H4]; · iexact H4
    isplitl [H5]; · iexact H5
    isplitl [H6]; · iexact H6
    isplitl [H7]; · iexact H7
    isplitl [Hs8]
    · iexists _; rw [(Memref.isWhole_whole _).set_eq_univ (m := s8WB)]; iexact Hs8
    · iexists _; rw [(Memref.isWhole_whole _).set_eq_univ (m := s9WB)]; iexact Hs9
  isplitl [Hg0 Hg1 Hv12 Hv13]
  · isplitl [Hg0]; · iexact Hg0
    isplitl [Hg1]; · iexact Hg1
    isplitl [Hv12]; · iexact Hv12
    iexact Hv13
  iexists (insert (SemLoc.dma cc1_scratch13.sem, (none : HIx 1)) (insert (SemLoc.dma cc1_scratch12.sem, (none : HIx 1)) W'))
  isplitr
  · ipureintro
    intro p hp
    rcases Finset.mem_insert.mp hp with rfl | hp
    · exact Or.inr rfl
    rcases Finset.mem_insert.mp hp with rfl | hp
    · exact Or.inr rfl
    exact hW' p hp
  · iexact HO

end Cert.Proof.KB

end
-- ==== Proof.TileRunProofB.lean ====
import proofs.«207215_g13752485282153_cont_week2b_1454_30_alg».proof.Proof.CommonB
import proofs.«207215_g13752485282153_cont_week2b_1454_30_alg».proof.Proof.TileInv2B
import proofs.«207215_g13752485282153_cont_week2b_1454_30_alg».proof.Proof.TileData2B
import proofs.«207215_g13752485282153_cont_week2b_1454_30_alg».proof.Proof.OutBlocks3B
import proofs.«207215_g13752485282153_cont_week2b_1454_30_alg».proof.Proof.ComputeLoopB
import proofs.«207215_g13752485282153_cont_week2b_1454_30_alg».proof.Proof.Compute0B
import proofs.«207215_g13752485282153_cont_week2b_1454_30_alg».proof.Proof.Compute1B
import proofs.«207215_g13752485282153_cont_week2b_1454_30_alg».proof.Proof.GatherBridgeB
import proofs.«207215_g13752485282153_cont_week2b_1454_30_alg».proof.Proof.OSStepB
import proofs.«207215_g13752485282153_cont_week2b_1454_30_alg».proof.Proof.LoopExitB
/-
  The tile kernel on one vector subcore, run from its head to its end.

  Prologue: the subcore copies its 13312 index words and the third-core table into scratch, splits the first block's
  128 words into their digits (n / 100 for the row list, n % 100 for the digit list) and issues the row gather of
  block 0. Outer loop, 52 trips of two half-steps (slot 0 handles block 2 k, slot 1 block 2 k + 1): each half-step
  first prefetches the other slot's next block (digit split and row gather), waits for its own rows, waits for its
  own previous copy-out (none in the first trip), computes its block in the eight-trip inner loop and issues the
  copy of its 8192 words to the result. The invariant at the head of trip k says which gather and which copy-outs
  are outstanding and that blocks 0 … 2 (k − 1) − 1 of the subcore's words already hold the kernel's words. After the
  loop the last two copy-outs are waited for and every block holds its words.
-/

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

omit [FloatOps F] in
/-- A points-to at equal contents. -/
theorem pts_congr {ℓ : Loc nD τ sig} {q : PosShare TreeShare} {f g : Buf (Elt F) ℓ} (h : f = g) :
    (ℓ ↦{q} f : sProp 𝕄) ⊢ (ℓ ↦{q} g) := by subst h; iintro H; iexact H

set_option maxHeartbeats 8000000 in
/-- The kernel on a vector subcore runs to its end and leaves the kernel's words in the subcore's part of the result. -/
theorem tile_run_ok : TileRunOK F := by
  intro d L q q0 q1 fi fp fc fo hH hidx O W
  have h0 : Trip0 (F := F) d L := compute0_trip d L
  have h1 : Trip1 (F := F) d L := compute1_trip d L
  rw [cc1__sc_lookup_eq_skeleton]; unfold cc1__sc_lookup_skel
  rw [k1_part72_eq_skeleton, k1_part73_eq_skeleton, k1_part74_eq_skeleton]; unfold k1_part72_skel k1_part73_skel k1_part74_skel
  unfold scratchAny semsZero
  iintro ⟨Hmw, Hi, Hp0, Hp1, Hc, Ho, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, ⟨Hg0, Hg1, Ho0, Ho1, Hsa, Hsb⟩, HO⟩
  sl_exec
  ihave H0 := (pts_congr (F := F) (ℓ := (s0WB).view.loc (thr d L)) (g := IDXV fi (wid L)) ?e0) $$ H0
  case e0 => sl_unfold_run_names; exact dma0_eq fi L f0
  ihave H1 := (pts_congr (F := F) (ℓ := (s1WB).view.loc (thr d L)) (g := fc) ?e1) $$ H1
  case e1 => sl_unfold_run_names; exact dma1_eq fc f1
  ihave H2 := (pts_congr (F := F) (ℓ := (s2WB).view.loc (thr d L)) (g := G12 fi (wid L) 0) ?e2) $$ H2
  case e2 =>
    sl_unfold_run_names
    first
      | (rw [dma0_eq fi L f0]; exact prologue12 hH fi hidx (wid L) _)
      | (simp only [dma0_eq fi L f0]; exact prologue12 hH fi hidx (wid L) _)
  ihave H4 := (pts_congr (F := F) (ℓ := (s4WB).view.loc (thr d L)) (g := I3 fi (wid L) 0) ?e4) $$ H4
  case e4 =>
    sl_unfold_run_names
    first
      | (rw [dma0_eq fi L f0]; exact prologue3 hH fi hidx (wid L) _)
      | (simp only [dma0_eq fi L f0]; exact prologue3 hH fi hidx (wid L) _)
  have hin := hin_of (F := F) fi hidx (wid L) 0
  sl_exec
  -- the row gather of block 0 is outstanding; the subcore's words of the result in the spelling the copy-outs use
  sl_unfold_run_names
  ihave HGF := (gflight0_run d L q0 fi fp 0 _ hin) $$ [Hg0 Hp0]
  · isplitl [Hg0]; · iexact Hg0
    iexact Hp0
  ihave Ho := (Entails.of_eq (oPts_oReg d L fo)) $$ Ho
  sl_for (KB.Inv d L q q0 q1 fi fp fc O W) $$ [Hmw Hi Hc H0 H1 HGF H4 H3 H5 H7 Hp1 Hg1 H8 H9 Ho Ho0 Ho1 HO]
  case region =>
    intro k _
    have ht : (k : ℕ) < 52 := trip_lt k
    have k1_h1 : k1_cond1 k = 1#1 := cond1_all k
    by_cases hk0 : k.val = 0
    ·
      have k1_h2 : ¬ k1_cond2 k = 1#1 := fun h => by have := (cond2_iff k).mp h; omega
      have k1_h4 : ¬ k1_cond4 k = 1#1 := fun h => by have := (cond4_iff k).mp h; omega
      have k1_h3 : k1_cond3 k = 1#1 := (cond3_iff k).mpr (by omega)
      have hOS : OS d L fi fp fc k.val = OS d L fi fp fc 0 := congrArg (OS d L fi fp fc) hk0
      unfold KB.Inv
      rw [GSide0_lt d L q0 fi fp ht, hOS, OS_zero d L fi fp fc]
      unfold Base GFlight0 D3At0 GIdle1 D3Any1 KB.Owes
      iintro ⟨⟨Hmw, Hi, Hc, H0, H1⟩, ⟨⟨HF0, Hp0r⟩, H4⟩, ⟨⟨%f7, H7⟩, ⟨%f3, H3⟩, Hp1, Hg1⟩, ⟨%f5, H5⟩, ⟨%fo, %hfo, ⟨%f8, H8⟩, Hs0, ⟨%f9, H9⟩, Hs1, Hor⟩, ⟨%W', %hW', HO⟩⟩
      sl_unfold_run_names
      unfold k1_t1_body
      rw [k1_part69_eq_skeleton, k1_part70_eq_skeleton, k1_part71_eq_skeleton]; unfold k1_part69_skel k1_part70_skel k1_part71_skel
      rw [k1_part1_eq_skeleton, k1_part2_eq_skeleton, k1_part3_eq_skeleton, k1_part35_eq_skeleton, k1_part36_eq_skeleton, k1_part37_eq_skeleton]
      unfold k1_part1_skel k1_part2_skel k1_part3_skel k1_part35_skel k1_part36_skel k1_part37_skel
      sl_exec
      ihave H3 := (pts_congr (F := F) (ℓ := (s3WB).view.loc (thr d L)) (g := G12 fi (wid L) (2 * k.val + 1)) ?e3) $$ H3
      case e3 => sl_unfold_run_names; exact prefetchA12 hH fi hidx (wid L) k k1_h1 _
      ihave H5 := (pts_congr (F := F) (ℓ := (s5WB).view.loc (thr d L)) (g := I3 fi (wid L) (2 * k.val + 1)) ?e5) $$ H5
      case e5 => sl_unfold_run_names; exact prefetchA3 hH fi hidx (wid L) k k1_h1 _
      have hin1 := hin_of' (F := F) fi hidx (wid L) (2 * k.val + 1)
      sl_exec
      -- slot 0's compute loop, by the loop lemma over the trip lemma
      first | sl_rw [Prog.bind_assoc] | sl_rw [bind_assoc]
      iapply (compute0_loop d L h0 O W fc (I3 fi (wid L) (2 * k.val)) (ROWS fp (G12 fi (wid L) (2 * k.val))) _ k _ _ _ _ _ _ _ _ _ _ (liveIn0 _) ⟨i3_le fi (wid L) (2 * k.val)⟩ _ _)
      isplitl [Hmw]; · iexact Hmw
      isplitl [H1]; · iexact H1
      isplitl [H4]; · iexact H4
      isplitl [HF0_dst]; · iexact HF0_dst
      isplitl [H8]; · iexists _; iexact H8
      isplitl [HO]
      · iexists _; isplitr
        swap
        · iexact HO
        · ipureintro; intro p hp
          rcases Finset.mem_insert.mp hp with hp | hp
          · exact .inr (hp ▸ rfl)
          · exact hW' p hp
      iintro ⟨Hmw, H1, H4, H6, ⟨%f8', H8, %hdone⟩, ⟨%W2, %hW2, HO⟩⟩
      have e8 := outs_of_done fi fp fc (wid L) (2 * k.val) f8' hdone
      subst e8
      -- slot 0's copy-out of block 2 k: issued by hand from the rest of the result's words
      have hsub0 := blk0_sub_reg0 L k
      first | sl_rw [Prog.bind_assoc] | skip
      first | sl_rw [Prog.bind_lift] | skip
      iapply (copyout_issue0 d L k _ (OUTS fi fp fc (wid L) (2 * k.val)) _ hsub0) $$ [H8 Hor Hs0]
      · isplitl [H8]; · iexact H8
        isplitl [Hor]; · iexact Hor
        iexact Hs0
      iintro ⟨HCF0, Hor⟩
      sl_exec
      -- slot 0's prefetch of block 2 k + 2: the two lists it wrote
      ihave H2 := (pts_congr (F := F) (ℓ := (s2WB).view.loc (thr d L)) (g := G12 fi (wid L) (2 * k.val + 2)) ?e2) $$ HF0_dst_and
      case e2 => sl_unfold_run_names; exact prefetchB12 hH fi hidx (wid L) k k1_h3 _
      ihave H4 := (pts_congr (F := F) (ℓ := (s4WB).view.loc (thr d L)) (g := I3 fi (wid L) (2 * k.val + 2)) ?e4) $$ H4
      case e4 => sl_unfold_run_names; exact prefetchB3 hH fi hidx (wid L) k k1_h3 _
      have hin2 := hin_of (F := F) fi hidx (wid L) (2 * k.val + 2)
      sl_exec
      -- slot 1's rows have landed: block 2 k + 1's gathered rows
      ihave H7 := (pts_congr (F := F) (ℓ := (s7WB).view.loc (thr d L)) (g := ROWS fp (G12 fi (wid L) (2 * k.val + 1))) ?e7) $$ H7
      case e7 =>
        sl_unfold_run_names
        exact (congrArg (fun P => (s7WB).view.writes (Elt F) _ [⟨Rect.whole _, P⟩]) (gather_rows' fp _ _ hin1)).trans (writes_whole_one cc1_scratch7 _ _)
      -- slot 1's compute loop
      iapply (compute1_loop d L h1 O W fc (I3 fi (wid L) (2 * k.val + 1)) (ROWS fp (G12 fi (wid L) (2 * k.val + 1))) _ _ _ _ _ _ _ _ _ _ (liveIn1 _) ⟨i3_le fi (wid L) (2 * k.val + 1)⟩ _ _)
      isplitl [Hmw]; · iexact Hmw
      isplitl [H1]; · iexact H1
      isplitl [H5]; · iexact H5
      isplitl [H7]; · iexact H7
      isplitl [H9]; · iexists _; iexact H9
      isplitl [HO]
      · iexists _; isplitr
        swap
        · iexact HO
        · ipureintro; intro p hp
          rcases Finset.mem_insert.mp hp with hp | hp
          · exact .inr (hp ▸ rfl)
          · exact hW2 p hp
      iintro ⟨Hmw, H1, H5, H7, ⟨%f9', H9, %hdone1⟩, ⟨%W3, %hW3, HO⟩⟩
      have e9 := outs_of_done fi fp fc (wid L) (2 * k.val + 1) f9' hdone1
      subst e9
      -- slot 1's copy-out of block 2 k + 1, by hand
      have hsub1 := blk1_sub_reg0 L k
      first | sl_rw [Prog.bind_lift] | skip
      iapply (copyout_issue1 d L k _ (OUTS fi fp fc (wid L) (2 * k.val + 1)) _ hsub1) $$ [H9 Hor Hs1]
      · isplitl [H9]; · iexact H9
        isplitl [Hor]; · iexact Hor
        iexact Hs1
      iintro ⟨HCF1, Hor⟩
      sl_step
      -- the invariant at the head of trip k + 1
      have hk1 : k.val + 1 < 52 := by omega
      have e2 : 2 * (k.val + 1) = 2 * k.val + 2 := by ring
      irw [GSide0_lt d L q0 fi fp hk1, OS_pos d L fi fp fc (Nat.succ_ne_zero k.val), tOf_succ k, e2]
      sl_unfold_run_names
      ihave HGF := (gflight0_run d L q0 fi fp (2 * k.val + 2) _ hin2) $$ [HF0 Hp0r]
      · isplitl [HF0]; · iexact HF0
        iexact Hp0r
      ihave HOS := (os_step_first d L fi fp fc k fo) $$ [HCF0 HCF1 Hor]
      · isplitl [HCF0]; · iexact HCF0
        isplitl [HCF1]; · iexact HCF1
        iexact Hor
      isplitl [Hmw Hi Hc H0 H1]
      · isplitl [Hmw]; · iexact Hmw
        isplitl [Hi]; · iexact Hi
        isplitl [Hc]; · iexact Hc
        isplitl [H0]; · iexact H0
        iexact H1
      isplitl [HGF H4]
      · isplitl [HGF]; · iexact HGF
        unfold D3At0; iexact H4
      isplitl [H7 H3 Hp1 Hg1]
      · isplitl [H7]; · iexists _; iexact H7
        isplitl [H3]; · iexists _; iexact H3
        isplitl [Hp1]; · iexact Hp1
        iexact Hg1
      isplitl [H5]; · iexists _; iexact H5
      isplitl [HOS]
      · iexists fo; isplitr
        · ipureintro; intro b hb
          exact absurd hb (by omega)
        · iexact HOS
      · iexists _; isplitr
        swap
        · iexact HO
        · ipureintro; exact hW3
    by_cases hk51 : k.val = 51
    ·
      have k1_h2 : k1_cond2 k = 1#1 := (cond2_iff k).mpr (by omega)
      have k1_h4 : k1_cond4 k = 1#1 := (cond4_iff k).mpr (by omega)
      have k1_h3 : ¬ k1_cond3 k = 1#1 := fun h => by have := (cond3_iff k).mp h; omega
      unfold KB.Inv
      rw [GSide0_lt d L q0 fi fp ht, OS_pos d L fi fp fc hk0]
      unfold Base GFlight0 D3At0 GIdle1 D3Any1 KB.Owes ORest
      iintro ⟨⟨Hmw, Hi, Hc, H0, H1⟩, ⟨⟨HF0, Hp0r⟩, H4⟩, ⟨⟨%f7, H7⟩, ⟨%f3, H3⟩, Hp1, Hg1⟩, ⟨%f5, H5⟩, ⟨%fo, %hfo, HOF0, HOF1, Hor⟩, ⟨%W', %hW', HO⟩⟩
      ihave HX := (oflight0_to_run d L (tOf k.val) fo _) $$ HOF0
      icases HX with ⟨Hs0, H8⟩
      ihave HY := (oflight1_to_run d L (tOf k.val) _ _) $$ HOF1
      icases HY with ⟨Hs1, H9⟩
      sl_unfold_run_names
      unfold k1_t1_body
      rw [k1_part69_eq_skeleton, k1_part70_eq_skeleton, k1_part71_eq_skeleton]; unfold k1_part69_skel k1_part70_skel k1_part71_skel
      rw [k1_part1_eq_skeleton, k1_part2_eq_skeleton, k1_part3_eq_skeleton, k1_part35_eq_skeleton, k1_part36_eq_skeleton, k1_part37_eq_skeleton]
      unfold k1_part1_skel k1_part2_skel k1_part3_skel k1_part35_skel k1_part36_skel k1_part37_skel
      sl_exec
      ihave H3 := (pts_congr (F := F) (ℓ := (s3WB).view.loc (thr d L)) (g := G12 fi (wid L) (2 * k.val + 1)) ?e3) $$ H3
      case e3 => sl_unfold_run_names; exact prefetchA12 hH fi hidx (wid L) k k1_h1 _
      ihave H5 := (pts_congr (F := F) (ℓ := (s5WB).view.loc (thr d L)) (g := I3 fi (wid L) (2 * k.val + 1)) ?e5) $$ H5
      case e5 => sl_unfold_run_names; exact prefetchA3 hH fi hidx (wid L) k k1_h1 _
      have hin1 := hin_of' (F := F) fi hidx (wid L) (2 * k.val + 1)
      sl_exec
      -- slot 0's compute loop, by the loop lemma over the trip lemma
      first | sl_rw [Prog.bind_assoc] | sl_rw [bind_assoc]
      iapply (compute0_loop d L h0 O W fc (I3 fi (wid L) (2 * k.val)) (ROWS fp (G12 fi (wid L) (2 * k.val))) _ k _ _ _ _ _ _ _ _ _ _ (liveIn0 _) ⟨i3_le fi (wid L) (2 * k.val)⟩ _ _)
      isplitl [Hmw]; · iexact Hmw
      isplitl [H1]; · iexact H1
      isplitl [H4]; · iexact H4
      isplitl [HF0_dst]; · iexact HF0_dst
      isplitl [H8]; · iexists _; iexact H8
      isplitl [HO]
      · iexists _; isplitr
        swap
        · iexact HO
        · ipureintro; intro p hp
          rcases Finset.mem_insert.mp hp with hp | hp
          · exact .inr (hp ▸ rfl)
          rcases Finset.mem_insert.mp hp with hp | hp
          · exact .inr (hp ▸ rfl)
          · exact hW' p hp
      iintro ⟨Hmw, H1, H4, H6, ⟨%f8', H8, %hdone⟩, ⟨%W2, %hW2, HO⟩⟩
      have e8 := outs_of_done fi fp fc (wid L) (2 * k.val) f8' hdone
      subst e8
      have hto : ((tOf k.val : Fin k1_t1_loop.trips) : ℕ) + 1 = k.val := by
        show (k.val - 1) % 52 + 1 = k.val
        omega
      have hto' : ((tOf k.val : Fin k1_t1_loop.trips) : ℕ) < 52 := trip_lt _
      -- slot 0's copy-out of block 2 k: issued by hand from the rest of the result's words
      have hsub0 := blk0_sub_R L k hk0
      first | sl_rw [Prog.bind_assoc] | skip
      first | sl_rw [Prog.bind_lift] | skip
      iapply (copyout_issue0 d L k _ (OUTS fi fp fc (wid L) (2 * k.val)) _ hsub0) $$ [H8 Hor Hs0]
      · isplitl [H8]; · iexact H8
        isplitl [Hor]; · iexact Hor
        iexact Hs0
      iintro ⟨HCF0, Hor⟩
      sl_exec
      -- slot 1's rows have landed: block 2 k + 1's gathered rows
      ihave H7 := (pts_congr (F := F) (ℓ := (s7WB).view.loc (thr d L)) (g := ROWS fp (G12 fi (wid L) (2 * k.val + 1))) ?e7) $$ H7
      case e7 =>
        sl_unfold_run_names
        exact (congrArg (fun P => (s7WB).view.writes (Elt F) _ [⟨Rect.whole _, P⟩]) (gather_rows' fp _ _ hin1)).trans (writes_whole_one cc1_scratch7 _ _)
      -- slot 1's compute loop
      iapply (compute1_loop d L h1 O W fc (I3 fi (wid L) (2 * k.val + 1)) (ROWS fp (G12 fi (wid L) (2 * k.val + 1))) _ _ _ _ _ _ _ _ _ _ (liveIn1 _) ⟨i3_le fi (wid L) (2 * k.val + 1)⟩ _ _)
      isplitl [Hmw]; · iexact Hmw
      isplitl [H1]; · iexact H1
      isplitl [H5]; · iexact H5
      isplitl [H7]; · iexact H7
      isplitl [H9]; · iexists _; iexact H9
      isplitl [HO]
      · iexists _; isplitr
        swap
        · iexact HO
        · ipureintro; intro p hp
          rcases Finset.mem_insert.mp hp with hp | hp
          · exact .inr (hp ▸ rfl)
          rcases Finset.mem_insert.mp hp with hp | hp
          · exact .inr (hp ▸ rfl)
          · exact hW2 p hp
      iintro ⟨Hmw, H1, H5, H7, ⟨%f9', H9, %hdone1⟩, ⟨%W3, %hW3, HO⟩⟩
      have e9 := outs_of_done fi fp fc (wid L) (2 * k.val + 1) f9' hdone1
      subst e9
      -- slot 1's copy-out of block 2 k + 1, by hand
      have hsub1 := blk1_sub_R' L k hk0
      first | sl_rw [Prog.bind_lift] | skip
      iapply (copyout_issue1 d L k _ (OUTS fi fp fc (wid L) (2 * k.val + 1)) _ hsub1) $$ [H9 Hor Hs1]
      · isplitl [H9]; · iexact H9
        isplitl [Hor]; · iexact Hor
        iexact Hs1
      iintro ⟨HCF1, Hor⟩
      sl_step
      -- the invariant at the head of trip k + 1
      have hk1 : ¬ k.val + 1 < 52 := by omega
      irw [GSide0_ge d L q0 fi fp hk1, OS_pos d L fi fp fc (Nat.succ_ne_zero k.val), tOf_succ k]
      unfold GIdle0 D3Any0
      sl_unfold_run_names
      ihave HOS := (os_step d L fi fp fc k hk0 fo) $$ [HCF0 HCF1 Hs0_dst Hs1_dst Hor]
      · isplitl [HCF0]; · iexact HCF0
        isplitl [HCF1]; · iexact HCF1
        isplitl [Hs0_dst]; · iexact Hs0_dst
        isplitl [Hs1_dst]; · iexact Hs1_dst
        iexact Hor
      isplitl [Hmw Hi Hc H0 H1]
      · isplitl [Hmw]; · iexact Hmw
        isplitl [Hi]; · iexact Hi
        isplitl [Hc]; · iexact Hc
        isplitl [H0]; · iexact H0
        iexact H1
      isplitl [H6 HF0_dst_and Hp0r HF0 H4]
      · isplitl [H6 HF0_dst_and Hp0r HF0]
        · isplitl [H6]; · iexists _; iexact H6
          isplitl [HF0_dst_and]; · iexists _; iexact HF0_dst_and
          isplitl [Hp0r]; · iexact Hp0r
          iexact HF0
        · iexists _; iexact H4
      isplitl [H7 H3 Hp1 Hg1]
      · isplitl [H7]; · iexists _; iexact H7
        isplitl [H3]; · iexists _; iexact H3
        isplitl [Hp1]; · iexact Hp1
        iexact Hg1
      isplitl [H5]; · iexists _; iexact H5
      isplitl [HOS]
      · iexists (oC d L fi fp fc k fo); isplitr
        · ipureintro; intro b hb
          exact os_blocks d L fi fp fc k hk0 fo hfo b (by omega)
        · iexact HOS
      · iexists _; isplitr
        swap
        · iexact HO
        · ipureintro; exact hW3
    have k1_h2 : k1_cond2 k = 1#1 := (cond2_iff k).mpr (by omega)
    have k1_h4 : k1_cond4 k = 1#1 := (cond4_iff k).mpr (by omega)
    have k1_h3 : k1_cond3 k = 1#1 := (cond3_iff k).mpr (by omega)
    unfold KB.Inv
    rw [GSide0_lt d L q0 fi fp ht, OS_pos d L fi fp fc hk0]
    unfold Base GFlight0 D3At0 GIdle1 D3Any1 KB.Owes ORest
    iintro ⟨⟨Hmw, Hi, Hc, H0, H1⟩, ⟨⟨HF0, Hp0r⟩, H4⟩, ⟨⟨%f7, H7⟩, ⟨%f3, H3⟩, Hp1, Hg1⟩, ⟨%f5, H5⟩, ⟨%fo, %hfo, HOF0, HOF1, Hor⟩, ⟨%W', %hW', HO⟩⟩
    ihave HX := (oflight0_to_run d L (tOf k.val) fo _) $$ HOF0
    icases HX with ⟨Hs0, H8⟩
    ihave HY := (oflight1_to_run d L (tOf k.val) _ _) $$ HOF1
    icases HY with ⟨Hs1, H9⟩
    sl_unfold_run_names
    unfold k1_t1_body
    rw [k1_part69_eq_skeleton, k1_part70_eq_skeleton, k1_part71_eq_skeleton]; unfold k1_part69_skel k1_part70_skel k1_part71_skel
    rw [k1_part1_eq_skeleton, k1_part2_eq_skeleton, k1_part3_eq_skeleton, k1_part35_eq_skeleton, k1_part36_eq_skeleton, k1_part37_eq_skeleton]
    unfold k1_part1_skel k1_part2_skel k1_part3_skel k1_part35_skel k1_part36_skel k1_part37_skel
    sl_exec
    ihave H3 := (pts_congr (F := F) (ℓ := (s3WB).view.loc (thr d L)) (g := G12 fi (wid L) (2 * k.val + 1)) ?e3) $$ H3
    case e3 => sl_unfold_run_names; exact prefetchA12 hH fi hidx (wid L) k k1_h1 _
    ihave H5 := (pts_congr (F := F) (ℓ := (s5WB).view.loc (thr d L)) (g := I3 fi (wid L) (2 * k.val + 1)) ?e5) $$ H5
    case e5 => sl_unfold_run_names; exact prefetchA3 hH fi hidx (wid L) k k1_h1 _
    have hin1 := hin_of' (F := F) fi hidx (wid L) (2 * k.val + 1)
    sl_exec
    -- slot 0's compute loop, by the loop lemma over the trip lemma
    first | sl_rw [Prog.bind_assoc] | sl_rw [bind_assoc]
    iapply (compute0_loop d L h0 O W fc (I3 fi (wid L) (2 * k.val)) (ROWS fp (G12 fi (wid L) (2 * k.val))) _ k _ _ _ _ _ _ _ _ _ _ (liveIn0 _) ⟨i3_le fi (wid L) (2 * k.val)⟩ _ _)
    isplitl [Hmw]; · iexact Hmw
    isplitl [H1]; · iexact H1
    isplitl [H4]; · iexact H4
    isplitl [HF0_dst]; · iexact HF0_dst
    isplitl [H8]; · iexists _; iexact H8
    isplitl [HO]
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    iintro ⟨Hmw, H1, H4, H6, ⟨%f8', H8, %hdone⟩, ⟨%W2, %hW2, HO⟩⟩
    have e8 := outs_of_done fi fp fc (wid L) (2 * k.val) f8' hdone
    subst e8
    have hto : ((tOf k.val : Fin k1_t1_loop.trips) : ℕ) + 1 = k.val := by
      show (k.val - 1) % 52 + 1 = k.val
      omega
    have hto' : ((tOf k.val : Fin k1_t1_loop.trips) : ℕ) < 52 := trip_lt _
    -- slot 0's copy-out of block 2 k: issued by hand from the rest of the result's words
    have hsub0 := blk0_sub_R L k hk0
    first | sl_rw [Prog.bind_assoc] | skip
    first | sl_rw [Prog.bind_lift] | skip
    iapply (copyout_issue0 d L k _ (OUTS fi fp fc (wid L) (2 * k.val)) _ hsub0) $$ [H8 Hor Hs0]
    · isplitl [H8]; · iexact H8
      isplitl [Hor]; · iexact Hor
      iexact Hs0
    iintro ⟨HCF0, Hor⟩
    sl_exec
    -- slot 0's prefetch of block 2 k + 2: the two lists it wrote
    ihave H2 := (pts_congr (F := F) (ℓ := (s2WB).view.loc (thr d L)) (g := G12 fi (wid L) (2 * k.val + 2)) ?e2) $$ HF0_dst_and
    case e2 => sl_unfold_run_names; exact prefetchB12 hH fi hidx (wid L) k k1_h3 _
    ihave H4 := (pts_congr (F := F) (ℓ := (s4WB).view.loc (thr d L)) (g := I3 fi (wid L) (2 * k.val + 2)) ?e4) $$ H4
    case e4 => sl_unfold_run_names; exact prefetchB3 hH fi hidx (wid L) k k1_h3 _
    have hin2 := hin_of (F := F) fi hidx (wid L) (2 * k.val + 2)
    sl_exec
    -- slot 1's rows have landed: block 2 k + 1's gathered rows
    ihave H7 := (pts_congr (F := F) (ℓ := (s7WB).view.loc (thr d L)) (g := ROWS fp (G12 fi (wid L) (2 * k.val + 1))) ?e7) $$ H7
    case e7 =>
      sl_unfold_run_names
      exact (congrArg (fun P => (s7WB).view.writes (Elt F) _ [⟨Rect.whole _, P⟩]) (gather_rows' fp _ _ hin1)).trans (writes_whole_one cc1_scratch7 _ _)
    -- slot 1's compute loop
    iapply (compute1_loop d L h1 O W fc (I3 fi (wid L) (2 * k.val + 1)) (ROWS fp (G12 fi (wid L) (2 * k.val + 1))) _ _ _ _ _ _ _ _ _ _ (liveIn1 _) ⟨i3_le fi (wid L) (2 * k.val + 1)⟩ _ _)
    isplitl [Hmw]; · iexact Hmw
    isplitl [H1]; · iexact H1
    isplitl [H5]; · iexact H5
    isplitl [H7]; · iexact H7
    isplitl [H9]; · iexists _; iexact H9
    isplitl [HO]
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW2 p hp
    iintro ⟨Hmw, H1, H5, H7, ⟨%f9', H9, %hdone1⟩, ⟨%W3, %hW3, HO⟩⟩
    have e9 := outs_of_done fi fp fc (wid L) (2 * k.val + 1) f9' hdone1
    subst e9
    -- slot 1's copy-out of block 2 k + 1, by hand
    have hsub1 := blk1_sub_R' L k hk0
    first | sl_rw [Prog.bind_lift] | skip
    iapply (copyout_issue1 d L k _ (OUTS fi fp fc (wid L) (2 * k.val + 1)) _ hsub1) $$ [H9 Hor Hs1]
    · isplitl [H9]; · iexact H9
      isplitl [Hor]; · iexact Hor
      iexact Hs1
    iintro ⟨HCF1, Hor⟩
    sl_step
    -- the invariant at the head of trip k + 1
    have hk1 : k.val + 1 < 52 := by omega
    have e2 : 2 * (k.val + 1) = 2 * k.val + 2 := by ring
    irw [GSide0_lt d L q0 fi fp hk1, OS_pos d L fi fp fc (Nat.succ_ne_zero k.val), tOf_succ k, e2]
    sl_unfold_run_names
    ihave HGF := (gflight0_run d L q0 fi fp (2 * k.val + 2) _ hin2) $$ [HF0 Hp0r]
    · isplitl [HF0]; · iexact HF0
      iexact Hp0r
    ihave HOS := (os_step d L fi fp fc k hk0 fo) $$ [HCF0 HCF1 Hs0_dst Hs1_dst Hor]
    · isplitl [HCF0]; · iexact HCF0
      isplitl [HCF1]; · iexact HCF1
      isplitl [Hs0_dst]; · iexact Hs0_dst
      isplitl [Hs1_dst]; · iexact Hs1_dst
      iexact Hor
    isplitl [Hmw Hi Hc H0 H1]
    · isplitl [Hmw]; · iexact Hmw
      isplitl [Hi]; · iexact Hi
      isplitl [Hc]; · iexact Hc
      isplitl [H0]; · iexact H0
      iexact H1
    isplitl [HGF H4]
    · isplitl [HGF]; · iexact HGF
      unfold D3At0; iexact H4
    isplitl [H7 H3 Hp1 Hg1]
    · isplitl [H7]; · iexists _; iexact H7
      isplitl [H3]; · iexists _; iexact H3
      isplitl [Hp1]; · iexact Hp1
      iexact Hg1
    isplitl [H5]; · iexists _; iexact H5
    isplitl [HOS]
    · iexists (oC d L fi fp fc k fo); isplitr
      · ipureintro; intro b hb
        exact os_blocks d L fi fp fc k hk0 fo hfo b (by omega)
      · iexact HOS
    · iexists _; isplitr
      swap
      · iexact HO
      · ipureintro; exact hW3
  · -- the invariant holds at the loop's head
    unfold KB.Inv
    rw [GSide0_lt d L q0 fi fp (by decide : 0 < 52), OS_zero d L fi fp fc]
    unfold Base D3At0 GIdle1 D3Any1 KB.Owes
    isplitl [Hmw Hi Hc H0 H1]
    · isplitl [Hmw]; · iexact Hmw
      isplitl [Hi]; · iexact Hi
      isplitl [Hc]; · iexact Hc
      isplitl [H0]; · iexact H0
      iexact H1
    isplitl [HGF H4]
    · isplitl [HGF]; · iexact HGF
      iexact H4
    isplitl [H7 H3 Hp1 Hg1]
    · isplitl [H7]; · iexists _; iexact H7
      isplitl [H3]; · iexists _; iexact H3
      isplitl [Hp1]; · iexact Hp1
      iexact Hg1
    isplitl [H5]; · iexists _; iexact H5
    isplitl [H8 H9 Ho Ho0 Ho1]
    · iexists fo; isplitr
      · ipureintro; intro b hb; exact absurd hb (by omega)
      · isplitl [H8]; · iexists _; iexact H8
        isplitl [Ho0]; · iexact Ho0
        isplitl [H9]; · iexists _; iexact H9
        isplitl [Ho1]; · iexact Ho1
        iexact Ho
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        · exact .inl hp
  -- after the loop: the two last copy-outs are waited for
  iintro %_ HI
  iapply (wp_wand_r frame _ Set.univ (Q := ExitPost d L q q0 q1 fi fp fc O W))
  isplitl [HI]
  · iapply (loop_exit d L q q0 q1 fi fp fc O W)
    iexact HI
  · iintro %a HP
    unfold ExitPost semsZero4 scratchAny
    icases HP with ⟨Hmw, Hi, Hp0, Hp1, Hc, Hout, Hscr, ⟨Hg0, Hg1, Ho0, Ho1⟩, HO⟩
    isplitl [Hmw]; · iexact Hmw
    isplitl [Hi]; · iexact Hi
    isplitl [Hp0]; · iexact Hp0
    isplitl [Hp1]; · iexact Hp1
    isplitl [Hc]; · iexact Hc
    isplitl [Hout]; · iexact Hout
    isplitl [Hscr]; · iexact Hscr
    isplitl [Hg0 Hg1 Ho0 Ho1 Hsa Hsb]
    · isplitl [Hg0]; · iexact Hg0
      isplitl [Hg1]; · iexact Hg1
      isplitl [Ho0]; · iexact Ho0
      isplitl [Ho1]; · iexact Ho1
      isplitl [Hsa]; · iexact Hsa
      iexact Hsb
    iexact HO

end Cert.Proof.KB

end
-- ==== Proof.Spec.lean ====
/-
  The function both programs compute, index by index, on the extended reals.

  An index word n in [0, 10⁶) is the row (i₁, i₂, i₃) = (n / 10000, (n / 100) % 100, n % 100) of a 100 × 100 × 100
  table, an output column e in [0, 64) the triple (j₁, j₂, j₃) = (e / 16, (e / 4) % 4, e % 4), and the embedding is the
  tensor-train contraction of the three cores:
    W[n, e] = ∑ r₂, (∑ r₁, core0[0, i₁, j₁, r₁] · core1[r₁, i₂, j₂, r₂]) · core2[r₂, i₃, j₃, 0].
  No product is distributed over a sum and nothing is cancelled, so the statement needs no finiteness.
-/
import Idealize.ShloMosaic.PureOps.Ideal
import Idealize.ShloMosaic.Lib.ValueIdx

noncomputable section

namespace Cert.Proof.Spec

open Idealize.ShloMosaic Idealize.ShloMosaic.ValueIdx

abbrev SIdx : Shape := ⟨2, ![16384, 26]⟩
abbrev SC0 : Shape := ⟨4, ![1, 100, 4, 8]⟩
abbrev SC1 : Shape := ⟨4, ![8, 100, 4, 8]⟩
abbrev SC2 : Shape := ⟨4, ![8, 100, 4, 1]⟩
abbrev SOut : Shape := ⟨3, ![16384, 26, 64]⟩

/-- The embedding of row word `n` at column `e`: the three cores contracted over the two rank axes. The digits are
    taken modulo their extents so that the term is total; on an index word below 10⁶ the reductions are the identity. -/
def emb (c0 : FVec Ideal SC0 .f32) (c1 : FVec Ideal SC1 .f32) (c2 : FVec Ideal SC2 .f32) (n e : ℕ) : EReal :=
  ∑ r2 : Fin 8,
    (∑ r1 : Fin 8,
        c0 (ix4 (0 : Fin 1) (⟨(n / 10000) % 100, Nat.mod_lt _ (by decide)⟩ : Fin 100) (⟨(e / 16) % 4, Nat.mod_lt _ (by decide)⟩ : Fin 4) r1)
          * c1 (ix4 r1 (⟨(n / 100) % 100, Nat.mod_lt _ (by decide)⟩ : Fin 100) (⟨(e / 4) % 4, Nat.mod_lt _ (by decide)⟩ : Fin 4) r2))
      * c2 (ix4 r2 (⟨n % 100, Nat.mod_lt _ (by decide)⟩ : Fin 100) (⟨e % 4, Nat.mod_lt _ (by decide)⟩ : Fin 4) (0 : Fin 1))

/-- The result array: entry (b, f, e) is the embedding of the word at (b, f), read unsigned, at column e. -/
def G (idx : IVec SIdx 32) (c0 : FVec Ideal SC0 .f32) (c1 : FVec Ideal SC1 .f32) (c2 : FVec Ideal SC2 .f32) : FVec Ideal SOut .f32 :=
  fun j => emb c0 c1 c2 (idx (ix2 (j 0) (j 1))).toNat (j 2).val

end Cert.Proof.Spec

end
-- ==== Proof.KernelTables.lean ====
/-
  The two tables the host part builds, as index formulas over the argument arrays, and the kernel's word read with
  them, on the extended reals.

  The pair table PT has a row for every pair of leading digits (i₁, i₂), row 100 i₁ + i₂, and 128 columns
  32 j₁ + 8 j₂ + r₂. Its entry is the contraction, over k = 8 a + r₁ in [0, 32), of core0[0, i₁, a, r₁] with the block
  matrix eye[a, j₁] · core1[r₁, i₂, j₂, r₂]: the 24 terms with a ≠ j₁ are x · (0 · y) = 0 on the extended reals, the
  infinities included, and what is left is ∑ r₁, core0[0, i₁, j₁, r₁] · (1 · core1[r₁, i₂, j₂, r₂]).
  The third-core table CT holds 33 words a digit i₃: word 33 i₃ + 4 r₂ + j₃ is core2[r₂, i₃, j₃, 0], the 33rd word of
  each digit and the last four words are zero.

  With these tables the word a lane forms for token word n at column e — eight products over the lane's rotation
  r₂ = (l + r) % 8 of the rank axis, summed pairwise — is the specification's entry: the rotation is a bijection of
  the eight ranks and addition on the extended reals is commutative and associative. Nothing is cancelled and no
  product is distributed over a sum, so no finiteness is needed.
-/
import proofs.«207215_g13752485282153_cont_week2b_1454_30_alg».proof.Proof.Spec
import proofs.«207215_g13752485282153_cont_week2b_1454_30_alg».proof.Proof.TileSpec
import Idealize.ShloMosaic.PureOps.Ideal.Laws
import Idealize.ShloMosaic.Lib.ValueLayout
import Mathlib.Algebra.BigOperators.Fin
import Mathlib.Tactic.Abel
import Mathlib.Tactic.IntervalCases

noncomputable section

open scoped BigOperators

namespace Cert.Proof.KV

open Idealize.ShloMosaic Idealize.ShloMosaic.ValueIdx
open Cert.Proof

/-! ## The tables -/

/-- The 4 × 4 identity's entry, as an extended real. -/
def eye (a d : ℕ) : EReal := if a = d then 1 else 0

/-- The pair table's entry at row ρ, column col, as the contraction over k = 8 a + r₁ the host's product computes. The
    digits are reduced modulo their extents so that the term is total. -/
def ptEntry (c0 : FVec Ideal Spec.SC0 .f32) (c1 : FVec Ideal Spec.SC1 .f32) (ρ col : ℕ) : EReal :=
  ∑ k : Fin 32,
    c0 (ix4 (0 : Fin 1) (⟨(ρ / 100) % 100, Nat.mod_lt _ (by decide)⟩ : Fin 100) (⟨(k.val / 8) % 4, Nat.mod_lt _ (by decide)⟩ : Fin 4)
        (⟨k.val % 8, Nat.mod_lt _ (by decide)⟩ : Fin 8))
      * (eye (k.val / 8) (col / 32)
          * c1 (ix4 (⟨k.val % 8, Nat.mod_lt _ (by decide)⟩ : Fin 8) (⟨ρ % 100, Nat.mod_lt _ (by decide)⟩ : Fin 100)
              (⟨(col / 8) % 4, Nat.mod_lt _ (by decide)⟩ : Fin 4) (⟨col % 8, Nat.mod_lt _ (by decide)⟩ : Fin 8)))

/-- The pair table: 10000 rows (i₁, i₂), 128 columns (j₁, j₂, r₂). -/
def PT (c0 : FVec Ideal Spec.SC0 .f32) (c1 : FVec Ideal Spec.SC1 .f32) : Vec Ideal TileSpec.SPT .f32 :=
  fun i => ptEntry c0 c1 (i 0).val (i 1).val

/-- The third-core table's word p: core2[r₂, i₃, j₃, 0] at p = 33 i₃ + 4 r₂ + j₃, zero at each digit's 33rd word and
    at the last four words. -/
def ctEntry (c2 : FVec Ideal Spec.SC2 .f32) (p : ℕ) : EReal :=
  if p < 3300 ∧ p % 33 < 32 then
    c2 (ix4 (⟨((p % 33) / 4) % 8, Nat.mod_lt _ (by decide)⟩ : Fin 8) (⟨(p / 33) % 100, Nat.mod_lt _ (by decide)⟩ : Fin 100)
      (⟨(p % 33) % 4, Nat.mod_lt _ (by decide)⟩ : Fin 4) (0 : Fin 1))
  else 0

/-- The third-core table: 3304 words. -/
def CT (c2 : FVec Ideal Spec.SC2 .f32) : Vec Ideal TileSpec.SCT .f32 :=
  fun i => ctEntry c2 (i 0).val

theorem PT_apply (c0 : FVec Ideal Spec.SC0 .f32) (c1 : FVec Ideal Spec.SC1 .f32) (ρ : Fin 10000) (col : Fin 128) :
    PT c0 c1 (ix2 ρ col) = ptEntry c0 c1 ρ.val col.val := rfl

theorem CT_apply (c2 : FVec Ideal Spec.SC2 .f32) (p : Fin 3304) : CT c2 (ix1 p) = ctEntry c2 p.val := rfl

/-! ## The index array flattened, and the flat result reshaped -/

/-- The index array row-major: token 26 b + g is the word at (b, g). -/
def flat (idx : IVec Spec.SIdx 32) : IVec TileSpec.SIX 32 := shapeCast TileSpec.SIX idx (by decide)

/-- The flat result as [16384, 26, 64]: entry (b, g, e) is word 64 (26 b + g) + e. -/
def reshape3 (f : Vec Ideal TileSpec.SO .f32) : FVec Ideal Spec.SOut .f32 := shapeCast Spec.SOut f (by decide)

theorem flat_apply (idx : IVec Spec.SIdx 32) (b : Fin 16384) (g : Fin 26) (T : Fin 425984) (hT : T.val = 26 * b.val + g.val) :
    flat idx (ix1 T) = idx (ix2 b g) :=
  shapeCast_apply idx _ (ix1 T) (ix2 b g) (by
    rw [Shape.rowMajor_val_two, Shape.rowMajor_val_one]
    show b.val * 26 + g.val = T.val
    omega)

theorem reshape3_apply (f : Vec Ideal TileSpec.SO .f32) (b : Fin 16384) (g : Fin 26) (e : Fin 64) (p : Fin 27262976)
    (hp : p.val = 64 * (26 * b.val + g.val) + e.val) : reshape3 f (ix3 b g e) = f (ix1 p) :=
  shapeCast_apply f _ (ix3 b g e) (ix1 p) (by
    rw [Shape.rowMajor_val_three, Shape.rowMajor_val_one]
    show p.val = (b.val * 26 + g.val) * 64 + e.val
    omega)

/-! ## The pair table's entry: the block-diagonal contraction collapses to the rank sum -/

/-- A sum over k in [0, 32) is the double sum over k = r₁ + 8 a. -/
theorem sum_fin32 (f : ℕ → EReal) : ∑ k : Fin 32, f k.val = ∑ a : Fin 4, ∑ r : Fin 8, f (r.val + 8 * a.val) := by
  rw [← Equiv.sum_comp (finProdFinEquiv (m := 4) (n := 8)) (fun k : Fin (4 * 8) => f k.val), Fintype.sum_prod_type]
  rfl

/-- The pair table's entry at a row and column whose digits the caller names. -/
theorem ptEntry_eq (c0 : FVec Ideal Spec.SC0 .f32) (c1 : FVec Ideal Spec.SC1 .f32) (ρ col : ℕ)
    (i1 : Fin 100) (j1 : Fin 4) (i2 : Fin 100) (j2 : Fin 4) (r2 : Fin 8)
    (h1 : (ρ / 100) % 100 = i1.val) (h2 : col / 32 = j1.val) (h3 : ρ % 100 = i2.val) (h4 : (col / 8) % 4 = j2.val)
    (h5 : col % 8 = r2.val) :
    ptEntry c0 c1 ρ col = ∑ r1 : Fin 8, c0 (ix4 (0 : Fin 1) i1 j1 r1) * c1 (ix4 r1 i2 j2 r2) := by
  obtain rfl : i1 = ⟨(ρ / 100) % 100, Nat.mod_lt _ (by decide)⟩ := Fin.ext h1.symm
  obtain rfl : i2 = ⟨ρ % 100, Nat.mod_lt _ (by decide)⟩ := Fin.ext h3.symm
  obtain rfl : j2 = ⟨(col / 8) % 4, Nat.mod_lt _ (by decide)⟩ := Fin.ext h4.symm
  obtain rfl : r2 = ⟨col % 8, Nat.mod_lt _ (by decide)⟩ := Fin.ext h5.symm
  unfold ptEntry
  rw [sum_fin32 (fun k =>
    c0 (ix4 (0 : Fin 1) (⟨(ρ / 100) % 100, Nat.mod_lt _ (by decide)⟩ : Fin 100) (⟨(k / 8) % 4, Nat.mod_lt _ (by decide)⟩ : Fin 4)
        (⟨k % 8, Nat.mod_lt _ (by decide)⟩ : Fin 8))
      * (eye (k / 8) (col / 32)
          * c1 (ix4 (⟨k % 8, Nat.mod_lt _ (by decide)⟩ : Fin 8) (⟨ρ % 100, Nat.mod_lt _ (by decide)⟩ : Fin 100)
              (⟨(col / 8) % 4, Nat.mod_lt _ (by decide)⟩ : Fin 4) (⟨col % 8, Nat.mod_lt _ (by decide)⟩ : Fin 8))))]
  rw [Finset.sum_eq_single j1]
  · refine Finset.sum_congr rfl fun r1 _ => ?_
    have hr := r1.isLt
    have ha := j1.isLt
    have e1 : (⟨((r1.val + 8 * j1.val) / 8) % 4, Nat.mod_lt _ (by decide)⟩ : Fin 4) = j1 := Fin.ext (by show _ % 4 = _; omega)
    have e2 : (⟨(r1.val + 8 * j1.val) % 8, Nat.mod_lt _ (by decide)⟩ : Fin 8) = r1 := Fin.ext (by show _ % 8 = _; omega)
    have e3 : eye ((r1.val + 8 * j1.val) / 8) (col / 32) = 1 := by
      unfold eye; rw [if_pos (by omega)]
    rw [e1, e2, e3, one_mul]
  · intro a _ ha
    refine Finset.sum_eq_zero fun r1 _ => ?_
    have hr := r1.isLt
    have e3 : eye ((r1.val + 8 * a.val) / 8) (col / 32) = 0 := by
      unfold eye; rw [if_neg]
      intro h
      exact ha (Fin.ext (by omega))
    rw [e3, zero_mul, mul_zero]
  · intro h; exact absurd (Finset.mem_univ _) h

/-- The third-core table's word at a position whose digits the caller names. -/
theorem ctEntry_eq (c2 : FVec Ideal Spec.SC2 .f32) (p : ℕ) (r2 : Fin 8) (i3 : Fin 100) (j3 : Fin 4)
    (hp : p = 33 * i3.val + 4 * r2.val + j3.val) : ctEntry c2 p = c2 (ix4 r2 i3 j3 (0 : Fin 1)) := by
  have h1 := r2.isLt
  have h2 := i3.isLt
  have h3 := j3.isLt
  have hq : p / 33 = i3.val := Nat.div_eq_of_lt_le (by omega) (by omega)
  have hm : p % 33 = 4 * r2.val + j3.val := by have := Nat.div_add_mod p 33; omega
  have hq4 : (p % 33) / 4 = r2.val := by rw [hm]; exact Nat.div_eq_of_lt_le (by omega) (by omega)
  unfold ctEntry
  rw [if_pos ⟨by omega, by omega⟩]
  have e1 : (⟨((p % 33) / 4) % 8, Nat.mod_lt _ (by decide)⟩ : Fin 8) = r2 := Fin.ext (by show _ % 8 = _; omega)
  have e2 : (⟨(p / 33) % 100, Nat.mod_lt _ (by decide)⟩ : Fin 100) = i3 := Fin.ext (by show _ % 100 = _; omega)
  have e3 : (⟨(p % 33) % 4, Nat.mod_lt _ (by decide)⟩ : Fin 4) = j3 := Fin.ext (by show _ % 4 = _; omega)
  rw [e1, e2, e3]

/-! ## The lane's eight products are the eight ranks, rotated -/

/-- Eight terms taken in the lane's order, rank (l + r) % 8 at position r, paired (r, r + 4) and summed pairwise, are
    the sum over the eight ranks. -/
theorem rot8_sum {M : Type*} [AddCommMonoid M] (f : Fin 8 → M) (l : ℕ) :
    ((f ⟨(l + 0) % 8, Nat.mod_lt _ (by decide)⟩ + f ⟨(l + 4) % 8, Nat.mod_lt _ (by decide)⟩)
        + (f ⟨(l + 1) % 8, Nat.mod_lt _ (by decide)⟩ + f ⟨(l + 5) % 8, Nat.mod_lt _ (by decide)⟩))
      + ((f ⟨(l + 2) % 8, Nat.mod_lt _ (by decide)⟩ + f ⟨(l + 6) % 8, Nat.mod_lt _ (by decide)⟩)
        + (f ⟨(l + 3) % 8, Nat.mod_lt _ (by decide)⟩ + f ⟨(l + 7) % 8, Nat.mod_lt _ (by decide)⟩))
      = ∑ x : Fin 8, f x := by
  have hm : ∀ r : ℕ, (⟨(l + r) % 8, Nat.mod_lt _ (by decide)⟩ : Fin 8) = ⟨(l % 8 + r) % 8, Nat.mod_lt _ (by decide)⟩ :=
    fun r => Fin.ext (by show (l + r) % 8 = (l % 8 + r) % 8; omega)
  simp only [hm]
  have hl : l % 8 < 8 := Nat.mod_lt _ (by decide)
  generalize l % 8 = m at hl
  have h8 : ∑ x : Fin 8, f x
      = f ⟨0, by decide⟩ + f ⟨1, by decide⟩ + f ⟨2, by decide⟩ + f ⟨3, by decide⟩ + f ⟨4, by decide⟩ + f ⟨5, by decide⟩
        + f ⟨6, by decide⟩ + f ⟨7, by decide⟩ := by
    rw [Fin.sum_univ_eight]; rfl
  rw [h8]
  interval_cases m <;> simp only [Nat.reduceAdd, Nat.reduceMod] <;> abel

/-! ## The kernel's word is the specification's entry -/

/-- The specification's summand at rank r₂. -/
def term (c0 : FVec Ideal Spec.SC0 .f32) (c1 : FVec Ideal Spec.SC1 .f32) (c2 : FVec Ideal Spec.SC2 .f32) (n e : ℕ) (r2 : Fin 8) : EReal :=
  (∑ r1 : Fin 8,
      c0 (ix4 (0 : Fin 1) (⟨(n / 10000) % 100, Nat.mod_lt _ (by decide)⟩ : Fin 100) (⟨(e / 16) % 4, Nat.mod_lt _ (by decide)⟩ : Fin 4) r1)
        * c1 (ix4 r1 (⟨(n / 100) % 100, Nat.mod_lt _ (by decide)⟩ : Fin 100) (⟨(e / 4) % 4, Nat.mod_lt _ (by decide)⟩ : Fin 4) r2))
    * c2 (ix4 r2 (⟨n % 100, Nat.mod_lt _ (by decide)⟩ : Fin 100) (⟨e % 4, Nat.mod_lt _ (by decide)⟩ : Fin 4) (0 : Fin 1))

theorem emb_eq_sum_term (c0 : FVec Ideal Spec.SC0 .f32) (c1 : FVec Ideal Spec.SC1 .f32) (c2 : FVec Ideal Spec.SC2 .f32) (n e : ℕ) :
    Spec.emb c0 c1 c2 n e = ∑ r2 : Fin 8, term c0 c1 c2 n e r2 := rfl

/-- The product the lane forms at rotation r is the specification's summand at rank (l + r) % 8. -/
theorem prod_eq_term (c0 : FVec Ideal Spec.SC0 .f32) (c1 : FVec Ideal Spec.SC1 .f32) (c2 : FVec Ideal Spec.SC2 .f32)
    (n e l r : ℕ) (hn : n ≤ 999999) (he : e < 64) :
    TileSpec.prod (F := Ideal) (PT c0 c1) (CT c2) (n / 100) (n % 100) l (e / 4) (e % 4) r
      = term c0 c1 c2 n e ⟨(l + r) % 8, Nat.mod_lt _ (by decide)⟩ := by
  unfold TileSpec.prod term
  rw [PT_apply, CT_apply]
  show ptEntry c0 c1 ((n / 100) % 10000) ((8 * (e / 4) + (l + r) % 8) % 128)
      * ctEntry c2 ((33 * (n % 100) + 4 * ((l + r) % 8) + e % 4) % 3304) = _
  rw [ptEntry_eq c0 c1 _ _ (⟨(n / 10000) % 100, Nat.mod_lt _ (by decide)⟩ : Fin 100) (⟨(e / 16) % 4, Nat.mod_lt _ (by decide)⟩ : Fin 4)
      (⟨(n / 100) % 100, Nat.mod_lt _ (by decide)⟩ : Fin 100) (⟨(e / 4) % 4, Nat.mod_lt _ (by decide)⟩ : Fin 4)
      (⟨(l + r) % 8, Nat.mod_lt _ (by decide)⟩ : Fin 8)
      (by show _ = (n / 10000) % 100; omega) (by show _ = (e / 16) % 4; omega) (by show _ = (n / 100) % 100; omega)
      (by show _ = (e / 4) % 4; omega) (by show _ = (l + r) % 8; omega),
    ctEntry_eq c2 _ (⟨(l + r) % 8, Nat.mod_lt _ (by decide)⟩ : Fin 8) (⟨n % 100, Nat.mod_lt _ (by decide)⟩ : Fin 100)
      (⟨e % 4, Nat.mod_lt _ (by decide)⟩ : Fin 4) (by show _ = 33 * (n % 100) + 4 * ((l + r) % 8) + e % 4; omega)]

/-- THE WORD: with the two tables, what a lane leaves for token word n at column e is the specification's entry. -/
theorem word_eq_emb (c0 : FVec Ideal Spec.SC0 .f32) (c1 : FVec Ideal Spec.SC1 .f32) (c2 : FVec Ideal Spec.SC2 .f32)
    (n t e : ℕ) (hn : n ≤ 999999) (he : e < 64) :
    TileSpec.word (F := Ideal) (PT c0 c1) (CT c2) n t e = Spec.emb c0 c1 c2 n e := by
  unfold TileSpec.word TileSpec.lane
  simp only [prod_eq_term c0 c1 c2 n e _ _ hn he]
  rw [emb_eq_sum_term]
  exact rot8_sum (term c0 c1 c2 n e) (t % 16)

/-! ## The 32 subcores' words, reshaped, are the specification -/

/-- THE RESULT: if every subcore has left its words in the flat result, the result reshaped is the specification of
    the four argument arrays. -/
theorem out_eq_G (idx : IVec Spec.SIdx 32) (c0 : FVec Ideal Spec.SC0 .f32) (c1 : FVec Ideal Spec.SC1 .f32) (c2 : FVec Ideal Spec.SC2 .f32)
    (f : Vec Ideal TileSpec.SO .f32) (hidx : ∀ j, 0 ≤ (idx j).toInt ∧ (idx j).toInt ≤ 999999)
    (h : ∀ w, w < 32 → TileSpec.OutOK (F := Ideal) (flat idx) (PT c0 c1) (CT c2) w f) :
    reshape3 f = Spec.G idx c0 c1 c2 := by
  funext j
  obtain ⟨b, g, e, rfl⟩ : ∃ (b : Fin 16384) (g : Fin 26) (e : Fin 64), j = ix3 b g e := ⟨j 0, j 1, j 2, eq_ix3 j⟩
  have hb := b.isLt
  have hg := g.isLt
  have he := e.isLt
  -- the token, its subcore and its place in the subcore's range
  have hT : 26 * b.val + g.val < 425984 := by omega
  have hw : (26 * b.val + g.val) / 13312 < 32 := by omega
  have ht : (26 * b.val + g.val) % 13312 < 13312 := Nat.mod_lt _ (by decide)
  have hsplit : 13312 * ((26 * b.val + g.val) / 13312) + (26 * b.val + g.val) % 13312 = 26 * b.val + g.val := Nat.div_add_mod _ _
  have hok := h _ hw ⟨(26 * b.val + g.val) % 13312, ht⟩ e
  rw [reshape3_apply f b g e ⟨64 * (26 * b.val + g.val) + e.val, by omega⟩ rfl]
  have e1 : (⟨(64 * (13312 * ((26 * b.val + g.val) / 13312) + (26 * b.val + g.val) % 13312) + e.val) % 27262976, Nat.mod_lt _ (by decide)⟩ : Fin 27262976)
      = ⟨64 * (26 * b.val + g.val) + e.val, by omega⟩ := Fin.ext (by show _ % 27262976 = 64 * (26 * b.val + g.val) + e.val; omega)
  have e2 : (⟨(13312 * ((26 * b.val + g.val) / 13312) + (26 * b.val + g.val) % 13312) % 425984, Nat.mod_lt _ (by decide)⟩ : Fin 425984)
      = ⟨26 * b.val + g.val, hT⟩ := Fin.ext (by show _ % 425984 = 26 * b.val + g.val; omega)
  simp only [] at hok
  rw [e1, e2, flat_apply idx b g ⟨26 * b.val + g.val, hT⟩ rfl] at hok
  rw [hok]
  have hn : (idx (ix2 b g)).toNat ≤ 999999 := by
    have := hidx (ix2 b g)
    have h0 : (idx (ix2 b g)).toInt = ((idx (ix2 b g)).toNat : ℤ) := by
      rw [BitVec.toInt_eq_toNat_of_msb]
      rw [BitVec.msb_eq_false_iff_two_mul_lt]  -- the word is not negative
      have := this.1
      rw [BitVec.toInt_eq_toNat_cond] at this
      split at this <;> omega
    omega
  exact word_eq_emb c0 c1 c2 _ _ _ hn he

end Cert.Proof.KV

end
-- ==== Proof.KernelHost.lean ====
/-
  The host part builds the two tables: the operations that stand before the kernel in the program, composed in program
  order over the argument arrays, read at an index on the extended reals, are the index formulas of KernelTables.

  The pair table: the first core reshaped to [100, 32] (row i₁, column k = 8 a + r₁) times, by one matrix product
  contracting k, the block matrix [32, 12800] whose entry (8 a + r₁, 128 i₂ + 32 d + 8 j₂ + r₂) is
  eye[a, d] · core1[r₁, i₂, j₂, r₂] — the 4 × 4 identity, made as the comparison of two iotas converted to float,
  broadcast against the second core and multiplied —, the product [100, 12800] then read as [10000, 128]: row
  100 i₁ + i₂, column 32 d + 8 j₂ + r₂.
  The third-core table: the third core without its unit axis, transposed to [100, 8, 4], read as [100, 32], a zero
  column appended, read flat, four zeros appended.
-/
import proofs.«207215_g13752485282153_cont_week2b_1454_30_alg».proof.Proof.Gen.KernelIdeal.Skeleton
import proofs.«207215_g13752485282153_cont_week2b_1454_30_alg».proof.Proof.KernelTables
import Idealize.ShloMosaic.Lib.IdealHost
import Idealize.ShloMosaic.Lib.KernelVsHost

noncomputable section

open scoped BigOperators

namespace Cert.Proof.KV

open Idealize.ShloMosaic Idealize.ShloMosaic.ValueIdx
open Cert.KernelIdeal Cert.KernelIdeal.Gen
open Cert.Proof

/-! ## The host operations composed, for any float instance -/

section Host
variable {F : FTy → Type} [FloatOps F] [Named F]

/-- The index array read flat. -/
def hostIdx (a0 : IVec S16384x26 32) : IVec S425984 32 := shapeCast S425984 a0 shapeCasts_S16384x26_S425984

/-- The first core as the product's left operand [100, 32]. -/
def hostLhs (a1 : Vec F S1x100x4x8 .f32) : Vec F S100x32 .f32 :=
  shapeCast S100x32 (shapeCast S100x4x8 a1 shapeCasts_S1x100x4x8_S100x4x8) shapeCasts_S100x4x8_S100x32

/-- The 4 × 4 identity: the comparison of the row iota (plus the zero word) with the column iota, converted to float. -/
def hostEye : Vec F S4x4 .f32 :=
  uitofp .f32 (cmpi .eq (addi (iotaInDim S4x4 32 0) (broadcastInDim S4x4 ![] bcast_S_S4x4 (constantI S_ 32 0#32))) (iotaInDim S4x4 32 1))

/-- The product's right operand [32, 12800]: the identity and the second core broadcast to [4, 8, 100, 4, 4, 8],
    multiplied, read as a matrix. -/
def hostRhs (a2 : Vec F S8x100x4x8 .f32) : Vec F S32x12800 .f32 :=
  shapeCast S32x12800
    (mulf
      (broadcastInDim S4x8x100x4x4x8 ![0, 1, 2, 3, 4, 5] bcast_S4x1x1x4x1x1_S4x8x100x4x4x8_0_1_2_3_4_5
        (broadcastInDim S4x1x1x4x1x1 ![0, 3] bcast_S4x4_S4x1x1x4x1x1_0_3 (hostEye (F := F))))
      (broadcastInDim S4x8x100x4x4x8 ![0, 1, 2, 3, 4, 5] bcast_S1x8x100x1x4x8_S4x8x100x4x4x8_0_1_2_3_4_5
        (broadcastInDim S1x8x100x1x4x8 ![1, 2, 4, 5] bcast_S8x100x4x8_S1x8x100x1x4x8_1_2_4_5 a2)))
    shapeCasts_S4x8x100x4x4x8_S32x12800

/-- The pair table as the host builds it: the matrix product of the two operands, read as [10000, 128]. -/
def hostPT (a1 : Vec F S1x100x4x8 .f32) (a2 : Vec F S8x100x4x8 .f32) : Vec F S10000x128 .f32 :=
  shapeCast S10000x128 (k0_pay1 (hostLhs a1) (hostRhs a2)) shapeCasts_S100x12800_S10000x128

/-- The third-core table as the host builds it. -/
def hostCT (a3 : Vec F S8x100x4x1 .f32) : Vec F S3304 .f32 :=
  pad S3304 ![0] ![4] ![0]
    (shapeCast S3300
      (pad S100x33 ![0, 0] ![0, 1] ![0, 0]
        (shapeCast S100x32
          (transpose S100x8x4 [1, 0, 2] (shapeCast S8x100x4 a3 shapeCasts_S8x100x4x1_S8x100x4) transposes_S8x100x4_S100x8x4_1_0_2)
          shapeCasts_S100x8x4_S100x32)
        (sitofp .f32 (constantI S_ 32 0#32)) pads_S100x32_S100x33_000_010 h_S_)
      shapeCasts_S100x33_S3300)
    (sitofp .f32 (constantI S_ 32 0#32)) pads_S3300_S3304_040 h_S_

/-- The flat result read as [16384, 26, 64]. -/
def hostOut (f : Vec F S27262976 .f32) : Vec F S16384x26x64 .f32 := shapeCast S16384x26x64 f shapeCasts_S27262976_S16384x26x64

end Host

/-! ## The two reshapes at the ends -/

theorem hostIdx_eq (a0 : IVec S16384x26 32) : hostIdx a0 = flat a0 := rfl

theorem hostOut_eq (f : Vec Ideal S27262976 .f32) : hostOut f = reshape3 f := rfl

/-! ## The left operand and the identity at an index -/

/-- The left operand at (i₁, k), k = 8 a + r₁, is core0[0, i₁, a, r₁]. -/
theorem hostLhs_apply (a1 : Vec Ideal S1x100x4x8 .f32) (i1 : Fin 100) (k : Fin 32) (ka : Fin 4) (kr : Fin 8)
    (hk : k.val = 8 * ka.val + kr.val) : hostLhs a1 (ix2 i1 k) = a1 (ix4 (0 : Fin 1) i1 ka kr) := by
  unfold hostLhs
  refine (shapeCast_apply _ _ (ix2 i1 k) (ix3 i1 ka kr) (by
    rw [Shape.rowMajor_val_three, Shape.rowMajor_val_two]
    show (i1.val * 4 + ka.val) * 8 + kr.val = i1.val * 32 + k.val
    omega)).trans ?_
  exact shapeCast_1abc_abc_apply a1 _ i1 ka kr

/-- The word the comparison leaves at (a, d): one where a = d, else zero. -/
theorem eyeWord (a d : ℕ) (ha : a < 4) (hd : d < 4) :
    (IntOp.cmpi .eq (IntOp.addi (BitVec.ofNat 32 a) 0#32) (BitVec.ofNat 32 d)).toNat = if a = d then 1 else 0 := by
  interval_cases a <;> interval_cases d <;> rfl

/-- The identity at (a, d). -/
theorem hostEye_apply (a d : Fin 4) : hostEye (F := Ideal) (ix2 a d) = eye a.val d.val := by
  show (((IntOp.cmpi .eq (IntOp.addi (BitVec.ofNat 32 a.val) 0#32) (BitVec.ofNat 32 d.val)).toNat : ℝ) : EReal) = eye a.val d.val
  rw [eyeWord a.val d.val a.isLt d.isLt]
  unfold eye
  split <;> simp

/-! ## The right operand at an index -/

/-- The right operand at (8 a + r₁, 128 i₂ + 32 d + 8 j₂ + r₂) is eye[a, d] · core1[r₁, i₂, j₂, r₂]. -/
theorem hostRhs_apply (a2 : Vec Ideal S8x100x4x8 .f32) (k : Fin 32) (c : Fin 12800) (ka : Fin 4) (kr : Fin 8) (i2 : Fin 100)
    (d : Fin 4) (j2 : Fin 4) (r2 : Fin 8) (hk : k.val = 8 * ka.val + kr.val)
    (hc : c.val = 128 * i2.val + 32 * d.val + 8 * j2.val + r2.val) :
    hostRhs a2 (ix2 k c) = eye ka.val d.val * a2 (ix4 kr i2 j2 r2) := by
  unfold hostRhs
  refine (shapeCast_apply _ _ (ix2 k c) (ix6 ka kr i2 d j2 r2) (by
    rw [Shape.rowMajor_val_six, Shape.rowMajor_val_two]
    show ((((ka.val * 8 + kr.val) * 100 + i2.val) * 4 + d.val) * 4 + j2.val) * 8 + r2.val = k.val * 12800 + c.val
    omega)).trans ?_
  rw [mulf_apply]
  have e1 : broadcastInDim S4x8x100x4x4x8 ![0, 1, 2, 3, 4, 5] bcast_S4x1x1x4x1x1_S4x8x100x4x4x8_0_1_2_3_4_5
      (broadcastInDim S4x1x1x4x1x1 ![0, 3] bcast_S4x4_S4x1x1x4x1x1_0_3 (hostEye (F := Ideal))) (ix6 ka kr i2 d j2 r2)
      = eye ka.val d.val := by
    refine (broadcastInDim_apply _ _ _ (ix6 ka kr i2 d j2 r2) (ix6 ka (0 : Fin 1) (0 : Fin 1) d (0 : Fin 1) (0 : Fin 1)) (fun a => by
      match a with
      | ⟨0, _⟩ => rfl
      | ⟨1, _⟩ => rfl
      | ⟨2, _⟩ => rfl
      | ⟨3, _⟩ => rfl
      | ⟨4, _⟩ => rfl
      | ⟨5, _⟩ => rfl)).trans ?_
    refine (broadcastInDim_apply _ _ _ (ix6 ka (0 : Fin 1) (0 : Fin 1) d (0 : Fin 1) (0 : Fin 1)) (ix2 ka d) (fun a => by
      match a with
      | ⟨0, _⟩ => rfl
      | ⟨1, _⟩ => rfl)).trans ?_
    exact hostEye_apply ka d
  have e2 : broadcastInDim S4x8x100x4x4x8 ![0, 1, 2, 3, 4, 5] bcast_S1x8x100x1x4x8_S4x8x100x4x4x8_0_1_2_3_4_5
      (broadcastInDim S1x8x100x1x4x8 ![1, 2, 4, 5] bcast_S8x100x4x8_S1x8x100x1x4x8_1_2_4_5 a2) (ix6 ka kr i2 d j2 r2)
      = a2 (ix4 kr i2 j2 r2) := by
    refine (broadcastInDim_apply _ _ _ (ix6 ka kr i2 d j2 r2) (ix6 (0 : Fin 1) kr i2 (0 : Fin 1) j2 r2) (fun a => by
      match a with
      | ⟨0, _⟩ => rfl
      | ⟨1, _⟩ => rfl
      | ⟨2, _⟩ => rfl
      | ⟨3, _⟩ => rfl
      | ⟨4, _⟩ => rfl
      | ⟨5, _⟩ => rfl)).trans ?_
    exact broadcastInDim_apply _ _ _ (ix6 (0 : Fin 1) kr i2 (0 : Fin 1) j2 r2) (ix4 kr i2 j2 r2) (fun a => by
      match a with
      | ⟨0, _⟩ => rfl
      | ⟨1, _⟩ => rfl
      | ⟨2, _⟩ => rfl
      | ⟨3, _⟩ => rfl)
  rw [e1, e2]

/-! ## The matrix product at an index -/

theorem lhs_pay1_0 (i : S100x12800.Idx) (q : dot_S100x32_S32x12800_S100x12800_1_0_0_1_n_n.contr.Idx) :
    (dot_S100x32_S32x12800_S100x12800_1_0_0_1_n_n.lhsIdx i q 0).val = (i 0).val := by
  unfold DotDims.lhsIdx
  rw [dif_neg (show ¬(0 : Fin S100x32.rank) ∈ dot_S100x32_S32x12800_S100x12800_1_0_0_1_n_n.lhsBatch by decide),
    dif_pos (show (0 : Fin S100x32.rank) ∈ dot_S100x32_S32x12800_S100x12800_1_0_0_1_n_n.lhsNonContracting by decide)]
  rfl
theorem lhs_pay1_1 (i : S100x12800.Idx) (q : dot_S100x32_S32x12800_S100x12800_1_0_0_1_n_n.contr.Idx) :
    (dot_S100x32_S32x12800_S100x12800_1_0_0_1_n_n.lhsIdx i q 1).val = (q ⟨0, by decide⟩).val :=
  dot_S100x32_S32x12800_S100x12800_1_0_0_1_n_n.lhsIdx_val_of_single rfl i q
theorem rhs_pay1_0 (i : S100x12800.Idx) (q : dot_S100x32_S32x12800_S100x12800_1_0_0_1_n_n.contr.Idx) :
    (dot_S100x32_S32x12800_S100x12800_1_0_0_1_n_n.rhsIdx i q 0).val = (q ⟨0, by decide⟩).val :=
  dot_S100x32_S32x12800_S100x12800_1_0_0_1_n_n.rhsIdx_val_of_single rfl i q
theorem rhs_pay1_1 (i : S100x12800.Idx) (q : dot_S100x32_S32x12800_S100x12800_1_0_0_1_n_n.contr.Idx) :
    (dot_S100x32_S32x12800_S100x12800_1_0_0_1_n_n.rhsIdx i q 1).val = (i 1).val := by
  unfold DotDims.rhsIdx
  rw [dif_neg (show ¬(1 : Fin S32x12800.rank) ∈ dot_S100x32_S32x12800_S100x12800_1_0_0_1_n_n.rhsBatch by decide),
    dif_pos (show (1 : Fin S32x12800.rank) ∈ dot_S100x32_S32x12800_S100x12800_1_0_0_1_n_n.rhsNonContracting by decide)]
  rfl

/-- The product at (i₁, c) is the sum over k in [0, 32) of the left operand at (i₁, k) times the right at (k, c). -/
theorem pay1_apply (l : FVec Ideal S100x32 .f32) (r : FVec Ideal S32x12800 .f32) (i1 : Fin 100) (c : Fin 12800) :
    k0_pay1 (F := Ideal) l r (ix2 i1 c) = ∑ k : Fin 32, l (ix2 i1 k) * r (ix2 k c) := by
  show FloatOps.matmul (F := Ideal) (φ₁ := .f32) (φ₂ := .f32) dot_S100x32_S32x12800_S100x12800_1_0_0_1_n_n none (shapeCast S100x32 l shapeCasts_S100x32_S100x32)
      (shapeCast S32x12800 r shapeCasts_S32x12800_S32x12800) (constant S100x12800 .f32 0x00000000#32) (ix2 i1 c) = _
  rw [shapeCast_self, shapeCast_self, Ideal.matmul_constant_zero_apply,
    ← Equiv.sum_comp (contrEquiv1 dot_S100x32_S32x12800_S100x12800_1_0_0_1_n_n 32 rfl rfl).symm]
  refine Finset.sum_congr rfl fun k _ => ?_
  have hk := contrEquiv1_symm_val dot_S100x32_S32x12800_S100x12800_1_0_0_1_n_n 32 rfl rfl k
  have el : dot_S100x32_S32x12800_S100x12800_1_0_0_1_n_n.lhsIdx (ix2 i1 c)
      ((contrEquiv1 dot_S100x32_S32x12800_S100x12800_1_0_0_1_n_n 32 rfl rfl).symm k) = ix2 i1 k := funext fun a => Fin.ext (by
    match a with
    | ⟨0, _⟩ => exact lhs_pay1_0 _ _
    | ⟨1, _⟩ => exact (lhs_pay1_1 _ _).trans hk)
  have er : dot_S100x32_S32x12800_S100x12800_1_0_0_1_n_n.rhsIdx (ix2 i1 c)
      ((contrEquiv1 dot_S100x32_S32x12800_S100x12800_1_0_0_1_n_n 32 rfl rfl).symm k) = ix2 k c := funext fun a => Fin.ext (by
    match a with
    | ⟨0, _⟩ => exact (rhs_pay1_0 _ _).trans hk
    | ⟨1, _⟩ => exact rhs_pay1_1 _ _)
  rw [el, er]

/-! ## The pair table -/

/-- THE PAIR TABLE: what the host builds from the first two cores is the index formula. -/
theorem hostPT_eq (a1 : Vec Ideal S1x100x4x8 .f32) (a2 : Vec Ideal S8x100x4x8 .f32) : hostPT a1 a2 = PT a1 a2 := by
  funext i
  obtain ⟨ρ, col, rfl⟩ : ∃ (ρ : Fin 10000) (col : Fin 128), i = ix2 ρ col := ⟨i 0, i 1, eq_ix2 i⟩
  have hρ := ρ.isLt
  have hcol := col.isLt
  rw [PT_apply]
  unfold hostPT ptEntry
  refine (shapeCast_apply _ _ (ix2 ρ col) (ix2 (⟨ρ.val / 100, by omega⟩ : Fin 100) (⟨128 * (ρ.val % 100) + col.val, by omega⟩ : Fin 12800)) (by
    rw [Shape.rowMajor_val_two, Shape.rowMajor_val_two]
    show ρ.val / 100 * 12800 + (128 * (ρ.val % 100) + col.val) = ρ.val * 128 + col.val
    omega)).trans ?_
  rw [pay1_apply]
  refine Finset.sum_congr rfl fun k _ => ?_
  have hk := k.isLt
  rw [hostLhs_apply a1 (⟨ρ.val / 100, by omega⟩ : Fin 100) k (⟨(k.val / 8) % 4, Nat.mod_lt _ (by decide)⟩ : Fin 4)
      (⟨k.val % 8, Nat.mod_lt _ (by decide)⟩ : Fin 8) (by show k.val = 8 * ((k.val / 8) % 4) + k.val % 8; omega),
    hostRhs_apply a2 k (⟨128 * (ρ.val % 100) + col.val, by omega⟩ : Fin 12800) (⟨(k.val / 8) % 4, Nat.mod_lt _ (by decide)⟩ : Fin 4)
      (⟨k.val % 8, Nat.mod_lt _ (by decide)⟩ : Fin 8) (⟨ρ.val % 100, Nat.mod_lt _ (by decide)⟩ : Fin 100)
      (⟨col.val / 32, by omega⟩ : Fin 4) (⟨(col.val / 8) % 4, Nat.mod_lt _ (by decide)⟩ : Fin 4)
      (⟨col.val % 8, Nat.mod_lt _ (by decide)⟩ : Fin 8) (by show k.val = 8 * ((k.val / 8) % 4) + k.val % 8; omega)
      (by show 128 * (ρ.val % 100) + col.val = 128 * (ρ.val % 100) + 32 * (col.val / 32) + 8 * ((col.val / 8) % 4) + col.val % 8; omega)]
  have e1 : (⟨ρ.val / 100, by omega⟩ : Fin 100) = ⟨(ρ.val / 100) % 100, Nat.mod_lt _ (by decide)⟩ :=
    Fin.ext (by show ρ.val / 100 = (ρ.val / 100) % 100; omega)
  have e2 : eye ((k.val / 8) % 4) (col.val / 32) = eye (k.val / 8) (col.val / 32) := by
    rw [show (k.val / 8) % 4 = k.val / 8 by omega]
  rw [e1]
  show _ * (eye ((k.val / 8) % 4) (col.val / 32) * _) = _
  rw [e2]

/-! ## The third-core table -/

/-- The padding value, the zero word converted to float, is zero. -/
theorem padZero (j : S_.Idx) : (sitofp (F := Ideal) .f32 (constantI S_ 32 0#32)) j = 0 := by
  show ((((0#32 : BitVec 32).toInt : ℝ)) : EReal) = 0
  simp

/-- The third core without its unit axis, transposed and read as [100, 32], at (i₃, 4 r₂ + j₃). -/
theorem hostCT_inner_apply (a3 : Vec Ideal S8x100x4x1 .f32) (i3 : Fin 100) (c : Fin 32) (r2 : Fin 8) (j3 : Fin 4)
    (hc : c.val = 4 * r2.val + j3.val) :
    shapeCast S100x32
        (transpose S100x8x4 [1, 0, 2] (shapeCast S8x100x4 a3 shapeCasts_S8x100x4x1_S8x100x4) transposes_S8x100x4_S100x8x4_1_0_2)
        shapeCasts_S100x8x4_S100x32 (ix2 i3 c)
      = a3 (ix4 r2 i3 j3 (0 : Fin 1)) := by
  refine (shapeCast_apply _ _ (ix2 i3 c) (ix3 i3 r2 j3) (by
    rw [Shape.rowMajor_val_three, Shape.rowMajor_val_two]
    show (i3.val * 8 + r2.val) * 4 + j3.val = i3.val * 32 + c.val
    omega)).trans ?_
  refine (transpose_apply _ _ _ (ix3 i3 r2 j3) (ix3 r2 i3 j3) (fun b => by
    match b with
    | ⟨0, _⟩ => rfl
    | ⟨1, _⟩ => rfl
    | ⟨2, _⟩ => rfl)).trans ?_
  exact shapeCast_apply _ _ (ix3 r2 i3 j3) (ix4 r2 i3 j3 (0 : Fin 1)) (by
    rw [Shape.rowMajor_val_four, Shape.rowMajor_val_three]
    show ((r2.val * 100 + i3.val) * 4 + j3.val) * 1 + 0 = (r2.val * 100 + i3.val) * 4 + j3.val
    omega)

/-- THE THIRD-CORE TABLE: what the host builds from the third core is the index formula. -/
theorem hostCT_eq (a3 : Vec Ideal S8x100x4x1 .f32) : hostCT a3 = CT a3 := by
  funext i
  obtain ⟨p, rfl⟩ : ∃ p : Fin 3304, i = ix1 p := ⟨i 0, eq_ix1 i⟩
  have hp := p.isLt
  rw [CT_apply]
  unfold hostCT ctEntry
  by_cases h1 : p.val < 3300
  · -- inside the flat array of 3300 words
    refine (pad_apply_of_inside _ _ _ _ _ _ _ (ix1 p) (ix1 (⟨p.val, h1⟩ : Fin 3300)) (fun a => by
      match a with
      | ⟨0, _⟩ => show p.val = 0 + p.val * (0 + 1); omega)).trans ?_
    refine (shapeCast_apply _ _ (ix1 (⟨p.val, h1⟩ : Fin 3300)) (ix2 (⟨p.val / 33, by omega⟩ : Fin 100) (⟨p.val % 33, Nat.mod_lt _ (by decide)⟩ : Fin 33)) (by
      rw [Shape.rowMajor_val_two, Shape.rowMajor_val_one]
      show p.val / 33 * 33 + p.val % 33 = p.val
      omega)).trans ?_
    by_cases h2 : p.val % 33 < 32
    · rw [if_pos ⟨h1, h2⟩]
      refine (pad_apply_of_inside _ _ _ _ _ _ _ (ix2 (⟨p.val / 33, by omega⟩ : Fin 100) (⟨p.val % 33, Nat.mod_lt _ (by decide)⟩ : Fin 33))
        (ix2 (⟨p.val / 33, by omega⟩ : Fin 100) (⟨p.val % 33, h2⟩ : Fin 32)) (fun a => by
        match a with
        | ⟨0, _⟩ => show p.val / 33 = 0 + p.val / 33 * (0 + 1); omega
        | ⟨1, _⟩ => show p.val % 33 = 0 + p.val % 33 * (0 + 1); omega)).trans ?_
      refine (hostCT_inner_apply a3 (⟨p.val / 33, by omega⟩ : Fin 100) (⟨p.val % 33, h2⟩ : Fin 32)
        (⟨((p.val % 33) / 4) % 8, Nat.mod_lt _ (by decide)⟩ : Fin 8) (⟨(p.val % 33) % 4, Nat.mod_lt _ (by decide)⟩ : Fin 4)
        (by show p.val % 33 = 4 * (((p.val % 33) / 4) % 8) + (p.val % 33) % 4; omega)).trans ?_
      have e1 : (⟨p.val / 33, by omega⟩ : Fin 100) = ⟨(p.val / 33) % 100, Nat.mod_lt _ (by decide)⟩ :=
        Fin.ext (by show p.val / 33 = (p.val / 33) % 100; omega)
      rw [e1]
    · rw [if_neg (fun h => h2 h.2)]
      refine (pad_apply_of_not_inside _ _ _ _ _ _ _ (ix2 (⟨p.val / 33, by omega⟩ : Fin 100) (⟨p.val % 33, Nat.mod_lt _ (by decide)⟩ : Fin 33))
        (1 : Fin 2) (by
          show ¬(0 ≤ p.val % 33 ∧ (p.val % 33 - 0) % (0 + 1) = 0 ∧ (p.val % 33 - 0) / (0 + 1) < 32)
          omega)).trans ?_
      exact padZero _
  · rw [if_neg (fun h => h1 h.1)]
    refine (pad_apply_of_not_inside _ _ _ _ _ _ _ (ix1 p) (0 : Fin 1) (by
      show ¬(0 ≤ p.val ∧ (p.val - 0) % (0 + 1) = 0 ∧ (p.val - 0) / (0 + 1) < 3300)
      omega)).trans ?_
    exact padZero _

/-! ## The kernel's value -/

/-- THE VALUE: if every one of the 32 subcores has left its words in the flat result, computed with the index array read
    flat and the two tables the host part builds from the cores, then the flat result read as [16384, 26, 64] is the
    specification of the four argument arrays. -/
theorem host_out_eq_G (a0 : IVec S16384x26 32) (a1 : Vec Ideal S1x100x4x8 .f32) (a2 : Vec Ideal S8x100x4x8 .f32)
    (a3 : Vec Ideal S8x100x4x1 .f32) (f : Vec Ideal S27262976 .f32) (hidx : ∀ j, 0 ≤ (a0 j).toInt ∧ (a0 j).toInt ≤ 999999)
    (h : ∀ w, w < 32 → TileSpec.OutOK (F := Ideal) (hostIdx a0) (hostPT a1 a2) (hostCT a3) w f) :
    hostOut f = Spec.G a0 a1 a2 a3 := by
  rw [hostOut_eq]
  refine out_eq_G a0 a1 a2 a3 f hidx fun w hw => ?_
  have hw' := h w hw
  rwa [hostIdx_eq, hostPT_eq, hostCT_eq] at hw'

end Cert.Proof.KV

end
-- ==== Proof.HundredthIdeal.lean ====
/-
  The digit split's quotient over the extended reals. At the ideal instance the kernel's constant for one
  hundredth is the NAMED constant, which the certificate's table gives the rational 1/100; the operations are
  exact, so the lane computation is the integer part of (n + 1/2) / 100. With n = 100 q + r, 0 ≤ r < 100, that
  number is q + (r + 1/2)/100, which lies in [q, q + 1): its integer part is q = n / 100, well inside the
  32-bit range, so the clamp does nothing.
-/
import proofs.«207215_g13752485282153_cont_week2b_1454_30_alg».proof.Proof.Hundredth
import proofs.«207215_g13752485282153_cont_week2b_1454_30_alg».proof.KernelIdeal
import Idealize.ShloMosaic.PureOps.Ideal
import Idealize.ShloMosaic.PureOps.IdealRules
import Mathlib.Algebra.Order.Floor.Ring
import Mathlib.Tactic.Linarith
import Mathlib.Tactic.NormNum
import Mathlib.Tactic.Push

noncomputable section

namespace Cert.Proof.Hundredth

open Idealize.ShloMosaic

/-- The kernel's named hundredth denotes the rational 1/100 at the ideal instance, by the certificate's table. -/
theorem inv_100 :
    Named.named (F := Ideal) Cert.KernelIdeal.κ "inv_100" (φ := .f32) 0x3C23D70A#32 = ((1 / 100 : ℝ) : EReal) :=
  IdealRules.named_const.ideal_named_scalar _ _ _ _ rfl

/-- The pattern `0x3F000000` denotes one half. -/
theorem ofBits_half : Ideal.ofBits .f32 0x3F000000#32 = ((1 / 2 : ℝ) : EReal) := by
  simp [Ideal.ofBits, Ideal.ieee, -EReal.coe_mul]; norm_num

/-- The integer part of `(n + 1/2) / 100` is `n / 100`. -/
theorem floor_hundredth (n : Nat) : ⌊((n : ℝ) + 1 / 2) * (1 / 100)⌋ = ((n / 100 : Nat) : Int) := by
  rw [Int.floor_eq_iff]
  have hdiv : (n : ℝ) = 100 * ((n / 100 : Nat) : ℝ) + ((n % 100 : Nat) : ℝ) := by
    exact_mod_cast (Nat.div_add_mod n 100).symm
  have hr : ((n % 100 : Nat) : ℝ) ≤ 99 := by
    have : n % 100 ≤ 99 := by omega
    exact_mod_cast this
  have hr0 : (0 : ℝ) ≤ ((n % 100 : Nat) : ℝ) := Nat.cast_nonneg _
  rw [Int.cast_natCast]
  constructor <;> nlinarith

theorem ideal : OK Ideal (Named.named (F := Ideal) Cert.KernelIdeal.κ "inv_100" (φ := .f32) 0x3C23D70A#32) := by
  intro v h0 h1
  rw [inv_100]
  show Ideal.fptosi 32 ((((v.toInt : ℝ) : EReal) + Ideal.ofBits .f32 0x3F000000#32) * ((1 / 100 : ℝ) : EReal)) = _
  have hv : v.toInt = (v.toNat : Int) := by
    have h := BitVec.toInt_eq_toNat_cond v
    have hlt := v.isLt
    split at h <;> omega
  have hn : v.toNat ≤ 999999 := by omega
  rw [ofBits_half, ← EReal.coe_add, ← EReal.coe_mul, Ideal.fptosi, Ideal.toIntClamped_coe, hv]
  have hpos : (0 : ℝ) ≤ (((v.toNat : Int) : ℝ) + 1 / 2) * (1 / 100) := by
    have : (0 : ℝ) ≤ ((v.toNat : Int) : ℝ) := by exact_mod_cast Int.natCast_nonneg _
    nlinarith
  rw [if_pos hpos]
  have hfl : ⌊(((v.toNat : Int) : ℝ) + 1 / 2) * (1 / 100)⌋ = ((v.toNat / 100 : Nat) : Int) := by
    have := floor_hundredth v.toNat
    simpa using this
  rw [hfl]
  have hq : v.toNat / 100 ≤ 9999 := by omega
  have h1 : min (((2 ^ (32 - 1) : Nat) : Int) - 1) ((v.toNat / 100 : Nat) : Int) = ((v.toNat / 100 : Nat) : Int) := by
    apply min_eq_right; norm_num; omega
  have h2 : max (-((2 ^ (32 - 1) : Nat) : Int)) ((v.toNat / 100 : Nat) : Int) = ((v.toNat / 100 : Nat) : Int) := by
    apply max_eq_right; norm_num; omega
  rw [h1, h2]
  exact BitVec.ofInt_natCast _ _

end Cert.Proof.Hundredth
-- ==== Proof.LibF32Hundredth.lean ====
/-
  The digit split's quotient in binary32, and the rounding facts it rests on.

  GENERAL PART (namespace `Cert.Proof.F32Round`): facts about the softfloat's one rounding function on an exact
  magnitude `N` of at least 2²³ quanta (a normal number). With `s = ⌊log₂ N⌋ − 23` the rounding keeps the
  quotient of `N` by `2ˢ`, rounded to nearest even (`roundQuot N s`), and the word it encodes denotes
  `roundQuot N s · 2ˢ` quanta exactly (`classify_round`). That rounded quotient is the floor or one more, is the
  floor on a multiple of `2ˢ`, and so is MONOTONE AGAINST THE GRID: a multiple of `2ˢ` at or below `N` stays at or
  below the rounded value, one at or above `N` stays at or above it (`le_roundQuot_mul`, `roundQuot_mul_le`); and
  it is NEAREST: the rounded value exceeds `N` by at most half a unit `2ˢ` (`two_mul_roundQuot_mul_le`). Also:
  a word denoting zero or a normal magnitude is read and delivered unchanged by the flushing policy
  (`canon_of_classify`, `flush_of_classify`); the sum and the product of non-negative finite words are the exact
  sum and product of their magnitudes rounded once (`add_of_classify`, `mul_of_classify`); and the two together:
  `round_bracket` (an exact magnitude at least `k` and more than half a unit below `k + 1` rounds to a word whose
  integer part is `k`) and `trunc_mul_add` (the integer part of `(a + h) · c` on words, from the arithmetic of
  their magnitudes alone).

  THE LEMMA (`Cert.Proof.Hundredth.bits`): for an index word `n` in [0, 10⁶), binary32 computes
  `fptosi ((sitofp n + 0.5) · c) = n / 100` with `c = 0x3C23D70A` = 10737418 · 2⁻³⁰, the binary32 word nearest
  1/100 from below. `n + 0.5` is exact (an odd integer `2n + 1 < 2²⁴` of halves). The exact product is
  `A · 2⁻³¹` with `A = (2n + 1) · 10737418`. With `k = n / 100`, `k · 2³¹ ≤ A` (as `48 k ≤ 10737418`) and
  `A + 2²⁰ < (k + 1) · 2³¹`; the unit of the product's binade is at most `2²¹ · 2⁻³¹`, so `k` and `k + 1` are on
  its grid: the rounded product is at least `k` by monotonicity and, being within half a unit of `A`, below `k + 1`.
  Its integer part is `k`.
-/
import proofs.«207215_g13752485282153_cont_week2b_1454_30_alg».proof.Proof.Hundredth
import Idealize.ShloMosaic.PureOps.BitExact
import Idealize.Numerics.SoftF32.Laws
import Idealize.F32Words
import Idealize.Numerics.SoftF32.Modulo

namespace Cert.Proof.F32Round

open Idealize Idealize.SoftF32

/-! ## The rounding step: floor or one more, exact on the grid, nearest -/

theorem roundQuot_ge (n s : Nat) : n / 2 ^ s ≤ roundQuot n s := by
  unfold roundQuot roundToNearestEven; split <;> omega

theorem roundQuot_le (n s : Nat) : roundQuot n s ≤ n / 2 ^ s + 1 := by
  unfold roundQuot roundToNearestEven; split <;> omega

/-- On a multiple of the unit nothing is discarded: the quotient itself. -/
theorem roundQuot_of_mod_eq_zero {n s : Nat} (h : n % 2 ^ s = 0) : roundQuot n s = n / 2 ^ s := by
  have := Nat.two_pow_pos s
  unfold roundQuot roundToNearestEven; rw [h, if_neg (by omega)]

/-- To NEAREST: the rounded value is at most half a unit above the magnitude. -/
theorem two_mul_roundQuot_mul_le (n s : Nat) : 2 * (roundQuot n s * 2 ^ s) ≤ 2 * n + 2 ^ s := by
  have hp := Nat.two_pow_pos s
  have hdm := Nat.div_add_mod n (2 ^ s)
  unfold roundQuot roundToNearestEven
  split
  · rename_i h
    rw [Nat.add_mul, Nat.one_mul]
    have : n / 2 ^ s * 2 ^ s = 2 ^ s * (n / 2 ^ s) := Nat.mul_comm _ _
    rcases h with h | h <;> omega
  · have : n / 2 ^ s * 2 ^ s = 2 ^ s * (n / 2 ^ s) := Nat.mul_comm _ _
    omega

/-- … and at most half a unit below it. -/
theorem two_mul_le_roundQuot_mul (n s : Nat) : 2 * n ≤ 2 * (roundQuot n s * 2 ^ s) + 2 ^ s := by
  have hp := Nat.two_pow_pos s
  have hdm := Nat.div_add_mod n (2 ^ s)
  have hlt := Nat.mod_lt n hp
  unfold roundQuot roundToNearestEven
  split
  · rw [Nat.add_mul, Nat.one_mul]
    have : n / 2 ^ s * 2 ^ s = 2 ^ s * (n / 2 ^ s) := Nat.mul_comm _ _
    omega
  · rename_i h
    have : n / 2 ^ s * 2 ^ s = 2 ^ s * (n / 2 ^ s) := Nat.mul_comm _ _
    omega

/-- MONOTONE AGAINST THE GRID, from below: a multiple of the unit at or below the magnitude is at or below the
    rounded value. -/
theorem le_roundQuot_mul {n s j : Nat} (h : j * 2 ^ s ≤ n) : j * 2 ^ s ≤ roundQuot n s * 2 ^ s :=
  Nat.mul_le_mul_right _ (Nat.le_trans ((Nat.le_div_iff_mul_le (Nat.two_pow_pos s)).mpr h) (roundQuot_ge n s))

/-- … and from above: a multiple of the unit at or above the magnitude is at or above the rounded value. -/
theorem roundQuot_mul_le {n s j : Nat} (h : n ≤ j * 2 ^ s) : roundQuot n s * 2 ^ s ≤ j * 2 ^ s := by
  have hp := Nat.two_pow_pos s
  apply Nat.mul_le_mul_right
  by_cases hm : n % 2 ^ s = 0
  · rw [roundQuot_of_mod_eq_zero hm]
    exact Nat.div_le_of_le_mul (by rw [Nat.mul_comm]; exact h)
  · have hlt : n / 2 ^ s < j := by
      rw [Nat.div_lt_iff_lt_mul hp]
      rcases Nat.lt_or_eq_of_le h with h' | h'
      · exact h'
      · exact absurd (by rw [h']; exact Nat.mul_mod_left _ _) hm
    have := roundQuot_le n s
    omega

/-! ## The word a normal magnitude rounds to, and what it denotes -/

/-- The kept quotient of a magnitude of at least 2²³ quanta by the unit of its binade has 24 bits. -/
theorem quot_bounds {N : Nat} (h : 2 ^ 23 ≤ N) :
    2 ^ 23 ≤ N / 2 ^ (N.log2 - 23) ∧ N / 2 ^ (N.log2 - 23) < 2 ^ 24 := by
  have hN : N ≠ 0 := by omega
  have hlo : 2 ^ N.log2 ≤ N := Nat.log2_self_le hN
  have hhi : N < 2 ^ (N.log2 + 1) := Nat.lt_log2_self
  have hL : 23 ≤ N.log2 := (Nat.le_log2 hN).mpr h
  have hp := Nat.two_pow_pos (N.log2 - 23)
  constructor
  · rw [Nat.le_div_iff_mul_le hp, ← Nat.pow_add]
    have : 23 + (N.log2 - 23) = N.log2 := by omega
    rw [this]; exact hlo
  · rw [Nat.div_lt_iff_lt_mul hp, ← Nat.pow_add]
    have : 24 + (N.log2 - 23) = N.log2 + 1 := by omega
    rw [this]; exact hhi

/-- The magnitude bits a normal magnitude rounds to, short of overflow: the binade's exponent field less one
    over the rounded 24-bit quotient (whose leading bit carries into the field). -/
theorem roundMagnitude_of_normal {N : Nat} (h : 2 ^ 23 ≤ N) (hL : N.log2 ≤ 275) :
    roundMagnitude N 0 = (N.log2 - 23) * 2 ^ 23 + roundQuot N (N.log2 - 23) := by
  rw [roundMagnitude_eq]
  have : max 0 (N.log2 - 23) = N.log2 - 23 := by omega
  rw [this, Nat.sub_zero]
  apply Nat.min_eq_left
  have := roundQuot_le N (N.log2 - 23)
  have := quot_bounds h
  omega

/-- WHAT THE ROUNDED WORD DENOTES: the rounded quotient times the unit, exactly — whether or not the rounding
    carried into the next binade. -/
theorem classify_round {N : Nat} (sg : Bool) (h : 2 ^ 23 ≤ N) (hL : N.log2 ≤ 275) :
    classify (ofSignMagnitude sg (roundMagnitude N 0))
      = .finite sg (roundQuot N (N.log2 - 23) * 2 ^ (N.log2 - 23)) := by
  obtain ⟨hq1, hq2⟩ := quot_bounds h
  have hge := roundQuot_ge N (N.log2 - 23)
  have hle := roundQuot_le N (N.log2 - 23)
  rw [roundMagnitude_of_normal h hL]
  generalize hs : N.log2 - 23 = s at *
  generalize roundQuot N s = q at *
  have hs252 : s ≤ 252 := by omega
  have hb : s * 2 ^ 23 + q < 2 ^ 31 := by omega
  have htn := toNat_ofSignMagnitude sg _ hb
  have hE : exponent (ofSignMagnitude sg (s * 2 ^ 23 + q)) = (s * 2 ^ 23 + q) / 2 ^ 23 :=
    exponent_ofSignMagnitude sg hb
  have hF : fraction (ofSignMagnitude sg (s * 2 ^ 23 + q)) = (s * 2 ^ 23 + q) % 2 ^ 23 := by
    unfold fraction; rw [htn]; cases sg <;> simp <;> omega
  have hNeg : isNegative (ofSignMagnitude sg (s * 2 ^ 23 + q)) = sg := by
    unfold isNegative; rw [htn]; cases sg <;> simp <;> omega
  unfold classify
  rw [hE, hF, hNeg]
  have hps := Nat.two_pow_pos s
  by_cases hq24 : q = 2 ^ 24
  · have e1 : (s * 2 ^ 23 + q) / 2 ^ 23 = s + 2 := by omega
    have e2 : (s * 2 ^ 23 + q) % 2 ^ 23 = 0 := by omega
    rw [e1, e2, if_neg (by omega), if_neg (by omega), Nat.shiftLeft_eq, hq24]
    congr 1
    have : s + 2 - 1 = s + 1 := by omega
    rw [this, Nat.pow_succ]; omega
  · have e1 : (s * 2 ^ 23 + q) / 2 ^ 23 = s + 1 := by omega
    have e2 : (s * 2 ^ 23 + q) % 2 ^ 23 = q - 2 ^ 23 := by omega
    have e3 : 2 ^ 23 + (q - 2 ^ 23) = q := by omega
    have e4 : s + 1 - 1 = s := by omega
    rw [e1, e2, if_neg (by omega), if_neg (by omega), Nat.shiftLeft_eq, e3, e4]

/-- EXACT on a representable magnitude: a normal magnitude that is a multiple of its binade's unit is the
    magnitude of the word it rounds to. -/
theorem classify_round_exact {N : Nat} (sg : Bool) (h : 2 ^ 23 ≤ N) (hL : N.log2 ≤ 275)
    (hd : N % 2 ^ (N.log2 - 23) = 0) :
    classify (ofSignMagnitude sg (roundMagnitude N 0)) = .finite sg N := by
  rw [classify_round sg h hL, roundQuot_of_mod_eq_zero hd, Nat.div_mul_cancel (Nat.dvd_of_mod_eq_zero hd)]

/-- A 24-bit integer scaled by a power of two of at least 2²³ quanta is representable. -/
theorem classify_round_mul_two_pow {m e : Nat} (sg : Bool) (hm1 : 1 ≤ m) (hm : m < 2 ^ 24) (he : 23 ≤ e)
    (he' : e ≤ 252) :
    classify (ofSignMagnitude sg (roundMagnitude (m * 2 ^ e) 0)) = .finite sg (m * 2 ^ e) := by
  have hl := log2_le_of_lt_two_pow hm
  have hlog : (m * 2 ^ e).log2 = m.log2 + e := log2_mul_two_pow (by omega) e
  have hge : 2 ^ 23 ≤ m * 2 ^ e :=
    calc 2 ^ 23 ≤ 2 ^ e := Nat.pow_le_pow_right (by omega) he
      _ = 1 * 2 ^ e := (Nat.one_mul _).symm
      _ ≤ m * 2 ^ e := Nat.mul_le_mul_right _ hm1
  apply classify_round_exact sg hge (by omega)
  rw [hlog]
  have : e = (e - (m.log2 + e - 23)) + (m.log2 + e - 23) := by omega
  conv => lhs; lhs; rw [this, Nat.pow_add, ← Nat.mul_assoc]
  exact Nat.mul_mod_left _ _

/-! ## Words the flushing policy leaves alone -/

theorem isNaN_of_classify {w : UInt32} {s : Bool} {m : Nat} (h : classify w = .finite s m) : isNaN w = false := by
  cases hn : isNaN w
  · rfl
  · rw [(classify_eq_nan_iff w).mpr hn] at h; cases h

/-- A word denoting zero or a normal magnitude is no subnormal: flushing delivers it as it is. -/
theorem flush_of_classify {w : UInt32} {s : Bool} {m : Nat} (h : classify w = .finite s m)
    (hm : m = 0 ∨ 2 ^ 23 ≤ m) : flush w = w := by
  by_cases he : exponent w = 0
  · have hf := fraction_lt w
    unfold classify at h
    rw [if_neg (by omega), if_pos he] at h
    injection h with _ hm'
    have hf0 : fraction w = 0 := by omega
    unfold flush isSubnormal; simp [hf0]
  · exact flush_of_exponent_ne_zero he

/-- … and the vector unit reads it as it is. -/
theorem canon_of_classify {w : UInt32} {s : Bool} {m : Nat} (h : classify w = .finite s m)
    (hm : m = 0 ∨ 2 ^ 23 ≤ m) : canon w = w := by
  rw [canon_of_not_isNaN (isNaN_of_classify h), flush_of_classify h hm]

/-! ## Sum and product of non-negative finite words -/

/-- The sum of two non-negative finite words, not both zero: the exact sum of the magnitudes, rounded once. -/
theorem add_of_classify {a b : UInt32} {m₁ m₂ : Nat} (ha : classify a = .finite false m₁)
    (hb : classify b = .finite false m₂) (h : m₁ + m₂ ≠ 0) :
    SoftF32.add a b = ofSignMagnitude false (roundMagnitude (m₁ + m₂) 0) := by
  unfold SoftF32.add
  rw [ha, hb]
  show addFinite false m₁ false m₂ = _
  unfold addFinite
  have hz : ((m₁ : Nat) : Int) + ((m₂ : Nat) : Int) = ((m₁ + m₂ : Nat) : Int) := by omega
  simp only [Bool.false_eq_true, if_false, hz]
  rw [if_neg (by omega), Int.natAbs_natCast, decide_eq_false (by omega)]

/-- The product of two non-negative finite words: the exact product of the magnitudes, in units of 2⁻²⁹⁸,
    rounded once. -/
theorem mul_of_classify {a b : UInt32} {m₁ m₂ : Nat} (ha : classify a = .finite false m₁)
    (hb : classify b = .finite false m₂) :
    SoftF32.mul a b = ofSignMagnitude false (roundMagnitude (m₁ * m₂) 149) := by
  unfold SoftF32.mul
  rw [ha, hb]
  rfl

/-! ## The integer part of a rounded magnitude -/

/-- The integer part of a non-negative finite word: its magnitude's whole multiples of 2¹⁴⁹ quanta. -/
theorem truncToInt?_of_classify {w : UInt32} {m : Nat} (h : classify w = .finite false m) :
    truncToInt? w = some ((m / 2 ^ 149 : Nat) : Int) := by
  unfold truncToInt?
  rw [h]
  simp only [Bool.false_eq_true, if_false, Nat.shiftRight_eq_div_pow]

/-- If `k ≤ N · 2⁻¹⁴⁹`, and `N` with half the unit of its binade added is still below `k + 1`, then the word
    `N` rounds to denotes a normal magnitude whose integer part is `k`: the integers `k` and `k + 1` are on the
    binade's grid (its unit is at most 1), rounding is monotone against the grid and goes at most half a unit up. -/
theorem round_bracket {N k : Nat} (h23 : 2 ^ 23 ≤ N) (hL : N.log2 ≤ 172)
    (hlo : k * 2 ^ 149 ≤ N) (hhi : 2 * N + 2 ^ (N.log2 - 23) < 2 * ((k + 1) * 2 ^ 149)) :
    ∃ R, classify (ofSignMagnitude false (roundMagnitude N 0)) = .finite false R ∧ 2 ^ 23 ≤ R
      ∧ R / 2 ^ 149 = k := by
  refine ⟨_, classify_round false h23 (by omega), ?_, ?_⟩
  · obtain ⟨hq1, _⟩ := quot_bounds h23
    have hqge := roundQuot_ge N (N.log2 - 23)
    have hps := Nat.two_pow_pos (N.log2 - 23)
    calc 2 ^ 23 ≤ roundQuot N (N.log2 - 23) := Nat.le_trans hq1 hqge
      _ = roundQuot N (N.log2 - 23) * 1 := (Nat.mul_one _).symm
      _ ≤ _ := Nat.mul_le_mul_left _ hps
  · have hnear := two_mul_roundQuot_mul_le N (N.log2 - 23)
    apply Nat.div_eq_of_lt_le
    · have e1 : 149 - (N.log2 - 23) + (N.log2 - 23) = 149 := by omega
      have e : k * 2 ^ (149 - (N.log2 - 23)) * 2 ^ (N.log2 - 23) = k * 2 ^ 149 := by
        rw [Nat.mul_assoc, ← Nat.pow_add, e1]
      rw [← e]
      apply le_roundQuot_mul
      rw [e]; exact hlo
    · omega

/-- THE LANE COMPUTATION `trunc ((a + h) · c)` on non-negative finite words, none subnormal, from the
    arithmetic of their magnitudes alone: the sum `m · 2ᵉ` is representable (`m` of at most 24 bits), the exact
    product is `N` quanta, and `N` is bracketed as `round_bracket` asks. -/
theorem trunc_mul_add {a h c : UInt32} {ma mh mc m e N k : Nat}
    (ha : classify a = .finite false ma) (hh : classify h = .finite false mh)
    (hc : classify c = .finite false mc)
    (hma : ma = 0 ∨ 2 ^ 23 ≤ ma) (hmh : mh = 0 ∨ 2 ^ 23 ≤ mh) (hmc : mc = 0 ∨ 2 ^ 23 ≤ mc)
    (hS : ma + mh = m * 2 ^ e) (hm1 : 1 ≤ m) (hm : m < 2 ^ 24) (he : 23 ≤ e) (he' : e ≤ 252)
    (hP : m * 2 ^ e * mc = N * 2 ^ 149)
    (h23 : 2 ^ 23 ≤ N) (hL : N.log2 ≤ 172) (hlo : k * 2 ^ 149 ≤ N)
    (hhi : 2 * N + 2 ^ (N.log2 - 23) < 2 * ((k + 1) * 2 ^ 149)) :
    truncToInt? (FlushPolicy.v7x.mul (FlushPolicy.v7x.add a h) c) = some (k : Int) := by
  have hcx := classify_round_mul_two_pow false hm1 hm he he'
  have hmx : 2 ^ 23 ≤ m * 2 ^ e :=
    calc 2 ^ 23 ≤ 2 ^ e := Nat.pow_le_pow_right (by omega) he
      _ = 1 * 2 ^ e := (Nat.one_mul _).symm
      _ ≤ m * 2 ^ e := Nat.mul_le_mul_right _ hm1
  have hne : ma + mh ≠ 0 := by rw [hS]; omega
  have hadd : FlushPolicy.v7x.add a h = ofSignMagnitude false (roundMagnitude (m * 2 ^ e) 0) := by
    rw [FlushPolicy.v7x_add_def, canon_of_classify ha hma, canon_of_classify hh hmh,
      add_of_classify ha hh hne, hS, flush_of_classify hcx (Or.inr hmx)]
  rw [hadd]
  generalize ofSignMagnitude false (roundMagnitude (m * 2 ^ e) 0) = x at hcx ⊢
  have hmul : SoftF32.mul x c = ofSignMagnitude false (roundMagnitude N 0) := by
    have hsc := roundMagnitude_mul_two_pow N 0 149
    rw [Nat.zero_add] at hsc
    rw [mul_of_classify hcx hc, hP, hsc]
  obtain ⟨R, hcy, hR23, hRk⟩ := round_bracket h23 hL hlo hhi
  rw [FlushPolicy.v7x_mul_def, canon_of_classify hcx (Or.inr hmx), canon_of_classify hc hmc, hmul,
    flush_of_classify hcy (Or.inr hR23)]
  rw [truncToInt?_of_classify hcy, hRk]

end Cert.Proof.F32Round

namespace Cert.Proof.Hundredth

open Idealize Idealize.ShloMosaic Idealize.SoftF32 Cert.Proof.F32Round

/-! ## The three operands -/

/-- One half is 2¹⁴⁸ quanta. -/
theorem classify_half : classify 0x3F000000 = .finite false (2 ^ 148) := by decide

/-- The kernel's hundredth is 10737418 · 2⁻³⁰: 10737418 · 2¹¹⁹ quanta. -/
theorem classify_hundredth : classify 0x3C23D70A = .finite false (10737418 * 2 ^ 119) := by decide

/-- An integer below 2²⁴ converts exactly: `n · 2¹⁴⁹` quanta. -/
theorem classify_ofInt_natCast {n : Nat} (h : n < 2 ^ 24) :
    classify (ofInt (n : Int)) = .finite false (n * 2 ^ 149) := by
  have e : ofInt (n : Int) = ofSignMagnitude false (roundMagnitude (n <<< 149) 0) := by
    unfold ofInt
    have hd : decide ((n : Int) < 0) = false := decide_eq_false (by omega)
    rw [hd, Int.natAbs_natCast]
  rw [e]
  by_cases h0 : n = 0
  · subst h0; decide
  · rw [classify_ofSignMagnitude_roundMagnitude false (by omega) h, Nat.shiftLeft_eq]

/-! ## The arithmetic: with A = (2n + 1) · 10737418 and k = n / 100, k · 2³¹ ≤ A and A + 2²⁰ < (k + 1) · 2³¹ -/

theorem index_quanta (n : Nat) : n * 2 ^ 149 = 0 ∨ 2 ^ 23 ≤ n * 2 ^ 149 := by omega
theorem half_quanta : (2 : Nat) ^ 148 = 0 ∨ 2 ^ 23 ≤ 2 ^ 148 := Or.inr (Nat.pow_le_pow_right (by omega) (by omega))
theorem hundredth_quanta : 10737418 * 2 ^ 119 = 0 ∨ 2 ^ 23 ≤ 10737418 * 2 ^ 119 := Or.inr (by omega)
/-- n + 1/2 is 2n + 1 halves, -/
theorem sum_quanta (n : Nat) : n * 2 ^ 149 + 2 ^ 148 = (2 * n + 1) * 2 ^ 148 := by omega
/-- an odd number below 2²⁴. -/
theorem odd_lt (n : Nat) (hn : n ≤ 999999) : 2 * n + 1 < 2 ^ 24 := by omega
/-- The exact product, in units of 2⁻²⁹⁸, is A · 2¹¹⁸ quanta. -/
theorem product_quanta (n : Nat) :
    (2 * n + 1) * 2 ^ 148 * (10737418 * 2 ^ 119) = (2 * n + 1) * 10737418 * 2 ^ 118 * 2 ^ 149 := by omega
theorem product_ne_zero (n : Nat) : (2 * n + 1) * 10737418 ≠ 0 := by omega
theorem product_lt (n : Nat) (hn : n ≤ 999999) : (2 * n + 1) * 10737418 < 2 ^ 45 := by omega
theorem product_normal (n : Nat) : 2 ^ 23 ≤ (2 * n + 1) * 10737418 * 2 ^ 118 := by omega
/-- k ≤ the exact product (as 48 k ≤ 10737418), -/
theorem product_lower (n : Nat) (hn : n ≤ 999999) :
    n / 100 * 2 ^ 149 ≤ (2 * n + 1) * 10737418 * 2 ^ 118 := by omega
/-- which stays more than 2⁻¹¹ below k + 1. -/
theorem product_upper (n : Nat) (hn : n ≤ 999999) :
    (2 * n + 1) * 10737418 * 2 ^ 118 + 2 ^ 138 < (n / 100 + 1) * 2 ^ 149 := by omega

/-- A magnitude `A · 2¹¹⁸` with `A` of at most 45 bits lies in a binade whose unit is at most 2¹³⁹ quanta, so
    a margin of 2¹³⁸ quanta below `k + 1` is at least half a unit. -/
theorem margin_of_bits {A N k : Nat} (hA1 : A ≠ 0) (hA2 : A < 2 ^ 45) (hN : N = A * 2 ^ 118)
    (h : N + 2 ^ 138 < (k + 1) * 2 ^ 149) :
    N.log2 ≤ 172 ∧ 2 * N + 2 ^ (N.log2 - 23) < 2 * ((k + 1) * 2 ^ 149) := by
  have hlogA := log2_le_of_lt_two_pow hA2
  have hlog : N.log2 = A.log2 + 118 := by rw [hN]; exact log2_mul_two_pow hA1 118
  have h2s : 2 ^ (N.log2 - 23) ≤ 2 ^ 139 := Nat.pow_le_pow_right (by omega) (by omega)
  constructor <;> omega

/-- The lane computation on words denoting `n`, one half and 10737418 · 2⁻³⁰: the integer part of the rounded
    product `(n + 0.5) · c` is `n / 100`. -/
theorem trunc_of_classify (n : Nat) (hn : n ≤ 999999) {a h c : UInt32}
    (ha : classify a = .finite false (n * 2 ^ 149)) (hh : classify h = .finite false (2 ^ 148))
    (hc : classify c = .finite false (10737418 * 2 ^ 119)) :
    truncToInt? (FlushPolicy.v7x.mul (FlushPolicy.v7x.add a h) c) = some ((n / 100 : Nat) : Int) :=
  trunc_mul_add (m := 2 * n + 1) (e := 148) (N := (2 * n + 1) * 10737418 * 2 ^ 118) (k := n / 100)
    ha hh hc (index_quanta n) half_quanta hundredth_quanta (sum_quanta n) (Nat.le_add_left 1 (2 * n))
    (odd_lt n hn) (by decide) (by decide) (product_quanta n) (product_normal n)
    (margin_of_bits (A := (2 * n + 1) * 10737418) (N := (2 * n + 1) * 10737418 * 2 ^ 118) (k := n / 100)
      (product_ne_zero n) (product_lt n hn) rfl (product_upper n hn)).1
    (product_lower n hn)
    (margin_of_bits (A := (2 * n + 1) * 10737418) (N := (2 * n + 1) * 10737418 * 2 ^ 118) (k := n / 100)
      (product_ne_zero n) (product_lt n hn) rfl (product_upper n hn)).2

theorem trunc_word (n : Nat) (hn : n ≤ 999999) :
    truncToInt? (FlushPolicy.v7x.mul (FlushPolicy.v7x.add (ofInt (n : Int)) 0x3F000000) 0x3C23D70A)
      = some ((n / 100 : Nat) : Int) :=
  trunc_of_classify n hn (classify_ofInt_natCast (Nat.lt_of_le_of_lt hn (by decide))) classify_half
    classify_hundredth

/-! ## The four operations of the lane computation, on words -/

theorem ofBitVec_sitofp32 (v : BitVec 32) : UInt32.ofBitVec (Bits.sitofp32 v) = ofInt v.toInt := by
  unfold Bits.sitofp32 Bits.ofW32
  rw [F32Words.f32OfInt_eq, UInt32.ofBitVec_toBitVec]

theorem ofBitVec_addf32 (a b : BitVec 32) :
    UInt32.ofBitVec (Bits.addf32 a b) = FlushPolicy.v7x.add (UInt32.ofBitVec a) (UInt32.ofBitVec b) := by
  unfold Bits.addf32 Bits.ofW32 Bits.w32
  rw [F32Words.f32Add_eq, UInt32.ofBitVec_toBitVec]

theorem ofBitVec_mulf32 (a b : BitVec 32) :
    UInt32.ofBitVec (Bits.mulf32 a b) = FlushPolicy.v7x.mul (UInt32.ofBitVec a) (UInt32.ofBitVec b) := by
  unfold Bits.mulf32 Bits.ofW32 Bits.w32
  rw [F32Words.f32Mul_eq, UInt32.ofBitVec_toBitVec]

/-- A word whose integer part is the natural number `k` below 2³¹ converts to the word `k`: no saturation. -/
theorem fptosi32_of_truncToInt? {a : BitVec 32} {k : Nat} (hk : k < 2 ^ 31)
    (h : truncToInt? (UInt32.ofBitVec a) = some (k : Int)) : Bits.fptosi32 32 a = BitVec.ofNat 32 k := by
  unfold Bits.fptosi32 Bits.w32
  rw [F32Words.f32TruncToInt?_eq, h]
  show BitVec.ofInt 32 (max (-2 ^ (32 - 1)) (min (k : Int) (2 ^ (32 - 1) - 1))) = _
  have e1 : min (k : Int) (2 ^ (32 - 1) - 1) = (k : Int) := Int.min_eq_left (by omega)
  have e2 : max (-2 ^ (32 - 1) : Int) (k : Int) = (k : Int) := Int.max_eq_right (by omega)
  rw [e1, e2]
  exact BitVec.ofInt_natCast _ _

theorem ofBitVec_half : UInt32.ofBitVec 0x3F000000#32 = (0x3F000000 : UInt32) := rfl
theorem ofBitVec_hundredth : UInt32.ofBitVec 0x3C23D70A#32 = (0x3C23D70A : UInt32) := rfl

/-- In binary32, with the word nearest one hundredth from below: on every index word in range the lane
    computation `fptosi ((sitofp n + 0.5) · c)` is `n / 100`. -/
theorem bits : OK Bits (Scalar.ofBits .f32 0x3C23D70A#32) := by
  intro v h0 h1
  have hv : v.toInt = (v.toNat : Int) := by
    have h := BitVec.toInt_eq_toNat_cond v
    have hlt := v.isLt
    split at h <;> omega
  have hn : v.toNat ≤ 999999 := by omega
  show Bits.fptosi32 32 (Bits.mulf32 (Bits.addf32 (Bits.sitofp32 v) 0x3F000000#32) 0x3C23D70A#32) = _
  apply fptosi32_of_truncToInt? (by omega)
  rw [ofBitVec_mulf32, ofBitVec_addf32, ofBitVec_sitofp32, hv, ofBitVec_half, ofBitVec_hundredth]
  exact trunc_word _ hn

end Cert.Proof.Hundredth
-- ==== Proof.PreDecode.lean ====
/-
  The index range read out of the precondition. The precondition is the conjunction of three finiteness tests of the
  cores and of one test of the index array: every index word i satisfies 0 ≤ i and i ≤ 999999, both compared signed,
  all 425984 tests joined by one reduction. From the whole predicate being true, the last conjunct is true, hence the
  reduction's every operand element is, hence both comparisons hold at every index.
-/
import proofs.«207215_g13752485282153_cont_week2b_1454_30_alg».proof.Proof.Gen.Pre_input_domain
import Idealize.ShloMosaic.Lib.ReduceAll
import Idealize.ShloMosaic.Lib.ValueIdx

noncomputable section

namespace Cert.Proof.Pre

open Idealize.ShloMosaic
open Cert.Pre_input_domain

/-- The scalar shape has one index. -/
instance : Subsingleton S_.Idx := ⟨fun _ _ => funext fun d => d.elim0⟩

/-- Under the precondition every index word, read signed, lies in [0, 999999]. -/
theorem idx_range {F : FTy → Type} [FloatOps F] (a0 : IVec Cert.Pre_input_domain.S16384x26 32)
    (a1 : FVec F Cert.Pre_input_domain.S1x100x4x8 .f32) (a2 : FVec F Cert.Pre_input_domain.S8x100x4x8 .f32)
    (a3 : FVec F Cert.Pre_input_domain.S8x100x4x1 .f32)
    (h : Cert.Pre_input_domain.fn (F := F) a0 a1 a2 a3 = fun _ => 1#1) :
    ∀ j, 0 ≤ (a0 j).toInt ∧ (a0 j).toInt ≤ 999999 := by
  intro j
  have h0 := congrFun h ValueIdx.ix0
  dsimp only [fn, fn_part1] at h0
  -- the last conjunct: the reduction of the index tests
  obtain ⟨-, h19⟩ := IntOp.andi_eq_one.1 h0
  -- every operand element of the reduction is true
  have hj := Host.reduce_andi_all _ _ _ _ _ h19 j
  -- both comparisons at j
  obtain ⟨h15, h17⟩ := IntOp.andi_eq_one.1 hj
  have e15 : (0#32 : BitVec 32).toInt ≤ (a0 j).toInt := IntOp.cmpi_sge.1 h15
  have e17 : (a0 j).toInt ≤ (999999#32 : BitVec 32).toInt := IntOp.cmpi_sle.1 h17
  rw [show (0#32 : BitVec 32).toInt = 0 from by decide] at e15
  rw [show (999999#32 : BitVec 32).toInt = 999999 from by decide] at e17
  exact ⟨e15, e17⟩

end Cert.Proof.Pre

end
-- ==== Proof.RefTerm.lean ====
/-
  The reference's result as one function of its four argument arrays: the printed operations' pure functions
  composed in program order, the bodies of the outlined functions at their call sites. One binding per operation,
  named as the program names the buffer the operation writes.

  Reading: v0 is the flat list of the 425984 index words. v1 = ⌊v0 / 10000⌋ and v2 = ⌊v0 / 100⌋ are floor divisions
  (the truncated quotient, less one where the signs differ and the remainder is not zero); v3 = v2 mod 100 and
  v4 = v0 mod 100 are floor remainders (the truncated remainder, plus the divisor where it is not zero and its sign
  differs from the divisor's; the divisor replaced by one were it zero). Each of the three digits then wraps a
  negative value by adding 100 (v9, v21, v29) and indexes a gather: v15 the rows of the first core at (0, digit₁),
  v23 and v31 the slabs of the transposed second and third cores at digit₂ and digit₃. Two batched contractions over
  the rank axes (v32, v34) and three reshapes give the 16384 × 26 × 64 result.
-/
import proofs.«207215_g13752485282153_cont_week2b_1454_30_alg».proof.ReferenceIdeal
import proofs.«207215_g13752485282153_cont_week2b_1454_30_alg».proof.Proof.Gen.ReferenceIdeal
import Idealize.ShloMosaic.PureOps.Ideal

noncomputable section

namespace Cert.Proof.Ref

open Idealize.ShloMosaic
open Cert.ReferenceIdeal Cert.ReferenceIdeal.Facts₀

/-- The reference's result array from its four argument arrays. -/
noncomputable def out (a0 : IVec Cert.ReferenceIdeal.S16384x26 32) (a1 : FVec Ideal Cert.ReferenceIdeal.S1x100x4x8 .f32)
    (a2 : FVec Ideal Cert.ReferenceIdeal.S8x100x4x8 .f32) (a3 : FVec Ideal Cert.ReferenceIdeal.S8x100x4x1 .f32) :
    FVec Ideal Cert.ReferenceIdeal.S16384x26x64 .f32 :=
  have v0 : IVec S425984 32 := shapeCast S425984 a0 shapeCasts_S16384x26_S425984
  have c : IVec S_ 32 := constantI S_ 32 10000#32
  have call0_v0 : IVec S_ 32 := id c
  have call0_v1 : IVec S425984 32 := broadcastInDim S425984 ![] bcast_S_S425984 call0_v0
  have call0_v2 : IVec S425984 32 := Host.divsi v0 call0_v1
  have call0_v3 : IVec S425984 32 := signi v0
  have call0_v4 : IVec S_ 32 := signi call0_v0
  have call0_v5 : IVec S425984 32 := broadcastInDim S425984 ![] bcast_S_S425984 call0_v4
  have call0_v6 : IVec S425984 1 := cmpi .ne call0_v3 call0_v5
  have call0_v7 : IVec S425984 32 := broadcastInDim S425984 ![] bcast_S_S425984 call0_v0
  have call0_v8 : IVec S425984 32 := Host.remsi v0 call0_v7
  have call0_c : IVec S_ 32 := constantI S_ 32 0#32
  have call0_v9 : IVec S425984 32 := broadcastInDim S425984 ![] bcast_S_S425984 call0_c
  have call0_v10 : IVec S425984 1 := cmpi .ne call0_v8 call0_v9
  have call0_v11 : IVec S425984 1 := andi call0_v6 call0_v10
  have call0_c_0 : IVec S_ 32 := constantI S_ 32 1#32
  have call0_v12 : IVec S425984 32 := broadcastInDim S425984 ![] bcast_S_S425984 call0_c_0
  have call0_v13 : IVec S425984 32 := subi call0_v2 call0_v12
  have v1 : IVec S425984 32 := select call0_v11 call0_v13 call0_v2
  have c_0 : IVec S_ 32 := constantI S_ 32 100#32
  have call1_v0 : IVec S_ 32 := id c_0
  have call1_v1 : IVec S425984 32 := broadcastInDim S425984 ![] bcast_S_S425984 call1_v0
  have call1_v2 : IVec S425984 32 := Host.divsi v0 call1_v1
  have call1_v3 : IVec S425984 32 := signi v0
  have call1_v4 : IVec S_ 32 := signi call1_v0
  have call1_v5 : IVec S425984 32 := broadcastInDim S425984 ![] bcast_S_S425984 call1_v4
  have call1_v6 : IVec S425984 1 := cmpi .ne call1_v3 call1_v5
  have call1_v7 : IVec S425984 32 := broadcastInDim S425984 ![] bcast_S_S425984 call1_v0
  have call1_v8 : IVec S425984 32 := Host.remsi v0 call1_v7
  have call1_c : IVec S_ 32 := constantI S_ 32 0#32
  have call1_v9 : IVec S425984 32 := broadcastInDim S425984 ![] bcast_S_S425984 call1_c
  have call1_v10 : IVec S425984 1 := cmpi .ne call1_v8 call1_v9
  have call1_v11 : IVec S425984 1 := andi call1_v6 call1_v10
  have call1_c_0 : IVec S_ 32 := constantI S_ 32 1#32
  have call1_v12 : IVec S425984 32 := broadcastInDim S425984 ![] bcast_S_S425984 call1_c_0
  have call1_v13 : IVec S425984 32 := subi call1_v2 call1_v12
  have v2 : IVec S425984 32 := select call1_v11 call1_v13 call1_v2
  have c_1 : IVec S_ 32 := constantI S_ 32 100#32
  have call2_v0 : IVec S_ 32 := id c_1
  have call2_c : IVec S_ 32 := constantI S_ 32 0#32
  have call2_v1 : IVec S_ 1 := cmpi .eq call2_v0 call2_c
  have call2_c_0 : IVec S_ 32 := constantI S_ 32 1#32
  have call2_v2 : IVec S_ 32 := select call2_v1 call2_c_0 call2_v0
  have call2_v3 : IVec S425984 32 := broadcastInDim S425984 ![] bcast_S_S425984 call2_v2
  have call2_v4 : IVec S425984 32 := Host.remsi v2 call2_v3
  have call2_c_1 : IVec S_ 32 := constantI S_ 32 0#32
  have call2_v5 : IVec S425984 32 := broadcastInDim S425984 ![] bcast_S_S425984 call2_c_1
  have call2_v6 : IVec S425984 1 := cmpi .ne call2_v4 call2_v5
  have call2_c_2 : IVec S_ 32 := constantI S_ 32 0#32
  have call2_v7 : IVec S425984 32 := broadcastInDim S425984 ![] bcast_S_S425984 call2_c_2
  have call2_v8 : IVec S425984 1 := cmpi .slt call2_v4 call2_v7
  have call2_c_3 : IVec S_ 32 := constantI S_ 32 0#32
  have call2_v9 : IVec S_ 1 := cmpi .slt call2_v2 call2_c_3
  have call2_v10 : IVec S425984 1 := broadcastInDim S425984 ![] bcast_S_S425984 call2_v9
  have call2_v11 : IVec S425984 1 := cmpi .ne call2_v8 call2_v10
  have call2_v12 : IVec S425984 1 := andi call2_v11 call2_v6
  have call2_v13 : IVec S425984 32 := broadcastInDim S425984 ![] bcast_S_S425984 call2_v2
  have call2_v14 : IVec S425984 32 := addi call2_v4 call2_v13
  have v3 : IVec S425984 32 := select call2_v12 call2_v14 call2_v4
  have c_2 : IVec S_ 32 := constantI S_ 32 100#32
  have call3_v0 : IVec S_ 32 := id c_2
  have call3_c : IVec S_ 32 := constantI S_ 32 0#32
  have call3_v1 : IVec S_ 1 := cmpi .eq call3_v0 call3_c
  have call3_c_0 : IVec S_ 32 := constantI S_ 32 1#32
  have call3_v2 : IVec S_ 32 := select call3_v1 call3_c_0 call3_v0
  have call3_v3 : IVec S425984 32 := broadcastInDim S425984 ![] bcast_S_S425984 call3_v2
  have call3_v4 : IVec S425984 32 := Host.remsi v0 call3_v3
  have call3_c_1 : IVec S_ 32 := constantI S_ 32 0#32
  have call3_v5 : IVec S425984 32 := broadcastInDim S425984 ![] bcast_S_S425984 call3_c_1
  have call3_v6 : IVec S425984 1 := cmpi .ne call3_v4 call3_v5
  have call3_c_2 : IVec S_ 32 := constantI S_ 32 0#32
  have call3_v7 : IVec S425984 32 := broadcastInDim S425984 ![] bcast_S_S425984 call3_c_2
  have call3_v8 : IVec S425984 1 := cmpi .slt call3_v4 call3_v7
  have call3_c_3 : IVec S_ 32 := constantI S_ 32 0#32
  have call3_v9 : IVec S_ 1 := cmpi .slt call3_v2 call3_c_3
  have call3_v10 : IVec S425984 1 := broadcastInDim S425984 ![] bcast_S_S425984 call3_v9
  have call3_v11 : IVec S425984 1 := cmpi .ne call3_v8 call3_v10
  have call3_v12 : IVec S425984 1 := andi call3_v11 call3_v6
  have call3_v13 : IVec S425984 32 := broadcastInDim S425984 ![] bcast_S_S425984 call3_v2
  have call3_v14 : IVec S425984 32 := addi call3_v4 call3_v13
  have v4 : IVec S425984 32 := select call3_v12 call3_v14 call3_v4
  have c_3 : IVec S_ 32 := constantI S_ 32 0#32
  have v5 : IVec S425984 32 := broadcastInDim S425984 ![] bcast_S_S425984 c_3
  have v6 : IVec S425984 1 := cmpi .slt v1 v5
  have c_4 : IVec S_ 32 := constantI S_ 32 100#32
  have v7 : IVec S425984 32 := broadcastInDim S425984 ![] bcast_S_S425984 c_4
  have v8 : IVec S425984 32 := addi v1 v7
  have v9 : IVec S425984 32 := select v6 v8 v1
  have c_5 : IVec S_ 32 := constantI S_ 32 0#32
  have v10 : IVec S425984 32 := broadcastInDim S425984 ![] bcast_S_S425984 c_5
  have v11 : IVec S425984 32 := id v10
  have v12 : IVec S425984x1 32 := broadcastInDim S425984x1 ![0] bcast_S425984_S425984x1_0 v11
  have v13 : IVec S425984x1 32 := broadcastInDim S425984x1 ![0] bcast_S425984_S425984x1_0 v9
  have v14 : IVec S425984x2 32 := concatenate S425984x2 1 [⟨S425984x1, v12⟩, ⟨S425984x1, v13⟩] concatenates_S425984x1_S425984x1_S425984x2_d1
  have v15 : FVec Ideal S425984x4x8 .f32 := Host.gather gather_S1x100x4x8_S425984x2_S425984x4x8_12_01_n_n_01_1_1148 a1 v14
  have v16 : FVec Ideal S100x8x4x8 .f32 := transpose S100x8x4x8 [1, 0, 2, 3] a2 transposes_S8x100x4x8_S100x8x4x8_1_0_2_3
  have c_6 : IVec S_ 32 := constantI S_ 32 0#32
  have v17 : IVec S425984 32 := broadcastInDim S425984 ![] bcast_S_S425984 c_6
  have v18 : IVec S425984 1 := cmpi .slt v3 v17
  have c_7 : IVec S_ 32 := constantI S_ 32 100#32
  have v19 : IVec S425984 32 := broadcastInDim S425984 ![] bcast_S_S425984 c_7
  have v20 : IVec S425984 32 := addi v3 v19
  have v21 : IVec S425984 32 := select v18 v20 v3
  have v22 : IVec S425984x1 32 := broadcastInDim S425984x1 ![0] bcast_S425984_S425984x1_0 v21
  have v23 : FVec Ideal S425984x8x4x8 .f32 := Host.gather gather_S100x8x4x8_S425984x1_S425984x8x4x8_123_0_n_n_0_1_1848 v16 v22
  have v24 : FVec Ideal S100x8x4x1 .f32 := transpose S100x8x4x1 [1, 0, 2, 3] a3 transposes_S8x100x4x1_S100x8x4x1_1_0_2_3
  have c_8 : IVec S_ 32 := constantI S_ 32 0#32
  have v25 : IVec S425984 32 := broadcastInDim S425984 ![] bcast_S_S425984 c_8
  have v26 : IVec S425984 1 := cmpi .slt v4 v25
  have c_9 : IVec S_ 32 := constantI S_ 32 100#32
  have v27 : IVec S425984 32 := broadcastInDim S425984 ![] bcast_S_S425984 c_9
  have v28 : IVec S425984 32 := addi v4 v27
  have v29 : IVec S425984 32 := select v26 v28 v4
  have v30 : IVec S425984x1 32 := broadcastInDim S425984x1 ![0] bcast_S425984_S425984x1_0 v29
  have v31 : FVec Ideal S425984x8x4x1 .f32 := Host.gather gather_S100x8x4x1_S425984x1_S425984x8x4x1_123_0_n_n_0_1_1841 v24 v30
  have v32 : FVec Ideal S425984x4x4x8 .f32 := Host.dotGeneral (F := Ideal) dot_S425984x4x8_S425984x8x4x8_S425984x4x4x8_2_1_1_23_0_0 none v15 v23
  have v33 : FVec Ideal S425984x16x8 .f32 := shapeCast S425984x16x8 v32 shapeCasts_S425984x4x4x8_S425984x16x8
  have v34 : FVec Ideal S425984x16x4x1 .f32 := Host.dotGeneral (F := Ideal) dot_S425984x16x8_S425984x8x4x1_S425984x16x4x1_2_1_1_23_0_0 none v33 v31
  have v35 : FVec Ideal S425984x64 .f32 := shapeCast S425984x64 v34 shapeCasts_S425984x16x4x1_S425984x64
  have v36 : FVec Ideal S16384x26x64 .f32 := shapeCast S16384x26x64 v35 shapeCasts_S425984x64_S16384x26x64
  v36

end Cert.Proof.Ref

end
-- ==== Proof.RefRun.lean ====
/-
  The reference program's run. @main is a straight line of 120 host operations once its four calls (two of
  `floor_divide`, two of `remainder`, each calling a select) are unfolded at their sites; from any memory with zero
  counters every weakly fair execution terminates with each buffer at the fold of the operations' results over the
  launch contents. The fold at the result buffer is `out` of the argument arrays: read stretch by stretch (one
  stretch per call, one for @main's operations after the last call), each stretch's result a function of the few
  buffers it reads, and every buffer a later stretch reads left unchanged by the stretches that do not write it. The
  arguments are written by no operation.
-/
import proofs.«207215_g13752485282153_cont_week2b_1454_30_alg».proof.Proof.RefTerm
import Idealize.ShloMosaic.Lib.StableHlo.Run

noncomputable section

namespace Cert.Proof.Ref

open Cert.ReferenceIdeal Cert.ReferenceIdeal.Facts₀
open Idealize.ShloMosaic Idealize.ShloMosaic.TcCoe Idealize.SL.Sem Idealize.ShloMosaic.StableHlo

variable {F : FTy → Type} [FloatOps F]

/-- @main's 120 operations in program order, the calls unfolded: each `floor_divide` is seventeen (sixteen of its own
    and `_where`'s select) into `main_call0`'s and `main_call1`'s buffers, each `remainder` twenty-one (`_where_0`'s
    select the fifth) into `main_call2`'s and `main_call3`'s, around them @main's own forty-four. -/
abbrev ops : List (HloOp τ sig (Elt F)) :=
  [ reshape main_arg0 main_v0 rfl shapeCasts_S16384x26_S425984,
    nullary main_c (constantI S_ 32 10000#32),
    TRef.unary (.of main_c) main_call0.v0 id,
    TRef.unary main_call0.v0 main_call0.v1 (broadcastInDim S425984 ![] bcast_S_S425984),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S425984 ![] bcast_S_S425984),
    TRef.binary main_call0.v3 main_call0.v5 main_call0.v6 (cmpi .ne),
    TRef.unary main_call0.v0 main_call0.v7 (broadcastInDim S425984 ![] bcast_S_S425984),
    TRef.binary (.of main_v0) main_call0.v7 main_call0.v8 Host.remsi,
    TRef.nullary main_call0.c (constantI S_ 32 0#32),
    TRef.unary main_call0.c main_call0.v9 (broadcastInDim S425984 ![] bcast_S_S425984),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S425984 ![] bcast_S_S425984),
    TRef.binary main_call0.v2 main_call0.v12 main_call0.v13 subi,
    TRef.ternary main_call0.v11 main_call0.v13 main_call0.v2 main_call0.call0.v0 select,
    nullary main_c_0 (constantI S_ 32 100#32),
    TRef.unary (.of main_c_0) main_call1.v0 id,
    TRef.unary main_call1.v0 main_call1.v1 (broadcastInDim S425984 ![] bcast_S_S425984),
    TRef.binary (.of main_v0) main_call1.v1 main_call1.v2 Host.divsi,
    TRef.unary (.of main_v0) main_call1.v3 signi,
    TRef.unary main_call1.v0 main_call1.v4 signi,
    TRef.unary main_call1.v4 main_call1.v5 (broadcastInDim S425984 ![] bcast_S_S425984),
    TRef.binary main_call1.v3 main_call1.v5 main_call1.v6 (cmpi .ne),
    TRef.unary main_call1.v0 main_call1.v7 (broadcastInDim S425984 ![] bcast_S_S425984),
    TRef.binary (.of main_v0) main_call1.v7 main_call1.v8 Host.remsi,
    TRef.nullary main_call1.c (constantI S_ 32 0#32),
    TRef.unary main_call1.c main_call1.v9 (broadcastInDim S425984 ![] bcast_S_S425984),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S425984 ![] bcast_S_S425984),
    TRef.binary main_call1.v2 main_call1.v12 main_call1.v13 subi,
    TRef.ternary main_call1.v11 main_call1.v13 main_call1.v2 main_call1.call0.v0 select,
    nullary main_c_1 (constantI S_ 32 100#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S425984 ![] bcast_S_S425984),
    TRef.binary (.of main_v2) main_call2.v3 main_call2.v4 Host.remsi,
    TRef.nullary main_call2.c_1 (constantI S_ 32 0#32),
    TRef.unary main_call2.c_1 main_call2.v5 (broadcastInDim S425984 ![] bcast_S_S425984),
    TRef.binary main_call2.v4 main_call2.v5 main_call2.v6 (cmpi .ne),
    TRef.nullary main_call2.c_2 (constantI S_ 32 0#32),
    TRef.unary main_call2.c_2 main_call2.v7 (broadcastInDim S425984 ![] bcast_S_S425984),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S425984 ![] bcast_S_S425984),
    TRef.binary main_call2.v8 main_call2.v10 main_call2.v11 (cmpi .ne),
    TRef.binary main_call2.v11 main_call2.v6 main_call2.v12 andi,
    TRef.unary main_call2.call0.v0 main_call2.v13 (broadcastInDim S425984 ![] bcast_S_S425984),
    TRef.binary main_call2.v4 main_call2.v13 main_call2.v14 addi,
    TRef.ternary main_call2.v12 main_call2.v14 main_call2.v4 main_call2.v15 select,
    nullary main_c_2 (constantI S_ 32 100#32),
    TRef.unary (.of main_c_2) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S425984 ![] bcast_S_S425984),
    TRef.binary (.of main_v0) main_call3.v3 main_call3.v4 Host.remsi,
    TRef.nullary main_call3.c_1 (constantI S_ 32 0#32),
    TRef.unary main_call3.c_1 main_call3.v5 (broadcastInDim S425984 ![] bcast_S_S425984),
    TRef.binary main_call3.v4 main_call3.v5 main_call3.v6 (cmpi .ne),
    TRef.nullary main_call3.c_2 (constantI S_ 32 0#32),
    TRef.unary main_call3.c_2 main_call3.v7 (broadcastInDim S425984 ![] bcast_S_S425984),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S425984 ![] bcast_S_S425984),
    TRef.binary main_call3.v8 main_call3.v10 main_call3.v11 (cmpi .ne),
    TRef.binary main_call3.v11 main_call3.v6 main_call3.v12 andi,
    TRef.unary main_call3.call0.v0 main_call3.v13 (broadcastInDim S425984 ![] bcast_S_S425984),
    TRef.binary main_call3.v4 main_call3.v13 main_call3.v14 addi,
    TRef.ternary main_call3.v12 main_call3.v14 main_call3.v4 main_call3.v15 select,
    nullary main_c_3 (constantI S_ 32 0#32),
    unary main_c_3 main_v5 (broadcastInDim S425984 ![] bcast_S_S425984 : (⟨S_, .i32⟩ : BufTy).Contents (Elt F) → (⟨S425984, .i32⟩ : BufTy).Contents (Elt F)),
    binary main_v1 main_v5 main_v6 (cmpi .slt : (⟨S425984, .i32⟩ : BufTy).Contents (Elt F) → (⟨S425984, .i32⟩ : BufTy).Contents (Elt F) → (⟨S425984, .i1⟩ : BufTy).Contents (Elt F)),
    nullary main_c_4 (constantI S_ 32 100#32),
    unary main_c_4 main_v7 (broadcastInDim S425984 ![] bcast_S_S425984 : (⟨S_, .i32⟩ : BufTy).Contents (Elt F) → (⟨S425984, .i32⟩ : BufTy).Contents (Elt F)),
    binary main_v1 main_v7 main_v8 (addi : (⟨S425984, .i32⟩ : BufTy).Contents (Elt F) → (⟨S425984, .i32⟩ : BufTy).Contents (Elt F) → (⟨S425984, .i32⟩ : BufTy).Contents (Elt F)),
    ternary main_v6 main_v8 main_v1 main_v9 (select : (⟨S425984, .i1⟩ : BufTy).Contents (Elt F) → (⟨S425984, .i32⟩ : BufTy).Contents (Elt F) → (⟨S425984, .i32⟩ : BufTy).Contents (Elt F) → (⟨S425984, .i32⟩ : BufTy).Contents (Elt F)),
    nullary main_c_5 (constantI S_ 32 0#32),
    unary main_c_5 main_v10 (broadcastInDim S425984 ![] bcast_S_S425984 : (⟨S_, .i32⟩ : BufTy).Contents (Elt F) → (⟨S425984, .i32⟩ : BufTy).Contents (Elt F)),
    unary main_v10 main_v11 (id : (⟨S425984, .i32⟩ : BufTy).Contents (Elt F) → (⟨S425984, .i32⟩ : BufTy).Contents (Elt F)),
    unary main_v11 main_v12 (broadcastInDim S425984x1 ![0] bcast_S425984_S425984x1_0 : (⟨S425984, .i32⟩ : BufTy).Contents (Elt F) → (⟨S425984x1, .i32⟩ : BufTy).Contents (Elt F)),
    unary main_v9 main_v13 (broadcastInDim S425984x1 ![0] bcast_S425984_S425984x1_0 : (⟨S425984, .i32⟩ : BufTy).Contents (Elt F) → (⟨S425984x1, .i32⟩ : BufTy).Contents (Elt F)),
    binary main_v12 main_v13 main_v14 ((fun a b => concatenate S425984x2 1 [⟨S425984x1, a⟩, ⟨S425984x1, b⟩] concatenates_S425984x1_S425984x1_S425984x2_d1) : (⟨S425984x1, .i32⟩ : BufTy).Contents (Elt F) → (⟨S425984x1, .i32⟩ : BufTy).Contents (Elt F) → (⟨S425984x2, .i32⟩ : BufTy).Contents (Elt F)),
    binary main_arg1 main_v14 main_v15 ((fun x i => Host.gather gather_S1x100x4x8_S425984x2_S425984x4x8_12_01_n_n_01_1_1148 x i) : (⟨S1x100x4x8, .f32⟩ : BufTy).Contents (Elt F) → (⟨S425984x2, .i32⟩ : BufTy).Contents (Elt F) → (⟨S425984x4x8, .f32⟩ : BufTy).Contents (Elt F)),
    unary main_arg2 main_v16 ((transpose S100x8x4x8 [1, 0, 2, 3] · transposes_S8x100x4x8_S100x8x4x8_1_0_2_3) : (⟨S8x100x4x8, .f32⟩ : BufTy).Contents (Elt F) → (⟨S100x8x4x8, .f32⟩ : BufTy).Contents (Elt F)),
    nullary main_c_6 (constantI S_ 32 0#32),
    unary main_c_6 main_v17 (broadcastInDim S425984 ![] bcast_S_S425984 : (⟨S_, .i32⟩ : BufTy).Contents (Elt F) → (⟨S425984, .i32⟩ : BufTy).Contents (Elt F)),
    binary main_v3 main_v17 main_v18 (cmpi .slt : (⟨S425984, .i32⟩ : BufTy).Contents (Elt F) → (⟨S425984, .i32⟩ : BufTy).Contents (Elt F) → (⟨S425984, .i1⟩ : BufTy).Contents (Elt F)),
    nullary main_c_7 (constantI S_ 32 100#32),
    unary main_c_7 main_v19 (broadcastInDim S425984 ![] bcast_S_S425984 : (⟨S_, .i32⟩ : BufTy).Contents (Elt F) → (⟨S425984, .i32⟩ : BufTy).Contents (Elt F)),
    binary main_v3 main_v19 main_v20 (addi : (⟨S425984, .i32⟩ : BufTy).Contents (Elt F) → (⟨S425984, .i32⟩ : BufTy).Contents (Elt F) → (⟨S425984, .i32⟩ : BufTy).Contents (Elt F)),
    ternary main_v18 main_v20 main_v3 main_v21 (select : (⟨S425984, .i1⟩ : BufTy).Contents (Elt F) → (⟨S425984, .i32⟩ : BufTy).Contents (Elt F) → (⟨S425984, .i32⟩ : BufTy).Contents (Elt F) → (⟨S425984, .i32⟩ : BufTy).Contents (Elt F)),
    unary main_v21 main_v22 (broadcastInDim S425984x1 ![0] bcast_S425984_S425984x1_0 : (⟨S425984, .i32⟩ : BufTy).Contents (Elt F) → (⟨S425984x1, .i32⟩ : BufTy).Contents (Elt F)),
    binary main_v16 main_v22 main_v23 ((fun x i => Host.gather gather_S100x8x4x8_S425984x1_S425984x8x4x8_123_0_n_n_0_1_1848 x i) : (⟨S100x8x4x8, .f32⟩ : BufTy).Contents (Elt F) → (⟨S425984x1, .i32⟩ : BufTy).Contents (Elt F) → (⟨S425984x8x4x8, .f32⟩ : BufTy).Contents (Elt F)),
    unary main_arg3 main_v24 ((transpose S100x8x4x1 [1, 0, 2, 3] · transposes_S8x100x4x1_S100x8x4x1_1_0_2_3) : (⟨S8x100x4x1, .f32⟩ : BufTy).Contents (Elt F) → (⟨S100x8x4x1, .f32⟩ : BufTy).Contents (Elt F)),
    nullary main_c_8 (constantI S_ 32 0#32),
    unary main_c_8 main_v25 (broadcastInDim S425984 ![] bcast_S_S425984 : (⟨S_, .i32⟩ : BufTy).Contents (Elt F) → (⟨S425984, .i32⟩ : BufTy).Contents (Elt F)),
    binary main_v4 main_v25 main_v26 (cmpi .slt : (⟨S425984, .i32⟩ : BufTy).Contents (Elt F) → (⟨S425984, .i32⟩ : BufTy).Contents (Elt F) → (⟨S425984, .i1⟩ : BufTy).Contents (Elt F)),
    nullary main_c_9 (constantI S_ 32 100#32),
    unary main_c_9 main_v27 (broadcastInDim S425984 ![] bcast_S_S425984 : (⟨S_, .i32⟩ : BufTy).Contents (Elt F) → (⟨S425984, .i32⟩ : BufTy).Contents (Elt F)),
    binary main_v4 main_v27 main_v28 (addi : (⟨S425984, .i32⟩ : BufTy).Contents (Elt F) → (⟨S425984, .i32⟩ : BufTy).Contents (Elt F) → (⟨S425984, .i32⟩ : BufTy).Contents (Elt F)),
    ternary main_v26 main_v28 main_v4 main_v29 (select : (⟨S425984, .i1⟩ : BufTy).Contents (Elt F) → (⟨S425984, .i32⟩ : BufTy).Contents (Elt F) → (⟨S425984, .i32⟩ : BufTy).Contents (Elt F) → (⟨S425984, .i32⟩ : BufTy).Contents (Elt F)),
    unary main_v29 main_v30 (broadcastInDim S425984x1 ![0] bcast_S425984_S425984x1_0 : (⟨S425984, .i32⟩ : BufTy).Contents (Elt F) → (⟨S425984x1, .i32⟩ : BufTy).Contents (Elt F)),
    binary main_v24 main_v30 main_v31 ((fun x i => Host.gather gather_S100x8x4x1_S425984x1_S425984x8x4x1_123_0_n_n_0_1_1841 x i) : (⟨S100x8x4x1, .f32⟩ : BufTy).Contents (Elt F) → (⟨S425984x1, .i32⟩ : BufTy).Contents (Elt F) → (⟨S425984x8x4x1, .f32⟩ : BufTy).Contents (Elt F)),
    binary main_v15 main_v23 main_v32 ((fun l r => Host.dotGeneral dot_S425984x4x8_S425984x8x4x8_S425984x4x4x8_2_1_1_23_0_0 none l r) : (⟨S425984x4x8, .f32⟩ : BufTy).Contents (Elt F) → (⟨S425984x8x4x8, .f32⟩ : BufTy).Contents (Elt F) → (⟨S425984x4x4x8, .f32⟩ : BufTy).Contents (Elt F)),
    reshape main_v32 main_v33 rfl shapeCasts_S425984x4x4x8_S425984x16x8,
    binary main_v33 main_v31 main_v34 ((fun l r => Host.dotGeneral dot_S425984x16x8_S425984x8x4x1_S425984x16x4x1_2_1_1_23_0_0 none l r) : (⟨S425984x16x8, .f32⟩ : BufTy).Contents (Elt F) → (⟨S425984x8x4x1, .f32⟩ : BufTy).Contents (Elt F) → (⟨S425984x16x4x1, .f32⟩ : BufTy).Contents (Elt F)),
    reshape main_v34 main_v35 rfl shapeCasts_S425984x16x4x1_S425984x64,
    reshape main_v35 main_v36 rfl shapeCasts_S425984x64_S16384x26x64 ]

/-- The first stretch: the flattening reshape, the divisor 10000, and `floor_divide`'s seventeen operations into `main_call0`'s buffers. -/
abbrev opsA : List (HloOp τ sig (Elt F)) :=
  [ reshape main_arg0 main_v0 rfl shapeCasts_S16384x26_S425984,
    nullary main_c (constantI S_ 32 10000#32),
    TRef.unary (.of main_c) main_call0.v0 id,
    TRef.unary main_call0.v0 main_call0.v1 (broadcastInDim S425984 ![] bcast_S_S425984),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S425984 ![] bcast_S_S425984),
    TRef.binary main_call0.v3 main_call0.v5 main_call0.v6 (cmpi .ne),
    TRef.unary main_call0.v0 main_call0.v7 (broadcastInDim S425984 ![] bcast_S_S425984),
    TRef.binary (.of main_v0) main_call0.v7 main_call0.v8 Host.remsi,
    TRef.nullary main_call0.c (constantI S_ 32 0#32),
    TRef.unary main_call0.c main_call0.v9 (broadcastInDim S425984 ![] bcast_S_S425984),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S425984 ![] bcast_S_S425984),
    TRef.binary main_call0.v2 main_call0.v12 main_call0.v13 subi,
    TRef.ternary main_call0.v11 main_call0.v13 main_call0.v2 main_call0.call0.v0 select ]

/-- The second stretch: the divisor 100 and `floor_divide`'s seventeen into `main_call1`'s buffers. -/
abbrev opsB : List (HloOp τ sig (Elt F)) :=
  [ nullary main_c_0 (constantI S_ 32 100#32),
    TRef.unary (.of main_c_0) main_call1.v0 id,
    TRef.unary main_call1.v0 main_call1.v1 (broadcastInDim S425984 ![] bcast_S_S425984),
    TRef.binary (.of main_v0) main_call1.v1 main_call1.v2 Host.divsi,
    TRef.unary (.of main_v0) main_call1.v3 signi,
    TRef.unary main_call1.v0 main_call1.v4 signi,
    TRef.unary main_call1.v4 main_call1.v5 (broadcastInDim S425984 ![] bcast_S_S425984),
    TRef.binary main_call1.v3 main_call1.v5 main_call1.v6 (cmpi .ne),
    TRef.unary main_call1.v0 main_call1.v7 (broadcastInDim S425984 ![] bcast_S_S425984),
    TRef.binary (.of main_v0) main_call1.v7 main_call1.v8 Host.remsi,
    TRef.nullary main_call1.c (constantI S_ 32 0#32),
    TRef.unary main_call1.c main_call1.v9 (broadcastInDim S425984 ![] bcast_S_S425984),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S425984 ![] bcast_S_S425984),
    TRef.binary main_call1.v2 main_call1.v12 main_call1.v13 subi,
    TRef.ternary main_call1.v11 main_call1.v13 main_call1.v2 main_call1.call0.v0 select ]

/-- The third stretch: the divisor 100 and `remainder`'s twenty-one into `main_call2`'s buffers (its dividend the second quotient). -/
abbrev opsC : List (HloOp τ sig (Elt F)) :=
  [ nullary main_c_1 (constantI S_ 32 100#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S425984 ![] bcast_S_S425984),
    TRef.binary (.of main_v2) main_call2.v3 main_call2.v4 Host.remsi,
    TRef.nullary main_call2.c_1 (constantI S_ 32 0#32),
    TRef.unary main_call2.c_1 main_call2.v5 (broadcastInDim S425984 ![] bcast_S_S425984),
    TRef.binary main_call2.v4 main_call2.v5 main_call2.v6 (cmpi .ne),
    TRef.nullary main_call2.c_2 (constantI S_ 32 0#32),
    TRef.unary main_call2.c_2 main_call2.v7 (broadcastInDim S425984 ![] bcast_S_S425984),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S425984 ![] bcast_S_S425984),
    TRef.binary main_call2.v8 main_call2.v10 main_call2.v11 (cmpi .ne),
    TRef.binary main_call2.v11 main_call2.v6 main_call2.v12 andi,
    TRef.unary main_call2.call0.v0 main_call2.v13 (broadcastInDim S425984 ![] bcast_S_S425984),
    TRef.binary main_call2.v4 main_call2.v13 main_call2.v14 addi,
    TRef.ternary main_call2.v12 main_call2.v14 main_call2.v4 main_call2.v15 select ]

/-- The fourth stretch: the divisor 100 and `remainder`'s twenty-one into `main_call3`'s buffers (its dividend the flat words). -/
abbrev opsD : List (HloOp τ sig (Elt F)) :=
  [ nullary main_c_2 (constantI S_ 32 100#32),
    TRef.unary (.of main_c_2) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S425984 ![] bcast_S_S425984),
    TRef.binary (.of main_v0) main_call3.v3 main_call3.v4 Host.remsi,
    TRef.nullary main_call3.c_1 (constantI S_ 32 0#32),
    TRef.unary main_call3.c_1 main_call3.v5 (broadcastInDim S425984 ![] bcast_S_S425984),
    TRef.binary main_call3.v4 main_call3.v5 main_call3.v6 (cmpi .ne),
    TRef.nullary main_call3.c_2 (constantI S_ 32 0#32),
    TRef.unary main_call3.c_2 main_call3.v7 (broadcastInDim S425984 ![] bcast_S_S425984),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S425984 ![] bcast_S_S425984),
    TRef.binary main_call3.v8 main_call3.v10 main_call3.v11 (cmpi .ne),
    TRef.binary main_call3.v11 main_call3.v6 main_call3.v12 andi,
    TRef.unary main_call3.call0.v0 main_call3.v13 (broadcastInDim S425984 ![] bcast_S_S425984),
    TRef.binary main_call3.v4 main_call3.v13 main_call3.v14 addi,
    TRef.ternary main_call3.v12 main_call3.v14 main_call3.v4 main_call3.v15 select ]

/-- The last stretch: @main's thirty-nine operations after the last call. -/
abbrev opsE : List (HloOp τ sig (Elt F)) :=
  [ nullary main_c_3 (constantI S_ 32 0#32),
    unary main_c_3 main_v5 (broadcastInDim S425984 ![] bcast_S_S425984 : (⟨S_, .i32⟩ : BufTy).Contents (Elt F) → (⟨S425984, .i32⟩ : BufTy).Contents (Elt F)),
    binary main_v1 main_v5 main_v6 (cmpi .slt : (⟨S425984, .i32⟩ : BufTy).Contents (Elt F) → (⟨S425984, .i32⟩ : BufTy).Contents (Elt F) → (⟨S425984, .i1⟩ : BufTy).Contents (Elt F)),
    nullary main_c_4 (constantI S_ 32 100#32),
    unary main_c_4 main_v7 (broadcastInDim S425984 ![] bcast_S_S425984 : (⟨S_, .i32⟩ : BufTy).Contents (Elt F) → (⟨S425984, .i32⟩ : BufTy).Contents (Elt F)),
    binary main_v1 main_v7 main_v8 (addi : (⟨S425984, .i32⟩ : BufTy).Contents (Elt F) → (⟨S425984, .i32⟩ : BufTy).Contents (Elt F) → (⟨S425984, .i32⟩ : BufTy).Contents (Elt F)),
    ternary main_v6 main_v8 main_v1 main_v9 (select : (⟨S425984, .i1⟩ : BufTy).Contents (Elt F) → (⟨S425984, .i32⟩ : BufTy).Contents (Elt F) → (⟨S425984, .i32⟩ : BufTy).Contents (Elt F) → (⟨S425984, .i32⟩ : BufTy).Contents (Elt F)),
    nullary main_c_5 (constantI S_ 32 0#32),
    unary main_c_5 main_v10 (broadcastInDim S425984 ![] bcast_S_S425984 : (⟨S_, .i32⟩ : BufTy).Contents (Elt F) → (⟨S425984, .i32⟩ : BufTy).Contents (Elt F)),
    unary main_v10 main_v11 (id : (⟨S425984, .i32⟩ : BufTy).Contents (Elt F) → (⟨S425984, .i32⟩ : BufTy).Contents (Elt F)),
    unary main_v11 main_v12 (broadcastInDim S425984x1 ![0] bcast_S425984_S425984x1_0 : (⟨S425984, .i32⟩ : BufTy).Contents (Elt F) → (⟨S425984x1, .i32⟩ : BufTy).Contents (Elt F)),
    unary main_v9 main_v13 (broadcastInDim S425984x1 ![0] bcast_S425984_S425984x1_0 : (⟨S425984, .i32⟩ : BufTy).Contents (Elt F) → (⟨S425984x1, .i32⟩ : BufTy).Contents (Elt F)),
    binary main_v12 main_v13 main_v14 ((fun a b => concatenate S425984x2 1 [⟨S425984x1, a⟩, ⟨S425984x1, b⟩] concatenates_S425984x1_S425984x1_S425984x2_d1) : (⟨S425984x1, .i32⟩ : BufTy).Contents (Elt F) → (⟨S425984x1, .i32⟩ : BufTy).Contents (Elt F) → (⟨S425984x2, .i32⟩ : BufTy).Contents (Elt F)),
    binary main_arg1 main_v14 main_v15 ((fun x i => Host.gather gather_S1x100x4x8_S425984x2_S425984x4x8_12_01_n_n_01_1_1148 x i) : (⟨S1x100x4x8, .f32⟩ : BufTy).Contents (Elt F) → (⟨S425984x2, .i32⟩ : BufTy).Contents (Elt F) → (⟨S425984x4x8, .f32⟩ : BufTy).Contents (Elt F)),
    unary main_arg2 main_v16 ((transpose S100x8x4x8 [1, 0, 2, 3] · transposes_S8x100x4x8_S100x8x4x8_1_0_2_3) : (⟨S8x100x4x8, .f32⟩ : BufTy).Contents (Elt F) → (⟨S100x8x4x8, .f32⟩ : BufTy).Contents (Elt F)),
    nullary main_c_6 (constantI S_ 32 0#32),
    unary main_c_6 main_v17 (broadcastInDim S425984 ![] bcast_S_S425984 : (⟨S_, .i32⟩ : BufTy).Contents (Elt F) → (⟨S425984, .i32⟩ : BufTy).Contents (Elt F)),
    binary main_v3 main_v17 main_v18 (cmpi .slt : (⟨S425984, .i32⟩ : BufTy).Contents (Elt F) → (⟨S425984, .i32⟩ : BufTy).Contents (Elt F) → (⟨S425984, .i1⟩ : BufTy).Contents (Elt F)),
    nullary main_c_7 (constantI S_ 32 100#32),
    unary main_c_7 main_v19 (broadcastInDim S425984 ![] bcast_S_S425984 : (⟨S_, .i32⟩ : BufTy).Contents (Elt F) → (⟨S425984, .i32⟩ : BufTy).Contents (Elt F)),
    binary main_v3 main_v19 main_v20 (addi : (⟨S425984, .i32⟩ : BufTy).Contents (Elt F) → (⟨S425984, .i32⟩ : BufTy).Contents (Elt F) → (⟨S425984, .i32⟩ : BufTy).Contents (Elt F)),
    ternary main_v18 main_v20 main_v3 main_v21 (select : (⟨S425984, .i1⟩ : BufTy).Contents (Elt F) → (⟨S425984, .i32⟩ : BufTy).Contents (Elt F) → (⟨S425984, .i32⟩ : BufTy).Contents (Elt F) → (⟨S425984, .i32⟩ : BufTy).Contents (Elt F)),
    unary main_v21 main_v22 (broadcastInDim S425984x1 ![0] bcast_S425984_S425984x1_0 : (⟨S425984, .i32⟩ : BufTy).Contents (Elt F) → (⟨S425984x1, .i32⟩ : BufTy).Contents (Elt F)),
    binary main_v16 main_v22 main_v23 ((fun x i => Host.gather gather_S100x8x4x8_S425984x1_S425984x8x4x8_123_0_n_n_0_1_1848 x i) : (⟨S100x8x4x8, .f32⟩ : BufTy).Contents (Elt F) → (⟨S425984x1, .i32⟩ : BufTy).Contents (Elt F) → (⟨S425984x8x4x8, .f32⟩ : BufTy).Contents (Elt F)),
    unary main_arg3 main_v24 ((transpose S100x8x4x1 [1, 0, 2, 3] · transposes_S8x100x4x1_S100x8x4x1_1_0_2_3) : (⟨S8x100x4x1, .f32⟩ : BufTy).Contents (Elt F) → (⟨S100x8x4x1, .f32⟩ : BufTy).Contents (Elt F)),
    nullary main_c_8 (constantI S_ 32 0#32),
    unary main_c_8 main_v25 (broadcastInDim S425984 ![] bcast_S_S425984 : (⟨S_, .i32⟩ : BufTy).Contents (Elt F) → (⟨S425984, .i32⟩ : BufTy).Contents (Elt F)),
    binary main_v4 main_v25 main_v26 (cmpi .slt : (⟨S425984, .i32⟩ : BufTy).Contents (Elt F) → (⟨S425984, .i32⟩ : BufTy).Contents (Elt F) → (⟨S425984, .i1⟩ : BufTy).Contents (Elt F)),
    nullary main_c_9 (constantI S_ 32 100#32),
    unary main_c_9 main_v27 (broadcastInDim S425984 ![] bcast_S_S425984 : (⟨S_, .i32⟩ : BufTy).Contents (Elt F) → (⟨S425984, .i32⟩ : BufTy).Contents (Elt F)),
    binary main_v4 main_v27 main_v28 (addi : (⟨S425984, .i32⟩ : BufTy).Contents (Elt F) → (⟨S425984, .i32⟩ : BufTy).Contents (Elt F) → (⟨S425984, .i32⟩ : BufTy).Contents (Elt F)),
    ternary main_v26 main_v28 main_v4 main_v29 (select : (⟨S425984, .i1⟩ : BufTy).Contents (Elt F) → (⟨S425984, .i32⟩ : BufTy).Contents (Elt F) → (⟨S425984, .i32⟩ : BufTy).Contents (Elt F) → (⟨S425984, .i32⟩ : BufTy).Contents (Elt F)),
    unary main_v29 main_v30 (broadcastInDim S425984x1 ![0] bcast_S425984_S425984x1_0 : (⟨S425984, .i32⟩ : BufTy).Contents (Elt F) → (⟨S425984x1, .i32⟩ : BufTy).Contents (Elt F)),
    binary main_v24 main_v30 main_v31 ((fun x i => Host.gather gather_S100x8x4x1_S425984x1_S425984x8x4x1_123_0_n_n_0_1_1841 x i) : (⟨S100x8x4x1, .f32⟩ : BufTy).Contents (Elt F) → (⟨S425984x1, .i32⟩ : BufTy).Contents (Elt F) → (⟨S425984x8x4x1, .f32⟩ : BufTy).Contents (Elt F)),
    binary main_v15 main_v23 main_v32 ((fun l r => Host.dotGeneral dot_S425984x4x8_S425984x8x4x8_S425984x4x4x8_2_1_1_23_0_0 none l r) : (⟨S425984x4x8, .f32⟩ : BufTy).Contents (Elt F) → (⟨S425984x8x4x8, .f32⟩ : BufTy).Contents (Elt F) → (⟨S425984x4x4x8, .f32⟩ : BufTy).Contents (Elt F)),
    reshape main_v32 main_v33 rfl shapeCasts_S425984x4x4x8_S425984x16x8,
    binary main_v33 main_v31 main_v34 ((fun l r => Host.dotGeneral dot_S425984x16x8_S425984x8x4x1_S425984x16x4x1_2_1_1_23_0_0 none l r) : (⟨S425984x16x8, .f32⟩ : BufTy).Contents (Elt F) → (⟨S425984x8x4x1, .f32⟩ : BufTy).Contents (Elt F) → (⟨S425984x16x4x1, .f32⟩ : BufTy).Contents (Elt F)),
    reshape main_v34 main_v35 rfl shapeCasts_S425984x16x4x1_S425984x64,
    reshape main_v35 main_v36 rfl shapeCasts_S425984x64_S16384x26x64 ]

-- one hundred and twenty binds re-associated: the rewrite under the chain recurses once per statement
set_option maxRecDepth 8192 in
set_option maxHeartbeats 3200000 in
/-- @main is that straight line: the functions' definitions unfolded at their calls and the records at their fields,
    both sides are one chain of `hlo` steps once sequencing is reassociated. -/
theorem main_eq (c : Dev nD) : main (F := F) c = seq ops := by
  simp only [main, fn_floor_divide.body, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    unary_bufs_sub .., unary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., reshape_bufs_sub .., binary_bufs_sub .., reshape_bufs_sub .., reshape_bufs_sub ..⟩

/-! ## The result by stretches

The composed term of `out`, cut where the program cuts: the two floor divisions, the two floor remainders (each an
outlined function's body, at the operands the call passes), and @main's own operations after the last call. -/

/-- `floor_divide`'s body at a dividend array and a rank-0 divisor: the truncated quotient, less one where the signs
    differ and the truncated remainder is not zero. -/
def fdivTerm (x : IVec S425984 32) (d : IVec S_ 32) : IVec S425984 32 :=
  have v0 : IVec S_ 32 := id d
  have v1 : IVec S425984 32 := broadcastInDim S425984 ![] bcast_S_S425984 v0
  have v2 : IVec S425984 32 := Host.divsi x v1
  have v3 : IVec S425984 32 := signi x
  have v4 : IVec S_ 32 := signi v0
  have v5 : IVec S425984 32 := broadcastInDim S425984 ![] bcast_S_S425984 v4
  have v6 : IVec S425984 1 := cmpi .ne v3 v5
  have v7 : IVec S425984 32 := broadcastInDim S425984 ![] bcast_S_S425984 v0
  have v8 : IVec S425984 32 := Host.remsi x v7
  have c : IVec S_ 32 := constantI S_ 32 0#32
  have v9 : IVec S425984 32 := broadcastInDim S425984 ![] bcast_S_S425984 c
  have v10 : IVec S425984 1 := cmpi .ne v8 v9
  have v11 : IVec S425984 1 := andi v6 v10
  have c_0 : IVec S_ 32 := constantI S_ 32 1#32
  have v12 : IVec S425984 32 := broadcastInDim S425984 ![] bcast_S_S425984 c_0
  have v13 : IVec S425984 32 := subi v2 v12
  have r : IVec S425984 32 := select v11 v13 v2
  r

/-- `remainder`'s body at a dividend array and a rank-0 divisor: the truncated remainder by the divisor (by one were it
    zero), plus the divisor where the remainder is not zero and its sign is not the divisor's. -/
def fremTerm (x : IVec S425984 32) (d : IVec S_ 32) : IVec S425984 32 :=
  have v0 : IVec S_ 32 := id d
  have c : IVec S_ 32 := constantI S_ 32 0#32
  have v1 : IVec S_ 1 := cmpi .eq v0 c
  have c_0 : IVec S_ 32 := constantI S_ 32 1#32
  have v2 : IVec S_ 32 := select v1 c_0 v0
  have v3 : IVec S425984 32 := broadcastInDim S425984 ![] bcast_S_S425984 v2
  have v4 : IVec S425984 32 := Host.remsi x v3
  have c_1 : IVec S_ 32 := constantI S_ 32 0#32
  have v5 : IVec S425984 32 := broadcastInDim S425984 ![] bcast_S_S425984 c_1
  have v6 : IVec S425984 1 := cmpi .ne v4 v5
  have c_2 : IVec S_ 32 := constantI S_ 32 0#32
  have v7 : IVec S425984 32 := broadcastInDim S425984 ![] bcast_S_S425984 c_2
  have v8 : IVec S425984 1 := cmpi .slt v4 v7
  have c_3 : IVec S_ 32 := constantI S_ 32 0#32
  have v9 : IVec S_ 1 := cmpi .slt v2 c_3
  have v10 : IVec S425984 1 := broadcastInDim S425984 ![] bcast_S_S425984 v9
  have v11 : IVec S425984 1 := cmpi .ne v8 v10
  have v12 : IVec S425984 1 := andi v11 v6
  have v13 : IVec S425984 32 := broadcastInDim S425984 ![] bcast_S_S425984 v2
  have v14 : IVec S425984 32 := addi v4 v13
  have r : IVec S425984 32 := select v12 v14 v4
  r

/-- @main's operations after the last call, from the three digit arrays and the three cores. -/
def tailTerm (v1 v3 v4 : IVec S425984 32) (a1 : FVec Ideal S1x100x4x8 .f32) (a2 : FVec Ideal S8x100x4x8 .f32)
    (a3 : FVec Ideal S8x100x4x1 .f32) : FVec Ideal S16384x26x64 .f32 :=
  have c_3 : IVec S_ 32 := constantI S_ 32 0#32
  have v5 : IVec S425984 32 := broadcastInDim S425984 ![] bcast_S_S425984 c_3
  have v6 : IVec S425984 1 := cmpi .slt v1 v5
  have c_4 : IVec S_ 32 := constantI S_ 32 100#32
  have v7 : IVec S425984 32 := broadcastInDim S425984 ![] bcast_S_S425984 c_4
  have v8 : IVec S425984 32 := addi v1 v7
  have v9 : IVec S425984 32 := select v6 v8 v1
  have c_5 : IVec S_ 32 := constantI S_ 32 0#32
  have v10 : IVec S425984 32 := broadcastInDim S425984 ![] bcast_S_S425984 c_5
  have v11 : IVec S425984 32 := id v10
  have v12 : IVec S425984x1 32 := broadcastInDim S425984x1 ![0] bcast_S425984_S425984x1_0 v11
  have v13 : IVec S425984x1 32 := broadcastInDim S425984x1 ![0] bcast_S425984_S425984x1_0 v9
  have v14 : IVec S425984x2 32 := concatenate S425984x2 1 [⟨S425984x1, v12⟩, ⟨S425984x1, v13⟩] concatenates_S425984x1_S425984x1_S425984x2_d1
  have v15 : FVec Ideal S425984x4x8 .f32 := Host.gather gather_S1x100x4x8_S425984x2_S425984x4x8_12_01_n_n_01_1_1148 a1 v14
  have v16 : FVec Ideal S100x8x4x8 .f32 := transpose S100x8x4x8 [1, 0, 2, 3] a2 transposes_S8x100x4x8_S100x8x4x8_1_0_2_3
  have c_6 : IVec S_ 32 := constantI S_ 32 0#32
  have v17 : IVec S425984 32 := broadcastInDim S425984 ![] bcast_S_S425984 c_6
  have v18 : IVec S425984 1 := cmpi .slt v3 v17
  have c_7 : IVec S_ 32 := constantI S_ 32 100#32
  have v19 : IVec S425984 32 := broadcastInDim S425984 ![] bcast_S_S425984 c_7
  have v20 : IVec S425984 32 := addi v3 v19
  have v21 : IVec S425984 32 := select v18 v20 v3
  have v22 : IVec S425984x1 32 := broadcastInDim S425984x1 ![0] bcast_S425984_S425984x1_0 v21
  have v23 : FVec Ideal S425984x8x4x8 .f32 := Host.gather gather_S100x8x4x8_S425984x1_S425984x8x4x8_123_0_n_n_0_1_1848 v16 v22
  have v24 : FVec Ideal S100x8x4x1 .f32 := transpose S100x8x4x1 [1, 0, 2, 3] a3 transposes_S8x100x4x1_S100x8x4x1_1_0_2_3
  have c_8 : IVec S_ 32 := constantI S_ 32 0#32
  have v25 : IVec S425984 32 := broadcastInDim S425984 ![] bcast_S_S425984 c_8
  have v26 : IVec S425984 1 := cmpi .slt v4 v25
  have c_9 : IVec S_ 32 := constantI S_ 32 100#32
  have v27 : IVec S425984 32 := broadcastInDim S425984 ![] bcast_S_S425984 c_9
  have v28 : IVec S425984 32 := addi v4 v27
  have v29 : IVec S425984 32 := select v26 v28 v4
  have v30 : IVec S425984x1 32 := broadcastInDim S425984x1 ![0] bcast_S425984_S425984x1_0 v29
  have v31 : FVec Ideal S425984x8x4x1 .f32 := Host.gather gather_S100x8x4x1_S425984x1_S425984x8x4x1_123_0_n_n_0_1_1841 v24 v30
  have v32 : FVec Ideal S425984x4x4x8 .f32 := Host.dotGeneral (F := Ideal) dot_S425984x4x8_S425984x8x4x8_S425984x4x4x8_2_1_1_23_0_0 none v15 v23
  have v33 : FVec Ideal S425984x16x8 .f32 := shapeCast S425984x16x8 v32 shapeCasts_S425984x4x4x8_S425984x16x8
  have v34 : FVec Ideal S425984x16x4x1 .f32 := Host.dotGeneral (F := Ideal) dot_S425984x16x8_S425984x8x4x1_S425984x16x4x1_2_1_1_23_0_0 none v33 v31
  have v35 : FVec Ideal S425984x64 .f32 := shapeCast S425984x64 v34 shapeCasts_S425984x16x4x1_S425984x64
  have v36 : FVec Ideal S16384x26x64 .f32 := shapeCast S16384x26x64 v35 shapeCasts_S425984x64_S16384x26x64
  v36

/-- `out` is the stretches composed: both sides are the same chain of bindings. -/
theorem out_eq_stages (a0 : IVec S16384x26 32) (a1 : FVec Ideal S1x100x4x8 .f32) (a2 : FVec Ideal S8x100x4x8 .f32)
    (a3 : FVec Ideal S8x100x4x1 .f32) :
    out a0 a1 a2 a3
      = tailTerm (fdivTerm (shapeCast S425984 a0 shapeCasts_S16384x26_S425984) (constantI S_ 32 10000#32))
          (fremTerm (fdivTerm (shapeCast S425984 a0 shapeCasts_S16384x26_S425984) (constantI S_ 32 100#32)) (constantI S_ 32 100#32))
          (fremTerm (shapeCast S425984 a0 shapeCasts_S16384x26_S425984) (constantI S_ 32 100#32)) a1 a2 a3 := rfl
/-! ### What each stretch leaves at the buffers read later

For any contents `W` before the stretch: the buffer it computes holds the stretch's term of what it reads, and every
buffer read after it that it does not write holds what it held. -/

theorem A_v0 (W : Valuation τ sig (Elt Ideal)) :
    after (opsA (F := Ideal)) W (main_v0 : DevRef τ sig)
      = shapeCast S425984 (W (main_arg0 : DevRef τ sig) : IVec S16384x26 32) shapeCasts_S16384x26_S425984 := by
  after_results_simp
  rfl

theorem A_v1 (W : Valuation τ sig (Elt Ideal)) :
    after (opsA (F := Ideal)) W (main_v1 : DevRef τ sig)
      = fdivTerm (shapeCast S425984 (W (main_arg0 : DevRef τ sig) : IVec S16384x26 32) shapeCasts_S16384x26_S425984) (constantI S_ 32 10000#32) := by
  after_results_simp
  rfl

theorem A_arg0 (W : Valuation τ sig (Elt Ideal)) : after (opsA (F := Ideal)) W (main_arg0 : DevRef τ sig) = W (main_arg0 : DevRef τ sig) := by
  after_results_simp

theorem A_arg1 (W : Valuation τ sig (Elt Ideal)) : after (opsA (F := Ideal)) W (main_arg1 : DevRef τ sig) = W (main_arg1 : DevRef τ sig) := by
  after_results_simp

theorem A_arg2 (W : Valuation τ sig (Elt Ideal)) : after (opsA (F := Ideal)) W (main_arg2 : DevRef τ sig) = W (main_arg2 : DevRef τ sig) := by
  after_results_simp

theorem A_arg3 (W : Valuation τ sig (Elt Ideal)) : after (opsA (F := Ideal)) W (main_arg3 : DevRef τ sig) = W (main_arg3 : DevRef τ sig) := by
  after_results_simp

theorem B_v2 (W : Valuation τ sig (Elt Ideal)) :
    after (opsB (F := Ideal)) W (main_v2 : DevRef τ sig)
      = fdivTerm (W (main_v0 : DevRef τ sig)) (constantI S_ 32 100#32) := by
  after_results_simp
  rfl

theorem B_v0 (W : Valuation τ sig (Elt Ideal)) : after (opsB (F := Ideal)) W (main_v0 : DevRef τ sig) = W (main_v0 : DevRef τ sig) := by
  after_results_simp

theorem B_v1 (W : Valuation τ sig (Elt Ideal)) : after (opsB (F := Ideal)) W (main_v1 : DevRef τ sig) = W (main_v1 : DevRef τ sig) := by
  after_results_simp

theorem B_arg0 (W : Valuation τ sig (Elt Ideal)) : after (opsB (F := Ideal)) W (main_arg0 : DevRef τ sig) = W (main_arg0 : DevRef τ sig) := by
  after_results_simp

theorem B_arg1 (W : Valuation τ sig (Elt Ideal)) : after (opsB (F := Ideal)) W (main_arg1 : DevRef τ sig) = W (main_arg1 : DevRef τ sig) := by
  after_results_simp

theorem B_arg2 (W : Valuation τ sig (Elt Ideal)) : after (opsB (F := Ideal)) W (main_arg2 : DevRef τ sig) = W (main_arg2 : DevRef τ sig) := by
  after_results_simp

theorem B_arg3 (W : Valuation τ sig (Elt Ideal)) : after (opsB (F := Ideal)) W (main_arg3 : DevRef τ sig) = W (main_arg3 : DevRef τ sig) := by
  after_results_simp

theorem C_v3 (W : Valuation τ sig (Elt Ideal)) :
    after (opsC (F := Ideal)) W (main_v3 : DevRef τ sig)
      = fremTerm (W (main_v2 : DevRef τ sig)) (constantI S_ 32 100#32) := by
  after_results_simp
  rfl

theorem C_v0 (W : Valuation τ sig (Elt Ideal)) : after (opsC (F := Ideal)) W (main_v0 : DevRef τ sig) = W (main_v0 : DevRef τ sig) := by
  after_results_simp

theorem C_v1 (W : Valuation τ sig (Elt Ideal)) : after (opsC (F := Ideal)) W (main_v1 : DevRef τ sig) = W (main_v1 : DevRef τ sig) := by
  after_results_simp

theorem C_arg0 (W : Valuation τ sig (Elt Ideal)) : after (opsC (F := Ideal)) W (main_arg0 : DevRef τ sig) = W (main_arg0 : DevRef τ sig) := by
  after_results_simp

theorem C_arg1 (W : Valuation τ sig (Elt Ideal)) : after (opsC (F := Ideal)) W (main_arg1 : DevRef τ sig) = W (main_arg1 : DevRef τ sig) := by
  after_results_simp

theorem C_arg2 (W : Valuation τ sig (Elt Ideal)) : after (opsC (F := Ideal)) W (main_arg2 : DevRef τ sig) = W (main_arg2 : DevRef τ sig) := by
  after_results_simp

theorem C_arg3 (W : Valuation τ sig (Elt Ideal)) : after (opsC (F := Ideal)) W (main_arg3 : DevRef τ sig) = W (main_arg3 : DevRef τ sig) := by
  after_results_simp

theorem D_v4 (W : Valuation τ sig (Elt Ideal)) :
    after (opsD (F := Ideal)) W (main_v4 : DevRef τ sig)
      = fremTerm (W (main_v0 : DevRef τ sig)) (constantI S_ 32 100#32) := by
  after_results_simp
  rfl

theorem D_v1 (W : Valuation τ sig (Elt Ideal)) : after (opsD (F := Ideal)) W (main_v1 : DevRef τ sig) = W (main_v1 : DevRef τ sig) := by
  after_results_simp

theorem D_v3 (W : Valuation τ sig (Elt Ideal)) : after (opsD (F := Ideal)) W (main_v3 : DevRef τ sig) = W (main_v3 : DevRef τ sig) := by
  after_results_simp

theorem D_arg0 (W : Valuation τ sig (Elt Ideal)) : after (opsD (F := Ideal)) W (main_arg0 : DevRef τ sig) = W (main_arg0 : DevRef τ sig) := by
  after_results_simp

theorem D_arg1 (W : Valuation τ sig (Elt Ideal)) : after (opsD (F := Ideal)) W (main_arg1 : DevRef τ sig) = W (main_arg1 : DevRef τ sig) := by
  after_results_simp

theorem D_arg2 (W : Valuation τ sig (Elt Ideal)) : after (opsD (F := Ideal)) W (main_arg2 : DevRef τ sig) = W (main_arg2 : DevRef τ sig) := by
  after_results_simp

theorem D_arg3 (W : Valuation τ sig (Elt Ideal)) : after (opsD (F := Ideal)) W (main_arg3 : DevRef τ sig) = W (main_arg3 : DevRef τ sig) := by
  after_results_simp

set_option maxRecDepth 8192 in
set_option maxHeartbeats 1600000 in
theorem E_v36 (W : Valuation τ sig (Elt Ideal)) :
    after (opsE (F := Ideal)) W (main_v36 : DevRef τ sig)
      = tailTerm (W (main_v1 : DevRef τ sig)) (W (main_v3 : DevRef τ sig)) (W (main_v4 : DevRef τ sig)) (W (main_arg1 : DevRef τ sig)) (W (main_arg2 : DevRef τ sig)) (W (main_arg3 : DevRef τ sig)) := by
  after_results_simp
  rfl

theorem E_arg0 (W : Valuation τ sig (Elt Ideal)) : after (opsE (F := Ideal)) W (main_arg0 : DevRef τ sig) = W (main_arg0 : DevRef τ sig) := by
  after_results_simp

theorem E_arg1 (W : Valuation τ sig (Elt Ideal)) : after (opsE (F := Ideal)) W (main_arg1 : DevRef τ sig) = W (main_arg1 : DevRef τ sig) := by
  after_results_simp

theorem E_arg2 (W : Valuation τ sig (Elt Ideal)) : after (opsE (F := Ideal)) W (main_arg2 : DevRef τ sig) = W (main_arg2 : DevRef τ sig) := by
  after_results_simp

theorem E_arg3 (W : Valuation τ sig (Elt Ideal)) : after (opsE (F := Ideal)) W (main_arg3 : DevRef τ sig) = W (main_arg3 : DevRef τ sig) := by
  after_results_simp

/-- The fold over a concatenation is the folds in turn. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The operations are the five stretches in order. -/
theorem ops_split : (ops : List (HloOp τ sig (Elt F))) = opsA ++ (opsB ++ (opsC ++ (opsD ++ opsE))) := rfl

/-- After the whole line the result buffer holds `out` of the arguments' contents: stretch by stretch from the last,
    each buffer a stretch reads is what the stretch before left there. -/
theorem out_eq (V : Valuation τ sig (Elt Ideal)) :
    after (ops (F := Ideal)) V (main_v36 : DevRef τ sig)
      = out (V (main_arg0 : DevRef τ sig)) (V (main_arg1 : DevRef τ sig)) (V (main_arg2 : DevRef τ sig)) (V (main_arg3 : DevRef τ sig)) := by
  rw [out_eq_stages, ops_split, after_app, after_app, after_app, after_app,
    E_v36, D_v1, D_v3, D_v4, D_arg1, D_arg2, D_arg3,
    C_v1, C_v3, C_v0, C_arg1, C_arg2, C_arg3,
    B_v1, B_v2, B_v0, B_arg1, B_arg2, B_arg3,
    A_v1, A_v0, A_arg1, A_arg2, A_arg3]

theorem arg0_eq (V : Valuation τ sig (Elt Ideal)) :
    after (ops (F := Ideal)) V (main_arg0 : DevRef τ sig) = V (main_arg0 : DevRef τ sig) := by
  rw [ops_split, after_app, after_app, after_app, after_app, E_arg0, D_arg0, C_arg0, B_arg0, A_arg0]

theorem arg1_eq (V : Valuation τ sig (Elt Ideal)) :
    after (ops (F := Ideal)) V (main_arg1 : DevRef τ sig) = V (main_arg1 : DevRef τ sig) := by
  rw [ops_split, after_app, after_app, after_app, after_app, E_arg1, D_arg1, C_arg1, B_arg1, A_arg1]

theorem arg2_eq (V : Valuation τ sig (Elt Ideal)) :
    after (ops (F := Ideal)) V (main_arg2 : DevRef τ sig) = V (main_arg2 : DevRef τ sig) := by
  rw [ops_split, after_app, after_app, after_app, after_app, E_arg2, D_arg2, C_arg2, B_arg2, A_arg2]

theorem arg3_eq (V : Valuation τ sig (Elt Ideal)) :
    after (ops (F := Ideal)) V (main_arg3 : DevRef τ sig) = V (main_arg3 : DevRef τ sig) := by
  rw [ops_split, after_app, after_app, after_app, after_app, E_arg3, D_arg3, C_arg3, B_arg3, A_arg3]

/-- On the one device, from any memory with zero counters: every weakly fair execution of @main terminates, faults nowhere,
    and ends with the result buffer at `out` of the argument arrays' launch contents and the arguments unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v36) = out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v36).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m g)

end Cert.Proof.Ref

end
-- ==== Proof.RefStagesA.lean ====
/-
  The integer chain of the reference on one lane. An index word n with 0 ≤ n < 2³¹ and a positive divisor d: the floor
  division (the truncated quotient, one less when the signs differ and the remainder is not zero) is the natural
  quotient n / d, the floor remainder (the truncated remainder, plus the divisor when its sign is not the divisor's) is
  n % d, and the wrap of a negative index leaves a non-negative one alone. Everything is stated on words written
  BitVec.ofNat 32 k, so that the stages compose.
-/
import Idealize.ShloMosaic.PureOps.Ideal
import Idealize.ShloMosaic.Lib.StableHlo.Predicate
import Idealize.ShloMosaic.Lib.ValueIdx

namespace Cert.Proof.Ref

open Idealize.ShloMosaic Idealize.ShloMosaic.StableHlo.Predicate

/-- The sign word of a 32-bit word, as the vector sign reads one lane. -/
def sgnW (x : BitVec 32) : BitVec 32 := if x = 0 then 0 else if x.msb then -1 else 1

/-- One lane of the floor division: the truncated quotient, one less when the signs differ and the remainder is not zero. -/
def fdivW (n d : BitVec 32) : BitVec 32 :=
  Scalar.select (IntOp.andi (IntOp.cmpi .ne (sgnW n) (sgnW d)) (IntOp.cmpi .ne (IntOp.remsi .host n d) 0#32))
    (IntOp.subi (IntOp.divsi .host n d) 1#32) (IntOp.divsi .host n d)

/-- One lane of the floor remainder by `d` (a zero divisor replaced by one): the truncated remainder, plus the divisor when it is not zero and its
    sign is not the divisor's. -/
def remW (n d : BitVec 32) : BitVec 32 :=
  let d' := Scalar.select (IntOp.cmpi .eq d 0#32) 1#32 d
  let r := IntOp.remsi .host n d'
  Scalar.select (IntOp.andi (IntOp.cmpi .ne (IntOp.cmpi .slt r 0#32) (IntOp.cmpi .slt d' 0#32)) (IntOp.cmpi .ne r 0#32)) (IntOp.addi r d') r

/-- One lane of the wrap of a negative index by the extent 100. -/
def normW (i : BitVec 32) : BitVec 32 := Scalar.select (IntOp.cmpi .slt i 0#32) (IntOp.addi i 100#32) i

theorem sdiv_small (x y : BitVec 32) (hx : x.toNat < 2 ^ 31) (hy : y.toNat < 2 ^ 31) : x.sdiv y = x / y := by
  have mx : x.msb = false := BitVec.msb_eq_false_iff_two_mul_lt.mpr (by omega)
  have my : y.msb = false := BitVec.msb_eq_false_iff_two_mul_lt.mpr (by omega)
  simp only [BitVec.sdiv_eq, mx, my, BitVec.udiv_eq]

theorem srem_small (x y : BitVec 32) (hx : x.toNat < 2 ^ 31) (hy : y.toNat < 2 ^ 31) : x.srem y = x % y := by
  have mx : x.msb = false := BitVec.msb_eq_false_iff_two_mul_lt.mpr (by omega)
  have my : y.msb = false := BitVec.msb_eq_false_iff_two_mul_lt.mpr (by omega)
  simp only [BitVec.srem_eq, mx, my, BitVec.umod_eq]

theorem toNat_ofNat_small (k : ℕ) (hk : k < 2 ^ 31) : (BitVec.ofNat 32 k).toNat = k := by
  rw [BitVec.toNat_ofNat]; exact Nat.mod_eq_of_lt (by omega)

theorem not_corner (k d : ℕ) (hk : k < 2 ^ 31) (hd : 0 < d) (hd' : d < 2 ^ 31) :
    ¬ IntOp.SDivCorner (BitVec.ofNat 32 k) (BitVec.ofNat 32 d) := by
  have hdn := toNat_ofNat_small d hd'
  rintro (h | ⟨_, h⟩)
  · rw [h] at hdn; simp at hdn; omega
  · rw [h] at hdn; simp at hdn; omega

theorem divsi_ofNat (k d : ℕ) (hk : k < 2 ^ 31) (hd : 0 < d) (hd' : d < 2 ^ 31) :
    IntOp.divsi .host (BitVec.ofNat 32 k) (BitVec.ofNat 32 d) = BitVec.ofNat 32 (k / d) := by
  unfold IntOp.divsi
  rw [if_neg (not_corner k d hk hd hd'), sdiv_small _ _ (by rw [toNat_ofNat_small k hk]; exact hk) (by rw [toNat_ofNat_small d hd']; exact hd')]
  apply BitVec.eq_of_toNat_eq
  have : k / d ≤ k := Nat.div_le_self _ _
  rw [BitVec.toNat_udiv, toNat_ofNat_small k hk, toNat_ofNat_small d hd', toNat_ofNat_small _ (by omega)]

theorem remsi_ofNat (k d : ℕ) (hk : k < 2 ^ 31) (hd : 0 < d) (hd' : d < 2 ^ 31) :
    IntOp.remsi .host (BitVec.ofNat 32 k) (BitVec.ofNat 32 d) = BitVec.ofNat 32 (k % d) := by
  unfold IntOp.remsi
  rw [if_neg (not_corner k d hk hd hd'), srem_small _ _ (by rw [toNat_ofNat_small k hk]; exact hk) (by rw [toNat_ofNat_small d hd']; exact hd')]
  apply BitVec.eq_of_toNat_eq
  have : k % d < d := Nat.mod_lt _ hd
  rw [BitVec.toNat_umod, toNat_ofNat_small k hk, toNat_ofNat_small d hd', toNat_ofNat_small _ (by omega)]

theorem ofNat_eq_zero_iff (k : ℕ) (hk : k < 2 ^ 31) : BitVec.ofNat 32 k = 0 ↔ k = 0 := by
  constructor
  · intro h; have := toNat_ofNat_small k hk; rw [h] at this; simpa using this.symm
  · rintro rfl; rfl

theorem sgnW_ofNat (k : ℕ) (hk : k < 2 ^ 31) : sgnW (BitVec.ofNat 32 k) = if k = 0 then 0#32 else 1#32 := by
  unfold sgnW
  have m : (BitVec.ofNat 32 k).msb = false := BitVec.msb_eq_false_iff_two_mul_lt.mpr (by rw [toNat_ofNat_small k hk]; omega)
  by_cases h : k = 0
  · subst h; rfl
  · rw [if_neg ((ofNat_eq_zero_iff k hk).not.mpr h), if_neg h, m]; rfl

theorem cmpi_ne_self {w : Nat} (a : BitVec w) : IntOp.cmpi .ne a a = 0#1 := by
  simp [IntOp.cmpi]

/-- The floor quotient of a non-negative word by a positive one is the natural quotient. -/
theorem fdivW_ofNat (k d : ℕ) (hk : k < 2 ^ 31) (hd : 0 < d) (hd' : d < 2 ^ 31) :
    fdivW (BitVec.ofNat 32 k) (BitVec.ofNat 32 d) = BitVec.ofNat 32 (k / d) := by
  unfold fdivW
  rw [divsi_ofNat k d hk hd hd', remsi_ofNat k d hk hd hd', sgnW_ofNat k hk, sgnW_ofNat d hd', if_neg (by omega : ¬ d = 0)]
  by_cases h : k = 0
  · subst h
    rw [Nat.zero_mod, cmpi_ne_self]
    have : IntOp.andi (IntOp.cmpi .ne (if (0:ℕ) = 0 then 0#32 else 1#32) 1#32) 0#1 = 0#1 := by simp [IntOp.andi]
    rw [this, ValueIdx.select_zero]
  · rw [if_neg h, cmpi_ne_self]
    have : ∀ b : BitVec 1, IntOp.andi 0#1 b = 0#1 := fun b => by simp [IntOp.andi]
    rw [this, ValueIdx.select_zero]

theorem cmpi_slt_zero_ofNat (k : ℕ) (hk : k < 2 ^ 31) : IntOp.cmpi .slt (BitVec.ofNat 32 k) 0#32 = 0#1 := by
  apply ValueIdx.eq_zero_of_ne_one
  rw [slt_iff_toNat (by rw [toNat_ofNat_small k hk]; exact hk) (by decide)]
  simp

theorem cmpi_eq_zero_ofNat (d : ℕ) (hd : 0 < d) (hd' : d < 2 ^ 31) : IntOp.cmpi .eq (BitVec.ofNat 32 d) 0#32 = 0#1 := by
  apply ValueIdx.eq_zero_of_ne_one
  rw [cmpi_eq_iff]
  exact (ofNat_eq_zero_iff d hd').not.mpr (by omega)

/-- The floor remainder of a non-negative word by a positive one is the natural remainder. -/
theorem remW_ofNat (k d : ℕ) (hk : k < 2 ^ 31) (hd : 0 < d) (hd' : d < 2 ^ 31) :
    remW (BitVec.ofNat 32 k) (BitVec.ofNat 32 d) = BitVec.ofNat 32 (k % d) := by
  have hm : k % d < 2 ^ 31 := lt_of_le_of_lt (Nat.mod_le _ _) hk
  unfold remW
  simp only []
  rw [cmpi_eq_zero_ofNat d hd hd', ValueIdx.select_zero, remsi_ofNat k d hk hd hd', cmpi_slt_zero_ofNat _ hm,
    cmpi_slt_zero_ofNat d hd', cmpi_ne_self]
  have : ∀ b : BitVec 1, IntOp.andi 0#1 b = 0#1 := fun b => by simp [IntOp.andi]
  rw [this, ValueIdx.select_zero]

/-- A non-negative index is not wrapped. -/
theorem normW_ofNat (k : ℕ) (hk : k < 2 ^ 31) : normW (BitVec.ofNat 32 k) = BitVec.ofNat 32 k := by
  unfold normW
  rw [cmpi_slt_zero_ofNat k hk, ValueIdx.select_zero]

/-- A word whose signed value is a natural number below 2³¹ is that number's word. -/
theorem eq_ofNat_of_toInt (x : BitVec 32) (h0 : 0 ≤ x.toInt) : x = BitVec.ofNat 32 x.toNat ∧ x.toNat < 2 ^ 31 ∧ x.toInt = x.toNat := by
  have hlt : x.toNat < 2 ^ 31 := by
    by_contra hc
    have : x.toInt < 0 := by
      rw [BitVec.toInt_eq_toNat_cond]
      have := x.isLt
      split <;> omega
    omega
  exact ⟨(BitVec.ofNat_toNat _ x).symm ▸ (by simp), hlt, toInt_eq_toNat_of_lt hlt⟩

end Cert.Proof.Ref
-- ==== Proof.RefStagesB.lean ====
/-
  The three gathers of the reference read at an index. Each start index is one word per token, read signed and clamped
  into the gathered axis; the other axes of a gathered slice are read through. Stated for any operand and any start
  indices; the caller names the clamped row.
-/
import proofs.«207215_g13752485282153_cont_week2b_1454_30_alg».proof.Proof.Gen.ReferenceIdeal
import Idealize.ShloMosaic.Lib.ValueIdx

noncomputable section

namespace Cert.Proof.Ref

open Idealize.ShloMosaic Idealize.ShloMosaic.ValueIdx
open Cert.ReferenceIdeal

variable {α : Type} {w : Nat}

/-! ## The gather of the first core: start index (0, i₁) per token, the two leading axes collapsed -/

theorem gA_axis0 (idx : IVec S425984x2 w) (j : S425984x4x8.Idx) :
    (gather_S1x100x4x8_S425984x2_S425984x4x8_12_01_n_n_01_1_1148.operandIdx j idx 0).val
      = min (idx (ix2 (j 0) (0 : Fin 2))).toInt.toNat 0 := by
  show gather_S1x100x4x8_S425984x2_S425984x4x8_12_01_n_n_01_1_1148.start j idx 0
      + gather_S1x100x4x8_S425984x2_S425984x4x8_12_01_n_n_01_1_1148.batchCoord j 0
      + gather_S1x100x4x8_S425984x2_S425984x4x8_12_01_n_n_01_1_1148.offCoord j 0 = _
  rw [GatherDims.batchCoord_eq_zero _ _ _ List.not_mem_nil,
    GatherDims.offCoord_eq_zero _ _ _ (fun h => ((GatherDims.mem_sKept _ _).mp h).1 (List.mem_cons_self))]
  simp only [Nat.add_zero]
  unfold GatherDims.start
  rw [dif_pos (show (0 : Fin S1x100x4x8.rank) ∈ gather_S1x100x4x8_S425984x2_S425984x4x8_12_01_n_n_01_1_1148.startIndexMap from List.mem_cons_self)]
  have hsi : gather_S1x100x4x8_S425984x2_S425984x4x8_12_01_n_n_01_1_1148.siIdx j
      ⟨List.idxOf (0 : Fin S1x100x4x8.rank) gather_S1x100x4x8_S425984x2_S425984x4x8_12_01_n_n_01_1_1148.startIndexMap,
        List.idxOf_lt_length_iff.2 (List.mem_cons_self)⟩ = ix2 (j 0) (0 : Fin 2) := by
    funext b; refine Fin.ext ?_
    match b with
    | ⟨0, _⟩ => rfl
    | ⟨1, _⟩ => rfl
  rw [hsi]
  rfl

theorem gA_axis1 (idx : IVec S425984x2 w) (j : S425984x4x8.Idx) :
    (gather_S1x100x4x8_S425984x2_S425984x4x8_12_01_n_n_01_1_1148.operandIdx j idx 1).val
      = min (idx (ix2 (j 0) (1 : Fin 2))).toInt.toNat 99 := by
  show gather_S1x100x4x8_S425984x2_S425984x4x8_12_01_n_n_01_1_1148.start j idx 1
      + gather_S1x100x4x8_S425984x2_S425984x4x8_12_01_n_n_01_1_1148.batchCoord j 1
      + gather_S1x100x4x8_S425984x2_S425984x4x8_12_01_n_n_01_1_1148.offCoord j 1 = _
  rw [GatherDims.batchCoord_eq_zero _ _ _ List.not_mem_nil,
    GatherDims.offCoord_eq_zero _ _ _ (fun h => ((GatherDims.mem_sKept _ _).mp h).1 (List.mem_cons_of_mem _ (List.mem_singleton.mpr rfl)))]
  simp only [Nat.add_zero]
  unfold GatherDims.start
  rw [dif_pos (show (1 : Fin S1x100x4x8.rank) ∈ gather_S1x100x4x8_S425984x2_S425984x4x8_12_01_n_n_01_1_1148.startIndexMap from List.mem_cons_of_mem _ (List.mem_singleton.mpr rfl))]
  have hsi : gather_S1x100x4x8_S425984x2_S425984x4x8_12_01_n_n_01_1_1148.siIdx j
      ⟨List.idxOf (1 : Fin S1x100x4x8.rank) gather_S1x100x4x8_S425984x2_S425984x4x8_12_01_n_n_01_1_1148.startIndexMap,
        List.idxOf_lt_length_iff.2 (List.mem_cons_of_mem _ (List.mem_singleton.mpr rfl))⟩ = ix2 (j 0) (1 : Fin 2) := by
    funext b; refine Fin.ext ?_
    match b with
    | ⟨0, _⟩ => rfl
    | ⟨1, _⟩ => rfl
  rw [hsi]
  rfl

theorem gA_axis2 (idx : IVec S425984x2 w) (j : S425984x4x8.Idx) :
    (gather_S1x100x4x8_S425984x2_S425984x4x8_12_01_n_n_01_1_1148.operandIdx j idx 2).val = (j 1).val := by
  show gather_S1x100x4x8_S425984x2_S425984x4x8_12_01_n_n_01_1_1148.start j idx 2
      + gather_S1x100x4x8_S425984x2_S425984x4x8_12_01_n_n_01_1_1148.batchCoord j 2
      + gather_S1x100x4x8_S425984x2_S425984x4x8_12_01_n_n_01_1_1148.offCoord j 2 = _
  rw [GatherDims.batchCoord_eq_zero _ _ _ List.not_mem_nil]
  unfold GatherDims.start GatherDims.offCoord
  rw [dif_neg (show ¬(2 : Fin S1x100x4x8.rank) ∈ gather_S1x100x4x8_S425984x2_S425984x4x8_12_01_n_n_01_1_1148.startIndexMap by decide),
    dif_pos (show (2 : Fin S1x100x4x8.rank) ∈ gather_S1x100x4x8_S425984x2_S425984x4x8_12_01_n_n_01_1_1148.sKept by decide)]
  simp only [Nat.zero_add, Nat.add_zero]
  rfl

theorem gA_axis3 (idx : IVec S425984x2 w) (j : S425984x4x8.Idx) :
    (gather_S1x100x4x8_S425984x2_S425984x4x8_12_01_n_n_01_1_1148.operandIdx j idx 3).val = (j 2).val := by
  show gather_S1x100x4x8_S425984x2_S425984x4x8_12_01_n_n_01_1_1148.start j idx 3
      + gather_S1x100x4x8_S425984x2_S425984x4x8_12_01_n_n_01_1_1148.batchCoord j 3
      + gather_S1x100x4x8_S425984x2_S425984x4x8_12_01_n_n_01_1_1148.offCoord j 3 = _
  rw [GatherDims.batchCoord_eq_zero _ _ _ List.not_mem_nil]
  unfold GatherDims.start GatherDims.offCoord
  rw [dif_neg (show ¬(3 : Fin S1x100x4x8.rank) ∈ gather_S1x100x4x8_S425984x2_S425984x4x8_12_01_n_n_01_1_1148.startIndexMap by decide),
    dif_pos (show (3 : Fin S1x100x4x8.rank) ∈ gather_S1x100x4x8_S425984x2_S425984x4x8_12_01_n_n_01_1_1148.sKept by decide)]
  simp only [Nat.zero_add, Nat.add_zero]
  rfl

/-- The first core's gather at (t, j, r): the core at (0, k, j, r), k the clamped second start word of token t. -/
theorem gatherA_apply (x : S1x100x4x8.Idx → α) (idx : IVec S425984x2 w) (t : Fin 425984) (j : Fin 4) (r : Fin 8) (k : Fin 100)
    (hk : min (idx (ix2 t (1 : Fin 2))).toInt.toNat 99 = k.val) :
    Host.gather gather_S1x100x4x8_S425984x2_S425984x4x8_12_01_n_n_01_1_1148 x idx (ix3 t j r) = x (ix4 (0 : Fin 1) k j r) := by
  unfold Host.gather
  refine congrArg x (funext fun a => Fin.ext ?_)
  match a with
  | ⟨0, _⟩ => exact (gA_axis0 idx _).trans (Nat.min_zero _)
  | ⟨1, _⟩ => exact (gA_axis1 idx _).trans hk
  | ⟨2, _⟩ => exact gA_axis2 idx _
  | ⟨3, _⟩ => exact gA_axis3 idx _

/-! ## The gather of rows of the transposed second core -/

theorem gB_axis0 (idx : IVec S425984x1 w) (j : S425984x8x4x8.Idx) :
    (gather_S100x8x4x8_S425984x1_S425984x8x4x8_123_0_n_n_0_1_1848.operandIdx j idx 0).val
      = min (idx (ix2 (j 0) (0 : Fin 1))).toInt.toNat 99 := by
  show gather_S100x8x4x8_S425984x1_S425984x8x4x8_123_0_n_n_0_1_1848.start j idx 0
      + gather_S100x8x4x8_S425984x1_S425984x8x4x8_123_0_n_n_0_1_1848.batchCoord j 0
      + gather_S100x8x4x8_S425984x1_S425984x8x4x8_123_0_n_n_0_1_1848.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S100x8x4x8.rank) ∈ gather_S100x8x4x8_S425984x1_S425984x8x4x8_123_0_n_n_0_1_1848.startIndexMap from List.mem_singleton.mpr rfl)]
  have hsi : gather_S100x8x4x8_S425984x1_S425984x8x4x8_123_0_n_n_0_1_1848.siIdx j
      ⟨List.idxOf (0 : Fin S100x8x4x8.rank) gather_S100x8x4x8_S425984x1_S425984x8x4x8_123_0_n_n_0_1_1848.startIndexMap,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem gB_axis1 (idx : IVec S425984x1 w) (j : S425984x8x4x8.Idx) :
    (gather_S100x8x4x8_S425984x1_S425984x8x4x8_123_0_n_n_0_1_1848.operandIdx j idx 1).val = (j 1).val := by
  show gather_S100x8x4x8_S425984x1_S425984x8x4x8_123_0_n_n_0_1_1848.start j idx 1
      + gather_S100x8x4x8_S425984x1_S425984x8x4x8_123_0_n_n_0_1_1848.batchCoord j 1
      + gather_S100x8x4x8_S425984x1_S425984x8x4x8_123_0_n_n_0_1_1848.offCoord j 1 = _
  rw [GatherDims.batchCoord_eq_zero _ _ _ List.not_mem_nil]
  unfold GatherDims.start GatherDims.offCoord
  rw [dif_neg (show ¬(1 : Fin S100x8x4x8.rank) ∈ gather_S100x8x4x8_S425984x1_S425984x8x4x8_123_0_n_n_0_1_1848.startIndexMap by decide),
    dif_pos (show (1 : Fin S100x8x4x8.rank) ∈ gather_S100x8x4x8_S425984x1_S425984x8x4x8_123_0_n_n_0_1_1848.sKept by decide)]
  simp only [Nat.zero_add, Nat.add_zero]
  rfl

theorem gB_axis2 (idx : IVec S425984x1 w) (j : S425984x8x4x8.Idx) :
    (gather_S100x8x4x8_S425984x1_S425984x8x4x8_123_0_n_n_0_1_1848.operandIdx j idx 2).val = (j 2).val := by
  show gather_S100x8x4x8_S425984x1_S425984x8x4x8_123_0_n_n_0_1_1848.start j idx 2
      + gather_S100x8x4x8_S425984x1_S425984x8x4x8_123_0_n_n_0_1_1848.batchCoord j 2
      + gather_S100x8x4x8_S425984x1_S425984x8x4x8_123_0_n_n_0_1_1848.offCoord j 2 = _
  rw [GatherDims.batchCoord_eq_zero _ _ _ List.not_mem_nil]
  unfold GatherDims.start GatherDims.offCoord
  rw [dif_neg (show ¬(2 : Fin S100x8x4x8.rank) ∈ gather_S100x8x4x8_S425984x1_S425984x8x4x8_123_0_n_n_0_1_1848.startIndexMap by decide),
    dif_pos (show (2 : Fin S100x8x4x8.rank) ∈ gather_S100x8x4x8_S425984x1_S425984x8x4x8_123_0_n_n_0_1_1848.sKept by decide)]
  simp only [Nat.zero_add, Nat.add_zero]
  rfl

theorem gB_axis3 (idx : IVec S425984x1 w) (j : S425984x8x4x8.Idx) :
    (gather_S100x8x4x8_S425984x1_S425984x8x4x8_123_0_n_n_0_1_1848.operandIdx j idx 3).val = (j 3).val := by
  show gather_S100x8x4x8_S425984x1_S425984x8x4x8_123_0_n_n_0_1_1848.start j idx 3
      + gather_S100x8x4x8_S425984x1_S425984x8x4x8_123_0_n_n_0_1_1848.batchCoord j 3
      + gather_S100x8x4x8_S425984x1_S425984x8x4x8_123_0_n_n_0_1_1848.offCoord j 3 = _
  rw [GatherDims.batchCoord_eq_zero _ _ _ List.not_mem_nil]
  unfold GatherDims.start GatherDims.offCoord
  rw [dif_neg (show ¬(3 : Fin S100x8x4x8.rank) ∈ gather_S100x8x4x8_S425984x1_S425984x8x4x8_123_0_n_n_0_1_1848.startIndexMap by decide),
    dif_pos (show (3 : Fin S100x8x4x8.rank) ∈ gather_S100x8x4x8_S425984x1_S425984x8x4x8_123_0_n_n_0_1_1848.sKept by decide)]
  simp only [Nat.zero_add, Nat.add_zero]
  rfl

/-- The second gather at (t, r, j, s): the operand at (k, r, j, s), k the clamped start word of token t. -/
theorem gatherB_apply (x : S100x8x4x8.Idx → α) (idx : IVec S425984x1 w) (t : Fin 425984) (r : Fin 8) (j : Fin 4) (s : Fin 8) (k : Fin 100)
    (hk : min (idx (ix2 t (0 : Fin 1))).toInt.toNat 99 = k.val) :
    Host.gather gather_S100x8x4x8_S425984x1_S425984x8x4x8_123_0_n_n_0_1_1848 x idx (ix4 t r j s) = x (ix4 k r j s) := by
  unfold Host.gather
  refine congrArg x (funext fun a => Fin.ext ?_)
  match a with
  | ⟨0, _⟩ => exact (gB_axis0 idx _).trans hk
  | ⟨1, _⟩ => exact gB_axis1 idx _
  | ⟨2, _⟩ => exact gB_axis2 idx _
  | ⟨3, _⟩ => exact gB_axis3 idx _

/-! ## The gather of rows of the transposed third core -/

theorem gC_axis0 (idx : IVec S425984x1 w) (j : S425984x8x4x1.Idx) :
    (gather_S100x8x4x1_S425984x1_S425984x8x4x1_123_0_n_n_0_1_1841.operandIdx j idx 0).val
      = min (idx (ix2 (j 0) (0 : Fin 1))).toInt.toNat 99 := by
  show gather_S100x8x4x1_S425984x1_S425984x8x4x1_123_0_n_n_0_1_1841.start j idx 0
      + gather_S100x8x4x1_S425984x1_S425984x8x4x1_123_0_n_n_0_1_1841.batchCoord j 0
      + gather_S100x8x4x1_S425984x1_S425984x8x4x1_123_0_n_n_0_1_1841.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S100x8x4x1.rank) ∈ gather_S100x8x4x1_S425984x1_S425984x8x4x1_123_0_n_n_0_1_1841.startIndexMap from List.mem_singleton.mpr rfl)]
  have hsi : gather_S100x8x4x1_S425984x1_S425984x8x4x1_123_0_n_n_0_1_1841.siIdx j
      ⟨List.idxOf (0 : Fin S100x8x4x1.rank) gather_S100x8x4x1_S425984x1_S425984x8x4x1_123_0_n_n_0_1_1841.startIndexMap,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem gC_axis1 (idx : IVec S425984x1 w) (j : S425984x8x4x1.Idx) :
    (gather_S100x8x4x1_S425984x1_S425984x8x4x1_123_0_n_n_0_1_1841.operandIdx j idx 1).val = (j 1).val := by
  show gather_S100x8x4x1_S425984x1_S425984x8x4x1_123_0_n_n_0_1_1841.start j idx 1
      + gather_S100x8x4x1_S425984x1_S425984x8x4x1_123_0_n_n_0_1_1841.batchCoord j 1
      + gather_S100x8x4x1_S425984x1_S425984x8x4x1_123_0_n_n_0_1_1841.offCoord j 1 = _
  rw [GatherDims.batchCoord_eq_zero _ _ _ List.not_mem_nil]
  unfold GatherDims.start GatherDims.offCoord
  rw [dif_neg (show ¬(1 : Fin S100x8x4x1.rank) ∈ gather_S100x8x4x1_S425984x1_S425984x8x4x1_123_0_n_n_0_1_1841.startIndexMap by decide),
    dif_pos (show (1 : Fin S100x8x4x1.rank) ∈ gather_S100x8x4x1_S425984x1_S425984x8x4x1_123_0_n_n_0_1_1841.sKept by decide)]
  simp only [Nat.zero_add, Nat.add_zero]
  rfl

theorem gC_axis2 (idx : IVec S425984x1 w) (j : S425984x8x4x1.Idx) :
    (gather_S100x8x4x1_S425984x1_S425984x8x4x1_123_0_n_n_0_1_1841.operandIdx j idx 2).val = (j 2).val := by
  show gather_S100x8x4x1_S425984x1_S425984x8x4x1_123_0_n_n_0_1_1841.start j idx 2
      + gather_S100x8x4x1_S425984x1_S425984x8x4x1_123_0_n_n_0_1_1841.batchCoord j 2
      + gather_S100x8x4x1_S425984x1_S425984x8x4x1_123_0_n_n_0_1_1841.offCoord j 2 = _
  rw [GatherDims.batchCoord_eq_zero _ _ _ List.not_mem_nil]
  unfold GatherDims.start GatherDims.offCoord
  rw [dif_neg (show ¬(2 : Fin S100x8x4x1.rank) ∈ gather_S100x8x4x1_S425984x1_S425984x8x4x1_123_0_n_n_0_1_1841.startIndexMap by decide),
    dif_pos (show (2 : Fin S100x8x4x1.rank) ∈ gather_S100x8x4x1_S425984x1_S425984x8x4x1_123_0_n_n_0_1_1841.sKept by decide)]
  simp only [Nat.zero_add, Nat.add_zero]
  rfl

theorem gC_axis3 (idx : IVec S425984x1 w) (j : S425984x8x4x1.Idx) :
    (gather_S100x8x4x1_S425984x1_S425984x8x4x1_123_0_n_n_0_1_1841.operandIdx j idx 3).val = (j 3).val := by
  show gather_S100x8x4x1_S425984x1_S425984x8x4x1_123_0_n_n_0_1_1841.start j idx 3
      + gather_S100x8x4x1_S425984x1_S425984x8x4x1_123_0_n_n_0_1_1841.batchCoord j 3
      + gather_S100x8x4x1_S425984x1_S425984x8x4x1_123_0_n_n_0_1_1841.offCoord j 3 = _
  rw [GatherDims.batchCoord_eq_zero _ _ _ List.not_mem_nil]
  unfold GatherDims.start GatherDims.offCoord
  rw [dif_neg (show ¬(3 : Fin S100x8x4x1.rank) ∈ gather_S100x8x4x1_S425984x1_S425984x8x4x1_123_0_n_n_0_1_1841.startIndexMap by decide),
    dif_pos (show (3 : Fin S100x8x4x1.rank) ∈ gather_S100x8x4x1_S425984x1_S425984x8x4x1_123_0_n_n_0_1_1841.sKept by decide)]
  simp only [Nat.zero_add, Nat.add_zero]
  rfl

/-- The third gather at (t, r, j, u): the operand at (k, r, j, u), k the clamped start word of token t. -/
theorem gatherC_apply (x : S100x8x4x1.Idx → α) (idx : IVec S425984x1 w) (t : Fin 425984) (r : Fin 8) (j : Fin 4) (u : Fin 1) (k : Fin 100)
    (hk : min (idx (ix2 t (0 : Fin 1))).toInt.toNat 99 = k.val) :
    Host.gather gather_S100x8x4x1_S425984x1_S425984x8x4x1_123_0_n_n_0_1_1841 x idx (ix4 t r j u) = x (ix4 k r j u) := by
  unfold Host.gather
  refine congrArg x (funext fun a => Fin.ext ?_)
  match a with
  | ⟨0, _⟩ => exact (gC_axis0 idx _).trans hk
  | ⟨1, _⟩ => exact gC_axis1 idx _
  | ⟨2, _⟩ => exact gC_axis2 idx _
  | ⟨3, _⟩ => exact gC_axis3 idx _

end Cert.Proof.Ref

end
-- ==== Proof.RefStagesD.lean ====
/-
  The layout operations of the reference read at an index: the reshapes of the index array and of the result (row-major
  positions), the two transposes of the second and third cores, the column broadcasts and the concatenation that build the start indices.
-/
import proofs.«207215_g13752485282153_cont_week2b_1454_30_alg».proof.Proof.Gen.ReferenceIdeal
import Idealize.ShloMosaic.Lib.ValueIdx
import Idealize.ShloMosaic.Lib.ValueLayout

noncomputable section

namespace Cert.Proof.Ref

open Idealize.ShloMosaic Idealize.ShloMosaic.ValueIdx
open Cert.ReferenceIdeal

variable {α : Type}

/-- Token (b, f) of the [16384, 26] index array is token 26 b + f of the flat one. -/
def tok (b : Fin 16384) (f : Fin 26) : Fin 425984 := ⟨26 * b.val + f.val, by have := b.isLt; have := f.isLt; omega⟩

/-! ## Reshapes -/

/-- The flattened index array at token (b, f) is the index array at (b, f). -/
theorem flat_apply (x : S16384x26.Idx → α) (h : S16384x26.ShapeCasts S425984) (b : Fin 16384) (f : Fin 26) :
    shapeCast S425984 x h (ix1 (tok b f)) = x (ix2 b f) :=
  shapeCast_apply x h _ _ (by
    rw [Shape.rowMajor_val_two, Shape.rowMajor_val_one]
    show b.val * 26 + f.val = 26 * b.val + f.val
    omega)

/-- The result at (b, f, e) is the [425984, 64] array at (token (b, f), e). -/
theorem unflat_apply (x : S425984x64.Idx → α) (h : S425984x64.ShapeCasts S16384x26x64) (b : Fin 16384) (f : Fin 26) (e : Fin 64) :
    shapeCast S16384x26x64 x h (ix3 b f e) = x (ix2 (tok b f) e) :=
  shapeCast_apply x h _ _ (by
    rw [Shape.rowMajor_val_two, Shape.rowMajor_val_three]
    show (26 * b.val + f.val) * 64 + e.val = (b.val * 26 + f.val) * 64 + e.val
    omega)

/-- The [425984, 64] array at (t, e) is the [425984, 16, 4, 1] array at (t, e / 4, e % 4, 0). -/
theorem cols64_apply (x : S425984x16x4x1.Idx → α) (h : S425984x16x4x1.ShapeCasts S425984x64) (t : Fin 425984) (e : Fin 64) :
    shapeCast S425984x64 x h (ix2 t e)
      = x (ix4 t (⟨e.val / 4, by have := e.isLt; omega⟩ : Fin 16) (⟨e.val % 4, Nat.mod_lt _ (by decide)⟩ : Fin 4) (0 : Fin 1)) :=
  shapeCast_apply x h _ _ (by
    rw [Shape.rowMajor_val_four, Shape.rowMajor_val_two]
    show ((t.val * 16 + e.val / 4) * 4 + e.val % 4) * 1 + 0 = t.val * 64 + e.val
    omega)

/-- The [425984, 16, 8] array at (t, p, s) is the [425984, 4, 4, 8] array at (t, p / 4, p % 4, s). -/
theorem cols16_apply (x : S425984x4x4x8.Idx → α) (h : S425984x4x4x8.ShapeCasts S425984x16x8) (t : Fin 425984) (p : Fin 16) (s : Fin 8) :
    shapeCast S425984x16x8 x h (ix3 t p s)
      = x (ix4 t (⟨p.val / 4, by have := p.isLt; omega⟩ : Fin 4) (⟨p.val % 4, Nat.mod_lt _ (by decide)⟩ : Fin 4) s) :=
  shapeCast_apply x h _ _ (by
    rw [Shape.rowMajor_val_four, Shape.rowMajor_val_three]
    show ((t.val * 4 + p.val / 4) * 4 + p.val % 4) * 8 + s.val = (t.val * 16 + p.val) * 8 + s.val
    omega)

/-! ## The transposes of the second and third cores: the two leading axes swapped -/

theorem transB_apply (x : S8x100x4x8.Idx → α) (h : S8x100x4x8.Transposes [1, 0, 2, 3] S100x8x4x8)
    (k : Fin 100) (r : Fin 8) (j : Fin 4) (s : Fin 8) :
    transpose S100x8x4x8 [1, 0, 2, 3] x h (ix4 k r j s) = x (ix4 r k j s) :=
  transpose_apply _ x h _ _ fun c => match c with | ⟨0, _⟩ => rfl | ⟨1, _⟩ => rfl | ⟨2, _⟩ => rfl | ⟨3, _⟩ => rfl

theorem transC_apply (x : S8x100x4x1.Idx → α) (h : S8x100x4x1.Transposes [1, 0, 2, 3] S100x8x4x1)
    (k : Fin 100) (r : Fin 8) (j : Fin 4) (u : Fin 1) :
    transpose S100x8x4x1 [1, 0, 2, 3] x h (ix4 k r j u) = x (ix4 r k j u) :=
  transpose_apply _ x h _ _ fun c => match c with | ⟨0, _⟩ => rfl | ⟨1, _⟩ => rfl | ⟨2, _⟩ => rfl | ⟨3, _⟩ => rfl

/-! ## Start indices: a vector as a column, two columns side by side, a scalar everywhere -/

/-- A [425984] vector as a [425984, 1] column reads, at (t, 0), the vector at t. -/
theorem col_apply (x : S425984.Idx → α) (h : S425984.BroadcastsInDim S425984x1 ![0]) (t : Fin 425984) (u : Fin 1) :
    broadcastInDim S425984x1 ![0] h x (ix2 t u) = x (ix1 t) :=
  broadcastInDim_apply _ h x _ _ fun a => by
    match a with
    | ⟨0, _⟩ => rfl

/-- A scalar broadcast to the token vector reads the scalar everywhere. -/
theorem splat_apply (x : S_.Idx → α) (h : S_.BroadcastsInDim S425984 ![]) (i : S425984.Idx) :
    broadcastInDim S425984 ![] h x i = x ix0 :=
  broadcastInDim_apply _ h x _ _ fun a => a.elim0

/-- Two columns side by side: column 0 is the first. -/
theorem cat_apply_0 (x y : S425984x1.Idx → α) (h : Shape.Concatenates [S425984x1, S425984x1] S425984x2 1) (t : Fin 425984) :
    concatenate S425984x2 1 [⟨S425984x1, x⟩, ⟨S425984x1, y⟩] h (ix2 t (0 : Fin 2)) = x (ix2 t (0 : Fin 1)) :=
  concatenate_pair_apply_left _ x y h _ rfl _ fun b => by
    match b with
    | ⟨0, _⟩ => rfl
    | ⟨1, _⟩ => rfl

/-- Two columns side by side: column 1 is the second. -/
theorem cat_apply_1 (x y : S425984x1.Idx → α) (h : Shape.Concatenates [S425984x1, S425984x1] S425984x2 1) (t : Fin 425984) :
    concatenate S425984x2 1 [⟨S425984x1, x⟩, ⟨S425984x1, y⟩] h (ix2 t (1 : Fin 2)) = y (ix2 t (0 : Fin 1)) :=
  concatenate_pair_apply_right _ x y h _ rfl rfl _ (fun b hb => by
    match b with
    | ⟨0, _⟩ => rfl
    | ⟨1, _⟩ => exact absurd rfl hb) rfl

end Cert.Proof.Ref

end
-- ==== Proof.RefStagesC.lean ====
/-
  The two contractions of the reference read at an index: each has the token axis as its batch axis and contracts one
  rank axis of extent 8, so an entry is a sum over Fin 8 of products. Then the reshapes between them read at an index.
-/
import proofs.«207215_g13752485282153_cont_week2b_1454_30_alg».proof.Proof.Gen.ReferenceIdeal
import Idealize.ShloMosaic.Lib.ValueIdx
import Idealize.ShloMosaic.Lib.ValueLayout
import Idealize.ShloMosaic.PureOps.Ideal.Laws

noncomputable section

namespace Cert.Proof.Ref

open Idealize.ShloMosaic Idealize.ShloMosaic.ValueIdx
open Cert.ReferenceIdeal

/-! ## The first contraction: [T, 4, 8] with [T, 8, 4, 8] over the rank axis -/

theorem lhs_d1_0 (i : S425984x4x4x8.Idx) (q : dot_S425984x4x8_S425984x8x4x8_S425984x4x4x8_2_1_1_23_0_0.contr.Idx) :
    (dot_S425984x4x8_S425984x8x4x8_S425984x4x4x8_2_1_1_23_0_0.lhsIdx i q 0).val = (i 0).val := by
  unfold DotDims.lhsIdx
  rw [dif_pos (show (0 : Fin S425984x4x8.rank) ∈ dot_S425984x4x8_S425984x8x4x8_S425984x4x4x8_2_1_1_23_0_0.lhsBatch by decide)]
  rfl

theorem lhs_d1_1 (i : S425984x4x4x8.Idx) (q : dot_S425984x4x8_S425984x8x4x8_S425984x4x4x8_2_1_1_23_0_0.contr.Idx) :
    (dot_S425984x4x8_S425984x8x4x8_S425984x4x4x8_2_1_1_23_0_0.lhsIdx i q 1).val = (i 1).val := by
  unfold DotDims.lhsIdx
  rw [dif_neg (show ¬(1 : Fin S425984x4x8.rank) ∈ dot_S425984x4x8_S425984x8x4x8_S425984x4x4x8_2_1_1_23_0_0.lhsBatch by decide), dif_pos (show (1 : Fin S425984x4x8.rank) ∈ dot_S425984x4x8_S425984x8x4x8_S425984x4x4x8_2_1_1_23_0_0.lhsNonContracting by decide)]
  rfl

theorem lhs_d1_2 (i : S425984x4x4x8.Idx) (q : dot_S425984x4x8_S425984x8x4x8_S425984x4x4x8_2_1_1_23_0_0.contr.Idx) :
    (dot_S425984x4x8_S425984x8x4x8_S425984x4x4x8_2_1_1_23_0_0.lhsIdx i q 2).val = (q ⟨0, by decide⟩).val :=
  dot_S425984x4x8_S425984x8x4x8_S425984x4x4x8_2_1_1_23_0_0.lhsIdx_val_of_single rfl i q

theorem rhs_d1_0 (i : S425984x4x4x8.Idx) (q : dot_S425984x4x8_S425984x8x4x8_S425984x4x4x8_2_1_1_23_0_0.contr.Idx) :
    (dot_S425984x4x8_S425984x8x4x8_S425984x4x4x8_2_1_1_23_0_0.rhsIdx i q 0).val = (i 0).val := by
  unfold DotDims.rhsIdx
  rw [dif_pos (show (0 : Fin S425984x8x4x8.rank) ∈ dot_S425984x4x8_S425984x8x4x8_S425984x4x4x8_2_1_1_23_0_0.rhsBatch by decide)]
  rfl

theorem rhs_d1_1 (i : S425984x4x4x8.Idx) (q : dot_S425984x4x8_S425984x8x4x8_S425984x4x4x8_2_1_1_23_0_0.contr.Idx) :
    (dot_S425984x4x8_S425984x8x4x8_S425984x4x4x8_2_1_1_23_0_0.rhsIdx i q 1).val = (q ⟨0, by decide⟩).val :=
  dot_S425984x4x8_S425984x8x4x8_S425984x4x4x8_2_1_1_23_0_0.rhsIdx_val_of_single rfl i q

theorem rhs_d1_2 (i : S425984x4x4x8.Idx) (q : dot_S425984x4x8_S425984x8x4x8_S425984x4x4x8_2_1_1_23_0_0.contr.Idx) :
    (dot_S425984x4x8_S425984x8x4x8_S425984x4x4x8_2_1_1_23_0_0.rhsIdx i q 2).val = (i 2).val := by
  unfold DotDims.rhsIdx
  rw [dif_neg (show ¬(2 : Fin S425984x8x4x8.rank) ∈ dot_S425984x4x8_S425984x8x4x8_S425984x4x4x8_2_1_1_23_0_0.rhsBatch by decide), dif_pos (show (2 : Fin S425984x8x4x8.rank) ∈ dot_S425984x4x8_S425984x8x4x8_S425984x4x4x8_2_1_1_23_0_0.rhsNonContracting by decide)]
  rfl

theorem rhs_d1_3 (i : S425984x4x4x8.Idx) (q : dot_S425984x4x8_S425984x8x4x8_S425984x4x4x8_2_1_1_23_0_0.contr.Idx) :
    (dot_S425984x4x8_S425984x8x4x8_S425984x4x4x8_2_1_1_23_0_0.rhsIdx i q 3).val = (i 3).val := by
  unfold DotDims.rhsIdx
  rw [dif_neg (show ¬(3 : Fin S425984x8x4x8.rank) ∈ dot_S425984x4x8_S425984x8x4x8_S425984x4x4x8_2_1_1_23_0_0.rhsBatch by decide), dif_pos (show (3 : Fin S425984x8x4x8.rank) ∈ dot_S425984x4x8_S425984x8x4x8_S425984x4x4x8_2_1_1_23_0_0.rhsNonContracting by decide)]
  rfl

/-- Entry (t, a, b, s) of the first contraction: the sum over the first rank index k of l (t, a, k) · r (t, k, b, s). -/
theorem dot1_apply (l : FVec Ideal S425984x4x8 .f32) (r : FVec Ideal S425984x8x4x8 .f32) (t : Fin 425984) (a b : Fin 4) (s : Fin 8) :
    Host.dotGeneral dot_S425984x4x8_S425984x8x4x8_S425984x4x4x8_2_1_1_23_0_0 none l r (ix4 t a b s) = ∑ k : Fin 8, l (ix3 t a k) * r (ix4 t k b s) := by
  simp only [Host.dotGeneral]
  rw [Ideal.dotGeneral_apply, ← Equiv.sum_comp (contrEquiv1 dot_S425984x4x8_S425984x8x4x8_S425984x4x4x8_2_1_1_23_0_0 8 rfl rfl).symm]
  refine Finset.sum_congr rfl fun k _ => ?_
  have hk := contrEquiv1_symm_val dot_S425984x4x8_S425984x8x4x8_S425984x4x4x8_2_1_1_23_0_0 8 rfl rfl k
  have el : dot_S425984x4x8_S425984x8x4x8_S425984x4x4x8_2_1_1_23_0_0.lhsIdx (ix4 t a b s) ((contrEquiv1 dot_S425984x4x8_S425984x8x4x8_S425984x4x4x8_2_1_1_23_0_0 8 rfl rfl).symm k) = ix3 t a k := funext fun c => Fin.ext (by
    match c with
    | ⟨0, _⟩ => exact lhs_d1_0 _ _
    | ⟨1, _⟩ => exact lhs_d1_1 _ _
    | ⟨2, _⟩ => exact (lhs_d1_2 _ _).trans hk)
  have er : dot_S425984x4x8_S425984x8x4x8_S425984x4x4x8_2_1_1_23_0_0.rhsIdx (ix4 t a b s) ((contrEquiv1 dot_S425984x4x8_S425984x8x4x8_S425984x4x4x8_2_1_1_23_0_0 8 rfl rfl).symm k) = ix4 t k b s := funext fun c => Fin.ext (by
    match c with
    | ⟨0, _⟩ => exact rhs_d1_0 _ _
    | ⟨1, _⟩ => exact (rhs_d1_1 _ _).trans hk
    | ⟨2, _⟩ => exact rhs_d1_2 _ _
    | ⟨3, _⟩ => exact rhs_d1_3 _ _)
  rw [el, er]

/-! ## The second contraction: [T, 16, 8] with [T, 8, 4, 1] over the rank axis -/

theorem lhs_d2_0 (i : S425984x16x4x1.Idx) (q : dot_S425984x16x8_S425984x8x4x1_S425984x16x4x1_2_1_1_23_0_0.contr.Idx) :
    (dot_S425984x16x8_S425984x8x4x1_S425984x16x4x1_2_1_1_23_0_0.lhsIdx i q 0).val = (i 0).val := by
  unfold DotDims.lhsIdx
  rw [dif_pos (show (0 : Fin S425984x16x8.rank) ∈ dot_S425984x16x8_S425984x8x4x1_S425984x16x4x1_2_1_1_23_0_0.lhsBatch by decide)]
  rfl

theorem lhs_d2_1 (i : S425984x16x4x1.Idx) (q : dot_S425984x16x8_S425984x8x4x1_S425984x16x4x1_2_1_1_23_0_0.contr.Idx) :
    (dot_S425984x16x8_S425984x8x4x1_S425984x16x4x1_2_1_1_23_0_0.lhsIdx i q 1).val = (i 1).val := by
  unfold DotDims.lhsIdx
  rw [dif_neg (show ¬(1 : Fin S425984x16x8.rank) ∈ dot_S425984x16x8_S425984x8x4x1_S425984x16x4x1_2_1_1_23_0_0.lhsBatch by decide), dif_pos (show (1 : Fin S425984x16x8.rank) ∈ dot_S425984x16x8_S425984x8x4x1_S425984x16x4x1_2_1_1_23_0_0.lhsNonContracting by decide)]
  rfl

theorem lhs_d2_2 (i : S425984x16x4x1.Idx) (q : dot_S425984x16x8_S425984x8x4x1_S425984x16x4x1_2_1_1_23_0_0.contr.Idx) :
    (dot_S425984x16x8_S425984x8x4x1_S425984x16x4x1_2_1_1_23_0_0.lhsIdx i q 2).val = (q ⟨0, by decide⟩).val :=
  dot_S425984x16x8_S425984x8x4x1_S425984x16x4x1_2_1_1_23_0_0.lhsIdx_val_of_single rfl i q

theorem rhs_d2_0 (i : S425984x16x4x1.Idx) (q : dot_S425984x16x8_S425984x8x4x1_S425984x16x4x1_2_1_1_23_0_0.contr.Idx) :
    (dot_S425984x16x8_S425984x8x4x1_S425984x16x4x1_2_1_1_23_0_0.rhsIdx i q 0).val = (i 0).val := by
  unfold DotDims.rhsIdx
  rw [dif_pos (show (0 : Fin S425984x8x4x1.rank) ∈ dot_S425984x16x8_S425984x8x4x1_S425984x16x4x1_2_1_1_23_0_0.rhsBatch by decide)]
  rfl

theorem rhs_d2_1 (i : S425984x16x4x1.Idx) (q : dot_S425984x16x8_S425984x8x4x1_S425984x16x4x1_2_1_1_23_0_0.contr.Idx) :
    (dot_S425984x16x8_S425984x8x4x1_S425984x16x4x1_2_1_1_23_0_0.rhsIdx i q 1).val = (q ⟨0, by decide⟩).val :=
  dot_S425984x16x8_S425984x8x4x1_S425984x16x4x1_2_1_1_23_0_0.rhsIdx_val_of_single rfl i q

theorem rhs_d2_2 (i : S425984x16x4x1.Idx) (q : dot_S425984x16x8_S425984x8x4x1_S425984x16x4x1_2_1_1_23_0_0.contr.Idx) :
    (dot_S425984x16x8_S425984x8x4x1_S425984x16x4x1_2_1_1_23_0_0.rhsIdx i q 2).val = (i 2).val := by
  unfold DotDims.rhsIdx
  rw [dif_neg (show ¬(2 : Fin S425984x8x4x1.rank) ∈ dot_S425984x16x8_S425984x8x4x1_S425984x16x4x1_2_1_1_23_0_0.rhsBatch by decide), dif_pos (show (2 : Fin S425984x8x4x1.rank) ∈ dot_S425984x16x8_S425984x8x4x1_S425984x16x4x1_2_1_1_23_0_0.rhsNonContracting by decide)]
  rfl

theorem rhs_d2_3 (i : S425984x16x4x1.Idx) (q : dot_S425984x16x8_S425984x8x4x1_S425984x16x4x1_2_1_1_23_0_0.contr.Idx) :
    (dot_S425984x16x8_S425984x8x4x1_S425984x16x4x1_2_1_1_23_0_0.rhsIdx i q 3).val = (i 3).val := by
  unfold DotDims.rhsIdx
  rw [dif_neg (show ¬(3 : Fin S425984x8x4x1.rank) ∈ dot_S425984x16x8_S425984x8x4x1_S425984x16x4x1_2_1_1_23_0_0.rhsBatch by decide), dif_pos (show (3 : Fin S425984x8x4x1.rank) ∈ dot_S425984x16x8_S425984x8x4x1_S425984x16x4x1_2_1_1_23_0_0.rhsNonContracting by decide)]
  rfl

/-- Entry (t, p, c, u) of the second contraction: the sum over the second rank index k of l (t, p, k) · r (t, k, c, u). -/
theorem dot2_apply (l : FVec Ideal S425984x16x8 .f32) (r : FVec Ideal S425984x8x4x1 .f32) (t : Fin 425984) (p : Fin 16) (c : Fin 4) (u : Fin 1) :
    Host.dotGeneral dot_S425984x16x8_S425984x8x4x1_S425984x16x4x1_2_1_1_23_0_0 none l r (ix4 t p c u) = ∑ k : Fin 8, l (ix3 t p k) * r (ix4 t k c u) := by
  simp only [Host.dotGeneral]
  rw [Ideal.dotGeneral_apply, ← Equiv.sum_comp (contrEquiv1 dot_S425984x16x8_S425984x8x4x1_S425984x16x4x1_2_1_1_23_0_0 8 rfl rfl).symm]
  refine Finset.sum_congr rfl fun k _ => ?_
  have hk := contrEquiv1_symm_val dot_S425984x16x8_S425984x8x4x1_S425984x16x4x1_2_1_1_23_0_0 8 rfl rfl k
  have el : dot_S425984x16x8_S425984x8x4x1_S425984x16x4x1_2_1_1_23_0_0.lhsIdx (ix4 t p c u) ((contrEquiv1 dot_S425984x16x8_S425984x8x4x1_S425984x16x4x1_2_1_1_23_0_0 8 rfl rfl).symm k) = ix3 t p k := funext fun c => Fin.ext (by
    match c with
    | ⟨0, _⟩ => exact lhs_d2_0 _ _
    | ⟨1, _⟩ => exact lhs_d2_1 _ _
    | ⟨2, _⟩ => exact (lhs_d2_2 _ _).trans hk)
  have er : dot_S425984x16x8_S425984x8x4x1_S425984x16x4x1_2_1_1_23_0_0.rhsIdx (ix4 t p c u) ((contrEquiv1 dot_S425984x16x8_S425984x8x4x1_S425984x16x4x1_2_1_1_23_0_0 8 rfl rfl).symm k) = ix4 t k c u := funext fun c => Fin.ext (by
    match c with
    | ⟨0, _⟩ => exact rhs_d2_0 _ _
    | ⟨1, _⟩ => exact (rhs_d2_1 _ _).trans hk
    | ⟨2, _⟩ => exact rhs_d2_2 _ _
    | ⟨3, _⟩ => exact rhs_d2_3 _ _)
  rw [el, er]

end Cert.Proof.Ref

end
-- ==== Proof.RefStagesE.lean ====
/-
  The stages composed. First the integer chain's three vector forms — the floor division by a scalar, the floor remainder
  by a scalar, the wrap of a negative index — read on one lane as the word functions of RefStagesA (by computation: every
  operation in them is lanewise). Then the two contractions with the reshapes around them, read at an index (b, f, e) of
  the result: the double sum over the two rank axes of the three gathered operands at token 26 b + f and at the column's
  digits (e / 16, (e / 4) % 4, e % 4).
-/
import proofs.«207215_g13752485282153_cont_week2b_1454_30_alg».proof.Proof.RefStagesA
import proofs.«207215_g13752485282153_cont_week2b_1454_30_alg».proof.Proof.RefStagesC
import proofs.«207215_g13752485282153_cont_week2b_1454_30_alg».proof.Proof.RefStagesD

noncomputable section

namespace Cert.Proof.Ref

open Idealize.ShloMosaic Idealize.ShloMosaic.ValueIdx
open Cert.ReferenceIdeal

variable {α : Type}

/-! ## The integer chain on one lane -/

/-- The floor division of a vector by the scalar `d`, on lane `i`. -/
theorem floorDiv_lane (x : IVec S425984 32) (d : BitVec 32) (hb : S_.BroadcastsInDim S425984 ![]) (i : S425984.Idx) :
    (select (andi (cmpi .ne (signi x) (broadcastInDim S425984 ![] hb (signi (id (constantI S_ 32 d))))) (cmpi .ne (Host.remsi x (broadcastInDim S425984 ![] hb (id (constantI S_ 32 d)))) (broadcastInDim S425984 ![] hb (constantI S_ 32 0#32)))) (subi (Host.divsi x (broadcastInDim S425984 ![] hb (id (constantI S_ 32 d)))) (broadcastInDim S425984 ![] hb (constantI S_ 32 1#32))) (Host.divsi x (broadcastInDim S425984 ![] hb (id (constantI S_ 32 d))))) i = fdivW (x i) d := rfl

/-- The floor remainder of a vector by the scalar `d`, on lane `i`. -/
theorem floorRem_lane (x : IVec S425984 32) (d : BitVec 32) (hb : S_.BroadcastsInDim S425984 ![]) (i : S425984.Idx) :
    (select (andi (cmpi .ne (cmpi .slt (Host.remsi x (broadcastInDim S425984 ![] hb (select (cmpi .eq (id (constantI S_ 32 d)) (constantI S_ 32 0#32)) (constantI S_ 32 1#32) (id (constantI S_ 32 d))))) (broadcastInDim S425984 ![] hb (constantI S_ 32 0#32))) (broadcastInDim S425984 ![] hb (cmpi .slt (select (cmpi .eq (id (constantI S_ 32 d)) (constantI S_ 32 0#32)) (constantI S_ 32 1#32) (id (constantI S_ 32 d))) (constantI S_ 32 0#32)))) (cmpi .ne (Host.remsi x (broadcastInDim S425984 ![] hb (select (cmpi .eq (id (constantI S_ 32 d)) (constantI S_ 32 0#32)) (constantI S_ 32 1#32) (id (constantI S_ 32 d))))) (broadcastInDim S425984 ![] hb (constantI S_ 32 0#32)))) (addi (Host.remsi x (broadcastInDim S425984 ![] hb (select (cmpi .eq (id (constantI S_ 32 d)) (constantI S_ 32 0#32)) (constantI S_ 32 1#32) (id (constantI S_ 32 d))))) (broadcastInDim S425984 ![] hb (select (cmpi .eq (id (constantI S_ 32 d)) (constantI S_ 32 0#32)) (constantI S_ 32 1#32) (id (constantI S_ 32 d))))) (Host.remsi x (broadcastInDim S425984 ![] hb (select (cmpi .eq (id (constantI S_ 32 d)) (constantI S_ 32 0#32)) (constantI S_ 32 1#32) (id (constantI S_ 32 d)))))) i = remW (x i) d := rfl

/-- The wrap of a negative index by 100, on lane `i`. -/
theorem wrap_lane (x : IVec S425984 32) (hb : S_.BroadcastsInDim S425984 ![]) (i : S425984.Idx) :
    (select (cmpi .slt x (broadcastInDim S425984 ![] hb (constantI S_ 32 0#32))) (addi x (broadcastInDim S425984 ![] hb (constantI S_ 32 100#32))) x) i = normW (x i) := rfl

/-! ## The reshapes between the contractions, the caller naming the split coordinates -/

/-- The [425984, 64] array at (t, e) is the [425984, 16, 4, 1] array at (t, p, c, 0) with p = e / 4 and c = e % 4. -/
theorem cols64_at (x : S425984x16x4x1.Idx → α) (h : S425984x16x4x1.ShapeCasts S425984x64) (t : Fin 425984) (e : Fin 64)
    (p : Fin 16) (c : Fin 4) (hp : p.val = e.val / 4) (hc : c.val = e.val % 4) :
    shapeCast S425984x64 x h (ix2 t e) = x (ix4 t p c (0 : Fin 1)) :=
  shapeCast_apply x h _ _ (by
    rw [Shape.rowMajor_val_four, Shape.rowMajor_val_two]
    show ((t.val * 16 + p.val) * 4 + c.val) * 1 + 0 = t.val * 64 + e.val
    omega)

/-- The [425984, 16, 8] array at (t, p, s) is the [425984, 4, 4, 8] array at (t, a, b, s) with a = p / 4 and b = p % 4. -/
theorem cols16_at (x : S425984x4x4x8.Idx → α) (h : S425984x4x4x8.ShapeCasts S425984x16x8) (t : Fin 425984) (p : Fin 16) (s : Fin 8)
    (a b : Fin 4) (ha : a.val = p.val / 4) (hb : b.val = p.val % 4) :
    shapeCast S425984x16x8 x h (ix3 t p s) = x (ix4 t a b s) :=
  shapeCast_apply x h _ _ (by
    rw [Shape.rowMajor_val_four, Shape.rowMajor_val_three]
    show ((t.val * 4 + a.val) * 4 + b.val) * 8 + s.val = (t.val * 16 + p.val) * 8 + s.val
    omega)

/-! ## The two contractions and the reshapes around them -/

/-- Entry (b, f, e) of the reshaped second contraction of the reshaped first: with t = 26 b + f,
    ∑ r₂, (∑ r₁, g₁ (t, e / 16, r₁) · g₂ (t, r₁, (e / 4) % 4, r₂)) · g₃ (t, r₂, e % 4, 0). -/
theorem contraction_apply (g1 : FVec Ideal S425984x4x8 .f32) (g2 : FVec Ideal S425984x8x4x8 .f32) (g3 : FVec Ideal S425984x8x4x1 .f32)
    (h33 : S425984x4x4x8.ShapeCasts S425984x16x8) (h35 : S425984x16x4x1.ShapeCasts S425984x64) (h36 : S425984x64.ShapeCasts S16384x26x64)
    (b : Fin 16384) (f : Fin 26) (e : Fin 64) :
    shapeCast S16384x26x64 (shapeCast S425984x64 (Host.dotGeneral (F := Ideal) dot_S425984x16x8_S425984x8x4x1_S425984x16x4x1_2_1_1_23_0_0 none
        (shapeCast S425984x16x8 (Host.dotGeneral (F := Ideal) dot_S425984x4x8_S425984x8x4x8_S425984x4x4x8_2_1_1_23_0_0 none g1 g2) h33) g3) h35) h36 (ix3 b f e)
      = ∑ r2 : Fin 8, (∑ r1 : Fin 8, g1 (ix3 (tok b f) (⟨(e.val / 16) % 4, Nat.mod_lt _ (by decide)⟩ : Fin 4) r1) * g2 (ix4 (tok b f) r1 (⟨(e.val / 4) % 4, Nat.mod_lt _ (by decide)⟩ : Fin 4) r2))
          * g3 (ix4 (tok b f) r2 (⟨e.val % 4, Nat.mod_lt _ (by decide)⟩ : Fin 4) (0 : Fin 1)) := by
  have he := e.isLt
  rw [unflat_apply, cols64_at _ _ _ _ (⟨e.val / 4, by omega⟩ : Fin 16) (⟨e.val % 4, Nat.mod_lt _ (by decide)⟩ : Fin 4) rfl rfl, dot2_apply]
  refine Finset.sum_congr rfl fun r2 _ => ?_
  rw [cols16_at _ _ _ _ _ (⟨(e.val / 16) % 4, Nat.mod_lt _ (by decide)⟩ : Fin 4) (⟨(e.val / 4) % 4, Nat.mod_lt _ (by decide)⟩ : Fin 4) (by show e.val / 16 % 4 = e.val / 4 / 4; omega) rfl, dot1_apply]

end Cert.Proof.Ref

end
-- ==== Proof.RefValue.lean ====
/-
  The reference's value: entry (b, f, e) of the reference's result, as a pure term of the four argument arrays, is the
  specification's embedding of the index word at (b, f) at column e, when every index word lies in [0, 999999].
  The result's entry is read through the three reshapes and the two contractions down to the three gathered operands at
  token 26 b + f; each gather's start word is the integer chain of that token's index word n — n / 10000, (n / 100) % 100,
  n % 100, each below 100, so the clamp into [0, 99] leaves it — and the gathered slabs are the cores' (the second and
  third through their transposes).
-/
import proofs.«207215_g13752485282153_cont_week2b_1454_30_alg».proof.Proof.RefTerm
import proofs.«207215_g13752485282153_cont_week2b_1454_30_alg».proof.Proof.Spec
import proofs.«207215_g13752485282153_cont_week2b_1454_30_alg».proof.Proof.RefStagesA
import proofs.«207215_g13752485282153_cont_week2b_1454_30_alg».proof.Proof.RefStagesB
import proofs.«207215_g13752485282153_cont_week2b_1454_30_alg».proof.Proof.RefStagesD
import proofs.«207215_g13752485282153_cont_week2b_1454_30_alg».proof.Proof.RefStagesE

noncomputable section

namespace Cert.Proof.Ref

open Idealize.ShloMosaic Idealize.ShloMosaic.ValueIdx Idealize.ShloMosaic.StableHlo.Predicate
open Cert.ReferenceIdeal

/-- A word below 100, read signed and clamped into [0, 99], is itself. -/
theorem clamp_ofNat (k : ℕ) (hk : k < 100) : min (BitVec.ofNat 32 k).toInt.toNat 99 = k % 100 := by
  rw [toInt_ofNat_small k (by omega), Int.toNat_natCast]
  omega

/-- The first digit's start word: the wrapped floor quotient by 10000 of a word n ≤ 999999 is n / 10000. -/
theorem digit1_word (n : ℕ) (hn : n ≤ 999999) :
    min (normW (fdivW (BitVec.ofNat 32 n) 10000#32)).toInt.toNat 99 = n / 10000 % 100 := by
  rw [fdivW_ofNat n 10000 (by omega) (by omega) (by omega), normW_ofNat _ (by omega), clamp_ofNat _ (by omega)]

/-- The second digit's start word: the wrapped floor remainder by 100 of the floor quotient by 100 is (n / 100) % 100. -/
theorem digit2_word (n : ℕ) (hn : n ≤ 999999) :
    min (normW (remW (fdivW (BitVec.ofNat 32 n) 100#32) 100#32)).toInt.toNat 99 = n / 100 % 100 := by
  have hm : n / 100 % 100 < 100 := Nat.mod_lt _ (by decide)
  rw [fdivW_ofNat n 100 (by omega) (by omega) (by omega), remW_ofNat _ 100 (by omega) (by omega) (by omega),
    normW_ofNat _ (by omega), clamp_ofNat _ hm, Nat.mod_eq_of_lt hm]

/-- The third digit's start word: the wrapped floor remainder by 100 is n % 100. -/
theorem digit3_word (n : ℕ) (hn : n ≤ 999999) :
    min (normW (remW (BitVec.ofNat 32 n) 100#32)).toInt.toNat 99 = n % 100 := by
  have hm : n % 100 < 100 := Nat.mod_lt _ (by decide)
  rw [remW_ofNat n 100 (by omega) (by omega) (by omega), normW_ofNat _ (by omega), clamp_ofNat _ hm, Nat.mod_eq_of_lt hm]

/-- THE REFERENCE'S VALUE. -/
theorem out_eq_spec (a0 : IVec Cert.ReferenceIdeal.S16384x26 32) (a1 : FVec Ideal Cert.ReferenceIdeal.S1x100x4x8 .f32)
    (a2 : FVec Ideal Cert.ReferenceIdeal.S8x100x4x8 .f32) (a3 : FVec Ideal Cert.ReferenceIdeal.S8x100x4x1 .f32)
    (h : ∀ j, 0 ≤ (a0 j).toInt ∧ (a0 j).toInt ≤ 999999) :
    Cert.Proof.Ref.out a0 a1 a2 a3 = Cert.Proof.Spec.G a0 a1 a2 a3 := by
  funext j
  obtain ⟨b, f, e, rfl⟩ : ∃ (b : Fin 16384) (f : Fin 26) (e : Fin 64), j = ix3 b f e := ⟨j 0, j 1, j 2, eq_ix3 j⟩
  -- the index word at (b, f) is the word of a natural number n ≤ 999999
  obtain ⟨hn, -, hti⟩ := eq_ofNat_of_toInt (a0 (ix2 b f)) (h _).1
  have hle : (a0 (ix2 b f)).toNat ≤ 999999 := by have := (h (ix2 b f)).2; omega
  show _ = Spec.emb a1 a2 a3 (a0 (ix2 b f)).toNat e.val
  generalize (a0 (ix2 b f)).toNat = n at hn hle
  clear hti
  unfold out
  simp only []
  rw [contraction_apply]
  unfold Spec.emb
  refine Finset.sum_congr rfl fun r2 _ => ?_
  congr 1
  · refine Finset.sum_congr rfl fun r1 _ => ?_
    congr 1
    · refine gatherA_apply a1 _ (tok b f) _ r1 (⟨n / 10000 % 100, Nat.mod_lt _ (by decide)⟩ : Fin 100) ?_
      rw [cat_apply_1, col_apply, wrap_lane, floorDiv_lane, flat_apply, hn]
      exact digit1_word n hle
    · rw [gatherB_apply _ _ (tok b f) r1 _ r2 (⟨n / 100 % 100, Nat.mod_lt _ (by decide)⟩ : Fin 100) (by
        rw [col_apply, wrap_lane, floorRem_lane, floorDiv_lane, flat_apply, hn]
        exact digit2_word n hle), transB_apply]
  · rw [gatherC_apply _ _ (tok b f) r2 _ (0 : Fin 1) (⟨n % 100, Nat.mod_lt _ (by decide)⟩ : Fin 100) (by
      rw [col_apply, wrap_lane, floorRem_lane, flat_apply, hn]
      exact digit3_word n hle), transC_apply]

end Cert.Proof.Ref

end
-- ==== Proof.Assemble.lean ====
/-
  The certificate's five claims from the pieces. The three frames are the three programs' runs with the value dropped.
  The ledger's twenty-four entries are one statement: the named hundredth denotes 1/100 at the ideal instance. For the
  algebraic claim the common result is the specification of the launch memory's four arrays: the idealized kernel leaves,
  reshaped, a flat result on which every one of the 32 subcores has done its work over the host-built tables, which is
  the specification; the idealized reference leaves its pure term of arrays that agree with the kernel's, which is the
  specification too. Both need only the index range, which the precondition states.
-/
import proofs.«207215_g13752485282153_cont_week2b_1454_30_alg».proof.Defs
import proofs.«207215_g13752485282153_cont_week2b_1454_30_alg».proof.Proof.Gen.Kernel
import proofs.«207215_g13752485282153_cont_week2b_1454_30_alg».proof.Proof.Gen.KernelIdeal
import proofs.«207215_g13752485282153_cont_week2b_1454_30_alg».proof.Proof.Gen.ReferenceIdeal
import proofs.«207215_g13752485282153_cont_week2b_1454_30_alg».proof.Proof.Gen.Pre_input_domain
import proofs.«207215_g13752485282153_cont_week2b_1454_30_alg».proof.Proof.Launch
import proofs.«207215_g13752485282153_cont_week2b_1454_30_alg».proof.Proof.LaunchB
import proofs.«207215_g13752485282153_cont_week2b_1454_30_alg».proof.Proof.TileWrap
import proofs.«207215_g13752485282153_cont_week2b_1454_30_alg».proof.Proof.TileWrapB
import proofs.«207215_g13752485282153_cont_week2b_1454_30_alg».proof.Proof.TileRunProof
import proofs.«207215_g13752485282153_cont_week2b_1454_30_alg».proof.Proof.TileRunProofB
import proofs.«207215_g13752485282153_cont_week2b_1454_30_alg».proof.Proof.KernelHost
import proofs.«207215_g13752485282153_cont_week2b_1454_30_alg».proof.Proof.HundredthIdeal
import proofs.«207215_g13752485282153_cont_week2b_1454_30_alg».proof.Proof.LibF32Hundredth
import proofs.«207215_g13752485282153_cont_week2b_1454_30_alg».proof.Proof.PreDecode
import proofs.«207215_g13752485282153_cont_week2b_1454_30_alg».proof.Proof.RefRun
import proofs.«207215_g13752485282153_cont_week2b_1454_30_alg».proof.Proof.RefValue

noncomputable section

namespace Cert.Proof.Assemble

open Idealize.ShloMosaic Idealize.SL.Sem
open Cert.Proof

/-! ## The index range, from the printed precondition -/

theorem preOK_KI (m : (ℓ : Loc Cert.KernelIdeal.nD Cert.KernelIdeal.τ Cert.KernelIdeal.sig) → Buf (Elt Ideal) ℓ) (h : Cert.Pre_KernelIdeal m) : KI.PreOK (F := Ideal) m :=
  fun d => Pre.idx_range _ _ _ _ (h d)

theorem preOK_KB (m : (ℓ : Loc Cert.Kernel.nD Cert.Kernel.τ Cert.Kernel.sig) → Buf (Elt Bits) ℓ) (h : Cert.Pre_Kernel m) : KB.PreOK m :=
  fun d => Pre.idx_range _ _ _ _ (h d)

/-! ## The tile body, for both kernel programs -/

theorem tileOK_KI : KI.TileBodyOK Ideal := KI.tileBodyOK KI.tile_run_ok

theorem tileOK_KB : KB.TileBodyOK Bits := KB.tileBodyOK KB.tile_run_ok

/-! ## The three frames: each program's run with the value dropped -/

theorem frame_K : Cert.frame_Kernel := fun m g hpre =>
  (θ_run (Cert.Kernel.defs (F := Bits)) _ _).mono (fun _ h c => (h c).2) (KB.run_main m g tileOK_KB Hundredth.bits (preOK_KB m hpre))

theorem frame_KI : Cert.frame_KernelIdeal := fun m g hpre =>
  (θ_run (Cert.KernelIdeal.defs (F := Ideal)) _ _).mono (fun _ h c => (h c).2) (KI.run_main (F := Ideal) m g tileOK_KI Hundredth.ideal (preOK_KI m hpre))

theorem frame_R : Cert.frame_ReferenceIdeal := fun m g _ =>
  (θ_run (Cert.ReferenceIdeal.defs (F := Ideal)) _ _).mono (fun _ h c => (h c).2) (Ref.run m g)

/-! ## The ledger: twenty-four times the named hundredth -/

theorem preserves : Cert.preserves_Kernel_KernelIdeal :=
  ⟨IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl,
   IdealRules.named_const.statement Cert.KernelIdeal.κ "inv_100" .f32 0x3C23D70A#32 ((1 / 100 : ℝ) : EReal) rfl⟩

/-! ## The kernel's value: every subcore's words, reshaped, are the specification -/

open Cert.KernelIdeal in
theorem kernel_value (a0 : IVec S16384x26 32) (a1 : Vec Ideal S1x100x4x8 .f32) (a2 : Vec Ideal S8x100x4x8 .f32) (a3 : Vec Ideal S8x100x4x1 .f32)
    (hidx : ∀ j, 0 ≤ (a0 j).toInt ∧ (a0 j).toInt ≤ 999999) (f : Vec Ideal S27262976 .f32)
    (hf : ∀ L : grid1.Coords, TileSpec.OutOK (F := Ideal) (KV.hostIdx a0) (KV.hostPT a1 a2) (KV.hostCT a3) (KI.wid L) f) :
    shapeCast S16384x26x64 f Cert.KernelIdeal.Facts₀.shapeCasts_S27262976_S16384x26x64 = Spec.G a0 a1 a2 a3 := by
  rw [KV.hostPT_eq, KV.hostCT_eq] at hf
  refine KV.out_eq_G a0 a1 a2 a3 f hidx fun w hw => ?_
  have h := hf (KI.coordsV (⟨w % 2, Nat.mod_lt _ (by decide)⟩ : Fin 2) (⟨w / 2, by omega⟩ : Fin 16))
  have e : KI.wid (KI.coordsV (⟨w % 2, Nat.mod_lt _ (by decide)⟩ : Fin 2) (⟨w / 2, by omega⟩ : Fin 16)) = w := by
    show 2 * (w / 2) + w % 2 = w
    omega
  rw [e] at h
  exact h

/-! ## The two idealized programs end with equal results -/

theorem algebraic : Cert.algebraic_KernelIdeal_ReferenceIdeal := by
  intro m g m' g' hpre hagree
  have hidx := fun c => Pre.idx_range _ _ _ _ (hpre c)
  refine ⟨fun c => Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run (Cert.KernelIdeal.defs (F := Ideal)) _ _).mono (fun r h c => ?_) (KI.run_main (F := Ideal) m g tileOK_KI Hundredth.ideal (preOK_KI m hpre))
    obtain ⟨⟨f, hf, h24⟩, hargs⟩ := h c
    exact ⟨h24.trans (kernel_value _ _ _ _ (hidx c) f hf), hargs⟩
  · refine (θ_run (Cert.ReferenceIdeal.defs (F := Ideal)) _ _).mono (fun r h c => ⟨(h c).1.trans ?_, (h c).2⟩) (Ref.run m' g')
    rw [(hagree c).1, (hagree c).2.1, (hagree c).2.2.1, (hagree c).2.2.2]
    exact Ref.out_eq_spec _ _ _ _ (hidx c)

end Cert.Proof.Assemble

end
-- ==== Proof.lean ====
/- The proof of `Cert.Claim`: the word-level kernel program and its idealization run to the end without fault from every
   input in the stated domain (index words in [0, 10⁶), finite tables), the idealization differs from the word-level
   program only in its one named constant (one hundredth), and on the extended reals the idealized kernel and the
   idealized reference compute the same array.

   The function. An index word n names the row (n / 10000, (n / 100) % 100, n % 100) of a 100 × 100 × 100 table and
   an output column e the triple (e / 16, (e / 4) % 4, e % 4); the embedding is the tensor-train contraction
     W[n, e] = ∑ r₂, (∑ r₁, core0[0, i₁, j₁, r₁] · core1[r₁, i₂, j₂, r₂]) · core2[r₂, i₃, j₃, 0]   (Proof/Spec.lean).
   The reference gathers the three cores' rows and contracts them with two batched dot products
   (Proof/RefTerm, RefRun, RefStages*, RefValue). The kernel's host part contracts the first two cores once into a
   10000 × 128 table of pairs — a 100 × 32 by 32 × 12800 product whose right factor carries the second core against a
   4 × 4 identity, so that each entry is a 32-term sum of which 24 terms are 0 · x — and lays the third core out 33
   words a digit (Proof/KernelTables, KernelHost); the 32 vector subcores then, token by token, split the index word
   into n / 100 and n % 100 — the quotient as the integer part of (n + 1/2) · (1/100), which is exact on the reals
   and, in binary32, still lands strictly between n / 100 and n / 100 + 1 (Proof/Hundredth*, LibF32Hundredth) —
   gather the pair-table row, and sum eight products per output word, the rank axis rotated by the lane
   (Proof/TileSpec, Compute*). No product is distributed over a sum and nothing is cancelled: the value equality
   uses commutativity and associativity of + and ·, 0 · x = 0 and x + 0 = x only, hence no finiteness.

   The frames. Each subcore's run is one proof over a symbolic subcore (Proof/TileRunProof: prologue, a 52-trip outer
   loop with a double-buffered invariant, the exit), over the two compute loops' trips (Proof/Compute0, Compute1) and
   the 448 index-range side conditions (Proof/Lanes); the launch (Proof/Launch, Region) hands each subcore read
   shares of the three input arrays and its own 851968 words of the result. The word-level program's copy of these
   modules (the files named …B) is the same text over the other program's names. Proof/Assemble puts the five
   conjuncts together. -/
import proofs.«207215_g13752485282153_cont_week2b_1454_30_alg».proof.Defs
import proofs.«207215_g13752485282153_cont_week2b_1454_30_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Assemble.frame_K, Assemble.frame_KI, Assemble.frame_R, Assemble.preserves, Assemble.algebraic⟩

end Cert.Proof

end
